-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 2, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x2048x1024 : Shape := ⟨3, ![1, 2048, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel

variable [Facts]

def fn {F : FTy → Type} [FloatOps F] (main_arg0 : FVec F S1x2048x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  main_v3
-- ==== Pre_finite_inputs_ReferenceIdeal.lean ====
abbrev S2x2048x1024 : Shape := ⟨3, ![2, 2048, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel

variable [Facts]

def fn {F : FTy → Type} [FloatOps F] (main_arg0 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  main_v3
-- ==== Kernel.lean ====
abbrev S1x2048x1024 : Shape := ⟨3, ![1, 2048, 1024]⟩
abbrev S2048x512 : Shape := ⟨2, ![2048, 512]⟩
abbrev S8x64x512 : Shape := ⟨3, ![8, 64, 512]⟩
abbrev S2x64x512 : Shape := ⟨3, ![2, 64, 512]⟩
abbrev S3x64x512 : Shape := ⟨3, ![3, 64, 512]⟩
abbrev S8 : Shape := ⟨1, ![8]⟩
abbrev S2 : Shape := ⟨1, ![2]⟩
abbrev S3 : Shape := ⟨1, ![3]⟩
abbrev S_ : Shape := ⟨0, ![]⟩
abbrev S1x64x512 : Shape := ⟨3, ![1, 64, 512]⟩
abbrev S64x512 : Shape := ⟨2, ![64, 512]⟩
abbrev S1 : Shape := ⟨1, ![1]⟩

abbrev nBuf : Space → Nat
  | .hbm => 2
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .bf16⟩
  | .local _ .vmem, ⟨0, _⟩ => ⟨S1x2048x1024, .f32⟩
  | .local _ .vmem, ⟨1, _⟩ => ⟨S2048x512, .bf16⟩
  | .local _ .vmem, ⟨2, _⟩ => ⟨S8x64x512, .bf16⟩
  | .local _ .vmem, ⟨3, _⟩ => ⟨S2x64x512, .bf16⟩
  | .local _ .vmem, ⟨4, _⟩ => ⟨S8x64x512, .bf16⟩
  | .local _ .vmem, ⟨5, _⟩ => ⟨S2x64x512, .bf16⟩
  | .local _ .vmem, ⟨6, _⟩ => ⟨S8x64x512, .bf16⟩
  | .local _ .vmem, ⟨7, _⟩ => ⟨S8x64x512, .bf16⟩
  | .local _ .vmem, ⟨8, _⟩ => ⟨S3x64x512, .bf16⟩
  | .local _ .vmem, ⟨9, _⟩ => ⟨S3x64x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_22 : BitVec 32 := 8#32
  let v35 : BitVec 32 := Scalar.muli v10 c8_i32_22
  let v36 : BitVec 32 := Scalar.addi c0_i32 v35
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_23 : BitVec 32 := 4#32
  let v37 : BitVec 32 := Scalar.muli v5 c4_i32_23
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v39 : BitVec 32 := Scalar.muli v8 c1_i32_24
  let v40 : BitVec 32 := Scalar.addi v38 v39
  v40.toNat
def k0_dev2 (d0 : Dev nD) : Nat :=
  let c0_i32_27 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_26 : BitVec 32 := 8#32
  let v41 : BitVec 32 := Scalar.muli v2 c8_i32_26
  let v42 : BitVec 32 := Scalar.addi c0_i32_27 v41
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_28 : BitVec 32 := 4#32
  let v43 : BitVec 32 := Scalar.muli v11 c4_i32_28
  let v44 : BitVec 32 := Scalar.addi v42 v43
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_29 : BitVec 32 := 1#32
  let v45 : BitVec 32 := Scalar.muli v8 c1_i32_29
  let v46 : BitVec 32 := Scalar.addi v44 v45
  v46.toNat
def k0_dev3 (d0 : Dev nD) : Nat :=
  let c0_i32_32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_31 : BitVec 32 := 8#32
  let v47 : BitVec 32 := Scalar.muli v2 c8_i32_31
  let v48 : BitVec 32 := Scalar.addi c0_i32_32 v47
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_33 : BitVec 32 := 4#32
  let v49 : BitVec 32 := Scalar.muli v5 c4_i32_33
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_34 : BitVec 32 := 1#32
  let v51 : BitVec 32 := Scalar.muli v14 c1_i32_34
  let v52 : BitVec 32 := Scalar.addi v50 v51
  v52.toNat
def k0_off1 (d0 : Dev nD) (c0_i32_35 : BitVec 32) : Fin 3 → Nat :=
  let c0 : Index := 0#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c512_i32 : BitVec 32 := 512#32
  let v17 : BitVec 32 := Scalar.muli v16 c512_i32
  let v53 : BitVec 32 := Scalar.addi v17 c0_i32_35
  let v54 : Index := Scalar.indexCast v53
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_19 v2
  let c512_i32_20 : BitVec 32 := 512#32
  let v33 : BitVec 32 := Scalar.muli v32 c512_i32_20
  let v55 : Index := Scalar.indexCast v33
  ![0, v54.toNat, v55.toNat]
def k0_dev4 (d0 : Dev nD) : Nat :=
  let c0_i32_44 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_43 : BitVec 32 := 8#32
  let v62 : BitVec 32 := Scalar.muli v10 c8_i32_43
  let v63 : BitVec 32 := Scalar.addi c0_i32_44 v62
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_45 : BitVec 32 := 4#32
  let v64 : BitVec 32 := Scalar.muli v5 c4_i32_45
  let v65 : BitVec 32 := Scalar.addi v63 v64
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v66 : BitVec 32 := Scalar.muli v8 c1_i32_46
  let v67 : BitVec 32 := Scalar.addi v65 v66
  v67.toNat
def k0_dev5 (d0 : Dev nD) : Nat :=
  let c0_i32_59 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_58 : BitVec 32 := 8#32
  let v85 : BitVec 32 := Scalar.muli v10 c8_i32_58
  let v86 : BitVec 32 := Scalar.addi c0_i32_59 v85
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_60 : BitVec 32 := 4#32
  let v87 : BitVec 32 := Scalar.muli v5 c4_i32_60
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_61 : BitVec 32 := 1#32
  let v89 : BitVec 32 := Scalar.muli v8 c1_i32_61
  let v90 : BitVec 32 := Scalar.addi v88 v89
  v90.toNat
def k0_dev6 (d0 : Dev nD) : Nat :=
  let c0_i32_74 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_73 : BitVec 32 := 8#32
  let v108 : BitVec 32 := Scalar.muli v10 c8_i32_73
  let v109 : BitVec 32 := Scalar.addi c0_i32_74 v108
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_75 : BitVec 32 := 4#32
  let v110 : BitVec 32 := Scalar.muli v5 c4_i32_75
  let v111 : BitVec 32 := Scalar.addi v109 v110
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_76 : BitVec 32 := 1#32
  let v112 : BitVec 32 := Scalar.muli v8 c1_i32_76
  let v113 : BitVec 32 := Scalar.addi v111 v112
  v113.toNat
def k0_dev7 (d0 : Dev nD) : Nat :=
  let c0_i32_89 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_88 : BitVec 32 := 8#32
  let v131 : BitVec 32 := Scalar.muli v10 c8_i32_88
  let v132 : BitVec 32 := Scalar.addi c0_i32_89 v131
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_90 : BitVec 32 := 4#32
  let v133 : BitVec 32 := Scalar.muli v5 c4_i32_90
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v135 : BitVec 32 := Scalar.muli v8 c1_i32_91
  let v136 : BitVec 32 := Scalar.addi v134 v135
  v136.toNat
def k0_dev8 (d0 : Dev nD) : Nat :=
  let c0_i32_104 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_103 : BitVec 32 := 8#32
  let v154 : BitVec 32 := Scalar.muli v10 c8_i32_103
  let v155 : BitVec 32 := Scalar.addi c0_i32_104 v154
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_105 : BitVec 32 := 4#32
  let v156 : BitVec 32 := Scalar.muli v5 c4_i32_105
  let v157 : BitVec 32 := Scalar.addi v155 v156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v158 : BitVec 32 := Scalar.muli v8 c1_i32_106
  let v159 : BitVec 32 := Scalar.addi v157 v158
  v159.toNat
def k0_dev9 (d0 : Dev nD) : Nat :=
  let c0_i32_118 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_117 : BitVec 32 := 8#32
  let v177 : BitVec 32 := Scalar.muli v10 c8_i32_117
  let v178 : BitVec 32 := Scalar.addi c0_i32_118 v177
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_119 : BitVec 32 := 4#32
  let v179 : BitVec 32 := Scalar.muli v5 c4_i32_119
  let v180 : BitVec 32 := Scalar.addi v178 v179
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_120 : BitVec 32 := 1#32
  let v181 : BitVec 32 := Scalar.muli v8 c1_i32_120
  let v182 : BitVec 32 := Scalar.addi v180 v181
  v182.toNat
def k0_dev10 (d0 : Dev nD) : Nat :=
  let c0_i32_132 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_131 : BitVec 32 := 8#32
  let v200 : BitVec 32 := Scalar.muli v10 c8_i32_131
  let v201 : BitVec 32 := Scalar.addi c0_i32_132 v200
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_133 : BitVec 32 := 4#32
  let v202 : BitVec 32 := Scalar.muli v5 c4_i32_133
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_134 : BitVec 32 := 1#32
  let v204 : BitVec 32 := Scalar.muli v8 c1_i32_134
  let v205 : BitVec 32 := Scalar.addi v203 v204
  v205.toNat
def k0_dev11 (d0 : Dev nD) : Nat :=
  let c0_i32_146 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_145 : BitVec 32 := 8#32
  let v223 : BitVec 32 := Scalar.muli v10 c8_i32_145
  let v224 : BitVec 32 := Scalar.addi c0_i32_146 v223
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_147 : BitVec 32 := 4#32
  let v225 : BitVec 32 := Scalar.muli v5 c4_i32_147
  let v226 : BitVec 32 := Scalar.addi v224 v225
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_148 : BitVec 32 := 1#32
  let v227 : BitVec 32 := Scalar.muli v8 c1_i32_148
  let v228 : BitVec 32 := Scalar.addi v226 v227
  v228.toNat
def k0_off2 (d0 : Dev nD) (c384_i32_153 : BitVec 32) : Fin 3 → Nat :=
  let c0_154 : Index := 0#32
  let c2_i32_15 : BitVec 32 := 2#32
  let c1_i32_14 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_14 v5
  let v27 : BitVec 32 := Scalar.muli c2_i32_15 v26
  let c1_i32_16 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v28 : BitVec 32 := Scalar.subi c1_i32_16 v9
  let v29 : BitVec 32 := Scalar.addi v27 v28
  let c512_i32_17 : BitVec 32 := 512#32
  let v30 : BitVec 32 := Scalar.muli v29 c512_i32_17
  let v237 : BitVec 32 := Scalar.addi v30 c384_i32_153
  let v238 : Index := Scalar.indexCast v237
  let c1_i32_19 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v32 : BitVec 32 := Scalar.subi c1_i32_19 v2
  let c512_i32_20 : BitVec 32 := 512#32
  let v33 : BitVec 32 := Scalar.muli v32 c512_i32_20
  let v239 : Index := Scalar.indexCast v33
  ![0, v238.toNat, v239.toNat]
def k0_dev12 (d0 : Dev nD) : Nat :=
  let c0_i32_163 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_162 : BitVec 32 := 8#32
  let v246 : BitVec 32 := Scalar.muli v10 c8_i32_162
  let v247 : BitVec 32 := Scalar.addi c0_i32_163 v246
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_164 : BitVec 32 := 4#32
  let v248 : BitVec 32 := Scalar.muli v5 c4_i32_164
  let v249 : BitVec 32 := Scalar.addi v247 v248
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_165 : BitVec 32 := 1#32
  let v250 : BitVec 32 := Scalar.muli v8 c1_i32_165
  let v251 : BitVec 32 := Scalar.addi v249 v250
  v251.toNat
def k0_dev13 (d0 : Dev nD) : Nat :=
  let c0_i32_180 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_179 : BitVec 32 := 8#32
  let v269 : BitVec 32 := Scalar.muli v10 c8_i32_179
  let v270 : BitVec 32 := Scalar.addi c0_i32_180 v269
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_181 : BitVec 32 := 4#32
  let v271 : BitVec 32 := Scalar.muli v5 c4_i32_181
  let v272 : BitVec 32 := Scalar.addi v270 v271
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_182 : BitVec 32 := 1#32
  let v273 : BitVec 32 := Scalar.muli v8 c1_i32_182
  let v274 : BitVec 32 := Scalar.addi v272 v273
  v274.toNat
def k0_dev14 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_203 : BitVec 32 := 8#32
  let v295 : BitVec 32 := Scalar.muli v2 c8_i32_203
  let v296 : BitVec 32 := Scalar.addi c0_i32_204 v295
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_205 : BitVec 32 := 4#32
  let v297 : BitVec 32 := Scalar.muli v11 c4_i32_205
  let v298 : BitVec 32 := Scalar.addi v296 v297
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v299 : BitVec 32 := Scalar.muli v8 c1_i32_206
  let v300 : BitVec 32 := Scalar.addi v298 v299
  v300.toNat
def k0_dev15 (d0 : Dev nD) : Nat :=
  let c0_i32_216 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_215 : BitVec 32 := 8#32
  let v309 : BitVec 32 := Scalar.muli v2 c8_i32_215
  let v310 : BitVec 32 := Scalar.addi c0_i32_216 v309
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_217 : BitVec 32 := 4#32
  let v311 : BitVec 32 := Scalar.muli v5 c4_i32_217
  let v312 : BitVec 32 := Scalar.addi v310 v311
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_218 : BitVec 32 := 1#32
  let v313 : BitVec 32 := Scalar.muli v14 c1_i32_218
  let v314 : BitVec 32 := Scalar.addi v312 v313
  v314.toNat
def k0_off3 (d0 : Dev nD) (c0_i32_226 : BitVec 32) : Fin 3 → Nat :=
  let c0_227 : Index := 0#32
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c512_i32 : BitVec 32 := 512#32
  let v17 : BitVec 32 := Scalar.muli v16 c512_i32
  let v325 : BitVec 32 := Scalar.addi v17 c0_i32_226
  let v326 : Index := Scalar.indexCast v325
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_18 : BitVec 32 := 512#32
  let v31 : BitVec 32 := Scalar.muli v2 c512_i32_18
  let v327 : Index := Scalar.indexCast v31
  ![0, v326.toNat, v327.toNat]
def k0_off4 (d0 : Dev nD) (c0_i32_228 : BitVec 32) : Fin 2 → Nat :=
  let c2_i32_7 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.muli c2_i32_7 v5
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v16 : BitVec 32 := Scalar.addi v15 v9
  let c512_i32 : BitVec 32 := 512#32
  let v17 : BitVec 32 := Scalar.muli v16 c512_i32
  let v332 : BitVec 32 := Scalar.addi v17 c0_i32_228
  let v333 : Index := Scalar.indexCast v332
  let c0_229 : Index := 0#32
  ![v333.toNat, 0]
def k0_dev16 (d0 : Dev nD) : Nat :=
  let c0_i32_247 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_246 : BitVec 32 := 8#32
  let v347 : BitVec 32 := Scalar.muli v2 c8_i32_246
  let v348 : BitVec 32 := Scalar.addi c0_i32_247 v347
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_248 : BitVec 32 := 4#32
  let v349 : BitVec 32 := Scalar.muli v11 c4_i32_248
  let v350 : BitVec 32 := Scalar.addi v348 v349
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v351 : BitVec 32 := Scalar.muli v8 c1_i32_249
  let v352 : BitVec 32 := Scalar.addi v350 v351
  v352.toNat
def k0_dev17 (d0 : Dev nD) : Nat :=
  let c0_i32_259 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_258 : BitVec 32 := 8#32
  let v361 : BitVec 32 := Scalar.muli v2 c8_i32_258
  let v362 : BitVec 32 := Scalar.addi c0_i32_259 v361
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_260 : BitVec 32 := 4#32
  let v363 : BitVec 32 := Scalar.muli v5 c4_i32_260
  let v364 : BitVec 32 := Scalar.addi v362 v363
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_261 : BitVec 32 := 1#32
  let v365 : BitVec 32 := Scalar.muli v14 c1_i32_261
  let v366 : BitVec 32 := Scalar.addi v364 v365
  v366.toNat
def k0_dev18 (d0 : Dev nD) : Nat :=
  let c0_i32_290 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_289 : BitVec 32 := 8#32
  let v399 : BitVec 32 := Scalar.muli v2 c8_i32_289
  let v400 : BitVec 32 := Scalar.addi c0_i32_290 v399
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_291 : BitVec 32 := 4#32
  let v401 : BitVec 32 := Scalar.muli v11 c4_i32_291
  let v402 : BitVec 32 := Scalar.addi v400 v401
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v403 : BitVec 32 := Scalar.muli v8 c1_i32_292
  let v404 : BitVec 32 := Scalar.addi v402 v403
  v404.toNat
def k0_dev19 (d0 : Dev nD) : Nat :=
  let c0_i32_302 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_301 : BitVec 32 := 8#32
  let v413 : BitVec 32 := Scalar.muli v2 c8_i32_301
  let v414 : BitVec 32 := Scalar.addi c0_i32_302 v413
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_303 : BitVec 32 := 4#32
  let v415 : BitVec 32 := Scalar.muli v5 c4_i32_303
  let v416 : BitVec 32 := Scalar.addi v414 v415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_304 : BitVec 32 := 1#32
  let v417 : BitVec 32 := Scalar.muli v14 c1_i32_304
  let v418 : BitVec 32 := Scalar.addi v416 v417
  v418.toNat
def k0_dev20 (d0 : Dev nD) : Nat :=
  let c0_i32_333 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_332 : BitVec 32 := 8#32
  let v451 : BitVec 32 := Scalar.muli v2 c8_i32_332
  let v452 : BitVec 32 := Scalar.addi c0_i32_333 v451
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_334 : BitVec 32 := 4#32
  let v453 : BitVec 32 := Scalar.muli v11 c4_i32_334
  let v454 : BitVec 32 := Scalar.addi v452 v453
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_335 : BitVec 32 := 1#32
  let v455 : BitVec 32 := Scalar.muli v8 c1_i32_335
  let v456 : BitVec 32 := Scalar.addi v454 v455
  v456.toNat
def k0_dev21 (d0 : Dev nD) : Nat :=
  let c0_i32_345 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_344 : BitVec 32 := 8#32
  let v465 : BitVec 32 := Scalar.muli v2 c8_i32_344
  let v466 : BitVec 32 := Scalar.addi c0_i32_345 v465
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_346 : BitVec 32 := 4#32
  let v467 : BitVec 32 := Scalar.muli v5 c4_i32_346
  let v468 : BitVec 32 := Scalar.addi v466 v467
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_347 : BitVec 32 := 1#32
  let v469 : BitVec 32 := Scalar.muli v14 c1_i32_347
  let v470 : BitVec 32 := Scalar.addi v468 v469
  v470.toNat
def k0_dev22 (d0 : Dev nD) : Nat :=
  let c0_i32_376 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_375 : BitVec 32 := 8#32
  let v503 : BitVec 32 := Scalar.muli v2 c8_i32_375
  let v504 : BitVec 32 := Scalar.addi c0_i32_376 v503
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_377 : BitVec 32 := 4#32
  let v505 : BitVec 32 := Scalar.muli v11 c4_i32_377
  let v506 : BitVec 32 := Scalar.addi v504 v505
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_378 : BitVec 32 := 1#32
  let v507 : BitVec 32 := Scalar.muli v8 c1_i32_378
  let v508 : BitVec 32 := Scalar.addi v506 v507
  v508.toNat
def k0_dev23 (d0 : Dev nD) : Nat :=
  let c0_i32_388 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_387 : BitVec 32 := 8#32
  let v517 : BitVec 32 := Scalar.muli v2 c8_i32_387
  let v518 : BitVec 32 := Scalar.addi c0_i32_388 v517
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_389 : BitVec 32 := 4#32
  let v519 : BitVec 32 := Scalar.muli v5 c4_i32_389
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_390 : BitVec 32 := 1#32
  let v521 : BitVec 32 := Scalar.muli v14 c1_i32_390
  let v522 : BitVec 32 := Scalar.addi v520 v521
  v522.toNat
def k0_dev24 (d0 : Dev nD) : Nat :=
  let c0_i32_419 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_418 : BitVec 32 := 8#32
  let v555 : BitVec 32 := Scalar.muli v2 c8_i32_418
  let v556 : BitVec 32 := Scalar.addi c0_i32_419 v555
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_420 : BitVec 32 := 4#32
  let v557 : BitVec 32 := Scalar.muli v11 c4_i32_420
  let v558 : BitVec 32 := Scalar.addi v556 v557
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_421 : BitVec 32 := 1#32
  let v559 : BitVec 32 := Scalar.muli v8 c1_i32_421
  let v560 : BitVec 32 := Scalar.addi v558 v559
  v560.toNat
def k0_dev25 (d0 : Dev nD) : Nat :=
  let c0_i32_431 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_430 : BitVec 32 := 8#32
  let v569 : BitVec 32 := Scalar.muli v2 c8_i32_430
  let v570 : BitVec 32 := Scalar.addi c0_i32_431 v569
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_432 : BitVec 32 := 4#32
  let v571 : BitVec 32 := Scalar.muli v5 c4_i32_432
  let v572 : BitVec 32 := Scalar.addi v570 v571
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_433 : BitVec 32 := 1#32
  let v573 : BitVec 32 := Scalar.muli v14 c1_i32_433
  let v574 : BitVec 32 := Scalar.addi v572 v573
  v574.toNat
def k0_dev26 (d0 : Dev nD) : Nat :=
  let c0_i32_462 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_461 : BitVec 32 := 8#32
  let v607 : BitVec 32 := Scalar.muli v2 c8_i32_461
  let v608 : BitVec 32 := Scalar.addi c0_i32_462 v607
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_463 : BitVec 32 := 4#32
  let v609 : BitVec 32 := Scalar.muli v11 c4_i32_463
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_464 : BitVec 32 := 1#32
  let v611 : BitVec 32 := Scalar.muli v8 c1_i32_464
  let v612 : BitVec 32 := Scalar.addi v610 v611
  v612.toNat
def k0_dev27 (d0 : Dev nD) : Nat :=
  let c0_i32_474 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_473 : BitVec 32 := 8#32
  let v621 : BitVec 32 := Scalar.muli v2 c8_i32_473
  let v622 : BitVec 32 := Scalar.addi c0_i32_474 v621
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_475 : BitVec 32 := 4#32
  let v623 : BitVec 32 := Scalar.muli v5 c4_i32_475
  let v624 : BitVec 32 := Scalar.addi v622 v623
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_476 : BitVec 32 := 1#32
  let v625 : BitVec 32 := Scalar.muli v14 c1_i32_476
  let v626 : BitVec 32 := Scalar.addi v624 v625
  v626.toNat
def k0_dev28 (d0 : Dev nD) : Nat :=
  let c0_i32_505 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_504 : BitVec 32 := 8#32
  let v659 : BitVec 32 := Scalar.muli v2 c8_i32_504
  let v660 : BitVec 32 := Scalar.addi c0_i32_505 v659
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_506 : BitVec 32 := 4#32
  let v661 : BitVec 32 := Scalar.muli v11 c4_i32_506
  let v662 : BitVec 32 := Scalar.addi v660 v661
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_507 : BitVec 32 := 1#32
  let v663 : BitVec 32 := Scalar.muli v8 c1_i32_507
  let v664 : BitVec 32 := Scalar.addi v662 v663
  v664.toNat
def k0_dev29 (d0 : Dev nD) : Nat :=
  let c0_i32_517 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_516 : BitVec 32 := 8#32
  let v673 : BitVec 32 := Scalar.muli v2 c8_i32_516
  let v674 : BitVec 32 := Scalar.addi c0_i32_517 v673
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_518 : BitVec 32 := 4#32
  let v675 : BitVec 32 := Scalar.muli v5 c4_i32_518
  let v676 : BitVec 32 := Scalar.addi v674 v675
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_519 : BitVec 32 := 1#32
  let v677 : BitVec 32 := Scalar.muli v14 c1_i32_519
  let v678 : BitVec 32 := Scalar.addi v676 v677
  v678.toNat
def k0_dev30 (d0 : Dev nD) : Nat :=
  let c0_i32_548 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_547 : BitVec 32 := 8#32
  let v711 : BitVec 32 := Scalar.muli v2 c8_i32_547
  let v712 : BitVec 32 := Scalar.addi c0_i32_548 v711
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_549 : BitVec 32 := 4#32
  let v713 : BitVec 32 := Scalar.muli v11 c4_i32_549
  let v714 : BitVec 32 := Scalar.addi v712 v713
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_550 : BitVec 32 := 1#32
  let v715 : BitVec 32 := Scalar.muli v8 c1_i32_550
  let v716 : BitVec 32 := Scalar.addi v714 v715
  v716.toNat
def k0_off5 (d0 : Dev nD) (c0_i32_558 : BitVec 32) : Fin 3 → Nat :=
  let c0_559 : Index := 0#32
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.muli c2_i32_11 v5
  let c1_i32_12 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v23 : BitVec 32 := Scalar.subi c1_i32_12 v9
  let v24 : BitVec 32 := Scalar.addi v22 v23
  let c512_i32_13 : BitVec 32 := 512#32
  let v25 : BitVec 32 := Scalar.muli v24 c512_i32_13
  let v727 : BitVec 32 := Scalar.addi v25 c0_i32_558
  let v728 : Index := Scalar.indexCast v727
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_18 : BitVec 32 := 512#32
  let v31 : BitVec 32 := Scalar.muli v2 c512_i32_18
  let v729 : Index := Scalar.indexCast v31
  ![0, v728.toNat, v729.toNat]
def k0_off6 (d0 : Dev nD) (c0_i32_560 : BitVec 32) : Fin 2 → Nat :=
  let c2_i32_11 : BitVec 32 := 2#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v22 : BitVec 32 := Scalar.muli c2_i32_11 v5
  let c1_i32_12 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v23 : BitVec 32 := Scalar.subi c1_i32_12 v9
  let v24 : BitVec 32 := Scalar.addi v22 v23
  let c512_i32_13 : BitVec 32 := 512#32
  let v25 : BitVec 32 := Scalar.muli v24 c512_i32_13
  let v734 : BitVec 32 := Scalar.addi v25 c0_i32_560
  let v735 : Index := Scalar.indexCast v734
  let c0_561 : Index := 0#32
  ![v735.toNat, 0]
def k0_off7 (d0 : Dev nD) (c0_i32_577 : BitVec 32) : Fin 3 → Nat :=
  let c0_578 : Index := 0#32
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let v19 : BitVec 32 := Scalar.muli c2_i32_9 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v20 : BitVec 32 := Scalar.addi v19 v9
  let c512_i32_10 : BitVec 32 := 512#32
  let v21 : BitVec 32 := Scalar.muli v20 c512_i32_10
  let v751 : BitVec 32 := Scalar.addi v21 c0_i32_577
  let v752 : Index := Scalar.indexCast v751
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_18 : BitVec 32 := 512#32
  let v31 : BitVec 32 := Scalar.muli v2 c512_i32_18
  let v753 : Index := Scalar.indexCast v31
  ![0, v752.toNat, v753.toNat]
def k0_off8 (d0 : Dev nD) (c0_i32_579 : BitVec 32) : Fin 2 → Nat :=
  let c2_i32_9 : BitVec 32 := 2#32
  let c1_i32_8 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v18 : BitVec 32 := Scalar.subi c1_i32_8 v5
  let v19 : BitVec 32 := Scalar.muli c2_i32_9 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v20 : BitVec 32 := Scalar.addi v19 v9
  let c512_i32_10 : BitVec 32 := 512#32
  let v21 : BitVec 32 := Scalar.muli v20 c512_i32_10
  let v758 : BitVec 32 := Scalar.addi v21 c0_i32_579
  let v759 : Index := Scalar.indexCast v758
  let c0_580 : Index := 0#32
  ![v759.toNat, 0]
def k0_dev31 (d0 : Dev nD) : Nat :=
  let c0_i32_598 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_597 : BitVec 32 := 8#32
  let v773 : BitVec 32 := Scalar.muli v2 c8_i32_597
  let v774 : BitVec 32 := Scalar.addi c0_i32_598 v773
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_599 : BitVec 32 := 4#32
  let v775 : BitVec 32 := Scalar.muli v11 c4_i32_599
  let v776 : BitVec 32 := Scalar.addi v774 v775
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_600 : BitVec 32 := 1#32
  let v777 : BitVec 32 := Scalar.muli v8 c1_i32_600
  let v778 : BitVec 32 := Scalar.addi v776 v777
  v778.toNat
def k0_dev32 (d0 : Dev nD) : Nat :=
  let c0_i32_648 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_647 : BitVec 32 := 8#32
  let v835 : BitVec 32 := Scalar.muli v2 c8_i32_647
  let v836 : BitVec 32 := Scalar.addi c0_i32_648 v835
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v11 : BitVec 32 := Scalar.subi c1_i32_4 v5
  let c4_i32_649 : BitVec 32 := 4#32
  let v837 : BitVec 32 := Scalar.muli v11 c4_i32_649
  let v838 : BitVec 32 := Scalar.addi v836 v837
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_650 : BitVec 32 := 1#32
  let v839 : BitVec 32 := Scalar.muli v8 c1_i32_650
  let v840 : BitVec 32 := Scalar.addi v838 v839
  v840.toNat
def k0_dev33 (d0 : Dev nD) : Nat :=
  let c0_i32_717 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_716 : BitVec 32 := 8#32
  let v921 : BitVec 32 := Scalar.muli v2 c8_i32_716
  let v922 : BitVec 32 := Scalar.addi c0_i32_717 v921
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_718 : BitVec 32 := 4#32
  let v923 : BitVec 32 := Scalar.muli v5 c4_i32_718
  let v924 : BitVec 32 := Scalar.addi v922 v923
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_719 : BitVec 32 := 1#32
  let v925 : BitVec 32 := Scalar.muli v14 c1_i32_719
  let v926 : BitVec 32 := Scalar.addi v924 v925
  v926.toNat
def k0_dev34 (d0 : Dev nD) : Nat :=
  let c0_i32_767 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_766 : BitVec 32 := 8#32
  let v983 : BitVec 32 := Scalar.muli v2 c8_i32_766
  let v984 : BitVec 32 := Scalar.addi c0_i32_767 v983
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_768 : BitVec 32 := 4#32
  let v985 : BitVec 32 := Scalar.muli v5 c4_i32_768
  let v986 : BitVec 32 := Scalar.addi v984 v985
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_769 : BitVec 32 := 1#32
  let v987 : BitVec 32 := Scalar.muli v14 c1_i32_769
  let v988 : BitVec 32 := Scalar.addi v986 v987
  v988.toNat
def k0_dev35 (d0 : Dev nD) : Nat :=
  let c0_i32_817 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_816 : BitVec 32 := 8#32
  let v1045 : BitVec 32 := Scalar.muli v2 c8_i32_816
  let v1046 : BitVec 32 := Scalar.addi c0_i32_817 v1045
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_818 : BitVec 32 := 4#32
  let v1047 : BitVec 32 := Scalar.muli v5 c4_i32_818
  let v1048 : BitVec 32 := Scalar.addi v1046 v1047
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_5 : BitVec 32 := 1#32
  let v12 : BitVec 32 := Scalar.addi v8 c1_i32_5
  let c2_i32_6 : BitVec 32 := 2#32
  let c2_i32_2 : BitVec 32 := 2#32
  let v9 : BitVec 32 := Scalar.remsi v8 c2_i32_2
  let v13 : BitVec 32 := Scalar.muli c2_i32_6 v9
  let v14 : BitVec 32 := Scalar.subi v12 v13
  let c1_i32_819 : BitVec 32 := 1#32
  let v1049 : BitVec 32 := Scalar.muli v14 c1_i32_819
  let v1050 : BitVec 32 := Scalar.addi v1048 v1049
  v1050.toNat
def k0_off9 (d0 : Dev nD) (c384_i32_922 : BitVec 32) : Fin 3 → Nat :=
  let c0_923 : Index := 0#32
  let c2_i32_15 : BitVec 32 := 2#32
  let c1_i32_14 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_14 v5
  let v27 : BitVec 32 := Scalar.muli c2_i32_15 v26
  let c1_i32_16 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v28 : BitVec 32 := Scalar.subi c1_i32_16 v9
  let v29 : BitVec 32 := Scalar.addi v27 v28
  let c512_i32_17 : BitVec 32 := 512#32
  let v30 : BitVec 32 := Scalar.muli v29 c512_i32_17
  let v1181 : BitVec 32 := Scalar.addi v30 c384_i32_922
  let v1182 : Index := Scalar.indexCast v1181
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c512_i32_18 : BitVec 32 := 512#32
  let v31 : BitVec 32 := Scalar.muli v2 c512_i32_18
  let v1183 : Index := Scalar.indexCast v31
  ![0, v1182.toNat, v1183.toNat]
def k0_off10 (d0 : Dev nD) (c384_i32_924 : BitVec 32) : Fin 2 → Nat :=
  let c2_i32_15 : BitVec 32 := 2#32
  let c1_i32_14 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_14 v5
  let v27 : BitVec 32 := Scalar.muli c2_i32_15 v26
  let c1_i32_16 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v28 : BitVec 32 := Scalar.subi c1_i32_16 v9
  let v29 : BitVec 32 := Scalar.addi v27 v28
  let c512_i32_17 : BitVec 32 := 512#32
  let v30 : BitVec 32 := Scalar.muli v29 c512_i32_17
  let v1188 : BitVec 32 := Scalar.addi v30 c384_i32_924
  let v1189 : Index := Scalar.indexCast v1188
  let c0_925 : Index := 0#32
  ![v1189.toNat, 0]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_3 : (3#32 : BitVec 32).msb = false
  h_S1x64x512 : 0 < S1x64x512.numel
  shapeCasts_S1x64x512_S64x512 : S1x64x512.ShapeCasts S64x512
  bitsLt_bf16_f32 : FTy.bits .bf16 < FTy.bits .f32
  inb_S8x64x512_S1x64x512_0_0_0 : ∀ a, (![0, 0, 0] : Fin 3 → Nat) a + S1x64x512.size a ≤ S8x64x512.size a
  shapeCasts_S64x512_S1x64x512 : S64x512.ShapeCasts S1x64x512
  packedbf16_S8x64x512_S1x64x512_0_0_0 : (Rect.unit (s := S8x64x512) ![0, 0, 0] S1x64x512.size inb_S8x64x512_S1x64x512_0_0_0).PackedRows (EltTy.packing .bf16)
  inb_S8_S1_0 : ∀ a, (![0] : Fin 1 → Nat) a + S1.size a ≤ S8.size a
  squeezes_S1_S_ : S1.Squeezes S_
  squeezes_S1x64x512_S64x512 : S1x64x512.Squeezes S64x512
  wordsbf16_S8x64x512_S1x64x512_0_0_0 : (Rect.unit (s := S8x64x512) ![0, 0, 0] S1x64x512.size inb_S8x64x512_S1x64x512_0_0_0).WholeWords (EltTy.packing .bf16)
  inb_S8x64x512_S1x64x512_1_0_0 : ∀ a, (![1, 0, 0] : Fin 3 → Nat) a + S1x64x512.size a ≤ S8x64x512.size a
  packedbf16_S8x64x512_S1x64x512_1_0_0 : (Rect.unit (s := S8x64x512) ![1, 0, 0] S1x64x512.size inb_S8x64x512_S1x64x512_1_0_0).PackedRows (EltTy.packing .bf16)
  inb_S8_S1_1 : ∀ a, (![1] : Fin 1 → Nat) a + S1.size a ≤ S8.size a
  wordsbf16_S8x64x512_S1x64x512_1_0_0 : (Rect.unit (s := S8x64x512) ![1, 0, 0] S1x64x512.size inb_S8x64x512_S1x64x512_1_0_0).WholeWords (EltTy.packing .bf16)
  inb_S8x64x512_S1x64x512_2_0_0 : ∀ a, (![2, 0, 0] : Fin 3 → Nat) a + S1x64x512.size a ≤ S8x64x512.size a
  packedbf16_S8x64x512_S1x64x512_2_0_0 : (Rect.unit (s := S8x64x512) ![2, 0, 0] S1x64x512.size inb_S8x64x512_S1x64x512_2_0_0).PackedRows (EltTy.packing .bf16)
  inb_S8_S1_2 : ∀ a, (![2] : Fin 1 → Nat) a + S1.size a ≤ S8.size a
  wordsbf16_S8x64x512_S1x64x512_2_0_0 : (Rect.unit (s := S8x64x512) ![2, 0, 0] S1x64x512.size inb_S8x64x512_S1x64x512_2_0_0).WholeWords (EltTy.packing .bf16)
  inb_S8x64x512_S1x64x512_3_0_0 : ∀ a, (![3, 0, 0] : Fin 3 → Nat) a + S1x64x512.size a ≤ S8x64x512.size a
  packedbf16_S8x64x512_S1x64x512_3_0_0 : (Rect.unit (s := S8x64x512) ![3, 0, 0] S1x64x512.size inb_S8x64x512_S1x64x512_3_0_0).PackedRows (EltTy.packing .bf16)
  inb_S8_S1_3 : ∀ a, (![3] : Fin 1 → Nat) a + S1.size a ≤ S8.size a
  wordsbf16_S8x64x512_S1x64x512_3_0_0 : (Rect.unit (s := S8x64x512) ![3, 0, 0] S1x64x512.size inb_S8x64x512_S1x64x512_3_0_0).WholeWords (EltTy.packing .bf16)
  inb_S8x64x512_S1x64x512_4_0_0 : ∀ a, (![4, 0, 0] : Fin 3 → Nat) a + S1x64x512.size a ≤ S8x64x512.size a
  packedbf16_S8x64x512_S1x64x512_4_0_0 : (Rect.unit (s := S8x64x512) ![4, 0, 0] S1x64x512.size inb_S8x64x512_S1x64x512_4_0_0).PackedRows (EltTy.packing .bf16)
  inb_S8_S1_4 : ∀ a, (![4] : Fin 1 → Nat) a + S1.size a ≤ S8.size a
  wordsbf16_S8x64x512_S1x64x512_4_0_0 : (Rect.unit (s := S8x64x512) ![4, 0, 0] S1x64x512.size inb_S8x64x512_S1x64x512_4_0_0).WholeWords (EltTy.packing .bf16)
  inb_S8x64x512_S1x64x512_5_0_0 : ∀ a, (![5, 0, 0] : Fin 3 → Nat) a + S1x64x512.size a ≤ S8x64x512.size a
  packedbf16_S8x64x512_S1x64x512_5_0_0 : (Rect.unit (s := S8x64x512) ![5, 0, 0] S1x64x512.size inb_S8x64x512_S1x64x512_5_0_0).PackedRows (EltTy.packing .bf16)
  inb_S8_S1_5 : ∀ a, (![5] : Fin 1 → Nat) a + S1.size a ≤ S8.size a
  wordsbf16_S8x64x512_S1x64x512_5_0_0 : (Rect.unit (s := S8x64x512) ![5, 0, 0] S1x64x512.size inb_S8x64x512_S1x64x512_5_0_0).WholeWords (EltTy.packing .bf16)
  inb_S8x64x512_S1x64x512_6_0_0 : ∀ a, (![6, 0, 0] : Fin 3 → Nat) a + S1x64x512.size a ≤ S8x64x512.size a
  packedbf16_S8x64x512_S1x64x512_6_0_0 : (Rect.unit (s := S8x64x512) ![6, 0, 0] S1x64x512.size inb_S8x64x512_S1x64x512_6_0_0).PackedRows (EltTy.packing .bf16)
  inb_S8_S1_6 : ∀ a, (![6] : Fin 1 → Nat) a + S1.size a ≤ S8.size a
  wordsbf16_S8x64x512_S1x64x512_6_0_0 : (Rect.unit (s := S8x64x512) ![6, 0, 0] S1x64x512.size inb_S8x64x512_S1x64x512_6_0_0).WholeWords (EltTy.packing .bf16)
  inb_S8x64x512_S1x64x512_7_0_0 : ∀ a, (![7, 0, 0] : Fin 3 → Nat) a + S1x64x512.size a ≤ S8x64x512.size a
  packedbf16_S8x64x512_S1x64x512_7_0_0 : (Rect.unit (s := S8x64x512) ![7, 0, 0] S1x64x512.size inb_S8x64x512_S1x64x512_7_0_0).PackedRows (EltTy.packing .bf16)
  inb_S8_S1_7 : ∀ a, (![7] : Fin 1 → Nat) a + S1.size a ≤ S8.size a
  wordsbf16_S8x64x512_S1x64x512_7_0_0 : (Rect.unit (s := S8x64x512) ![7, 0, 0] S1x64x512.size inb_S8x64x512_S1x64x512_7_0_0).WholeWords (EltTy.packing .bf16)
  inb_S2x64x512_S1x64x512_0_0_0 : ∀ a, (![0, 0, 0] : Fin 3 → Nat) a + S1x64x512.size a ≤ S2x64x512.size a
  packedbf16_S2x64x512_S1x64x512_0_0_0 : (Rect.unit (s := S2x64x512) ![0, 0, 0] S1x64x512.size inb_S2x64x512_S1x64x512_0_0_0).PackedRows (EltTy.packing .bf16)
  inb_S2_S1_0 : ∀ a, (![0] : Fin 1 → Nat) a + S1.size a ≤ S2.size a
  wordsbf16_S2x64x512_S1x64x512_0_0_0 : (Rect.unit (s := S2x64x512) ![0, 0, 0] S1x64x512.size inb_S2x64x512_S1x64x512_0_0_0).WholeWords (EltTy.packing .bf16)
  inb_S2x64x512_S1x64x512_1_0_0 : ∀ a, (![1, 0, 0] : Fin 3 → Nat) a + S1x64x512.size a ≤ S2x64x512.size a
  packedbf16_S2x64x512_S1x64x512_1_0_0 : (Rect.unit (s := S2x64x512) ![1, 0, 0] S1x64x512.size inb_S2x64x512_S1x64x512_1_0_0).PackedRows (EltTy.packing .bf16)
  inb_S2_S1_1 : ∀ a, (![1] : Fin 1 → Nat) a + S1.size a ≤ S2.size a
  wordsbf16_S2x64x512_S1x64x512_1_0_0 : (Rect.unit (s := S2x64x512) ![1, 0, 0] S1x64x512.size inb_S2x64x512_S1x64x512_1_0_0).WholeWords (EltTy.packing .bf16)
  h_S64x512 : 0 < S64x512.numel
  inb_S3_S1_0 : ∀ a, (![0] : Fin 1 → Nat) a + S1.size a ≤ S3.size a
  inb_S3x64x512_S1x64x512_0_0_0 : ∀ a, (![0, 0, 0] : Fin 3 → Nat) a + S1x64x512.size a ≤ S3x64x512.size a
  wordsbf16_S3x64x512_S1x64x512_0_0_0 : (Rect.unit (s := S3x64x512) ![0, 0, 0] S1x64x512.size inb_S3x64x512_S1x64x512_0_0_0).WholeWords (EltTy.packing .bf16)
  inb_S3_S1_1 : ∀ a, (![1] : Fin 1 → Nat) a + S1.size a ≤ S3.size a
  inb_S3x64x512_S1x64x512_1_0_0 : ∀ a, (![1, 0, 0] : Fin 3 → Nat) a + S1x64x512.size a ≤ S3x64x512.size a
  wordsbf16_S3x64x512_S1x64x512_1_0_0 : (Rect.unit (s := S3x64x512) ![1, 0, 0] S1x64x512.size inb_S3x64x512_S1x64x512_1_0_0).WholeWords (EltTy.packing .bf16)
  inb_S3_S1_2 : ∀ a, (![2] : Fin 1 → Nat) a + S1.size a ≤ S3.size a
  inb_S3x64x512_S1x64x512_2_0_0 : ∀ a, (![2, 0, 0] : Fin 3 → Nat) a + S1x64x512.size a ≤ S3x64x512.size a
  wordsbf16_S3x64x512_S1x64x512_2_0_0 : (Rect.unit (s := S3x64x512) ![2, 0, 0] S1x64x512.size inb_S3x64x512_S1x64x512_2_0_0).WholeWords (EltTy.packing .bf16)
  hcc0_scratch8 : 2 + S8.numel ≤ 66
  hcc0_scratch9 : 10 + S8.numel ≤ 66
  hcc0_scratch10 : 18 + S2.numel ≤ 66
  hcc0_scratch11 : 20 + S2.numel ≤ 66
  hcc0_scratch12 : 22 + S8.numel ≤ 66
  hcc0_scratch13 : 30 + S8.numel ≤ 66
  hcc0_scratch14 : 38 + S8.numel ≤ 66
  hcc0_scratch15 : 46 + S8.numel ≤ 66
  hcc0_scratch16 : 54 + S3.numel ≤ 66
  hcc0_scratch17 : 57 + S3.numel ≤ 66
  hcc0_scratch18 : 60 + S3.numel ≤ 66
  hcc0_scratch19 : 63 + S3.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 8), ∀ a, (k0_off1 d0 (BitVec.ofNat 32 (64 * r.val))) a + S1x64x512.size a ≤ S1x2048x1024.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off2_inb : ∀ d0 : Dev nD, ∀ (r : Fin 2), ∀ a, (k0_off2 d0 (BitVec.ofNat 32 (384 + 64 * r.val))) a + S1x64x512.size a ≤ S1x2048x1024.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off3_inb : ∀ d0 : Dev nD, ∀ (r : Fin 8), ∀ a, (k0_off3 d0 (BitVec.ofNat 32 (64 * r.val))) a + S1x64x512.size a ≤ S1x2048x1024.size a
  k0_off4_inb : ∀ d0 : Dev nD, ∀ (r : Fin 8), ∀ a, (k0_off4 d0 (BitVec.ofNat 32 (64 * r.val))) a + S64x512.size a ≤ S2048x512.size a
  k0_off4_packedbf16 : ∀ d0 : Dev nD, ∀ (r : Fin 8), (Rect.unit (s := S2048x512) (k0_off4 d0 (BitVec.ofNat 32 (64 * r.val))) S64x512.size (k0_off4_inb d0 r)).PackedRows (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off5_inb : ∀ d0 : Dev nD, ∀ (r : Fin 8), ∀ a, (k0_off5 d0 (BitVec.ofNat 32 (64 * r.val))) a + S1x64x512.size a ≤ S1x2048x1024.size a
  k0_off6_inb : ∀ d0 : Dev nD, ∀ (r : Fin 8), ∀ a, (k0_off6 d0 (BitVec.ofNat 32 (64 * r.val))) a + S64x512.size a ≤ S2048x512.size a
  k0_off6_packedbf16 : ∀ d0 : Dev nD, ∀ (r : Fin 8), (Rect.unit (s := S2048x512) (k0_off6 d0 (BitVec.ofNat 32 (64 * r.val))) S64x512.size (k0_off6_inb d0 r)).PackedRows (EltTy.packing .bf16)
  k0_off7_inb : ∀ d0 : Dev nD, ∀ (r : Fin 8), ∀ a, (k0_off7 d0 (BitVec.ofNat 32 (64 * r.val))) a + S1x64x512.size a ≤ S1x2048x1024.size a
  k0_off8_inb : ∀ d0 : Dev nD, ∀ (r : Fin 8), ∀ a, (k0_off8 d0 (BitVec.ofNat 32 (64 * r.val))) a + S64x512.size a ≤ S2048x512.size a
  k0_off8_packedbf16 : ∀ d0 : Dev nD, ∀ (r : Fin 8), (Rect.unit (s := S2048x512) (k0_off8 d0 (BitVec.ofNat 32 (64 * r.val))) S64x512.size (k0_off8_inb d0 r)).PackedRows (EltTy.packing .bf16)
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_off9_inb : ∀ d0 : Dev nD, ∀ (r : Fin 8), ∀ a, (k0_off9 d0 (BitVec.ofNat 32 (64 * r.val))) a + S1x64x512.size a ≤ S1x2048x1024.size a
  k0_off10_inb : ∀ d0 : Dev nD, ∀ (r : Fin 8), ∀ a, (k0_off10 d0 (BitVec.ofNat 32 (64 * r.val))) a + S64x512.size a ≤ S2048x512.size a
  k0_off10_packedbf16 : ∀ d0 : Dev nD, ∀ (r : Fin 8), (Rect.unit (s := S2048x512) (k0_off10 d0 (BitVec.ofNat 32 (64 * r.val))) S64x512.size (k0_off10_inb d0 r)).PackedRows (EltTy.packing .bf16)
  hstage0_0 : ∀ j, (stage0_0 j).IsWhole
  hstage0_1 : ∀ j, (stage0_1 j).IsWhole

variable [Facts₀]

abbrev cc0_scratch8 : DmaSems sig S8 := SemArray.consecutive 2 S8 hcc0_scratch8
abbrev cc0_scratch9 : DmaSems sig S8 := SemArray.consecutive 10 S8 hcc0_scratch9
abbrev cc0_scratch10 : DmaSems sig S2 := SemArray.consecutive 18 S2 hcc0_scratch10
abbrev cc0_scratch11 : DmaSems sig S2 := SemArray.consecutive 20 S2 hcc0_scratch11
abbrev cc0_scratch12 : DmaSems sig S8 := SemArray.consecutive 22 S8 hcc0_scratch12
abbrev cc0_scratch13 : DmaSems sig S8 := SemArray.consecutive 30 S8 hcc0_scratch13
abbrev cc0_scratch14 : DmaSems sig S8 := SemArray.consecutive 38 S8 hcc0_scratch14
abbrev cc0_scratch15 : DmaSems sig S8 := SemArray.consecutive 46 S8 hcc0_scratch15
abbrev cc0_scratch16 : DmaSems sig S3 := SemArray.consecutive 54 S3 hcc0_scratch16
abbrev cc0_scratch17 : DmaSems sig S3 := SemArray.consecutive 57 S3 hcc0_scratch17
abbrev cc0_scratch18 : DmaSems sig S3 := SemArray.consecutive 60 S3 hcc0_scratch18
abbrev cc0_scratch19 : DmaSems sig S3 := SemArray.consecutive 63 S3 hcc0_scratch19

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | .hbm, ⟨3, _⟩ => ⟨S2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S2x2048x1024_S2048x1024_d0 : S2x2048x1024.ReducesTo [0] S2048x1024
  h_S_ : 0 < S_.numel
  bitsLt_bf16_f32 : FTy.bits .bf16 < FTy.bits .f32

variable [Facts₀]

class Facts : Prop extends Facts₀ where

variable [Facts]
-- ==== Proof.Mesh.lean ====
import proofs.«901033_g7700000000001034_dist_rs_v7x_xyz2x2x4_x_m2048_n512_bf16_1_alg».proof.Proof.Gen.KernelIdeal
import Idealize.ShloMosaic.Lib.Decide
import Mathlib.Data.Finset.Insert

noncomputable section

namespace Cert.KernelIdeal.RS

open Cert.KernelIdeal Cert.KernelIdeal.Gen
open Idealize.ShloMosaic

/-! ## The mesh: device id = 8·x + 4·y + z on the 2 × 2 × 4 mesh -/

/-- The device with the other x coordinate. -/
def partner (c : Dev nD) : Dev nD := ⟨(c.val + 8) % 16, Nat.mod_lt _ (by decide)⟩
/-- The device with the other y coordinate. -/
def buddy (c : Dev nD) : Dev nD := ⟨(c.val / 8) * 8 + (c.val + 4) % 8, (show _ < 16 from by have h : c.val < 16 := c.isLt; omega)⟩
/-- The other device of the z pair {2j, 2j+1}. -/
def zpair (c : Dev nD) : Dev nD := ⟨(c.val / 2) * 2 + (c.val + 1) % 2, (show _ < 16 from by have h : c.val < 16 := c.isLt; omega)⟩

theorem partner_partner (c : Dev nD) : partner (partner c) = c := by revert c; decide
theorem buddy_buddy (c : Dev nD) : buddy (buddy c) = c := by revert c; decide
theorem zpair_zpair (c : Dev nD) : zpair (zpair c) = c := by revert c; decide

/-! ## Each device the kernel addresses is one of the three peers

The three barrier signals go to the x, y and z peer; the ten first-stage copies go to the x peer;
each of the eight second-stage chunks is forwarded to the y peer and to the z peer; the three
third-stage copies of the z-received chunks go to the y peer and the three of the y-received
chunks to the z peer. -/

theorem dev1_eq (c : Dev nD) : (⟨k0_dev1 c, k0_dev1_lt c⟩ : Dev nD) = partner c := by revert c; decide +kernel
theorem dev2_eq (c : Dev nD) : (⟨k0_dev2 c, k0_dev2_lt c⟩ : Dev nD) = buddy c := by revert c; decide +kernel
theorem dev3_eq (c : Dev nD) : (⟨k0_dev3 c, k0_dev3_lt c⟩ : Dev nD) = zpair c := by revert c; decide +kernel
theorem dev4_eq (c : Dev nD) : (⟨k0_dev4 c, k0_dev4_lt c⟩ : Dev nD) = partner c := by revert c; decide +kernel
theorem dev5_eq (c : Dev nD) : (⟨k0_dev5 c, k0_dev5_lt c⟩ : Dev nD) = partner c := by revert c; decide +kernel
theorem dev6_eq (c : Dev nD) : (⟨k0_dev6 c, k0_dev6_lt c⟩ : Dev nD) = partner c := by revert c; decide +kernel
theorem dev7_eq (c : Dev nD) : (⟨k0_dev7 c, k0_dev7_lt c⟩ : Dev nD) = partner c := by revert c; decide +kernel
theorem dev8_eq (c : Dev nD) : (⟨k0_dev8 c, k0_dev8_lt c⟩ : Dev nD) = partner c := by revert c; decide +kernel
theorem dev9_eq (c : Dev nD) : (⟨k0_dev9 c, k0_dev9_lt c⟩ : Dev nD) = partner c := by revert c; decide +kernel
theorem dev10_eq (c : Dev nD) : (⟨k0_dev10 c, k0_dev10_lt c⟩ : Dev nD) = partner c := by revert c; decide +kernel
theorem dev11_eq (c : Dev nD) : (⟨k0_dev11 c, k0_dev11_lt c⟩ : Dev nD) = partner c := by revert c; decide +kernel
theorem dev12_eq (c : Dev nD) : (⟨k0_dev12 c, k0_dev12_lt c⟩ : Dev nD) = partner c := by revert c; decide +kernel
theorem dev13_eq (c : Dev nD) : (⟨k0_dev13 c, k0_dev13_lt c⟩ : Dev nD) = partner c := by revert c; decide +kernel
theorem dev14_eq (c : Dev nD) : (⟨k0_dev14 c, k0_dev14_lt c⟩ : Dev nD) = buddy c := by revert c; decide +kernel
theorem dev15_eq (c : Dev nD) : (⟨k0_dev15 c, k0_dev15_lt c⟩ : Dev nD) = zpair c := by revert c; decide +kernel
theorem dev16_eq (c : Dev nD) : (⟨k0_dev16 c, k0_dev16_lt c⟩ : Dev nD) = buddy c := by revert c; decide +kernel
theorem dev17_eq (c : Dev nD) : (⟨k0_dev17 c, k0_dev17_lt c⟩ : Dev nD) = zpair c := by revert c; decide +kernel
theorem dev18_eq (c : Dev nD) : (⟨k0_dev18 c, k0_dev18_lt c⟩ : Dev nD) = buddy c := by revert c; decide +kernel
theorem dev19_eq (c : Dev nD) : (⟨k0_dev19 c, k0_dev19_lt c⟩ : Dev nD) = zpair c := by revert c; decide +kernel
theorem dev20_eq (c : Dev nD) : (⟨k0_dev20 c, k0_dev20_lt c⟩ : Dev nD) = buddy c := by revert c; decide +kernel
theorem dev21_eq (c : Dev nD) : (⟨k0_dev21 c, k0_dev21_lt c⟩ : Dev nD) = zpair c := by revert c; decide +kernel
theorem dev22_eq (c : Dev nD) : (⟨k0_dev22 c, k0_dev22_lt c⟩ : Dev nD) = buddy c := by revert c; decide +kernel
theorem dev23_eq (c : Dev nD) : (⟨k0_dev23 c, k0_dev23_lt c⟩ : Dev nD) = zpair c := by revert c; decide +kernel
theorem dev24_eq (c : Dev nD) : (⟨k0_dev24 c, k0_dev24_lt c⟩ : Dev nD) = buddy c := by revert c; decide +kernel
theorem dev25_eq (c : Dev nD) : (⟨k0_dev25 c, k0_dev25_lt c⟩ : Dev nD) = zpair c := by revert c; decide +kernel
theorem dev26_eq (c : Dev nD) : (⟨k0_dev26 c, k0_dev26_lt c⟩ : Dev nD) = buddy c := by revert c; decide +kernel
theorem dev27_eq (c : Dev nD) : (⟨k0_dev27 c, k0_dev27_lt c⟩ : Dev nD) = zpair c := by revert c; decide +kernel
theorem dev28_eq (c : Dev nD) : (⟨k0_dev28 c, k0_dev28_lt c⟩ : Dev nD) = buddy c := by revert c; decide +kernel
theorem dev29_eq (c : Dev nD) : (⟨k0_dev29 c, k0_dev29_lt c⟩ : Dev nD) = zpair c := by revert c; decide +kernel
theorem dev30_eq (c : Dev nD) : (⟨k0_dev30 c, k0_dev30_lt c⟩ : Dev nD) = buddy c := by revert c; decide +kernel
theorem dev31_eq (c : Dev nD) : (⟨k0_dev31 c, k0_dev31_lt c⟩ : Dev nD) = buddy c := by revert c; decide +kernel
theorem dev32_eq (c : Dev nD) : (⟨k0_dev32 c, k0_dev32_lt c⟩ : Dev nD) = buddy c := by revert c; decide +kernel
theorem dev33_eq (c : Dev nD) : (⟨k0_dev33 c, k0_dev33_lt c⟩ : Dev nD) = zpair c := by revert c; decide +kernel
theorem dev34_eq (c : Dev nD) : (⟨k0_dev34 c, k0_dev34_lt c⟩ : Dev nD) = zpair c := by revert c; decide +kernel
theorem dev35_eq (c : Dev nD) : (⟨k0_dev35 c, k0_dev35_lt c⟩ : Dev nD) = zpair c := by revert c; decide +kernel

/-! ## The three peers are three different devices, none the device itself, and the flips commute -/

theorem partner_ne (c : Dev nD) : partner c ≠ c := by revert c; decide
theorem buddy_ne (c : Dev nD) : buddy c ≠ c := by revert c; decide
theorem zpair_ne (c : Dev nD) : zpair c ≠ c := by revert c; decide
theorem partner_ne_buddy (c : Dev nD) : partner c ≠ buddy c := by revert c; decide
theorem partner_ne_zpair (c : Dev nD) : partner c ≠ zpair c := by revert c; decide
theorem buddy_ne_zpair (c : Dev nD) : buddy c ≠ zpair c := by revert c; decide
theorem partner_buddy_comm (c : Dev nD) : partner (buddy c) = buddy (partner c) := by revert c; decide
theorem partner_zpair_comm (c : Dev nD) : partner (zpair c) = zpair (partner c) := by revert c; decide
theorem buddy_zpair_comm (c : Dev nD) : buddy (zpair c) = zpair (buddy c) := by revert c; decide

/-! ## What a device sends is what its receiver adds

A device sends its partner the rows of its own quadrant (and, in the two direct chunks, of the
diagonal quadrant) in the partner's column half. Read from the receiving side: the block that
arrives from the partner, from the partner of the z peer, from the partner of the y peer and from
the partner of the diagonal device is the block at the receiver's own, z, y and diagonal row
quadrant, in the receiver's own column half. -/

theorem off1_partner (c : Dev nD) (k : Fin 8) :
    k0_off1 (partner c) (BitVec.ofNat 32 (64 * k.val)) = k0_off3 c (BitVec.ofNat 32 (64 * k.val)) := by
  revert c k; decide +kernel
theorem off1_partner_zpair (c : Dev nD) (k : Fin 8) :
    k0_off1 (partner (zpair c)) (BitVec.ofNat 32 (64 * k.val)) = k0_off5 c (BitVec.ofNat 32 (64 * k.val)) := by
  revert c k; decide +kernel
theorem off1_partner_buddy (c : Dev nD) (k : Fin 8) :
    k0_off1 (partner (buddy c)) (BitVec.ofNat 32 (64 * k.val)) = k0_off7 c (BitVec.ofNat 32 (64 * k.val)) := by
  revert c k; decide +kernel
theorem off2_partner (c : Dev nD) (j : Fin 2) :
    k0_off2 (partner c) (BitVec.ofNat 32 (384 + 64 * j.val)) = k0_off9 c (BitVec.ofNat 32 (64 * (6 + j.val))) := by
  revert c j; decide +kernel
theorem off1_partner_zpair_buddy (c : Dev nD) (k : Fin 8) :
    k0_off1 (partner (zpair (buddy c))) (BitVec.ofNat 32 (64 * k.val)) = k0_off9 c (BitVec.ofNat 32 (64 * k.val)) := by
  revert c k; decide +kernel
theorem off1_partner_buddy_zpair (c : Dev nD) (k : Fin 8) :
    k0_off1 (partner (buddy (zpair c))) (BitVec.ofNat 32 (64 * k.val)) = k0_off9 c (BitVec.ofNat 32 (64 * k.val)) := by
  revert c k; decide +kernel

/-! ## A sum is stored at the rows its local addend was loaded from

Each store to the output covers all 512 columns of the rows its load covers; each load reads
plane 0, and the columns of the device's own half, 512·x onwards. -/

theorem off4_row (c : Dev nD) (k : Fin 8) :
    (k0_off4 c (BitVec.ofNat 32 (64 * k.val))) 0 = (k0_off3 c (BitVec.ofNat 32 (64 * k.val))) 1 := by
  revert c k; decide +kernel
theorem off6_row (c : Dev nD) (k : Fin 8) :
    (k0_off6 c (BitVec.ofNat 32 (64 * k.val))) 0 = (k0_off5 c (BitVec.ofNat 32 (64 * k.val))) 1 := by
  revert c k; decide +kernel
theorem off8_row (c : Dev nD) (k : Fin 8) :
    (k0_off8 c (BitVec.ofNat 32 (64 * k.val))) 0 = (k0_off7 c (BitVec.ofNat 32 (64 * k.val))) 1 := by
  revert c k; decide +kernel
theorem off10_row (c : Dev nD) (k : Fin 8) :
    (k0_off10 c (BitVec.ofNat 32 (64 * k.val))) 0 = (k0_off9 c (BitVec.ofNat 32 (64 * k.val))) 1 := by
  revert c k; decide +kernel

theorem off4_col (c : Dev nD) (k : Fin 8) : (k0_off4 c (BitVec.ofNat 32 (64 * k.val))) 1 = 0 := by
  revert c k; decide +kernel
theorem off6_col (c : Dev nD) (k : Fin 8) : (k0_off6 c (BitVec.ofNat 32 (64 * k.val))) 1 = 0 := by
  revert c k; decide +kernel
theorem off8_col (c : Dev nD) (k : Fin 8) : (k0_off8 c (BitVec.ofNat 32 (64 * k.val))) 1 = 0 := by
  revert c k; decide +kernel
theorem off10_col (c : Dev nD) (k : Fin 8) : (k0_off10 c (BitVec.ofNat 32 (64 * k.val))) 1 = 0 := by
  revert c k; decide +kernel

theorem off3_col (c : Dev nD) (k : Fin 8) :
    (k0_off3 c (BitVec.ofNat 32 (64 * k.val))) 2 = 512 * (c.val / 8) := by revert c k; decide +kernel
theorem off5_col (c : Dev nD) (k : Fin 8) :
    (k0_off5 c (BitVec.ofNat 32 (64 * k.val))) 2 = 512 * (c.val / 8) := by revert c k; decide +kernel
theorem off7_col (c : Dev nD) (k : Fin 8) :
    (k0_off7 c (BitVec.ofNat 32 (64 * k.val))) 2 = 512 * (c.val / 8) := by revert c k; decide +kernel
theorem off9_col (c : Dev nD) (k : Fin 8) :
    (k0_off9 c (BitVec.ofNat 32 (64 * k.val))) 2 = 512 * (c.val / 8) := by revert c k; decide +kernel

theorem off3_plane (c : Dev nD) (k : Fin 8) : (k0_off3 c (BitVec.ofNat 32 (64 * k.val))) 0 = 0 := by
  revert c k; decide +kernel
theorem off5_plane (c : Dev nD) (k : Fin 8) : (k0_off5 c (BitVec.ofNat 32 (64 * k.val))) 0 = 0 := by
  revert c k; decide +kernel
theorem off7_plane (c : Dev nD) (k : Fin 8) : (k0_off7 c (BitVec.ofNat 32 (64 * k.val))) 0 = 0 := by
  revert c k; decide +kernel
theorem off9_plane (c : Dev nD) (k : Fin 8) : (k0_off9 c (BitVec.ofNat 32 (64 * k.val))) 0 = 0 := by
  revert c k; decide +kernel

/-! ## The four row quadrants

The rows 0 … 2047 of the output fall into four quadrants of 512 rows. A device adds into its own
quadrant (2y + zb), the z peer's (2y + 1 − zb), the y peer's (2(1 − y) + zb) and the diagonal one
(2(1 − y) + 1 − zb): four different quadrants, so all of them; chunk k of a quadrant is its rows
64k … 64k + 63. -/

/-- First row of the device's own quadrant. -/
def rq3 (c : Dev nD) : ℕ := (k0_off3 c (BitVec.ofNat 32 0)) 1
/-- First row of the z peer's quadrant. -/
def rq5 (c : Dev nD) : ℕ := (k0_off5 c (BitVec.ofNat 32 0)) 1
/-- First row of the y peer's quadrant. -/
def rq7 (c : Dev nD) : ℕ := (k0_off7 c (BitVec.ofNat 32 0)) 1
/-- First row of the diagonal quadrant. -/
def rq9 (c : Dev nD) : ℕ := (k0_off9 c (BitVec.ofNat 32 0)) 1

theorem rq_perm (c : Dev nD) : ({rq3 c, rq5 c, rq7 c, rq9 c} : Finset ℕ) = {0, 512, 1024, 1536} := by
  revert c; decide +kernel

theorem off3_row (c : Dev nD) (k : Fin 8) :
    (k0_off3 c (BitVec.ofNat 32 (64 * k.val))) 1 = rq3 c + 64 * k.val := by revert c k; decide +kernel
theorem off5_row (c : Dev nD) (k : Fin 8) :
    (k0_off5 c (BitVec.ofNat 32 (64 * k.val))) 1 = rq5 c + 64 * k.val := by revert c k; decide +kernel
theorem off7_row (c : Dev nD) (k : Fin 8) :
    (k0_off7 c (BitVec.ofNat 32 (64 * k.val))) 1 = rq7 c + 64 * k.val := by revert c k; decide +kernel
theorem off9_row (c : Dev nD) (k : Fin 8) :
    (k0_off9 c (BitVec.ofNat 32 (64 * k.val))) 1 = rq9 c + 64 * k.val := by revert c k; decide +kernel

end Cert.KernelIdeal.RS

end
-- ==== Proof.Proto.lean ====
import proofs.«901033_g7700000000001034_dist_rs_v7x_xyz2x2x4_x_m2048_n512_bf16_1_alg».proof.Proof.Mesh
import proofs.«901033_g7700000000001034_dist_rs_v7x_xyz2x2x4_x_m2048_n512_bf16_1_alg».proof.Proof.Gen.KernelIdeal.Skeleton
import proofs.«901033_g7700000000001034_dist_rs_v7x_xyz2x2x4_x_m2048_n512_bf16_1_alg».proof.Proof.Gen.KernelIdeal.Launch
import proofs.«901033_g7700000000001034_dist_rs_v7x_xyz2x2x4_x_m2048_n512_bf16_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.ValueIdx

set_option maxRecDepth 16384

noncomputable section

namespace Cert.KernelIdeal.RS

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The buffers and their slots -/

abbrev xM : Memref sig .tc .vmem S1x2048x1024 .f32 := Memref.whole cc0_stg0_0
abbrev oM : Memref sig .tc .vmem S2048x512 .bf16 := Memref.whole cc0_stg1_0
abbrev sxM : Memref sig .tc .vmem S8x64x512 .bf16 := Memref.whole cc0_scratch0
abbrev sx2M : Memref sig .tc .vmem S2x64x512 .bf16 := Memref.whole cc0_scratch1
abbrev rxM : Memref sig .tc .vmem S8x64x512 .bf16 := Memref.whole cc0_scratch2
abbrev rx2M : Memref sig .tc .vmem S2x64x512 .bf16 := Memref.whole cc0_scratch3
abbrev rydM : Memref sig .tc .vmem S8x64x512 .bf16 := Memref.whole cc0_scratch4
abbrev rzdM : Memref sig .tc .vmem S8x64x512 .bf16 := Memref.whole cc0_scratch5
abbrev ryrM : Memref sig .tc .vmem S3x64x512 .bf16 := Memref.whole cc0_scratch6
abbrev rzrM : Memref sig .tc .vmem S3x64x512 .bf16 := Memref.whole cc0_scratch7

theorem inb8 (k : Fin 8) : ∀ a, (![k.val, 0, 0] : Fin 3 → Nat) a + S1x64x512.size a ≤ S8x64x512.size a := by
  revert k; decide
theorem inb2 (k : Fin 2) : ∀ a, (![k.val, 0, 0] : Fin 3 → Nat) a + S1x64x512.size a ≤ S2x64x512.size a := by
  revert k; decide
theorem inb3 (k : Fin 3) : ∀ a, (![k.val, 0, 0] : Fin 3 → Nat) a + S1x64x512.size a ≤ S3x64x512.size a := by
  revert k; decide

/-- Slot `k` of a buffer of eight 64 × 512 chunks, as the kernel slices it. -/
def slot8 (M : Memref sig .tc .vmem S8x64x512 .bf16) (k : Fin 8) : Memref sig .tc .vmem S64x512 .bf16 :=
  (M.slice (Rect.unit (s := S8x64x512) ![k.val, 0, 0] S1x64x512.size (inb8 k)) (fun _ => rfl)).squeeze S64x512 squeezes_S1x64x512_S64x512
def slot2 (M : Memref sig .tc .vmem S2x64x512 .bf16) (k : Fin 2) : Memref sig .tc .vmem S64x512 .bf16 :=
  (M.slice (Rect.unit (s := S2x64x512) ![k.val, 0, 0] S1x64x512.size (inb2 k)) (fun _ => rfl)).squeeze S64x512 squeezes_S1x64x512_S64x512
def slot3 (M : Memref sig .tc .vmem S3x64x512 .bf16) (k : Fin 3) : Memref sig .tc .vmem S64x512 .bf16 :=
  (M.slice (Rect.unit (s := S3x64x512) ![k.val, 0, 0] S1x64x512.size (inb3 k)) (fun _ => rfl)).squeeze S64x512 squeezes_S1x64x512_S64x512

example : slot8 rxM 0 = ((rxM.slice (Rect.unit (s := S8x64x512) ![0, 0, 0] S1x64x512.size inb_S8x64x512_S1x64x512_0_0_0) (fun _ => rfl)).squeeze S64x512 squeezes_S1x64x512_S64x512) := rfl

/-! ## Contents: what each buffer holds once its last chunk has landed, as one function of the launch memory -/

def xstg (c : Dev nD) : (cc0_stg0_0 : Ref sig .tc).ty.Contents (Elt F) :=
  (win0_0.blk (0 : Fin 1)).view.read (Elt F) (m ((c : Thread nD τ).loc main_arg0))

/-- The send buffer of device `c`: chunk `k` is rows `r_self c + 64 k …` of the PARTNER's columns of `c`'s block, cast. -/
def SX (c : Dev nD) : (cc0_scratch0 : Ref sig .tc).ty.Contents (Elt F) := fun i =>
  k0_pay1 ((xM : Memref sig .tc .vmem S1x2048x1024 .f32).view.readAt (Elt F)
    (Rect.unit (s := S1x2048x1024) (k0_off1 c (BitVec.ofNat 32 (64 * (i 0).val))) S1x64x512.size (k0_off1_inb c (i 0))).toLoadRect (xstg m c))
    (ValueIdx.ix3 (0 : Fin 1) (i 1) (i 2))
/-- The second send buffer: chunk `j` is rows `r_d c + 64 (6 + j) …` of the partner's columns. -/
def SX2 (c : Dev nD) : (cc0_scratch1 : Ref sig .tc).ty.Contents (Elt F) := fun i =>
  k0_pay1 ((xM : Memref sig .tc .vmem S1x2048x1024 .f32).view.readAt (Elt F)
    (Rect.unit (s := S1x2048x1024) (k0_off2 c (BitVec.ofNat 32 (384 + 64 * (i 0).val))) S1x64x512.size (k0_off2_inb c (i 0))).toLoadRect (xstg m c))
    (ValueIdx.ix3 (0 : Fin 1) (i 1) (i 2))
def RX (c : Dev nD) : (cc0_scratch2 : Ref sig .tc).ty.Contents (Elt F) := SX m (partner c)
def RX2 (c : Dev nD) : (cc0_scratch3 : Ref sig .tc).ty.Contents (Elt F) := SX2 m (partner c)
def RYD (c : Dev nD) : (cc0_scratch4 : Ref sig .tc).ty.Contents (Elt F) := RX m (buddy c)
def RZD (c : Dev nD) : (cc0_scratch5 : Ref sig .tc).ty.Contents (Elt F) := RX m (zpair c)
/-- chunk `i` (of three) is chunk `i` of the buddy's z-forwarded buffer -/
def RYR (c : Dev nD) : (cc0_scratch6 : Ref sig .tc).ty.Contents (Elt F) := fun i =>
  RZD m (buddy c) (ValueIdx.ix3 (⟨(i 0).val, Nat.lt_trans (show (i 0).val < 3 from (i 0).isLt) (by decide)⟩ : Fin 8) (i 1) (i 2))
/-- chunk `i` (of three) is chunk `i + 3` of the z-pair's y-forwarded buffer -/
def RZR (c : Dev nD) : (cc0_scratch7 : Ref sig .tc).ty.Contents (Elt F) := fun i =>
  RYD m (zpair c) (ValueIdx.ix3 (⟨(i 0).val + 3, by have h : (i 0).val < 3 := (i 0).isLt; omega⟩ : Fin 8) (i 1) (i 2))

/-! ## Cells -/

abbrev barS : Sem sig := (SemArray.scalar (sig.barrier 0 rfl) : Sems sig S_).sem
abbrev barCell (c : Dev nD) : GSem nD τ sig := ((c : Thread nD τ), .reg barS)
abbrev dcell (c : Dev nD) (s : DmaSem sig) : GSem nD τ sig := ((c : Thread nD τ), .dma s)

/-- DMA semaphore number `b + k`: chunk `k` of an array of `n` semaphores laid from number `b`. -/
def dsem (b n : ℕ) (h : b + n ≤ 66) (k : Fin n) : DmaSem sig := ⟨b + k.val, (show b + k.val < 66 from by have := k.isLt; omega)⟩

abbrev Nc : ℕ := (slot8 rxM 0).view.dmaCredit

/-! ## The semaphores, by what they count -/

abbrev sxS (k : Fin 8) : DmaSem sig := dsem 2 8 (by decide) k
abbrev rxS (k : Fin 8) : DmaSem sig := dsem 10 8 (by decide) k
abbrev sx2S (k : Fin 2) : DmaSem sig := dsem 18 2 (by decide) k
abbrev rx2S (k : Fin 2) : DmaSem sig := dsem 20 2 (by decide) k
abbrev sydS (k : Fin 8) : DmaSem sig := dsem 22 8 (by decide) k
abbrev rydS (k : Fin 8) : DmaSem sig := dsem 30 8 (by decide) k
abbrev szdS (k : Fin 8) : DmaSem sig := dsem 38 8 (by decide) k
abbrev rzdS (k : Fin 8) : DmaSem sig := dsem 46 8 (by decide) k
abbrev syrS (k : Fin 3) : DmaSem sig := dsem 54 3 (by decide) k
abbrev ryrS (k : Fin 3) : DmaSem sig := dsem 57 3 (by decide) k
abbrev szrS (k : Fin 3) : DmaSem sig := dsem 60 3 (by decide) k
abbrev rzrS (k : Fin 3) : DmaSem sig := dsem 63 3 (by decide) k

example : ((cc0_scratch8.slice (Rect.unit (s := S8) ![3] S1.size inb_S8_S1_3)).squeeze S_ squeezes_S1_S_).sem = sxS 3 := by decide

/-- chunk `k + 3` of eight, for `k` of three -/
abbrev up3 (k : Fin 3) : Fin 8 := ⟨k.val + 3, by omega⟩
abbrev in8 (k : Fin 3) : Fin 8 := ⟨k.val, by omega⟩

/-! ## The schedule: one round; a barrier cell three unit duties (from partner, buddy, z-pair), a DMA cell one -/

/-- Chunk `k` of each buffer of device `c` at share `q`, the buffer read at its final contents. -/
def sxPts (c : Dev nD) (k : Fin 8) (q : PosShare TreeShare) : sProp 𝕄 :=
  (slot8 sxM k).view.loc (c : Thread nD τ) ↦[(slot8 sxM k).view.set]{q} SX m c
def sx2Pts (c : Dev nD) (k : Fin 2) (q : PosShare TreeShare) : sProp 𝕄 :=
  (slot2 sx2M k).view.loc (c : Thread nD τ) ↦[(slot2 sx2M k).view.set]{q} SX2 m c
def rxPts (c : Dev nD) (k : Fin 8) (q : PosShare TreeShare) : sProp 𝕄 :=
  (slot8 rxM k).view.loc (c : Thread nD τ) ↦[(slot8 rxM k).view.set]{q} RX m c
def rx2Pts (c : Dev nD) (k : Fin 2) (q : PosShare TreeShare) : sProp 𝕄 :=
  (slot2 rx2M k).view.loc (c : Thread nD τ) ↦[(slot2 rx2M k).view.set]{q} RX2 m c
def rydPts (c : Dev nD) (k : Fin 8) (q : PosShare TreeShare) : sProp 𝕄 :=
  (slot8 rydM k).view.loc (c : Thread nD τ) ↦[(slot8 rydM k).view.set]{q} RYD m c
def rzdPts (c : Dev nD) (k : Fin 8) (q : PosShare TreeShare) : sProp 𝕄 :=
  (slot8 rzdM k).view.loc (c : Thread nD τ) ↦[(slot8 rzdM k).view.set]{q} RZD m c
def ryrPts (c : Dev nD) (k : Fin 3) (q : PosShare TreeShare) : sProp 𝕄 :=
  (slot3 ryrM k).view.loc (c : Thread nD τ) ↦[(slot3 ryrM k).view.set]{q} RYR m c
def rzrPts (c : Dev nD) (k : Fin 3) (q : PosShare TreeShare) : sProp 𝕄 :=
  (slot3 rzrM k).view.loc (c : Thread nD τ) ↦[(slot3 rzrM k).view.set]{q} RZR m c

omit [FloatOps F] in
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance

omit [FloatOps F] in
instance sxPts_storable (c : Dev nD) (k) (q) : BI.Storable (upEmb : UEmb _ 𝕄) (sxPts (F := F) m c k q) := by unfold sxPts; exact pts_storable _ _ _ _
omit [FloatOps F] in
instance sx2Pts_storable (c : Dev nD) (k) (q) : BI.Storable (upEmb : UEmb _ 𝕄) (sx2Pts (F := F) m c k q) := by unfold sx2Pts; exact pts_storable _ _ _ _
omit [FloatOps F] in
instance rxPts_storable (c : Dev nD) (k) (q) : BI.Storable (upEmb : UEmb _ 𝕄) (rxPts (F := F) m c k q) := by unfold rxPts; exact pts_storable _ _ _ _
omit [FloatOps F] in
instance rx2Pts_storable (c : Dev nD) (k) (q) : BI.Storable (upEmb : UEmb _ 𝕄) (rx2Pts (F := F) m c k q) := by unfold rx2Pts; exact pts_storable _ _ _ _
omit [FloatOps F] in
instance rydPts_storable (c : Dev nD) (k) (q) : BI.Storable (upEmb : UEmb _ 𝕄) (rydPts (F := F) m c k q) := by unfold rydPts; exact pts_storable _ _ _ _
omit [FloatOps F] in
instance rzdPts_storable (c : Dev nD) (k) (q) : BI.Storable (upEmb : UEmb _ 𝕄) (rzdPts (F := F) m c k q) := by unfold rzdPts; exact pts_storable _ _ _ _
omit [FloatOps F] in
instance ryrPts_storable (c : Dev nD) (k) (q) : BI.Storable (upEmb : UEmb _ 𝕄) (ryrPts (F := F) m c k q) := by unfold ryrPts; exact pts_storable _ _ _ _
omit [FloatOps F] in
instance rzrPts_storable (c : Dev nD) (k) (q) : BI.Storable (upEmb : UEmb _ 𝕄) (rzrPts (F := F) m c k q) := by unfold rzrPts; exact pts_storable _ _ _ _

/-- A number as a chunk index (the number itself when in range). -/
def fin8 (n : ℕ) : Fin 8 := ⟨n % 8, Nat.mod_lt _ (by decide)⟩
def fin2 (n : ℕ) : Fin 2 := ⟨n % 2, Nat.mod_lt _ (by decide)⟩
def fin3 (n : ℕ) : Fin 3 := ⟨n % 3, Nat.mod_lt _ (by decide)⟩

/-- Some contents of a whole scratch buffer of device `c`. -/
def anyBuf (c : Dev nD) (b : Ref sig .tc) : sProp 𝕄 := iprop(∃ f : Buf (Elt F) ((c : Thread nD τ).loc b), ((c : Thread nD τ).loc b) ↦{fullShare} f)

/-- What the signal of duty `d` hands device `c`: the two landing buffers of the signalling peer that `c` writes. -/
def barPay (c : Dev nD) (d : Fin 3) : sProp 𝕄 :=
  if d = 0 then iprop(anyBuf (partner c) cc0_scratch2 ∗ anyBuf (partner c) cc0_scratch3)
  else if d = 1 then iprop(anyBuf (buddy c) cc0_scratch4 ∗ anyBuf (buddy c) cc0_scratch6)
  else iprop(anyBuf (zpair c) cc0_scratch5 ∗ anyBuf (zpair c) cc0_scratch7)

/-- What the completion counted on DMA semaphore number `s` of device `c` hands `c`: a source slot's share back (send
    semaphores), or a landing slot at its final contents (receive semaphores). -/
def dmaPay (c : Dev nD) (s : ℕ) : sProp 𝕄 :=
  if s < 2 then iprop(emp)
  else if s < 10 then sxPts m c (fin8 (s - 2)) fullShare
  else if s < 18 then rxPts m c (fin8 (s - 10)) fullShare
  else if s < 20 then sx2Pts m c (fin2 (s - 18)) fullShare
  else if s < 22 then rx2Pts m c (fin2 (s - 20)) fullShare
  else if s < 30 then rxPts m c (fin8 (s - 22)) fullShare.left
  else if s < 38 then rydPts m c (fin8 (s - 30)) fullShare
  else if s < 46 then rxPts m c (fin8 (s - 38)) fullShare.right.left
  else if s < 54 then rzdPts m c (fin8 (s - 46)) fullShare
  else if s < 57 then rzdPts m c (fin8 (s - 54)) fullShare.left
  else if s < 60 then ryrPts m c (fin3 (s - 57)) fullShare
  else if s < 63 then rydPts m c (fin8 (s - 60 + 3)) fullShare.left
  else rzrPts m c (fin3 (s - 63)) fullShare

def sched : Rounds.Schedule (GSem nD τ sig) (Fin 3) 𝕄 where
  duties g r := if r = 0 ∧ g.1.2 = .tc then
      (match g.2 with | .reg _ => Finset.univ | .dma s => if 2 ≤ s.val then {0} else ∅) else ∅
  unitless _ := False
  amount g _ _ := match g.2 with | .reg _ => 1 | .dma _ => Nc
  payload g _ d := match g.2 with | .reg _ => barPay g.1.1 d | .dma s => dmaPay m g.1.1 s.val
  amount_pos g _ _ _ := by
    cases g.2 with
    | reg _ => exact Nat.one_pos
    | dma _ => exact View.dmaCredit_pos _ (by decide)

omit [FloatOps F] in
instance ite_storable (p : Prop) [Decidable p] (P Q : sProp 𝕄) [BI.Storable (upEmb : UEmb _ 𝕄) P] [BI.Storable (upEmb : UEmb _ 𝕄) Q] :
    BI.Storable (upEmb : UEmb _ 𝕄) (if p then P else Q) := by split <;> infer_instance

instance dmaPay_storable (c : Dev nD) (s : ℕ) : BI.Storable (upEmb : UEmb _ 𝕄) (dmaPay (F := F) m c s) := by
  unfold dmaPay; infer_instance
omit [FloatOps F] in
instance barPay_storable (c : Dev nD) (d : Fin 3) : BI.Storable (upEmb : UEmb _ 𝕄) (barPay (F := F) c d) := by
  unfold barPay anyBuf; infer_instance

instance sched_payload_storable (g : GSem nD τ sig) (r : ℕ) (d : Fin 3) :
    BI.Storable (upEmb : UEmb _ 𝕄) ((sched (F := F) m).payload g r d) := by
  show BI.Storable upEmb (match g.2 with | .reg _ => barPay g.1.1 d | .dma s => dmaPay m g.1.1 s.val)
  cases g.2 with
  | reg _ => dsimp only; infer_instance
  | dma s => dsimp only; infer_instance

/-! ## What each device owes at launch, in the order it pays; the levels -/

/-- The payments of device `c` in program order: three barrier units, then the landing credit of each of its 32 copies. -/
def pays (c : Dev nD) : List (GSem nD τ sig × ℕ) :=
  [(barCell (partner c), 1), (barCell (buddy c), 1), (barCell (zpair c), 1)]
  ++ (List.finRange 8).map (fun k => (dcell (partner c) (rxS k), Nc))
  ++ (List.finRange 2).map (fun k => (dcell (partner c) (rx2S k), Nc))
  ++ (List.finRange 8).flatMap (fun k => [(dcell (buddy c) (rydS k), Nc), (dcell (zpair c) (rzdS k), Nc)])
  ++ (List.finRange 3).map (fun k => (dcell (buddy c) (ryrS k), Nc))
  ++ (List.finRange 3).map (fun k => (dcell (zpair c) (rzrS k), Nc))

/-- What is owed for a list of payments still to make; the head is the next one. -/
def owe (l : List (GSem nD τ sig × ℕ)) : CellTallies nD τ sig Unit :=
  l.foldr (fun p acc => acc + tallyAt p.1 () p.2) 0

theorem owe_cons (p : GSem nD τ sig × ℕ) (l : List (GSem nD τ sig × ℕ)) : owe (p :: l) = owe l + tallyAt p.1 () p.2 := rfl
theorem owe_nil : owe ([] : List (GSem nD τ sig × ℕ)) = 0 := rfl

def O₀ (c : Dev nD) : CellTallies nD τ sig Unit := owe (pays c)

def L (g : GSem nD τ sig) : Finset Unit := if g.1.2 = .tc then {()} else ∅
/-- Levels: a wait is below everything its waiter still owes. Send and staging cells 0; barrier cells 1; the partner's
    landings 2; the first-hop landings 3; the second-hop landings 4. -/
def lv (g : GSem nD τ sig) (_ : Unit) : ℕ :=
  match g.2 with
  | .reg _ => 1
  | .dma s => if 10 ≤ s.val ∧ s.val < 18 then 2 else if 20 ≤ s.val ∧ s.val < 22 then 2
      else if 30 ≤ s.val ∧ s.val < 38 then 3 else if 46 ≤ s.val ∧ s.val < 54 then 3
      else if 57 ≤ s.val ∧ s.val < 60 then 4 else if 63 ≤ s.val then 4 else 0

/-! ## The cells and tokens of the whole mesh -/

/-- Cell number `j` of device `c`: number 0 its barrier cell, number `j + 1` its DMA semaphore `j + 2`. -/
def kcell (cj : Dev nD × Fin 65) : GSem nD τ sig :=
  if cj.2.val = 0 then barCell cj.1
  else dcell cj.1 ⟨cj.2.val + 1, (show cj.2.val + 1 < 66 from by have := cj.2.isLt; omega)⟩
def allCells : Finset (GSem nD τ sig) := Finset.univ.image kcell

/-- Token number `j` of device `c`'s cells: numbers 0, 1, 2 its barrier cell's three duties, number `j + 3` the one duty
    of its DMA semaphore `j + 2`. -/
def ktok (cj : Dev nD × Fin 67) : GSem nD τ sig × ℕ × Fin 3 :=
  if h : cj.2.val < 3 then (barCell cj.1, 0, ⟨cj.2.val, h⟩)
  else (dcell cj.1 ⟨cj.2.val - 1, (show cj.2.val - 1 < 66 from by have := cj.2.isLt; omega)⟩, 0, 0)
def allToks : Finset (GSem nD τ sig × ℕ × Fin 3) := Finset.univ.image ktok

def u₀ : UU :=
  (initOf (Pipeline.cells cfgs cellOf_inj) (Pipeline.launchToks cfgs cellOf_inj), initOf allCells allToks)

/-- The kernel's own (scoped) semaphores as the launch indexes them: DMA semaphores 2 … 65. -/
abbrev osem : Fin 64 → SemLoc sig := fun j => .dma ⟨j.val + 2, (show j.val + 2 < 66 from by have := j.isLt; omega)⟩

/-! ## What a device's body starts from -/

/-- Every cell's invariant under the names `K`, and that round 0 of every cell is reached (persistent). -/
def records (K : GSem nD τ sig → ℕ) : sProp 𝕄 :=
  iprop((bigSep allCells fun g => cellInv ER (sched m) (K g) g) ∗ bigSep allCells fun g => reached ER g 0)

instance records_persistent (K : GSem nD τ sig → ℕ) : BI.Persistent (records m K) := by unfold records; infer_instance

/-- Device `c`'s position at round 0 of each of its 65 cells. -/
def positions (c : Dev nD) : sProp 𝕄 :=
  iprop(atPos ER (barCell c) 0 ∅ 0
    ∗ (bigSep Finset.univ fun k : Fin 8 => atPos ER (dcell c (sxS k)) 0 ∅ 0)
    ∗ (bigSep Finset.univ fun k : Fin 8 => atPos ER (dcell c (rxS k)) 0 ∅ 0)
    ∗ (bigSep Finset.univ fun k : Fin 2 => atPos ER (dcell c (sx2S k)) 0 ∅ 0)
    ∗ (bigSep Finset.univ fun k : Fin 2 => atPos ER (dcell c (rx2S k)) 0 ∅ 0)
    ∗ (bigSep Finset.univ fun k : Fin 8 => atPos ER (dcell c (sydS k)) 0 ∅ 0)
    ∗ (bigSep Finset.univ fun k : Fin 8 => atPos ER (dcell c (rydS k)) 0 ∅ 0)
    ∗ (bigSep Finset.univ fun k : Fin 8 => atPos ER (dcell c (szdS k)) 0 ∅ 0)
    ∗ (bigSep Finset.univ fun k : Fin 8 => atPos ER (dcell c (rzdS k)) 0 ∅ 0)
    ∗ (bigSep Finset.univ fun k : Fin 3 => atPos ER (dcell c (syrS k)) 0 ∅ 0)
    ∗ (bigSep Finset.univ fun k : Fin 3 => atPos ER (dcell c (ryrS k)) 0 ∅ 0)
    ∗ (bigSep Finset.univ fun k : Fin 3 => atPos ER (dcell c (szrS k)) 0 ∅ 0)
    ∗ (bigSep Finset.univ fun k : Fin 3 => atPos ER (dcell c (rzrS k)) 0 ∅ 0))

/-- The tokens of the duties device `c` pays: one barrier unit at each of its three peers; for each of its 32 copies the
    departure duty of its own send cell and the landing duty of the receiving peer's cell. -/
def payToks (c : Dev nD) : sProp 𝕄 :=
  iprop(dutyTok ER (barCell (partner c)) 0 0 ∗ dutyTok ER (barCell (buddy c)) 0 1 ∗ dutyTok ER (barCell (zpair c)) 0 2
    ∗ (bigSep Finset.univ fun k : Fin 8 => iprop(dutyTok ER (dcell c (sxS k)) 0 0 ∗ dutyTok ER (dcell (partner c) (rxS k)) 0 0))
    ∗ (bigSep Finset.univ fun k : Fin 2 => iprop(dutyTok ER (dcell c (sx2S k)) 0 0 ∗ dutyTok ER (dcell (partner c) (rx2S k)) 0 0))
    ∗ (bigSep Finset.univ fun k : Fin 8 => iprop(dutyTok ER (dcell c (sydS k)) 0 0 ∗ dutyTok ER (dcell (buddy c) (rydS k)) 0 0))
    ∗ (bigSep Finset.univ fun k : Fin 8 => iprop(dutyTok ER (dcell c (szdS k)) 0 0 ∗ dutyTok ER (dcell (zpair c) (rzdS k)) 0 0))
    ∗ (bigSep Finset.univ fun k : Fin 3 => iprop(dutyTok ER (dcell c (syrS k)) 0 0 ∗ dutyTok ER (dcell (buddy c) (ryrS k)) 0 0))
    ∗ (bigSep Finset.univ fun k : Fin 3 => iprop(dutyTok ER (dcell c (szrS k)) 0 0 ∗ dutyTok ER (dcell (zpair c) (rzrS k)) 0 0)))

/-- The credit tokens device `c` is dealt at launch: its barrier's three units and each landing cell's credit. -/
def creds (c : Dev nD) : sProp 𝕄 :=
  iprop(cred (tallyAt (barCell c) () 3)
    ∗ (bigSep Finset.univ fun k : Fin 8 => cred (tallyAt (dcell c (rxS k)) () Nc))
    ∗ (bigSep Finset.univ fun k : Fin 2 => cred (tallyAt (dcell c (rx2S k)) () Nc))
    ∗ (bigSep Finset.univ fun k : Fin 8 => cred (tallyAt (dcell c (rydS k)) () Nc))
    ∗ (bigSep Finset.univ fun k : Fin 8 => cred (tallyAt (dcell c (rzdS k)) () Nc))
    ∗ (bigSep Finset.univ fun k : Fin 3 => cred (tallyAt (dcell c (ryrS k)) () Nc))
    ∗ (bigSep Finset.univ fun k : Fin 3 => cred (tallyAt (dcell c (rzrS k)) () Nc)))

def ghost (K : GSem nD τ sig → ℕ) (c : Dev nD) : sProp 𝕄 := iprop(records m K ∗ positions c ∗ payToks c)

/-- What the launch's global step hands device `c`. -/
def G' (c : Dev nD) : sProp 𝕄 := iprop(∃ K, ghost m K c)

def start (c : Dev nD) : sProp 𝕄 := iprop(G' m c ∗ creds c ∗ levAts L lv)

/-- The eight scratch buffers of device `c`, each whole at some contents. -/
def scratch (c : Dev nD) : sProp 𝕄 :=
  iprop(anyBuf c cc0_scratch0 ∗ anyBuf c cc0_scratch1 ∗ anyBuf c cc0_scratch2 ∗ anyBuf c cc0_scratch3
    ∗ anyBuf c cc0_scratch4 ∗ anyBuf c cc0_scratch5 ∗ anyBuf c cc0_scratch6 ∗ anyBuf c cc0_scratch7)

def Φ₀ (c : Dev nD) : sProp 𝕄 := iprop(start m c ∗ scratch c)
/-- After the body: the scratch buffers whole again and the 64 own semaphores at zero, closed. -/
def Φ₁ (c : Dev nD) : sProp 𝕄 := iprop(scratch c ∗ bigSep Finset.univ fun j : Fin 64 => semVal ((c : Thread nD τ), osem j) 0)

/-! ## What the kernel leaves in the result block, and the pipeline's proof data -/

/-- The load the kernel makes of chunk `k` of a buffer of eight, of two, of three. -/
abbrev rect8 (k : Fin 8) : LoadRect S8x64x512 := (Rect.unit (s := S8x64x512) ![k.val, 0, 0] S1x64x512.size (inb8 k)).toLoadRect
abbrev rect2 (k : Fin 2) : LoadRect S2x64x512 := (Rect.unit (s := S2x64x512) ![k.val, 0, 0] S1x64x512.size (inb2 k)).toLoadRect
abbrev rect3 (k : Fin 3) : LoadRect S3x64x512 := (Rect.unit (s := S3x64x512) ![k.val, 0, 0] S1x64x512.size (inb3 k)).toLoadRect

/-- Row `r` of the result block lies in one of four quadrants of 512 rows — the device's own, its z-pair's, its buddy's
    and the diagonal one — and there in one of eight chunks of 64 rows; the entry is the device's own block plus the
    chunk that was routed to it: directly from the partner, through the z-pair, through the buddy, or (diagonal) through
    two of them or by the second direct copy. -/
def outAt (c : Dev nD) : (cc0_stg1_0 : Ref sig .tc).ty.Contents (Elt F) := fun i =>
  let r : ℕ := (i 0).val
  let k : Fin 8 := ⟨(r % 512) / 64, by omega⟩
  let y : S64x512.Idx := ValueIdx.ix2 (⟨r % 64, Nat.mod_lt _ (by decide)⟩ : Fin 64) (i 1)
  let xs (off : Fin 3 → ℕ) (h : ∀ a, off a + S1x64x512.size a ≤ S1x2048x1024.size a) : Vec F S1x64x512 .f32 :=
    (xM : Memref sig .tc .vmem S1x2048x1024 .f32).view.readAt (Elt F) (Rect.unit (s := S1x2048x1024) off S1x64x512.size h).toLoadRect (xstg m c)
  if r / 512 * 512 = rq3 c then
    k0_pay13 ((rxM : Memref sig .tc .vmem S8x64x512 .bf16).view.readAt (Elt F) (rect8 k) (RX m c)) (xs _ (k0_off3_inb c k)) y
  else if r / 512 * 512 = rq5 c then
    k0_pay13 ((rzdM : Memref sig .tc .vmem S8x64x512 .bf16).view.readAt (Elt F) (rect8 k) (RZD m c)) (xs _ (k0_off5_inb c k)) y
  else if r / 512 * 512 = rq7 c then
    k0_pay13 ((rydM : Memref sig .tc .vmem S8x64x512 .bf16).view.readAt (Elt F) (rect8 k) (RYD m c)) (xs _ (k0_off7_inb c k)) y
  else if h3 : k.val < 3 then
    k0_pay13 ((ryrM : Memref sig .tc .vmem S3x64x512 .bf16).view.readAt (Elt F) (rect3 ⟨k.val, h3⟩) (RYR m c)) (xs _ (k0_off9_inb c k)) y
  else if h6 : k.val < 6 then
    k0_pay13 ((rzrM : Memref sig .tc .vmem S3x64x512 .bf16).view.readAt (Elt F) (rect3 ⟨k.val - 3, by omega⟩) (RZR m c)) (xs _ (k0_off9_inb c k)) y
  else
    k0_pay13 ((rx2M : Memref sig .tc .vmem S2x64x512 .bf16).view.readAt (Elt F) (rect2 ⟨k.val - 6, by have := k.isLt; omega⟩) (RX2 m c)) (xs _ (k0_off9_inb c k)) y

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.RS

end
-- ==== Proof.Credit.lean ====
import proofs.«901033_g7700000000001034_dist_rs_v7x_xyz2x2x4_x_m2048_n512_bf16_1_alg».proof.Proof.Proto

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payments, counted -/

theorem pays_length (c : Dev nD) : (pays c).length = 35 := rfl

theorem owe_nil' (c : Dev nD) : owe ((pays c).drop 35) = 0 := by
  rw [List.drop_of_length_le (Nat.le_of_eq (pays_length c))]; rfl

/-- Something is owed to a cell only if a payment to that cell is still to make. -/
theorem owe_pos {l : List (GSem nD τ sig × ℕ)} {g : GSem nD τ sig} {u : Unit} (h : 0 < owe l g u) : ∃ p ∈ l, p.1 = g := by
  induction l with
  | nil => exact absurd h (Nat.lt_irrefl 0)
  | cons p l ih =>
    rw [owe_cons] at h
    rcases Pipeline.add_pos_cases h with h | h
    · obtain ⟨q, hq, rfl⟩ := ih h
      exact ⟨q, List.mem_cons_of_mem _ hq, rfl⟩
    · exact ⟨p, List.mem_cons_self, (Pipeline.tallyAt_pos h).1.symm⟩

theorem L_tc (c : Dev nD) (sm : SemLoc sig) : L ((c : Thread nD τ), sm) = {()} := if_pos rfl

/-! ## Waits: a wait at a level below everything still owed -/

omit [FloatOps F] in
theorem mayWait_drop (c : Dev nD) (sm : SemLoc sig) (n : ℕ)
    (h : ∀ p ∈ (pays c).drop n, p.1.1.2 = .tc ∧ lv ((c : Thread nD τ), sm) () < lv p.1 ()) :
    (levAts L lv : sProp 𝕄) ⊢ MayWait (c : Thread nD τ) sm () (owe ((pays c).drop n)) :=
  Pipeline.mayWait_of_levAts (by rw [L_tc]; exact Finset.mem_singleton_self _) fun g i hg => by
    obtain ⟨p, hp, rfl⟩ := owe_pos hg
    obtain ⟨h1, h2⟩ := h p hp
    cases i
    refine ⟨?_, h2⟩
    unfold L; rw [if_pos h1]; exact Finset.mem_singleton_self _

omit [FloatOps F] in
theorem mayWait_bar (c : Dev nD) :
    (levAts L lv : sProp 𝕄) ⊢ MayWait (c : Thread nD τ) (.reg barS) () (owe ((pays c).drop 3)) :=
  mayWait_drop c _ 3 (by revert c; decide)

omit [FloatOps F] in
theorem mayWait_rx (c : Dev nD) (k : Fin 8) :
    (levAts L lv : sProp 𝕄) ⊢ MayWait (c : Thread nD τ) (.dma (rxS k)) () (owe ((pays c).drop (13 + 2 * k.val))) :=
  mayWait_drop c _ _ (by revert c k; decide)

/-- The number of payments made before the wait for chunk `k` from the z peer. -/
def nRzd (k : Fin 8) : ℕ := ![29, 30, 31, 32, 33, 34, 35, 35] k
/-- The number of payments made before the wait for chunk `k` from the y peer. -/
def nRyd (k : Fin 8) : ℕ := ![30, 31, 32, 32, 33, 34, 35, 35] k

omit [FloatOps F] in
theorem mayWait_rzd (c : Dev nD) (k : Fin 8) :
    (levAts L lv : sProp 𝕄) ⊢ MayWait (c : Thread nD τ) (.dma (rzdS k)) () (owe ((pays c).drop (nRzd k))) :=
  mayWait_drop c _ _ (by revert c k; decide)

omit [FloatOps F] in
theorem mayWait_ryd (c : Dev nD) (k : Fin 8) :
    (levAts L lv : sProp 𝕄) ⊢ MayWait (c : Thread nD τ) (.dma (rydS k)) () (owe ((pays c).drop (nRyd k))) :=
  mayWait_drop c _ _ (by revert c k; decide)

/-- A staging semaphore sits at level 0. -/
theorem lv_stage (t : Thread nD τ) (q : DmaSem sig) (hq : q.val < 2) : lv (t, .dma q) () = 0 := by
  dsimp only [lv]
  split_ifs <;> first | rfl | omega

/-- Every payment is to a TensorCore's cell at a level of at least 1. -/
theorem pays_pos (c : Dev nD) : ∀ p ∈ pays c, p.1.1.2 = .tc ∧ 0 < lv p.1 () := by revert c; decide

omit [FloatOps F] in
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact mayWait_drop c (.dma q) 0 fun p hp => by rw [lv_stage _ q hq]; exact pays_pos c p hp
  · rw [MayWait_zero]; iintro -; iempintro

/-! ## What a device owes at launch, in closed form -/

theorem owe_append (l₁ l₂ : List (GSem nD τ sig × ℕ)) : owe (l₁ ++ l₂) = owe l₁ + owe l₂ := by
  induction l₁ with
  | nil => rw [List.nil_append, owe_nil, zero_add]
  | cons p l ih => rw [List.cons_append, owe_cons, owe_cons, ih, add_right_comm]

theorem owe_map {α : Type} (l : List α) (f : α → GSem nD τ sig × ℕ) :
    owe (l.map f) = (l.map fun x => (tallyAt (f x).1 () (f x).2 : CellTallies nD τ sig Unit)).sum := by
  induction l with
  | nil => rfl
  | cons a l ih => rw [List.map_cons, owe_cons, ih, List.map_cons, List.sum_cons, add_comm]

theorem owe_finRange_map (n : ℕ) (f : Fin n → GSem nD τ sig × ℕ) :
    owe ((List.finRange n).map f) = ∑ k : Fin n, (tallyAt (f k).1 () (f k).2 : CellTallies nD τ sig Unit) := by
  rw [owe_map, Fin.sum_univ_def]

theorem owe_flatMap {α : Type} (l : List α) (f : α → List (GSem nD τ sig × ℕ)) :
    owe (l.flatMap f) = (l.map fun x => owe (f x)).sum := by
  induction l with
  | nil => rfl
  | cons a l ih => rw [List.flatMap_cons, owe_append, ih, List.map_cons, List.sum_cons]

theorem owe_finRange_flatMap (n : ℕ) (f : Fin n → List (GSem nD τ sig × ℕ)) :
    owe ((List.finRange n).flatMap f) = ∑ k : Fin n, owe (f k) := by
  rw [owe_flatMap, Fin.sum_univ_def]

/-- What device `d` owes at launch: a unit to the barrier cell of each of its three peers, and the landing credit of
    each of its 32 copies to the receive cell of the peer it goes to. -/
theorem O₀_eq (d : Dev nD) : O₀ d =
    tallyAt (barCell (zpair d)) () 1 + tallyAt (barCell (buddy d)) () 1 + tallyAt (barCell (partner d)) () 1
      + ∑ k : Fin 8, tallyAt (dcell (partner d) (rxS k)) () Nc
      + ∑ k : Fin 2, tallyAt (dcell (partner d) (rx2S k)) () Nc
      + ∑ k : Fin 8, (tallyAt (dcell (zpair d) (rzdS k)) () Nc + tallyAt (dcell (buddy d) (rydS k)) () Nc)
      + ∑ k : Fin 3, tallyAt (dcell (buddy d) (ryrS k)) () Nc
      + ∑ k : Fin 3, tallyAt (dcell (zpair d) (rzrS k)) () Nc := by
  unfold O₀ pays
  simp only [owe_append, owe_finRange_map, owe_finRange_flatMap, owe_cons, owe_nil, zero_add]

/-! ## The launch credit

The peer maps are involutions, so the devices that pay a cell of device `c` are `c`'s own peers: its barrier
cell is paid one unit by each of its partner, its buddy and its z peer; each landing cell is paid its chunk's credit by the
one peer that copies into it. -/

omit [FloatOps F] in
/-- All devices owing one amount to cell `sm` of their peer under an involution `f`, device `c` is dealt that amount on its own `sm`. -/
theorem launch_one (f : Dev nD → Dev nD) (hf : ∀ c, f (f c) = c) (sm : SemLoc sig) (n : ℕ) (c : Dev nD) :
    (Pipeline.launchCred (fun d => tallyAt ((f d : Thread nD τ), sm) () n) c : sProp 𝕄) ⊢ cred (tallyAt ((c : Thread nD τ), sm) () n) :=
  Pipeline.launchCred_tallyAt sm f f hf hf () n c

omit [FloatOps F] in
/-- The same for a row of cells. -/
theorem launch_row {n : ℕ} (f : Dev nD → Dev nD) (hf : ∀ c, f (f c) = c) (S : Fin n → DmaSem sig) (c : Dev nD) :
    (Pipeline.launchCred (fun d => ∑ k : Fin n, tallyAt (dcell (f d) (S k)) () Nc) c : sProp 𝕄)
      ⊢ bigSep Finset.univ fun k : Fin n => cred (tallyAt (dcell c (S k)) () Nc) := by
  rw [Pipeline.launchCred_sum]
  exact bigSep_mono fun k _ => launch_one f hf (.dma (S k)) Nc c

omit [FloatOps F] in
theorem launch_bar (c : Dev nD) :
    (Pipeline.launchCred (fun d => tallyAt (barCell (zpair d)) () 1 + tallyAt (barCell (buddy d)) () 1 + tallyAt (barCell (partner d)) () 1) c : sProp 𝕄)
      ⊢ cred (tallyAt (barCell c) () 3) := by
  rw [Pipeline.launchCred_add, Pipeline.launchCred_add]
  refine (BI.sep_mono (BI.sep_mono (launch_one zpair zpair_zpair (.reg barS) 1 c) (launch_one buddy buddy_buddy (.reg barS) 1 c))
    (launch_one partner partner_partner (.reg barS) 1 c)).trans ?_
  refine (sep_mono_l (cred_add _ _).2).trans ((cred_add _ _).2.trans (Entails.of_eq ?_))
  rw [tallyAt_add, tallyAt_add]

omit [FloatOps F] in
/-- The first-hop landings: every chunk goes both to the z peer and to the y peer. -/
theorem launch_pair (c : Dev nD) :
    (Pipeline.launchCred (fun d => ∑ k : Fin 8, tallyAt (dcell (zpair d) (rzdS k)) () Nc + ∑ k : Fin 8, tallyAt (dcell (buddy d) (rydS k)) () Nc) c : sProp 𝕄)
      ⊢ iprop((bigSep Finset.univ fun k : Fin 8 => cred (tallyAt (dcell c (rzdS k)) () Nc))
          ∗ bigSep Finset.univ fun k : Fin 8 => cred (tallyAt (dcell c (rydS k)) () Nc)) := by
  rw [Pipeline.launchCred_add]
  exact BI.sep_mono (launch_row zpair zpair_zpair rzdS c) (launch_row buddy buddy_buddy rydS c)

omit [FloatOps F] in
theorem creds_of_launch (c : Dev nD) : (Pipeline.launchCred O₀ c : sProp 𝕄) ⊢ creds c := by
  rw [show (O₀ : Dev nD → CellTallies nD τ sig Unit) = _ from funext O₀_eq]
  simp only [Finset.sum_add_distrib]
  rw [Pipeline.launchCred_add, Pipeline.launchCred_add, Pipeline.launchCred_add, Pipeline.launchCred_add, Pipeline.launchCred_add]
  refine (sep_mono_left (sep_mono_left (sep_mono_right (launch_pair c)))).trans ?_
  unfold creds
  iintro ⟨⟨⟨⟨⟨Hb, Hrx⟩, Hrx2⟩, Hrzd, Hryd⟩, Hryr⟩, Hrzr⟩
  isplitl [Hb]
  · iapply (launch_bar c); iexact Hb
  isplitl [Hrx]
  · iapply (launch_row partner partner_partner rxS c); iexact Hrx
  isplitl [Hrx2]
  · iapply (launch_row partner partner_partner rx2S c); iexact Hrx2
  isplitl [Hryd]
  · iexact Hryd
  isplitl [Hrzd]
  · iexact Hrzd
  isplitl [Hryr]
  · iapply (launch_row buddy buddy_buddy ryrS c); iexact Hryr
  · iapply (launch_row zpair zpair_zpair rzrS c); iexact Hrzr

end Cert.KernelIdeal.RS

end
-- ==== Proof.Run.lean ====
import proofs.«901033_g7700000000001034_dist_rs_v7x_xyz2x2x4_x_m2048_n512_bf16_1_alg».proof.Proof.Proto
import proofs.«901033_g7700000000001034_dist_rs_v7x_xyz2x2x4_x_m2048_n512_bf16_1_alg».proof.Proof.Credit

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's side conditions -/

theorem L_of_ne (g : GSem nD τ sig) (h : g.1.2 ≠ .tc) : L g = ∅ := if_neg h

theorem share_eq (c : Dev nD) (w : Fin cfg0.W) : (dats m ρ 0 c).share w = fullShare := by unfold Dat.share; split <;> rfl

/-- The pipeline's two staging semaphores sit at level 0, below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch anyBuf
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch anyBuf Pipeline.ownSems0
  iintro ⟨Hr, Hz⟩
  isplitr; · iempintro
  isplitl [Hz]; · iexact Hz
  iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the mesh of sixteen devices, for any float values, from any memory with zero counters: given what the launch
    element deals each device (`G`, `hfund`), the global step that makes each device's starting ghost state of it
    (`hglob`) and the body's proof on every device (`hbody`), every weakly fair execution of @main terminates, and in every
    final state each device's two arrays hold their final contents. -/
theorem run_main (G : Dev nD → sProp 𝕄)
    (hown : Pipeline.OwnSemFacts cfg0.spec osem)
    (hfund : BI.own (ER (F := F) (initOf allCells allToks)) ⊢ (|==> bigSep Finset.univ G : sProp 𝕄))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ (G' (F := F) m))
    (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ hown (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m) (u₀ := u₀)
    (hu₀ := by
      unfold u₀
      iintro Hu
      ihave H := (ownU_pair _ _) $$ Hu
      icases H with ⟨HP, HX⟩
      imod hfund $$ HX with HG
      imodintro
      isplitl [HP] <;> iassumption)
    (hglob := hglob)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-! ## What the run leaves in the result array -/

/-- The result array after the run, read through its one block: what the body left at the one point. -/
theorem finalA_out_read (c : Dev nD) :
    ((cfg0.win (1 : Fin 2)).blk t0_0).view.read (Elt F) (finalA m ρ c (1 : Fin 2)) = outAt m c := by
  unfold finalA
  rw [show cfg0.N = (t0_0 : Fin cfg0.N).val + 1 from rfl, (dats m ρ 0 c).arrAt_succ (1 : Fin 2) t0_0, if_pos (flush0_1 _)]
  exact View.read_write_univ _ _

/-- The block is the whole array: the result array after the run holds `outAt m c`. -/
theorem finalA_out (c : Dev nD) :
    (finalA m ρ c (1 : Fin 2) : Buf (Elt F) ((c : Thread nD τ).loc main_v1)) = outAt m c := by
  have hz : (fun a => (win0_1.index t0_0) a * main_v1.ty.shape.size a) = fun _ => 0 := funext fun a => by fin_cases a <;> decide
  have hr := Memref.read_access_unit_zero (Elt F) main_v1 hz (fun a => by fin_cases a <;> decide) (finalA m ρ c (1 : Fin 2))
  exact hr.symm.trans (finalA_out_read m ρ c)

/-! ## The posts the claim reads off the run -/

theorem value_post (G : Dev nD → sProp 𝕄)
    (hown : Pipeline.OwnSemFacts cfg0.spec osem)
    (hfund : BI.own (ER (F := F) (initOf allCells allToks)) ⊢ (|==> bigSep Finset.univ G : sProp 𝕄))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ (G' (F := F) m))
    (hbody : ∀ c, BodyObligation (dats (F := F) m ρ 0 c) (defs₀ (F := F)) 𝒱₀ () Set.univ) :
    θ_run defs (onTc (τ := τ) (main (F := F))) (s₀ m ρ) (fun r => ∀ c : Dev nD,
      r.2.mem ((c : Thread nD τ).loc main_v1) = (outAt m c : Buf (Elt F) ((c : Thread nD τ).loc main_v1))
        ∧ r.2.mem ((c : Thread nD τ).loc main_arg0) = m ((c : Thread nD τ).loc main_arg0)) :=
  (θ_run defs _ _).mono (fun _ h c => ⟨(h c (1 : Fin 2)).trans (finalA_out m ρ c), (h c (0 : Fin 2)).trans (finalA_x m ρ c)⟩)
    (run_main m ρ G hown hfund hglob hbody)

theorem frame_post (G : Dev nD → sProp 𝕄)
    (hown : Pipeline.OwnSemFacts cfg0.spec osem)
    (hfund : BI.own (ER (F := F) (initOf allCells allToks)) ⊢ (|==> bigSep Finset.univ G : sProp 𝕄))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ (G' (F := F) m))
    (hbody : ∀ c, BodyObligation (dats (F := F) m ρ 0 c) (defs₀ (F := F)) 𝒱₀ () Set.univ) :
    θ_run defs (onTc (τ := τ) (main (F := F))) (s₀ m ρ) (fun r => ∀ c : Dev nD,
      r.2.mem ((c : Thread nD τ).loc main_arg0) = m ((c : Thread nD τ).loc main_arg0)) :=
  (θ_run defs _ _).mono (fun _ h c => (h c).2) (value_post m ρ G hown hfund hglob hbody)

/-- info: 'Cert.KernelIdeal.RS.value_post' depends on axioms: [propext, Classical.choice, Quot.sound] -/
#guard_msgs in #print axioms value_post

end Cert.KernelIdeal.RS

end
-- ==== Proof.Fund.lean ====
import proofs.«901033_g7700000000001034_dist_rs_v7x_xyz2x2x4_x_m2048_n512_bf16_1_alg».proof.Proof.Proto

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

/-! ### The cells and the tokens are numbered without repetition -/

theorem kcell_dev (cj : Dev nD × Fin 65) : (kcell cj).1.1 = cj.1 := by unfold kcell; split <;> rfl

theorem kcell_injective : Function.Injective (kcell : Dev nD × Fin 65 → GSem nD τ sig) := by
  rintro ⟨c, j⟩ ⟨c', j'⟩ h
  have h1 : c = c' := by
    have := congrArg (fun g : GSem nD τ sig => g.1.1) h
    simpa only [kcell_dev] using this
  subst h1
  have h2 : (kcell (c, j)).2 = (kcell (c, j')).2 := congrArg Prod.snd h
  unfold kcell at h2
  have : j = j' := by
    refine Fin.ext ?_
    by_cases hj : j.val = 0 <;> by_cases hj' : j'.val = 0
    · omega
    · simp only [hj, hj', if_true, if_false] at h2; cases h2
    · simp only [hj, hj', if_true, if_false] at h2; cases h2
    · simp only [hj, hj', if_true, if_false] at h2
      have h3 := SemLoc.dma.inj h2
      have h4 := congrArg Fin.val h3
      simp only at h4
      omega
  subst this; rfl

theorem ktok_dev (cj : Dev nD × Fin 67) : (ktok cj).1.1.1 = cj.1 := by unfold ktok; split <;> rfl

theorem ktok_injective : Function.Injective (ktok : Dev nD × Fin 67 → GSem nD τ sig × ℕ × Fin 3) := by
  rintro ⟨c, j⟩ ⟨c', j'⟩ h
  have h1 : c = c' := by
    have := congrArg (fun x : GSem nD τ sig × ℕ × Fin 3 => x.1.1.1) h
    simpa only [ktok_dev] using this
  subst h1
  have : j = j' := by
    refine Fin.ext ?_
    unfold ktok at h
    by_cases hj : j.val < 3 <;> by_cases hj' : j'.val < 3
    · simp only [hj, hj', dif_pos] at h
      have := congrArg (fun x : GSem nD τ sig × ℕ × Fin 3 => x.2.2.val) h
      simpa using this
    · simp only [hj, hj', dif_pos, dif_neg, not_false_eq_true] at h
      have := congrArg (fun x : GSem nD τ sig × ℕ × Fin 3 => x.1.2) h
      cases this
    · simp only [hj, hj', dif_pos, dif_neg, not_false_eq_true] at h
      have := congrArg (fun x : GSem nD τ sig × ℕ × Fin 3 => x.1.2) h
      cases this
    · simp only [hj, hj', dif_neg, not_false_eq_true] at h
      have h2 := congrArg (fun x : GSem nD τ sig × ℕ × Fin 3 => x.1.2) h
      have h3 := SemLoc.dma.inj h2
      have h4 := congrArg Fin.val h3
      simp only at h4
      omega
  subst this; rfl

/-! ### Regrouping a sum of assertions over consecutive numbers -/

omit [FloatOps F] in
/-- A bigSep over Fin n of a function of the number shifted by b is the bigSep over the interval [b, b + n). -/
theorem bigSep_fin_Ico (b n : ℕ) (Ψ : ℕ → sProp 𝕄) :
    (bigSep Finset.univ fun k : Fin n => Ψ (b + k.val)) = bigSep (Finset.Ico b (b + n)) Ψ := by
  have h : (Finset.univ : Finset (Fin n)).map ⟨fun k => b + k.val, fun x y hxy => Fin.ext (Nat.add_left_cancel hxy)⟩ = Finset.Ico b (b + n) := by
    ext x
    constructor
    · intro hx
      obtain ⟨k, -, rfl⟩ := Finset.mem_map.mp hx
      have hk := k.isLt
      exact Finset.mem_Ico.mpr ⟨Nat.le_add_right _ _, (show b + k.val < b + n from by omega)⟩
    · intro hx
      obtain ⟨h1, h2⟩ := Finset.mem_Ico.mp hx
      exact Finset.mem_map.mpr ⟨⟨x - b, by omega⟩, Finset.mem_univ _, (show b + (x - b) = x from by omega)⟩
  rw [← h, bigSep_map]
  rfl

omit [FloatOps F] in
/-- An interval splits at a point inside it. -/
theorem bigSep_Ico_split {a b c : ℕ} (hab : a ≤ b) (hbc : b ≤ c) (Ψ : ℕ → sProp 𝕄) :
    bigSep (Finset.Ico a c) Ψ = iprop(bigSep (Finset.Ico a b) Ψ ∗ bigSep (Finset.Ico b c) Ψ) := by
  rw [← Finset.Ico_union_Ico_eq_Ico hab hbc, bigSep_union (Finset.Ico_disjoint_Ico_consecutive a b c)]
  rfl

/-! ### What the launch element deals a device -/

/-- The duty tokens of device c's own cells: its barrier cell's three, and the one of each of its 64 DMA cells. -/
def toks (c : Dev nD) : sProp 𝕄 :=
  bigSep Finset.univ fun j : Fin 67 => dutyTok ER (ktok (c, j)).1 (ktok (c, j)).2.1 (ktok (c, j)).2.2

/-- What the launch element deals device c: of each of its own 65 cells the round state at counter zero, its position
    at round 0 and that round 0 is reached; and the duty tokens of those cells. -/
def G (c : Dev nD) : sProp 𝕄 :=
  iprop((bigSep Finset.univ fun j : Fin 65 => roundState ER (sched m) (kcell (c, j)) 0)
    ∗ (bigSep Finset.univ fun j : Fin 65 => iprop(atPos ER (kcell (c, j)) 0 ∅ 0 ∗ reached ER (kcell (c, j)) 0))
    ∗ toks c)

omit [FloatOps F] in
/-- A bigSep over all the mesh's cells, device by device and cell by cell. -/
theorem bigSep_allCells (Φ : GSem nD τ sig → sProp 𝕄) :
    bigSep allCells Φ = bigSep Finset.univ fun c : Dev nD => bigSep Finset.univ fun j : Fin 65 => Φ (kcell (c, j)) := by
  unfold allCells
  rw [show Finset.image kcell Finset.univ = Finset.univ.map ⟨kcell, kcell_injective⟩ from
      (Finset.map_eq_image ⟨kcell, kcell_injective⟩ Finset.univ).symm,
    bigSep_map, bigSep_univ_prod]
  rfl

omit [FloatOps F] in
/-- A bigSep over all the mesh's duty tokens, device by device and token by token. -/
theorem bigSep_allToks (Φ : GSem nD τ sig × ℕ × Fin 3 → sProp 𝕄) :
    bigSep allToks Φ = bigSep Finset.univ fun c : Dev nD => bigSep Finset.univ fun j : Fin 67 => Φ (ktok (c, j)) := by
  unfold allToks
  rw [show Finset.image ktok Finset.univ = Finset.univ.map ⟨ktok, ktok_injective⟩ from
      (Finset.map_eq_image ⟨ktok, ktok_injective⟩ Finset.univ).symm,
    bigSep_map, bigSep_univ_prod]
  rfl

theorem fund_all : BI.own (ER (F := F) (initOf allCells allToks)) ⊢ (|==> bigSep Finset.univ (G (F := F) m) : sProp 𝕄) := by
  iintro HX
  imod (Rounds.fund ER (sched m) allCells allToks) $$ HX with ⟨Hst, Hr, Hat, Htok⟩
  imodintro
  ihave Hst' := (Entails.of_eq (bigSep_allCells fun g => roundState ER (sched m) g 0)) $$ Hst
  ihave Hat' := (Entails.of_eq (bigSep_allCells fun g => atPos ER g 0 ∅ 0)) $$ Hat
  ihave Hr' := (Entails.of_eq (bigSep_allCells fun g => reached ER g 0)) $$ Hr
  ihave Htok' := (Entails.of_eq (bigSep_allToks fun x => dutyTok ER x.1 x.2.1 x.2.2)) $$ Htok
  unfold G toks; simp only [bigSep_sep']
  isplitl [Hst']; · iexact Hst'
  isplitl [Hat' Hr']
  · isplitl [Hat'] <;> iassumption
  iexact Htok'

/-! ### A device's cells and tokens, family by family

Cell number 0 of a device is its barrier cell and cell number j + 1 its DMA semaphore j + 2; the DMA semaphores lie family
after family (eight send, eight receive, two, two, then four families of eight and four of three), so a sum over a device's
65 cells is the barrier cell's term and the twelve families' sums, and likewise for its 67 duty tokens. -/

/-- DMA cell number s of device c (the number read modulo 66). -/
def dcellN (c : Dev nD) (s : ℕ) : GSem nD τ sig := dcell c ⟨s % 66, (show s % 66 < 66 from Nat.mod_lt _ (by decide))⟩

theorem dcell_dsem (c : Dev nD) (b n : ℕ) (h : b + n ≤ 66) (k : Fin n) : dcell c (dsem b n h k) = dcellN c (b + k.val) := by
  have hk := k.isLt
  unfold dcellN dsem
  exact congrArg (fun s : DmaSem sig => dcell c s) (Fin.ext (Nat.mod_eq_of_lt (show b + k.val < 66 from by omega)).symm)

theorem kcell_zero (c : Dev nD) : kcell (c, 0) = barCell c := rfl

theorem kcell_succ (c : Dev nD) (j : Fin 64) : kcell (c, j.succ) = dcellN c (2 + j.val) := by
  have hj := j.isLt
  unfold kcell dcellN
  rw [if_neg (show ¬ (j.succ).val = 0 from by rw [Fin.val_succ]; omega)]
  exact congrArg (fun s : DmaSem sig => dcell c s) (Fin.ext (show (j.succ).val + 1 = (2 + j.val) % 66 from by
    rw [Fin.val_succ, Nat.mod_eq_of_lt (by omega)]; omega))

theorem ktok_low (c : Dev nD) (j : Fin 3) : ktok (c, Fin.castAdd 64 j) = (barCell c, 0, j) := by
  have hj := j.isLt
  unfold ktok
  rw [dif_pos (show (Fin.castAdd 64 j).val < 3 from hj)]
  rfl

theorem ktok_high (c : Dev nD) (j : Fin 64) : ktok (c, Fin.natAdd 3 j) = (dcellN c (2 + j.val), 0, 0) := by
  have hj := j.isLt
  unfold ktok dcellN
  rw [dif_neg (show ¬ (Fin.natAdd 3 j).val < 3 from by rw [Fin.val_natAdd]; omega)]
  refine congrArg (fun s : DmaSem sig => ((dcell c s, 0, 0) : GSem nD τ sig × ℕ × Fin 3)) (Fin.ext ?_)
  show (Fin.natAdd 3 j).val - 1 = (2 + j.val) % 66
  rw [Fin.val_natAdd, Nat.mod_eq_of_lt (by omega)]; omega

omit [FloatOps F] in
/-- A bigSep over Fin (n + 1): the term at 0, and the rest. -/
theorem bigSep_fin_succ (n : ℕ) (Φ : Fin (n + 1) → sProp 𝕄) :
    bigSep Finset.univ Φ = iprop(Φ 0 ∗ bigSep Finset.univ fun j : Fin n => Φ j.succ) := by
  rw [Fin.univ_succ, Finset.cons_eq_insert, bigSep_insert (by simp), bigSep_map]
  rfl

omit [FloatOps F] in
/-- A bigSep over Fin (a + b): the first a terms, and the last b. -/
theorem bigSep_fin_plus (a b : ℕ) (Φ : Fin (a + b) → sProp 𝕄) :
    bigSep Finset.univ Φ = iprop((bigSep Finset.univ fun i : Fin a => Φ (Fin.castAdd b i)) ∗ bigSep Finset.univ fun i : Fin b => Φ (Fin.natAdd a i)) := by
  rw [bigSep_univ_equiv finSumFinEquiv Φ, bigSep_univ_sum]
  rfl

omit [FloatOps F] in
/-- The 64 DMA semaphores 2 … 65, family by family. -/
theorem dma_by_family (Ψ : ℕ → sProp 𝕄) :
    (bigSep Finset.univ fun j : Fin 64 => Ψ (2 + j.val)) = iprop(
      (bigSep Finset.univ fun k : Fin 8 => Ψ (2 + k.val))
      ∗ (bigSep Finset.univ fun k : Fin 8 => Ψ (10 + k.val))
      ∗ (bigSep Finset.univ fun k : Fin 2 => Ψ (18 + k.val))
      ∗ (bigSep Finset.univ fun k : Fin 2 => Ψ (20 + k.val))
      ∗ (bigSep Finset.univ fun k : Fin 8 => Ψ (22 + k.val))
      ∗ (bigSep Finset.univ fun k : Fin 8 => Ψ (30 + k.val))
      ∗ (bigSep Finset.univ fun k : Fin 8 => Ψ (38 + k.val))
      ∗ (bigSep Finset.univ fun k : Fin 8 => Ψ (46 + k.val))
      ∗ (bigSep Finset.univ fun k : Fin 3 => Ψ (54 + k.val))
      ∗ (bigSep Finset.univ fun k : Fin 3 => Ψ (57 + k.val))
      ∗ (bigSep Finset.univ fun k : Fin 3 => Ψ (60 + k.val))
      ∗ (bigSep Finset.univ fun k : Fin 3 => Ψ (63 + k.val))) := by
  rw [bigSep_fin_Ico 2 64 Ψ, bigSep_fin_Ico 2 8 Ψ, bigSep_fin_Ico 10 8 Ψ, bigSep_fin_Ico 18 2 Ψ, bigSep_fin_Ico 20 2 Ψ,
    bigSep_fin_Ico 22 8 Ψ, bigSep_fin_Ico 30 8 Ψ, bigSep_fin_Ico 38 8 Ψ, bigSep_fin_Ico 46 8 Ψ, bigSep_fin_Ico 54 3 Ψ,
    bigSep_fin_Ico 57 3 Ψ, bigSep_fin_Ico 60 3 Ψ, bigSep_fin_Ico 63 3 Ψ]
  simp only [Nat.reduceAdd]
  rw [bigSep_Ico_split (a := 2) (b := 10) (c := 66) (by decide) (by decide) Ψ,
    bigSep_Ico_split (a := 10) (b := 18) (c := 66) (by decide) (by decide) Ψ,
    bigSep_Ico_split (a := 18) (b := 20) (c := 66) (by decide) (by decide) Ψ,
    bigSep_Ico_split (a := 20) (b := 22) (c := 66) (by decide) (by decide) Ψ,
    bigSep_Ico_split (a := 22) (b := 30) (c := 66) (by decide) (by decide) Ψ,
    bigSep_Ico_split (a := 30) (b := 38) (c := 66) (by decide) (by decide) Ψ,
    bigSep_Ico_split (a := 38) (b := 46) (c := 66) (by decide) (by decide) Ψ,
    bigSep_Ico_split (a := 46) (b := 54) (c := 66) (by decide) (by decide) Ψ,
    bigSep_Ico_split (a := 54) (b := 57) (c := 66) (by decide) (by decide) Ψ,
    bigSep_Ico_split (a := 57) (b := 60) (c := 66) (by decide) (by decide) Ψ,
    bigSep_Ico_split (a := 60) (b := 63) (c := 66) (by decide) (by decide) Ψ]

omit [FloatOps F] in
/-- One family's sum, as a sum over the family's numbers. -/
theorem family_eq (c : Dev nD) (Φ : GSem nD τ sig → sProp 𝕄) (b n : ℕ) (h : b + n ≤ 66) :
    (bigSep Finset.univ fun k : Fin n => Φ (dcell c (dsem b n h k)))
      = bigSep Finset.univ fun k : Fin n => (fun s => Φ (dcellN c s)) (b + k.val) :=
  bigSep_congr fun k _ => by rw [dcell_dsem]

omit [FloatOps F] in
/-- A sum over a device's 65 cells: the barrier cell's term, and the twelve families' sums. -/
theorem cells_by_family (c : Dev nD) (Φ : GSem nD τ sig → sProp 𝕄) :
    (bigSep Finset.univ fun j : Fin 65 => Φ (kcell (c, j))) = iprop(Φ (barCell c)
      ∗ (bigSep Finset.univ fun k : Fin 8 => Φ (dcell c (sxS k)))
      ∗ (bigSep Finset.univ fun k : Fin 8 => Φ (dcell c (rxS k)))
      ∗ (bigSep Finset.univ fun k : Fin 2 => Φ (dcell c (sx2S k)))
      ∗ (bigSep Finset.univ fun k : Fin 2 => Φ (dcell c (rx2S k)))
      ∗ (bigSep Finset.univ fun k : Fin 8 => Φ (dcell c (sydS k)))
      ∗ (bigSep Finset.univ fun k : Fin 8 => Φ (dcell c (rydS k)))
      ∗ (bigSep Finset.univ fun k : Fin 8 => Φ (dcell c (szdS k)))
      ∗ (bigSep Finset.univ fun k : Fin 8 => Φ (dcell c (rzdS k)))
      ∗ (bigSep Finset.univ fun k : Fin 3 => Φ (dcell c (syrS k)))
      ∗ (bigSep Finset.univ fun k : Fin 3 => Φ (dcell c (ryrS k)))
      ∗ (bigSep Finset.univ fun k : Fin 3 => Φ (dcell c (szrS k)))
      ∗ (bigSep Finset.univ fun k : Fin 3 => Φ (dcell c (rzrS k)))) := by
  have e : (bigSep Finset.univ fun j : Fin 64 => Φ (kcell (c, j.succ)))
      = bigSep Finset.univ fun j : Fin 64 => (fun s => Φ (dcellN c s)) (2 + j.val) :=
    bigSep_congr fun j _ => by rw [kcell_succ]
  rw [bigSep_fin_succ 64 (fun j => Φ (kcell (c, j))), e, dma_by_family (fun s => Φ (dcellN c s)),
    family_eq c Φ 2 8, family_eq c Φ 10 8, family_eq c Φ 18 2, family_eq c Φ 20 2, family_eq c Φ 22 8, family_eq c Φ 30 8,
    family_eq c Φ 38 8, family_eq c Φ 46 8, family_eq c Φ 54 3, family_eq c Φ 57 3, family_eq c Φ 60 3, family_eq c Φ 63 3]
  rfl

omit [FloatOps F] in
theorem bigSep_fin3F (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A device's 67 duty tokens: its barrier cell's three, and the twelve families' sums. -/
theorem toks_by_family (c : Dev nD) :
    (toks c : sProp 𝕄) = iprop((dutyTok ER (barCell c) 0 0 ∗ dutyTok ER (barCell c) 0 1 ∗ dutyTok ER (barCell c) 0 2)
      ∗ (bigSep Finset.univ fun k : Fin 8 => dutyTok ER (dcell c (sxS k)) 0 0)
      ∗ (bigSep Finset.univ fun k : Fin 8 => dutyTok ER (dcell c (rxS k)) 0 0)
      ∗ (bigSep Finset.univ fun k : Fin 2 => dutyTok ER (dcell c (sx2S k)) 0 0)
      ∗ (bigSep Finset.univ fun k : Fin 2 => dutyTok ER (dcell c (rx2S k)) 0 0)
      ∗ (bigSep Finset.univ fun k : Fin 8 => dutyTok ER (dcell c (sydS k)) 0 0)
      ∗ (bigSep Finset.univ fun k : Fin 8 => dutyTok ER (dcell c (rydS k)) 0 0)
      ∗ (bigSep Finset.univ fun k : Fin 8 => dutyTok ER (dcell c (szdS k)) 0 0)
      ∗ (bigSep Finset.univ fun k : Fin 8 => dutyTok ER (dcell c (rzdS k)) 0 0)
      ∗ (bigSep Finset.univ fun k : Fin 3 => dutyTok ER (dcell c (syrS k)) 0 0)
      ∗ (bigSep Finset.univ fun k : Fin 3 => dutyTok ER (dcell c (ryrS k)) 0 0)
      ∗ (bigSep Finset.univ fun k : Fin 3 => dutyTok ER (dcell c (szrS k)) 0 0)
      ∗ (bigSep Finset.univ fun k : Fin 3 => dutyTok ER (dcell c (rzrS k)) 0 0)) := by
  have elo : (bigSep Finset.univ fun j : Fin 3 => (dutyTok ER (ktok (c, Fin.castAdd 64 j)).1 (ktok (c, Fin.castAdd 64 j)).2.1 (ktok (c, Fin.castAdd 64 j)).2.2 : sProp 𝕄))
      = bigSep Finset.univ fun j : Fin 3 => dutyTok ER (barCell c) 0 j :=
    bigSep_congr fun j _ => by rw [ktok_low]
  have ehi : (bigSep Finset.univ fun j : Fin 64 => (dutyTok ER (ktok (c, Fin.natAdd 3 j)).1 (ktok (c, Fin.natAdd 3 j)).2.1 (ktok (c, Fin.natAdd 3 j)).2.2 : sProp 𝕄))
      = bigSep Finset.univ fun j : Fin 64 => (fun s => (dutyTok ER (dcellN c s) 0 0 : sProp 𝕄)) (2 + j.val) :=
    bigSep_congr fun j _ => by rw [ktok_high]
  have hf (b n : ℕ) (h : b + n ≤ 66) := family_eq (F := F) c (fun g => dutyTok ER g 0 0) b n h
  unfold toks
  rw [bigSep_fin_plus 3 64 (fun j : Fin 67 => (dutyTok ER (ktok (c, j)).1 (ktok (c, j)).2.1 (ktok (c, j)).2.2 : sProp 𝕄)),
    elo, ehi, bigSep_fin3F, dma_by_family (fun s => (dutyTok ER (dcellN c s) 0 0 : sProp 𝕄)),
    hf 2 8, hf 10 8, hf 18 2, hf 20 2, hf 22 8, hf 30 8, hf 38 8, hf 46 8, hf 54 3, hf 57 3, hf 60 3, hf 63 3]

/-! ### The three neighbours of a device are involutions of the mesh -/

def partnerE : Dev nD ≃ Dev nD := ⟨partner, partner, partner_partner, partner_partner⟩
def buddyE : Dev nD ≃ Dev nD := ⟨buddy, buddy, buddy_buddy, buddy_buddy⟩
def zpairE : Dev nD ≃ Dev nD := ⟨zpair, zpair, zpair_zpair, zpair_zpair⟩

/-! ### The semaphores at zero, and every cell's invariant -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own 64 semaphores and the barrier's are the counters of the device's 65 cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 65 => semVal (kcell (c, j)) 0 : sProp 𝕄) := by
  have e : (bigSep Finset.univ fun j : Fin 64 => (semVal (kcell (c, j.succ)) 0 : sProp 𝕄))
      = Pipeline.ownSems0 (Ix := Unit) (Name := ℕ) (U := UU) (Lvl := ℕ) (Val := Elt F) (τ := τ) osem c := by
    unfold Pipeline.ownSems0
    refine bigSep_congr fun j _ => ?_
    rw [kcell_succ]
    unfold dcellN
    have hj := j.isLt
    exact congrArg (fun s : DmaSem sig => (semVal (dcell c s) 0 : sProp 𝕄)) (Fin.ext (show (2 + j.val) % 66 = j.val + 2 from by
      rw [Nat.mod_eq_of_lt (by omega)]; omega))
  rw [unscopedSems0_eq, bigSep_fin_succ 64 (fun j => (semVal (kcell (c, j)) 0 : sProp 𝕄)), e]
  iintro ⟨HO, HB⟩
  isplitl [HB]; · iexact HB
  iexact HO

/-- Every cell of device c gets its invariant, from its counter at zero and its round state at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 65 => iprop(∃ κ : ℕ, cellInv ER (sched m) κ (kcell (c, j))))
          ∗ (bigSep Finset.univ fun j : Fin 65 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 65 => semVal (kcell (c, j)) 0) ∗ bigSep Finset.univ fun j : Fin 65 => roundState ER (sched m) (kcell (c, j)) 0)
      ⊢ (|={Set.univ}=> bigSep Finset.univ fun j : Fin 65 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt to the devices that pay them -/

omit [FloatOps F] in
theorem bigSep_partner (Φ : Dev nD → sProp 𝕄) : bigSep Finset.univ Φ = bigSep Finset.univ fun c => Φ (partner c) :=
  bigSep_univ_equiv partnerE Φ
omit [FloatOps F] in
theorem bigSep_buddy (Φ : Dev nD → sProp 𝕄) : bigSep Finset.univ Φ = bigSep Finset.univ fun c => Φ (buddy c) :=
  bigSep_univ_equiv buddyE Φ
omit [FloatOps F] in
theorem bigSep_zpair (Φ : Dev nD → sProp 𝕄) : bigSep Finset.univ Φ = bigSep Finset.univ fun c => Φ (zpair c) :=
  bigSep_univ_equiv zpairE Φ

omit [FloatOps F] in
/-- The tokens dealt around the mesh: a barrier cell's three tokens to the device's partner, buddy and z-pair; a send
    cell's token stays with its device; the tokens of the partner's landings go to the partner, those of the y-hop
    landings to the buddy, those of the z-hop landings to the z-pair. -/
theorem toks_around : (bigSep Finset.univ fun c : Dev nD => (toks c : sProp 𝕄)) ⊢ bigSep Finset.univ fun c : Dev nD => payToks c := by
  unfold payToks
  rw [bigSep_congr (s := Finset.univ) (fun (c : Dev nD) _ => toks_by_family (F := F) c)]
  simp only [bigSep_sep']
  rw [bigSep_partner (fun c => (dutyTok ER (barCell c) 0 0 : sProp 𝕄)),
    bigSep_buddy (fun c => (dutyTok ER (barCell c) 0 1 : sProp 𝕄)),
    bigSep_zpair (fun c => (dutyTok ER (barCell c) 0 2 : sProp 𝕄)),
    bigSep_partner (fun c => (bigSep Finset.univ fun k : Fin 8 => dutyTok ER (dcell c (rxS k)) 0 0 : sProp 𝕄)),
    bigSep_partner (fun c => (bigSep Finset.univ fun k : Fin 2 => dutyTok ER (dcell c (rx2S k)) 0 0 : sProp 𝕄)),
    bigSep_buddy (fun c => (bigSep Finset.univ fun k : Fin 8 => dutyTok ER (dcell c (rydS k)) 0 0 : sProp 𝕄)),
    bigSep_zpair (fun c => (bigSep Finset.univ fun k : Fin 8 => dutyTok ER (dcell c (rzdS k)) 0 0 : sProp 𝕄)),
    bigSep_buddy (fun c => (bigSep Finset.univ fun k : Fin 3 => dutyTok ER (dcell c (ryrS k)) 0 0 : sProp 𝕄)),
    bigSep_zpair (fun c => (bigSep Finset.univ fun k : Fin 3 => dutyTok ER (dcell c (rzrS k)) 0 0 : sProp 𝕄))]
  iintro ⟨⟨H0, H1, H2⟩, Hsx, Hrx, Hsx2, Hrx2, Hsyd, Hryd, Hszd, Hrzd, Hsyr, Hryr, Hszr, Hrzr⟩
  isplitl [H0]; · iexact H0
  isplitl [H1]; · iexact H1
  isplitl [H2]; · iexact H2
  isplitl [Hsx Hrx]
  · isplitl [Hsx] <;> iassumption
  isplitl [Hsx2 Hrx2]
  · isplitl [Hsx2] <;> iassumption
  isplitl [Hsyd Hryd]
  · isplitl [Hsyd] <;> iassumption
  isplitl [Hszd Hrzd]
  · isplitl [Hszd] <;> iassumption
  isplitl [Hsyr Hryr]
  · isplitl [Hsyr] <;> iassumption
  isplitl [Hszr] <;> iassumption

/-! ### The global step -/

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's start from the records, its positions and the tokens it pays. -/
theorem ghost_intro (K : GSem nD τ sig → ℕ) (c : Dev nD) : iprop(records m K ∗ positions c ∗ payToks c) ⊢ G' m c := by
  unfold G' ghost
  iintro ⟨#HR, Hp, Ht⟩
  iexists K
  isplitr; · iexact HR
  isplitl [Hp]; · iexact Hp
  iexact Ht

omit [FloatOps F] in
theorem positions_eq (c : Dev nD) : (bigSep Finset.univ fun j : Fin 65 => (atPos ER (kcell (c, j)) 0 ∅ 0 : sProp 𝕄)) = positions c := by
  unfold positions
  exact cells_by_family c (fun g => (atPos ER g 0 ∅ 0 : sProp 𝕄))

/-- The regrouping over any set S of cells: the names chosen for the invariants, the records made persistent, every
    device given its positions and the tokens it pays. -/
theorem regroup_core (S : Finset (GSem nD τ sig)) (Rec : (GSem nD τ sig → ℕ) → sProp 𝕄) [∀ K, BI.Persistent (Rec K)]
    (hRec : ∀ K, iprop((bigSep S fun g => cellInv ER (sched m) (K g) g) ∗ bigSep S fun g => reached ER g 0) ⊢ Rec K)
    (hG : ∀ K c, iprop(Rec K ∗ positions c ∗ payToks c) ⊢ G' m c) :
    iprop((bigSep S fun g => iprop(∃ κ : ℕ, cellInv ER (sched m) κ g))
        ∗ (bigSep Finset.univ positions ∗ bigSep S fun g => reached ER g 0) ∗ bigSep Finset.univ toks)
      ⊢ bigSep Finset.univ (G' m) := by
  iintro ⟨HI, ⟨Hat, #HR⟩, Htok⟩
  ihave HK := (BI.bigSep_exists_pi S (fun (g : GSem nD τ sig) (κ : ℕ) => (cellInv ER (sched m) κ g : sProp 𝕄))) $$ HI
  icases HK with ⟨%K, #HI⟩
  ihave Htk := (toks_around (F := F)) $$ Htok
  iapply (bigSep_with_persistent (R := Rec K) fun c _ => hG K c)
  isplitr
  · iapply (hRec K)
    isplitl; · iexact HI
    iexact HR
  · rw [bigSep_sep']
    isplitl [Hat]; · iexact Hat
    iexact Htk

theorem regroup_ghost :
    (bigSep Finset.univ fun c : Dev nD => iprop((bigSep Finset.univ fun j : Fin 65 => iprop(∃ κ : ℕ, cellInv ER (sched m) κ (kcell (c, j))))
          ∗ (bigSep Finset.univ fun j : Fin 65 => iprop(atPos ER (kcell (c, j)) 0 ∅ 0 ∗ reached ER (kcell (c, j)) 0)) ∗ toks c) : sProp 𝕄)
      ⊢ bigSep Finset.univ (G' m) := by
  rw [bigSep_sep', bigSep_sep',
    ← bigSep_allCells (fun g => iprop(∃ κ : ℕ, cellInv ER (sched m) κ g)),
    bigSep_congr (s := Finset.univ) (fun (c : Dev nD) _ => bigSep_sep' Finset.univ (fun j : Fin 65 => (atPos ER (kcell (c, j)) 0 ∅ 0 : sProp 𝕄)) (fun j => reached ER (kcell (c, j)) 0)),
    bigSep_sep', ← bigSep_allCells (fun g => (reached ER g 0 : sProp 𝕄)),
    bigSep_congr (s := Finset.univ) (fun (c : Dev nD) _ => positions_eq (F := F) c)]
  exact regroup_core m allCells (records m) (fun K => by unfold records; exact .refl) (ghost_intro m)

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup_ghost m))

end Cert.KernelIdeal.RS

end
-- ==== Proof.RefValue.lean ====
import proofs.«901033_g7700000000001034_dist_rs_v7x_xyz2x2x4_x_m2048_n512_bf16_1_alg».proof.Defs
import proofs.«901033_g7700000000001034_dist_rs_v7x_xyz2x2x4_x_m2048_n512_bf16_1_alg».proof.Proof.Gen.ReferenceIdeal
import proofs.«901033_g7700000000001034_dist_rs_v7x_xyz2x2x4_x_m2048_n512_bf16_1_alg».proof.Proof.Gen.ReferenceIdeal.Run
import proofs.«901033_g7700000000001034_dist_rs_v7x_xyz2x2x4_x_m2048_n512_bf16_1_alg».proof.Proof.Gen.ReferenceIdeal.Read
import proofs.«901033_g7700000000001034_dist_rs_v7x_xyz2x2x4_x_m2048_n512_bf16_1_alg».proof.Proof.Gen.Pre_finite_inputs_ReferenceIdeal
import proofs.«901033_g7700000000001034_dist_rs_v7x_xyz2x2x4_x_m2048_n512_bf16_1_alg».proof.Proof.Mesh
import Idealize.ShloMosaic.Lib.Layout
import Idealize.ShloMosaic.Lib.ValueIdx
import Idealize.ShloMosaic.PureOps.Ideal.Laws

noncomputable section

namespace Cert.RefValue

open Idealize.ShloMosaic Idealize.SL.Sem Cert.KernelIdeal.RS

/-! ## The reference's value, and the reduce-scatter's value joined to it

The reference adds the two planes of the whole array X : [2, 2048, 1024] elementwise (from the initial value 0) and
changes the format, which at the ideal values is the identity: its result at (r, q) is 0 + (X 0 r q + X 1 r q).
On the 2 × 2 × 4 mesh device c = 8·x + 4·y + z holds plane x = c / 8 of X, and must end with columns
[512·x, 512·x + 512) of the result. Its partner (the device with the other x) holds the other plane, so the two
planes at (r, 512·x + j) are device c's own element and its partner's there, in one order or the other; addition of
extended reals is commutative and 0 + a = a, so no finiteness is needed. -/

/-- the whole-array index (0, r, 512·(c/8) + j) of device c's column block -/
def xIdx (c : Dev 16) (i : Cert.KernelIdeal.S2048x512.Idx) : Cert.KernelIdeal.S1x2048x1024.Idx :=
  ValueIdx.ix3 (0 : Fin 1) (i 0) ⟨512 * (c.val / 8) + (i 1).val, by
    have hc : c.val < 16 := c.isLt
    have hi : (i 1).val < 512 := ValueIdx.idx2_lt1 i
    omega⟩

/-- what device c must end with, from the devices' own blocks: its own block plus its partner's, on its columns -/
def kOut (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v1) :=
  fun i => (show EReal from m ((c.tc : Thread _ _).loc Cert.KernelIdeal.main_arg0) (xIdx c i))
    + (show EReal from m (((partner c).tc : Thread _ _).loc Cert.KernelIdeal.main_arg0) (xIdx c i))

/-- The index (k, r, 512·(c/8) + j) of the whole array: plane k, row r, column j of device c's column block. -/
def wIdx (k : Fin 2) (c : Dev 16) (i : Cert.KernelIdeal.S2048x512.Idx) : (⟨3, ![2, 2048, 1024]⟩ : Shape).Idx :=
  ValueIdx.ix3 k (i 0) ⟨512 * (c.val / 8) + (i 1).val, by
    have hc : c.val < 16 := c.isLt
    have hi : (i 1).val < 512 := ValueIdx.idx2_lt1 i
    omega⟩

/-- The x coordinate of device d on the 2 × 2 × 4 mesh: d / 8. -/
def xCoord (d : Dev 16) : Fin 2 := ⟨d.val / 8, by have := d.isLt; omega⟩

/-- Device d's block of the whole array, cut along the planes by the mesh's x axis, read at device c's column-block
    index: plane d / 8 of the whole array there. -/
theorem own_idx (d c : Dev 16) (i : Cert.KernelIdeal.S2048x512.Idx)
    (h : Layout.TilesN ⟨3, ![1, 2048, 1024]⟩ ⟨3, ![2, 2048, 1024]⟩ (Layout.cutSize [2, 2, 4] ∘ ![[0], [], []]))
    (hp : ∀ b, ∀ a ∈ (![[0], [], []] : Fin 3 → List Nat) b, 0 < [2, 2, 4].getD a 0) :
    h.idx (Layout.meshBlock [2, 2, 4] ![[0], [], []] d hp) (xIdx c i) = wIdx (xCoord d) c i := by
  funext a
  refine Fin.ext ?_
  have hd : d.val < 16 := d.isLt
  match a with
  | ⟨0, _⟩ =>
    show Layout.meshLin [2, 2, 4] d.val [0] * 1 + 0 = d.val / 8
    simp only [Layout.meshLin, Layout.meshCoord, Layout.cutSize]
    show (d.val / 8 % 2 * 1 + 0) * 1 + 0 = d.val / 8
    omega
  | ⟨1, _⟩ =>
    show Layout.meshLin [2, 2, 4] d.val [] * 2048 + (i 0).val = (i 0).val
    simp only [Layout.meshLin]
    omega
  | ⟨2, _⟩ =>
    show Layout.meshLin [2, 2, 4] d.val [] * 1024 + (512 * (c.val / 8) + (i 1).val) = 512 * (c.val / 8) + (i 1).val
    simp only [Layout.meshLin]
    omega

/-- The reference's result, cut along the columns by the mesh's x axis, read at index i of device c's block: the sum's
    k-th term is the whole array at plane k, the same row, column 512·(c/8) + j. -/
theorem ref_idx (c : Dev 16) (i : Cert.KernelIdeal.S2048x512.Idx) (k : Fin 2)
    (h : Layout.TilesN ⟨2, ![2048, 512]⟩ ⟨2, ![2048, 1024]⟩ (Layout.cutSize [2, 2, 4] ∘ ![[], [0]]))
    (hp : ∀ b, ∀ a ∈ (![[], [0]] : Fin 2 → List Nat) b, 0 < [2, 2, 4].getD a 0) :
    Cert.ReferenceIdeal.Read.idx_main_v0 (h.idx (Layout.meshBlock [2, 2, 4] ![[], [0]] c hp) i) k = wIdx k c i := by
  funext a
  refine Fin.ext ?_
  have hc : c.val < 16 := c.isLt
  match a with
  | ⟨0, _⟩ => rfl
  | ⟨1, _⟩ =>
    show Layout.meshLin [2, 2, 4] c.val [] * 2048 + (i 0).val = (i 0).val
    simp only [Layout.meshLin]
    omega
  | ⟨2, _⟩ =>
    show Layout.meshLin [2, 2, 4] c.val [0] * 512 + (i 1).val = 512 * (c.val / 8) + (i 1).val
    simp only [Layout.meshLin, Layout.meshCoord, Layout.cutSize]
    show (c.val / 8 % 2 * 1 + 0) * 512 + (i 1).val = 512 * (c.val / 8) + (i 1).val
    omega

/-- A device and its partner have the two x coordinates, in one order or the other. -/
theorem xCoord_partner (c : Dev 16) :
    (xCoord c = 0 ∧ xCoord (partner c) = 1) ∨ (xCoord c = 1 ∧ xCoord (partner c) = 0) := by
  revert c; decide

theorem kOut_eq_block (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread _ _).loc Cert.KernelIdeal.main_arg0)
        = Layout.blockN ⟨3, ![1, 2048, 1024]⟩ ⟨3, ![2, 2048, 1024]⟩ (Layout.meshBlock [2, 2, 4] ![[0], [], []] c)
            (m' (((0 : Dev Cert.ReferenceIdeal.nD).tc : Thread _ _).loc Cert.ReferenceIdeal.main_arg0)))
    (c : Dev Cert.KernelIdeal.nD) :
    kOut m c = Layout.blockN ⟨2, ![2048, 512]⟩ ⟨2, ![2048, 1024]⟩ (Layout.meshBlock [2, 2, 4] ![[], [0]] c)
      (Cert.ReferenceIdeal.Read.val_main_v1 (F := Ideal)
        (m' (((0 : Dev Cert.ReferenceIdeal.nD).tc : Thread _ _).loc Cert.ReferenceIdeal.main_arg0))) := by
  funext i
  unfold kOut
  rw [hagree c, hagree (partner c)]
  simp only [Layout.blockN_apply]
  rw [Cert.ReferenceIdeal.Read.val_main_v1_apply, Cert.ReferenceIdeal.Read.val_main_v0_apply,
    Cert.ReferenceIdeal.Read.val_main_cst_apply, Ideal.truncf_def, Ideal.ofBits_def, Ideal.ofBits_zero_f32,
    Fin.sum_univ_two, own_idx, own_idx, ref_idx, ref_idx]
  rcases xCoord_partner c with ⟨h0, h1⟩ | ⟨h0, h1⟩
  · rw [h0, h1]
    exact (zero_add (M := EReal) _).symm
  · rw [h0, h1]
    exact (add_comm (G := EReal) _ _).trans (zero_add (M := EReal) _).symm

/-- The reference runs, and ends with its result the composed value of its argument and the argument unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r =>
        r.2.mem (((0 : Dev Cert.ReferenceIdeal.nD).tc : Thread _ _).loc Cert.ReferenceIdeal.main_v1)
          = Cert.ReferenceIdeal.Read.val_main_v1 (F := Ideal)
              (m' (((0 : Dev Cert.ReferenceIdeal.nD).tc : Thread _ _).loc Cert.ReferenceIdeal.main_arg0))
        ∧ r.2.mem (((0 : Dev Cert.ReferenceIdeal.nD).tc : Thread _ _).loc Cert.ReferenceIdeal.main_arg0)
          = m' (((0 : Dev Cert.ReferenceIdeal.nD).tc : Thread _ _).loc Cert.ReferenceIdeal.main_arg0)) :=
  (θ_run Cert.ReferenceIdeal.defs _ _).mono
    (fun _ h => ⟨(h 0).1.trans (Cert.ReferenceIdeal.Read.val_main_v1_eq _), (h 0).2⟩)
    (Cert.ReferenceIdeal.Value.run (F := Ideal) m' ρ')

/-- The reference runs and its argument ends unchanged, on its one device. -/
theorem ref_frame : Cert.frame_ReferenceIdeal (hReferenceIdeal := Cert.ReferenceIdeal.Gen.facts)
    (hPre_finite_inputs_ReferenceIdeal := Cert.Pre_finite_inputs_ReferenceIdeal.Gen.facts) := fun m ρ _ =>
  (θ_run Cert.ReferenceIdeal.defs _ _).mono (fun _ h c => (h c).2) (Cert.ReferenceIdeal.Value.run (F := Ideal) m ρ)

end Cert.RefValue

end
-- ==== Proof.Claim.lean ====
import proofs.«901033_g7700000000001034_dist_rs_v7x_xyz2x2x4_x_m2048_n512_bf16_1_alg».proof.Defs
import proofs.«901033_g7700000000001034_dist_rs_v7x_xyz2x2x4_x_m2048_n512_bf16_1_alg».proof.Proof.Gen.Kernel
import proofs.«901033_g7700000000001034_dist_rs_v7x_xyz2x2x4_x_m2048_n512_bf16_1_alg».proof.Proof.Gen.KernelIdeal
import proofs.«901033_g7700000000001034_dist_rs_v7x_xyz2x2x4_x_m2048_n512_bf16_1_alg».proof.Proof.Gen.ReferenceIdeal
import proofs.«901033_g7700000000001034_dist_rs_v7x_xyz2x2x4_x_m2048_n512_bf16_1_alg».proof.Proof.Gen.Pre_finite_inputs_Kernel
import proofs.«901033_g7700000000001034_dist_rs_v7x_xyz2x2x4_x_m2048_n512_bf16_1_alg».proof.Proof.Gen.Pre_finite_inputs_ReferenceIdeal
import proofs.«901033_g7700000000001034_dist_rs_v7x_xyz2x2x4_x_m2048_n512_bf16_1_alg».proof.Proof.Run
import proofs.«901033_g7700000000001034_dist_rs_v7x_xyz2x2x4_x_m2048_n512_bf16_1_alg».proof.Proof.Fund
import proofs.«901033_g7700000000001034_dist_rs_v7x_xyz2x2x4_x_m2048_n512_bf16_1_alg».proof.Proof.RefValue

set_option maxRecDepth 16384

noncomputable section

namespace Cert.ClaimParts

open Idealize.ShloMosaic Idealize.SL.Sem
open Idealize.ShloMosaic.Pipeline (BodyObligation)

/-! ## The claim from its parts

The idealized kernel's run (every device's argument unchanged; every device's result the value the body leaves) is the
launch theorem applied to what the launch element deals each device, the global step and the body's proof on every device.
The frame claim drops the result; the algebraic claim names the reference's value as the witness, joins the kernel's
result to its block of that value, and runs the reference beside it. -/

/-- The idealized kernel runs and every device's argument ends unchanged, given the body's proof on every device. -/
theorem frame_KernelIdeal_of
    (hbody : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      BodyObligation (Cert.KernelIdeal.RS.dats (F := Ideal) m ρ 0 c) (Cert.KernelIdeal.defs₀ (F := Ideal))
        Cert.KernelIdeal.RS.𝒱₀ () Set.univ) :
    Cert.frame_KernelIdeal (hKernelIdeal := Cert.KernelIdeal.Gen.facts)
      (hPre_finite_inputs_Kernel := Cert.Pre_finite_inputs_Kernel.Gen.facts) :=
  fun m g _ =>
    Cert.KernelIdeal.RS.frame_post (F := Ideal) m g (Cert.KernelIdeal.RS.G (F := Ideal) m)
      Cert.KernelIdeal.RS.ownSemFacts (Cert.KernelIdeal.RS.fund_all (F := Ideal) m) (Cert.KernelIdeal.RS.glob (F := Ideal) m)
      (hbody m g)

/-- The idealized kernel against the reference: the reference's value is the witness; each device ends with its block of
    it (the body's value joined to the block, hval) and its argument unchanged; the reference ends with that value and
    its argument unchanged. -/
theorem algebraic_of
    (hbody : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      BodyObligation (Cert.KernelIdeal.RS.dats (F := Ideal) m ρ 0 c) (Cert.KernelIdeal.defs₀ (F := Ideal))
        Cert.KernelIdeal.RS.𝒱₀ () Set.univ)
    (hval : ∀ (m : (ℓ : Loc Cert.KernelIdeal.nD Cert.KernelIdeal.τ Cert.KernelIdeal.sig) → Buf (Elt Ideal) ℓ)
      (m' : (ℓ : Loc Cert.ReferenceIdeal.nD Cert.ReferenceIdeal.τ Cert.ReferenceIdeal.sig) → Buf (Elt Ideal) ℓ)
      (hagree : ∀ c : Dev Cert.KernelIdeal.nD,
        m ((c.tc : Thread Cert.KernelIdeal.nD Cert.KernelIdeal.τ).loc Cert.KernelIdeal.main_arg0)
          = Layout.blockN ⟨3, ![1, 2048, 1024]⟩ ⟨3, ![2, 2048, 1024]⟩ (Layout.meshBlock [2, 2, 4] ![[0], [], []] c)
              (m' (((0 : Dev Cert.ReferenceIdeal.nD).tc : Thread Cert.ReferenceIdeal.nD Cert.ReferenceIdeal.τ).loc Cert.ReferenceIdeal.main_arg0)))
      (c : Dev Cert.KernelIdeal.nD),
      (Cert.KernelIdeal.RS.outAt (F := Ideal) m c
          : Buf (Elt Ideal) ((c.tc : Thread Cert.KernelIdeal.nD Cert.KernelIdeal.τ).loc Cert.KernelIdeal.main_v1))
        = Layout.blockN ⟨2, ![2048, 512]⟩ ⟨2, ![2048, 1024]⟩ (Layout.meshBlock [2, 2, 4] ![[], [0]] c)
            (Cert.ReferenceIdeal.Read.val_main_v1 (F := Ideal)
              (m' (((0 : Dev Cert.ReferenceIdeal.nD).tc : Thread Cert.ReferenceIdeal.nD Cert.ReferenceIdeal.τ).loc Cert.ReferenceIdeal.main_arg0)))) :
    Cert.algebraic_KernelIdeal_ReferenceIdeal (hKernelIdeal := Cert.KernelIdeal.Gen.facts)
      (hReferenceIdeal := Cert.ReferenceIdeal.Gen.facts)
      (hPre_finite_inputs_Kernel := Cert.Pre_finite_inputs_Kernel.Gen.facts) :=
  fun m g m' g' _ hagree =>
    ⟨Cert.ReferenceIdeal.Read.val_main_v1 (F := Ideal)
        (m' (((0 : Dev Cert.ReferenceIdeal.nD).tc : Thread Cert.ReferenceIdeal.nD Cert.ReferenceIdeal.τ).loc Cert.ReferenceIdeal.main_arg0)),
      (θ_run (Cert.KernelIdeal.defs (F := Ideal)) _ _).mono
        (fun _ h c => ⟨(h c).1.trans (hval m m' hagree c), (h c).2⟩)
        (Cert.KernelIdeal.RS.value_post (F := Ideal) m g (Cert.KernelIdeal.RS.G (F := Ideal) m)
          Cert.KernelIdeal.RS.ownSemFacts (Cert.KernelIdeal.RS.fund_all (F := Ideal) m) (Cert.KernelIdeal.RS.glob (F := Ideal) m)
          (hbody m g)),
      Cert.RefValue.ref_run m' g'⟩

/-- The whole claim from the word-level kernel's frame, the body's proof and the value join. -/
theorem claim_of
    (hframe : Cert.frame_Kernel (hKernel := Cert.Kernel.Gen.facts)
      (hPre_finite_inputs_Kernel := Cert.Pre_finite_inputs_Kernel.Gen.facts))
    (hbody : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      BodyObligation (Cert.KernelIdeal.RS.dats (F := Ideal) m ρ 0 c) (Cert.KernelIdeal.defs₀ (F := Ideal))
        Cert.KernelIdeal.RS.𝒱₀ () Set.univ)
    (hval : ∀ (m : (ℓ : Loc Cert.KernelIdeal.nD Cert.KernelIdeal.τ Cert.KernelIdeal.sig) → Buf (Elt Ideal) ℓ)
      (m' : (ℓ : Loc Cert.ReferenceIdeal.nD Cert.ReferenceIdeal.τ Cert.ReferenceIdeal.sig) → Buf (Elt Ideal) ℓ)
      (hagree : ∀ c : Dev Cert.KernelIdeal.nD,
        m ((c.tc : Thread Cert.KernelIdeal.nD Cert.KernelIdeal.τ).loc Cert.KernelIdeal.main_arg0)
          = Layout.blockN ⟨3, ![1, 2048, 1024]⟩ ⟨3, ![2, 2048, 1024]⟩ (Layout.meshBlock [2, 2, 4] ![[0], [], []] c)
              (m' (((0 : Dev Cert.ReferenceIdeal.nD).tc : Thread Cert.ReferenceIdeal.nD Cert.ReferenceIdeal.τ).loc Cert.ReferenceIdeal.main_arg0)))
      (c : Dev Cert.KernelIdeal.nD),
      (Cert.KernelIdeal.RS.outAt (F := Ideal) m c
          : Buf (Elt Ideal) ((c.tc : Thread Cert.KernelIdeal.nD Cert.KernelIdeal.τ).loc Cert.KernelIdeal.main_v1))
        = Layout.blockN ⟨2, ![2048, 512]⟩ ⟨2, ![2048, 1024]⟩ (Layout.meshBlock [2, 2, 4] ![[], [0]] c)
            (Cert.ReferenceIdeal.Read.val_main_v1 (F := Ideal)
              (m' (((0 : Dev Cert.ReferenceIdeal.nD).tc : Thread Cert.ReferenceIdeal.nD Cert.ReferenceIdeal.τ).loc Cert.ReferenceIdeal.main_arg0)))) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    hframe, frame_KernelIdeal_of hbody, Cert.RefValue.ref_frame, trivial, algebraic_of hbody hval⟩

end Cert.ClaimParts

end
-- ==== Proof.Tables.lean ====
import proofs.«901033_g7700000000001034_dist_rs_v7x_xyz2x2x4_x_m2048_n512_bf16_1_alg».proof.Proof.Proto

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphore numbers

The twelve arrays of DMA semaphores lie one after another from number 2 (numbers 0 and 1 are the
launch's own): chunk `k` of an array laid from `b` is number `b + k`. -/

theorem sxS_val (k : Fin 8) : (sxS k).val = 2 + k.val := rfl
theorem rxS_val (k : Fin 8) : (rxS k).val = 10 + k.val := rfl
theorem sx2S_val (k : Fin 2) : (sx2S k).val = 18 + k.val := rfl
theorem rx2S_val (k : Fin 2) : (rx2S k).val = 20 + k.val := rfl
theorem sydS_val (k : Fin 8) : (sydS k).val = 22 + k.val := rfl
theorem rydS_val (k : Fin 8) : (rydS k).val = 30 + k.val := rfl
theorem szdS_val (k : Fin 8) : (szdS k).val = 38 + k.val := rfl
theorem rzdS_val (k : Fin 8) : (rzdS k).val = 46 + k.val := rfl
theorem syrS_val (k : Fin 3) : (syrS k).val = 54 + k.val := rfl
theorem ryrS_val (k : Fin 3) : (ryrS k).val = 57 + k.val := rfl
theorem szrS_val (k : Fin 3) : (szrS k).val = 60 + k.val := rfl
theorem rzrS_val (k : Fin 3) : (rzrS k).val = 63 + k.val := rfl

theorem two_le_sxS (k : Fin 8) : 2 ≤ (sxS k).val := Nat.le_trans (by decide) (Nat.le_add_right 2 k.val)
theorem two_le_rxS (k : Fin 8) : 2 ≤ (rxS k).val := Nat.le_trans (by decide) (Nat.le_add_right 10 k.val)
theorem two_le_sx2S (k : Fin 2) : 2 ≤ (sx2S k).val := Nat.le_trans (by decide) (Nat.le_add_right 18 k.val)
theorem two_le_rx2S (k : Fin 2) : 2 ≤ (rx2S k).val := Nat.le_trans (by decide) (Nat.le_add_right 20 k.val)
theorem two_le_sydS (k : Fin 8) : 2 ≤ (sydS k).val := Nat.le_trans (by decide) (Nat.le_add_right 22 k.val)
theorem two_le_rydS (k : Fin 8) : 2 ≤ (rydS k).val := Nat.le_trans (by decide) (Nat.le_add_right 30 k.val)
theorem two_le_szdS (k : Fin 8) : 2 ≤ (szdS k).val := Nat.le_trans (by decide) (Nat.le_add_right 38 k.val)
theorem two_le_rzdS (k : Fin 8) : 2 ≤ (rzdS k).val := Nat.le_trans (by decide) (Nat.le_add_right 46 k.val)
theorem two_le_syrS (k : Fin 3) : 2 ≤ (syrS k).val := Nat.le_trans (by decide) (Nat.le_add_right 54 k.val)
theorem two_le_ryrS (k : Fin 3) : 2 ≤ (ryrS k).val := Nat.le_trans (by decide) (Nat.le_add_right 57 k.val)
theorem two_le_szrS (k : Fin 3) : 2 ≤ (szrS k).val := Nat.le_trans (by decide) (Nat.le_add_right 60 k.val)
theorem two_le_rzrS (k : Fin 3) : 2 ≤ (rzrS k).val := Nat.le_trans (by decide) (Nat.le_add_right 63 k.val)

/-! ## A chunk number read back from a semaphore number -/

theorem fin8_off (b : ℕ) (k : Fin 8) : fin8 (b + k.val - b) = k :=
  Fin.ext (by show (b + k.val - b) % 8 = k.val; rw [Nat.add_sub_cancel_left]; exact Nat.mod_eq_of_lt k.isLt)
theorem fin2_off (b : ℕ) (k : Fin 2) : fin2 (b + k.val - b) = k :=
  Fin.ext (by show (b + k.val - b) % 2 = k.val; rw [Nat.add_sub_cancel_left]; exact Nat.mod_eq_of_lt k.isLt)
theorem fin3_off (b : ℕ) (k : Fin 3) : fin3 (b + k.val - b) = k :=
  Fin.ext (by show (b + k.val - b) % 3 = k.val; rw [Nat.add_sub_cancel_left]; exact Nat.mod_eq_of_lt k.isLt)
theorem fin8_in8 (b : ℕ) (k : Fin 3) : fin8 (b + k.val - b) = in8 k :=
  Fin.ext (by show (b + k.val - b) % 8 = k.val; rw [Nat.add_sub_cancel_left]; exact Nat.mod_eq_of_lt (by have := k.isLt; omega))
theorem fin8_up3 (b : ℕ) (k : Fin 3) : fin8 (b + k.val - b + 3) = up3 k :=
  Fin.ext (by show (b + k.val - b + 3) % 8 = k.val + 3; rw [Nat.add_sub_cancel_left]; exact Nat.mod_eq_of_lt (by have := k.isLt; omega))

/-! ## The schedule's tables at the cells of the mesh

One round. A barrier cell has three duties of one unit each; a DMA cell one duty, of a chunk's
credit. -/

theorem duties_bar (c : Dev nD) : (sched (F := F) m).duties (barCell c) 0 = Finset.univ := by
  dsimp only [sched]; exact if_pos ⟨rfl, rfl⟩
theorem duties_dma (c : Dev nD) (s : DmaSem sig) (h : 2 ≤ s.val) : (sched (F := F) m).duties (dcell c s) 0 = {0} := by
  dsimp only [sched]; rw [if_pos ⟨rfl, rfl⟩]; exact if_pos h
theorem duties_later (g : GSem nD τ sig) : ∀ r, 1 ≤ r → (sched (F := F) m).duties g r = ∅ :=
  fun r hr => by dsimp only [sched]; exact if_neg fun h => by omega

theorem amount_bar (c : Dev nD) (d : Fin 3) : (sched (F := F) m).amount (barCell c) 0 d = 1 := rfl
theorem amount_dma (c : Dev nD) (s : DmaSem sig) (d : Fin 3) : (sched (F := F) m).amount (dcell c s) 0 d = Nc := rfl

theorem expect_bar (c : Dev nD) : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_dma (c : Dev nD) (s : DmaSem sig) (h : 2 ≤ s.val) : (sched (F := F) m).expect (dcell c s) 0 = Nc := by
  unfold Schedule.expect Schedule.amountOf; rw [duties_dma m c s h, Finset.sum_singleton, amount_dma]

theorem payload_bar (c : Dev nD) (d : Fin 3) : (sched (F := F) m).payload (barCell c) 0 d = barPay c d := rfl
theorem payload_dma (c : Dev nD) (s : DmaSem sig) (d : Fin 3) : (sched (F := F) m).payload (dcell c s) 0 d = dmaPay m c s.val := rfl

/-! ## What each DMA cell's one duty hands over

A send cell hands back the share of the slot that was read (the whole of a staging slot; of a
received slot, the part lent to that forwarding copy); a receive cell hands over the landing slot
at its final contents. -/

theorem payload_sx (c : Dev nD) (k : Fin 8) (d : Fin 3) :
    (sched (F := F) m).payload (dcell c (sxS k)) 0 d = sxPts m c k fullShare := by
  have hk := k.isLt
  show dmaPay m c (2 + k.val) = _
  unfold dmaPay; rw [if_neg (by omega), if_pos (by omega), fin8_off]
theorem payload_rx (c : Dev nD) (k : Fin 8) (d : Fin 3) :
    (sched (F := F) m).payload (dcell c (rxS k)) 0 d = rxPts m c k fullShare := by
  have hk := k.isLt
  show dmaPay m c (10 + k.val) = _
  unfold dmaPay; rw [if_neg (by omega), if_neg (by omega), if_pos (by omega), fin8_off]
theorem payload_sx2 (c : Dev nD) (k : Fin 2) (d : Fin 3) :
    (sched (F := F) m).payload (dcell c (sx2S k)) 0 d = sx2Pts m c k fullShare := by
  have hk := k.isLt
  show dmaPay m c (18 + k.val) = _
  unfold dmaPay; rw [if_neg (by omega), if_neg (by omega), if_neg (by omega), if_pos (by omega), fin2_off]
theorem payload_rx2 (c : Dev nD) (k : Fin 2) (d : Fin 3) :
    (sched (F := F) m).payload (dcell c (rx2S k)) 0 d = rx2Pts m c k fullShare := by
  have hk := k.isLt
  show dmaPay m c (20 + k.val) = _
  unfold dmaPay; rw [if_neg (by omega), if_neg (by omega), if_neg (by omega), if_neg (by omega), if_pos (by omega), fin2_off]
theorem payload_syd (c : Dev nD) (k : Fin 8) (d : Fin 3) :
    (sched (F := F) m).payload (dcell c (sydS k)) 0 d = rxPts m c k fullShare.left := by
  have hk := k.isLt
  show dmaPay m c (22 + k.val) = _
  unfold dmaPay; rw [if_neg (by omega), if_neg (by omega), if_neg (by omega), if_neg (by omega), if_neg (by omega), if_pos (by omega), fin8_off]
theorem payload_ryd (c : Dev nD) (k : Fin 8) (d : Fin 3) :
    (sched (F := F) m).payload (dcell c (rydS k)) 0 d = rydPts m c k fullShare := by
  have hk := k.isLt
  show dmaPay m c (30 + k.val) = _
  unfold dmaPay; rw [if_neg (by omega), if_neg (by omega), if_neg (by omega), if_neg (by omega), if_neg (by omega), if_neg (by omega), if_pos (by omega), fin8_off]
theorem payload_szd (c : Dev nD) (k : Fin 8) (d : Fin 3) :
    (sched (F := F) m).payload (dcell c (szdS k)) 0 d = rxPts m c k fullShare.right.left := by
  have hk := k.isLt
  show dmaPay m c (38 + k.val) = _
  unfold dmaPay; rw [if_neg (by omega), if_neg (by omega), if_neg (by omega), if_neg (by omega), if_neg (by omega), if_neg (by omega), if_neg (by omega), if_pos (by omega), fin8_off]
theorem payload_rzd (c : Dev nD) (k : Fin 8) (d : Fin 3) :
    (sched (F := F) m).payload (dcell c (rzdS k)) 0 d = rzdPts m c k fullShare := by
  have hk := k.isLt
  show dmaPay m c (46 + k.val) = _
  unfold dmaPay; rw [if_neg (by omega), if_neg (by omega), if_neg (by omega), if_neg (by omega), if_neg (by omega), if_neg (by omega), if_neg (by omega), if_neg (by omega), if_pos (by omega), fin8_off]
theorem payload_syr (c : Dev nD) (k : Fin 3) (d : Fin 3) :
    (sched (F := F) m).payload (dcell c (syrS k)) 0 d = rzdPts m c (in8 k) fullShare.left := by
  have hk := k.isLt
  show dmaPay m c (54 + k.val) = _
  unfold dmaPay; rw [if_neg (by omega), if_neg (by omega), if_neg (by omega), if_neg (by omega), if_neg (by omega), if_neg (by omega), if_neg (by omega), if_neg (by omega), if_neg (by omega), if_pos (by omega), fin8_in8]
theorem payload_ryr (c : Dev nD) (k : Fin 3) (d : Fin 3) :
    (sched (F := F) m).payload (dcell c (ryrS k)) 0 d = ryrPts m c k fullShare := by
  have hk := k.isLt
  show dmaPay m c (57 + k.val) = _
  unfold dmaPay; rw [if_neg (by omega), if_neg (by omega), if_neg (by omega), if_neg (by omega), if_neg (by omega), if_neg (by omega), if_neg (by omega), if_neg (by omega), if_neg (by omega), if_neg (by omega), if_pos (by omega), fin3_off]
theorem payload_szr (c : Dev nD) (k : Fin 3) (d : Fin 3) :
    (sched (F := F) m).payload (dcell c (szrS k)) 0 d = rydPts m c (up3 k) fullShare.left := by
  have hk := k.isLt
  show dmaPay m c (60 + k.val) = _
  unfold dmaPay; rw [if_neg (by omega), if_neg (by omega), if_neg (by omega), if_neg (by omega), if_neg (by omega), if_neg (by omega), if_neg (by omega), if_neg (by omega), if_neg (by omega), if_neg (by omega), if_neg (by omega), if_pos (by omega), fin8_up3]
theorem payload_rzr (c : Dev nD) (k : Fin 3) (d : Fin 3) :
    (sched (F := F) m).payload (dcell c (rzrS k)) 0 d = rzrPts m c k fullShare := by
  have hk := k.isLt
  show dmaPay m c (63 + k.val) = _
  unfold dmaPay; rw [if_neg (by omega), if_neg (by omega), if_neg (by omega), if_neg (by omega), if_neg (by omega), if_neg (by omega), if_neg (by omega), if_neg (by omega), if_neg (by omega), if_neg (by omega), if_neg (by omega), if_neg (by omega), fin3_off]

/-! ## A round no duty of which is taken yet holds every duty's payload -/

theorem rest_bar (c : Dev nD) :
    bigSep ((sched (F := F) m).duties (barCell c) 0 \ ∅) (fun d => (sched (F := F) m).payload (barCell c) 0 d)
      = iprop(barPay c 0 ∗ barPay c 1 ∗ barPay c 2) := by
  rw [Finset.sdiff_empty, duties_bar, bigSep_univ_eq_bigSepL [0, 1, 2] (by decide) (by decide)]; rfl
theorem rest_dma (c : Dev nD) (s : DmaSem sig) (h : 2 ≤ s.val) :
    bigSep ((sched (F := F) m).duties (dcell c s) 0 \ ∅) (fun d => (sched (F := F) m).payload (dcell c s) 0 d)
      = (sched (F := F) m).payload (dcell c s) 0 0 := by
  rw [Finset.sdiff_empty, duties_dma m c s h, bigSep_singleton]

end Cert.KernelIdeal.RS

end
-- ==== Proof.Slots.lean ====
import proofs.«901033_g7700000000001034_dist_rs_v7x_xyz2x2x4_x_m2048_n512_bf16_1_alg».proof.Proof.Proto
import Idealize.ShloMosaic.Lib.Pipeline.Value
import Idealize.ShloMosaic.Lib.ValueLayout
import Idealize.ShloMosaic.Rules.PointsTo

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-! ## Chunk k of a buffer of n chunks of 64 × 512: the index arithmetic

The rectangle of chunk `k` is all of rows and columns at first coordinate `k`; the 64 × 512
indices of a chunk are matched with it row-major, so index `(r, c)` of the chunk is element
`(k, r, c)` of the buffer. -/

section Chunk
variable {n : ℕ}

theorem mem_chunk (k : Fin n) (inb : ∀ a, (![k.val, 0, 0] : Fin 3 → ℕ) a + S1x64x512.size a ≤ (⟨3, ![n, 64, 512]⟩ : Shape).size a)
    (j : (⟨3, ![n, 64, 512]⟩ : Shape).Idx) :
    j ∈ (Rect.unit (s := ⟨3, ![n, 64, 512]⟩) ![k.val, 0, 0] S1x64x512.size inb).set ↔ (j 0).val = k.val := by
  rw [Rect.mem_set_unit]
  constructor
  · intro h; have h0 := h 0; simp only [Matrix.cons_val_zero] at h0
    have : (S1x64x512.size 0) = 1 := rfl
    omega
  · intro h a
    match a with
    | ⟨0, _⟩ => exact ⟨Nat.le_of_eq h.symm, by show (j 0).val < k.val + 1; omega⟩
    | ⟨1, _⟩ => exact ⟨Nat.zero_le _, by show (j 1).val < 0 + 64; have := (j 1).isLt; simpa using this⟩
    | ⟨2, _⟩ => exact ⟨Nat.zero_le _, by show (j 2).val < 0 + 512; have := (j 2).isLt; simpa using this⟩

theorem chunk_emb (k : Fin n) (inb : ∀ a, (![k.val, 0, 0] : Fin 3 → ℕ) a + S1x64x512.size a ≤ (⟨3, ![n, 64, 512]⟩ : Shape).size a)
    (h : S64x512.numel = S1x64x512.numel) (y : S64x512.Idx) :
    (Rect.unit (s := ⟨3, ![n, 64, 512]⟩) ![k.val, 0, 0] S1x64x512.size inb).emb (Shape.reshapeEquiv h y) = ix3 k (y 0) (y 1) := by
  obtain ⟨r, c, rfl⟩ : ∃ (r : Fin 64) (c : Fin 512), y = ix2 r c := ⟨y 0, y 1, eq_ix2 y⟩
  rw [reshapeEquiv_ix2_1ab h r c]
  funext a
  match a with
  | ⟨0, _⟩ => exact Fin.ext (by show k.val + 1 * 0 = k.val; omega)
  | ⟨1, _⟩ => exact Fin.ext (by show 0 + 1 * r.val = r.val; omega)
  | ⟨2, _⟩ => exact Fin.ext (by show 0 + 1 * c.val = c.val; omega)

end Chunk

section Chunk
variable {n : ℕ}

/-- Index `(0, r, c)` of the chunk's rectangle is element `(k, r, c)`. -/
theorem chunk_rect_emb (k : Fin n) (inb : ∀ a, (![k.val, 0, 0] : Fin 3 → ℕ) a + S1x64x512.size a ≤ (⟨3, ![n, 64, 512]⟩ : Shape).size a)
    (y : S1x64x512.Idx) :
    (Rect.unit (s := ⟨3, ![n, 64, 512]⟩) ![k.val, 0, 0] S1x64x512.size inb).emb y = ix3 k (y 1) (y 2) := by
  obtain ⟨z, r, c, rfl⟩ : ∃ (z : Fin 1) (r : Fin 64) (c : Fin 512), y = ix3 z r c := ⟨y 0, y 1, y 2, eq_ix3 y⟩
  funext a
  match a with
  | ⟨0, _⟩ => exact Fin.ext (by show k.val + 1 * z.val = k.val; omega)
  | ⟨1, _⟩ => exact Fin.ext (by show 0 + 1 * r.val = r.val; omega)
  | ⟨2, _⟩ => exact Fin.ext (by show 0 + 1 * c.val = c.val; omega)

end Chunk

/-! ## The chunk views of a memref

Chunk `k` of a memref is the memref's elements at first coordinate `k`; different chunks share no
element, and the chunks of a whole buffer are all of it. -/

/-- The elements of chunk `k`, as elements of the memref's buffer. -/
abbrev slotSet8 (M : Memref sig .tc .vmem S8x64x512 .bf16) (k : Fin 8) : Finset M.view.ty.Idx := (slot8 M k).view.set

theorem emb_slot8 (M : Memref sig .tc .vmem S8x64x512 .bf16) (k : Fin 8) (y : S64x512.Idx) :
    (slot8 M k).view.emb y = M.view.emb (ix3 k (y 0) (y 1)) :=
  congrArg M.view.emb (chunk_emb k (inb8 k) _ y)

theorem mem_slot8 (M : Memref sig .tc .vmem S8x64x512 .bf16) (k : Fin 8) (i : M.view.ty.Idx) :
    i ∈ slotSet8 M k ↔ ∃ j : S8x64x512.Idx, (j 0).val = k.val ∧ M.view.emb j = i := by
  constructor
  · intro h
    obtain ⟨y, rfl⟩ := View.exists_emb_of_mem_set (slot8 M k).view h
    exact ⟨ix3 k (y 0) (y 1), rfl, (emb_slot8 M k y).symm⟩
  · rintro ⟨j, hj, rfl⟩
    obtain ⟨a, r, c, rfl⟩ : ∃ (a : Fin 8) (r : Fin 64) (c : Fin 512), j = ix3 a r c := ⟨j 0, j 1, j 2, eq_ix3 j⟩
    obtain rfl : a = k := Fin.ext hj
    have e := emb_slot8 M a (ix2 r c)
    exact e ▸ View.emb_mem_set (slot8 M a).view (ix2 r c)

theorem disjoint_slot8 (M : Memref sig .tc .vmem S8x64x512 .bf16) {k k' : Fin 8} (h : k ≠ k') :
    Disjoint (slotSet8 M k) (slotSet8 M k') := by
  rw [Finset.disjoint_left]
  intro i hi hi'
  obtain ⟨j, hj, rfl⟩ := (mem_slot8 M k i).mp hi
  obtain ⟨j', hj', e⟩ := (mem_slot8 M k' _).mp hi'
  obtain rfl := M.view.emb.injective e
  exact h (Fin.ext (hj.symm.trans hj'))

theorem biUnion_slot8 (M : Memref sig .tc .vmem S8x64x512 .bf16) (hM : M.IsWhole) :
    Finset.univ.biUnion (slotSet8 M) = Finset.univ := by
  ext i
  simp only [Finset.mem_biUnion, Finset.mem_univ, true_and, iff_true]
  have hi : i ∈ M.view.set := hM.set_eq_univ ▸ Finset.mem_univ i
  obtain ⟨j, rfl⟩ := View.exists_emb_of_mem_set M.view hi
  exact ⟨j 0, (mem_slot8 M (j 0) _).mpr ⟨j, rfl, rfl⟩⟩

/-- A whole buffer held at one share is its 8 chunks held at that share. -/
theorem split8 (c : Dev nD) (M : Memref sig .tc .vmem S8x64x512 .bf16) (hM : M.IsWhole) (q : PosShare TreeShare)
    (f : Buf (Elt F) (M.view.loc (c : Thread nD τ))) :
    ((M.view.loc (c : Thread nD τ)) ↦{q} f : sProp 𝕄)
      ⊣⊢ bigSep Finset.univ fun k : Fin 8 => ((slot8 M k).view.loc (c : Thread nD τ) ↦[(slot8 M k).view.set]{q} f) := by
  have e := pointsTo_biUnion (ℓ := M.view.loc (c : Thread nD τ)) (q := q) (f := f) (Ix := Unit) (Name := ℕ) (U := UU) (Lvl := ℕ)
    Finset.univ (slotSet8 M) (fun k _ k' _ h => disjoint_slot8 M h)
  rw [biUnion_slot8 M hM] at e
  exact ⟨Entails.of_eq e, Entails.of_eq e.symm⟩

/-- The elements of chunk `k`, as elements of the memref's buffer. -/
abbrev slotSet2 (M : Memref sig .tc .vmem S2x64x512 .bf16) (k : Fin 2) : Finset M.view.ty.Idx := (slot2 M k).view.set

theorem emb_slot2 (M : Memref sig .tc .vmem S2x64x512 .bf16) (k : Fin 2) (y : S64x512.Idx) :
    (slot2 M k).view.emb y = M.view.emb (ix3 k (y 0) (y 1)) :=
  congrArg M.view.emb (chunk_emb k (inb2 k) _ y)

theorem mem_slot2 (M : Memref sig .tc .vmem S2x64x512 .bf16) (k : Fin 2) (i : M.view.ty.Idx) :
    i ∈ slotSet2 M k ↔ ∃ j : S2x64x512.Idx, (j 0).val = k.val ∧ M.view.emb j = i := by
  constructor
  · intro h
    obtain ⟨y, rfl⟩ := View.exists_emb_of_mem_set (slot2 M k).view h
    exact ⟨ix3 k (y 0) (y 1), rfl, (emb_slot2 M k y).symm⟩
  · rintro ⟨j, hj, rfl⟩
    obtain ⟨a, r, c, rfl⟩ : ∃ (a : Fin 2) (r : Fin 64) (c : Fin 512), j = ix3 a r c := ⟨j 0, j 1, j 2, eq_ix3 j⟩
    obtain rfl : a = k := Fin.ext hj
    have e := emb_slot2 M a (ix2 r c)
    exact e ▸ View.emb_mem_set (slot2 M a).view (ix2 r c)

theorem disjoint_slot2 (M : Memref sig .tc .vmem S2x64x512 .bf16) {k k' : Fin 2} (h : k ≠ k') :
    Disjoint (slotSet2 M k) (slotSet2 M k') := by
  rw [Finset.disjoint_left]
  intro i hi hi'
  obtain ⟨j, hj, rfl⟩ := (mem_slot2 M k i).mp hi
  obtain ⟨j', hj', e⟩ := (mem_slot2 M k' _).mp hi'
  obtain rfl := M.view.emb.injective e
  exact h (Fin.ext (hj.symm.trans hj'))

theorem biUnion_slot2 (M : Memref sig .tc .vmem S2x64x512 .bf16) (hM : M.IsWhole) :
    Finset.univ.biUnion (slotSet2 M) = Finset.univ := by
  ext i
  simp only [Finset.mem_biUnion, Finset.mem_univ, true_and, iff_true]
  have hi : i ∈ M.view.set := hM.set_eq_univ ▸ Finset.mem_univ i
  obtain ⟨j, rfl⟩ := View.exists_emb_of_mem_set M.view hi
  exact ⟨j 0, (mem_slot2 M (j 0) _).mpr ⟨j, rfl, rfl⟩⟩

/-- A whole buffer held at one share is its 2 chunks held at that share. -/
theorem split2 (c : Dev nD) (M : Memref sig .tc .vmem S2x64x512 .bf16) (hM : M.IsWhole) (q : PosShare TreeShare)
    (f : Buf (Elt F) (M.view.loc (c : Thread nD τ))) :
    ((M.view.loc (c : Thread nD τ)) ↦{q} f : sProp 𝕄)
      ⊣⊢ bigSep Finset.univ fun k : Fin 2 => ((slot2 M k).view.loc (c : Thread nD τ) ↦[(slot2 M k).view.set]{q} f) := by
  have e := pointsTo_biUnion (ℓ := M.view.loc (c : Thread nD τ)) (q := q) (f := f) (Ix := Unit) (Name := ℕ) (U := UU) (Lvl := ℕ)
    Finset.univ (slotSet2 M) (fun k _ k' _ h => disjoint_slot2 M h)
  rw [biUnion_slot2 M hM] at e
  exact ⟨Entails.of_eq e, Entails.of_eq e.symm⟩

/-- The elements of chunk `k`, as elements of the memref's buffer. -/
abbrev slotSet3 (M : Memref sig .tc .vmem S3x64x512 .bf16) (k : Fin 3) : Finset M.view.ty.Idx := (slot3 M k).view.set

theorem emb_slot3 (M : Memref sig .tc .vmem S3x64x512 .bf16) (k : Fin 3) (y : S64x512.Idx) :
    (slot3 M k).view.emb y = M.view.emb (ix3 k (y 0) (y 1)) :=
  congrArg M.view.emb (chunk_emb k (inb3 k) _ y)

theorem mem_slot3 (M : Memref sig .tc .vmem S3x64x512 .bf16) (k : Fin 3) (i : M.view.ty.Idx) :
    i ∈ slotSet3 M k ↔ ∃ j : S3x64x512.Idx, (j 0).val = k.val ∧ M.view.emb j = i := by
  constructor
  · intro h
    obtain ⟨y, rfl⟩ := View.exists_emb_of_mem_set (slot3 M k).view h
    exact ⟨ix3 k (y 0) (y 1), rfl, (emb_slot3 M k y).symm⟩
  · rintro ⟨j, hj, rfl⟩
    obtain ⟨a, r, c, rfl⟩ : ∃ (a : Fin 3) (r : Fin 64) (c : Fin 512), j = ix3 a r c := ⟨j 0, j 1, j 2, eq_ix3 j⟩
    obtain rfl : a = k := Fin.ext hj
    have e := emb_slot3 M a (ix2 r c)
    exact e ▸ View.emb_mem_set (slot3 M a).view (ix2 r c)

theorem disjoint_slot3 (M : Memref sig .tc .vmem S3x64x512 .bf16) {k k' : Fin 3} (h : k ≠ k') :
    Disjoint (slotSet3 M k) (slotSet3 M k') := by
  rw [Finset.disjoint_left]
  intro i hi hi'
  obtain ⟨j, hj, rfl⟩ := (mem_slot3 M k i).mp hi
  obtain ⟨j', hj', e⟩ := (mem_slot3 M k' _).mp hi'
  obtain rfl := M.view.emb.injective e
  exact h (Fin.ext (hj.symm.trans hj'))

theorem biUnion_slot3 (M : Memref sig .tc .vmem S3x64x512 .bf16) (hM : M.IsWhole) :
    Finset.univ.biUnion (slotSet3 M) = Finset.univ := by
  ext i
  simp only [Finset.mem_biUnion, Finset.mem_univ, true_and, iff_true]
  have hi : i ∈ M.view.set := hM.set_eq_univ ▸ Finset.mem_univ i
  obtain ⟨j, rfl⟩ := View.exists_emb_of_mem_set M.view hi
  exact ⟨j 0, (mem_slot3 M (j 0) _).mpr ⟨j, rfl, rfl⟩⟩

/-- A whole buffer held at one share is its 3 chunks held at that share. -/
theorem split3 (c : Dev nD) (M : Memref sig .tc .vmem S3x64x512 .bf16) (hM : M.IsWhole) (q : PosShare TreeShare)
    (f : Buf (Elt F) (M.view.loc (c : Thread nD τ))) :
    ((M.view.loc (c : Thread nD τ)) ↦{q} f : sProp 𝕄)
      ⊣⊢ bigSep Finset.univ fun k : Fin 3 => ((slot3 M k).view.loc (c : Thread nD τ) ↦[(slot3 M k).view.set]{q} f) := by
  have e := pointsTo_biUnion (ℓ := M.view.loc (c : Thread nD τ)) (q := q) (f := f) (Ix := Unit) (Name := ℕ) (U := UU) (Lvl := ℕ)
    Finset.univ (slotSet3 M) (fun k _ k' _ h => disjoint_slot3 M h)
  rw [biUnion_slot3 M hM] at e
  exact ⟨Entails.of_eq e, Entails.of_eq e.symm⟩

/-! ## A full share in two and in three -/

omit [FloatOps F] in
theorem share2 (ℓ : Loc nD τ sig) (I : Finset (Idx ℓ)) (f : Buf (Elt F) ℓ) :
    (ℓ ↦[I]{fullShare} f : sProp 𝕄) ⊣⊢ iprop((ℓ ↦[I]{fullShare.left} f) ∗ (ℓ ↦[I]{fullShare.right} f)) :=
  pointsTo_share (PosShare.mem_left_op_right _)
omit [FloatOps F] in
theorem share3 (ℓ : Loc nD τ sig) (I : Finset (Idx ℓ)) (f : Buf (Elt F) ℓ) :
    (ℓ ↦[I]{fullShare} f : sProp 𝕄)
      ⊣⊢ iprop((ℓ ↦[I]{fullShare.left} f) ∗ (ℓ ↦[I]{fullShare.right.left} f) ∗ (ℓ ↦[I]{fullShare.right.right} f)) :=
  (share2 ℓ I f).trans (sep_congr_right (pointsTo_share (PosShare.mem_left_op_right _)))

/-! ## Reading a chunk -/

/-- Reading chunk `k` through its view is reading the memref at first coordinate `k`. -/
theorem read_slot8 (M : Memref sig .tc .vmem S8x64x512 .bf16) (k : Fin 8) (f : M.view.ty.Contents (Elt F)) (y : S64x512.Idx) :
    (slot8 M k).view.read (Elt F) f y = M.view.read (Elt F) f (ix3 k (y 0) (y 1)) :=
  congrArg (fun i : M.view.ty.Idx => _root_.cast (congrArg (Elt F) M.view.elt_eq) (f i)) (emb_slot8 M k y)

/-- The load of chunk `k` at its 1 × 64 × 512 rectangle reads the same elements. -/
theorem readAt_chunk8 (M : Memref sig .tc .vmem S8x64x512 .bf16) (k : Fin 8) (f : M.view.ty.Contents (Elt F)) (y : S1x64x512.Idx) :
    M.view.readAt (Elt F) (Rect.unit (s := S8x64x512) ![k.val, 0, 0] S1x64x512.size (inb8 k)).toLoadRect f y
      = M.view.read (Elt F) f (ix3 k (y 1) (y 2)) :=
  congrArg (fun i : M.view.ty.Idx => _root_.cast (congrArg (Elt F) M.view.elt_eq) (f i))
    (congrArg M.view.emb (chunk_rect_emb k (inb8 k) y))

/-- Reading chunk `k` through its view is reading the memref at first coordinate `k`. -/
theorem read_slot2 (M : Memref sig .tc .vmem S2x64x512 .bf16) (k : Fin 2) (f : M.view.ty.Contents (Elt F)) (y : S64x512.Idx) :
    (slot2 M k).view.read (Elt F) f y = M.view.read (Elt F) f (ix3 k (y 0) (y 1)) :=
  congrArg (fun i : M.view.ty.Idx => _root_.cast (congrArg (Elt F) M.view.elt_eq) (f i)) (emb_slot2 M k y)

/-- The load of chunk `k` at its 1 × 64 × 512 rectangle reads the same elements. -/
theorem readAt_chunk2 (M : Memref sig .tc .vmem S2x64x512 .bf16) (k : Fin 2) (f : M.view.ty.Contents (Elt F)) (y : S1x64x512.Idx) :
    M.view.readAt (Elt F) (Rect.unit (s := S2x64x512) ![k.val, 0, 0] S1x64x512.size (inb2 k)).toLoadRect f y
      = M.view.read (Elt F) f (ix3 k (y 1) (y 2)) :=
  congrArg (fun i : M.view.ty.Idx => _root_.cast (congrArg (Elt F) M.view.elt_eq) (f i))
    (congrArg M.view.emb (chunk_rect_emb k (inb2 k) y))

/-- Reading chunk `k` through its view is reading the memref at first coordinate `k`. -/
theorem read_slot3 (M : Memref sig .tc .vmem S3x64x512 .bf16) (k : Fin 3) (f : M.view.ty.Contents (Elt F)) (y : S64x512.Idx) :
    (slot3 M k).view.read (Elt F) f y = M.view.read (Elt F) f (ix3 k (y 0) (y 1)) :=
  congrArg (fun i : M.view.ty.Idx => _root_.cast (congrArg (Elt F) M.view.elt_eq) (f i)) (emb_slot3 M k y)

/-- The load of chunk `k` at its 1 × 64 × 512 rectangle reads the same elements. -/
theorem readAt_chunk3 (M : Memref sig .tc .vmem S3x64x512 .bf16) (k : Fin 3) (f : M.view.ty.Contents (Elt F)) (y : S1x64x512.Idx) :
    M.view.readAt (Elt F) (Rect.unit (s := S3x64x512) ![k.val, 0, 0] S1x64x512.size (inb3 k)).toLoadRect f y
      = M.view.read (Elt F) f (ix3 k (y 1) (y 2)) :=
  congrArg (fun i : M.view.ty.Idx => _root_.cast (congrArg (Elt F) M.view.elt_eq) (f i))
    (congrArg M.view.emb (chunk_rect_emb k (inb3 k) y))

/-! ## Writing a chunk -/

/-- A chunk written whole through its view holds the payload on the chunk, -/
theorem write_slot8_emb (M : Memref sig .tc .vmem S8x64x512 .bf16) (k : Fin 8) (fd : M.view.ty.Contents (Elt F))
    (w : S64x512.Idx → Elt F .bf16) (y : S64x512.Idx) :
    (slot8 M k).view.write (Elt F) fd w Finset.univ (M.view.emb (ix3 k (y 0) (y 1)))
      = _root_.cast (congrArg (Elt F) M.view.elt_eq.symm) (w y) := by
  have h := View.write_emb_of_mem (v := (slot8 M k).view) (Val := Elt F) fd w (M := Finset.univ) (x := y) (Finset.mem_univ _)
  rw [emb_slot8] at h
  exact h
/-- and what the buffer held off it. -/
theorem write_slot8_off (M : Memref sig .tc .vmem S8x64x512 .bf16) (k : Fin 8) (fd : M.view.ty.Contents (Elt F))
    (w : S64x512.Idx → Elt F .bf16) (i : M.view.ty.Idx) (h : i ∉ slotSet8 M k) :
    (slot8 M k).view.write (Elt F) fd w Finset.univ i = fd i :=
  View.write_of_not_mem (v := (slot8 M k).view) fd w Finset.univ h

/-- The elements under the kernel's 1 × 64 × 512 access at the chunk's rectangle are the chunk's. -/
theorem set_access_chunk8 (M : Memref sig .tc .vmem S8x64x512 .bf16) (k : Fin 8) :
    (M.access (Rect.unit (s := S8x64x512) ![k.val, 0, 0] S1x64x512.size (inb8 k))).set = slotSet8 M k := by
  exact (View.set_reshape (M.view.slice (Rect.unit (s := S8x64x512) ![k.val, 0, 0] S1x64x512.size (inb8 k)))
    squeezes_S1x64x512_S64x512.numel_eq).symm

/-- The same of the 1 × 64 × 512 store the kernel makes at the chunk's rectangle. -/
theorem store_chunk8_emb (M : Memref sig .tc .vmem S8x64x512 .bf16) (k : Fin 8) (f : M.view.ty.Contents (Elt F))
    (w : S1x64x512.Idx → Elt F .bf16) (y : S1x64x512.Idx) :
    (M.access (Rect.unit (s := S8x64x512) ![k.val, 0, 0] S1x64x512.size (inb8 k))).write (Elt F) f w Finset.univ
        (M.view.emb (ix3 k (y 1) (y 2)))
      = _root_.cast (congrArg (Elt F) M.view.elt_eq.symm) (w y) := by
  have h := View.write_emb_of_mem (v := M.access (Rect.unit (s := S8x64x512) ![k.val, 0, 0] S1x64x512.size (inb8 k)))
    (Val := Elt F) f w (M := Finset.univ) (x := y) (Finset.mem_univ _)
  have e : (M.access (Rect.unit (s := S8x64x512) ![k.val, 0, 0] S1x64x512.size (inb8 k))).emb y
      = M.view.emb (ix3 k (y 1) (y 2)) := congrArg M.view.emb (chunk_rect_emb k (inb8 k) y)
  rw [e] at h
  exact h
theorem store_chunk8_off (M : Memref sig .tc .vmem S8x64x512 .bf16) (k : Fin 8) (f : M.view.ty.Contents (Elt F))
    (w : S1x64x512.Idx → Elt F .bf16) (i : M.view.ty.Idx) (h : i ∉ slotSet8 M k) :
    (M.access (Rect.unit (s := S8x64x512) ![k.val, 0, 0] S1x64x512.size (inb8 k))).write (Elt F) f w Finset.univ i = f i := by
  rw [← set_access_chunk8] at h
  exact View.write_of_not_mem (v := M.access (Rect.unit (s := S8x64x512) ![k.val, 0, 0] S1x64x512.size (inb8 k))) f w Finset.univ h

/-- A chunk written whole through its view holds the payload on the chunk, -/
theorem write_slot2_emb (M : Memref sig .tc .vmem S2x64x512 .bf16) (k : Fin 2) (fd : M.view.ty.Contents (Elt F))
    (w : S64x512.Idx → Elt F .bf16) (y : S64x512.Idx) :
    (slot2 M k).view.write (Elt F) fd w Finset.univ (M.view.emb (ix3 k (y 0) (y 1)))
      = _root_.cast (congrArg (Elt F) M.view.elt_eq.symm) (w y) := by
  have h := View.write_emb_of_mem (v := (slot2 M k).view) (Val := Elt F) fd w (M := Finset.univ) (x := y) (Finset.mem_univ _)
  rw [emb_slot2] at h
  exact h
/-- and what the buffer held off it. -/
theorem write_slot2_off (M : Memref sig .tc .vmem S2x64x512 .bf16) (k : Fin 2) (fd : M.view.ty.Contents (Elt F))
    (w : S64x512.Idx → Elt F .bf16) (i : M.view.ty.Idx) (h : i ∉ slotSet2 M k) :
    (slot2 M k).view.write (Elt F) fd w Finset.univ i = fd i :=
  View.write_of_not_mem (v := (slot2 M k).view) fd w Finset.univ h

/-- The elements under the kernel's 1 × 64 × 512 access at the chunk's rectangle are the chunk's. -/
theorem set_access_chunk2 (M : Memref sig .tc .vmem S2x64x512 .bf16) (k : Fin 2) :
    (M.access (Rect.unit (s := S2x64x512) ![k.val, 0, 0] S1x64x512.size (inb2 k))).set = slotSet2 M k := by
  exact (View.set_reshape (M.view.slice (Rect.unit (s := S2x64x512) ![k.val, 0, 0] S1x64x512.size (inb2 k)))
    squeezes_S1x64x512_S64x512.numel_eq).symm

/-- The same of the 1 × 64 × 512 store the kernel makes at the chunk's rectangle. -/
theorem store_chunk2_emb (M : Memref sig .tc .vmem S2x64x512 .bf16) (k : Fin 2) (f : M.view.ty.Contents (Elt F))
    (w : S1x64x512.Idx → Elt F .bf16) (y : S1x64x512.Idx) :
    (M.access (Rect.unit (s := S2x64x512) ![k.val, 0, 0] S1x64x512.size (inb2 k))).write (Elt F) f w Finset.univ
        (M.view.emb (ix3 k (y 1) (y 2)))
      = _root_.cast (congrArg (Elt F) M.view.elt_eq.symm) (w y) := by
  have h := View.write_emb_of_mem (v := M.access (Rect.unit (s := S2x64x512) ![k.val, 0, 0] S1x64x512.size (inb2 k)))
    (Val := Elt F) f w (M := Finset.univ) (x := y) (Finset.mem_univ _)
  have e : (M.access (Rect.unit (s := S2x64x512) ![k.val, 0, 0] S1x64x512.size (inb2 k))).emb y
      = M.view.emb (ix3 k (y 1) (y 2)) := congrArg M.view.emb (chunk_rect_emb k (inb2 k) y)
  rw [e] at h
  exact h
theorem store_chunk2_off (M : Memref sig .tc .vmem S2x64x512 .bf16) (k : Fin 2) (f : M.view.ty.Contents (Elt F))
    (w : S1x64x512.Idx → Elt F .bf16) (i : M.view.ty.Idx) (h : i ∉ slotSet2 M k) :
    (M.access (Rect.unit (s := S2x64x512) ![k.val, 0, 0] S1x64x512.size (inb2 k))).write (Elt F) f w Finset.univ i = f i := by
  rw [← set_access_chunk2] at h
  exact View.write_of_not_mem (v := M.access (Rect.unit (s := S2x64x512) ![k.val, 0, 0] S1x64x512.size (inb2 k))) f w Finset.univ h

/-- A chunk written whole through its view holds the payload on the chunk, -/
theorem write_slot3_emb (M : Memref sig .tc .vmem S3x64x512 .bf16) (k : Fin 3) (fd : M.view.ty.Contents (Elt F))
    (w : S64x512.Idx → Elt F .bf16) (y : S64x512.Idx) :
    (slot3 M k).view.write (Elt F) fd w Finset.univ (M.view.emb (ix3 k (y 0) (y 1)))
      = _root_.cast (congrArg (Elt F) M.view.elt_eq.symm) (w y) := by
  have h := View.write_emb_of_mem (v := (slot3 M k).view) (Val := Elt F) fd w (M := Finset.univ) (x := y) (Finset.mem_univ _)
  rw [emb_slot3] at h
  exact h
/-- and what the buffer held off it. -/
theorem write_slot3_off (M : Memref sig .tc .vmem S3x64x512 .bf16) (k : Fin 3) (fd : M.view.ty.Contents (Elt F))
    (w : S64x512.Idx → Elt F .bf16) (i : M.view.ty.Idx) (h : i ∉ slotSet3 M k) :
    (slot3 M k).view.write (Elt F) fd w Finset.univ i = fd i :=
  View.write_of_not_mem (v := (slot3 M k).view) fd w Finset.univ h

/-- The elements under the kernel's 1 × 64 × 512 access at the chunk's rectangle are the chunk's. -/
theorem set_access_chunk3 (M : Memref sig .tc .vmem S3x64x512 .bf16) (k : Fin 3) :
    (M.access (Rect.unit (s := S3x64x512) ![k.val, 0, 0] S1x64x512.size (inb3 k))).set = slotSet3 M k := by
  exact (View.set_reshape (M.view.slice (Rect.unit (s := S3x64x512) ![k.val, 0, 0] S1x64x512.size (inb3 k)))
    squeezes_S1x64x512_S64x512.numel_eq).symm

/-- The same of the 1 × 64 × 512 store the kernel makes at the chunk's rectangle. -/
theorem store_chunk3_emb (M : Memref sig .tc .vmem S3x64x512 .bf16) (k : Fin 3) (f : M.view.ty.Contents (Elt F))
    (w : S1x64x512.Idx → Elt F .bf16) (y : S1x64x512.Idx) :
    (M.access (Rect.unit (s := S3x64x512) ![k.val, 0, 0] S1x64x512.size (inb3 k))).write (Elt F) f w Finset.univ
        (M.view.emb (ix3 k (y 1) (y 2)))
      = _root_.cast (congrArg (Elt F) M.view.elt_eq.symm) (w y) := by
  have h := View.write_emb_of_mem (v := M.access (Rect.unit (s := S3x64x512) ![k.val, 0, 0] S1x64x512.size (inb3 k)))
    (Val := Elt F) f w (M := Finset.univ) (x := y) (Finset.mem_univ _)
  have e : (M.access (Rect.unit (s := S3x64x512) ![k.val, 0, 0] S1x64x512.size (inb3 k))).emb y
      = M.view.emb (ix3 k (y 1) (y 2)) := congrArg M.view.emb (chunk_rect_emb k (inb3 k) y)
  rw [e] at h
  exact h
theorem store_chunk3_off (M : Memref sig .tc .vmem S3x64x512 .bf16) (k : Fin 3) (f : M.view.ty.Contents (Elt F))
    (w : S1x64x512.Idx → Elt F .bf16) (i : M.view.ty.Idx) (h : i ∉ slotSet3 M k) :
    (M.access (Rect.unit (s := S3x64x512) ![k.val, 0, 0] S1x64x512.size (inb3 k))).write (Elt F) f w Finset.univ i = f i := by
  rw [← set_access_chunk3] at h
  exact View.write_of_not_mem (v := M.access (Rect.unit (s := S3x64x512) ![k.val, 0, 0] S1x64x512.size (inb3 k))) f w Finset.univ h

/-! ## The eight scratch buffers of this kernel

Each is a whole buffer, so an element of the memref is the buffer's element at the same index and
a read through the memref's view is the buffer's contents: the statements above at buffer indices. -/

theorem mem_slot_sx (k : Fin 8) (i : S8x64x512.Idx) : i ∈ (slot8 sxM k).view.set ↔ (i 0).val = k.val :=
  (mem_slot8 sxM k i).trans ⟨fun ⟨j, hj, e⟩ => (show j = i from e) ▸ hj, fun h => ⟨i, h, rfl⟩⟩
theorem read_slot_sx (k : Fin 8) (f : (cc0_scratch0 : Ref sig .tc).ty.Contents (Elt F)) (y : S64x512.Idx) :
    (slot8 sxM k).view.read (Elt F) f y = f (ix3 k (y 0) (y 1)) := read_slot8 sxM k f y
theorem readAt_chunk_sx (k : Fin 8) (f : (cc0_scratch0 : Ref sig .tc).ty.Contents (Elt F)) (y : S1x64x512.Idx) :
    (sxM : Memref sig .tc .vmem S8x64x512 .bf16).view.readAt (Elt F)
        (Rect.unit (s := S8x64x512) ![k.val, 0, 0] S1x64x512.size (inb8 k)).toLoadRect f y
      = f (ix3 k (y 1) (y 2)) := readAt_chunk8 sxM k f y
theorem write_slot_sx (k : Fin 8) (fd : (cc0_scratch0 : Ref sig .tc).ty.Contents (Elt F)) (w : S64x512.Idx → Elt F .bf16)
    (i : S8x64x512.Idx) (hi : i ∈ (slot8 sxM k).view.set) :
    (slot8 sxM k).view.write (Elt F) fd w Finset.univ i = w (ix2 (i 1) (i 2)) := by
  obtain ⟨z, r, c, rfl⟩ : ∃ (z : Fin 8) (r : Fin 64) (c : Fin 512), i = ix3 z r c := ⟨i 0, i 1, i 2, eq_ix3 i⟩
  obtain rfl : z = k := Fin.ext ((mem_slot_sx k _).mp hi)
  exact write_slot8_emb sxM z fd w (ix2 r c)
theorem store_chunk_sx (k : Fin 8) (f : (cc0_scratch0 : Ref sig .tc).ty.Contents (Elt F)) (w : S1x64x512.Idx → Elt F .bf16)
    (i : S8x64x512.Idx) :
    ((sxM : Memref sig .tc .vmem S8x64x512 .bf16).access
        (Rect.unit (s := S8x64x512) ![k.val, 0, 0] S1x64x512.size (inb8 k))).write (Elt F) f w Finset.univ i
      = if (i 0).val = k.val then w (ix3 (0 : Fin 1) (i 1) (i 2)) else f i := by
  split
  · next h =>
    obtain ⟨z, r, c, rfl⟩ : ∃ (z : Fin 8) (r : Fin 64) (c : Fin 512), i = ix3 z r c := ⟨i 0, i 1, i 2, eq_ix3 i⟩
    obtain rfl : z = k := Fin.ext h
    exact store_chunk8_emb sxM z f w (ix3 (0 : Fin 1) r c)
  · next h => exact store_chunk8_off sxM k f w i (fun h' => h ((mem_slot_sx k i).mp h'))

theorem mem_slot_rx (k : Fin 8) (i : S8x64x512.Idx) : i ∈ (slot8 rxM k).view.set ↔ (i 0).val = k.val :=
  (mem_slot8 rxM k i).trans ⟨fun ⟨j, hj, e⟩ => (show j = i from e) ▸ hj, fun h => ⟨i, h, rfl⟩⟩
theorem read_slot_rx (k : Fin 8) (f : (cc0_scratch2 : Ref sig .tc).ty.Contents (Elt F)) (y : S64x512.Idx) :
    (slot8 rxM k).view.read (Elt F) f y = f (ix3 k (y 0) (y 1)) := read_slot8 rxM k f y
theorem readAt_chunk_rx (k : Fin 8) (f : (cc0_scratch2 : Ref sig .tc).ty.Contents (Elt F)) (y : S1x64x512.Idx) :
    (rxM : Memref sig .tc .vmem S8x64x512 .bf16).view.readAt (Elt F)
        (Rect.unit (s := S8x64x512) ![k.val, 0, 0] S1x64x512.size (inb8 k)).toLoadRect f y
      = f (ix3 k (y 1) (y 2)) := readAt_chunk8 rxM k f y
theorem write_slot_rx (k : Fin 8) (fd : (cc0_scratch2 : Ref sig .tc).ty.Contents (Elt F)) (w : S64x512.Idx → Elt F .bf16)
    (i : S8x64x512.Idx) (hi : i ∈ (slot8 rxM k).view.set) :
    (slot8 rxM k).view.write (Elt F) fd w Finset.univ i = w (ix2 (i 1) (i 2)) := by
  obtain ⟨z, r, c, rfl⟩ : ∃ (z : Fin 8) (r : Fin 64) (c : Fin 512), i = ix3 z r c := ⟨i 0, i 1, i 2, eq_ix3 i⟩
  obtain rfl : z = k := Fin.ext ((mem_slot_rx k _).mp hi)
  exact write_slot8_emb rxM z fd w (ix2 r c)
theorem store_chunk_rx (k : Fin 8) (f : (cc0_scratch2 : Ref sig .tc).ty.Contents (Elt F)) (w : S1x64x512.Idx → Elt F .bf16)
    (i : S8x64x512.Idx) :
    ((rxM : Memref sig .tc .vmem S8x64x512 .bf16).access
        (Rect.unit (s := S8x64x512) ![k.val, 0, 0] S1x64x512.size (inb8 k))).write (Elt F) f w Finset.univ i
      = if (i 0).val = k.val then w (ix3 (0 : Fin 1) (i 1) (i 2)) else f i := by
  split
  · next h =>
    obtain ⟨z, r, c, rfl⟩ : ∃ (z : Fin 8) (r : Fin 64) (c : Fin 512), i = ix3 z r c := ⟨i 0, i 1, i 2, eq_ix3 i⟩
    obtain rfl : z = k := Fin.ext h
    exact store_chunk8_emb rxM z f w (ix3 (0 : Fin 1) r c)
  · next h => exact store_chunk8_off rxM k f w i (fun h' => h ((mem_slot_rx k i).mp h'))

theorem mem_slot_ryd (k : Fin 8) (i : S8x64x512.Idx) : i ∈ (slot8 rydM k).view.set ↔ (i 0).val = k.val :=
  (mem_slot8 rydM k i).trans ⟨fun ⟨j, hj, e⟩ => (show j = i from e) ▸ hj, fun h => ⟨i, h, rfl⟩⟩
theorem read_slot_ryd (k : Fin 8) (f : (cc0_scratch4 : Ref sig .tc).ty.Contents (Elt F)) (y : S64x512.Idx) :
    (slot8 rydM k).view.read (Elt F) f y = f (ix3 k (y 0) (y 1)) := read_slot8 rydM k f y
theorem readAt_chunk_ryd (k : Fin 8) (f : (cc0_scratch4 : Ref sig .tc).ty.Contents (Elt F)) (y : S1x64x512.Idx) :
    (rydM : Memref sig .tc .vmem S8x64x512 .bf16).view.readAt (Elt F)
        (Rect.unit (s := S8x64x512) ![k.val, 0, 0] S1x64x512.size (inb8 k)).toLoadRect f y
      = f (ix3 k (y 1) (y 2)) := readAt_chunk8 rydM k f y
theorem write_slot_ryd (k : Fin 8) (fd : (cc0_scratch4 : Ref sig .tc).ty.Contents (Elt F)) (w : S64x512.Idx → Elt F .bf16)
    (i : S8x64x512.Idx) (hi : i ∈ (slot8 rydM k).view.set) :
    (slot8 rydM k).view.write (Elt F) fd w Finset.univ i = w (ix2 (i 1) (i 2)) := by
  obtain ⟨z, r, c, rfl⟩ : ∃ (z : Fin 8) (r : Fin 64) (c : Fin 512), i = ix3 z r c := ⟨i 0, i 1, i 2, eq_ix3 i⟩
  obtain rfl : z = k := Fin.ext ((mem_slot_ryd k _).mp hi)
  exact write_slot8_emb rydM z fd w (ix2 r c)
theorem store_chunk_ryd (k : Fin 8) (f : (cc0_scratch4 : Ref sig .tc).ty.Contents (Elt F)) (w : S1x64x512.Idx → Elt F .bf16)
    (i : S8x64x512.Idx) :
    ((rydM : Memref sig .tc .vmem S8x64x512 .bf16).access
        (Rect.unit (s := S8x64x512) ![k.val, 0, 0] S1x64x512.size (inb8 k))).write (Elt F) f w Finset.univ i
      = if (i 0).val = k.val then w (ix3 (0 : Fin 1) (i 1) (i 2)) else f i := by
  split
  · next h =>
    obtain ⟨z, r, c, rfl⟩ : ∃ (z : Fin 8) (r : Fin 64) (c : Fin 512), i = ix3 z r c := ⟨i 0, i 1, i 2, eq_ix3 i⟩
    obtain rfl : z = k := Fin.ext h
    exact store_chunk8_emb rydM z f w (ix3 (0 : Fin 1) r c)
  · next h => exact store_chunk8_off rydM k f w i (fun h' => h ((mem_slot_ryd k i).mp h'))

theorem mem_slot_rzd (k : Fin 8) (i : S8x64x512.Idx) : i ∈ (slot8 rzdM k).view.set ↔ (i 0).val = k.val :=
  (mem_slot8 rzdM k i).trans ⟨fun ⟨j, hj, e⟩ => (show j = i from e) ▸ hj, fun h => ⟨i, h, rfl⟩⟩
theorem read_slot_rzd (k : Fin 8) (f : (cc0_scratch5 : Ref sig .tc).ty.Contents (Elt F)) (y : S64x512.Idx) :
    (slot8 rzdM k).view.read (Elt F) f y = f (ix3 k (y 0) (y 1)) := read_slot8 rzdM k f y
theorem readAt_chunk_rzd (k : Fin 8) (f : (cc0_scratch5 : Ref sig .tc).ty.Contents (Elt F)) (y : S1x64x512.Idx) :
    (rzdM : Memref sig .tc .vmem S8x64x512 .bf16).view.readAt (Elt F)
        (Rect.unit (s := S8x64x512) ![k.val, 0, 0] S1x64x512.size (inb8 k)).toLoadRect f y
      = f (ix3 k (y 1) (y 2)) := readAt_chunk8 rzdM k f y
theorem write_slot_rzd (k : Fin 8) (fd : (cc0_scratch5 : Ref sig .tc).ty.Contents (Elt F)) (w : S64x512.Idx → Elt F .bf16)
    (i : S8x64x512.Idx) (hi : i ∈ (slot8 rzdM k).view.set) :
    (slot8 rzdM k).view.write (Elt F) fd w Finset.univ i = w (ix2 (i 1) (i 2)) := by
  obtain ⟨z, r, c, rfl⟩ : ∃ (z : Fin 8) (r : Fin 64) (c : Fin 512), i = ix3 z r c := ⟨i 0, i 1, i 2, eq_ix3 i⟩
  obtain rfl : z = k := Fin.ext ((mem_slot_rzd k _).mp hi)
  exact write_slot8_emb rzdM z fd w (ix2 r c)
theorem store_chunk_rzd (k : Fin 8) (f : (cc0_scratch5 : Ref sig .tc).ty.Contents (Elt F)) (w : S1x64x512.Idx → Elt F .bf16)
    (i : S8x64x512.Idx) :
    ((rzdM : Memref sig .tc .vmem S8x64x512 .bf16).access
        (Rect.unit (s := S8x64x512) ![k.val, 0, 0] S1x64x512.size (inb8 k))).write (Elt F) f w Finset.univ i
      = if (i 0).val = k.val then w (ix3 (0 : Fin 1) (i 1) (i 2)) else f i := by
  split
  · next h =>
    obtain ⟨z, r, c, rfl⟩ : ∃ (z : Fin 8) (r : Fin 64) (c : Fin 512), i = ix3 z r c := ⟨i 0, i 1, i 2, eq_ix3 i⟩
    obtain rfl : z = k := Fin.ext h
    exact store_chunk8_emb rzdM z f w (ix3 (0 : Fin 1) r c)
  · next h => exact store_chunk8_off rzdM k f w i (fun h' => h ((mem_slot_rzd k i).mp h'))

theorem mem_slot_sx2 (k : Fin 2) (i : S2x64x512.Idx) : i ∈ (slot2 sx2M k).view.set ↔ (i 0).val = k.val :=
  (mem_slot2 sx2M k i).trans ⟨fun ⟨j, hj, e⟩ => (show j = i from e) ▸ hj, fun h => ⟨i, h, rfl⟩⟩
theorem read_slot_sx2 (k : Fin 2) (f : (cc0_scratch1 : Ref sig .tc).ty.Contents (Elt F)) (y : S64x512.Idx) :
    (slot2 sx2M k).view.read (Elt F) f y = f (ix3 k (y 0) (y 1)) := read_slot2 sx2M k f y
theorem readAt_chunk_sx2 (k : Fin 2) (f : (cc0_scratch1 : Ref sig .tc).ty.Contents (Elt F)) (y : S1x64x512.Idx) :
    (sx2M : Memref sig .tc .vmem S2x64x512 .bf16).view.readAt (Elt F)
        (Rect.unit (s := S2x64x512) ![k.val, 0, 0] S1x64x512.size (inb2 k)).toLoadRect f y
      = f (ix3 k (y 1) (y 2)) := readAt_chunk2 sx2M k f y
theorem write_slot_sx2 (k : Fin 2) (fd : (cc0_scratch1 : Ref sig .tc).ty.Contents (Elt F)) (w : S64x512.Idx → Elt F .bf16)
    (i : S2x64x512.Idx) (hi : i ∈ (slot2 sx2M k).view.set) :
    (slot2 sx2M k).view.write (Elt F) fd w Finset.univ i = w (ix2 (i 1) (i 2)) := by
  obtain ⟨z, r, c, rfl⟩ : ∃ (z : Fin 2) (r : Fin 64) (c : Fin 512), i = ix3 z r c := ⟨i 0, i 1, i 2, eq_ix3 i⟩
  obtain rfl : z = k := Fin.ext ((mem_slot_sx2 k _).mp hi)
  exact write_slot2_emb sx2M z fd w (ix2 r c)
theorem store_chunk_sx2 (k : Fin 2) (f : (cc0_scratch1 : Ref sig .tc).ty.Contents (Elt F)) (w : S1x64x512.Idx → Elt F .bf16)
    (i : S2x64x512.Idx) :
    ((sx2M : Memref sig .tc .vmem S2x64x512 .bf16).access
        (Rect.unit (s := S2x64x512) ![k.val, 0, 0] S1x64x512.size (inb2 k))).write (Elt F) f w Finset.univ i
      = if (i 0).val = k.val then w (ix3 (0 : Fin 1) (i 1) (i 2)) else f i := by
  split
  · next h =>
    obtain ⟨z, r, c, rfl⟩ : ∃ (z : Fin 2) (r : Fin 64) (c : Fin 512), i = ix3 z r c := ⟨i 0, i 1, i 2, eq_ix3 i⟩
    obtain rfl : z = k := Fin.ext h
    exact store_chunk2_emb sx2M z f w (ix3 (0 : Fin 1) r c)
  · next h => exact store_chunk2_off sx2M k f w i (fun h' => h ((mem_slot_sx2 k i).mp h'))

theorem mem_slot_rx2 (k : Fin 2) (i : S2x64x512.Idx) : i ∈ (slot2 rx2M k).view.set ↔ (i 0).val = k.val :=
  (mem_slot2 rx2M k i).trans ⟨fun ⟨j, hj, e⟩ => (show j = i from e) ▸ hj, fun h => ⟨i, h, rfl⟩⟩
theorem read_slot_rx2 (k : Fin 2) (f : (cc0_scratch3 : Ref sig .tc).ty.Contents (Elt F)) (y : S64x512.Idx) :
    (slot2 rx2M k).view.read (Elt F) f y = f (ix3 k (y 0) (y 1)) := read_slot2 rx2M k f y
theorem readAt_chunk_rx2 (k : Fin 2) (f : (cc0_scratch3 : Ref sig .tc).ty.Contents (Elt F)) (y : S1x64x512.Idx) :
    (rx2M : Memref sig .tc .vmem S2x64x512 .bf16).view.readAt (Elt F)
        (Rect.unit (s := S2x64x512) ![k.val, 0, 0] S1x64x512.size (inb2 k)).toLoadRect f y
      = f (ix3 k (y 1) (y 2)) := readAt_chunk2 rx2M k f y
theorem write_slot_rx2 (k : Fin 2) (fd : (cc0_scratch3 : Ref sig .tc).ty.Contents (Elt F)) (w : S64x512.Idx → Elt F .bf16)
    (i : S2x64x512.Idx) (hi : i ∈ (slot2 rx2M k).view.set) :
    (slot2 rx2M k).view.write (Elt F) fd w Finset.univ i = w (ix2 (i 1) (i 2)) := by
  obtain ⟨z, r, c, rfl⟩ : ∃ (z : Fin 2) (r : Fin 64) (c : Fin 512), i = ix3 z r c := ⟨i 0, i 1, i 2, eq_ix3 i⟩
  obtain rfl : z = k := Fin.ext ((mem_slot_rx2 k _).mp hi)
  exact write_slot2_emb rx2M z fd w (ix2 r c)
theorem store_chunk_rx2 (k : Fin 2) (f : (cc0_scratch3 : Ref sig .tc).ty.Contents (Elt F)) (w : S1x64x512.Idx → Elt F .bf16)
    (i : S2x64x512.Idx) :
    ((rx2M : Memref sig .tc .vmem S2x64x512 .bf16).access
        (Rect.unit (s := S2x64x512) ![k.val, 0, 0] S1x64x512.size (inb2 k))).write (Elt F) f w Finset.univ i
      = if (i 0).val = k.val then w (ix3 (0 : Fin 1) (i 1) (i 2)) else f i := by
  split
  · next h =>
    obtain ⟨z, r, c, rfl⟩ : ∃ (z : Fin 2) (r : Fin 64) (c : Fin 512), i = ix3 z r c := ⟨i 0, i 1, i 2, eq_ix3 i⟩
    obtain rfl : z = k := Fin.ext h
    exact store_chunk2_emb rx2M z f w (ix3 (0 : Fin 1) r c)
  · next h => exact store_chunk2_off rx2M k f w i (fun h' => h ((mem_slot_rx2 k i).mp h'))

theorem mem_slot_ryr (k : Fin 3) (i : S3x64x512.Idx) : i ∈ (slot3 ryrM k).view.set ↔ (i 0).val = k.val :=
  (mem_slot3 ryrM k i).trans ⟨fun ⟨j, hj, e⟩ => (show j = i from e) ▸ hj, fun h => ⟨i, h, rfl⟩⟩
theorem read_slot_ryr (k : Fin 3) (f : (cc0_scratch6 : Ref sig .tc).ty.Contents (Elt F)) (y : S64x512.Idx) :
    (slot3 ryrM k).view.read (Elt F) f y = f (ix3 k (y 0) (y 1)) := read_slot3 ryrM k f y
theorem readAt_chunk_ryr (k : Fin 3) (f : (cc0_scratch6 : Ref sig .tc).ty.Contents (Elt F)) (y : S1x64x512.Idx) :
    (ryrM : Memref sig .tc .vmem S3x64x512 .bf16).view.readAt (Elt F)
        (Rect.unit (s := S3x64x512) ![k.val, 0, 0] S1x64x512.size (inb3 k)).toLoadRect f y
      = f (ix3 k (y 1) (y 2)) := readAt_chunk3 ryrM k f y
theorem write_slot_ryr (k : Fin 3) (fd : (cc0_scratch6 : Ref sig .tc).ty.Contents (Elt F)) (w : S64x512.Idx → Elt F .bf16)
    (i : S3x64x512.Idx) (hi : i ∈ (slot3 ryrM k).view.set) :
    (slot3 ryrM k).view.write (Elt F) fd w Finset.univ i = w (ix2 (i 1) (i 2)) := by
  obtain ⟨z, r, c, rfl⟩ : ∃ (z : Fin 3) (r : Fin 64) (c : Fin 512), i = ix3 z r c := ⟨i 0, i 1, i 2, eq_ix3 i⟩
  obtain rfl : z = k := Fin.ext ((mem_slot_ryr k _).mp hi)
  exact write_slot3_emb ryrM z fd w (ix2 r c)
theorem store_chunk_ryr (k : Fin 3) (f : (cc0_scratch6 : Ref sig .tc).ty.Contents (Elt F)) (w : S1x64x512.Idx → Elt F .bf16)
    (i : S3x64x512.Idx) :
    ((ryrM : Memref sig .tc .vmem S3x64x512 .bf16).access
        (Rect.unit (s := S3x64x512) ![k.val, 0, 0] S1x64x512.size (inb3 k))).write (Elt F) f w Finset.univ i
      = if (i 0).val = k.val then w (ix3 (0 : Fin 1) (i 1) (i 2)) else f i := by
  split
  · next h =>
    obtain ⟨z, r, c, rfl⟩ : ∃ (z : Fin 3) (r : Fin 64) (c : Fin 512), i = ix3 z r c := ⟨i 0, i 1, i 2, eq_ix3 i⟩
    obtain rfl : z = k := Fin.ext h
    exact store_chunk3_emb ryrM z f w (ix3 (0 : Fin 1) r c)
  · next h => exact store_chunk3_off ryrM k f w i (fun h' => h ((mem_slot_ryr k i).mp h'))

theorem mem_slot_rzr (k : Fin 3) (i : S3x64x512.Idx) : i ∈ (slot3 rzrM k).view.set ↔ (i 0).val = k.val :=
  (mem_slot3 rzrM k i).trans ⟨fun ⟨j, hj, e⟩ => (show j = i from e) ▸ hj, fun h => ⟨i, h, rfl⟩⟩
theorem read_slot_rzr (k : Fin 3) (f : (cc0_scratch7 : Ref sig .tc).ty.Contents (Elt F)) (y : S64x512.Idx) :
    (slot3 rzrM k).view.read (Elt F) f y = f (ix3 k (y 0) (y 1)) := read_slot3 rzrM k f y
theorem readAt_chunk_rzr (k : Fin 3) (f : (cc0_scratch7 : Ref sig .tc).ty.Contents (Elt F)) (y : S1x64x512.Idx) :
    (rzrM : Memref sig .tc .vmem S3x64x512 .bf16).view.readAt (Elt F)
        (Rect.unit (s := S3x64x512) ![k.val, 0, 0] S1x64x512.size (inb3 k)).toLoadRect f y
      = f (ix3 k (y 1) (y 2)) := readAt_chunk3 rzrM k f y
theorem write_slot_rzr (k : Fin 3) (fd : (cc0_scratch7 : Ref sig .tc).ty.Contents (Elt F)) (w : S64x512.Idx → Elt F .bf16)
    (i : S3x64x512.Idx) (hi : i ∈ (slot3 rzrM k).view.set) :
    (slot3 rzrM k).view.write (Elt F) fd w Finset.univ i = w (ix2 (i 1) (i 2)) := by
  obtain ⟨z, r, c, rfl⟩ : ∃ (z : Fin 3) (r : Fin 64) (c : Fin 512), i = ix3 z r c := ⟨i 0, i 1, i 2, eq_ix3 i⟩
  obtain rfl : z = k := Fin.ext ((mem_slot_rzr k _).mp hi)
  exact write_slot3_emb rzrM z fd w (ix2 r c)
theorem store_chunk_rzr (k : Fin 3) (f : (cc0_scratch7 : Ref sig .tc).ty.Contents (Elt F)) (w : S1x64x512.Idx → Elt F .bf16)
    (i : S3x64x512.Idx) :
    ((rzrM : Memref sig .tc .vmem S3x64x512 .bf16).access
        (Rect.unit (s := S3x64x512) ![k.val, 0, 0] S1x64x512.size (inb3 k))).write (Elt F) f w Finset.univ i
      = if (i 0).val = k.val then w (ix3 (0 : Fin 1) (i 1) (i 2)) else f i := by
  split
  · next h =>
    obtain ⟨z, r, c, rfl⟩ : ∃ (z : Fin 3) (r : Fin 64) (c : Fin 512), i = ix3 z r c := ⟨i 0, i 1, i 2, eq_ix3 i⟩
    obtain rfl : z = k := Fin.ext h
    exact store_chunk3_emb rzrM z f w (ix3 (0 : Fin 1) r c)
  · next h => exact store_chunk3_off rzrM k f w i (fun h' => h ((mem_slot_rzr k i).mp h'))

end Cert.KernelIdeal.RS

end
-- ==== Proof.Steps.lean ====
import proofs.«901033_g7700000000001034_dist_rs_v7x_xyz2x2x4_x_m2048_n512_bf16_1_alg».proof.Proof.Proto
import proofs.«901033_g7700000000001034_dist_rs_v7x_xyz2x2x4_x_m2048_n512_bf16_1_alg».proof.Proof.Tables
import proofs.«901033_g7700000000001034_dist_rs_v7x_xyz2x2x4_x_m2048_n512_bf16_1_alg».proof.Proof.Credit

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading the records -/

omit [FloatOps F] in
theorem bar_mem (c : Dev nD) : barCell c ∈ (allCells : Finset (GSem nD τ sig)) :=
  Finset.mem_image.mpr ⟨(c, 0), Finset.mem_univ _, by unfold kcell; exact if_pos rfl⟩
omit [FloatOps F] in
theorem dcell_mem (c : Dev nD) (s : DmaSem sig) (h : 2 ≤ s.val) : dcell c s ∈ (allCells : Finset (GSem nD τ sig)) :=
  Finset.mem_image.mpr ⟨(c, ⟨s.val - 1, (show s.val - 1 < 65 from by have h : s.val < 66 := s.isLt; omega)⟩), Finset.mem_univ _, by
    unfold kcell; rw [if_neg (by show ¬ (s.val - 1 = 0); omega)]
    exact congrArg (fun t => (((c : Dev nD) : Thread nD τ), SemLoc.dma t)) (Fin.ext (by show s.val - 1 + 1 = s.val; omega))⟩

theorem inv_at (K : GSem nD τ sig → ℕ) {g : GSem nD τ sig} (hg : g ∈ (allCells : Finset (GSem nD τ sig))) :
    (bigSep allCells fun g => cellInv (ER (F := F)) (sched m) (K g) g : sProp 𝕄) ⊢ cellInv ER (sched m) (K g) g :=
  bigSep_elim hg
omit [FloatOps F] in
theorem reached_at {g : GSem nD τ sig} (hg : g ∈ (allCells : Finset (GSem nD τ sig))) :
    (bigSep allCells fun g => reached (ER (F := F)) g 0 : sProp 𝕄) ⊢ reached ER g 0 :=
  bigSep_elim hg

theorem rec_inv (K : GSem nD τ sig → ℕ) {g : GSem nD τ sig} (hg : g ∈ (allCells : Finset (GSem nD τ sig))) :
    records (F := F) m K ⊢ cellInv ER (sched m) (K g) g := by
  unfold records; exact sep_elim_left.trans (inv_at m K hg)
theorem rec_reached (K : GSem nD τ sig → ℕ) {g : GSem nD τ sig} (hg : g ∈ (allCells : Finset (GSem nD τ sig))) :
    records (F := F) m K ⊢ reached ER g 0 := by
  unfold records; exact sep_elim_right.trans (reached_at hg)

/-- The weakest precondition of a piece of device `c`'s body. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## The protocol's steps, each at the head of a program -/

/-- A unit signalled to device `p`'s barrier cell, paying its duty `d` with that duty's payload. -/
theorem step_signal (K : GSem nD τ sig → ℕ) (c p : Dev nD) (d : Fin 3) (l : List (GSem nD τ sig × ℕ)) (W : Waits sig Unit)
    {α : Type} {Q : α → sProp 𝕄} {k : PUnit → Prog (TpuEff nD τ sig (Elt F) Λ₀ .tc) α} :
    iprop(records m K ∗ owes (c : Thread nD τ) (owe ((barCell p, 1) :: l)) W ∗ dutyTok ER (barCell p) 0 d ∗ barPay p d)
      ⊢ iprop((owes (c : Thread nD τ) (owe l) W -∗ WP c (k ⟨⟩) Q) -∗ WP c (.op (.semSignal (p : Thread nD τ) barS 1) k) Q) := by
  iintro ⟨#HR, HO, Ht, Hp⟩
  iapply (Rounds.wp_signal Variants.none ER (sched m) (c : Thread nD τ) none (dst := (p : Thread nD τ)) (κ := K (barCell p))
      (d := d) (r := 0) (by rw [duties_bar]; exact Finset.mem_univ _) (amount_bar m p d) () (owe l) (owe_cons (barCell p, 1) l)) $$ [HO Ht Hp]
  isplitr; · iapply (rec_inv m K (bar_mem p)); iexact HR
  isplitl [HO]; · iexact HO
  isplitl [Ht]; · iexact Ht
  isplitl [Hp]; · rw [payload_bar]; iexact Hp
  iapply (rec_reached m K (bar_mem p)); iexact HR

/-- The wait for the three barrier units: the three peers' landing buffers come with it. -/
theorem step_barwait (K : GSem nD τ sig → ℕ) (c : Dev nD) (O : CellTallies nD τ sig Unit) (W : Waits sig Unit)
    (hmw : (levAts L lv : sProp 𝕄) ⊢ MayWait (c : Thread nD τ) (.reg barS) () O)
    {α : Type} {Q : α → sProp 𝕄} {k : PUnit → Prog (TpuEff nD τ sig (Elt F) Λ₀ .tc) α} :
    iprop(records m K ∗ levAts L lv ∗ cred (tallyAt (barCell c) () 3) ∗ owes (c : Thread nD τ) O W ∗ atPos ER (barCell c) 0 ∅ 0)
      ⊢ iprop(((owes (c : Thread nD τ) O (insert (SemLoc.reg barS, ()) W) ∗ atPos ER (barCell c) (0 + 1) ∅ 0
              ∗ barPay (F := F) c 0 ∗ barPay (F := F) c 1 ∗ barPay (F := F) c 2) -∗ WP c (k ⟨⟩) Q)
          -∗ WP c (.op (.semWait barS 3) k) Q) := by
  iintro ⟨#HR, #Hlev, Hc, HO, Hat⟩ Hk
  iapply (Rounds.wp_wait_rest_token Variants.none ER (sched m) (c : Thread nD τ) none (κ := K (barCell c))
      (wpE_semWait_eq Variants.none (c : Thread nD τ) none Set.univ) (Set.mem_univ _) () (O := O) (W := W) (R := 0) (m := 0) (T := ∅)
      (by rw [expect_bar])) $$ [Hc HO Hat]
  · isplitr; · iapply (rec_inv m K (bar_mem c)); iexact HR
    isplitl [Hc]; · iexact Hc
    isplitl [HO]; · iexact HO
    isplitr; · iapply hmw; iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- A wait on one of the device's own DMA cells for its one duty's credit: the duty's payload comes with it. -/
theorem step_wait_dma (K : GSem nD τ sig → ℕ) (c : Dev nD) (s : DmaSem sig) (hs : 2 ≤ s.val) (O : CellTallies nD τ sig Unit) (W : Waits sig Unit)
    (hmw : (levAts L lv : sProp 𝕄) ⊢ MayWait (c : Thread nD τ) (.dma s) () O)
    {sp sp' : Space} {sh sh' : Shape} {e e' : EltTy} {src : Memref sig .tc sp' sh' e'} {dst : Memref sig .tc sp sh e}
    {hsrc : src.view.WordExact} {hdst : dst.view.WordExact} (hN : dst.view.dmaCredit = Nc)
    {α : Type} {Q : α → sProp 𝕄} {k : PUnit → Prog (TpuEff nD τ sig (Elt F) Λ₀ .tc) α} :
    iprop(records m K ∗ levAts L lv ∗ cred (tallyAt (dcell c s) () Nc) ∗ owes (c : Thread nD τ) O W ∗ atPos ER (dcell c s) 0 ∅ 0)
      ⊢ iprop(((owes (c : Thread nD τ) O (insert (SemLoc.dma s, ()) W) ∗ atPos ER (dcell c s) (0 + 1) ∅ 0 ∗ dmaPay m c s.val) -∗ WP c (k ⟨⟩) Q)
          -∗ WP c (.op (.waitDma2 s src dst hsrc hdst) k) Q) := by
  iintro ⟨#HR, #Hlev, Hc, HO, Hat⟩ Hk
  iapply (Rounds.wp_wait_rest_token Variants.none ER (sched m) (c : Thread nD τ) none (κ := K (dcell c s))
      (wpE_waitDma2_eq Variants.none (c : Thread nD τ) none Set.univ) (Set.mem_univ _) () (O := O) (W := W) (R := 0) (m := 0) (T := ∅)
      (by rw [expect_dma m c s hs, hN, Nat.zero_add])) $$ [Hc HO Hat]
  · isplitr; · iapply (rec_inv m K (dcell_mem c s hs)); iexact HR
    isplitl [Hc]; · rw [hN]; iexact Hc
    isplitl [HO]; · iexact HO
    isplitr; · iapply hmw; iexact Hlev
    iexact Hat
  iintro ⟨HO, Hat, -, Hpay⟩
  ihave Hp := (Entails.of_eq ((rest_dma m c s hs).trans (payload_dma m c s 0))) $$ Hpay
  iapply Hk
  isplitl [HO]; · iexact HO
  isplitl [Hat]; · iexact Hat
  iexact Hp

/-- An addressed copy from a source slot of device `c` into a landing slot of device `p`, paying the departure duty of
    `c`'s send cell `sS` (the source share comes back with it) and the landing duty of `p`'s receive cell `sR`. -/
theorem step_send (K : GSem nD τ sig → ℕ) (c p : Dev nD) (sS sR : DmaSem sig) (hsS : 2 ≤ sS.val) (hsR : 2 ≤ sR.val)
    (src dst : Memref sig .tc .vmem S64x512 .bf16) (q : PosShare TreeShare)
    (fs : Buf (Elt F) (src.view.loc (c : Thread nD τ))) (fd : Buf (Elt F) (dst.view.loc (p : Thread nD τ)))
    (l : List (GSem nD τ sig × ℕ)) (W : Waits sig Unit)
    (hN : dst.view.amount (.dma sR) = Nc)
    (hpayS : (src.view.loc (c : Thread nD τ) ↦[src.view.set]{q} fs : sProp 𝕄) ⊢ dmaPay m c sS.val)
    (hpayR : (dst.view.loc (p : Thread nD τ) ↦[dst.view.set]{fullShare} (dst.view.write (Elt F) fd (src.view.read (Elt F) fs) Finset.univ) : sProp 𝕄)
      ⊢ dmaPay m p sR.val)
    {hsc : dst.view.ref.isScScratch = false} {hsrc : src.view.WordExact} {hdst : dst.view.WordExact}
    {hsem : DmaTarget.Typed .vmem (.dma sR) (.remote (Dev.tc p : Thread nD τ) dst (.dma sS) hsc)}
    {α : Type} {Q : α → sProp 𝕄} {k : PUnit → Prog (TpuEff nD τ sig (Elt F) Λ₀ .tc) α} :
    iprop(records m K ∗ (src.view.loc (c : Thread nD τ) ↦[src.view.set]{q} fs) ∗ (dst.view.loc (p : Thread nD τ) ↦[dst.view.set]{fullShare} fd)
        ∗ owes (c : Thread nD τ) (owe ((dcell p sR, Nc) :: l)) W ∗ dutyTok ER (dcell c sS) 0 0 ∗ dutyTok ER (dcell p sR) 0 0)
      ⊢ iprop(((cred (tallyAt (dcell c sS) () Nc) ∗ owes (c : Thread nD τ) (owe l) W) -∗ WP c (k ⟨⟩) Q)
          -∗ WP c (.op (.enqueueDma src (.remote (Dev.tc p : Thread nD τ) dst (.dma sS) hsc) (.dma sR) hsrc hdst hsem) k) Q) := by
  iintro ⟨#HR, Hs, Hd, HO, HtS, HtR⟩
  iapply (Rounds.wp_send_pointsTo Variants.none ER (sched m) (c : Thread nD τ) none (c' := (Dev.tc p : Thread nD τ)) (src := src) (dst := dst) (q := q) (fs := fs)
      (κ₁ := K (dcell c sS)) (κ₂ := K (dcell p sR)) (r₁ := 0) (r₂ := 0) (d₁ := 0) (d₂ := 0) (fd := fd)
      (by rw [duties_dma m c sS hsS]; exact Finset.mem_singleton_self _) (by rw [duties_dma m p sR hsR]; exact Finset.mem_singleton_self _)
      () () Nc hN (amount_dma m c sS 0) (amount_dma m p sR 0) (owe l) (owe_cons (dcell p sR, Nc) l) (W := W)
      (by rw [payload_dma]; exact hpayS) (by rw [payload_dma]; exact hpayR)) $$ [Hs Hd HO HtS HtR]
  isplitr; · iapply (rec_inv m K (dcell_mem c sS hsS)); iexact HR
  isplitr; · iapply (rec_inv m K (dcell_mem p sR hsR)); iexact HR
  isplitl [Hs]; · iexact Hs
  isplitl [Hd]; · iexact Hd
  isplitl [HO]; · iexact HO
  isplitl [HtS]; · iexact HtS
  isplitr; · iapply (rec_reached m K (dcell_mem c sS hsS)); iexact HR
  isplitl [HtR]; · iexact HtR
  iapply (rec_reached m K (dcell_mem p sR hsR)); iexact HR

end Cert.KernelIdeal.RS

end
-- ==== Proof.Sends.lean ====
import proofs.«901033_g7700000000001034_dist_rs_v7x_xyz2x2x4_x_m2048_n512_bf16_1_alg».proof.Proof.Proto
import proofs.«901033_g7700000000001034_dist_rs_v7x_xyz2x2x4_x_m2048_n512_bf16_1_alg».proof.Proof.Tables
import proofs.«901033_g7700000000001034_dist_rs_v7x_xyz2x2x4_x_m2048_n512_bf16_1_alg».proof.Proof.Credit
import proofs.«901033_g7700000000001034_dist_rs_v7x_xyz2x2x4_x_m2048_n512_bf16_1_alg».proof.Proof.Slots
import proofs.«901033_g7700000000001034_dist_rs_v7x_xyz2x2x4_x_m2048_n512_bf16_1_alg».proof.Proof.Steps

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-! ## The six kinds of addressed copy

Each copy moves one 64 × 512 chunk from a slot of the sending device into a slot of one peer; the
share of the source slot that is lent comes back with the send cell's credit, and the landing
slot, rewritten, holds the peer's final contents of that slot: the receive cell's payload. -/

/-- What lands in chunk `k` of the x peer's receive buffer is chunk `k` of the sender's staging buffer. -/
theorem land_X (c : Dev nD) (k : Fin 8) (fd : (cc0_scratch2 : Ref sig .tc).ty.Contents (Elt F))
    (i : S8x64x512.Idx) (hi : i ∈ (slot8 rxM k).view.set) :
    (slot8 rxM k).view.write (Elt F) fd ((slot8 sxM k).view.read (Elt F) (SX m c)) Finset.univ i = RX m (partner c) i := by
  have h0 := (mem_slot_rx k i).mp hi
  rw [write_slot_rx k fd _ i hi, read_slot_sx]
  unfold RX; rw [partner_partner]
  exact congrArg (SX m c) ((congrArg (fun a => ix3 a (i 1) (i 2)) (Fin.ext h0.symm)).trans (eq_ix3 i).symm)

theorem send_X (K : GSem nD τ sig → ℕ) (c : Dev nD) (k : Fin 8)
    (fd : Buf (Elt F) ((slot8 rxM k).view.loc ((partner c : Dev nD) : Thread nD τ)))
    (l : List (GSem nD τ sig × ℕ)) (W : Waits sig Unit)
    {hsc : (slot8 rxM k).view.ref.isScScratch = false} {hsrc : (slot8 sxM k).view.WordExact}
    {hdst : (slot8 rxM k).view.WordExact}
    {hsem : DmaTarget.Typed .vmem (.dma (rxS k)) (.remote (Dev.tc (partner c) : Thread nD τ) (slot8 rxM k) (.dma (sxS k)) hsc)}
    {α : Type} {Q : α → sProp 𝕄} {k' : PUnit → Prog (TpuEff nD τ sig (Elt F) Λ₀ .tc) α} :
    iprop(records m K ∗ sxPts m c k fullShare
        ∗ ((slot8 rxM k).view.loc ((partner c : Dev nD) : Thread nD τ) ↦[(slot8 rxM k).view.set]{fullShare} fd)
        ∗ owes (c : Thread nD τ) (owe ((dcell (partner c) (rxS k), Nc) :: l)) W
        ∗ dutyTok ER (dcell c (sxS k)) 0 0 ∗ dutyTok ER (dcell (partner c) (rxS k)) 0 0)
      ⊢ iprop(((cred (tallyAt (dcell c (sxS k)) () Nc) ∗ owes (c : Thread nD τ) (owe l) W) -∗ WP c (k' ⟨⟩) Q)
          -∗ WP c (.op (.enqueueDma (slot8 sxM k) (.remote (Dev.tc (partner c) : Thread nD τ) (slot8 rxM k) (.dma (sxS k)) hsc)
                (.dma (rxS k)) hsrc hdst hsem) k') Q) :=
  step_send m K c (partner c) (sxS k) (rxS k) (two_le_sxS k) (two_le_rxS k) (slot8 sxM k) (slot8 rxM k) fullShare (SX m c) fd l W
    rfl
    (Entails.of_eq ((payload_sx m c k 0).symm.trans (payload_dma m c (sxS k) 0)))
    ((Entails.of_eq (pointsTo_congr fun i hi => land_X m c k fd i hi)).trans
      (Entails.of_eq ((payload_rx m (partner c) k 0).symm.trans (payload_dma m (partner c) (rxS k) 0))))
    (hsc := hsc) (hsrc := hsrc) (hdst := hdst) (hsem := hsem) (α := α) (Q := Q) (k := k')

/-- The same of the second (direct) staging buffer's two chunks. -/
theorem land_XD (c : Dev nD) (k : Fin 2) (fd : (cc0_scratch3 : Ref sig .tc).ty.Contents (Elt F))
    (i : S2x64x512.Idx) (hi : i ∈ (slot2 rx2M k).view.set) :
    (slot2 rx2M k).view.write (Elt F) fd ((slot2 sx2M k).view.read (Elt F) (SX2 m c)) Finset.univ i = RX2 m (partner c) i := by
  have h0 := (mem_slot_rx2 k i).mp hi
  rw [write_slot_rx2 k fd _ i hi, read_slot_sx2]
  unfold RX2; rw [partner_partner]
  exact congrArg (SX2 m c) ((congrArg (fun a => ix3 a (i 1) (i 2)) (Fin.ext h0.symm)).trans (eq_ix3 i).symm)

theorem send_XD (K : GSem nD τ sig → ℕ) (c : Dev nD) (k : Fin 2)
    (fd : Buf (Elt F) ((slot2 rx2M k).view.loc ((partner c : Dev nD) : Thread nD τ)))
    (l : List (GSem nD τ sig × ℕ)) (W : Waits sig Unit)
    {hsc : (slot2 rx2M k).view.ref.isScScratch = false} {hsrc : (slot2 sx2M k).view.WordExact}
    {hdst : (slot2 rx2M k).view.WordExact}
    {hsem : DmaTarget.Typed .vmem (.dma (rx2S k)) (.remote (Dev.tc (partner c) : Thread nD τ) (slot2 rx2M k) (.dma (sx2S k)) hsc)}
    {α : Type} {Q : α → sProp 𝕄} {k' : PUnit → Prog (TpuEff nD τ sig (Elt F) Λ₀ .tc) α} :
    iprop(records m K ∗ sx2Pts m c k fullShare
        ∗ ((slot2 rx2M k).view.loc ((partner c : Dev nD) : Thread nD τ) ↦[(slot2 rx2M k).view.set]{fullShare} fd)
        ∗ owes (c : Thread nD τ) (owe ((dcell (partner c) (rx2S k), Nc) :: l)) W
        ∗ dutyTok ER (dcell c (sx2S k)) 0 0 ∗ dutyTok ER (dcell (partner c) (rx2S k)) 0 0)
      ⊢ iprop(((cred (tallyAt (dcell c (sx2S k)) () Nc) ∗ owes (c : Thread nD τ) (owe l) W) -∗ WP c (k' ⟨⟩) Q)
          -∗ WP c (.op (.enqueueDma (slot2 sx2M k) (.remote (Dev.tc (partner c) : Thread nD τ) (slot2 rx2M k) (.dma (sx2S k)) hsc)
                (.dma (rx2S k)) hsrc hdst hsem) k') Q) :=
  step_send m K c (partner c) (sx2S k) (rx2S k) (two_le_sx2S k) (two_le_rx2S k) (slot2 sx2M k) (slot2 rx2M k) fullShare (SX2 m c) fd l W
    rfl
    (Entails.of_eq ((payload_sx2 m c k 0).symm.trans (payload_dma m c (sx2S k) 0)))
    ((Entails.of_eq (pointsTo_congr fun i hi => land_XD m c k fd i hi)).trans
      (Entails.of_eq ((payload_rx2 m (partner c) k 0).symm.trans (payload_dma m (partner c) (rx2S k) 0))))
    (hsc := hsc) (hsrc := hsrc) (hdst := hdst) (hsem := hsem) (α := α) (Q := Q) (k := k')

/-- A received chunk forwarded to the y peer: the y peer's y-forwarded buffer is to hold the receive buffer of ITS y peer, which is the sender. -/
theorem land_YD (c : Dev nD) (k : Fin 8) (fd : (cc0_scratch4 : Ref sig .tc).ty.Contents (Elt F))
    (i : S8x64x512.Idx) (hi : i ∈ (slot8 rydM k).view.set) :
    (slot8 rydM k).view.write (Elt F) fd ((slot8 rxM k).view.read (Elt F) (RX m c)) Finset.univ i = RYD m (buddy c) i := by
  have h0 := (mem_slot_ryd k i).mp hi
  rw [write_slot_ryd k fd _ i hi, read_slot_rx]
  unfold RYD; rw [buddy_buddy]
  exact congrArg (RX m c) ((congrArg (fun a => ix3 a (i 1) (i 2)) (Fin.ext h0.symm)).trans (eq_ix3 i).symm)

theorem send_YD (K : GSem nD τ sig → ℕ) (c : Dev nD) (k : Fin 8)
    (fd : Buf (Elt F) ((slot8 rydM k).view.loc ((buddy c : Dev nD) : Thread nD τ)))
    (l : List (GSem nD τ sig × ℕ)) (W : Waits sig Unit)
    {hsc : (slot8 rydM k).view.ref.isScScratch = false} {hsrc : (slot8 rxM k).view.WordExact}
    {hdst : (slot8 rydM k).view.WordExact}
    {hsem : DmaTarget.Typed .vmem (.dma (rydS k)) (.remote (Dev.tc (buddy c) : Thread nD τ) (slot8 rydM k) (.dma (sydS k)) hsc)}
    {α : Type} {Q : α → sProp 𝕄} {k' : PUnit → Prog (TpuEff nD τ sig (Elt F) Λ₀ .tc) α} :
    iprop(records m K ∗ rxPts m c k fullShare.left
        ∗ ((slot8 rydM k).view.loc ((buddy c : Dev nD) : Thread nD τ) ↦[(slot8 rydM k).view.set]{fullShare} fd)
        ∗ owes (c : Thread nD τ) (owe ((dcell (buddy c) (rydS k), Nc) :: l)) W
        ∗ dutyTok ER (dcell c (sydS k)) 0 0 ∗ dutyTok ER (dcell (buddy c) (rydS k)) 0 0)
      ⊢ iprop(((cred (tallyAt (dcell c (sydS k)) () Nc) ∗ owes (c : Thread nD τ) (owe l) W) -∗ WP c (k' ⟨⟩) Q)
          -∗ WP c (.op (.enqueueDma (slot8 rxM k) (.remote (Dev.tc (buddy c) : Thread nD τ) (slot8 rydM k) (.dma (sydS k)) hsc)
                (.dma (rydS k)) hsrc hdst hsem) k') Q) :=
  step_send m K c (buddy c) (sydS k) (rydS k) (two_le_sydS k) (two_le_rydS k) (slot8 rxM k) (slot8 rydM k) fullShare.left (RX m c) fd l W
    rfl
    (Entails.of_eq ((payload_syd m c k 0).symm.trans (payload_dma m c (sydS k) 0)))
    ((Entails.of_eq (pointsTo_congr fun i hi => land_YD m c k fd i hi)).trans
      (Entails.of_eq ((payload_ryd m (buddy c) k 0).symm.trans (payload_dma m (buddy c) (rydS k) 0))))
    (hsc := hsc) (hsrc := hsrc) (hdst := hdst) (hsem := hsem) (α := α) (Q := Q) (k := k')

/-- The same forwarded to the z peer: the z peer's z peer is the sender. -/
theorem land_ZD (c : Dev nD) (k : Fin 8) (fd : (cc0_scratch5 : Ref sig .tc).ty.Contents (Elt F))
    (i : S8x64x512.Idx) (hi : i ∈ (slot8 rzdM k).view.set) :
    (slot8 rzdM k).view.write (Elt F) fd ((slot8 rxM k).view.read (Elt F) (RX m c)) Finset.univ i = RZD m (zpair c) i := by
  have h0 := (mem_slot_rzd k i).mp hi
  rw [write_slot_rzd k fd _ i hi, read_slot_rx]
  unfold RZD; rw [zpair_zpair]
  exact congrArg (RX m c) ((congrArg (fun a => ix3 a (i 1) (i 2)) (Fin.ext h0.symm)).trans (eq_ix3 i).symm)

theorem send_ZD (K : GSem nD τ sig → ℕ) (c : Dev nD) (k : Fin 8)
    (fd : Buf (Elt F) ((slot8 rzdM k).view.loc ((zpair c : Dev nD) : Thread nD τ)))
    (l : List (GSem nD τ sig × ℕ)) (W : Waits sig Unit)
    {hsc : (slot8 rzdM k).view.ref.isScScratch = false} {hsrc : (slot8 rxM k).view.WordExact}
    {hdst : (slot8 rzdM k).view.WordExact}
    {hsem : DmaTarget.Typed .vmem (.dma (rzdS k)) (.remote (Dev.tc (zpair c) : Thread nD τ) (slot8 rzdM k) (.dma (szdS k)) hsc)}
    {α : Type} {Q : α → sProp 𝕄} {k' : PUnit → Prog (TpuEff nD τ sig (Elt F) Λ₀ .tc) α} :
    iprop(records m K ∗ rxPts m c k fullShare.right.left
        ∗ ((slot8 rzdM k).view.loc ((zpair c : Dev nD) : Thread nD τ) ↦[(slot8 rzdM k).view.set]{fullShare} fd)
        ∗ owes (c : Thread nD τ) (owe ((dcell (zpair c) (rzdS k), Nc) :: l)) W
        ∗ dutyTok ER (dcell c (szdS k)) 0 0 ∗ dutyTok ER (dcell (zpair c) (rzdS k)) 0 0)
      ⊢ iprop(((cred (tallyAt (dcell c (szdS k)) () Nc) ∗ owes (c : Thread nD τ) (owe l) W) -∗ WP c (k' ⟨⟩) Q)
          -∗ WP c (.op (.enqueueDma (slot8 rxM k) (.remote (Dev.tc (zpair c) : Thread nD τ) (slot8 rzdM k) (.dma (szdS k)) hsc)
                (.dma (rzdS k)) hsrc hdst hsem) k') Q) :=
  step_send m K c (zpair c) (szdS k) (rzdS k) (two_le_szdS k) (two_le_rzdS k) (slot8 rxM k) (slot8 rzdM k) fullShare.right.left (RX m c) fd l W
    rfl
    (Entails.of_eq ((payload_szd m c k 0).symm.trans (payload_dma m c (szdS k) 0)))
    ((Entails.of_eq (pointsTo_congr fun i hi => land_ZD m c k fd i hi)).trans
      (Entails.of_eq ((payload_rzd m (zpair c) k 0).symm.trans (payload_dma m (zpair c) (rzdS k) 0))))
    (hsc := hsc) (hsrc := hsrc) (hdst := hdst) (hsem := hsem) (α := α) (Q := Q) (k := k')

/-- Chunk `k` (of the first three) of what came from the z peer, relayed to the y peer: its relay buffer's chunk `k` is chunk `k` of the z-forwarded buffer of its y peer, the sender. -/
theorem land_YR (c : Dev nD) (k : Fin 3) (fd : (cc0_scratch6 : Ref sig .tc).ty.Contents (Elt F))
    (i : S3x64x512.Idx) (hi : i ∈ (slot3 ryrM k).view.set) :
    (slot3 ryrM k).view.write (Elt F) fd ((slot8 rzdM (in8 k)).view.read (Elt F) (RZD m c)) Finset.univ i = RYR m (buddy c) i := by
  have h0 := (mem_slot_ryr k i).mp hi
  rw [write_slot_ryr k fd _ i hi, read_slot_rzd]
  unfold RYR; rw [buddy_buddy]
  exact congrArg (RZD m c) ((congrArg (fun a => ix3 a (i 1) (i 2)) (Fin.ext h0.symm)))

theorem send_YR (K : GSem nD τ sig → ℕ) (c : Dev nD) (k : Fin 3)
    (fd : Buf (Elt F) ((slot3 ryrM k).view.loc ((buddy c : Dev nD) : Thread nD τ)))
    (l : List (GSem nD τ sig × ℕ)) (W : Waits sig Unit)
    {hsc : (slot3 ryrM k).view.ref.isScScratch = false} {hsrc : (slot8 rzdM (in8 k)).view.WordExact}
    {hdst : (slot3 ryrM k).view.WordExact}
    {hsem : DmaTarget.Typed .vmem (.dma (ryrS k)) (.remote (Dev.tc (buddy c) : Thread nD τ) (slot3 ryrM k) (.dma (syrS k)) hsc)}
    {α : Type} {Q : α → sProp 𝕄} {k' : PUnit → Prog (TpuEff nD τ sig (Elt F) Λ₀ .tc) α} :
    iprop(records m K ∗ rzdPts m c (in8 k) fullShare.left
        ∗ ((slot3 ryrM k).view.loc ((buddy c : Dev nD) : Thread nD τ) ↦[(slot3 ryrM k).view.set]{fullShare} fd)
        ∗ owes (c : Thread nD τ) (owe ((dcell (buddy c) (ryrS k), Nc) :: l)) W
        ∗ dutyTok ER (dcell c (syrS k)) 0 0 ∗ dutyTok ER (dcell (buddy c) (ryrS k)) 0 0)
      ⊢ iprop(((cred (tallyAt (dcell c (syrS k)) () Nc) ∗ owes (c : Thread nD τ) (owe l) W) -∗ WP c (k' ⟨⟩) Q)
          -∗ WP c (.op (.enqueueDma (slot8 rzdM (in8 k)) (.remote (Dev.tc (buddy c) : Thread nD τ) (slot3 ryrM k) (.dma (syrS k)) hsc)
                (.dma (ryrS k)) hsrc hdst hsem) k') Q) :=
  step_send m K c (buddy c) (syrS k) (ryrS k) (two_le_syrS k) (two_le_ryrS k) (slot8 rzdM (in8 k)) (slot3 ryrM k) fullShare.left (RZD m c) fd l W
    rfl
    (Entails.of_eq ((payload_syr m c k 0).symm.trans (payload_dma m c (syrS k) 0)))
    ((Entails.of_eq (pointsTo_congr fun i hi => land_YR m c k fd i hi)).trans
      (Entails.of_eq ((payload_ryr m (buddy c) k 0).symm.trans (payload_dma m (buddy c) (ryrS k) 0))))
    (hsc := hsc) (hsrc := hsrc) (hdst := hdst) (hsem := hsem) (α := α) (Q := Q) (k := k')

/-- Chunk `k + 3` of what came from the y peer, relayed to the z peer: its relay buffer's chunk `k` is chunk `k + 3` of the y-forwarded buffer of its z peer, the sender. -/
theorem land_ZR (c : Dev nD) (k : Fin 3) (fd : (cc0_scratch7 : Ref sig .tc).ty.Contents (Elt F))
    (i : S3x64x512.Idx) (hi : i ∈ (slot3 rzrM k).view.set) :
    (slot3 rzrM k).view.write (Elt F) fd ((slot8 rydM (up3 k)).view.read (Elt F) (RYD m c)) Finset.univ i = RZR m (zpair c) i := by
  have h0 := (mem_slot_rzr k i).mp hi
  rw [write_slot_rzr k fd _ i hi, read_slot_ryd]
  unfold RZR; rw [zpair_zpair]
  exact congrArg (RYD m c) ((congrArg (fun a => ix3 a (i 1) (i 2)) (Fin.ext (show k.val + 3 = (i 0).val + 3 from by omega))))

theorem send_ZR (K : GSem nD τ sig → ℕ) (c : Dev nD) (k : Fin 3)
    (fd : Buf (Elt F) ((slot3 rzrM k).view.loc ((zpair c : Dev nD) : Thread nD τ)))
    (l : List (GSem nD τ sig × ℕ)) (W : Waits sig Unit)
    {hsc : (slot3 rzrM k).view.ref.isScScratch = false} {hsrc : (slot8 rydM (up3 k)).view.WordExact}
    {hdst : (slot3 rzrM k).view.WordExact}
    {hsem : DmaTarget.Typed .vmem (.dma (rzrS k)) (.remote (Dev.tc (zpair c) : Thread nD τ) (slot3 rzrM k) (.dma (szrS k)) hsc)}
    {α : Type} {Q : α → sProp 𝕄} {k' : PUnit → Prog (TpuEff nD τ sig (Elt F) Λ₀ .tc) α} :
    iprop(records m K ∗ rydPts m c (up3 k) fullShare.left
        ∗ ((slot3 rzrM k).view.loc ((zpair c : Dev nD) : Thread nD τ) ↦[(slot3 rzrM k).view.set]{fullShare} fd)
        ∗ owes (c : Thread nD τ) (owe ((dcell (zpair c) (rzrS k), Nc) :: l)) W
        ∗ dutyTok ER (dcell c (szrS k)) 0 0 ∗ dutyTok ER (dcell (zpair c) (rzrS k)) 0 0)
      ⊢ iprop(((cred (tallyAt (dcell c (szrS k)) () Nc) ∗ owes (c : Thread nD τ) (owe l) W) -∗ WP c (k' ⟨⟩) Q)
          -∗ WP c (.op (.enqueueDma (slot8 rydM (up3 k)) (.remote (Dev.tc (zpair c) : Thread nD τ) (slot3 rzrM k) (.dma (szrS k)) hsc)
                (.dma (rzrS k)) hsrc hdst hsem) k') Q) :=
  step_send m K c (zpair c) (szrS k) (rzrS k) (two_le_szrS k) (two_le_rzrS k) (slot8 rydM (up3 k)) (slot3 rzrM k) fullShare.left (RYD m c) fd l W
    rfl
    (Entails.of_eq ((payload_szr m c k 0).symm.trans (payload_dma m c (szrS k) 0)))
    ((Entails.of_eq (pointsTo_congr fun i hi => land_ZR m c k fd i hi)).trans
      (Entails.of_eq ((payload_rzr m (zpair c) k 0).symm.trans (payload_dma m (zpair c) (rzrS k) 0))))
    (hsc := hsc) (hsrc := hsrc) (hdst := hdst) (hsem := hsem) (α := α) (Q := Q) (k := k')

end Cert.KernelIdeal.RS

end
-- ==== Proof.Local.lean ====
import proofs.«901033_g7700000000001034_dist_rs_v7x_xyz2x2x4_x_m2048_n512_bf16_1_alg».proof.Proof.Proto
import proofs.«901033_g7700000000001034_dist_rs_v7x_xyz2x2x4_x_m2048_n512_bf16_1_alg».proof.Proof.Tables
import proofs.«901033_g7700000000001034_dist_rs_v7x_xyz2x2x4_x_m2048_n512_bf16_1_alg».proof.Proof.Credit
import proofs.«901033_g7700000000001034_dist_rs_v7x_xyz2x2x4_x_m2048_n512_bf16_1_alg».proof.Proof.Slots
import proofs.«901033_g7700000000001034_dist_rs_v7x_xyz2x2x4_x_m2048_n512_bf16_1_alg».proof.Proof.Steps

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The device-local memory steps, on buffers held chunk by chunk

A buffer of `n` chunks of 64 × 512 is held as `n` separate assertions, one per chunk: chunk `k`
is the buffer's elements at first coordinate `k`. A load or a store of the 1 × 64 × 512 rectangle
at offset `(k, 0, 0)` touches exactly those elements, so it needs chunk `k` alone — at any share
for a load, whole for a store — and hands it back: unchanged after a load, holding the stored
vector after a store. -/

/-- The contents of the buffer under the memref `M` on device `c`. -/
abbrev Bf (c : Dev nD) {sp : Space} {S : Shape} {e : EltTy} (M : Memref sig .tc sp S e) : Type :=
  Buf (Elt F) (M.view.loc (c : Thread nD τ))

/-- Chunk `k` of a buffer of eight chunks on device `c`, held at share `q`, the buffer at contents `f`. -/
abbrev sl8 (c : Dev nD) (M : Memref sig .tc .vmem S8x64x512 .bf16) (k : Fin 8) (q : PosShare TreeShare)
    (f : Bf (F := F) c M) : sProp 𝕄 :=
  (slot8 M k).view.loc (c : Thread nD τ) ↦[(slot8 M k).view.set]{q} f
/-- The same of a buffer of two chunks, -/
abbrev sl2 (c : Dev nD) (M : Memref sig .tc .vmem S2x64x512 .bf16) (k : Fin 2) (q : PosShare TreeShare)
    (f : Bf (F := F) c M) : sProp 𝕄 :=
  (slot2 M k).view.loc (c : Thread nD τ) ↦[(slot2 M k).view.set]{q} f
/-- and of three. -/
abbrev sl3 (c : Dev nD) (M : Memref sig .tc .vmem S3x64x512 .bf16) (k : Fin 3) (q : PosShare TreeShare)
    (f : Bf (F := F) c M) : sProp 𝕄 :=
  (slot3 M k).view.loc (c : Thread nD τ) ↦[(slot3 M k).view.set]{q} f

/-! ### Loads

The elements a load at the chunk's rectangle reads are the rectangle's image in the buffer, which
is the chunk. -/

theorem load_chunk8 (c : Dev nD) (M : Memref sig .tc .vmem S8x64x512 .bf16) (k : Fin 8) (q : PosShare TreeShare)
    (f : Bf (F := F) c M) {hl : M.view.LoadsAt (rect8 k)} {α : Type} {Q : α → sProp 𝕄}
    {k' : (S1x64x512.Idx → Elt F .bf16) → Prog (TpuEff nD τ sig (Elt F) Λ₀ .tc) α} :
    sl8 c M k q f ⊢ iprop((sl8 c M k q f -∗ WP c (k' (M.view.readAt (Elt F) (rect8 k) f)) Q)
      -∗ WP c (.op (.load M (rect8 k) hl) k') Q) :=
  wp_load (defs := defs₀ (F := F)) Variants.none (c : Thread nD τ) none (Γ := .empty) Set.univ (Q := Q)
    (m := M) (r := rect8 k) (hl := hl) (k := k') (S := (slot8 M k).view.set) (q := q) (f := f)
    (subset_of_eq ((View.set_slice M.view (Rect.unit (s := S8x64x512) ![k.val, 0, 0] S1x64x512.size (inb8 k))).symm.trans
      (set_access_chunk8 M k)))

theorem load_chunk2 (c : Dev nD) (M : Memref sig .tc .vmem S2x64x512 .bf16) (k : Fin 2) (q : PosShare TreeShare)
    (f : Bf (F := F) c M) {hl : M.view.LoadsAt (rect2 k)} {α : Type} {Q : α → sProp 𝕄}
    {k' : (S1x64x512.Idx → Elt F .bf16) → Prog (TpuEff nD τ sig (Elt F) Λ₀ .tc) α} :
    sl2 c M k q f ⊢ iprop((sl2 c M k q f -∗ WP c (k' (M.view.readAt (Elt F) (rect2 k) f)) Q)
      -∗ WP c (.op (.load M (rect2 k) hl) k') Q) :=
  wp_load (defs := defs₀ (F := F)) Variants.none (c : Thread nD τ) none (Γ := .empty) Set.univ (Q := Q)
    (m := M) (r := rect2 k) (hl := hl) (k := k') (S := (slot2 M k).view.set) (q := q) (f := f)
    (subset_of_eq ((View.set_slice M.view (Rect.unit (s := S2x64x512) ![k.val, 0, 0] S1x64x512.size (inb2 k))).symm.trans
      (set_access_chunk2 M k)))

theorem load_chunk3 (c : Dev nD) (M : Memref sig .tc .vmem S3x64x512 .bf16) (k : Fin 3) (q : PosShare TreeShare)
    (f : Bf (F := F) c M) {hl : M.view.LoadsAt (rect3 k)} {α : Type} {Q : α → sProp 𝕄}
    {k' : (S1x64x512.Idx → Elt F .bf16) → Prog (TpuEff nD τ sig (Elt F) Λ₀ .tc) α} :
    sl3 c M k q f ⊢ iprop((sl3 c M k q f -∗ WP c (k' (M.view.readAt (Elt F) (rect3 k) f)) Q)
      -∗ WP c (.op (.load M (rect3 k) hl) k') Q) :=
  wp_load (defs := defs₀ (F := F)) Variants.none (c : Thread nD τ) none (Γ := .empty) Set.univ (Q := Q)
    (m := M) (r := rect3 k) (hl := hl) (k := k') (S := (slot3 M k).view.set) (q := q) (f := f)
    (subset_of_eq ((View.set_slice M.view (Rect.unit (s := S3x64x512) ![k.val, 0, 0] S1x64x512.size (inb3 k))).symm.trans
      (set_access_chunk3 M k)))

/-! ### Stores

A store of the whole 1 × 64 × 512 vector at the chunk's rectangle writes the chunk's elements and
no other. -/

theorem store_chunk8 (c : Dev nD) (M : Memref sig .tc .vmem S8x64x512 .bf16) (k : Fin 8)
    (f : Bf (F := F) c M) (w : S1x64x512.Idx → Elt F .bf16)
    {hx : (M.access (Rect.unit (s := S8x64x512) ![k.val, 0, 0] S1x64x512.size (inb8 k))).Stores Finset.univ}
    {hm : (Finset.univ : Finset (Rect.unit (s := S8x64x512) ![k.val, 0, 0] S1x64x512.size (inb8 k)).shape.Idx) = Finset.univ
      ∨ ∀ a, (Rect.unit (s := S8x64x512) ![k.val, 0, 0] S1x64x512.size (inb8 k)).stride a = 1}
    {α : Type} {Q : α → sProp 𝕄} {k' : PUnit → Prog (TpuEff nD τ sig (Elt F) Λ₀ .tc) α} :
    sl8 c M k fullShare f
      ⊢ iprop((sl8 c M k fullShare
            ((M.access (Rect.unit (s := S8x64x512) ![k.val, 0, 0] S1x64x512.size (inb8 k))).write (Elt F) f w Finset.univ)
          -∗ WP c (k' ⟨⟩) Q)
        -∗ WP c (.op (.store M (Rect.unit (s := S8x64x512) ![k.val, 0, 0] S1x64x512.size (inb8 k)) w Finset.univ hx hm) k') Q) :=
  wp_store (defs := defs₀ (F := F)) Variants.none (c : Thread nD τ) none (Γ := .empty) Set.univ (Q := Q)
    (m := M) (r := Rect.unit (s := S8x64x512) ![k.val, 0, 0] S1x64x512.size (inb8 k)) (w := w) (Mk := Finset.univ)
    (hx := hx) (hm := hm) (k := k') (S := (slot8 M k).view.set) (f := f)
    (subset_of_eq (set_access_chunk8 M k))

theorem store_chunk2 (c : Dev nD) (M : Memref sig .tc .vmem S2x64x512 .bf16) (k : Fin 2)
    (f : Bf (F := F) c M) (w : S1x64x512.Idx → Elt F .bf16)
    {hx : (M.access (Rect.unit (s := S2x64x512) ![k.val, 0, 0] S1x64x512.size (inb2 k))).Stores Finset.univ}
    {hm : (Finset.univ : Finset (Rect.unit (s := S2x64x512) ![k.val, 0, 0] S1x64x512.size (inb2 k)).shape.Idx) = Finset.univ
      ∨ ∀ a, (Rect.unit (s := S2x64x512) ![k.val, 0, 0] S1x64x512.size (inb2 k)).stride a = 1}
    {α : Type} {Q : α → sProp 𝕄} {k' : PUnit → Prog (TpuEff nD τ sig (Elt F) Λ₀ .tc) α} :
    sl2 c M k fullShare f
      ⊢ iprop((sl2 c M k fullShare
            ((M.access (Rect.unit (s := S2x64x512) ![k.val, 0, 0] S1x64x512.size (inb2 k))).write (Elt F) f w Finset.univ)
          -∗ WP c (k' ⟨⟩) Q)
        -∗ WP c (.op (.store M (Rect.unit (s := S2x64x512) ![k.val, 0, 0] S1x64x512.size (inb2 k)) w Finset.univ hx hm) k') Q) :=
  wp_store (defs := defs₀ (F := F)) Variants.none (c : Thread nD τ) none (Γ := .empty) Set.univ (Q := Q)
    (m := M) (r := Rect.unit (s := S2x64x512) ![k.val, 0, 0] S1x64x512.size (inb2 k)) (w := w) (Mk := Finset.univ)
    (hx := hx) (hm := hm) (k := k') (S := (slot2 M k).view.set) (f := f)
    (subset_of_eq (set_access_chunk2 M k))

/-! ### The staging buffers after their stores

Chunk `k` of the first staging buffer is stored from rows `r_self + 64 k …` of the partner's
columns of the device's block, cast; on the chunk's elements — first coordinate `k` — that is the
buffer's final contents `SX`, whatever the buffer held before. Likewise the second staging buffer
and `SX2`. -/

theorem sx_stored (c : Dev nD) (k : Fin 8) (f : Bf (F := F) c sxM) :
    sl8 c sxM k fullShare
        ((sxM.access (Rect.unit (s := S8x64x512) ![k.val, 0, 0] S1x64x512.size (inb8 k))).write (Elt F) f
          (k0_pay1 ((xM : Memref sig .tc .vmem S1x2048x1024 .f32).view.readAt (Elt F)
            (Rect.unit (s := S1x2048x1024) (k0_off1 c (BitVec.ofNat 32 (64 * k.val))) S1x64x512.size (k0_off1_inb c k)).toLoadRect
            (xstg m c)))
          Finset.univ)
      = sxPts m c k fullShare := by
  unfold sxPts
  refine pointsTo_congr ?_
  intro (i : S8x64x512.Idx) hi
  have hk : (i 0).val = k.val := (mem_slot_sx k i).mp hi
  refine (store_chunk_sx k f _ i).trans ?_
  rw [if_pos hk]
  have e : k = i 0 := Fin.ext hk.symm
  subst e
  rfl

theorem sx2_stored (c : Dev nD) (k : Fin 2) (f : Bf (F := F) c sx2M) :
    sl2 c sx2M k fullShare
        ((sx2M.access (Rect.unit (s := S2x64x512) ![k.val, 0, 0] S1x64x512.size (inb2 k))).write (Elt F) f
          (k0_pay1 ((xM : Memref sig .tc .vmem S1x2048x1024 .f32).view.readAt (Elt F)
            (Rect.unit (s := S1x2048x1024) (k0_off2 c (BitVec.ofNat 32 (384 + 64 * k.val))) S1x64x512.size (k0_off2_inb c k)).toLoadRect
            (xstg m c)))
          Finset.univ)
      = sx2Pts m c k fullShare := by
  unfold sx2Pts
  refine pointsTo_congr ?_
  intro (i : S2x64x512.Idx) hi
  have hk : (i 0).val = k.val := (mem_slot_sx2 k i).mp hi
  refine (store_chunk_sx2 k f _ i).trans ?_
  rw [if_pos hk]
  have e : k = i 0 := Fin.ext hk.symm
  subst e
  rfl

/-! ### What the later loads read

A load of chunk `k` of a landing buffer at its final contents reads entry `(k, r, c)` of those
contents at index `(0, r, c)`. -/

theorem sx_read (c : Dev nD) (k : Fin 8) :
    (sxM : Memref sig .tc .vmem S8x64x512 .bf16).view.readAt (Elt F) (rect8 k) (SX m c)
      = fun y => SX m c (ValueIdx.ix3 k (y 1) (y 2)) :=
  funext fun y => readAt_chunk_sx k (SX m c) y
theorem sx2_read (c : Dev nD) (k : Fin 2) :
    (sx2M : Memref sig .tc .vmem S2x64x512 .bf16).view.readAt (Elt F) (rect2 k) (SX2 m c)
      = fun y => SX2 m c (ValueIdx.ix3 k (y 1) (y 2)) :=
  funext fun y => readAt_chunk_sx2 k (SX2 m c) y
theorem rx_read (c : Dev nD) (k : Fin 8) :
    (rxM : Memref sig .tc .vmem S8x64x512 .bf16).view.readAt (Elt F) (rect8 k) (RX m c)
      = fun y => RX m c (ValueIdx.ix3 k (y 1) (y 2)) :=
  funext fun y => readAt_chunk_rx k (RX m c) y
theorem rx2_read (c : Dev nD) (k : Fin 2) :
    (rx2M : Memref sig .tc .vmem S2x64x512 .bf16).view.readAt (Elt F) (rect2 k) (RX2 m c)
      = fun y => RX2 m c (ValueIdx.ix3 k (y 1) (y 2)) :=
  funext fun y => readAt_chunk_rx2 k (RX2 m c) y
theorem ryd_read (c : Dev nD) (k : Fin 8) :
    (rydM : Memref sig .tc .vmem S8x64x512 .bf16).view.readAt (Elt F) (rect8 k) (RYD m c)
      = fun y => RYD m c (ValueIdx.ix3 k (y 1) (y 2)) :=
  funext fun y => readAt_chunk_ryd k (RYD m c) y
theorem rzd_read (c : Dev nD) (k : Fin 8) :
    (rzdM : Memref sig .tc .vmem S8x64x512 .bf16).view.readAt (Elt F) (rect8 k) (RZD m c)
      = fun y => RZD m c (ValueIdx.ix3 k (y 1) (y 2)) :=
  funext fun y => readAt_chunk_rzd k (RZD m c) y
theorem ryr_read (c : Dev nD) (k : Fin 3) :
    (ryrM : Memref sig .tc .vmem S3x64x512 .bf16).view.readAt (Elt F) (rect3 k) (RYR m c)
      = fun y => RYR m c (ValueIdx.ix3 k (y 1) (y 2)) :=
  funext fun y => readAt_chunk_ryr k (RYR m c) y
theorem rzr_read (c : Dev nD) (k : Fin 3) :
    (rzrM : Memref sig .tc .vmem S3x64x512 .bf16).view.readAt (Elt F) (rect3 k) (RZR m c)
      = fun y => RZR m c (ValueIdx.ix3 k (y 1) (y 2)) :=
  funext fun y => readAt_chunk_rzr k (RZR m c) y

end Cert.KernelIdeal.RS

end
-- ==== Proof.Pays.lean ====
import proofs.«901033_g7700000000001034_dist_rs_v7x_xyz2x2x4_x_m2048_n512_bf16_1_alg».proof.Proof.Proto

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payments of a device, one at a time

The list `pays c` has 35 entries: the three barrier units, then the landing credit of each of the 32 copies in
program order. Each lemma below names the head of one tail of that list, the entry spelt with its semaphore family
at a numeral index, so that the tallies owed can be peeled one payment at a time. -/

/-- The 35 payments written out. -/
theorem pays_eq (c : Dev nD) : pays c =
    [(barCell (partner c), 1),
     (barCell (buddy c), 1),
     (barCell (zpair c), 1),
     (dcell (partner c) (rxS 0), Nc),
     (dcell (partner c) (rxS 1), Nc),
     (dcell (partner c) (rxS 2), Nc),
     (dcell (partner c) (rxS 3), Nc),
     (dcell (partner c) (rxS 4), Nc),
     (dcell (partner c) (rxS 5), Nc),
     (dcell (partner c) (rxS 6), Nc),
     (dcell (partner c) (rxS 7), Nc),
     (dcell (partner c) (rx2S 0), Nc),
     (dcell (partner c) (rx2S 1), Nc),
     (dcell (buddy c) (rydS 0), Nc),
     (dcell (zpair c) (rzdS 0), Nc),
     (dcell (buddy c) (rydS 1), Nc),
     (dcell (zpair c) (rzdS 1), Nc),
     (dcell (buddy c) (rydS 2), Nc),
     (dcell (zpair c) (rzdS 2), Nc),
     (dcell (buddy c) (rydS 3), Nc),
     (dcell (zpair c) (rzdS 3), Nc),
     (dcell (buddy c) (rydS 4), Nc),
     (dcell (zpair c) (rzdS 4), Nc),
     (dcell (buddy c) (rydS 5), Nc),
     (dcell (zpair c) (rzdS 5), Nc),
     (dcell (buddy c) (rydS 6), Nc),
     (dcell (zpair c) (rzdS 6), Nc),
     (dcell (buddy c) (rydS 7), Nc),
     (dcell (zpair c) (rzdS 7), Nc),
     (dcell (buddy c) (ryrS 0), Nc),
     (dcell (buddy c) (ryrS 1), Nc),
     (dcell (buddy c) (ryrS 2), Nc),
     (dcell (zpair c) (rzrS 0), Nc),
     (dcell (zpair c) (rzrS 1), Nc),
     (dcell (zpair c) (rzrS 2), Nc)] := rfl

theorem drop_0 (c : Dev nD) : (pays c).drop 0 = (barCell (partner c), 1) :: (pays c).drop 1 := rfl
theorem drop_1 (c : Dev nD) : (pays c).drop 1 = (barCell (buddy c), 1) :: (pays c).drop 2 := rfl
theorem drop_2 (c : Dev nD) : (pays c).drop 2 = (barCell (zpair c), 1) :: (pays c).drop 3 := rfl
theorem drop_3 (c : Dev nD) : (pays c).drop 3 = (dcell (partner c) (rxS 0), Nc) :: (pays c).drop 4 := rfl
theorem drop_4 (c : Dev nD) : (pays c).drop 4 = (dcell (partner c) (rxS 1), Nc) :: (pays c).drop 5 := rfl
theorem drop_5 (c : Dev nD) : (pays c).drop 5 = (dcell (partner c) (rxS 2), Nc) :: (pays c).drop 6 := rfl
theorem drop_6 (c : Dev nD) : (pays c).drop 6 = (dcell (partner c) (rxS 3), Nc) :: (pays c).drop 7 := rfl
theorem drop_7 (c : Dev nD) : (pays c).drop 7 = (dcell (partner c) (rxS 4), Nc) :: (pays c).drop 8 := rfl
theorem drop_8 (c : Dev nD) : (pays c).drop 8 = (dcell (partner c) (rxS 5), Nc) :: (pays c).drop 9 := rfl
theorem drop_9 (c : Dev nD) : (pays c).drop 9 = (dcell (partner c) (rxS 6), Nc) :: (pays c).drop 10 := rfl
theorem drop_10 (c : Dev nD) : (pays c).drop 10 = (dcell (partner c) (rxS 7), Nc) :: (pays c).drop 11 := rfl
theorem drop_11 (c : Dev nD) : (pays c).drop 11 = (dcell (partner c) (rx2S 0), Nc) :: (pays c).drop 12 := rfl
theorem drop_12 (c : Dev nD) : (pays c).drop 12 = (dcell (partner c) (rx2S 1), Nc) :: (pays c).drop 13 := rfl
theorem drop_13 (c : Dev nD) : (pays c).drop 13 = (dcell (buddy c) (rydS 0), Nc) :: (pays c).drop 14 := rfl
theorem drop_14 (c : Dev nD) : (pays c).drop 14 = (dcell (zpair c) (rzdS 0), Nc) :: (pays c).drop 15 := rfl
theorem drop_15 (c : Dev nD) : (pays c).drop 15 = (dcell (buddy c) (rydS 1), Nc) :: (pays c).drop 16 := rfl
theorem drop_16 (c : Dev nD) : (pays c).drop 16 = (dcell (zpair c) (rzdS 1), Nc) :: (pays c).drop 17 := rfl
theorem drop_17 (c : Dev nD) : (pays c).drop 17 = (dcell (buddy c) (rydS 2), Nc) :: (pays c).drop 18 := rfl
theorem drop_18 (c : Dev nD) : (pays c).drop 18 = (dcell (zpair c) (rzdS 2), Nc) :: (pays c).drop 19 := rfl
theorem drop_19 (c : Dev nD) : (pays c).drop 19 = (dcell (buddy c) (rydS 3), Nc) :: (pays c).drop 20 := rfl
theorem drop_20 (c : Dev nD) : (pays c).drop 20 = (dcell (zpair c) (rzdS 3), Nc) :: (pays c).drop 21 := rfl
theorem drop_21 (c : Dev nD) : (pays c).drop 21 = (dcell (buddy c) (rydS 4), Nc) :: (pays c).drop 22 := rfl
theorem drop_22 (c : Dev nD) : (pays c).drop 22 = (dcell (zpair c) (rzdS 4), Nc) :: (pays c).drop 23 := rfl
theorem drop_23 (c : Dev nD) : (pays c).drop 23 = (dcell (buddy c) (rydS 5), Nc) :: (pays c).drop 24 := rfl
theorem drop_24 (c : Dev nD) : (pays c).drop 24 = (dcell (zpair c) (rzdS 5), Nc) :: (pays c).drop 25 := rfl
theorem drop_25 (c : Dev nD) : (pays c).drop 25 = (dcell (buddy c) (rydS 6), Nc) :: (pays c).drop 26 := rfl
theorem drop_26 (c : Dev nD) : (pays c).drop 26 = (dcell (zpair c) (rzdS 6), Nc) :: (pays c).drop 27 := rfl
theorem drop_27 (c : Dev nD) : (pays c).drop 27 = (dcell (buddy c) (rydS 7), Nc) :: (pays c).drop 28 := rfl
theorem drop_28 (c : Dev nD) : (pays c).drop 28 = (dcell (zpair c) (rzdS 7), Nc) :: (pays c).drop 29 := rfl
theorem drop_29 (c : Dev nD) : (pays c).drop 29 = (dcell (buddy c) (ryrS 0), Nc) :: (pays c).drop 30 := rfl
theorem drop_30 (c : Dev nD) : (pays c).drop 30 = (dcell (buddy c) (ryrS 1), Nc) :: (pays c).drop 31 := rfl
theorem drop_31 (c : Dev nD) : (pays c).drop 31 = (dcell (buddy c) (ryrS 2), Nc) :: (pays c).drop 32 := rfl
theorem drop_32 (c : Dev nD) : (pays c).drop 32 = (dcell (zpair c) (rzrS 0), Nc) :: (pays c).drop 33 := rfl
theorem drop_33 (c : Dev nD) : (pays c).drop 33 = (dcell (zpair c) (rzrS 1), Nc) :: (pays c).drop 34 := rfl
theorem drop_34 (c : Dev nD) : (pays c).drop 34 = (dcell (zpair c) (rzrS 2), Nc) :: (pays c).drop 35 := rfl
theorem drop_35 (c : Dev nD) : (pays c).drop 35 = [] := rfl

/-- What a device owes at launch is what is owed for the whole list. -/
theorem O₀_drop (c : Dev nD) : O₀ c = owe ((pays c).drop 0) := rfl

/-- Naming the head of a tail of the payments inside the debt a device holds. -/
theorem owes_drop (c : Dev nD) (n : ℕ) (p : GSem nD τ sig × ℕ) (W : Waits sig Unit)
    (h : (pays c).drop n = p :: (pays c).drop (n + 1)) :
    (owes (c : Thread nD τ) (owe ((pays c).drop n)) W : sProp 𝕄) =
      owes (c : Thread nD τ) (owe (p :: (pays c).drop (n + 1))) W :=
  congrArg (fun l => (owes (c : Thread nD τ) (owe l) W : sProp 𝕄)) h

end Cert.KernelIdeal.RS

end
-- ==== Proof.Sems.lean ====
import proofs.«901033_g7700000000001034_dist_rs_v7x_xyz2x2x4_x_m2048_n512_bf16_1_alg».proof.Proof.Proto

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores as the program spells them

The program names chunk `k`'s semaphore by slicing its array at `k`; the tables name it by its
number. The two are the same semaphore. -/

theorem sem_sx_0 : (((SemArray.slice cc0_scratch8 (Rect.unit (s := S8) ![0] S1.size inb_S8_S1_0)).squeeze S_ squeezes_S1_S_).sem : DmaSem sig) = sxS 0 := by decide
theorem sem_sx_1 : (((SemArray.slice cc0_scratch8 (Rect.unit (s := S8) ![1] S1.size inb_S8_S1_1)).squeeze S_ squeezes_S1_S_).sem : DmaSem sig) = sxS 1 := by decide
theorem sem_sx_2 : (((SemArray.slice cc0_scratch8 (Rect.unit (s := S8) ![2] S1.size inb_S8_S1_2)).squeeze S_ squeezes_S1_S_).sem : DmaSem sig) = sxS 2 := by decide
theorem sem_sx_3 : (((SemArray.slice cc0_scratch8 (Rect.unit (s := S8) ![3] S1.size inb_S8_S1_3)).squeeze S_ squeezes_S1_S_).sem : DmaSem sig) = sxS 3 := by decide
theorem sem_sx_4 : (((SemArray.slice cc0_scratch8 (Rect.unit (s := S8) ![4] S1.size inb_S8_S1_4)).squeeze S_ squeezes_S1_S_).sem : DmaSem sig) = sxS 4 := by decide
theorem sem_sx_5 : (((SemArray.slice cc0_scratch8 (Rect.unit (s := S8) ![5] S1.size inb_S8_S1_5)).squeeze S_ squeezes_S1_S_).sem : DmaSem sig) = sxS 5 := by decide
theorem sem_sx_6 : (((SemArray.slice cc0_scratch8 (Rect.unit (s := S8) ![6] S1.size inb_S8_S1_6)).squeeze S_ squeezes_S1_S_).sem : DmaSem sig) = sxS 6 := by decide
theorem sem_sx_7 : (((SemArray.slice cc0_scratch8 (Rect.unit (s := S8) ![7] S1.size inb_S8_S1_7)).squeeze S_ squeezes_S1_S_).sem : DmaSem sig) = sxS 7 := by decide
theorem sem_rx_0 : (((SemArray.slice cc0_scratch9 (Rect.unit (s := S8) ![0] S1.size inb_S8_S1_0)).squeeze S_ squeezes_S1_S_).sem : DmaSem sig) = rxS 0 := by decide
theorem sem_rx_1 : (((SemArray.slice cc0_scratch9 (Rect.unit (s := S8) ![1] S1.size inb_S8_S1_1)).squeeze S_ squeezes_S1_S_).sem : DmaSem sig) = rxS 1 := by decide
theorem sem_rx_2 : (((SemArray.slice cc0_scratch9 (Rect.unit (s := S8) ![2] S1.size inb_S8_S1_2)).squeeze S_ squeezes_S1_S_).sem : DmaSem sig) = rxS 2 := by decide
theorem sem_rx_3 : (((SemArray.slice cc0_scratch9 (Rect.unit (s := S8) ![3] S1.size inb_S8_S1_3)).squeeze S_ squeezes_S1_S_).sem : DmaSem sig) = rxS 3 := by decide
theorem sem_rx_4 : (((SemArray.slice cc0_scratch9 (Rect.unit (s := S8) ![4] S1.size inb_S8_S1_4)).squeeze S_ squeezes_S1_S_).sem : DmaSem sig) = rxS 4 := by decide
theorem sem_rx_5 : (((SemArray.slice cc0_scratch9 (Rect.unit (s := S8) ![5] S1.size inb_S8_S1_5)).squeeze S_ squeezes_S1_S_).sem : DmaSem sig) = rxS 5 := by decide
theorem sem_rx_6 : (((SemArray.slice cc0_scratch9 (Rect.unit (s := S8) ![6] S1.size inb_S8_S1_6)).squeeze S_ squeezes_S1_S_).sem : DmaSem sig) = rxS 6 := by decide
theorem sem_rx_7 : (((SemArray.slice cc0_scratch9 (Rect.unit (s := S8) ![7] S1.size inb_S8_S1_7)).squeeze S_ squeezes_S1_S_).sem : DmaSem sig) = rxS 7 := by decide
theorem sem_sx2_0 : (((SemArray.slice cc0_scratch10 (Rect.unit (s := S2) ![0] S1.size inb_S2_S1_0)).squeeze S_ squeezes_S1_S_).sem : DmaSem sig) = sx2S 0 := by decide
theorem sem_sx2_1 : (((SemArray.slice cc0_scratch10 (Rect.unit (s := S2) ![1] S1.size inb_S2_S1_1)).squeeze S_ squeezes_S1_S_).sem : DmaSem sig) = sx2S 1 := by decide
theorem sem_rx2_0 : (((SemArray.slice cc0_scratch11 (Rect.unit (s := S2) ![0] S1.size inb_S2_S1_0)).squeeze S_ squeezes_S1_S_).sem : DmaSem sig) = rx2S 0 := by decide
theorem sem_rx2_1 : (((SemArray.slice cc0_scratch11 (Rect.unit (s := S2) ![1] S1.size inb_S2_S1_1)).squeeze S_ squeezes_S1_S_).sem : DmaSem sig) = rx2S 1 := by decide
theorem sem_syd_0 : (((SemArray.slice cc0_scratch12 (Rect.unit (s := S8) ![0] S1.size inb_S8_S1_0)).squeeze S_ squeezes_S1_S_).sem : DmaSem sig) = sydS 0 := by decide
theorem sem_syd_1 : (((SemArray.slice cc0_scratch12 (Rect.unit (s := S8) ![1] S1.size inb_S8_S1_1)).squeeze S_ squeezes_S1_S_).sem : DmaSem sig) = sydS 1 := by decide
theorem sem_syd_2 : (((SemArray.slice cc0_scratch12 (Rect.unit (s := S8) ![2] S1.size inb_S8_S1_2)).squeeze S_ squeezes_S1_S_).sem : DmaSem sig) = sydS 2 := by decide
theorem sem_syd_3 : (((SemArray.slice cc0_scratch12 (Rect.unit (s := S8) ![3] S1.size inb_S8_S1_3)).squeeze S_ squeezes_S1_S_).sem : DmaSem sig) = sydS 3 := by decide
theorem sem_syd_4 : (((SemArray.slice cc0_scratch12 (Rect.unit (s := S8) ![4] S1.size inb_S8_S1_4)).squeeze S_ squeezes_S1_S_).sem : DmaSem sig) = sydS 4 := by decide
theorem sem_syd_5 : (((SemArray.slice cc0_scratch12 (Rect.unit (s := S8) ![5] S1.size inb_S8_S1_5)).squeeze S_ squeezes_S1_S_).sem : DmaSem sig) = sydS 5 := by decide
theorem sem_syd_6 : (((SemArray.slice cc0_scratch12 (Rect.unit (s := S8) ![6] S1.size inb_S8_S1_6)).squeeze S_ squeezes_S1_S_).sem : DmaSem sig) = sydS 6 := by decide
theorem sem_syd_7 : (((SemArray.slice cc0_scratch12 (Rect.unit (s := S8) ![7] S1.size inb_S8_S1_7)).squeeze S_ squeezes_S1_S_).sem : DmaSem sig) = sydS 7 := by decide
theorem sem_ryd_0 : (((SemArray.slice cc0_scratch13 (Rect.unit (s := S8) ![0] S1.size inb_S8_S1_0)).squeeze S_ squeezes_S1_S_).sem : DmaSem sig) = rydS 0 := by decide
theorem sem_ryd_1 : (((SemArray.slice cc0_scratch13 (Rect.unit (s := S8) ![1] S1.size inb_S8_S1_1)).squeeze S_ squeezes_S1_S_).sem : DmaSem sig) = rydS 1 := by decide
theorem sem_ryd_2 : (((SemArray.slice cc0_scratch13 (Rect.unit (s := S8) ![2] S1.size inb_S8_S1_2)).squeeze S_ squeezes_S1_S_).sem : DmaSem sig) = rydS 2 := by decide
theorem sem_ryd_3 : (((SemArray.slice cc0_scratch13 (Rect.unit (s := S8) ![3] S1.size inb_S8_S1_3)).squeeze S_ squeezes_S1_S_).sem : DmaSem sig) = rydS 3 := by decide
theorem sem_ryd_4 : (((SemArray.slice cc0_scratch13 (Rect.unit (s := S8) ![4] S1.size inb_S8_S1_4)).squeeze S_ squeezes_S1_S_).sem : DmaSem sig) = rydS 4 := by decide
theorem sem_ryd_5 : (((SemArray.slice cc0_scratch13 (Rect.unit (s := S8) ![5] S1.size inb_S8_S1_5)).squeeze S_ squeezes_S1_S_).sem : DmaSem sig) = rydS 5 := by decide
theorem sem_ryd_6 : (((SemArray.slice cc0_scratch13 (Rect.unit (s := S8) ![6] S1.size inb_S8_S1_6)).squeeze S_ squeezes_S1_S_).sem : DmaSem sig) = rydS 6 := by decide
theorem sem_ryd_7 : (((SemArray.slice cc0_scratch13 (Rect.unit (s := S8) ![7] S1.size inb_S8_S1_7)).squeeze S_ squeezes_S1_S_).sem : DmaSem sig) = rydS 7 := by decide
theorem sem_szd_0 : (((SemArray.slice cc0_scratch14 (Rect.unit (s := S8) ![0] S1.size inb_S8_S1_0)).squeeze S_ squeezes_S1_S_).sem : DmaSem sig) = szdS 0 := by decide
theorem sem_szd_1 : (((SemArray.slice cc0_scratch14 (Rect.unit (s := S8) ![1] S1.size inb_S8_S1_1)).squeeze S_ squeezes_S1_S_).sem : DmaSem sig) = szdS 1 := by decide
theorem sem_szd_2 : (((SemArray.slice cc0_scratch14 (Rect.unit (s := S8) ![2] S1.size inb_S8_S1_2)).squeeze S_ squeezes_S1_S_).sem : DmaSem sig) = szdS 2 := by decide
theorem sem_szd_3 : (((SemArray.slice cc0_scratch14 (Rect.unit (s := S8) ![3] S1.size inb_S8_S1_3)).squeeze S_ squeezes_S1_S_).sem : DmaSem sig) = szdS 3 := by decide
theorem sem_szd_4 : (((SemArray.slice cc0_scratch14 (Rect.unit (s := S8) ![4] S1.size inb_S8_S1_4)).squeeze S_ squeezes_S1_S_).sem : DmaSem sig) = szdS 4 := by decide
theorem sem_szd_5 : (((SemArray.slice cc0_scratch14 (Rect.unit (s := S8) ![5] S1.size inb_S8_S1_5)).squeeze S_ squeezes_S1_S_).sem : DmaSem sig) = szdS 5 := by decide
theorem sem_szd_6 : (((SemArray.slice cc0_scratch14 (Rect.unit (s := S8) ![6] S1.size inb_S8_S1_6)).squeeze S_ squeezes_S1_S_).sem : DmaSem sig) = szdS 6 := by decide
theorem sem_szd_7 : (((SemArray.slice cc0_scratch14 (Rect.unit (s := S8) ![7] S1.size inb_S8_S1_7)).squeeze S_ squeezes_S1_S_).sem : DmaSem sig) = szdS 7 := by decide
theorem sem_rzd_0 : (((SemArray.slice cc0_scratch15 (Rect.unit (s := S8) ![0] S1.size inb_S8_S1_0)).squeeze S_ squeezes_S1_S_).sem : DmaSem sig) = rzdS 0 := by decide
theorem sem_rzd_1 : (((SemArray.slice cc0_scratch15 (Rect.unit (s := S8) ![1] S1.size inb_S8_S1_1)).squeeze S_ squeezes_S1_S_).sem : DmaSem sig) = rzdS 1 := by decide
theorem sem_rzd_2 : (((SemArray.slice cc0_scratch15 (Rect.unit (s := S8) ![2] S1.size inb_S8_S1_2)).squeeze S_ squeezes_S1_S_).sem : DmaSem sig) = rzdS 2 := by decide
theorem sem_rzd_3 : (((SemArray.slice cc0_scratch15 (Rect.unit (s := S8) ![3] S1.size inb_S8_S1_3)).squeeze S_ squeezes_S1_S_).sem : DmaSem sig) = rzdS 3 := by decide
theorem sem_rzd_4 : (((SemArray.slice cc0_scratch15 (Rect.unit (s := S8) ![4] S1.size inb_S8_S1_4)).squeeze S_ squeezes_S1_S_).sem : DmaSem sig) = rzdS 4 := by decide
theorem sem_rzd_5 : (((SemArray.slice cc0_scratch15 (Rect.unit (s := S8) ![5] S1.size inb_S8_S1_5)).squeeze S_ squeezes_S1_S_).sem : DmaSem sig) = rzdS 5 := by decide
theorem sem_rzd_6 : (((SemArray.slice cc0_scratch15 (Rect.unit (s := S8) ![6] S1.size inb_S8_S1_6)).squeeze S_ squeezes_S1_S_).sem : DmaSem sig) = rzdS 6 := by decide
theorem sem_rzd_7 : (((SemArray.slice cc0_scratch15 (Rect.unit (s := S8) ![7] S1.size inb_S8_S1_7)).squeeze S_ squeezes_S1_S_).sem : DmaSem sig) = rzdS 7 := by decide
theorem sem_syr_0 : (((SemArray.slice cc0_scratch16 (Rect.unit (s := S3) ![0] S1.size inb_S3_S1_0)).squeeze S_ squeezes_S1_S_).sem : DmaSem sig) = syrS 0 := by decide
theorem sem_syr_1 : (((SemArray.slice cc0_scratch16 (Rect.unit (s := S3) ![1] S1.size inb_S3_S1_1)).squeeze S_ squeezes_S1_S_).sem : DmaSem sig) = syrS 1 := by decide
theorem sem_syr_2 : (((SemArray.slice cc0_scratch16 (Rect.unit (s := S3) ![2] S1.size inb_S3_S1_2)).squeeze S_ squeezes_S1_S_).sem : DmaSem sig) = syrS 2 := by decide
theorem sem_ryr_0 : (((SemArray.slice cc0_scratch17 (Rect.unit (s := S3) ![0] S1.size inb_S3_S1_0)).squeeze S_ squeezes_S1_S_).sem : DmaSem sig) = ryrS 0 := by decide
theorem sem_ryr_1 : (((SemArray.slice cc0_scratch17 (Rect.unit (s := S3) ![1] S1.size inb_S3_S1_1)).squeeze S_ squeezes_S1_S_).sem : DmaSem sig) = ryrS 1 := by decide
theorem sem_ryr_2 : (((SemArray.slice cc0_scratch17 (Rect.unit (s := S3) ![2] S1.size inb_S3_S1_2)).squeeze S_ squeezes_S1_S_).sem : DmaSem sig) = ryrS 2 := by decide
theorem sem_szr_0 : (((SemArray.slice cc0_scratch18 (Rect.unit (s := S3) ![0] S1.size inb_S3_S1_0)).squeeze S_ squeezes_S1_S_).sem : DmaSem sig) = szrS 0 := by decide
theorem sem_szr_1 : (((SemArray.slice cc0_scratch18 (Rect.unit (s := S3) ![1] S1.size inb_S3_S1_1)).squeeze S_ squeezes_S1_S_).sem : DmaSem sig) = szrS 1 := by decide
theorem sem_szr_2 : (((SemArray.slice cc0_scratch18 (Rect.unit (s := S3) ![2] S1.size inb_S3_S1_2)).squeeze S_ squeezes_S1_S_).sem : DmaSem sig) = szrS 2 := by decide
theorem sem_rzr_0 : (((SemArray.slice cc0_scratch19 (Rect.unit (s := S3) ![0] S1.size inb_S3_S1_0)).squeeze S_ squeezes_S1_S_).sem : DmaSem sig) = rzrS 0 := by decide
theorem sem_rzr_1 : (((SemArray.slice cc0_scratch19 (Rect.unit (s := S3) ![1] S1.size inb_S3_S1_1)).squeeze S_ squeezes_S1_S_).sem : DmaSem sig) = rzrS 1 := by decide
theorem sem_rzr_2 : (((SemArray.slice cc0_scratch19 (Rect.unit (s := S3) ![2] S1.size inb_S3_S1_2)).squeeze S_ squeezes_S1_S_).sem : DmaSem sig) = rzrS 2 := by decide

/-! ## The chunks as the program slices them -/

theorem slot_sx_0 : ((sxM.slice (Rect.unit (s := S8x64x512) ![0, 0, 0] S1x64x512.size inb_S8x64x512_S1x64x512_0_0_0) (fun _ => rfl)).squeeze S64x512 squeezes_S1x64x512_S64x512) = slot8 sxM 0 := rfl
theorem slot_sx_1 : ((sxM.slice (Rect.unit (s := S8x64x512) ![1, 0, 0] S1x64x512.size inb_S8x64x512_S1x64x512_1_0_0) (fun _ => rfl)).squeeze S64x512 squeezes_S1x64x512_S64x512) = slot8 sxM 1 := rfl
theorem slot_sx_2 : ((sxM.slice (Rect.unit (s := S8x64x512) ![2, 0, 0] S1x64x512.size inb_S8x64x512_S1x64x512_2_0_0) (fun _ => rfl)).squeeze S64x512 squeezes_S1x64x512_S64x512) = slot8 sxM 2 := rfl
theorem slot_sx_3 : ((sxM.slice (Rect.unit (s := S8x64x512) ![3, 0, 0] S1x64x512.size inb_S8x64x512_S1x64x512_3_0_0) (fun _ => rfl)).squeeze S64x512 squeezes_S1x64x512_S64x512) = slot8 sxM 3 := rfl
theorem slot_sx_4 : ((sxM.slice (Rect.unit (s := S8x64x512) ![4, 0, 0] S1x64x512.size inb_S8x64x512_S1x64x512_4_0_0) (fun _ => rfl)).squeeze S64x512 squeezes_S1x64x512_S64x512) = slot8 sxM 4 := rfl
theorem slot_sx_5 : ((sxM.slice (Rect.unit (s := S8x64x512) ![5, 0, 0] S1x64x512.size inb_S8x64x512_S1x64x512_5_0_0) (fun _ => rfl)).squeeze S64x512 squeezes_S1x64x512_S64x512) = slot8 sxM 5 := rfl
theorem slot_sx_6 : ((sxM.slice (Rect.unit (s := S8x64x512) ![6, 0, 0] S1x64x512.size inb_S8x64x512_S1x64x512_6_0_0) (fun _ => rfl)).squeeze S64x512 squeezes_S1x64x512_S64x512) = slot8 sxM 6 := rfl
theorem slot_sx_7 : ((sxM.slice (Rect.unit (s := S8x64x512) ![7, 0, 0] S1x64x512.size inb_S8x64x512_S1x64x512_7_0_0) (fun _ => rfl)).squeeze S64x512 squeezes_S1x64x512_S64x512) = slot8 sxM 7 := rfl
theorem slot_rx_0 : ((rxM.slice (Rect.unit (s := S8x64x512) ![0, 0, 0] S1x64x512.size inb_S8x64x512_S1x64x512_0_0_0) (fun _ => rfl)).squeeze S64x512 squeezes_S1x64x512_S64x512) = slot8 rxM 0 := rfl
theorem slot_rx_1 : ((rxM.slice (Rect.unit (s := S8x64x512) ![1, 0, 0] S1x64x512.size inb_S8x64x512_S1x64x512_1_0_0) (fun _ => rfl)).squeeze S64x512 squeezes_S1x64x512_S64x512) = slot8 rxM 1 := rfl
theorem slot_rx_2 : ((rxM.slice (Rect.unit (s := S8x64x512) ![2, 0, 0] S1x64x512.size inb_S8x64x512_S1x64x512_2_0_0) (fun _ => rfl)).squeeze S64x512 squeezes_S1x64x512_S64x512) = slot8 rxM 2 := rfl
theorem slot_rx_3 : ((rxM.slice (Rect.unit (s := S8x64x512) ![3, 0, 0] S1x64x512.size inb_S8x64x512_S1x64x512_3_0_0) (fun _ => rfl)).squeeze S64x512 squeezes_S1x64x512_S64x512) = slot8 rxM 3 := rfl
theorem slot_rx_4 : ((rxM.slice (Rect.unit (s := S8x64x512) ![4, 0, 0] S1x64x512.size inb_S8x64x512_S1x64x512_4_0_0) (fun _ => rfl)).squeeze S64x512 squeezes_S1x64x512_S64x512) = slot8 rxM 4 := rfl
theorem slot_rx_5 : ((rxM.slice (Rect.unit (s := S8x64x512) ![5, 0, 0] S1x64x512.size inb_S8x64x512_S1x64x512_5_0_0) (fun _ => rfl)).squeeze S64x512 squeezes_S1x64x512_S64x512) = slot8 rxM 5 := rfl
theorem slot_rx_6 : ((rxM.slice (Rect.unit (s := S8x64x512) ![6, 0, 0] S1x64x512.size inb_S8x64x512_S1x64x512_6_0_0) (fun _ => rfl)).squeeze S64x512 squeezes_S1x64x512_S64x512) = slot8 rxM 6 := rfl
theorem slot_rx_7 : ((rxM.slice (Rect.unit (s := S8x64x512) ![7, 0, 0] S1x64x512.size inb_S8x64x512_S1x64x512_7_0_0) (fun _ => rfl)).squeeze S64x512 squeezes_S1x64x512_S64x512) = slot8 rxM 7 := rfl
theorem slot_ryd_0 : ((rydM.slice (Rect.unit (s := S8x64x512) ![0, 0, 0] S1x64x512.size inb_S8x64x512_S1x64x512_0_0_0) (fun _ => rfl)).squeeze S64x512 squeezes_S1x64x512_S64x512) = slot8 rydM 0 := rfl
theorem slot_ryd_1 : ((rydM.slice (Rect.unit (s := S8x64x512) ![1, 0, 0] S1x64x512.size inb_S8x64x512_S1x64x512_1_0_0) (fun _ => rfl)).squeeze S64x512 squeezes_S1x64x512_S64x512) = slot8 rydM 1 := rfl
theorem slot_ryd_2 : ((rydM.slice (Rect.unit (s := S8x64x512) ![2, 0, 0] S1x64x512.size inb_S8x64x512_S1x64x512_2_0_0) (fun _ => rfl)).squeeze S64x512 squeezes_S1x64x512_S64x512) = slot8 rydM 2 := rfl
theorem slot_ryd_3 : ((rydM.slice (Rect.unit (s := S8x64x512) ![3, 0, 0] S1x64x512.size inb_S8x64x512_S1x64x512_3_0_0) (fun _ => rfl)).squeeze S64x512 squeezes_S1x64x512_S64x512) = slot8 rydM 3 := rfl
theorem slot_ryd_4 : ((rydM.slice (Rect.unit (s := S8x64x512) ![4, 0, 0] S1x64x512.size inb_S8x64x512_S1x64x512_4_0_0) (fun _ => rfl)).squeeze S64x512 squeezes_S1x64x512_S64x512) = slot8 rydM 4 := rfl
theorem slot_ryd_5 : ((rydM.slice (Rect.unit (s := S8x64x512) ![5, 0, 0] S1x64x512.size inb_S8x64x512_S1x64x512_5_0_0) (fun _ => rfl)).squeeze S64x512 squeezes_S1x64x512_S64x512) = slot8 rydM 5 := rfl
theorem slot_ryd_6 : ((rydM.slice (Rect.unit (s := S8x64x512) ![6, 0, 0] S1x64x512.size inb_S8x64x512_S1x64x512_6_0_0) (fun _ => rfl)).squeeze S64x512 squeezes_S1x64x512_S64x512) = slot8 rydM 6 := rfl
theorem slot_ryd_7 : ((rydM.slice (Rect.unit (s := S8x64x512) ![7, 0, 0] S1x64x512.size inb_S8x64x512_S1x64x512_7_0_0) (fun _ => rfl)).squeeze S64x512 squeezes_S1x64x512_S64x512) = slot8 rydM 7 := rfl
theorem slot_rzd_0 : ((rzdM.slice (Rect.unit (s := S8x64x512) ![0, 0, 0] S1x64x512.size inb_S8x64x512_S1x64x512_0_0_0) (fun _ => rfl)).squeeze S64x512 squeezes_S1x64x512_S64x512) = slot8 rzdM 0 := rfl
theorem slot_rzd_1 : ((rzdM.slice (Rect.unit (s := S8x64x512) ![1, 0, 0] S1x64x512.size inb_S8x64x512_S1x64x512_1_0_0) (fun _ => rfl)).squeeze S64x512 squeezes_S1x64x512_S64x512) = slot8 rzdM 1 := rfl
theorem slot_rzd_2 : ((rzdM.slice (Rect.unit (s := S8x64x512) ![2, 0, 0] S1x64x512.size inb_S8x64x512_S1x64x512_2_0_0) (fun _ => rfl)).squeeze S64x512 squeezes_S1x64x512_S64x512) = slot8 rzdM 2 := rfl
theorem slot_rzd_3 : ((rzdM.slice (Rect.unit (s := S8x64x512) ![3, 0, 0] S1x64x512.size inb_S8x64x512_S1x64x512_3_0_0) (fun _ => rfl)).squeeze S64x512 squeezes_S1x64x512_S64x512) = slot8 rzdM 3 := rfl
theorem slot_rzd_4 : ((rzdM.slice (Rect.unit (s := S8x64x512) ![4, 0, 0] S1x64x512.size inb_S8x64x512_S1x64x512_4_0_0) (fun _ => rfl)).squeeze S64x512 squeezes_S1x64x512_S64x512) = slot8 rzdM 4 := rfl
theorem slot_rzd_5 : ((rzdM.slice (Rect.unit (s := S8x64x512) ![5, 0, 0] S1x64x512.size inb_S8x64x512_S1x64x512_5_0_0) (fun _ => rfl)).squeeze S64x512 squeezes_S1x64x512_S64x512) = slot8 rzdM 5 := rfl
theorem slot_rzd_6 : ((rzdM.slice (Rect.unit (s := S8x64x512) ![6, 0, 0] S1x64x512.size inb_S8x64x512_S1x64x512_6_0_0) (fun _ => rfl)).squeeze S64x512 squeezes_S1x64x512_S64x512) = slot8 rzdM 6 := rfl
theorem slot_rzd_7 : ((rzdM.slice (Rect.unit (s := S8x64x512) ![7, 0, 0] S1x64x512.size inb_S8x64x512_S1x64x512_7_0_0) (fun _ => rfl)).squeeze S64x512 squeezes_S1x64x512_S64x512) = slot8 rzdM 7 := rfl
theorem slot_sx2_0 : ((sx2M.slice (Rect.unit (s := S2x64x512) ![0, 0, 0] S1x64x512.size inb_S2x64x512_S1x64x512_0_0_0) (fun _ => rfl)).squeeze S64x512 squeezes_S1x64x512_S64x512) = slot2 sx2M 0 := rfl
theorem slot_sx2_1 : ((sx2M.slice (Rect.unit (s := S2x64x512) ![1, 0, 0] S1x64x512.size inb_S2x64x512_S1x64x512_1_0_0) (fun _ => rfl)).squeeze S64x512 squeezes_S1x64x512_S64x512) = slot2 sx2M 1 := rfl
theorem slot_rx2_0 : ((rx2M.slice (Rect.unit (s := S2x64x512) ![0, 0, 0] S1x64x512.size inb_S2x64x512_S1x64x512_0_0_0) (fun _ => rfl)).squeeze S64x512 squeezes_S1x64x512_S64x512) = slot2 rx2M 0 := rfl
theorem slot_rx2_1 : ((rx2M.slice (Rect.unit (s := S2x64x512) ![1, 0, 0] S1x64x512.size inb_S2x64x512_S1x64x512_1_0_0) (fun _ => rfl)).squeeze S64x512 squeezes_S1x64x512_S64x512) = slot2 rx2M 1 := rfl
theorem slot_ryr_0 : ((ryrM.slice (Rect.unit (s := S3x64x512) ![0, 0, 0] S1x64x512.size inb_S3x64x512_S1x64x512_0_0_0) (fun _ => rfl)).squeeze S64x512 squeezes_S1x64x512_S64x512) = slot3 ryrM 0 := rfl
theorem slot_ryr_1 : ((ryrM.slice (Rect.unit (s := S3x64x512) ![1, 0, 0] S1x64x512.size inb_S3x64x512_S1x64x512_1_0_0) (fun _ => rfl)).squeeze S64x512 squeezes_S1x64x512_S64x512) = slot3 ryrM 1 := rfl
theorem slot_ryr_2 : ((ryrM.slice (Rect.unit (s := S3x64x512) ![2, 0, 0] S1x64x512.size inb_S3x64x512_S1x64x512_2_0_0) (fun _ => rfl)).squeeze S64x512 squeezes_S1x64x512_S64x512) = slot3 ryrM 2 := rfl
theorem slot_rzr_0 : ((rzrM.slice (Rect.unit (s := S3x64x512) ![0, 0, 0] S1x64x512.size inb_S3x64x512_S1x64x512_0_0_0) (fun _ => rfl)).squeeze S64x512 squeezes_S1x64x512_S64x512) = slot3 rzrM 0 := rfl
theorem slot_rzr_1 : ((rzrM.slice (Rect.unit (s := S3x64x512) ![1, 0, 0] S1x64x512.size inb_S3x64x512_S1x64x512_1_0_0) (fun _ => rfl)).squeeze S64x512 squeezes_S1x64x512_S64x512) = slot3 rzrM 1 := rfl
theorem slot_rzr_2 : ((rzrM.slice (Rect.unit (s := S3x64x512) ![2, 0, 0] S1x64x512.size inb_S3x64x512_S1x64x512_2_0_0) (fun _ => rfl)).squeeze S64x512 squeezes_S1x64x512_S64x512) = slot3 rzrM 2 := rfl

end Cert.KernelIdeal.RS

end
-- ==== Proof.Close.lean ====
import proofs.«901033_g7700000000001034_dist_rs_v7x_xyz2x2x4_x_m2048_n512_bf16_1_alg».proof.Proof.Proto
import proofs.«901033_g7700000000001034_dist_rs_v7x_xyz2x2x4_x_m2048_n512_bf16_1_alg».proof.Proof.Tables
import proofs.«901033_g7700000000001034_dist_rs_v7x_xyz2x2x4_x_m2048_n512_bf16_1_alg».proof.Proof.Credit
import proofs.«901033_g7700000000001034_dist_rs_v7x_xyz2x2x4_x_m2048_n512_bf16_1_alg».proof.Proof.Slots
import proofs.«901033_g7700000000001034_dist_rs_v7x_xyz2x2x4_x_m2048_n512_bf16_1_alg».proof.Proof.Steps

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Closing the device's own DMA cells

After its one round a DMA cell has no further duty; its owner, standing at round 1 with nothing
taken, closes it and is left with the counter at zero. -/

theorem close_dma (K : GSem nD τ sig → ℕ) (c : Dev nD) (s : DmaSem sig) (hs : 2 ≤ s.val) :
    iprop(records m K ∗ atPos ER (dcell c s) (0 + 1) ∅ 0) ⊢ (|={Set.univ}=> semVal (dcell c s) 0 : sProp 𝕄) :=
  (sep_mono_left (rec_inv m K (dcell_mem c s hs))).trans
    (Rounds.cell_close ER (sched m) (Set.mem_univ (K (dcell c s))) (fun h => h) (R := 0 + 1) (duties_later m (dcell c s)))

/-- One array of semaphores, laid from number `b ≥ 2`. -/
theorem close_fam (K : GSem nD τ sig → ℕ) (c : Dev nD) (b n : ℕ) (h : b + n ≤ 66) (hb : 2 ≤ b) :
    iprop(records m K ∗ bigSep Finset.univ fun k : Fin n => atPos ER (dcell c (dsem b n h k)) (0 + 1) ∅ 0)
      ⊢ (|={Set.univ}=> bigSep Finset.univ fun k : Fin n => semVal (dcell c (dsem b n h k)) 0 : sProp 𝕄) :=
  (bigSep_with_persistent fun k _ => close_dma m K c (dsem b n h k) (Nat.le_trans hb (Nat.le_add_right b k.val))).trans
    (bigSep_fupd _ _)

/-! ## The 64 own semaphores, array by array -/

omit [FloatOps F] in
theorem bigSep_fin_add {a b : ℕ} (Φ : Fin (a + b) → sProp 𝕄) :
    bigSep Finset.univ Φ
      = iprop((bigSep Finset.univ fun i : Fin a => Φ (Fin.castAdd b i)) ∗ bigSep Finset.univ fun j : Fin b => Φ (Fin.natAdd a j)) := by
  rw [bigSep_univ_equiv finSumFinEquiv Φ, bigSep_univ_sum]; rfl

omit [FloatOps F] in
/-- The first `n` of the semaphores from number `o + 2` on are the array laid from `o + 2`. -/
theorem peel (Φ : DmaSem sig → sProp 𝕄) (o n r : ℕ) (h : o + 2 + (n + r) ≤ 66) :
    (bigSep Finset.univ fun j : Fin (n + r) => Φ ⟨o + 2 + j.val, (show o + 2 + j.val < 66 from by have := j.isLt; omega)⟩)
      = iprop((bigSep Finset.univ fun k : Fin n => Φ (dsem (o + 2) n (by omega) k))
          ∗ bigSep Finset.univ fun j : Fin r => Φ ⟨o + n + 2 + j.val, (show o + n + 2 + j.val < 66 from by have := j.isLt; omega)⟩) := by
  rw [bigSep_fin_add]
  congr 1
  exact bigSep_congr fun j _ => congrArg Φ (Fin.ext (show o + 2 + (n + j.val) = o + n + 2 + j.val from by omega))

omit [FloatOps F] in
/-- The semaphores 2 … 65 are the twelve arrays, in the order they are laid. -/
theorem regroup (Φ : DmaSem sig → sProp 𝕄) :
    (bigSep Finset.univ fun j : Fin 64 => Φ ⟨j.val + 2, (show j.val + 2 < 66 from by have := j.isLt; omega)⟩)
      = iprop((bigSep Finset.univ fun k : Fin 8 => Φ (sxS k))
          ∗ (bigSep Finset.univ fun k : Fin 8 => Φ (rxS k))
          ∗ (bigSep Finset.univ fun k : Fin 2 => Φ (sx2S k))
          ∗ (bigSep Finset.univ fun k : Fin 2 => Φ (rx2S k))
          ∗ (bigSep Finset.univ fun k : Fin 8 => Φ (sydS k))
          ∗ (bigSep Finset.univ fun k : Fin 8 => Φ (rydS k))
          ∗ (bigSep Finset.univ fun k : Fin 8 => Φ (szdS k))
          ∗ (bigSep Finset.univ fun k : Fin 8 => Φ (rzdS k))
          ∗ (bigSep Finset.univ fun k : Fin 3 => Φ (syrS k))
          ∗ (bigSep Finset.univ fun k : Fin 3 => Φ (ryrS k))
          ∗ (bigSep Finset.univ fun k : Fin 3 => Φ (szrS k))
          ∗ (bigSep Finset.univ fun k : Fin 3 => Φ (rzrS k))) := by
  have e0 : (bigSep Finset.univ fun j : Fin 64 => Φ ⟨j.val + 2, (show j.val + 2 < 66 from by have := j.isLt; omega)⟩)
      = bigSep Finset.univ fun j : Fin (8 + 56) => Φ ⟨0 + 2 + j.val, (show 0 + 2 + j.val < 66 from by have := j.isLt; omega)⟩ :=
    bigSep_congr fun j _ => congrArg Φ (Fin.ext (show j.val + 2 = 0 + 2 + j.val from by omega))
  rw [e0, peel Φ 0 8 56 (by decide),
    peel Φ 8 8 48 (by decide),
    peel Φ 16 2 46 (by decide),
    peel Φ 18 2 44 (by decide),
    peel Φ 20 8 36 (by decide),
    peel Φ 28 8 28 (by decide),
    peel Φ 36 8 20 (by decide),
    peel Φ 44 8 12 (by decide),
    peel Φ 52 3 9 (by decide),
    peel Φ 55 3 6 (by decide),
    peel Φ 58 3 3 (by decide)]
  rfl

/-- Device `c`'s position at round 1 of each of its 64 DMA cells. -/
def positions1 (c : Dev nD) : sProp 𝕄 :=
  iprop((bigSep Finset.univ fun k : Fin 8 => atPos ER (dcell c (sxS k)) (0 + 1) ∅ 0)
    ∗ (bigSep Finset.univ fun k : Fin 8 => atPos ER (dcell c (rxS k)) (0 + 1) ∅ 0)
    ∗ (bigSep Finset.univ fun k : Fin 2 => atPos ER (dcell c (sx2S k)) (0 + 1) ∅ 0)
    ∗ (bigSep Finset.univ fun k : Fin 2 => atPos ER (dcell c (rx2S k)) (0 + 1) ∅ 0)
    ∗ (bigSep Finset.univ fun k : Fin 8 => atPos ER (dcell c (sydS k)) (0 + 1) ∅ 0)
    ∗ (bigSep Finset.univ fun k : Fin 8 => atPos ER (dcell c (rydS k)) (0 + 1) ∅ 0)
    ∗ (bigSep Finset.univ fun k : Fin 8 => atPos ER (dcell c (szdS k)) (0 + 1) ∅ 0)
    ∗ (bigSep Finset.univ fun k : Fin 8 => atPos ER (dcell c (rzdS k)) (0 + 1) ∅ 0)
    ∗ (bigSep Finset.univ fun k : Fin 3 => atPos ER (dcell c (syrS k)) (0 + 1) ∅ 0)
    ∗ (bigSep Finset.univ fun k : Fin 3 => atPos ER (dcell c (ryrS k)) (0 + 1) ∅ 0)
    ∗ (bigSep Finset.univ fun k : Fin 3 => atPos ER (dcell c (szrS k)) (0 + 1) ∅ 0)
    ∗ (bigSep Finset.univ fun k : Fin 3 => atPos ER (dcell c (rzrS k)) (0 + 1) ∅ 0))

theorem close_all (K : GSem nD τ sig → ℕ) (c : Dev nD) :
    iprop(records m K ∗ positions1 (F := F) c)
      ⊢ (|={Set.univ}=> bigSep Finset.univ fun j : Fin 64 => semVal ((c : Thread nD τ), osem j) 0 : sProp 𝕄) := by
  have e := regroup (F := F) (fun s => semVal (dcell c s) 0)
  refine BIBase.Entails.trans ?_ (fupd_mono (BIBase.Entails.of_eq e.symm))
  unfold positions1
  iintro ⟨#HR, H0, H1, H2, H3, H4, H5, H6, H7, H8, H9, H10, H11⟩
  imod (close_fam m K c 2 8 (by decide) (by decide)) $$ [H0] with H0
  · isplitr; · iexact HR
    iexact H0
  imod (close_fam m K c 10 8 (by decide) (by decide)) $$ [H1] with H1
  · isplitr; · iexact HR
    iexact H1
  imod (close_fam m K c 18 2 (by decide) (by decide)) $$ [H2] with H2
  · isplitr; · iexact HR
    iexact H2
  imod (close_fam m K c 20 2 (by decide) (by decide)) $$ [H3] with H3
  · isplitr; · iexact HR
    iexact H3
  imod (close_fam m K c 22 8 (by decide) (by decide)) $$ [H4] with H4
  · isplitr; · iexact HR
    iexact H4
  imod (close_fam m K c 30 8 (by decide) (by decide)) $$ [H5] with H5
  · isplitr; · iexact HR
    iexact H5
  imod (close_fam m K c 38 8 (by decide) (by decide)) $$ [H6] with H6
  · isplitr; · iexact HR
    iexact H6
  imod (close_fam m K c 46 8 (by decide) (by decide)) $$ [H7] with H7
  · isplitr; · iexact HR
    iexact H7
  imod (close_fam m K c 54 3 (by decide) (by decide)) $$ [H8] with H8
  · isplitr; · iexact HR
    iexact H8
  imod (close_fam m K c 57 3 (by decide) (by decide)) $$ [H9] with H9
  · isplitr; · iexact HR
    iexact H9
  imod (close_fam m K c 60 3 (by decide) (by decide)) $$ [H10] with H10
  · isplitr; · iexact HR
    iexact H10
  imod (close_fam m K c 63 3 (by decide) (by decide)) $$ [H11] with H11
  · isplitr; · iexact HR
    iexact H11
  imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The scratch buffers whole again

A buffer all of whose chunks are held in full, at the contents of one function, is held whole;
a chunk lent in two or three shares is first joined. -/

theorem whole8 (c : Dev nD) (M : Memref sig .tc .vmem S8x64x512 .bf16) (hM : M.IsWhole) (f : Buf (Elt F) (M.view.loc (c : Thread nD τ))) :
    (bigSep Finset.univ fun k : Fin 8 => ((slot8 M k).view.loc (c : Thread nD τ) ↦[(slot8 M k).view.set]{fullShare} f) : sProp 𝕄)
      ⊢ anyBuf c M.view.ref :=
  (split8 c M hM fullShare f).2.trans (by unfold anyBuf; iintro H; iexists f; iexact H)
theorem whole2 (c : Dev nD) (M : Memref sig .tc .vmem S2x64x512 .bf16) (hM : M.IsWhole) (f : Buf (Elt F) (M.view.loc (c : Thread nD τ))) :
    (bigSep Finset.univ fun k : Fin 2 => ((slot2 M k).view.loc (c : Thread nD τ) ↦[(slot2 M k).view.set]{fullShare} f) : sProp 𝕄)
      ⊢ anyBuf c M.view.ref :=
  (split2 c M hM fullShare f).2.trans (by unfold anyBuf; iintro H; iexists f; iexact H)
theorem whole3 (c : Dev nD) (M : Memref sig .tc .vmem S3x64x512 .bf16) (hM : M.IsWhole) (f : Buf (Elt F) (M.view.loc (c : Thread nD τ))) :
    (bigSep Finset.univ fun k : Fin 3 => ((slot3 M k).view.loc (c : Thread nD τ) ↦[(slot3 M k).view.set]{fullShare} f) : sProp 𝕄)
      ⊢ anyBuf c M.view.ref :=
  (split3 c M hM fullShare f).2.trans (by unfold anyBuf; iintro H; iexists f; iexact H)

theorem sx_whole (c : Dev nD) : (bigSep Finset.univ fun k : Fin 8 => sxPts m c k fullShare) ⊢ (anyBuf c cc0_scratch0 : sProp 𝕄) :=
  whole8 c sxM (Memref.isWhole_whole _) (SX m c)
theorem sx2_whole (c : Dev nD) : (bigSep Finset.univ fun k : Fin 2 => sx2Pts m c k fullShare) ⊢ (anyBuf c cc0_scratch1 : sProp 𝕄) :=
  whole2 c sx2M (Memref.isWhole_whole _) (SX2 m c)
theorem rx2_whole (c : Dev nD) : (bigSep Finset.univ fun k : Fin 2 => rx2Pts m c k fullShare) ⊢ (anyBuf c cc0_scratch3 : sProp 𝕄) :=
  whole2 c rx2M (Memref.isWhole_whole _) (RX2 m c)
theorem ryr_whole (c : Dev nD) : (bigSep Finset.univ fun k : Fin 3 => ryrPts m c k fullShare) ⊢ (anyBuf c cc0_scratch6 : sProp 𝕄) :=
  whole3 c ryrM (Memref.isWhole_whole _) (RYR m c)
theorem rzr_whole (c : Dev nD) : (bigSep Finset.univ fun k : Fin 3 => rzrPts m c k fullShare) ⊢ (anyBuf c cc0_scratch7 : sProp 𝕄) :=
  whole3 c rzrM (Memref.isWhole_whole _) (RZR m c)
theorem rx_all (c : Dev nD) : (bigSep Finset.univ fun k : Fin 8 => rxPts m c k fullShare) ⊢ (anyBuf c cc0_scratch2 : sProp 𝕄) :=
  whole8 c rxM (Memref.isWhole_whole _) (RX m c)
theorem ryd_all (c : Dev nD) : (bigSep Finset.univ fun k : Fin 8 => rydPts m c k fullShare) ⊢ (anyBuf c cc0_scratch4 : sProp 𝕄) :=
  whole8 c rydM (Memref.isWhole_whole _) (RYD m c)
theorem rzd_all (c : Dev nD) : (bigSep Finset.univ fun k : Fin 8 => rzdPts m c k fullShare) ⊢ (anyBuf c cc0_scratch5 : sProp 𝕄) :=
  whole8 c rzdM (Memref.isWhole_whole _) (RZD m c)

/-- A chunk lent in three shares, joined. -/
theorem rx_join (c : Dev nD) (k : Fin 8) :
    iprop(rxPts m c k fullShare.left ∗ rxPts m c k fullShare.right.left ∗ rxPts m c k fullShare.right.right) ⊢ rxPts m c k fullShare :=
  (share3 ((slot8 rxM k).view.loc (c : Thread nD τ)) (slot8 rxM k).view.set (RX m c)).2
/-- A chunk lent in two shares, joined. -/
theorem ryd_join (c : Dev nD) (k : Fin 8) :
    iprop(rydPts m c k fullShare.left ∗ rydPts m c k fullShare.right) ⊢ rydPts m c k fullShare :=
  (share2 ((slot8 rydM k).view.loc (c : Thread nD τ)) (slot8 rydM k).view.set (RYD m c)).2
theorem rzd_join (c : Dev nD) (k : Fin 8) :
    iprop(rzdPts m c k fullShare.left ∗ rzdPts m c k fullShare.right) ⊢ rzdPts m c k fullShare :=
  (share2 ((slot8 rzdM k).view.loc (c : Thread nD τ)) (slot8 rzdM k).view.set (RZD m c)).2

theorem rx_whole (c : Dev nD) :
    (bigSep Finset.univ fun k : Fin 8 =>
        iprop(rxPts m c k fullShare.left ∗ rxPts m c k fullShare.right.left ∗ rxPts m c k fullShare.right.right))
      ⊢ (anyBuf c cc0_scratch2 : sProp 𝕄) :=
  (bigSep_mono fun k _ => rx_join m c k).trans (rx_all m c)

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The z-forwarded buffer: its chunks 0, 1, 2 were lent in two shares (one to the relay to the y peer). -/
theorem rzd_whole (c : Dev nD) :
    iprop(rzdPts m c 0 fullShare.left ∗ rzdPts m c 0 fullShare.right ∗ rzdPts m c 1 fullShare.left ∗ rzdPts m c 1 fullShare.right
        ∗ rzdPts m c 2 fullShare.left ∗ rzdPts m c 2 fullShare.right
        ∗ rzdPts m c 3 fullShare ∗ rzdPts m c 4 fullShare ∗ rzdPts m c 5 fullShare ∗ rzdPts m c 6 fullShare ∗ rzdPts m c 7 fullShare)
      ⊢ (anyBuf c cc0_scratch5 : sProp 𝕄) := by
  refine BIBase.Entails.trans ?_ (rzd_all m c)
  rw [bigSep_fin8]
  iintro ⟨L0, R0, L1, R1, L2, R2, P3, P4, P5, P6, P7⟩
  isplitl [L0 R0]; · iapply (rzd_join m c 0); isplitl [L0]; · iexact L0
                     iexact R0
  isplitl [L1 R1]; · iapply (rzd_join m c 1); isplitl [L1]; · iexact L1
                     iexact R1
  isplitl [L2 R2]; · iapply (rzd_join m c 2); isplitl [L2]; · iexact L2
                     iexact R2
  isplitl [P3]; · iexact P3
  isplitl [P4]; · iexact P4
  isplitl [P5]; · iexact P5
  isplitl [P6]; · iexact P6
  iexact P7

/-- The y-forwarded buffer: its chunks 3, 4, 5 were lent in two shares (one to the relay to the z peer). -/
theorem ryd_whole (c : Dev nD) :
    iprop(rydPts m c 0 fullShare ∗ rydPts m c 1 fullShare ∗ rydPts m c 2 fullShare
        ∗ rydPts m c 3 fullShare.left ∗ rydPts m c 3 fullShare.right ∗ rydPts m c 4 fullShare.left ∗ rydPts m c 4 fullShare.right
        ∗ rydPts m c 5 fullShare.left ∗ rydPts m c 5 fullShare.right
        ∗ rydPts m c 6 fullShare ∗ rydPts m c 7 fullShare)
      ⊢ (anyBuf c cc0_scratch4 : sProp 𝕄) := by
  refine BIBase.Entails.trans ?_ (ryd_all m c)
  rw [bigSep_fin8]
  iintro ⟨P0, P1, P2, L3, R3, L4, R4, L5, R5, P6, P7⟩
  isplitl [P0]; · iexact P0
  isplitl [P1]; · iexact P1
  isplitl [P2]; · iexact P2
  isplitl [L3 R3]; · iapply (ryd_join m c 3); isplitl [L3]; · iexact L3
                     iexact R3
  isplitl [L4 R4]; · iapply (ryd_join m c 4); isplitl [L4]; · iexact L4
                     iexact R4
  isplitl [L5 R5]; · iapply (ryd_join m c 5); isplitl [L5]; · iexact L5
                     iexact R5
  isplitl [P6]; · iexact P6
  iexact P7

end Cert.KernelIdeal.RS

end
-- ==== Proof.End.lean ====
import proofs.«901033_g7700000000001034_dist_rs_v7x_xyz2x2x4_x_m2048_n512_bf16_1_alg».proof.Proof.Proto
import proofs.«901033_g7700000000001034_dist_rs_v7x_xyz2x2x4_x_m2048_n512_bf16_1_alg».proof.Proof.Tables
import proofs.«901033_g7700000000001034_dist_rs_v7x_xyz2x2x4_x_m2048_n512_bf16_1_alg».proof.Proof.Credit
import proofs.«901033_g7700000000001034_dist_rs_v7x_xyz2x2x4_x_m2048_n512_bf16_1_alg».proof.Proof.Slots
import proofs.«901033_g7700000000001034_dist_rs_v7x_xyz2x2x4_x_m2048_n512_bf16_1_alg».proof.Proof.Steps
import proofs.«901033_g7700000000001034_dist_rs_v7x_xyz2x2x4_x_m2048_n512_bf16_1_alg».proof.Proof.Close

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The end of the kernel body

Every chunk of every scratch buffer is back with the device — a chunk that was lent to forwarding
copies, in the shares it was lent in — and each of the device's 64 DMA cells stands at its second
round with nothing taken. The chunks of each buffer join into the whole buffer and each cell is
closed, its counter at zero: what the body owes at its end. -/

omit [FloatOps F] in
theorem bigSep_fin2 (Φ : Fin 2 → sProp 𝕄) : bigSep Finset.univ Φ = iprop(Φ 0 ∗ Φ 1) :=
  bigSep_univ_eq_bigSepL [0, 1] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- Separating conjunction is associative, as an equation of assertions. -/
theorem sep_assoc_eq (P Q R : sProp 𝕄) : iprop((P ∗ Q) ∗ R) = iprop(P ∗ Q ∗ R) :=
  Idealize.SL.BI.Entails.antisymm (Laws.sep_assoc (P := P) (Q := Q) (R := R)).1 (Laws.sep_assoc (P := P) (Q := Q) (R := R)).2

/-- The chunks of the eight scratch buffers, buffer by buffer, as they come back. -/
def held (c : Dev nD) : sProp 𝕄 :=
  iprop((bigSep Finset.univ fun k : Fin 8 => sxPts m c k fullShare)
    ∗ (bigSep Finset.univ fun k : Fin 2 => sx2Pts m c k fullShare)
    ∗ (bigSep Finset.univ fun k : Fin 8 =>
        iprop(rxPts m c k fullShare.left ∗ rxPts m c k fullShare.right.left ∗ rxPts m c k fullShare.right.right))
    ∗ (bigSep Finset.univ fun k : Fin 2 => rx2Pts m c k fullShare)
    ∗ (rydPts m c 0 fullShare ∗ rydPts m c 1 fullShare ∗ rydPts m c 2 fullShare ∗ rydPts m c 3 fullShare.left ∗ rydPts m c 3 fullShare.right ∗ rydPts m c 4 fullShare.left ∗ rydPts m c 4 fullShare.right ∗ rydPts m c 5 fullShare.left ∗ rydPts m c 5 fullShare.right ∗ rydPts m c 6 fullShare ∗ rydPts m c 7 fullShare)
    ∗ (rzdPts m c 0 fullShare.left ∗ rzdPts m c 0 fullShare.right ∗ rzdPts m c 1 fullShare.left ∗ rzdPts m c 1 fullShare.right ∗ rzdPts m c 2 fullShare.left ∗ rzdPts m c 2 fullShare.right ∗ rzdPts m c 3 fullShare ∗ rzdPts m c 4 fullShare ∗ rzdPts m c 5 fullShare ∗ rzdPts m c 6 fullShare ∗ rzdPts m c 7 fullShare)
    ∗ (bigSep Finset.univ fun k : Fin 3 => ryrPts m c k fullShare)
    ∗ (bigSep Finset.univ fun k : Fin 3 => rzrPts m c k fullShare))

/-- Buffer by buffer, the chunks are the whole buffer. -/
theorem held_scratch (c : Dev nD) : held m c ⊢ (scratch c : sProp 𝕄) := by
  unfold held scratch
  exact BIClass.sep_mono (sx_whole m c) (BIClass.sep_mono (sx2_whole m c) (BIClass.sep_mono (rx_whole m c) (BIClass.sep_mono (rx2_whole m c)
    (BIClass.sep_mono (ryd_whole m c) (BIClass.sep_mono (rzd_whole m c) (BIClass.sep_mono (ryr_whole m c) (rzr_whole m c)))))))

theorem endgame_grouped (K : GSem nD τ sig → ℕ) (c : Dev nD) :
    iprop(records m K ∗ held m c ∗ positions1 (F := F) c) ⊢ (|={Set.univ}=> Φ₁ (F := F) c : sProp 𝕄) := by
  unfold Φ₁
  iintro ⟨#HR, HH, HP⟩
  imod (close_all m K c) $$ [HP] with Hs
  · isplitr; · iexact HR
    iexact HP
  imodintro
  isplitl [HH]
  · iapply (held_scratch m c); iexact HH
  iexact Hs

set_option simprocs false in
theorem endgame (K : GSem nD τ sig → ℕ) (c : Dev nD) :
    iprop(records m K
      ∗ sxPts m c 0 fullShare ∗ sxPts m c 1 fullShare ∗ sxPts m c 2 fullShare ∗ sxPts m c 3 fullShare
      ∗ sxPts m c 4 fullShare ∗ sxPts m c 5 fullShare ∗ sxPts m c 6 fullShare ∗ sxPts m c 7 fullShare
      ∗ sx2Pts m c 0 fullShare ∗ sx2Pts m c 1 fullShare ∗ rxPts m c 0 fullShare.left ∗ rxPts m c 0 fullShare.right.left
      ∗ rxPts m c 0 fullShare.right.right ∗ rxPts m c 1 fullShare.left ∗ rxPts m c 1 fullShare.right.left ∗ rxPts m c 1 fullShare.right.right
      ∗ rxPts m c 2 fullShare.left ∗ rxPts m c 2 fullShare.right.left ∗ rxPts m c 2 fullShare.right.right ∗ rxPts m c 3 fullShare.left
      ∗ rxPts m c 3 fullShare.right.left ∗ rxPts m c 3 fullShare.right.right ∗ rxPts m c 4 fullShare.left ∗ rxPts m c 4 fullShare.right.left
      ∗ rxPts m c 4 fullShare.right.right ∗ rxPts m c 5 fullShare.left ∗ rxPts m c 5 fullShare.right.left ∗ rxPts m c 5 fullShare.right.right
      ∗ rxPts m c 6 fullShare.left ∗ rxPts m c 6 fullShare.right.left ∗ rxPts m c 6 fullShare.right.right ∗ rxPts m c 7 fullShare.left
      ∗ rxPts m c 7 fullShare.right.left ∗ rxPts m c 7 fullShare.right.right ∗ rx2Pts m c 0 fullShare ∗ rx2Pts m c 1 fullShare
      ∗ rydPts m c 0 fullShare ∗ rydPts m c 1 fullShare ∗ rydPts m c 2 fullShare ∗ rydPts m c 3 fullShare.left
      ∗ rydPts m c 3 fullShare.right ∗ rydPts m c 4 fullShare.left ∗ rydPts m c 4 fullShare.right ∗ rydPts m c 5 fullShare.left
      ∗ rydPts m c 5 fullShare.right ∗ rydPts m c 6 fullShare ∗ rydPts m c 7 fullShare ∗ rzdPts m c 0 fullShare.left
      ∗ rzdPts m c 0 fullShare.right ∗ rzdPts m c 1 fullShare.left ∗ rzdPts m c 1 fullShare.right ∗ rzdPts m c 2 fullShare.left
      ∗ rzdPts m c 2 fullShare.right ∗ rzdPts m c 3 fullShare ∗ rzdPts m c 4 fullShare ∗ rzdPts m c 5 fullShare
      ∗ rzdPts m c 6 fullShare ∗ rzdPts m c 7 fullShare ∗ ryrPts m c 0 fullShare ∗ ryrPts m c 1 fullShare
      ∗ ryrPts m c 2 fullShare ∗ rzrPts m c 0 fullShare ∗ rzrPts m c 1 fullShare ∗ rzrPts m c 2 fullShare
      ∗ atPos ER (dcell c (sxS 0)) (0 + 1) ∅ 0 ∗ atPos ER (dcell c (sxS 1)) (0 + 1) ∅ 0 ∗ atPos ER (dcell c (sxS 2)) (0 + 1) ∅ 0
      ∗ atPos ER (dcell c (sxS 3)) (0 + 1) ∅ 0 ∗ atPos ER (dcell c (sxS 4)) (0 + 1) ∅ 0 ∗ atPos ER (dcell c (sxS 5)) (0 + 1) ∅ 0
      ∗ atPos ER (dcell c (sxS 6)) (0 + 1) ∅ 0 ∗ atPos ER (dcell c (sxS 7)) (0 + 1) ∅ 0 ∗ atPos ER (dcell c (rxS 0)) (0 + 1) ∅ 0
      ∗ atPos ER (dcell c (rxS 1)) (0 + 1) ∅ 0 ∗ atPos ER (dcell c (rxS 2)) (0 + 1) ∅ 0 ∗ atPos ER (dcell c (rxS 3)) (0 + 1) ∅ 0
      ∗ atPos ER (dcell c (rxS 4)) (0 + 1) ∅ 0 ∗ atPos ER (dcell c (rxS 5)) (0 + 1) ∅ 0 ∗ atPos ER (dcell c (rxS 6)) (0 + 1) ∅ 0
      ∗ atPos ER (dcell c (rxS 7)) (0 + 1) ∅ 0 ∗ atPos ER (dcell c (sx2S 0)) (0 + 1) ∅ 0 ∗ atPos ER (dcell c (sx2S 1)) (0 + 1) ∅ 0
      ∗ atPos ER (dcell c (rx2S 0)) (0 + 1) ∅ 0 ∗ atPos ER (dcell c (rx2S 1)) (0 + 1) ∅ 0 ∗ atPos ER (dcell c (sydS 0)) (0 + 1) ∅ 0
      ∗ atPos ER (dcell c (sydS 1)) (0 + 1) ∅ 0 ∗ atPos ER (dcell c (sydS 2)) (0 + 1) ∅ 0 ∗ atPos ER (dcell c (sydS 3)) (0 + 1) ∅ 0
      ∗ atPos ER (dcell c (sydS 4)) (0 + 1) ∅ 0 ∗ atPos ER (dcell c (sydS 5)) (0 + 1) ∅ 0 ∗ atPos ER (dcell c (sydS 6)) (0 + 1) ∅ 0
      ∗ atPos ER (dcell c (sydS 7)) (0 + 1) ∅ 0 ∗ atPos ER (dcell c (rydS 0)) (0 + 1) ∅ 0 ∗ atPos ER (dcell c (rydS 1)) (0 + 1) ∅ 0
      ∗ atPos ER (dcell c (rydS 2)) (0 + 1) ∅ 0 ∗ atPos ER (dcell c (rydS 3)) (0 + 1) ∅ 0 ∗ atPos ER (dcell c (rydS 4)) (0 + 1) ∅ 0
      ∗ atPos ER (dcell c (rydS 5)) (0 + 1) ∅ 0 ∗ atPos ER (dcell c (rydS 6)) (0 + 1) ∅ 0 ∗ atPos ER (dcell c (rydS 7)) (0 + 1) ∅ 0
      ∗ atPos ER (dcell c (szdS 0)) (0 + 1) ∅ 0 ∗ atPos ER (dcell c (szdS 1)) (0 + 1) ∅ 0 ∗ atPos ER (dcell c (szdS 2)) (0 + 1) ∅ 0
      ∗ atPos ER (dcell c (szdS 3)) (0 + 1) ∅ 0 ∗ atPos ER (dcell c (szdS 4)) (0 + 1) ∅ 0 ∗ atPos ER (dcell c (szdS 5)) (0 + 1) ∅ 0
      ∗ atPos ER (dcell c (szdS 6)) (0 + 1) ∅ 0 ∗ atPos ER (dcell c (szdS 7)) (0 + 1) ∅ 0 ∗ atPos ER (dcell c (rzdS 0)) (0 + 1) ∅ 0
      ∗ atPos ER (dcell c (rzdS 1)) (0 + 1) ∅ 0 ∗ atPos ER (dcell c (rzdS 2)) (0 + 1) ∅ 0 ∗ atPos ER (dcell c (rzdS 3)) (0 + 1) ∅ 0
      ∗ atPos ER (dcell c (rzdS 4)) (0 + 1) ∅ 0 ∗ atPos ER (dcell c (rzdS 5)) (0 + 1) ∅ 0 ∗ atPos ER (dcell c (rzdS 6)) (0 + 1) ∅ 0
      ∗ atPos ER (dcell c (rzdS 7)) (0 + 1) ∅ 0 ∗ atPos ER (dcell c (syrS 0)) (0 + 1) ∅ 0 ∗ atPos ER (dcell c (syrS 1)) (0 + 1) ∅ 0
      ∗ atPos ER (dcell c (syrS 2)) (0 + 1) ∅ 0 ∗ atPos ER (dcell c (ryrS 0)) (0 + 1) ∅ 0 ∗ atPos ER (dcell c (ryrS 1)) (0 + 1) ∅ 0
      ∗ atPos ER (dcell c (ryrS 2)) (0 + 1) ∅ 0 ∗ atPos ER (dcell c (szrS 0)) (0 + 1) ∅ 0 ∗ atPos ER (dcell c (szrS 1)) (0 + 1) ∅ 0
      ∗ atPos ER (dcell c (szrS 2)) (0 + 1) ∅ 0 ∗ atPos ER (dcell c (rzrS 0)) (0 + 1) ∅ 0 ∗ atPos ER (dcell c (rzrS 1)) (0 + 1) ∅ 0
      ∗ atPos ER (dcell c (rzrS 2)) (0 + 1) ∅ 0)
    ⊢ (|={Set.univ}=> Φ₁ (F := F) c : sProp 𝕄) := by
  refine BIBase.Entails.trans (BIBase.Entails.of_eq ?_) (endgame_grouped m K c)
  unfold held positions1
  simp only [bigSep_fin8, bigSep_fin2, bigSep_fin3, sep_assoc_eq]

end Cert.KernelIdeal.RS

end
-- ==== Proof.Oblig.lean ====
import proofs.«901033_g7700000000001034_dist_rs_v7x_xyz2x2x4_x_m2048_n512_bf16_1_alg».proof.Proof.Proto
import proofs.«901033_g7700000000001034_dist_rs_v7x_xyz2x2x4_x_m2048_n512_bf16_1_alg».proof.Proof.Pays
import proofs.«901033_g7700000000001034_dist_rs_v7x_xyz2x2x4_x_m2048_n512_bf16_1_alg».proof.Proof.Local
import proofs.«901033_g7700000000001034_dist_rs_v7x_xyz2x2x4_x_m2048_n512_bf16_1_alg».proof.Proof.Gen.KernelIdeal.Points
import proofs.«901033_g7700000000001034_dist_rs_v7x_xyz2x2x4_x_m2048_n512_bf16_1_alg».proof.Proof.Gen.KernelIdeal.Launch

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation from the body's proof

The pipeline has one grid point. At it the body is called on the two staging buffers and the eight scratch buffers, each
whole; the invariant before it is the device's starting ghost state, its credits, the levels and the scratch buffers at
some contents; the input staging buffer holds the device's block (it was fetched), the output one anything. The body's
proof, from exactly these taken apart, ends with the invariant after the point, nothing owed, the input buffer unchanged
and the output one at the result. -/

/-- The buffer under the memref M on device c, whole at contents f. -/
abbrev pt (c : Dev nD) {sp : Space} {S : Shape} {e : EltTy} (M : Memref sig .tc sp S e) (f : Bf (F := F) c M) : sProp 𝕄 :=
  M.view.loc (c : Thread nD τ) ↦{fullShare} f

omit [FloatOps F] in
/-- Holding a whole buffer at given contents: some contents, equal to the given ones. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device c, whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body at the one point. -/
def bodyPre' (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What the pipeline takes back from it. -/
def bodyPost (c : Dev nD) : sProp 𝕄 :=
  iprop(Φ₁ c ∗ (dats m ρ 0 c).owesAt () t0_0.succ ∗ stg c cc0_stg0_0 (xstg m c) ∗ stg c cc0_stg1_0 (outAt m c))

/-- The library's body obligation on device c, from the body's proof. -/
theorem body_obligation_of
    (hsound : ∀ (K : GSem nD τ sig → ℕ) (c : Dev nD) (fo : Bf (F := F) c oM) (f0 : Bf (F := F) c sxM) (f1 : Bf (F := F) c sx2M)
      (f2 : Bf (F := F) c rxM) (f3 : Bf (F := F) c rx2M) (f4 : Bf (F := F) c rydM) (f5 : Bf (F := F) c rzdM)
      (f6 : Bf (F := F) c ryrM) (f7 : Bf (F := F) c rzrM) (W : Waits sig Unit) (Q : PUnit → sProp 𝕄),
      iprop(records m K ∗ levAts L lv ∗ positions c ∗ payToks c ∗ creds c ∗ pt c xM (xstg m c) ∗ pt c oM fo
          ∗ pt c sxM f0 ∗ pt c sx2M f1 ∗ pt c rxM f2 ∗ pt c rx2M f3 ∗ pt c rydM f4 ∗ pt c rzdM f5 ∗ pt c ryrM f6 ∗ pt c rzrM f7
          ∗ owes (c : Thread nD τ) (owe ((pays c).drop 0)) W
          ∗ ((Φ₁ c ∗ (∃ W', owes (c : Thread nD τ) (owe ((pays c).drop 35)) W') ∗ pt c xM (xstg m c) ∗ pt c oM (outAt m c)) -∗ Q ⟨⟩))
        ⊢ wp frame (wpE (defs₀ (F := F)) Variants.none c none) Set.univ
            (cc0_body xM (Memref.isWhole_whole _) oM (Memref.isWhole_whole _) sxM (Memref.isWhole_whole _) sx2M (Memref.isWhole_whole _) rxM (Memref.isWhole_whole _) rx2M (Memref.isWhole_whole _)
              rydM (Memref.isWhole_whole _) rzdM (Memref.isWhole_whole _) ryrM (Memref.isWhole_whole _) rzrM (Memref.isWhole_whole _)
              cc0_scratch8 cc0_scratch9 cc0_scratch10 cc0_scratch11 cc0_scratch12 cc0_scratch13 cc0_scratch14 cc0_scratch15 cc0_scratch16 cc0_scratch17 cc0_scratch18 cc0_scratch19) Q)
    (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) Variants.none c none) Set.univ
    (cc0_body xM (Memref.isWhole_whole _) oM (Memref.isWhole_whole _) sxM (Memref.isWhole_whole _) sx2M (Memref.isWhole_whole _) rxM (Memref.isWhole_whole _) rx2M (Memref.isWhole_whole _)
      rydM (Memref.isWhole_whole _) rzdM (Memref.isWhole_whole _) ryrM (Memref.isWhole_whole _) rzrM (Memref.isWhole_whole _)
      cc0_scratch8 cc0_scratch9 cc0_scratch10 cc0_scratch11 cc0_scratch12 cc0_scratch13 cc0_scratch14 cc0_scratch15 cc0_scratch16 cc0_scratch17 cc0_scratch18 cc0_scratch19)
    (fun _ => bodyPost m ρ c)
  unfold bodyPre' Φ₀ start G' ghost scratch anyBuf
  iintro ⟨⟨⟨⟨%K, HR, Hpos, Htok⟩, Hcr, Hlev⟩, ⟨%f0, H0⟩, ⟨%f1, H1⟩, ⟨%f2, H2⟩, ⟨%f3, H3⟩, ⟨%f4, H4⟩, ⟨%f5, H5⟩, ⟨%f6, H6⟩, ⟨%f7, H7⟩⟩,
    Ho, ⟨%d0, %g0, %hg0, Hx⟩, ⟨%d1, %g1, %hg1, Hout⟩⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl, O₀_drop]
  iapply (hsound K c g1 f0 f1 f2 f3 f4 f5 f6 f7 W (fun _ => bodyPost m ρ c))
  isplitl [HR]; · iexact HR
  isplitl [Hlev]; · iexact Hlev
  isplitl [Hpos]; · iexact Hpos
  isplitl [Htok]; · iexact Htok
  isplitl [Hcr]; · iexact Hcr
  isplitl [Hx]; · iexact Hx
  isplitl [Hout]; · iexact Hout
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HO]; · iexact HO
  iintro ⟨HΦ, ⟨%W', HO'⟩, Hx', Ho'⟩
  unfold bodyPost Dat.owesAt Pipeline.owesWithin
  rw [show (dats m ρ 0 c).owed t0_0.succ = 0 from rfl, drop_35, owe_nil]
  isplitl [HΦ]; · iexact HΦ
  isplitl [HO']
  · iexists W'
    isplitr; · ipureintro; exact fun _ _ => Or.inl trivial
    iexact HO'
  isplitl [Hx']
  · iexists _; isplitr; · (ipureintro; rfl)
    iexact Hx'
  iexists _; isplitr; · (ipureintro; rfl)
  iexact Ho'

end Cert.KernelIdeal.RS

end
-- ==== Proof.OutW.lean ====
import proofs.«901033_g7700000000001034_dist_rs_v7x_xyz2x2x4_x_m2048_n512_bf16_1_alg».proof.Proof.Proto
import proofs.«901033_g7700000000001034_dist_rs_v7x_xyz2x2x4_x_m2048_n512_bf16_1_alg».proof.Proof.Slots
import proofs.«901033_g7700000000001034_dist_rs_v7x_xyz2x2x4_x_m2048_n512_bf16_1_alg».proof.Proof.Local
import proofs.«901033_g7700000000001034_dist_rs_v7x_xyz2x2x4_x_m2048_n512_bf16_1_alg».proof.Proof.Mesh

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! # The result block after the body's stores

The body stores 32 sums of 64 × 512 entries into the result block, one per chunk of 64 rows: each is a routed chunk plus
the chunk of the device's own block at the same rows. The 32 row ranges are the eight chunks of each of the four
quadrants of 512 rows, so they are pairwise disjoint and leave no row out, and the block ends with the contents that are
read off the routed buffers and the own block quadrant by quadrant, whatever it held at the start. -/

/-! ## One store into the result block

Each of the body's 32 stores writes a 64 × 512 sum — a routed chunk plus the own chunk — at 64 rows of the result block,
all 512 columns. -/

/-- The result block after one store: the sum of the routed chunk buf and the own chunk x at the rows from off. -/
def outStep (c : Dev nD) (f : (cc0_stg1_0 : Ref sig .tc).ty.Contents (Elt F)) (off : Fin 2 → ℕ)
    (inb : ∀ a, off a + S64x512.size a ≤ S2048x512.size a) (buf : Vec F S1x64x512 .bf16) (x : Vec F S1x64x512 .f32) :
    (cc0_stg1_0 : Ref sig .tc).ty.Contents (Elt F) :=
  ((oM : Memref sig .tc .vmem S2048x512 .bf16).access (Rect.unit (s := S2048x512) off S64x512.size inb)).write (Elt F) f
    (k0_pay13 buf x) Finset.univ

/-- Inside the stored rows the block holds the sum at the relative index, -/
theorem outStep_hit (c : Dev nD) (f : (cc0_stg1_0 : Ref sig .tc).ty.Contents (Elt F)) (off : Fin 2 → ℕ)
    (inb : ∀ a, off a + S64x512.size a ≤ S2048x512.size a) (buf : Vec F S1x64x512 .bf16) (x : Vec F S1x64x512 .f32)
    (i : S2048x512.Idx) (y : S64x512.Idx) (h0 : (i 0).val = off 0 + (y 0).val) (h1 : (i 1).val = off 1 + (y 1).val) :
    outStep c f off inb buf x i = k0_pay13 buf x y := by
  have h := View.write_emb_of_mem (v := (oM : Memref sig .tc .vmem S2048x512 .bf16).access (Rect.unit (s := S2048x512) off S64x512.size inb))
    (Val := Elt F) f (k0_pay13 buf x) (M := Finset.univ) (x := y) (Finset.mem_univ _)
  have e : ((oM : Memref sig .tc .vmem S2048x512 .bf16).access (Rect.unit (s := S2048x512) off S64x512.size inb)).emb y = i := by
    funext a
    refine Fin.ext ?_
    match a with
    | ⟨0, _⟩ => show off 0 + 1 * (y 0).val = (i 0).val; omega
    | ⟨1, _⟩ => show off 1 + 1 * (y 1).val = (i 1).val; omega
  rw [e] at h
  exact h

/-- and outside them what it held. -/
theorem outStep_miss (c : Dev nD) (f : (cc0_stg1_0 : Ref sig .tc).ty.Contents (Elt F)) (off : Fin 2 → ℕ)
    (inb : ∀ a, off a + S64x512.size a ≤ S2048x512.size a) (buf : Vec F S1x64x512 .bf16) (x : Vec F S1x64x512 .f32)
    (i : S2048x512.Idx) (h : (i 0).val < off 0 ∨ off 0 + 64 ≤ (i 0).val) :
    outStep c f off inb buf x i = f i := by
  refine View.write_of_not_mem (v := (oM : Memref sig .tc .vmem S2048x512 .bf16).access (Rect.unit (s := S2048x512) off S64x512.size inb))
    f _ Finset.univ ?_
  rw [View.setOn_univ]
  show i ∉ ((View.whole cc0_stg1_0).slice (Rect.unit (s := S2048x512) off S64x512.size inb)).set
  rw [View.set_slice_whole, Rect.mem_set_unit]
  intro hm
  have h0 := hm 0
  have e : S64x512.size 0 = 64 := rfl
  rw [e] at h0
  omega

/-! ## The four quadrants

The first rows of the four quadrants a device adds into are 0, 512, 1024 and 1536 in some order. -/

theorem rq_facts (c : Dev nD) :
    (rq3 c = 0 ∨ rq3 c = 512 ∨ rq3 c = 1024 ∨ rq3 c = 1536) ∧ (rq5 c = 0 ∨ rq5 c = 512 ∨ rq5 c = 1024 ∨ rq5 c = 1536)
      ∧ (rq7 c = 0 ∨ rq7 c = 512 ∨ rq7 c = 1024 ∨ rq7 c = 1536) ∧ (rq9 c = 0 ∨ rq9 c = 512 ∨ rq9 c = 1024 ∨ rq9 c = 1536)
      ∧ rq3 c ≠ rq5 c ∧ rq3 c ≠ rq7 c ∧ rq3 c ≠ rq9 c ∧ rq5 c ≠ rq7 c ∧ rq5 c ≠ rq9 c ∧ rq7 c ≠ rq9 c := by
  have h := rq_perm c
  have m3 : rq3 c ∈ ({rq3 c, rq5 c, rq7 c, rq9 c} : Finset ℕ) := by simp
  have m5 : rq5 c ∈ ({rq3 c, rq5 c, rq7 c, rq9 c} : Finset ℕ) := by simp
  have m7 : rq7 c ∈ ({rq3 c, rq5 c, rq7 c, rq9 c} : Finset ℕ) := by simp
  have m9 : rq9 c ∈ ({rq3 c, rq5 c, rq7 c, rq9 c} : Finset ℕ) := by simp
  have n0 : (0 : ℕ) ∈ ({0, 512, 1024, 1536} : Finset ℕ) := by simp
  have n1 : (512 : ℕ) ∈ ({0, 512, 1024, 1536} : Finset ℕ) := by simp
  have n2 : (1024 : ℕ) ∈ ({0, 512, 1024, 1536} : Finset ℕ) := by simp
  have n3 : (1536 : ℕ) ∈ ({0, 512, 1024, 1536} : Finset ℕ) := by simp
  rw [h] at m3 m5 m7 m9
  rw [← h] at n0 n1 n2 n3
  simp only [Finset.mem_insert, Finset.mem_singleton] at m3 m5 m7 m9 n0 n1 n2 n3
  omega

/-- Every row lies in one of the four quadrants. -/
theorem quad (c : Dev nD) (r : ℕ) (hr : r < 2048) :
    r / 512 * 512 = rq3 c ∨ r / 512 * 512 = rq5 c ∨ r / 512 * 512 = rq7 c ∨ r / 512 * 512 = rq9 c := by
  have hm : r / 512 * 512 ∈ ({rq3 c, rq5 c, rq7 c, rq9 c} : Finset ℕ) := by
    rw [rq_perm]
    simp only [Finset.mem_insert, Finset.mem_singleton]
    omega
  simpa only [Finset.mem_insert, Finset.mem_singleton] using hm

/-! ## The entry the final block has, by quadrant and chunk -/

theorem outAt_A (c : Dev nD) (i : S2048x512.Idx) (k₀ : Fin 8) (y : S64x512.Idx) (hq : (i 0).val / 512 * 512 = rq3 c) (hk : (i 0).val % 512 / 64 = k₀.val) (hy0 : (y 0).val = (i 0).val % 64) (hy1 : y 1 = i 1) :
    outAt m c i = k0_pay13 ((rxM : Memref sig .tc .vmem S8x64x512 .bf16).view.readAt (Elt F) (rect8 k₀) (RX m c)) ((xM : Memref sig .tc .vmem S1x2048x1024 .f32).view.readAt (Elt F) (Rect.unit (s := S1x2048x1024) (k0_off3 c (BitVec.ofNat 32 (64 * k₀.val))) S1x64x512.size (k0_off3_inb c k₀)).toLoadRect (xstg m c)) y := by
  have hk8 : (i 0).val % 512 / 64 < 8 := Nat.div_lt_of_lt_mul (Nat.mod_lt _ (by decide))
  obtain ⟨-, -, -, -, n35, n37, n39, n57, n59, n79⟩ := rq_facts c
  obtain rfl : k₀ = ⟨(i 0).val % 512 / 64, hk8⟩ := Fin.ext hk.symm
  obtain rfl : y = ix2 ⟨(i 0).val % 64, Nat.mod_lt _ (by decide)⟩ (i 1) := by
    funext a
    match a with
    | ⟨0, _⟩ => exact Fin.ext hy0
    | ⟨1, _⟩ => exact hy1
  unfold outAt
  dsimp only
  rw [if_pos hq]
  rfl

theorem outAt_B (c : Dev nD) (i : S2048x512.Idx) (k₀ : Fin 8) (y : S64x512.Idx) (hq : (i 0).val / 512 * 512 = rq5 c) (hk : (i 0).val % 512 / 64 = k₀.val) (hy0 : (y 0).val = (i 0).val % 64) (hy1 : y 1 = i 1) :
    outAt m c i = k0_pay13 ((rzdM : Memref sig .tc .vmem S8x64x512 .bf16).view.readAt (Elt F) (rect8 k₀) (RZD m c)) ((xM : Memref sig .tc .vmem S1x2048x1024 .f32).view.readAt (Elt F) (Rect.unit (s := S1x2048x1024) (k0_off5 c (BitVec.ofNat 32 (64 * k₀.val))) S1x64x512.size (k0_off5_inb c k₀)).toLoadRect (xstg m c)) y := by
  have hk8 : (i 0).val % 512 / 64 < 8 := Nat.div_lt_of_lt_mul (Nat.mod_lt _ (by decide))
  obtain ⟨-, -, -, -, n35, n37, n39, n57, n59, n79⟩ := rq_facts c
  obtain rfl : k₀ = ⟨(i 0).val % 512 / 64, hk8⟩ := Fin.ext hk.symm
  obtain rfl : y = ix2 ⟨(i 0).val % 64, Nat.mod_lt _ (by decide)⟩ (i 1) := by
    funext a
    match a with
    | ⟨0, _⟩ => exact Fin.ext hy0
    | ⟨1, _⟩ => exact hy1
  unfold outAt
  dsimp only
  rw [if_neg (by omega), if_pos hq]
  rfl

theorem outAt_C (c : Dev nD) (i : S2048x512.Idx) (k₀ : Fin 8) (y : S64x512.Idx) (hq : (i 0).val / 512 * 512 = rq7 c) (hk : (i 0).val % 512 / 64 = k₀.val) (hy0 : (y 0).val = (i 0).val % 64) (hy1 : y 1 = i 1) :
    outAt m c i = k0_pay13 ((rydM : Memref sig .tc .vmem S8x64x512 .bf16).view.readAt (Elt F) (rect8 k₀) (RYD m c)) ((xM : Memref sig .tc .vmem S1x2048x1024 .f32).view.readAt (Elt F) (Rect.unit (s := S1x2048x1024) (k0_off7 c (BitVec.ofNat 32 (64 * k₀.val))) S1x64x512.size (k0_off7_inb c k₀)).toLoadRect (xstg m c)) y := by
  have hk8 : (i 0).val % 512 / 64 < 8 := Nat.div_lt_of_lt_mul (Nat.mod_lt _ (by decide))
  obtain ⟨-, -, -, -, n35, n37, n39, n57, n59, n79⟩ := rq_facts c
  obtain rfl : k₀ = ⟨(i 0).val % 512 / 64, hk8⟩ := Fin.ext hk.symm
  obtain rfl : y = ix2 ⟨(i 0).val % 64, Nat.mod_lt _ (by decide)⟩ (i 1) := by
    funext a
    match a with
    | ⟨0, _⟩ => exact Fin.ext hy0
    | ⟨1, _⟩ => exact hy1
  unfold outAt
  dsimp only
  rw [if_neg (by omega), if_neg (by omega), if_pos hq]
  rfl

theorem outAt_E (c : Dev nD) (i : S2048x512.Idx) (k₀ : Fin 8) (y : S64x512.Idx) (i₀ : Fin 3) (hi : k₀.val = i₀.val) (hq : (i 0).val / 512 * 512 = rq9 c) (hk : (i 0).val % 512 / 64 = k₀.val) (hy0 : (y 0).val = (i 0).val % 64) (hy1 : y 1 = i 1) :
    outAt m c i = k0_pay13 ((ryrM : Memref sig .tc .vmem S3x64x512 .bf16).view.readAt (Elt F) (rect3 i₀) (RYR m c)) ((xM : Memref sig .tc .vmem S1x2048x1024 .f32).view.readAt (Elt F) (Rect.unit (s := S1x2048x1024) (k0_off9 c (BitVec.ofNat 32 (64 * k₀.val))) S1x64x512.size (k0_off9_inb c k₀)).toLoadRect (xstg m c)) y := by
  have h3 : (i 0).val % 512 / 64 < 3 := by have := i₀.isLt; omega
  have ei : (⟨(i 0).val % 512 / 64, h3⟩ : Fin 3) = i₀ := Fin.ext (by show (i 0).val % 512 / 64 = i₀.val; omega)
  have hk8 : (i 0).val % 512 / 64 < 8 := Nat.div_lt_of_lt_mul (Nat.mod_lt _ (by decide))
  obtain ⟨-, -, -, -, n35, n37, n39, n57, n59, n79⟩ := rq_facts c
  obtain rfl : k₀ = ⟨(i 0).val % 512 / 64, hk8⟩ := Fin.ext hk.symm
  obtain rfl : y = ix2 ⟨(i 0).val % 64, Nat.mod_lt _ (by decide)⟩ (i 1) := by
    funext a
    match a with
    | ⟨0, _⟩ => exact Fin.ext hy0
    | ⟨1, _⟩ => exact hy1
  unfold outAt
  dsimp only
  rw [if_neg (by omega), if_neg (by omega), if_neg (by omega), dif_pos h3, ei]
  rfl

theorem outAt_F (c : Dev nD) (i : S2048x512.Idx) (k₀ : Fin 8) (y : S64x512.Idx) (i₀ : Fin 3) (hi : k₀.val = 3 + i₀.val) (hq : (i 0).val / 512 * 512 = rq9 c) (hk : (i 0).val % 512 / 64 = k₀.val) (hy0 : (y 0).val = (i 0).val % 64) (hy1 : y 1 = i 1) :
    outAt m c i = k0_pay13 ((rzrM : Memref sig .tc .vmem S3x64x512 .bf16).view.readAt (Elt F) (rect3 i₀) (RZR m c)) ((xM : Memref sig .tc .vmem S1x2048x1024 .f32).view.readAt (Elt F) (Rect.unit (s := S1x2048x1024) (k0_off9 c (BitVec.ofNat 32 (64 * k₀.val))) S1x64x512.size (k0_off9_inb c k₀)).toLoadRect (xstg m c)) y := by
  have h3 : ¬ (i 0).val % 512 / 64 < 3 := by omega
  have h6 : (i 0).val % 512 / 64 < 6 := by have := i₀.isLt; omega
  have h33 : (i 0).val % 512 / 64 - 3 < 3 := by omega
  have ei : (⟨(i 0).val % 512 / 64 - 3, h33⟩ : Fin 3) = i₀ := Fin.ext (by show (i 0).val % 512 / 64 - 3 = i₀.val; omega)
  have hk8 : (i 0).val % 512 / 64 < 8 := Nat.div_lt_of_lt_mul (Nat.mod_lt _ (by decide))
  obtain ⟨-, -, -, -, n35, n37, n39, n57, n59, n79⟩ := rq_facts c
  obtain rfl : k₀ = ⟨(i 0).val % 512 / 64, hk8⟩ := Fin.ext hk.symm
  obtain rfl : y = ix2 ⟨(i 0).val % 64, Nat.mod_lt _ (by decide)⟩ (i 1) := by
    funext a
    match a with
    | ⟨0, _⟩ => exact Fin.ext hy0
    | ⟨1, _⟩ => exact hy1
  unfold outAt
  dsimp only
  rw [if_neg (by omega), if_neg (by omega), if_neg (by omega), dif_neg h3, dif_pos h6, ei]
  rfl

theorem outAt_D (c : Dev nD) (i : S2048x512.Idx) (k₀ : Fin 8) (y : S64x512.Idx) (j : Fin 2) (hj : k₀.val = 6 + j.val) (hq : (i 0).val / 512 * 512 = rq9 c) (hk : (i 0).val % 512 / 64 = k₀.val) (hy0 : (y 0).val = (i 0).val % 64) (hy1 : y 1 = i 1) :
    outAt m c i = k0_pay13 ((rx2M : Memref sig .tc .vmem S2x64x512 .bf16).view.readAt (Elt F) (rect2 j) (RX2 m c)) ((xM : Memref sig .tc .vmem S1x2048x1024 .f32).view.readAt (Elt F) (Rect.unit (s := S1x2048x1024) (k0_off9 c (BitVec.ofNat 32 (64 * k₀.val))) S1x64x512.size (k0_off9_inb c k₀)).toLoadRect (xstg m c)) y := by
  have h3 : ¬ (i 0).val % 512 / 64 < 3 := by omega
  have h6 : ¬ (i 0).val % 512 / 64 < 6 := by omega
  have h62 : (i 0).val % 512 / 64 - 6 < 2 := by have := j.isLt; omega
  have ej : (⟨(i 0).val % 512 / 64 - 6, h62⟩ : Fin 2) = j := Fin.ext (by show (i 0).val % 512 / 64 - 6 = j.val; omega)
  have hk8 : (i 0).val % 512 / 64 < 8 := Nat.div_lt_of_lt_mul (Nat.mod_lt _ (by decide))
  obtain ⟨-, -, -, -, n35, n37, n39, n57, n59, n79⟩ := rq_facts c
  obtain rfl : k₀ = ⟨(i 0).val % 512 / 64, hk8⟩ := Fin.ext hk.symm
  obtain rfl : y = ix2 ⟨(i 0).val % 64, Nat.mod_lt _ (by decide)⟩ (i 1) := by
    funext a
    match a with
    | ⟨0, _⟩ => exact Fin.ext hy0
    | ⟨1, _⟩ => exact hy1
  unfold outAt
  dsimp only
  rw [if_neg (by omega), if_neg (by omega), if_neg (by omega), dif_neg h3, dif_neg h6, ej]
  rfl

/-! ## One store, read at an entry

A store covers the 64 rows of one chunk of one quadrant. At an entry in those rows it leaves the entry the final block
has there; at any other entry it changes nothing. -/

theorem stepA (c : Dev nD) (k₀ : Fin 8) (f : (cc0_stg1_0 : Ref sig .tc).ty.Contents (Elt F)) (i : S2048x512.Idx) :
    outStep c f (k0_off4 c (BitVec.ofNat 32 (64 * k₀.val))) (k0_off4_inb c k₀)
        ((rxM : Memref sig .tc .vmem S8x64x512 .bf16).view.readAt (Elt F) (rect8 k₀) (RX m c))
        ((xM : Memref sig .tc .vmem S1x2048x1024 .f32).view.readAt (Elt F) (Rect.unit (s := S1x2048x1024) (k0_off3 c (BitVec.ofNat 32 (64 * k₀.val))) S1x64x512.size (k0_off3_inb c k₀)).toLoadRect (xstg m c)) i
      = if rq3 c + 64 * k₀.val ≤ (i 0).val ∧ (i 0).val < rq3 c + 64 * k₀.val + 64 then outAt m c i else f i := by
  have e0 : (k0_off4 c (BitVec.ofNat 32 (64 * k₀.val))) 0 = rq3 c + 64 * k₀.val := (off4_row c k₀).trans (off3_row c k₀)
  have e1 : (k0_off4 c (BitVec.ofNat 32 (64 * k₀.val))) 1 = 0 := off4_col c k₀
  have hk : k₀.val < 8 := k₀.isLt
  obtain ⟨v, -⟩ := rq_facts c
  split
  · next h =>
    have hlt : (i 0).val - (rq3 c + 64 * k₀.val) < 64 := by omega
    rw [outAt_A m c i k₀ (ix2 ⟨(i 0).val - (rq3 c + 64 * k₀.val), hlt⟩ (i 1)) (by omega) (by omega)
      (by show (i 0).val - (rq3 c + 64 * k₀.val) = (i 0).val % 64; omega) rfl]
    exact outStep_hit c f _ _ _ _ i _
      (by rw [e0]; show (i 0).val = rq3 c + 64 * k₀.val + ((i 0).val - (rq3 c + 64 * k₀.val)); omega)
      (by rw [e1]; show (i 1).val = 0 + (i 1).val; omega)
  · next h => exact outStep_miss c f _ _ _ _ i (by rw [e0]; omega)

theorem stepB (c : Dev nD) (k₀ : Fin 8) (f : (cc0_stg1_0 : Ref sig .tc).ty.Contents (Elt F)) (i : S2048x512.Idx) :
    outStep c f (k0_off6 c (BitVec.ofNat 32 (64 * k₀.val))) (k0_off6_inb c k₀)
        ((rzdM : Memref sig .tc .vmem S8x64x512 .bf16).view.readAt (Elt F) (rect8 k₀) (RZD m c))
        ((xM : Memref sig .tc .vmem S1x2048x1024 .f32).view.readAt (Elt F) (Rect.unit (s := S1x2048x1024) (k0_off5 c (BitVec.ofNat 32 (64 * k₀.val))) S1x64x512.size (k0_off5_inb c k₀)).toLoadRect (xstg m c)) i
      = if rq5 c + 64 * k₀.val ≤ (i 0).val ∧ (i 0).val < rq5 c + 64 * k₀.val + 64 then outAt m c i else f i := by
  have e0 : (k0_off6 c (BitVec.ofNat 32 (64 * k₀.val))) 0 = rq5 c + 64 * k₀.val := (off6_row c k₀).trans (off5_row c k₀)
  have e1 : (k0_off6 c (BitVec.ofNat 32 (64 * k₀.val))) 1 = 0 := off6_col c k₀
  have hk : k₀.val < 8 := k₀.isLt
  obtain ⟨-, v, -⟩ := rq_facts c
  split
  · next h =>
    have hlt : (i 0).val - (rq5 c + 64 * k₀.val) < 64 := by omega
    rw [outAt_B m c i k₀ (ix2 ⟨(i 0).val - (rq5 c + 64 * k₀.val), hlt⟩ (i 1)) (by omega) (by omega)
      (by show (i 0).val - (rq5 c + 64 * k₀.val) = (i 0).val % 64; omega) rfl]
    exact outStep_hit c f _ _ _ _ i _
      (by rw [e0]; show (i 0).val = rq5 c + 64 * k₀.val + ((i 0).val - (rq5 c + 64 * k₀.val)); omega)
      (by rw [e1]; show (i 1).val = 0 + (i 1).val; omega)
  · next h => exact outStep_miss c f _ _ _ _ i (by rw [e0]; omega)

theorem stepC (c : Dev nD) (k₀ : Fin 8) (f : (cc0_stg1_0 : Ref sig .tc).ty.Contents (Elt F)) (i : S2048x512.Idx) :
    outStep c f (k0_off8 c (BitVec.ofNat 32 (64 * k₀.val))) (k0_off8_inb c k₀)
        ((rydM : Memref sig .tc .vmem S8x64x512 .bf16).view.readAt (Elt F) (rect8 k₀) (RYD m c))
        ((xM : Memref sig .tc .vmem S1x2048x1024 .f32).view.readAt (Elt F) (Rect.unit (s := S1x2048x1024) (k0_off7 c (BitVec.ofNat 32 (64 * k₀.val))) S1x64x512.size (k0_off7_inb c k₀)).toLoadRect (xstg m c)) i
      = if rq7 c + 64 * k₀.val ≤ (i 0).val ∧ (i 0).val < rq7 c + 64 * k₀.val + 64 then outAt m c i else f i := by
  have e0 : (k0_off8 c (BitVec.ofNat 32 (64 * k₀.val))) 0 = rq7 c + 64 * k₀.val := (off8_row c k₀).trans (off7_row c k₀)
  have e1 : (k0_off8 c (BitVec.ofNat 32 (64 * k₀.val))) 1 = 0 := off8_col c k₀
  have hk : k₀.val < 8 := k₀.isLt
  obtain ⟨-, -, v, -⟩ := rq_facts c
  split
  · next h =>
    have hlt : (i 0).val - (rq7 c + 64 * k₀.val) < 64 := by omega
    rw [outAt_C m c i k₀ (ix2 ⟨(i 0).val - (rq7 c + 64 * k₀.val), hlt⟩ (i 1)) (by omega) (by omega)
      (by show (i 0).val - (rq7 c + 64 * k₀.val) = (i 0).val % 64; omega) rfl]
    exact outStep_hit c f _ _ _ _ i _
      (by rw [e0]; show (i 0).val = rq7 c + 64 * k₀.val + ((i 0).val - (rq7 c + 64 * k₀.val)); omega)
      (by rw [e1]; show (i 1).val = 0 + (i 1).val; omega)
  · next h => exact outStep_miss c f _ _ _ _ i (by rw [e0]; omega)

theorem stepD (c : Dev nD) (k₀ : Fin 8) (j : Fin 2) (hj : k₀.val = 6 + j.val) (f : (cc0_stg1_0 : Ref sig .tc).ty.Contents (Elt F))
    (i : S2048x512.Idx) :
    outStep c f (k0_off10 c (BitVec.ofNat 32 (64 * k₀.val))) (k0_off10_inb c k₀)
        ((rx2M : Memref sig .tc .vmem S2x64x512 .bf16).view.readAt (Elt F) (rect2 j) (RX2 m c))
        ((xM : Memref sig .tc .vmem S1x2048x1024 .f32).view.readAt (Elt F) (Rect.unit (s := S1x2048x1024) (k0_off9 c (BitVec.ofNat 32 (64 * k₀.val))) S1x64x512.size (k0_off9_inb c k₀)).toLoadRect (xstg m c)) i
      = if rq9 c + 64 * k₀.val ≤ (i 0).val ∧ (i 0).val < rq9 c + 64 * k₀.val + 64 then outAt m c i else f i := by
  have e0 : (k0_off10 c (BitVec.ofNat 32 (64 * k₀.val))) 0 = rq9 c + 64 * k₀.val := (off10_row c k₀).trans (off9_row c k₀)
  have e1 : (k0_off10 c (BitVec.ofNat 32 (64 * k₀.val))) 1 = 0 := off10_col c k₀
  have hk : k₀.val < 8 := k₀.isLt
  obtain ⟨-, -, -, v, -⟩ := rq_facts c
  split
  · next h =>
    have hlt : (i 0).val - (rq9 c + 64 * k₀.val) < 64 := by omega
    rw [outAt_D m c i k₀ (ix2 ⟨(i 0).val - (rq9 c + 64 * k₀.val), hlt⟩ (i 1)) j hj (by omega) (by omega)
      (by show (i 0).val - (rq9 c + 64 * k₀.val) = (i 0).val % 64; omega) rfl]
    exact outStep_hit c f _ _ _ _ i _
      (by rw [e0]; show (i 0).val = rq9 c + 64 * k₀.val + ((i 0).val - (rq9 c + 64 * k₀.val)); omega)
      (by rw [e1]; show (i 1).val = 0 + (i 1).val; omega)
  · next h => exact outStep_miss c f _ _ _ _ i (by rw [e0]; omega)

theorem stepE (c : Dev nD) (k₀ : Fin 8) (i₀ : Fin 3) (hj : k₀.val = i₀.val) (f : (cc0_stg1_0 : Ref sig .tc).ty.Contents (Elt F))
    (i : S2048x512.Idx) :
    outStep c f (k0_off10 c (BitVec.ofNat 32 (64 * k₀.val))) (k0_off10_inb c k₀)
        ((ryrM : Memref sig .tc .vmem S3x64x512 .bf16).view.readAt (Elt F) (rect3 i₀) (RYR m c))
        ((xM : Memref sig .tc .vmem S1x2048x1024 .f32).view.readAt (Elt F) (Rect.unit (s := S1x2048x1024) (k0_off9 c (BitVec.ofNat 32 (64 * k₀.val))) S1x64x512.size (k0_off9_inb c k₀)).toLoadRect (xstg m c)) i
      = if rq9 c + 64 * k₀.val ≤ (i 0).val ∧ (i 0).val < rq9 c + 64 * k₀.val + 64 then outAt m c i else f i := by
  have e0 : (k0_off10 c (BitVec.ofNat 32 (64 * k₀.val))) 0 = rq9 c + 64 * k₀.val := (off10_row c k₀).trans (off9_row c k₀)
  have e1 : (k0_off10 c (BitVec.ofNat 32 (64 * k₀.val))) 1 = 0 := off10_col c k₀
  have hk : k₀.val < 8 := k₀.isLt
  obtain ⟨-, -, -, v, -⟩ := rq_facts c
  split
  · next h =>
    have hlt : (i 0).val - (rq9 c + 64 * k₀.val) < 64 := by omega
    rw [outAt_E m c i k₀ (ix2 ⟨(i 0).val - (rq9 c + 64 * k₀.val), hlt⟩ (i 1)) i₀ hj (by omega) (by omega)
      (by show (i 0).val - (rq9 c + 64 * k₀.val) = (i 0).val % 64; omega) rfl]
    exact outStep_hit c f _ _ _ _ i _
      (by rw [e0]; show (i 0).val = rq9 c + 64 * k₀.val + ((i 0).val - (rq9 c + 64 * k₀.val)); omega)
      (by rw [e1]; show (i 1).val = 0 + (i 1).val; omega)
  · next h => exact outStep_miss c f _ _ _ _ i (by rw [e0]; omega)

theorem stepF (c : Dev nD) (k₀ : Fin 8) (i₀ : Fin 3) (hj : k₀.val = 3 + i₀.val) (f : (cc0_stg1_0 : Ref sig .tc).ty.Contents (Elt F))
    (i : S2048x512.Idx) :
    outStep c f (k0_off10 c (BitVec.ofNat 32 (64 * k₀.val))) (k0_off10_inb c k₀)
        ((rzrM : Memref sig .tc .vmem S3x64x512 .bf16).view.readAt (Elt F) (rect3 i₀) (RZR m c))
        ((xM : Memref sig .tc .vmem S1x2048x1024 .f32).view.readAt (Elt F) (Rect.unit (s := S1x2048x1024) (k0_off9 c (BitVec.ofNat 32 (64 * k₀.val))) S1x64x512.size (k0_off9_inb c k₀)).toLoadRect (xstg m c)) i
      = if rq9 c + 64 * k₀.val ≤ (i 0).val ∧ (i 0).val < rq9 c + 64 * k₀.val + 64 then outAt m c i else f i := by
  have e0 : (k0_off10 c (BitVec.ofNat 32 (64 * k₀.val))) 0 = rq9 c + 64 * k₀.val := (off10_row c k₀).trans (off9_row c k₀)
  have e1 : (k0_off10 c (BitVec.ofNat 32 (64 * k₀.val))) 1 = 0 := off10_col c k₀
  have hk : k₀.val < 8 := k₀.isLt
  obtain ⟨-, -, -, v, -⟩ := rq_facts c
  split
  · next h =>
    have hlt : (i 0).val - (rq9 c + 64 * k₀.val) < 64 := by omega
    rw [outAt_F m c i k₀ (ix2 ⟨(i 0).val - (rq9 c + 64 * k₀.val), hlt⟩ (i 1)) i₀ hj (by omega) (by omega)
      (by show (i 0).val - (rq9 c + 64 * k₀.val) = (i 0).val % 64; omega) rfl]
    exact outStep_hit c f _ _ _ _ i _
      (by rw [e0]; show (i 0).val = rq9 c + 64 * k₀.val + ((i 0).val - (rq9 c + 64 * k₀.val)); omega)
      (by rw [e1]; show (i 1).val = 0 + (i 1).val; omega)
  · next h => exact outStep_miss c f _ _ _ _ i (by rw [e0]; omega)

/-! ## The 32 stores in program order, and what they leave

Eight chunks of the own quadrant; then, chunk by chunk, the z peer's and the y peer's quadrant; then the diagonal
quadrant: its two directly received chunks, the three forwarded by the y peer and the three forwarded by the z peer.
The 32 row ranges are the eight chunks of each of the four quadrants, so every entry is decided by exactly one store. -/

/-- The result block after the body's 32 stores, from the contents fo it started with. -/
def outW (c : Dev nD) (fo : (cc0_stg1_0 : Ref sig .tc).ty.Contents (Elt F)) : (cc0_stg1_0 : Ref sig .tc).ty.Contents (Elt F) :=
  (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c fo
    (k0_off4 c (BitVec.ofNat 32 (64 * (0 : Fin 8).val))) (k0_off4_inb c 0)
    ((rxM : Memref sig .tc .vmem S8x64x512 .bf16).view.readAt (Elt F) (rect8 (0 : Fin 8)) (RX m c))
    ((xM : Memref sig .tc .vmem S1x2048x1024 .f32).view.readAt (Elt F) (Rect.unit (s := S1x2048x1024) (k0_off3 c (BitVec.ofNat 32 (64 * (0 : Fin 8).val))) S1x64x512.size (k0_off3_inb c (0 : Fin 8))).toLoadRect (xstg m c)))
    (k0_off4 c (BitVec.ofNat 32 (64 * (1 : Fin 8).val))) (k0_off4_inb c 1)
    ((rxM : Memref sig .tc .vmem S8x64x512 .bf16).view.readAt (Elt F) (rect8 (1 : Fin 8)) (RX m c))
    ((xM : Memref sig .tc .vmem S1x2048x1024 .f32).view.readAt (Elt F) (Rect.unit (s := S1x2048x1024) (k0_off3 c (BitVec.ofNat 32 (64 * (1 : Fin 8).val))) S1x64x512.size (k0_off3_inb c (1 : Fin 8))).toLoadRect (xstg m c)))
    (k0_off4 c (BitVec.ofNat 32 (64 * (2 : Fin 8).val))) (k0_off4_inb c 2)
    ((rxM : Memref sig .tc .vmem S8x64x512 .bf16).view.readAt (Elt F) (rect8 (2 : Fin 8)) (RX m c))
    ((xM : Memref sig .tc .vmem S1x2048x1024 .f32).view.readAt (Elt F) (Rect.unit (s := S1x2048x1024) (k0_off3 c (BitVec.ofNat 32 (64 * (2 : Fin 8).val))) S1x64x512.size (k0_off3_inb c (2 : Fin 8))).toLoadRect (xstg m c)))
    (k0_off4 c (BitVec.ofNat 32 (64 * (3 : Fin 8).val))) (k0_off4_inb c 3)
    ((rxM : Memref sig .tc .vmem S8x64x512 .bf16).view.readAt (Elt F) (rect8 (3 : Fin 8)) (RX m c))
    ((xM : Memref sig .tc .vmem S1x2048x1024 .f32).view.readAt (Elt F) (Rect.unit (s := S1x2048x1024) (k0_off3 c (BitVec.ofNat 32 (64 * (3 : Fin 8).val))) S1x64x512.size (k0_off3_inb c (3 : Fin 8))).toLoadRect (xstg m c)))
    (k0_off4 c (BitVec.ofNat 32 (64 * (4 : Fin 8).val))) (k0_off4_inb c 4)
    ((rxM : Memref sig .tc .vmem S8x64x512 .bf16).view.readAt (Elt F) (rect8 (4 : Fin 8)) (RX m c))
    ((xM : Memref sig .tc .vmem S1x2048x1024 .f32).view.readAt (Elt F) (Rect.unit (s := S1x2048x1024) (k0_off3 c (BitVec.ofNat 32 (64 * (4 : Fin 8).val))) S1x64x512.size (k0_off3_inb c (4 : Fin 8))).toLoadRect (xstg m c)))
    (k0_off4 c (BitVec.ofNat 32 (64 * (5 : Fin 8).val))) (k0_off4_inb c 5)
    ((rxM : Memref sig .tc .vmem S8x64x512 .bf16).view.readAt (Elt F) (rect8 (5 : Fin 8)) (RX m c))
    ((xM : Memref sig .tc .vmem S1x2048x1024 .f32).view.readAt (Elt F) (Rect.unit (s := S1x2048x1024) (k0_off3 c (BitVec.ofNat 32 (64 * (5 : Fin 8).val))) S1x64x512.size (k0_off3_inb c (5 : Fin 8))).toLoadRect (xstg m c)))
    (k0_off4 c (BitVec.ofNat 32 (64 * (6 : Fin 8).val))) (k0_off4_inb c 6)
    ((rxM : Memref sig .tc .vmem S8x64x512 .bf16).view.readAt (Elt F) (rect8 (6 : Fin 8)) (RX m c))
    ((xM : Memref sig .tc .vmem S1x2048x1024 .f32).view.readAt (Elt F) (Rect.unit (s := S1x2048x1024) (k0_off3 c (BitVec.ofNat 32 (64 * (6 : Fin 8).val))) S1x64x512.size (k0_off3_inb c (6 : Fin 8))).toLoadRect (xstg m c)))
    (k0_off4 c (BitVec.ofNat 32 (64 * (7 : Fin 8).val))) (k0_off4_inb c 7)
    ((rxM : Memref sig .tc .vmem S8x64x512 .bf16).view.readAt (Elt F) (rect8 (7 : Fin 8)) (RX m c))
    ((xM : Memref sig .tc .vmem S1x2048x1024 .f32).view.readAt (Elt F) (Rect.unit (s := S1x2048x1024) (k0_off3 c (BitVec.ofNat 32 (64 * (7 : Fin 8).val))) S1x64x512.size (k0_off3_inb c (7 : Fin 8))).toLoadRect (xstg m c)))
    (k0_off6 c (BitVec.ofNat 32 (64 * (0 : Fin 8).val))) (k0_off6_inb c 0)
    ((rzdM : Memref sig .tc .vmem S8x64x512 .bf16).view.readAt (Elt F) (rect8 (0 : Fin 8)) (RZD m c))
    ((xM : Memref sig .tc .vmem S1x2048x1024 .f32).view.readAt (Elt F) (Rect.unit (s := S1x2048x1024) (k0_off5 c (BitVec.ofNat 32 (64 * (0 : Fin 8).val))) S1x64x512.size (k0_off5_inb c (0 : Fin 8))).toLoadRect (xstg m c)))
    (k0_off8 c (BitVec.ofNat 32 (64 * (0 : Fin 8).val))) (k0_off8_inb c 0)
    ((rydM : Memref sig .tc .vmem S8x64x512 .bf16).view.readAt (Elt F) (rect8 (0 : Fin 8)) (RYD m c))
    ((xM : Memref sig .tc .vmem S1x2048x1024 .f32).view.readAt (Elt F) (Rect.unit (s := S1x2048x1024) (k0_off7 c (BitVec.ofNat 32 (64 * (0 : Fin 8).val))) S1x64x512.size (k0_off7_inb c (0 : Fin 8))).toLoadRect (xstg m c)))
    (k0_off6 c (BitVec.ofNat 32 (64 * (1 : Fin 8).val))) (k0_off6_inb c 1)
    ((rzdM : Memref sig .tc .vmem S8x64x512 .bf16).view.readAt (Elt F) (rect8 (1 : Fin 8)) (RZD m c))
    ((xM : Memref sig .tc .vmem S1x2048x1024 .f32).view.readAt (Elt F) (Rect.unit (s := S1x2048x1024) (k0_off5 c (BitVec.ofNat 32 (64 * (1 : Fin 8).val))) S1x64x512.size (k0_off5_inb c (1 : Fin 8))).toLoadRect (xstg m c)))
    (k0_off8 c (BitVec.ofNat 32 (64 * (1 : Fin 8).val))) (k0_off8_inb c 1)
    ((rydM : Memref sig .tc .vmem S8x64x512 .bf16).view.readAt (Elt F) (rect8 (1 : Fin 8)) (RYD m c))
    ((xM : Memref sig .tc .vmem S1x2048x1024 .f32).view.readAt (Elt F) (Rect.unit (s := S1x2048x1024) (k0_off7 c (BitVec.ofNat 32 (64 * (1 : Fin 8).val))) S1x64x512.size (k0_off7_inb c (1 : Fin 8))).toLoadRect (xstg m c)))
    (k0_off6 c (BitVec.ofNat 32 (64 * (2 : Fin 8).val))) (k0_off6_inb c 2)
    ((rzdM : Memref sig .tc .vmem S8x64x512 .bf16).view.readAt (Elt F) (rect8 (2 : Fin 8)) (RZD m c))
    ((xM : Memref sig .tc .vmem S1x2048x1024 .f32).view.readAt (Elt F) (Rect.unit (s := S1x2048x1024) (k0_off5 c (BitVec.ofNat 32 (64 * (2 : Fin 8).val))) S1x64x512.size (k0_off5_inb c (2 : Fin 8))).toLoadRect (xstg m c)))
    (k0_off8 c (BitVec.ofNat 32 (64 * (2 : Fin 8).val))) (k0_off8_inb c 2)
    ((rydM : Memref sig .tc .vmem S8x64x512 .bf16).view.readAt (Elt F) (rect8 (2 : Fin 8)) (RYD m c))
    ((xM : Memref sig .tc .vmem S1x2048x1024 .f32).view.readAt (Elt F) (Rect.unit (s := S1x2048x1024) (k0_off7 c (BitVec.ofNat 32 (64 * (2 : Fin 8).val))) S1x64x512.size (k0_off7_inb c (2 : Fin 8))).toLoadRect (xstg m c)))
    (k0_off6 c (BitVec.ofNat 32 (64 * (3 : Fin 8).val))) (k0_off6_inb c 3)
    ((rzdM : Memref sig .tc .vmem S8x64x512 .bf16).view.readAt (Elt F) (rect8 (3 : Fin 8)) (RZD m c))
    ((xM : Memref sig .tc .vmem S1x2048x1024 .f32).view.readAt (Elt F) (Rect.unit (s := S1x2048x1024) (k0_off5 c (BitVec.ofNat 32 (64 * (3 : Fin 8).val))) S1x64x512.size (k0_off5_inb c (3 : Fin 8))).toLoadRect (xstg m c)))
    (k0_off8 c (BitVec.ofNat 32 (64 * (3 : Fin 8).val))) (k0_off8_inb c 3)
    ((rydM : Memref sig .tc .vmem S8x64x512 .bf16).view.readAt (Elt F) (rect8 (3 : Fin 8)) (RYD m c))
    ((xM : Memref sig .tc .vmem S1x2048x1024 .f32).view.readAt (Elt F) (Rect.unit (s := S1x2048x1024) (k0_off7 c (BitVec.ofNat 32 (64 * (3 : Fin 8).val))) S1x64x512.size (k0_off7_inb c (3 : Fin 8))).toLoadRect (xstg m c)))
    (k0_off6 c (BitVec.ofNat 32 (64 * (4 : Fin 8).val))) (k0_off6_inb c 4)
    ((rzdM : Memref sig .tc .vmem S8x64x512 .bf16).view.readAt (Elt F) (rect8 (4 : Fin 8)) (RZD m c))
    ((xM : Memref sig .tc .vmem S1x2048x1024 .f32).view.readAt (Elt F) (Rect.unit (s := S1x2048x1024) (k0_off5 c (BitVec.ofNat 32 (64 * (4 : Fin 8).val))) S1x64x512.size (k0_off5_inb c (4 : Fin 8))).toLoadRect (xstg m c)))
    (k0_off8 c (BitVec.ofNat 32 (64 * (4 : Fin 8).val))) (k0_off8_inb c 4)
    ((rydM : Memref sig .tc .vmem S8x64x512 .bf16).view.readAt (Elt F) (rect8 (4 : Fin 8)) (RYD m c))
    ((xM : Memref sig .tc .vmem S1x2048x1024 .f32).view.readAt (Elt F) (Rect.unit (s := S1x2048x1024) (k0_off7 c (BitVec.ofNat 32 (64 * (4 : Fin 8).val))) S1x64x512.size (k0_off7_inb c (4 : Fin 8))).toLoadRect (xstg m c)))
    (k0_off6 c (BitVec.ofNat 32 (64 * (5 : Fin 8).val))) (k0_off6_inb c 5)
    ((rzdM : Memref sig .tc .vmem S8x64x512 .bf16).view.readAt (Elt F) (rect8 (5 : Fin 8)) (RZD m c))
    ((xM : Memref sig .tc .vmem S1x2048x1024 .f32).view.readAt (Elt F) (Rect.unit (s := S1x2048x1024) (k0_off5 c (BitVec.ofNat 32 (64 * (5 : Fin 8).val))) S1x64x512.size (k0_off5_inb c (5 : Fin 8))).toLoadRect (xstg m c)))
    (k0_off8 c (BitVec.ofNat 32 (64 * (5 : Fin 8).val))) (k0_off8_inb c 5)
    ((rydM : Memref sig .tc .vmem S8x64x512 .bf16).view.readAt (Elt F) (rect8 (5 : Fin 8)) (RYD m c))
    ((xM : Memref sig .tc .vmem S1x2048x1024 .f32).view.readAt (Elt F) (Rect.unit (s := S1x2048x1024) (k0_off7 c (BitVec.ofNat 32 (64 * (5 : Fin 8).val))) S1x64x512.size (k0_off7_inb c (5 : Fin 8))).toLoadRect (xstg m c)))
    (k0_off6 c (BitVec.ofNat 32 (64 * (6 : Fin 8).val))) (k0_off6_inb c 6)
    ((rzdM : Memref sig .tc .vmem S8x64x512 .bf16).view.readAt (Elt F) (rect8 (6 : Fin 8)) (RZD m c))
    ((xM : Memref sig .tc .vmem S1x2048x1024 .f32).view.readAt (Elt F) (Rect.unit (s := S1x2048x1024) (k0_off5 c (BitVec.ofNat 32 (64 * (6 : Fin 8).val))) S1x64x512.size (k0_off5_inb c (6 : Fin 8))).toLoadRect (xstg m c)))
    (k0_off8 c (BitVec.ofNat 32 (64 * (6 : Fin 8).val))) (k0_off8_inb c 6)
    ((rydM : Memref sig .tc .vmem S8x64x512 .bf16).view.readAt (Elt F) (rect8 (6 : Fin 8)) (RYD m c))
    ((xM : Memref sig .tc .vmem S1x2048x1024 .f32).view.readAt (Elt F) (Rect.unit (s := S1x2048x1024) (k0_off7 c (BitVec.ofNat 32 (64 * (6 : Fin 8).val))) S1x64x512.size (k0_off7_inb c (6 : Fin 8))).toLoadRect (xstg m c)))
    (k0_off6 c (BitVec.ofNat 32 (64 * (7 : Fin 8).val))) (k0_off6_inb c 7)
    ((rzdM : Memref sig .tc .vmem S8x64x512 .bf16).view.readAt (Elt F) (rect8 (7 : Fin 8)) (RZD m c))
    ((xM : Memref sig .tc .vmem S1x2048x1024 .f32).view.readAt (Elt F) (Rect.unit (s := S1x2048x1024) (k0_off5 c (BitVec.ofNat 32 (64 * (7 : Fin 8).val))) S1x64x512.size (k0_off5_inb c (7 : Fin 8))).toLoadRect (xstg m c)))
    (k0_off8 c (BitVec.ofNat 32 (64 * (7 : Fin 8).val))) (k0_off8_inb c 7)
    ((rydM : Memref sig .tc .vmem S8x64x512 .bf16).view.readAt (Elt F) (rect8 (7 : Fin 8)) (RYD m c))
    ((xM : Memref sig .tc .vmem S1x2048x1024 .f32).view.readAt (Elt F) (Rect.unit (s := S1x2048x1024) (k0_off7 c (BitVec.ofNat 32 (64 * (7 : Fin 8).val))) S1x64x512.size (k0_off7_inb c (7 : Fin 8))).toLoadRect (xstg m c)))
    (k0_off10 c (BitVec.ofNat 32 (64 * (6 : Fin 8).val))) (k0_off10_inb c 6)
    ((rx2M : Memref sig .tc .vmem S2x64x512 .bf16).view.readAt (Elt F) (rect2 (0 : Fin 2)) (RX2 m c))
    ((xM : Memref sig .tc .vmem S1x2048x1024 .f32).view.readAt (Elt F) (Rect.unit (s := S1x2048x1024) (k0_off9 c (BitVec.ofNat 32 (64 * (6 : Fin 8).val))) S1x64x512.size (k0_off9_inb c (6 : Fin 8))).toLoadRect (xstg m c)))
    (k0_off10 c (BitVec.ofNat 32 (64 * (7 : Fin 8).val))) (k0_off10_inb c 7)
    ((rx2M : Memref sig .tc .vmem S2x64x512 .bf16).view.readAt (Elt F) (rect2 (1 : Fin 2)) (RX2 m c))
    ((xM : Memref sig .tc .vmem S1x2048x1024 .f32).view.readAt (Elt F) (Rect.unit (s := S1x2048x1024) (k0_off9 c (BitVec.ofNat 32 (64 * (7 : Fin 8).val))) S1x64x512.size (k0_off9_inb c (7 : Fin 8))).toLoadRect (xstg m c)))
    (k0_off10 c (BitVec.ofNat 32 (64 * (0 : Fin 8).val))) (k0_off10_inb c 0)
    ((ryrM : Memref sig .tc .vmem S3x64x512 .bf16).view.readAt (Elt F) (rect3 (0 : Fin 3)) (RYR m c))
    ((xM : Memref sig .tc .vmem S1x2048x1024 .f32).view.readAt (Elt F) (Rect.unit (s := S1x2048x1024) (k0_off9 c (BitVec.ofNat 32 (64 * (0 : Fin 8).val))) S1x64x512.size (k0_off9_inb c (0 : Fin 8))).toLoadRect (xstg m c)))
    (k0_off10 c (BitVec.ofNat 32 (64 * (1 : Fin 8).val))) (k0_off10_inb c 1)
    ((ryrM : Memref sig .tc .vmem S3x64x512 .bf16).view.readAt (Elt F) (rect3 (1 : Fin 3)) (RYR m c))
    ((xM : Memref sig .tc .vmem S1x2048x1024 .f32).view.readAt (Elt F) (Rect.unit (s := S1x2048x1024) (k0_off9 c (BitVec.ofNat 32 (64 * (1 : Fin 8).val))) S1x64x512.size (k0_off9_inb c (1 : Fin 8))).toLoadRect (xstg m c)))
    (k0_off10 c (BitVec.ofNat 32 (64 * (2 : Fin 8).val))) (k0_off10_inb c 2)
    ((ryrM : Memref sig .tc .vmem S3x64x512 .bf16).view.readAt (Elt F) (rect3 (2 : Fin 3)) (RYR m c))
    ((xM : Memref sig .tc .vmem S1x2048x1024 .f32).view.readAt (Elt F) (Rect.unit (s := S1x2048x1024) (k0_off9 c (BitVec.ofNat 32 (64 * (2 : Fin 8).val))) S1x64x512.size (k0_off9_inb c (2 : Fin 8))).toLoadRect (xstg m c)))
    (k0_off10 c (BitVec.ofNat 32 (64 * (3 : Fin 8).val))) (k0_off10_inb c 3)
    ((rzrM : Memref sig .tc .vmem S3x64x512 .bf16).view.readAt (Elt F) (rect3 (0 : Fin 3)) (RZR m c))
    ((xM : Memref sig .tc .vmem S1x2048x1024 .f32).view.readAt (Elt F) (Rect.unit (s := S1x2048x1024) (k0_off9 c (BitVec.ofNat 32 (64 * (3 : Fin 8).val))) S1x64x512.size (k0_off9_inb c (3 : Fin 8))).toLoadRect (xstg m c)))
    (k0_off10 c (BitVec.ofNat 32 (64 * (4 : Fin 8).val))) (k0_off10_inb c 4)
    ((rzrM : Memref sig .tc .vmem S3x64x512 .bf16).view.readAt (Elt F) (rect3 (1 : Fin 3)) (RZR m c))
    ((xM : Memref sig .tc .vmem S1x2048x1024 .f32).view.readAt (Elt F) (Rect.unit (s := S1x2048x1024) (k0_off9 c (BitVec.ofNat 32 (64 * (4 : Fin 8).val))) S1x64x512.size (k0_off9_inb c (4 : Fin 8))).toLoadRect (xstg m c)))
    (k0_off10 c (BitVec.ofNat 32 (64 * (5 : Fin 8).val))) (k0_off10_inb c 5)
    ((rzrM : Memref sig .tc .vmem S3x64x512 .bf16).view.readAt (Elt F) (rect3 (2 : Fin 3)) (RZR m c))
    ((xM : Memref sig .tc .vmem S1x2048x1024 .f32).view.readAt (Elt F) (Rect.unit (s := S1x2048x1024) (k0_off9 c (BitVec.ofNat 32 (64 * (5 : Fin 8).val))) S1x64x512.size (k0_off9_inb c (5 : Fin 8))).toLoadRect (xstg m c)))

/-- Eight chunks of each of four quadrants leave no row out. -/
theorem cover (q3 q5 q7 q9 r : ℕ)
    (hq : r / 512 * 512 = q3 ∨ r / 512 * 512 = q5 ∨ r / 512 * 512 = q7 ∨ r / 512 * 512 = q9)
    (h3 : ∀ k : Fin 8, ¬ (q3 + 64 * k.val ≤ r ∧ r < q3 + 64 * k.val + 64))
    (h5 : ∀ k : Fin 8, ¬ (q5 + 64 * k.val ≤ r ∧ r < q5 + 64 * k.val + 64))
    (h7 : ∀ k : Fin 8, ¬ (q7 + 64 * k.val ≤ r ∧ r < q7 + 64 * k.val + 64))
    (h9 : ∀ k : Fin 8, ¬ (q9 + 64 * k.val ≤ r ∧ r < q9 + 64 * k.val + 64)) : False := by
  have hk : r % 512 / 64 < 8 := by omega
  rcases hq with h | h | h | h
  · exact h3 ⟨r % 512 / 64, hk⟩ (by show q3 + 64 * (r % 512 / 64) ≤ r ∧ r < q3 + 64 * (r % 512 / 64) + 64; omega)
  · exact h5 ⟨r % 512 / 64, hk⟩ (by show q5 + 64 * (r % 512 / 64) ≤ r ∧ r < q5 + 64 * (r % 512 / 64) + 64; omega)
  · exact h7 ⟨r % 512 / 64, hk⟩ (by show q7 + 64 * (r % 512 / 64) ≤ r ∧ r < q7 + 64 * (r % 512 / 64) + 64; omega)
  · exact h9 ⟨r % 512 / 64, hk⟩ (by show q9 + 64 * (r % 512 / 64) ≤ r ∧ r < q9 + 64 * (r % 512 / 64) + 64; omega)

/-- After the 32 stores the result block holds the final contents, whatever it held before. -/
theorem outW_eq (c : Dev nD) (fo : (cc0_stg1_0 : Ref sig .tc).ty.Contents (Elt F)) : outW m c fo = outAt m c := by
  refine funext fun (i : S2048x512.Idx) => ?_
  have hr : (i 0).val < 2048 := idx2_lt0 i
  unfold outW
  by_cases hF5 : rq9 c + 64 * (5 : Fin 8).val ≤ (i 0).val ∧ (i 0).val < rq9 c + 64 * (5 : Fin 8).val + 64
  · exact (stepF m c 5 2 rfl _ i).trans (if_pos hF5)
  refine ((stepF m c 5 2 rfl _ i).trans (if_neg hF5)).trans ?_
  by_cases hF4 : rq9 c + 64 * (4 : Fin 8).val ≤ (i 0).val ∧ (i 0).val < rq9 c + 64 * (4 : Fin 8).val + 64
  · exact (stepF m c 4 1 rfl _ i).trans (if_pos hF4)
  refine ((stepF m c 4 1 rfl _ i).trans (if_neg hF4)).trans ?_
  by_cases hF3 : rq9 c + 64 * (3 : Fin 8).val ≤ (i 0).val ∧ (i 0).val < rq9 c + 64 * (3 : Fin 8).val + 64
  · exact (stepF m c 3 0 rfl _ i).trans (if_pos hF3)
  refine ((stepF m c 3 0 rfl _ i).trans (if_neg hF3)).trans ?_
  by_cases hE2 : rq9 c + 64 * (2 : Fin 8).val ≤ (i 0).val ∧ (i 0).val < rq9 c + 64 * (2 : Fin 8).val + 64
  · exact (stepE m c 2 2 rfl _ i).trans (if_pos hE2)
  refine ((stepE m c 2 2 rfl _ i).trans (if_neg hE2)).trans ?_
  by_cases hE1 : rq9 c + 64 * (1 : Fin 8).val ≤ (i 0).val ∧ (i 0).val < rq9 c + 64 * (1 : Fin 8).val + 64
  · exact (stepE m c 1 1 rfl _ i).trans (if_pos hE1)
  refine ((stepE m c 1 1 rfl _ i).trans (if_neg hE1)).trans ?_
  by_cases hE0 : rq9 c + 64 * (0 : Fin 8).val ≤ (i 0).val ∧ (i 0).val < rq9 c + 64 * (0 : Fin 8).val + 64
  · exact (stepE m c 0 0 rfl _ i).trans (if_pos hE0)
  refine ((stepE m c 0 0 rfl _ i).trans (if_neg hE0)).trans ?_
  by_cases hD7 : rq9 c + 64 * (7 : Fin 8).val ≤ (i 0).val ∧ (i 0).val < rq9 c + 64 * (7 : Fin 8).val + 64
  · exact (stepD m c 7 1 rfl _ i).trans (if_pos hD7)
  refine ((stepD m c 7 1 rfl _ i).trans (if_neg hD7)).trans ?_
  by_cases hD6 : rq9 c + 64 * (6 : Fin 8).val ≤ (i 0).val ∧ (i 0).val < rq9 c + 64 * (6 : Fin 8).val + 64
  · exact (stepD m c 6 0 rfl _ i).trans (if_pos hD6)
  refine ((stepD m c 6 0 rfl _ i).trans (if_neg hD6)).trans ?_
  by_cases hC7 : rq7 c + 64 * (7 : Fin 8).val ≤ (i 0).val ∧ (i 0).val < rq7 c + 64 * (7 : Fin 8).val + 64
  · exact (stepC m c 7 _ i).trans (if_pos hC7)
  refine ((stepC m c 7 _ i).trans (if_neg hC7)).trans ?_
  by_cases hB7 : rq5 c + 64 * (7 : Fin 8).val ≤ (i 0).val ∧ (i 0).val < rq5 c + 64 * (7 : Fin 8).val + 64
  · exact (stepB m c 7 _ i).trans (if_pos hB7)
  refine ((stepB m c 7 _ i).trans (if_neg hB7)).trans ?_
  by_cases hC6 : rq7 c + 64 * (6 : Fin 8).val ≤ (i 0).val ∧ (i 0).val < rq7 c + 64 * (6 : Fin 8).val + 64
  · exact (stepC m c 6 _ i).trans (if_pos hC6)
  refine ((stepC m c 6 _ i).trans (if_neg hC6)).trans ?_
  by_cases hB6 : rq5 c + 64 * (6 : Fin 8).val ≤ (i 0).val ∧ (i 0).val < rq5 c + 64 * (6 : Fin 8).val + 64
  · exact (stepB m c 6 _ i).trans (if_pos hB6)
  refine ((stepB m c 6 _ i).trans (if_neg hB6)).trans ?_
  by_cases hC5 : rq7 c + 64 * (5 : Fin 8).val ≤ (i 0).val ∧ (i 0).val < rq7 c + 64 * (5 : Fin 8).val + 64
  · exact (stepC m c 5 _ i).trans (if_pos hC5)
  refine ((stepC m c 5 _ i).trans (if_neg hC5)).trans ?_
  by_cases hB5 : rq5 c + 64 * (5 : Fin 8).val ≤ (i 0).val ∧ (i 0).val < rq5 c + 64 * (5 : Fin 8).val + 64
  · exact (stepB m c 5 _ i).trans (if_pos hB5)
  refine ((stepB m c 5 _ i).trans (if_neg hB5)).trans ?_
  by_cases hC4 : rq7 c + 64 * (4 : Fin 8).val ≤ (i 0).val ∧ (i 0).val < rq7 c + 64 * (4 : Fin 8).val + 64
  · exact (stepC m c 4 _ i).trans (if_pos hC4)
  refine ((stepC m c 4 _ i).trans (if_neg hC4)).trans ?_
  by_cases hB4 : rq5 c + 64 * (4 : Fin 8).val ≤ (i 0).val ∧ (i 0).val < rq5 c + 64 * (4 : Fin 8).val + 64
  · exact (stepB m c 4 _ i).trans (if_pos hB4)
  refine ((stepB m c 4 _ i).trans (if_neg hB4)).trans ?_
  by_cases hC3 : rq7 c + 64 * (3 : Fin 8).val ≤ (i 0).val ∧ (i 0).val < rq7 c + 64 * (3 : Fin 8).val + 64
  · exact (stepC m c 3 _ i).trans (if_pos hC3)
  refine ((stepC m c 3 _ i).trans (if_neg hC3)).trans ?_
  by_cases hB3 : rq5 c + 64 * (3 : Fin 8).val ≤ (i 0).val ∧ (i 0).val < rq5 c + 64 * (3 : Fin 8).val + 64
  · exact (stepB m c 3 _ i).trans (if_pos hB3)
  refine ((stepB m c 3 _ i).trans (if_neg hB3)).trans ?_
  by_cases hC2 : rq7 c + 64 * (2 : Fin 8).val ≤ (i 0).val ∧ (i 0).val < rq7 c + 64 * (2 : Fin 8).val + 64
  · exact (stepC m c 2 _ i).trans (if_pos hC2)
  refine ((stepC m c 2 _ i).trans (if_neg hC2)).trans ?_
  by_cases hB2 : rq5 c + 64 * (2 : Fin 8).val ≤ (i 0).val ∧ (i 0).val < rq5 c + 64 * (2 : Fin 8).val + 64
  · exact (stepB m c 2 _ i).trans (if_pos hB2)
  refine ((stepB m c 2 _ i).trans (if_neg hB2)).trans ?_
  by_cases hC1 : rq7 c + 64 * (1 : Fin 8).val ≤ (i 0).val ∧ (i 0).val < rq7 c + 64 * (1 : Fin 8).val + 64
  · exact (stepC m c 1 _ i).trans (if_pos hC1)
  refine ((stepC m c 1 _ i).trans (if_neg hC1)).trans ?_
  by_cases hB1 : rq5 c + 64 * (1 : Fin 8).val ≤ (i 0).val ∧ (i 0).val < rq5 c + 64 * (1 : Fin 8).val + 64
  · exact (stepB m c 1 _ i).trans (if_pos hB1)
  refine ((stepB m c 1 _ i).trans (if_neg hB1)).trans ?_
  by_cases hC0 : rq7 c + 64 * (0 : Fin 8).val ≤ (i 0).val ∧ (i 0).val < rq7 c + 64 * (0 : Fin 8).val + 64
  · exact (stepC m c 0 _ i).trans (if_pos hC0)
  refine ((stepC m c 0 _ i).trans (if_neg hC0)).trans ?_
  by_cases hB0 : rq5 c + 64 * (0 : Fin 8).val ≤ (i 0).val ∧ (i 0).val < rq5 c + 64 * (0 : Fin 8).val + 64
  · exact (stepB m c 0 _ i).trans (if_pos hB0)
  refine ((stepB m c 0 _ i).trans (if_neg hB0)).trans ?_
  by_cases hA7 : rq3 c + 64 * (7 : Fin 8).val ≤ (i 0).val ∧ (i 0).val < rq3 c + 64 * (7 : Fin 8).val + 64
  · exact (stepA m c 7 _ i).trans (if_pos hA7)
  refine ((stepA m c 7 _ i).trans (if_neg hA7)).trans ?_
  by_cases hA6 : rq3 c + 64 * (6 : Fin 8).val ≤ (i 0).val ∧ (i 0).val < rq3 c + 64 * (6 : Fin 8).val + 64
  · exact (stepA m c 6 _ i).trans (if_pos hA6)
  refine ((stepA m c 6 _ i).trans (if_neg hA6)).trans ?_
  by_cases hA5 : rq3 c + 64 * (5 : Fin 8).val ≤ (i 0).val ∧ (i 0).val < rq3 c + 64 * (5 : Fin 8).val + 64
  · exact (stepA m c 5 _ i).trans (if_pos hA5)
  refine ((stepA m c 5 _ i).trans (if_neg hA5)).trans ?_
  by_cases hA4 : rq3 c + 64 * (4 : Fin 8).val ≤ (i 0).val ∧ (i 0).val < rq3 c + 64 * (4 : Fin 8).val + 64
  · exact (stepA m c 4 _ i).trans (if_pos hA4)
  refine ((stepA m c 4 _ i).trans (if_neg hA4)).trans ?_
  by_cases hA3 : rq3 c + 64 * (3 : Fin 8).val ≤ (i 0).val ∧ (i 0).val < rq3 c + 64 * (3 : Fin 8).val + 64
  · exact (stepA m c 3 _ i).trans (if_pos hA3)
  refine ((stepA m c 3 _ i).trans (if_neg hA3)).trans ?_
  by_cases hA2 : rq3 c + 64 * (2 : Fin 8).val ≤ (i 0).val ∧ (i 0).val < rq3 c + 64 * (2 : Fin 8).val + 64
  · exact (stepA m c 2 _ i).trans (if_pos hA2)
  refine ((stepA m c 2 _ i).trans (if_neg hA2)).trans ?_
  by_cases hA1 : rq3 c + 64 * (1 : Fin 8).val ≤ (i 0).val ∧ (i 0).val < rq3 c + 64 * (1 : Fin 8).val + 64
  · exact (stepA m c 1 _ i).trans (if_pos hA1)
  refine ((stepA m c 1 _ i).trans (if_neg hA1)).trans ?_
  by_cases hA0 : rq3 c + 64 * (0 : Fin 8).val ≤ (i 0).val ∧ (i 0).val < rq3 c + 64 * (0 : Fin 8).val + 64
  · exact (stepA m c 0 _ i).trans (if_pos hA0)
  refine ((stepA m c 0 _ i).trans (if_neg hA0)).trans ?_
  exact (cover (rq3 c) (rq5 c) (rq7 c) (rq9 c) (i 0).val (quad c _ hr)
    (fun k => match k with
      | 0 => hA0 | 1 => hA1 | 2 => hA2 | 3 => hA3 | 4 => hA4 | 5 => hA5 | 6 => hA6 | 7 => hA7)
    (fun k => match k with
      | 0 => hB0 | 1 => hB1 | 2 => hB2 | 3 => hB3 | 4 => hB4 | 5 => hB5 | 6 => hB6 | 7 => hB7)
    (fun k => match k with
      | 0 => hC0 | 1 => hC1 | 2 => hC2 | 3 => hC3 | 4 => hC4 | 5 => hC5 | 6 => hC6 | 7 => hC7)
    (fun k => match k with
      | 0 => hE0 | 1 => hE1 | 2 => hE2 | 3 => hF3 | 4 => hF4 | 5 => hF5 | 6 => hD6 | 7 => hD7)).elim

end Cert.KernelIdeal.RS

end
-- ==== Proof.Body.lean ====
import proofs.«901033_g7700000000001034_dist_rs_v7x_xyz2x2x4_x_m2048_n512_bf16_1_alg».proof.Proof.Proto
import proofs.«901033_g7700000000001034_dist_rs_v7x_xyz2x2x4_x_m2048_n512_bf16_1_alg».proof.Proof.Tables
import proofs.«901033_g7700000000001034_dist_rs_v7x_xyz2x2x4_x_m2048_n512_bf16_1_alg».proof.Proof.Credit
import proofs.«901033_g7700000000001034_dist_rs_v7x_xyz2x2x4_x_m2048_n512_bf16_1_alg».proof.Proof.Slots
import proofs.«901033_g7700000000001034_dist_rs_v7x_xyz2x2x4_x_m2048_n512_bf16_1_alg».proof.Proof.Steps
import proofs.«901033_g7700000000001034_dist_rs_v7x_xyz2x2x4_x_m2048_n512_bf16_1_alg».proof.Proof.Sends
import proofs.«901033_g7700000000001034_dist_rs_v7x_xyz2x2x4_x_m2048_n512_bf16_1_alg».proof.Proof.Local
import proofs.«901033_g7700000000001034_dist_rs_v7x_xyz2x2x4_x_m2048_n512_bf16_1_alg».proof.Proof.Pays
import proofs.«901033_g7700000000001034_dist_rs_v7x_xyz2x2x4_x_m2048_n512_bf16_1_alg».proof.Proof.Sems
import proofs.«901033_g7700000000001034_dist_rs_v7x_xyz2x2x4_x_m2048_n512_bf16_1_alg».proof.Proof.Close
import proofs.«901033_g7700000000001034_dist_rs_v7x_xyz2x2x4_x_m2048_n512_bf16_1_alg».proof.Proof.End
import proofs.«901033_g7700000000001034_dist_rs_v7x_xyz2x2x4_x_m2048_n512_bf16_1_alg».proof.Proof.Oblig
import proofs.«901033_g7700000000001034_dist_rs_v7x_xyz2x2x4_x_m2048_n512_bf16_1_alg».proof.Proof.OutW

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq

/-! ## The steps at the program's own spelling of a peer and of a semaphore

The printed program names a peer by its device-id chain and a semaphore by slicing its array; the tables name them by the
mesh functions and by number. Each step is restated with the program's spelling as a variable equal to the table's. -/

theorem step_wait_dma_at (K : GSem nD τ sig → ℕ) (c : Dev nD) (s s' : DmaSem sig) (hs' : s' = s) (hs : 2 ≤ s.val) (O : CellTallies nD τ sig Unit) (W : Waits sig Unit)
    (hmw : (levAts L lv : sProp 𝕄) ⊢ MayWait (c : Thread nD τ) (.dma s) () O) (P : sProp 𝕄) (hP : dmaPay m c s.val = P)
    {sp sp' : Space} {sh sh' : Shape} {e e' : EltTy} {src : Memref sig .tc sp' sh' e'} {dst : Memref sig .tc sp sh e}
    {hsrc : src.view.WordExact} {hdst : dst.view.WordExact}
    {α : Type} {Q : α → sProp 𝕄} {k : PUnit → Prog (TpuEff nD τ sig (Elt F) Λ₀ .tc) α} :
    iprop(⌜dst.view.dmaCredit = Nc⌝ ∗ records m K ∗ levAts L lv ∗ cred (tallyAt (dcell c s) () Nc) ∗ owes (c : Thread nD τ) O W ∗ atPos ER (dcell c s) 0 ∅ 0)
      ⊢ iprop(((owes (c : Thread nD τ) O (insert (SemLoc.dma s, ()) W) ∗ atPos ER (dcell c s) (0 + 1) ∅ 0 ∗ P) -∗ WP c (k ⟨⟩) Q)
          -∗ WP c (.op (.waitDma2 s' src dst hsrc hdst) k) Q) := by
  subst hs' hP
  iintro ⟨%hN, H⟩
  iapply (step_wait_dma m K c s' hs O W hmw hN)
  iexact H

theorem send_X_at (K : GSem nD τ sig → ℕ) (c : Dev nD) (k : Fin 8) (p' : Dev nD) (hp : p' = partner c) (sS' sR' : DmaSem sig) (hS : sS' = sxS k) (hR : sR' = rxS k)
    (fd : Buf (Elt F) ((slot8 rxM k).view.loc ((partner c : Dev nD) : Thread nD τ))) (d : ℕ) (hd : (pays c).drop d = (dcell (partner c) (rxS k), Nc) :: (pays c).drop (d + 1)) (W : Waits sig Unit)
    {hsc} {hsrc} {hdst} {hsem} {α : Type} {Q : α → sProp 𝕄} {k' : PUnit → Prog (TpuEff nD τ sig (Elt F) Λ₀ .tc) α} :
    iprop(records m K ∗ sxPts m c k fullShare ∗ ((slot8 rxM k).view.loc ((partner c : Dev nD) : Thread nD τ) ↦[(slot8 rxM k).view.set]{fullShare} fd)
        ∗ owes (c : Thread nD τ) (owe ((pays c).drop d)) W ∗ dutyTok ER (dcell c (sxS k)) 0 0 ∗ dutyTok ER (dcell (partner c) (rxS k)) 0 0)
      ⊢ iprop(((cred (tallyAt (dcell c (sxS k)) () Nc) ∗ owes (c : Thread nD τ) (owe ((pays c).drop (d + 1))) W) -∗ WP c (k' ⟨⟩) Q)
          -∗ WP c (.op (.enqueueDma (slot8 sxM k) (.remote (Dev.tc p' : Thread nD τ) (slot8 rxM k) (.dma sS') hsc) (.dma sR') hsrc hdst hsem) k') Q) := by
  subst hp hS hR; rw [hd]; exact send_X m K c k fd ((pays c).drop (d + 1)) W
theorem send_XD_at (K : GSem nD τ sig → ℕ) (c : Dev nD) (k : Fin 2) (p' : Dev nD) (hp : p' = partner c) (sS' sR' : DmaSem sig) (hS : sS' = sx2S k) (hR : sR' = rx2S k)
    (fd : Buf (Elt F) ((slot2 rx2M k).view.loc ((partner c : Dev nD) : Thread nD τ))) (d : ℕ) (hd : (pays c).drop d = (dcell (partner c) (rx2S k), Nc) :: (pays c).drop (d + 1)) (W : Waits sig Unit)
    {hsc} {hsrc} {hdst} {hsem} {α : Type} {Q : α → sProp 𝕄} {k' : PUnit → Prog (TpuEff nD τ sig (Elt F) Λ₀ .tc) α} :
    iprop(records m K ∗ sx2Pts m c k fullShare ∗ ((slot2 rx2M k).view.loc ((partner c : Dev nD) : Thread nD τ) ↦[(slot2 rx2M k).view.set]{fullShare} fd)
        ∗ owes (c : Thread nD τ) (owe ((pays c).drop d)) W ∗ dutyTok ER (dcell c (sx2S k)) 0 0 ∗ dutyTok ER (dcell (partner c) (rx2S k)) 0 0)
      ⊢ iprop(((cred (tallyAt (dcell c (sx2S k)) () Nc) ∗ owes (c : Thread nD τ) (owe ((pays c).drop (d + 1))) W) -∗ WP c (k' ⟨⟩) Q)
          -∗ WP c (.op (.enqueueDma (slot2 sx2M k) (.remote (Dev.tc p' : Thread nD τ) (slot2 rx2M k) (.dma sS') hsc) (.dma sR') hsrc hdst hsem) k') Q) := by
  subst hp hS hR; rw [hd]; exact send_XD m K c k fd ((pays c).drop (d + 1)) W
theorem send_YD_at (K : GSem nD τ sig → ℕ) (c : Dev nD) (k : Fin 8) (p' : Dev nD) (hp : p' = buddy c) (sS' sR' : DmaSem sig) (hS : sS' = sydS k) (hR : sR' = rydS k)
    (fd : Buf (Elt F) ((slot8 rydM k).view.loc ((buddy c : Dev nD) : Thread nD τ))) (d : ℕ) (hd : (pays c).drop d = (dcell (buddy c) (rydS k), Nc) :: (pays c).drop (d + 1)) (W : Waits sig Unit)
    {hsc} {hsrc} {hdst} {hsem} {α : Type} {Q : α → sProp 𝕄} {k' : PUnit → Prog (TpuEff nD τ sig (Elt F) Λ₀ .tc) α} :
    iprop(records m K ∗ rxPts m c k fullShare.left ∗ ((slot8 rydM k).view.loc ((buddy c : Dev nD) : Thread nD τ) ↦[(slot8 rydM k).view.set]{fullShare} fd)
        ∗ owes (c : Thread nD τ) (owe ((pays c).drop d)) W ∗ dutyTok ER (dcell c (sydS k)) 0 0 ∗ dutyTok ER (dcell (buddy c) (rydS k)) 0 0)
      ⊢ iprop(((cred (tallyAt (dcell c (sydS k)) () Nc) ∗ owes (c : Thread nD τ) (owe ((pays c).drop (d + 1))) W) -∗ WP c (k' ⟨⟩) Q)
          -∗ WP c (.op (.enqueueDma (slot8 rxM k) (.remote (Dev.tc p' : Thread nD τ) (slot8 rydM k) (.dma sS') hsc) (.dma sR') hsrc hdst hsem) k') Q) := by
  subst hp hS hR; rw [hd]; exact send_YD m K c k fd ((pays c).drop (d + 1)) W
theorem send_ZD_at (K : GSem nD τ sig → ℕ) (c : Dev nD) (k : Fin 8) (p' : Dev nD) (hp : p' = zpair c) (sS' sR' : DmaSem sig) (hS : sS' = szdS k) (hR : sR' = rzdS k)
    (fd : Buf (Elt F) ((slot8 rzdM k).view.loc ((zpair c : Dev nD) : Thread nD τ))) (d : ℕ) (hd : (pays c).drop d = (dcell (zpair c) (rzdS k), Nc) :: (pays c).drop (d + 1)) (W : Waits sig Unit)
    {hsc} {hsrc} {hdst} {hsem} {α : Type} {Q : α → sProp 𝕄} {k' : PUnit → Prog (TpuEff nD τ sig (Elt F) Λ₀ .tc) α} :
    iprop(records m K ∗ rxPts m c k fullShare.right.left ∗ ((slot8 rzdM k).view.loc ((zpair c : Dev nD) : Thread nD τ) ↦[(slot8 rzdM k).view.set]{fullShare} fd)
        ∗ owes (c : Thread nD τ) (owe ((pays c).drop d)) W ∗ dutyTok ER (dcell c (szdS k)) 0 0 ∗ dutyTok ER (dcell (zpair c) (rzdS k)) 0 0)
      ⊢ iprop(((cred (tallyAt (dcell c (szdS k)) () Nc) ∗ owes (c : Thread nD τ) (owe ((pays c).drop (d + 1))) W) -∗ WP c (k' ⟨⟩) Q)
          -∗ WP c (.op (.enqueueDma (slot8 rxM k) (.remote (Dev.tc p' : Thread nD τ) (slot8 rzdM k) (.dma sS') hsc) (.dma sR') hsrc hdst hsem) k') Q) := by
  subst hp hS hR; rw [hd]; exact send_ZD m K c k fd ((pays c).drop (d + 1)) W
theorem send_YR_at (K : GSem nD τ sig → ℕ) (c : Dev nD) (k : Fin 3) (k8 : Fin 8) (hk8 : k8 = in8 k) (p' : Dev nD) (hp : p' = buddy c) (sS' sR' : DmaSem sig) (hS : sS' = syrS k) (hR : sR' = ryrS k)
    (fd : Buf (Elt F) ((slot3 ryrM k).view.loc ((buddy c : Dev nD) : Thread nD τ))) (d : ℕ) (hd : (pays c).drop d = (dcell (buddy c) (ryrS k), Nc) :: (pays c).drop (d + 1)) (W : Waits sig Unit)
    {hsc} {hsrc} {hdst} {hsem} {α : Type} {Q : α → sProp 𝕄} {k' : PUnit → Prog (TpuEff nD τ sig (Elt F) Λ₀ .tc) α} :
    iprop(records m K ∗ rzdPts m c k8 fullShare.left ∗ ((slot3 ryrM k).view.loc ((buddy c : Dev nD) : Thread nD τ) ↦[(slot3 ryrM k).view.set]{fullShare} fd)
        ∗ owes (c : Thread nD τ) (owe ((pays c).drop d)) W ∗ dutyTok ER (dcell c (syrS k)) 0 0 ∗ dutyTok ER (dcell (buddy c) (ryrS k)) 0 0)
      ⊢ iprop(((cred (tallyAt (dcell c (syrS k)) () Nc) ∗ owes (c : Thread nD τ) (owe ((pays c).drop (d + 1))) W) -∗ WP c (k' ⟨⟩) Q)
          -∗ WP c (.op (.enqueueDma (slot8 rzdM k8) (.remote (Dev.tc p' : Thread nD τ) (slot3 ryrM k) (.dma sS') hsc) (.dma sR') hsrc hdst hsem) k') Q) := by
  subst hk8 hp hS hR; rw [hd]; exact send_YR m K c k fd ((pays c).drop (d + 1)) W
theorem send_ZR_at (K : GSem nD τ sig → ℕ) (c : Dev nD) (k : Fin 3) (k8 : Fin 8) (hk8 : k8 = up3 k) (p' : Dev nD) (hp : p' = zpair c) (sS' sR' : DmaSem sig) (hS : sS' = szrS k) (hR : sR' = rzrS k)
    (fd : Buf (Elt F) ((slot3 rzrM k).view.loc ((zpair c : Dev nD) : Thread nD τ))) (d : ℕ) (hd : (pays c).drop d = (dcell (zpair c) (rzrS k), Nc) :: (pays c).drop (d + 1)) (W : Waits sig Unit)
    {hsc} {hsrc} {hdst} {hsem} {α : Type} {Q : α → sProp 𝕄} {k' : PUnit → Prog (TpuEff nD τ sig (Elt F) Λ₀ .tc) α} :
    iprop(records m K ∗ rydPts m c k8 fullShare.left ∗ ((slot3 rzrM k).view.loc ((zpair c : Dev nD) : Thread nD τ) ↦[(slot3 rzrM k).view.set]{fullShare} fd)
        ∗ owes (c : Thread nD τ) (owe ((pays c).drop d)) W ∗ dutyTok ER (dcell c (szrS k)) 0 0 ∗ dutyTok ER (dcell (zpair c) (rzrS k)) 0 0)
      ⊢ iprop(((cred (tallyAt (dcell c (szrS k)) () Nc) ∗ owes (c : Thread nD τ) (owe ((pays c).drop (d + 1))) W) -∗ WP c (k' ⟨⟩) Q)
          -∗ WP c (.op (.enqueueDma (slot8 rydM k8) (.remote (Dev.tc p' : Thread nD τ) (slot3 rzrM k) (.dma sS') hsc) (.dma sR') hsrc hdst hsem) k') Q) := by
  subst hk8 hp hS hR; rw [hd]; exact send_ZR m K c k fd ((pays c).drop (d + 1)) W

/-! ## The body's steps as tactics, one per kind of step, at chunk `k`

The body is straight-line code that repeats a few kinds of step over the chunks. Each kind is written once, as the text of
its tactic steps with the chunk's number left open; the hypotheses of chunk `k` carry `k` in their names. -/

section Tactics
open Lean Elab Tactic

/-- Run tactic text. -/
def runText (s : String) : TacticM Unit := do
  match Parser.runParserCategory (← getEnv) `tactic s with
  | .ok stx => evalTactic stx
  | .error e => throwError "{e}\n{s}"

/-- A wait on the device's own DMA cell `sem k` while `(pays c).drop d` is still owed: the credit `cr` and the position `pos`
    go in, the cell's payload comes out as `pay`, restated by the table lemma `tbl`. -/
def waitText (sem semL : String) (k d : Nat) (mw cr pos pay tbl payT : String) : String :=
  s!"(
  try dsimp only [Prog.bind]
  try sl_exec_parts
  try dsimp only [Prog.bind]
  try sl_exec_parts
  iapply (step_wait_dma_at m K c ({sem} {k}) _ {semL}_{k} (by decide) (owe ((pays c).drop {d})) _ {mw} ({payT}) ((payload_dma m c ({sem} {k}) 0).symm.trans ({tbl} m c {k} 0))) $$ [{cr} HO {pos}]
  · isplitr; · ipureintro; first | rfl | decide
    isplitr; · iexact HR
    isplitr; · iexact Hlev
    isplitl [{cr}]; · iexact {cr}
    isplitl [HO]; · iexact HO
    iexact {pos}
  iintro ⟨HO, {pos}, {pay}⟩
  dsimp only [WP]
)"

/-- An addressed copy by the rule `rule` at chunk `k`, payment number `d`: source `src`, the peer's landing slot `dst` (its
    buffer read at `g`), the two duty tokens `tS` `tR`; the send cell's credit comes out as `cS`. -/
def sendText (rule : String) (k dev : Nat) (semS semR g : String) (d : Nat) (src dst tS tR cS : String) (extra : String := "") : String :=
  s!"(
  try dsimp only [Prog.bind]
  try sl_exec_parts
  try dsimp only [Prog.bind]
  try sl_exec_parts
  iapply ({rule}_at m K c {k} {extra} _ (dev{dev}_eq c) _ _ {semS}_{k} {semR}_{k} {g} {d} (drop_{d} c) _) $$ [{src} {dst} HO {tS} {tR}]
  · isplitr; · iexact HR
    isplitl [{src}]; · first | iexact {src} | (unfold rxPts; iexact {src}) | (unfold rzdPts; iexact {src}) | (unfold rydPts; iexact {src})
    isplitl [{dst}]; · iexact {dst}
    isplitl [HO]; · iexact HO
    isplitl [{tS}]; · iexact {tS}
    iexact {tR}
  iintro ⟨{cS}, HO⟩
  dsimp only [WP]
)"

/-- The load of chunk `k` of buffer `M` (read at `cont m c`) from the share `q` held as `h`. -/
def loadText (rule M : String) (k : Nat) (q cont h : String) (offN kk : Nat) : String :=
  s!"(
  try dsimp only [Prog.bind]
  try sl_exec_parts
  try dsimp only [Prog.bind]
  try sl_exec_parts
  try (
    iapply ({rule} c {M} {k} {q} ({cont} m c)) $$ {h}
    iintro {h}
    dsimp only [WP])
  try dsimp only [Prog.bind]
  try sl_exec_parts
  try (
    iapply (wp_load Variants.none (c : Thread nD τ) none Set.univ (m := oM) (Finset.subset_univ _)) $$ Ho
    iintro Ho)
  try (
    iapply (wp_store Variants.none (c : Thread nD τ) none Set.univ (m := oM) (r := Rect.unit (s := S2048x512) (k0_off{offN} c (BitVec.ofNat 32 (64 * ({kk} : Fin 8).val))) S64x512.size (k0_off{offN}_inb c {kk})) (Mk := Finset.univ) (Finset.subset_univ _)) $$ Ho
    iintro Ho)
  try sl_exec_parts
  try dsimp only [Prog.bind]
)"

def mw0 : String := "(by rw [owe_nil', MayWait_zero]; iintro -; iempintro)"

/-- Chunk `k` of the send buffer: the cast of the partner's columns is stored and sent to the partner. -/
elab "x_iter " k:num : tactic => do
  let n := k.getNat
  runText s!"(
  try dsimp only [Prog.bind]
  try sl_exec_parts
  try dsimp only [Prog.bind]
  try sl_exec_parts
  ihave S0_{n} := (Entails.of_eq (sx_stored m c {n} f0)) $$ [S0_{n}]
  · iexact S0_{n}
)"
  runText (sendText "send_X" n (4 + n) "sem_sx" "sem_rx" "g2" (3 + n) s!"S0_{n}" s!"P2_{n}" s!"TSx{n}" s!"TRx{n}" s!"CSx{n}")

/-- Chunk `6 + k` of the diagonal quadrant: stored in the second send buffer and sent to the partner. -/
elab "xd_iter " k:num : tactic => do
  let n := k.getNat
  runText s!"(
  try dsimp only [Prog.bind]
  try sl_exec_parts
  try dsimp only [Prog.bind]
  try sl_exec_parts
  ihave S1_{n} := (Entails.of_eq (sx2_stored m c {n} f1)) $$ [S1_{n}]
  · iexact S1_{n}
)"
  runText (sendText "send_XD" n (12 + n) "sem_sx2" "sem_rx2" "g3" (11 + n) s!"S1_{n}" s!"P3_{n}" s!"TSd{n}" s!"TRd{n}" s!"CSd{n}")

/-- Chunk `k` has landed from the partner: it is forwarded to the buddy and to the z-pair, and added to the own quadrant. -/
elab "fwd_iter " k:num : tactic => do
  let n := k.getNat
  runText (waitText "rxS" "sem_rx" n (13 + 2 * n) s!"(mayWait_rx c {n})" s!"CRx{n}" s!"ARx{n}" s!"RX_{n}" "payload_rx" s!"rxPts m c {n} fullShare")
  runText s!"(
  unfold rxPts
  ihave RX_{n} := (share3 ((slot8 rxM {n}).view.loc (c : Thread nD τ)) (slot8 rxM {n}).view.set (RX m c)).1 $$ RX_{n}
  icases RX_{n} with ⟨RXa_{n}, RXb_{n}, RXc_{n}⟩
)"
  runText (sendText "send_YD" n (14 + 2 * n) "sem_syd" "sem_ryd" "g4" (13 + 2 * n) s!"RXa_{n}" s!"B4_{n}" s!"TSyd{n}" s!"TRyd{n}" s!"CSyd{n}")
  runText (sendText "send_ZD" n (15 + 2 * n) "sem_szd" "sem_rzd" "g5" (14 + 2 * n) s!"RXb_{n}" s!"Z5_{n}" s!"TSzd{n}" s!"TRzd{n}" s!"CSzd{n}")
  runText (loadText "load_chunk8" "rxM" n "fullShare.right.right" "RX" s!"RXc_{n}" 4 n)

/-- Chunk `k` forwarded by the z-pair: for `k < 3` forwarded on to the buddy (the diagonal quadrant's chunk `k`); added to the
    z-pair's quadrant. -/
elab "z_iter " k:num : tactic => do
  let n := k.getNat
  let d := #[29, 30, 31, 32, 33, 34, 35, 35][n]!
  runText (waitText "rzdS" "sem_rzd" n d s!"(mayWait_rzd c {n})" s!"CRzd{n}" s!"ARzd{n}" s!"RZD_{n}" "payload_rzd" s!"rzdPts m c {n} fullShare")
  if n < 3 then
    runText s!"(
  unfold rzdPts
  ihave RZD_{n} := (share2 ((slot8 rzdM {n}).view.loc (c : Thread nD τ)) (slot8 rzdM {n}).view.set (RZD m c)).1 $$ RZD_{n}
  icases RZD_{n} with ⟨RZDa_{n}, RZDb_{n}⟩
)"
    runText (sendText "send_YR" n (30 + n) "sem_syr" "sem_ryr" "g6" (29 + n) s!"RZDa_{n}" s!"B6_{n}" s!"TSyr{n}" s!"TRyr{n}" s!"CSyr{n}" s!"{n} (by decide)")
    runText (loadText "load_chunk8" "rzdM" n "fullShare.right" "RZD" s!"RZDb_{n}" 6 n)
  else
    runText "(unfold rzdPts)"
    runText (loadText "load_chunk8" "rzdM" n "fullShare" "RZD" s!"RZD_{n}" 6 n)

/-- Chunk `k` forwarded by the buddy: for `3 ≤ k < 6` forwarded on to the z-pair (the diagonal quadrant's chunk `k`); added to
    the buddy's quadrant. -/
elab "b_iter " k:num : tactic => do
  let n := k.getNat
  let d := #[30, 31, 32, 32, 33, 34, 35, 35][n]!
  runText (waitText "rydS" "sem_ryd" n d s!"(mayWait_ryd c {n})" s!"CRyd{n}" s!"ARyd{n}" s!"RYD_{n}" "payload_ryd" s!"rydPts m c {n} fullShare")
  if 3 ≤ n ∧ n < 6 then
    runText s!"(
  unfold rydPts
  ihave RYD_{n} := (share2 ((slot8 rydM {n}).view.loc (c : Thread nD τ)) (slot8 rydM {n}).view.set (RYD m c)).1 $$ RYD_{n}
  icases RYD_{n} with ⟨RYDa_{n}, RYDb_{n}⟩
)"
    runText (sendText "send_ZR" (n - 3) (33 + (n - 3)) "sem_szr" "sem_rzr" "g7" (32 + (n - 3)) s!"RYDa_{n}" s!"Z7_{n - 3}" s!"TSzr{n - 3}" s!"TRzr{n - 3}" s!"CSzr{n - 3}" s!"{n} (by decide)")
    runText (loadText "load_chunk8" "rydM" n "fullShare.right" "RYD" s!"RYDb_{n}" 8 n)
  else
    runText "(unfold rydPts)"
    runText (loadText "load_chunk8" "rydM" n "fullShare" "RYD" s!"RYD_{n}" 8 n)

/-- The diagonal quadrant's chunks: `6 + k` straight from the partner; `k` through the z-pair and the buddy; `3 + k` through
    the buddy and the z-pair. -/
elab "d_direct " k:num : tactic => do
  let n := k.getNat
  runText (waitText "rx2S" "sem_rx2" n 35 mw0 s!"CRd{n}" s!"ARd{n}" s!"RD_{n}" "payload_rx2" s!"rx2Pts m c {n} fullShare")
  runText "(unfold rx2Pts)"
  runText (loadText "load_chunk2" "rx2M" n "fullShare" "RX2" s!"RD_{n}" 10 (6 + n))
elab "d_via_y " k:num : tactic => do
  let n := k.getNat
  runText (waitText "ryrS" "sem_ryr" n 35 mw0 s!"CRyr{n}" s!"ARyr{n}" s!"RYR_{n}" "payload_ryr" s!"ryrPts m c {n} fullShare")
  runText "(unfold ryrPts)"
  runText (loadText "load_chunk3" "ryrM" n "fullShare" "RYR" s!"RYR_{n}" 10 n)
elab "d_via_z " k:num : tactic => do
  let n := k.getNat
  runText (waitText "rzrS" "sem_rzr" n 35 mw0 s!"CRzr{n}" s!"ARzr{n}" s!"RZR_{n}" "payload_rzr" s!"rzrPts m c {n} fullShare")
  runText "(unfold rzrPts)"
  runText (loadText "load_chunk3" "rzrM" n "fullShare" "RZR" s!"RZR_{n}" 10 (3 + n))

/-- The wait for a copy's source to have been read: the lent share comes back. -/
elab "sent " fam:ident k:num : tactic => do
  let n := k.getNat
  let (sem, semL, tbl, pay, payT) ← match fam.getId.toString with
    | "x" => pure ("sxS", "sem_sx", "payload_sx", s!"S0_{n}", s!"sxPts m c {n} fullShare")
    | "xd" => pure ("sx2S", "sem_sx2", "payload_sx2", s!"S1_{n}", s!"sx2Pts m c {n} fullShare")
    | "yd" => pure ("sydS", "sem_syd", "payload_syd", s!"RXa_{n}", s!"rxPts m c {n} fullShare.left")
    | "zd" => pure ("szdS", "sem_szd", "payload_szd", s!"RXb_{n}", s!"rxPts m c {n} fullShare.right.left")
    | "yr" => pure ("syrS", "sem_syr", "payload_syr", s!"RZDa_{n}", s!"rzdPts m c {n} fullShare.left")
    | "zr" => pure ("szrS", "sem_szr", "payload_szr", s!"RYDa_{n + 3}", s!"rydPts m c {n + 3} fullShare.left")
    | _ => throwError "unknown family"
  let nm := match fam.getId.toString with
    | "x" => "Sx" | "xd" => "Sd" | "yd" => "Syd" | "zd" => "Szd" | "yr" => "Syr" | _ => "Szr"
  runText (waitText sem semL n 35 mw0 s!"C{nm}{n}" s!"A{nm}{n}" pay tbl payT)

/-- The atoms the body ends with, in the order the closing lemma takes them. -/
def endAtoms : List String :=
  (List.range 8).map (fun k => s!"S0_{k}") ++ (List.range 2).map (fun k => s!"S1_{k}")
  ++ (List.range 8).flatMap (fun k => [s!"RXa_{k}", s!"RXb_{k}", s!"RXc_{k}"])
  ++ (List.range 2).map (fun k => s!"RD_{k}")
  ++ ["RYD_0", "RYD_1", "RYD_2", "RYDa_3", "RYDb_3", "RYDa_4", "RYDb_4", "RYDa_5", "RYDb_5", "RYD_6", "RYD_7"]
  ++ ["RZDa_0", "RZDb_0", "RZDa_1", "RZDb_1", "RZDa_2", "RZDb_2", "RZD_3", "RZD_4", "RZD_5", "RZD_6", "RZD_7"]
  ++ (List.range 3).map (fun k => s!"RYR_{k}") ++ (List.range 3).map (fun k => s!"RZR_{k}")
  ++ [("Sx", 8), ("Rx", 8), ("Sd", 2), ("Rd", 2), ("Syd", 8), ("Ryd", 8), ("Szd", 8), ("Rzd", 8), ("Syr", 3), ("Ryr", 3), ("Szr", 3), ("Rzr", 3)].flatMap
      (fun p => (List.range p.2).map (fun k => s!"A{p.1}{k}"))

/-- The end of the body: every chunk and every position is handed to the closing lemma; the device's cells are closed and its
    scratch buffers whole again (`HPhi`). -/
elab "close_body" : tactic => do
  let names := endAtoms
  let feed := " ".intercalate names
  let unf := "(repeat (first | unfold sxPts | unfold sx2Pts | unfold rxPts | unfold rx2Pts | unfold rydPts | unfold rzdPts | unfold ryrPts | unfold rzrPts))"
  let splits := "\n".intercalate (names.dropLast.map fun n => s!"    isplitl [{n}]; · first | iexact {n} | ({unf}; iexact {n})")
  runText s!"(
  imod (endgame m K c) $$ [{feed}] with HPhi
  · isplitr; · iexact HR
{splits}
    iexact {names.getLast!}
)"

end Tactics

set_option maxHeartbeats 16000000 in
/-- The body of device `c`, run from its ghost state, its credit, its buffers and what it owes. -/
theorem sound_body (K : GSem nD τ sig → ℕ) (c : Dev nD) (fo : Bf (F := F) c oM) (f0 : Bf (F := F) c sxM) (f1 : Bf (F := F) c sx2M) (f2 : Bf (F := F) c rxM) (f3 : Bf (F := F) c rx2M)
    (f4 : Bf (F := F) c rydM) (f5 : Bf (F := F) c rzdM) (f6 : Bf (F := F) c ryrM) (f7 : Bf (F := F) c rzrM) (W : Waits sig Unit) (Q : PUnit → sProp 𝕄) :
    iprop(records m K ∗ levAts L lv ∗ positions c ∗ payToks c ∗ creds c ∗ pt c xM (xstg m c) ∗ pt c oM fo
        ∗ pt c sxM f0 ∗ pt c sx2M f1 ∗ pt c rxM f2 ∗ pt c rx2M f3 ∗ pt c rydM f4 ∗ pt c rzdM f5 ∗ pt c ryrM f6 ∗ pt c rzrM f7
        ∗ owes (c : Thread nD τ) (owe ((pays c).drop 0)) W
        ∗ ((Φ₁ c ∗ (∃ W', owes (c : Thread nD τ) (owe ((pays c).drop 35)) W') ∗ pt c xM (xstg m c) ∗ pt c oM (outAt m c)) -∗ Q ⟨⟩))
      ⊢ wp frame (wpE (defs₀ (F := F)) Variants.none c none) Set.univ
          (cc0_body xM (Memref.isWhole_whole _) oM (Memref.isWhole_whole _) sxM (Memref.isWhole_whole _) sx2M (Memref.isWhole_whole _) rxM (Memref.isWhole_whole _) rx2M (Memref.isWhole_whole _)
            rydM (Memref.isWhole_whole _) rzdM (Memref.isWhole_whole _) ryrM (Memref.isWhole_whole _) rzrM (Memref.isWhole_whole _)
            cc0_scratch8 cc0_scratch9 cc0_scratch10 cc0_scratch11 cc0_scratch12 cc0_scratch13 cc0_scratch14 cc0_scratch15 cc0_scratch16 cc0_scratch17 cc0_scratch18 cc0_scratch19) Q := by
  unfold positions payToks creds
  simp only [bigSep_fin8, bigSep_fin2, bigSep_fin3]
  iintro ⟨#HR, #Hlev, ⟨APb, ⟨ASx0, ASx1, ASx2, ASx3, ASx4, ASx5, ASx6, ASx7⟩, ⟨ARx0, ARx1, ARx2, ARx3, ARx4, ARx5, ARx6, ARx7⟩, ⟨ASd0, ASd1⟩, ⟨ARd0, ARd1⟩, ⟨ASyd0, ASyd1, ASyd2, ASyd3, ASyd4, ASyd5, ASyd6, ASyd7⟩, ⟨ARyd0, ARyd1, ARyd2, ARyd3, ARyd4, ARyd5, ARyd6, ARyd7⟩, ⟨ASzd0, ASzd1, ASzd2, ASzd3, ASzd4, ASzd5, ASzd6, ASzd7⟩, ⟨ARzd0, ARzd1, ARzd2, ARzd3, ARzd4, ARzd5, ARzd6, ARzd7⟩, ⟨ASyr0, ASyr1, ASyr2⟩, ⟨ARyr0, ARyr1, ARyr2⟩, ⟨ASzr0, ASzr1, ASzr2⟩, ⟨ARzr0, ARzr1, ARzr2⟩⟩, ⟨Tp, Tb, Tz, ⟨⟨TSx0, TRx0⟩, ⟨TSx1, TRx1⟩, ⟨TSx2, TRx2⟩, ⟨TSx3, TRx3⟩, ⟨TSx4, TRx4⟩, ⟨TSx5, TRx5⟩, ⟨TSx6, TRx6⟩, ⟨TSx7, TRx7⟩⟩, ⟨⟨TSd0, TRd0⟩, ⟨TSd1, TRd1⟩⟩, ⟨⟨TSyd0, TRyd0⟩, ⟨TSyd1, TRyd1⟩, ⟨TSyd2, TRyd2⟩, ⟨TSyd3, TRyd3⟩, ⟨TSyd4, TRyd4⟩, ⟨TSyd5, TRyd5⟩, ⟨TSyd6, TRyd6⟩, ⟨TSyd7, TRyd7⟩⟩, ⟨⟨TSzd0, TRzd0⟩, ⟨TSzd1, TRzd1⟩, ⟨TSzd2, TRzd2⟩, ⟨TSzd3, TRzd3⟩, ⟨TSzd4, TRzd4⟩, ⟨TSzd5, TRzd5⟩, ⟨TSzd6, TRzd6⟩, ⟨TSzd7, TRzd7⟩⟩, ⟨⟨TSyr0, TRyr0⟩, ⟨TSyr1, TRyr1⟩, ⟨TSyr2, TRyr2⟩⟩, ⟨⟨TSzr0, TRzr0⟩, ⟨TSzr1, TRzr1⟩, ⟨TSzr2, TRzr2⟩⟩⟩, ⟨Cb, ⟨CRx0, CRx1, CRx2, CRx3, CRx4, CRx5, CRx6, CRx7⟩, ⟨CRd0, CRd1⟩, ⟨CRyd0, CRyd1, CRyd2, CRyd3, CRyd4, CRyd5, CRyd6, CRyd7⟩, ⟨CRzd0, CRzd1, CRzd2, CRzd3, CRzd4, CRzd5, CRzd6, CRzd7⟩, ⟨CRyr0, CRyr1, CRyr2⟩, ⟨CRzr0, CRzr1, CRzr2⟩⟩, Hx, Ho, H0, H1, H2, H3, H4, H5, H6, H7, HO, Hk⟩
  -- the two send buffers are used chunk by chunk
  ihave H0 := ((split8 c sxM (Memref.isWhole_whole _) fullShare f0).1.trans (Entails.of_eq (bigSep_fin8 _))) $$ H0
  icases H0 with ⟨S0_0, S0_1, S0_2, S0_3, S0_4, S0_5, S0_6, S0_7⟩
  ihave H1 := ((split2 c sx2M (Memref.isWhole_whole _) fullShare f1).1.trans (Entails.of_eq (bigSep_fin2 _))) $$ H1
  icases H1 with ⟨S1_0, S1_1⟩
  sl_exec_parts
  -- the three barrier units: each peer is handed the two landing buffers it writes
  ihave HO := (Entails.of_eq (owes_drop c 0 _ W (drop_0 c))) $$ HO
  iapply (step_signal m K c (partner c) 0 ((pays c).drop 1) W) $$ [HO Tp H2 H3]
  · isplitr; · iexact HR
    isplitl [HO]; · iexact HO
    isplitl [Tp]; · iexact Tp
    unfold barPay anyBuf; rw [if_pos rfl, partner_partner]
    isplitl [H2]; · iexists f2; iexact H2
    iexists f3; iexact H3
  iintro HO
  dsimp only [WP]
  sl_exec_parts
  ihave HO := (Entails.of_eq (owes_drop c 1 _ W (drop_1 c))) $$ HO
  iapply (step_signal m K c (buddy c) 1 ((pays c).drop 2) W) $$ [HO Tb H4 H6]
  · isplitr; · iexact HR
    isplitl [HO]; · iexact HO
    isplitl [Tb]; · iexact Tb
    unfold barPay anyBuf; rw [if_neg (by decide), if_pos rfl, buddy_buddy]
    isplitl [H4]; · iexists f4; iexact H4
    iexists f6; iexact H6
  iintro HO
  dsimp only [WP]
  sl_exec_parts
  ihave HO := (Entails.of_eq (owes_drop c 2 _ W (drop_2 c))) $$ HO
  iapply (step_signal m K c (zpair c) 2 ((pays c).drop 3) W) $$ [HO Tz H5 H7]
  · isplitr; · iexact HR
    isplitl [HO]; · iexact HO
    isplitl [Tz]; · iexact Tz
    unfold barPay anyBuf; rw [if_neg (by decide), if_neg (by decide), zpair_zpair]
    isplitl [H5]; · iexists f5; iexact H5
    iexists f7; iexact H7
  iintro HO
  dsimp only [WP]
  sl_exec_parts
  iapply (step_barwait m K c (owe ((pays c).drop 3)) W (mayWait_bar c)) $$ [Cb HO APb]
  · isplitr; · iexact HR
    isplitr; · iexact Hlev
    isplitl [Cb]; · iexact Cb
    isplitl [HO]; · iexact HO
    iexact APb
  unfold barPay anyBuf
  rw [if_pos rfl, if_neg (by decide), if_pos rfl, if_neg (by decide), if_neg (by decide)]
  iintro ⟨HO, APb, ⟨⟨%g2, P2⟩, ⟨%g3, P3⟩⟩, ⟨⟨%g4, B4⟩, ⟨%g6, B6⟩⟩, ⟨⟨%g5, Z5⟩, ⟨%g7, Z7⟩⟩⟩
  dsimp only [WP]
  -- the peers' landing buffers, chunk by chunk
  ihave P2 := ((split8 (partner c) rxM (Memref.isWhole_whole _) fullShare g2).1.trans (Entails.of_eq (bigSep_fin8 _))) $$ P2
  icases P2 with ⟨P2_0, P2_1, P2_2, P2_3, P2_4, P2_5, P2_6, P2_7⟩
  ihave P3 := ((split2 (partner c) rx2M (Memref.isWhole_whole _) fullShare g3).1.trans (Entails.of_eq (bigSep_fin2 _))) $$ P3
  icases P3 with ⟨P3_0, P3_1⟩
  ihave B4 := ((split8 (buddy c) rydM (Memref.isWhole_whole _) fullShare g4).1.trans (Entails.of_eq (bigSep_fin8 _))) $$ B4
  icases B4 with ⟨B4_0, B4_1, B4_2, B4_3, B4_4, B4_5, B4_6, B4_7⟩
  ihave B6 := ((split3 (buddy c) ryrM (Memref.isWhole_whole _) fullShare g6).1.trans (Entails.of_eq (bigSep_fin3 _))) $$ B6
  icases B6 with ⟨B6_0, B6_1, B6_2⟩
  ihave Z5 := ((split8 (zpair c) rzdM (Memref.isWhole_whole _) fullShare g5).1.trans (Entails.of_eq (bigSep_fin8 _))) $$ Z5
  icases Z5 with ⟨Z5_0, Z5_1, Z5_2, Z5_3, Z5_4, Z5_5, Z5_6, Z5_7⟩
  ihave Z7 := ((split3 (zpair c) rzrM (Memref.isWhole_whole _) fullShare g7).1.trans (Entails.of_eq (bigSep_fin3 _))) $$ Z7
  icases Z7 with ⟨Z7_0, Z7_1, Z7_2⟩
  -- the ten chunks for the partner
  x_iter 0
  x_iter 1
  x_iter 2
  x_iter 3
  x_iter 4
  x_iter 5
  x_iter 6
  x_iter 7
  xd_iter 0
  xd_iter 1
  -- the eight chunks from the partner: forwarded, and added to the own quadrant
  fwd_iter 0
  fwd_iter 1
  fwd_iter 2
  fwd_iter 3
  fwd_iter 4
  fwd_iter 5
  fwd_iter 6
  fwd_iter 7
  -- the chunks forwarded by the z-pair and by the buddy; six of them forwarded on for the diagonal quadrant
  z_iter 0
  b_iter 0
  z_iter 1
  b_iter 1
  z_iter 2
  b_iter 2
  z_iter 3
  b_iter 3
  z_iter 4
  b_iter 4
  z_iter 5
  b_iter 5
  z_iter 6
  b_iter 6
  z_iter 7
  b_iter 7
  -- the diagonal quadrant
  d_direct 0
  d_direct 1
  d_via_y 0
  d_via_y 1
  d_via_y 2
  d_via_z 0
  d_via_z 1
  d_via_z 2
  -- every copy's source has been read: the lent shares come back
  sent x 0
  sent x 1
  sent x 2
  sent x 3
  sent x 4
  sent x 5
  sent x 6
  sent x 7
  sent xd 0
  sent xd 1
  sent yd 0
  sent yd 1
  sent yd 2
  sent yd 3
  sent yd 4
  sent yd 5
  sent yd 6
  sent yd 7
  sent zd 0
  sent zd 1
  sent zd 2
  sent zd 3
  sent zd 4
  sent zd 5
  sent zd 6
  sent zd 7
  sent yr 0
  sent yr 1
  sent yr 2
  sent zr 0
  sent zr 1
  sent zr 2
  try dsimp only [Prog.bind]
  try sl_exec_parts
  try dsimp only [Prog.bind]
  try sl_exec_parts
  -- the body's end: the cells are closed and the scratch buffers whole again
  close_body
  sl_step
  iapply Hk
  isplitl [HPhi]; · iexact HPhi
  isplitl [HO]; · iexists _; iexact HO
  isplitl [Hx]; · iexact Hx
  -- the 32 stored chunks cover the result block
  ihave Ho := (Entails.of_eq (congrArg (pt c oM) (outW_eq m c fo))) $$ [Ho]
  · iexact Ho
  iexact Ho

/-- The library's body obligation on device `c`. -/
theorem body_obligation (c : Dev nD) : BodyObligation (dats (F := F) m ρ 0 c) (defs₀ (F := F)) 𝒱₀ () Set.univ :=
  body_obligation_of m ρ (sound_body m) c

end Cert.KernelIdeal.RS

end
-- ==== Proof.Value.lean ====
import proofs.«901033_g7700000000001034_dist_rs_v7x_xyz2x2x4_x_m2048_n512_bf16_1_alg».proof.Proof.Proto
import proofs.«901033_g7700000000001034_dist_rs_v7x_xyz2x2x4_x_m2048_n512_bf16_1_alg».proof.Proof.Slots
import proofs.«901033_g7700000000001034_dist_rs_v7x_xyz2x2x4_x_m2048_n512_bf16_1_alg».proof.Proof.RefValue
import proofs.«901033_g7700000000001034_dist_rs_v7x_xyz2x2x4_x_m2048_n512_bf16_1_alg».proof.Proof.Mesh
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.RS

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The value bridge at the ideal values

At the ideal values a float is an extended real and a format change is the identity. Device c = 8·x + 4·y + z holds
plane x of the whole array X : [2, 2048, 1024]. Row r of its result block lies in one of four quadrants of 512 rows and
there in one of eight chunks of 64 rows; the entry at (r, j) is the device's own entry at (r, 512·x + j) plus the entry
of the chunk routed to it, and every routed chunk — directly from the partner, through the z peer, through the y peer,
or through both — was cut by a device with the other x coordinate from its own plane at the same row and column. All
devices with one x coordinate hold the same plane, so the entry is X 0 r (512·x + j) + X 1 r (512·x + j) in one order or
the other: the reference's result on device c's columns. -/

/-! ## The blocks the devices hold, read by row and column -/

/-- The one block of the argument's window is the whole block a device holds. -/
theorem blk_emb (i : S1x2048x1024.Idx) : (win0_0.blk (0 : Fin 1)).view.emb i = i := by
  funext a
  refine Fin.ext ?_
  exact Window.rect_emb_val_of_index_zero win0_0 (0 : Fin 1) a rfl i

theorem xstg_apply (m : (ℓ : Loc nD τ sig) → Buf (Elt Ideal) ℓ) (c : Dev nD) (i : S1x2048x1024.Idx) :
    xstg m c i = m ((c : Thread nD τ).loc main_arg0) i := by
  unfold xstg
  rw [View.read_apply, blk_emb]
  rfl

/-- Row r, column q of the block device d holds (its one plane); 0 off the block. -/
def Xn (m : (ℓ : Loc nD τ sig) → Buf (Elt Ideal) ℓ) (d : Dev nD) (r q : ℕ) : EReal :=
  if h : r < 2048 ∧ q < 1024 then
    (show EReal from m ((d : Thread nD τ).loc main_arg0) (ix3 (0 : Fin 1) (⟨r, h.1⟩ : Fin 2048) (⟨q, h.2⟩ : Fin 1024)))
  else 0

theorem Xn_of_idx (m : (ℓ : Loc nD τ sig) → Buf (Elt Ideal) ℓ) (d : Dev nD) (j : S1x2048x1024.Idx) :
    (show EReal from m ((d : Thread nD τ).loc main_arg0) j) = Xn m d (j 1).val (j 2).val := by
  obtain ⟨z, r, q, rfl⟩ : ∃ (z : Fin 1) (r : Fin 2048) (q : Fin 1024), j = ix3 z r q := ⟨j 0, j 1, j 2, eq_ix3 j⟩
  obtain rfl : z = 0 := Subsingleton.elim _ _
  unfold Xn
  rw [dif_pos ⟨r.isLt, q.isLt⟩]

/-- A 1 × 64 × 512 load from the staged block at offsets off reads row off 1 + y 1, column off 2 + y 2. -/
theorem xread (m : (ℓ : Loc nD τ sig) → Buf (Elt Ideal) ℓ) (d : Dev nD) (off : Fin 3 → ℕ)
    (inb : ∀ a, off a + S1x64x512.size a ≤ S1x2048x1024.size a) (y : S1x64x512.Idx) :
    (show EReal from (xM : Memref sig .tc .vmem S1x2048x1024 .f32).view.readAt (Elt Ideal)
      (Rect.unit (s := S1x2048x1024) off S1x64x512.size inb).toLoadRect (xstg m d) y)
      = Xn m d (off 1 + (y 1).val) (off 2 + (y 2).val) := by
  have h := Xn_of_idx m d (xM.view.emb ((Rect.unit (s := S1x2048x1024) off S1x64x512.size inb).toLoadRect.idx y))
  have e1 : ((xM.view.emb ((Rect.unit (s := S1x2048x1024) off S1x64x512.size inb).toLoadRect.idx y)) 1).val = off 1 + (y 1).val := by
    show off 1 + 1 * (y 1).val = off 1 + (y 1).val
    omega
  have e2 : ((xM.view.emb ((Rect.unit (s := S1x2048x1024) off S1x64x512.size inb).toLoadRect.idx y)) 2).val = off 2 + (y 2).val := by
    show off 2 + 1 * (y 2).val = off 2 + (y 2).val
    omega
  rw [e1, e2] at h
  exact (xstg_apply m d _).trans h

/-! ## The two payloads at the ideal values

A format change is the identity and the shape changes only drop or add the unit axis, so the chunk sent is the
chunk loaded, and the chunk stored is the own chunk plus the routed chunk, entry by entry. -/

theorem pay1_apply (v : Vec Ideal S1x64x512 .f32) (a : Fin 1) (r : Fin 64) (q : Fin 512) :
    (show EReal from k0_pay1 (F := Ideal) v (ix3 a r q)) = (show EReal from v (ix3 (0 : Fin 1) r q)) := by
  unfold k0_pay1
  show (show EReal from shapeCast S1x64x512 (truncf (F := Ideal) .bf16 (shapeCast S64x512 v shapeCasts_S1x64x512_S64x512) bitsLt_bf16_f32) shapeCasts_S64x512_S1x64x512 (ix3 a r q)) = _
  rw [shapeCast_ab_1ab_apply, truncf_apply, shapeCast_1ab_ab_apply]

theorem pay13_apply (buf : Vec Ideal S1x64x512 .bf16) (x : Vec Ideal S1x64x512 .f32) (r : Fin 64) (q : Fin 512) :
    (show EReal from k0_pay13 (F := Ideal) buf x (ix2 r q))
      = (show EReal from x (ix3 (0 : Fin 1) r q)) + (show EReal from buf (ix3 (0 : Fin 1) r q)) := by
  unfold k0_pay13
  show (show EReal from addf (F := Ideal) (truncf (F := Ideal) .bf16 (shapeCast S64x512 x shapeCasts_S1x64x512_S64x512) bitsLt_bf16_f32)
    (shapeCast S64x512 buf shapeCasts_S1x64x512_S64x512) (ix2 r q)) = _
  rw [addf_apply, truncf_apply, shapeCast_1ab_ab_apply, shapeCast_1ab_ab_apply]

/-! ## What the scratch buffers end with, by row and column of the sender's block -/

theorem SX_apply (m : (ℓ : Loc nD τ sig) → Buf (Elt Ideal) ℓ) (d : Dev nD) (k : Fin 8) (r : Fin 64) (q : Fin 512) :
    (show EReal from SX m d (ix3 k r q))
      = Xn m d ((k0_off1 d (BitVec.ofNat 32 (64 * k.val))) 1 + r.val) ((k0_off1 d (BitVec.ofNat 32 (64 * k.val))) 2 + q.val) := by
  unfold SX
  exact (pay1_apply _ 0 r q).trans (xread m d _ _ (ix3 (0 : Fin 1) r q))

theorem SX2_apply (m : (ℓ : Loc nD τ sig) → Buf (Elt Ideal) ℓ) (d : Dev nD) (j : Fin 2) (r : Fin 64) (q : Fin 512) :
    (show EReal from SX2 m d (ix3 j r q))
      = Xn m d ((k0_off2 d (BitVec.ofNat 32 (384 + 64 * j.val))) 1 + r.val) ((k0_off2 d (BitVec.ofNat 32 (384 + 64 * j.val))) 2 + q.val) := by
  unfold SX2
  exact (pay1_apply _ 0 r q).trans (xread m d _ _ (ix3 (0 : Fin 1) r q))

/-- An entry of the result: the own chunk's entry plus the routed chunk's, when the routed chunk is device D's block
    at the same rows and columns. -/
theorem entry (m : (ℓ : Loc nD τ sig) → Buf (Elt Ideal) ℓ) (c D : Dev nD) (off : Fin 3 → ℕ)
    (inb : ∀ a, off a + S1x64x512.size a ≤ S1x2048x1024.size a) (buf : Vec Ideal S1x64x512 .bf16) (r : Fin 64) (q : Fin 512)
    (hbuf : (show EReal from buf (ix3 (0 : Fin 1) r q)) = Xn m D (off 1 + r.val) (off 2 + q.val)) :
    (show EReal from k0_pay13 (F := Ideal) buf ((xM : Memref sig .tc .vmem S1x2048x1024 .f32).view.readAt (Elt Ideal)
        (Rect.unit (s := S1x2048x1024) off S1x64x512.size inb).toLoadRect (xstg m c)) (ix2 r q))
      = Xn m c (off 1 + r.val) (off 2 + q.val) + Xn m D (off 1 + r.val) (off 2 + q.val) :=
  (pay13_apply _ _ r q).trans (congrArg₂ (· + ·) (xread m c off inb (ix3 (0 : Fin 1) r q)) hbuf)

/-- The same with the chunk index given up to its value. -/
theorem SX_apply' (m : (ℓ : Loc nD τ sig) → Buf (Elt Ideal) ℓ) (d : Dev nD) (k k' : Fin 8) (h : k'.val = k.val)
    (r : Fin 64) (q : Fin 512) :
    (show EReal from SX m d (ix3 k' r q))
      = Xn m d ((k0_off1 d (BitVec.ofNat 32 (64 * k.val))) 1 + r.val) ((k0_off1 d (BitVec.ofNat 32 (64 * k.val))) 2 + q.val) := by
  obtain rfl : k' = k := Fin.ext h
  exact SX_apply m d k' r q

/-! ## Every routed chunk is a block of a device with the partner's plane, at the receiver's rows and columns -/

theorem route_rx (m : (ℓ : Loc nD τ sig) → Buf (Elt Ideal) ℓ) (c : Dev nD) (k : Fin 8) (r : Fin 64) (q : Fin 512) :
    (show EReal from (rxM : Memref sig .tc .vmem S8x64x512 .bf16).view.readAt (Elt Ideal) (rect8 k) (RX m c) (ix3 (0 : Fin 1) r q))
      = Xn m (partner c) ((k0_off3 c (BitVec.ofNat 32 (64 * k.val))) 1 + r.val) ((k0_off3 c (BitVec.ofNat 32 (64 * k.val))) 2 + q.val) := by
  have h := SX_apply m (partner c) k r q
  rw [off1_partner] at h
  exact (readAt_chunk_rx k (RX m c) (ix3 (0 : Fin 1) r q)).trans h

theorem route_rzd (m : (ℓ : Loc nD τ sig) → Buf (Elt Ideal) ℓ) (c : Dev nD) (k : Fin 8) (r : Fin 64) (q : Fin 512) :
    (show EReal from (rzdM : Memref sig .tc .vmem S8x64x512 .bf16).view.readAt (Elt Ideal) (rect8 k) (RZD m c) (ix3 (0 : Fin 1) r q))
      = Xn m (partner (zpair c)) ((k0_off5 c (BitVec.ofNat 32 (64 * k.val))) 1 + r.val) ((k0_off5 c (BitVec.ofNat 32 (64 * k.val))) 2 + q.val) := by
  have h := SX_apply m (partner (zpair c)) k r q
  rw [off1_partner_zpair] at h
  exact (readAt_chunk_rzd k (RZD m c) (ix3 (0 : Fin 1) r q)).trans h

theorem route_ryd (m : (ℓ : Loc nD τ sig) → Buf (Elt Ideal) ℓ) (c : Dev nD) (k : Fin 8) (r : Fin 64) (q : Fin 512) :
    (show EReal from (rydM : Memref sig .tc .vmem S8x64x512 .bf16).view.readAt (Elt Ideal) (rect8 k) (RYD m c) (ix3 (0 : Fin 1) r q))
      = Xn m (partner (buddy c)) ((k0_off7 c (BitVec.ofNat 32 (64 * k.val))) 1 + r.val) ((k0_off7 c (BitVec.ofNat 32 (64 * k.val))) 2 + q.val) := by
  have h := SX_apply m (partner (buddy c)) k r q
  rw [off1_partner_buddy] at h
  exact (readAt_chunk_ryd k (RYD m c) (ix3 (0 : Fin 1) r q)).trans h

theorem route_ryr (m : (ℓ : Loc nD τ sig) → Buf (Elt Ideal) ℓ) (c : Dev nD) (k : Fin 8) (h3 : k.val < 3) (r : Fin 64) (q : Fin 512) :
    (show EReal from (ryrM : Memref sig .tc .vmem S3x64x512 .bf16).view.readAt (Elt Ideal) (rect3 ⟨k.val, h3⟩) (RYR m c) (ix3 (0 : Fin 1) r q))
      = Xn m (partner (zpair (buddy c))) ((k0_off9 c (BitVec.ofNat 32 (64 * k.val))) 1 + r.val) ((k0_off9 c (BitVec.ofNat 32 (64 * k.val))) 2 + q.val) := by
  have h := SX_apply' m (partner (zpair (buddy c))) k ⟨k.val, Nat.lt_trans h3 (by decide)⟩ rfl r q
  rw [off1_partner_zpair_buddy] at h
  exact (readAt_chunk_ryr ⟨k.val, h3⟩ (RYR m c) (ix3 (0 : Fin 1) r q)).trans h

theorem route_rzr (m : (ℓ : Loc nD τ sig) → Buf (Elt Ideal) ℓ) (c : Dev nD) (k : Fin 8) (h3 : 3 ≤ k.val) (h6 : k.val - 3 < 3)
    (r : Fin 64) (q : Fin 512) :
    (show EReal from (rzrM : Memref sig .tc .vmem S3x64x512 .bf16).view.readAt (Elt Ideal) (rect3 ⟨k.val - 3, h6⟩) (RZR m c) (ix3 (0 : Fin 1) r q))
      = Xn m (partner (buddy (zpair c))) ((k0_off9 c (BitVec.ofNat 32 (64 * k.val))) 1 + r.val) ((k0_off9 c (BitVec.ofNat 32 (64 * k.val))) 2 + q.val) := by
  have h := SX_apply' m (partner (buddy (zpair c))) k ⟨k.val - 3 + 3, by omega⟩ (Nat.sub_add_cancel h3) r q
  rw [off1_partner_buddy_zpair] at h
  exact (readAt_chunk_rzr ⟨k.val - 3, h6⟩ (RZR m c) (ix3 (0 : Fin 1) r q)).trans h

theorem route_rx2 (m : (ℓ : Loc nD τ sig) → Buf (Elt Ideal) ℓ) (c : Dev nD) (k : Fin 8) (h6 : 6 ≤ k.val) (h2 : k.val - 6 < 2)
    (r : Fin 64) (q : Fin 512) :
    (show EReal from (rx2M : Memref sig .tc .vmem S2x64x512 .bf16).view.readAt (Elt Ideal) (rect2 ⟨k.val - 6, h2⟩) (RX2 m c) (ix3 (0 : Fin 1) r q))
      = Xn m (partner c) ((k0_off9 c (BitVec.ofNat 32 (64 * k.val))) 1 + r.val) ((k0_off9 c (BitVec.ofNat 32 (64 * k.val))) 2 + q.val) := by
  have h := SX2_apply m (partner c) ⟨k.val - 6, h2⟩ r q
  rw [off2_partner] at h
  have e : 6 + (⟨k.val - 6, h2⟩ : Fin 2).val = k.val := Nat.add_sub_cancel' h6
  rw [e] at h
  exact (readAt_chunk_rx2 ⟨k.val - 6, h2⟩ (RX2 m c) (ix3 (0 : Fin 1) r q)).trans h

/-! ## The result block, entry by entry -/

theorem plane_pz (c : Dev nD) : (partner (zpair c)).val / 8 = (partner c).val / 8 := by revert c; decide
theorem plane_pb (c : Dev nD) : (partner (buddy c)).val / 8 = (partner c).val / 8 := by revert c; decide
theorem plane_pzb (c : Dev nD) : (partner (zpair (buddy c))).val / 8 = (partner c).val / 8 := by revert c; decide
theorem plane_pbz (c : Dev nD) : (partner (buddy (zpair c))).val / 8 = (partner c).val / 8 := by revert c; decide

/-- A row outside the own, the z peer's and the y peer's quadrant is in the diagonal one. -/
theorem quad9 (c : Dev nD) (r : ℕ) (hr : r < 2048) (h3 : ¬ r / 512 * 512 = rq3 c) (h5 : ¬ r / 512 * 512 = rq5 c)
    (h7 : ¬ r / 512 * 512 = rq7 c) : r / 512 * 512 = rq9 c := by
  have hm : r / 512 * 512 ∈ ({rq3 c, rq5 c, rq7 c, rq9 c} : Finset ℕ) := by
    rw [rq_perm]
    simp only [Finset.mem_insert, Finset.mem_singleton]
    omega
  simp only [Finset.mem_insert, Finset.mem_singleton] at hm
  rcases hm with h | h | h | h
  · exact absurd h h3
  · exact absurd h h5
  · exact absurd h h7
  · exact h

/-- Entry (r, j) of the result block of device c is its own block's entry at row r, column 512·(c/8) + j, plus the
    partner's there, once every device with the partner's plane holds the partner's block. -/
theorem outAt_apply (m : (ℓ : Loc nD τ sig) → Buf (Elt Ideal) ℓ) (c : Dev nD)
    (hs : ∀ D : Dev nD, D.val / 8 = (partner c).val / 8 → ∀ r q, Xn m D r q = Xn m (partner c) r q) (i : S2048x512.Idx) :
    (show EReal from outAt (F := Ideal) m c i)
      = Xn m c (i 0).val (512 * (c.val / 8) + (i 1).val) + Xn m (partner c) (i 0).val (512 * (c.val / 8) + (i 1).val) := by
  have hr : (i 0).val < 2048 := idx2_lt0 i
  have hk : (i 0).val % 512 / 64 < 8 := by omega
  have h64 : (i 0).val % 64 < 64 := Nat.mod_lt _ (by decide)
  unfold outAt
  dsimp only
  split_ifs with h3 h5 h7 hk3 hk6
  · refine (entry m c (partner c) _ _ _ ⟨(i 0).val % 64, h64⟩ (i 1) (route_rx m c ⟨(i 0).val % 512 / 64, hk⟩ _ _)).trans ?_
    have e1 := off3_row c ⟨(i 0).val % 512 / 64, hk⟩
    have e2 := off3_col c ⟨(i 0).val % 512 / 64, hk⟩
    rw [e1, e2]
    have e : rq3 c + 64 * ((i 0).val % 512 / 64) + (i 0).val % 64 = (i 0).val := by omega
    rw [e]
  · refine (entry m c (partner (zpair c)) _ _ _ ⟨(i 0).val % 64, h64⟩ (i 1) (route_rzd m c ⟨(i 0).val % 512 / 64, hk⟩ _ _)).trans ?_
    have e1 := off5_row c ⟨(i 0).val % 512 / 64, hk⟩
    have e2 := off5_col c ⟨(i 0).val % 512 / 64, hk⟩
    rw [e1, e2]
    have e : rq5 c + 64 * ((i 0).val % 512 / 64) + (i 0).val % 64 = (i 0).val := by omega
    rw [e, hs _ (plane_pz c)]
  · refine (entry m c (partner (buddy c)) _ _ _ ⟨(i 0).val % 64, h64⟩ (i 1) (route_ryd m c ⟨(i 0).val % 512 / 64, hk⟩ _ _)).trans ?_
    have e1 := off7_row c ⟨(i 0).val % 512 / 64, hk⟩
    have e2 := off7_col c ⟨(i 0).val % 512 / 64, hk⟩
    rw [e1, e2]
    have e : rq7 c + 64 * ((i 0).val % 512 / 64) + (i 0).val % 64 = (i 0).val := by omega
    rw [e, hs _ (plane_pb c)]
  · have h9 := quad9 c (i 0).val hr h3 h5 h7
    refine (entry m c (partner (zpair (buddy c))) _ _ _ ⟨(i 0).val % 64, h64⟩ (i 1)
      (route_ryr m c ⟨(i 0).val % 512 / 64, hk⟩ hk3 _ _)).trans ?_
    have e1 := off9_row c ⟨(i 0).val % 512 / 64, hk⟩
    have e2 := off9_col c ⟨(i 0).val % 512 / 64, hk⟩
    rw [e1, e2]
    have e : rq9 c + 64 * ((i 0).val % 512 / 64) + (i 0).val % 64 = (i 0).val := by omega
    rw [e, hs _ (plane_pzb c)]
  · have h9 := quad9 c (i 0).val hr h3 h5 h7
    refine (entry m c (partner (buddy (zpair c))) _ _ _ ⟨(i 0).val % 64, h64⟩ (i 1)
      (route_rzr m c ⟨(i 0).val % 512 / 64, hk⟩ (Nat.le_of_not_lt hk3) (show (i 0).val % 512 / 64 - 3 < 3 by omega) _ _)).trans ?_
    have e1 := off9_row c ⟨(i 0).val % 512 / 64, hk⟩
    have e2 := off9_col c ⟨(i 0).val % 512 / 64, hk⟩
    rw [e1, e2]
    have e : rq9 c + 64 * ((i 0).val % 512 / 64) + (i 0).val % 64 = (i 0).val := by omega
    rw [e, hs _ (plane_pbz c)]
  · have h9 := quad9 c (i 0).val hr h3 h5 h7
    refine (entry m c (partner c) _ _ _ ⟨(i 0).val % 64, h64⟩ (i 1)
      (route_rx2 m c ⟨(i 0).val % 512 / 64, hk⟩ (Nat.le_of_not_lt hk6) (show (i 0).val % 512 / 64 - 6 < 2 by omega) _ _)).trans ?_
    have e1 := off9_row c ⟨(i 0).val % 512 / 64, hk⟩
    have e2 := off9_col c ⟨(i 0).val % 512 / 64, hk⟩
    rw [e1, e2]
    have e : rq9 c + 64 * ((i 0).val % 512 / 64) + (i 0).val % 64 = (i 0).val := by omega
    rw [e]

/-! ## Devices with one x coordinate hold one plane; the bridge to the reference -/

/-- The block coordinates of a device along the planes depend only on its x coordinate. -/
theorem meshBlock_same (d d' : Dev nD) (h : d.val / 8 = d'.val / 8)
    (hp : ∀ b, ∀ a ∈ (![[0], [], []] : Fin 3 → List Nat) b, 0 < [2, 2, 4].getD a 0) :
    Layout.meshBlock [2, 2, 4] ![[0], [], []] d hp = Layout.meshBlock [2, 2, 4] ![[0], [], []] d' hp := by
  funext b
  refine Fin.ext ?_
  match b with
  | ⟨0, _⟩ =>
    show Layout.meshLin [2, 2, 4] d.val [0] = Layout.meshLin [2, 2, 4] d'.val [0]
    simp only [Layout.meshLin, Layout.meshCoord, Layout.cutSize]
    show d.val / 8 % 2 * 1 + 0 = d'.val / 8 % 2 * 1 + 0
    rw [h]
  | ⟨1, _⟩ => rfl
  | ⟨2, _⟩ => rfl

theorem plane_same (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev nD, m ((c.tc : Thread nD τ).loc main_arg0)
      = Layout.blockN ⟨3, ![1, 2048, 1024]⟩ ⟨3, ![2, 2048, 1024]⟩ (Layout.meshBlock [2, 2, 4] ![[0], [], []] c)
          (m' (((0 : Dev Cert.ReferenceIdeal.nD).tc : Thread _ _).loc Cert.ReferenceIdeal.main_arg0)))
    (d d' : Dev nD) (h : d.val / 8 = d'.val / 8) (r q : ℕ) : Xn m d r q = Xn m d' r q := by
  unfold Xn
  split
  · rw [hagree d, hagree d', meshBlock_same d d' h]
  · rfl

theorem kOut_apply (m : (ℓ : Loc nD τ sig) → Buf (Elt Ideal) ℓ) (c : Dev nD) (i : S2048x512.Idx) :
    (show EReal from Cert.RefValue.kOut m c i)
      = Xn m c (i 0).val (512 * (c.val / 8) + (i 1).val) + Xn m (partner c) (i 0).val (512 * (c.val / 8) + (i 1).val) :=
  congrArg₂ (· + ·) (Xn_of_idx m c (Cert.RefValue.xIdx c i)) (Xn_of_idx m (partner c) (Cert.RefValue.xIdx c i))

/-- THE VALUE BRIDGE. With every device holding its plane of the whole array, the result block the kernel leaves on
    device c is device c's column block of the reference's result. -/
theorem outAt_eq_block (m : (ℓ : Loc nD τ sig) → Buf (Elt Ideal) ℓ)
    (m' : (ℓ : Loc Cert.ReferenceIdeal.nD Cert.ReferenceIdeal.τ Cert.ReferenceIdeal.sig) → Buf (Elt Ideal) ℓ)
    (hagree : ∀ c : Dev nD, m ((c.tc : Thread nD τ).loc main_arg0)
      = Layout.blockN ⟨3, ![1, 2048, 1024]⟩ ⟨3, ![2, 2048, 1024]⟩ (Layout.meshBlock [2, 2, 4] ![[0], [], []] c)
          (m' (((0 : Dev Cert.ReferenceIdeal.nD).tc : Thread _ _).loc Cert.ReferenceIdeal.main_arg0)))
    (c : Dev nD) :
    (outAt (F := Ideal) m c : Buf (Elt Ideal) ((c : Thread nD τ).loc main_v1))
      = Layout.blockN ⟨2, ![2048, 512]⟩ ⟨2, ![2048, 1024]⟩ (Layout.meshBlock [2, 2, 4] ![[], [0]] c)
          (Cert.ReferenceIdeal.Read.val_main_v1 (F := Ideal)
            (m' (((0 : Dev Cert.ReferenceIdeal.nD).tc : Thread _ _).loc Cert.ReferenceIdeal.main_arg0))) := by
  rw [← Cert.RefValue.kOut_eq_block m m' hagree c]
  funext i
  exact (outAt_apply m c (fun D hD r q => plane_same m m' hagree D (partner c) hD r q) i).trans (kOut_apply m c i).symm

end Cert.KernelIdeal.RS

end
-- ==== Proof.K.Mesh.lean ====
import proofs.«901033_g7700000000001034_dist_rs_v7x_xyz2x2x4_x_m2048_n512_bf16_1_alg».proof.Proof.Gen.Kernel
import Idealize.ShloMosaic.Lib.Decide
import Mathlib.Data.Finset.Insert

noncomputable section

namespace Cert.Kernel.RS

open Cert.Kernel Cert.Kernel.Gen
open Idealize.ShloMosaic

/-! ## The mesh: device id = 8·x + 4·y + z on the 2 × 2 × 4 mesh -/

/-- The device with the other x coordinate. -/
def partner (c : Dev nD) : Dev nD := ⟨(c.val + 8) % 16, Nat.mod_lt _ (by decide)⟩
/-- The device with the other y coordinate. -/
def buddy (c : Dev nD) : Dev nD := ⟨(c.val / 8) * 8 + (c.val + 4) % 8, (show _ < 16 from by have h : c.val < 16 := c.isLt; omega)⟩
/-- The other device of the z pair {2j, 2j+1}. -/
def zpair (c : Dev nD) : Dev nD := ⟨(c.val / 2) * 2 + (c.val + 1) % 2, (show _ < 16 from by have h : c.val < 16 := c.isLt; omega)⟩

theorem partner_partner (c : Dev nD) : partner (partner c) = c := by revert c; decide
theorem buddy_buddy (c : Dev nD) : buddy (buddy c) = c := by revert c; decide
theorem zpair_zpair (c : Dev nD) : zpair (zpair c) = c := by revert c; decide

/-! ## Each device the kernel addresses is one of the three peers

The three barrier signals go to the x, y and z peer; the ten first-stage copies go to the x peer;
each of the eight second-stage chunks is forwarded to the y peer and to the z peer; the three
third-stage copies of the z-received chunks go to the y peer and the three of the y-received
chunks to the z peer. -/

theorem dev1_eq (c : Dev nD) : (⟨k0_dev1 c, k0_dev1_lt c⟩ : Dev nD) = partner c := by revert c; decide +kernel
theorem dev2_eq (c : Dev nD) : (⟨k0_dev2 c, k0_dev2_lt c⟩ : Dev nD) = buddy c := by revert c; decide +kernel
theorem dev3_eq (c : Dev nD) : (⟨k0_dev3 c, k0_dev3_lt c⟩ : Dev nD) = zpair c := by revert c; decide +kernel
theorem dev4_eq (c : Dev nD) : (⟨k0_dev4 c, k0_dev4_lt c⟩ : Dev nD) = partner c := by revert c; decide +kernel
theorem dev5_eq (c : Dev nD) : (⟨k0_dev5 c, k0_dev5_lt c⟩ : Dev nD) = partner c := by revert c; decide +kernel
theorem dev6_eq (c : Dev nD) : (⟨k0_dev6 c, k0_dev6_lt c⟩ : Dev nD) = partner c := by revert c; decide +kernel
theorem dev7_eq (c : Dev nD) : (⟨k0_dev7 c, k0_dev7_lt c⟩ : Dev nD) = partner c := by revert c; decide +kernel
theorem dev8_eq (c : Dev nD) : (⟨k0_dev8 c, k0_dev8_lt c⟩ : Dev nD) = partner c := by revert c; decide +kernel
theorem dev9_eq (c : Dev nD) : (⟨k0_dev9 c, k0_dev9_lt c⟩ : Dev nD) = partner c := by revert c; decide +kernel
theorem dev10_eq (c : Dev nD) : (⟨k0_dev10 c, k0_dev10_lt c⟩ : Dev nD) = partner c := by revert c; decide +kernel
theorem dev11_eq (c : Dev nD) : (⟨k0_dev11 c, k0_dev11_lt c⟩ : Dev nD) = partner c := by revert c; decide +kernel
theorem dev12_eq (c : Dev nD) : (⟨k0_dev12 c, k0_dev12_lt c⟩ : Dev nD) = partner c := by revert c; decide +kernel
theorem dev13_eq (c : Dev nD) : (⟨k0_dev13 c, k0_dev13_lt c⟩ : Dev nD) = partner c := by revert c; decide +kernel
theorem dev14_eq (c : Dev nD) : (⟨k0_dev14 c, k0_dev14_lt c⟩ : Dev nD) = buddy c := by revert c; decide +kernel
theorem dev15_eq (c : Dev nD) : (⟨k0_dev15 c, k0_dev15_lt c⟩ : Dev nD) = zpair c := by revert c; decide +kernel
theorem dev16_eq (c : Dev nD) : (⟨k0_dev16 c, k0_dev16_lt c⟩ : Dev nD) = buddy c := by revert c; decide +kernel
theorem dev17_eq (c : Dev nD) : (⟨k0_dev17 c, k0_dev17_lt c⟩ : Dev nD) = zpair c := by revert c; decide +kernel
theorem dev18_eq (c : Dev nD) : (⟨k0_dev18 c, k0_dev18_lt c⟩ : Dev nD) = buddy c := by revert c; decide +kernel
theorem dev19_eq (c : Dev nD) : (⟨k0_dev19 c, k0_dev19_lt c⟩ : Dev nD) = zpair c := by revert c; decide +kernel
theorem dev20_eq (c : Dev nD) : (⟨k0_dev20 c, k0_dev20_lt c⟩ : Dev nD) = buddy c := by revert c; decide +kernel
theorem dev21_eq (c : Dev nD) : (⟨k0_dev21 c, k0_dev21_lt c⟩ : Dev nD) = zpair c := by revert c; decide +kernel
theorem dev22_eq (c : Dev nD) : (⟨k0_dev22 c, k0_dev22_lt c⟩ : Dev nD) = buddy c := by revert c; decide +kernel
theorem dev23_eq (c : Dev nD) : (⟨k0_dev23 c, k0_dev23_lt c⟩ : Dev nD) = zpair c := by revert c; decide +kernel
theorem dev24_eq (c : Dev nD) : (⟨k0_dev24 c, k0_dev24_lt c⟩ : Dev nD) = buddy c := by revert c; decide +kernel
theorem dev25_eq (c : Dev nD) : (⟨k0_dev25 c, k0_dev25_lt c⟩ : Dev nD) = zpair c := by revert c; decide +kernel
theorem dev26_eq (c : Dev nD) : (⟨k0_dev26 c, k0_dev26_lt c⟩ : Dev nD) = buddy c := by revert c; decide +kernel
theorem dev27_eq (c : Dev nD) : (⟨k0_dev27 c, k0_dev27_lt c⟩ : Dev nD) = zpair c := by revert c; decide +kernel
theorem dev28_eq (c : Dev nD) : (⟨k0_dev28 c, k0_dev28_lt c⟩ : Dev nD) = buddy c := by revert c; decide +kernel
theorem dev29_eq (c : Dev nD) : (⟨k0_dev29 c, k0_dev29_lt c⟩ : Dev nD) = zpair c := by revert c; decide +kernel
theorem dev30_eq (c : Dev nD) : (⟨k0_dev30 c, k0_dev30_lt c⟩ : Dev nD) = buddy c := by revert c; decide +kernel
theorem dev31_eq (c : Dev nD) : (⟨k0_dev31 c, k0_dev31_lt c⟩ : Dev nD) = buddy c := by revert c; decide +kernel
theorem dev32_eq (c : Dev nD) : (⟨k0_dev32 c, k0_dev32_lt c⟩ : Dev nD) = buddy c := by revert c; decide +kernel
theorem dev33_eq (c : Dev nD) : (⟨k0_dev33 c, k0_dev33_lt c⟩ : Dev nD) = zpair c := by revert c; decide +kernel
theorem dev34_eq (c : Dev nD) : (⟨k0_dev34 c, k0_dev34_lt c⟩ : Dev nD) = zpair c := by revert c; decide +kernel
theorem dev35_eq (c : Dev nD) : (⟨k0_dev35 c, k0_dev35_lt c⟩ : Dev nD) = zpair c := by revert c; decide +kernel

/-! ## The three peers are three different devices, none the device itself, and the flips commute -/

theorem partner_ne (c : Dev nD) : partner c ≠ c := by revert c; decide
theorem buddy_ne (c : Dev nD) : buddy c ≠ c := by revert c; decide
theorem zpair_ne (c : Dev nD) : zpair c ≠ c := by revert c; decide
theorem partner_ne_buddy (c : Dev nD) : partner c ≠ buddy c := by revert c; decide
theorem partner_ne_zpair (c : Dev nD) : partner c ≠ zpair c := by revert c; decide
theorem buddy_ne_zpair (c : Dev nD) : buddy c ≠ zpair c := by revert c; decide
theorem partner_buddy_comm (c : Dev nD) : partner (buddy c) = buddy (partner c) := by revert c; decide
theorem partner_zpair_comm (c : Dev nD) : partner (zpair c) = zpair (partner c) := by revert c; decide
theorem buddy_zpair_comm (c : Dev nD) : buddy (zpair c) = zpair (buddy c) := by revert c; decide

/-! ## What a device sends is what its receiver adds

A device sends its partner the rows of its own quadrant (and, in the two direct chunks, of the
diagonal quadrant) in the partner's column half. Read from the receiving side: the block that
arrives from the partner, from the partner of the z peer, from the partner of the y peer and from
the partner of the diagonal device is the block at the receiver's own, z, y and diagonal row
quadrant, in the receiver's own column half. -/

theorem off1_partner (c : Dev nD) (k : Fin 8) :
    k0_off1 (partner c) (BitVec.ofNat 32 (64 * k.val)) = k0_off3 c (BitVec.ofNat 32 (64 * k.val)) := by
  revert c k; decide +kernel
theorem off1_partner_zpair (c : Dev nD) (k : Fin 8) :
    k0_off1 (partner (zpair c)) (BitVec.ofNat 32 (64 * k.val)) = k0_off5 c (BitVec.ofNat 32 (64 * k.val)) := by
  revert c k; decide +kernel
theorem off1_partner_buddy (c : Dev nD) (k : Fin 8) :
    k0_off1 (partner (buddy c)) (BitVec.ofNat 32 (64 * k.val)) = k0_off7 c (BitVec.ofNat 32 (64 * k.val)) := by
  revert c k; decide +kernel
theorem off2_partner (c : Dev nD) (j : Fin 2) :
    k0_off2 (partner c) (BitVec.ofNat 32 (384 + 64 * j.val)) = k0_off9 c (BitVec.ofNat 32 (64 * (6 + j.val))) := by
  revert c j; decide +kernel
theorem off1_partner_zpair_buddy (c : Dev nD) (k : Fin 8) :
    k0_off1 (partner (zpair (buddy c))) (BitVec.ofNat 32 (64 * k.val)) = k0_off9 c (BitVec.ofNat 32 (64 * k.val)) := by
  revert c k; decide +kernel
theorem off1_partner_buddy_zpair (c : Dev nD) (k : Fin 8) :
    k0_off1 (partner (buddy (zpair c))) (BitVec.ofNat 32 (64 * k.val)) = k0_off9 c (BitVec.ofNat 32 (64 * k.val)) := by
  revert c k; decide +kernel

/-! ## A sum is stored at the rows its local addend was loaded from

Each store to the output covers all 512 columns of the rows its load covers; each load reads
plane 0, and the columns of the device's own half, 512·x onwards. -/

theorem off4_row (c : Dev nD) (k : Fin 8) :
    (k0_off4 c (BitVec.ofNat 32 (64 * k.val))) 0 = (k0_off3 c (BitVec.ofNat 32 (64 * k.val))) 1 := by
  revert c k; decide +kernel
theorem off6_row (c : Dev nD) (k : Fin 8) :
    (k0_off6 c (BitVec.ofNat 32 (64 * k.val))) 0 = (k0_off5 c (BitVec.ofNat 32 (64 * k.val))) 1 := by
  revert c k; decide +kernel
theorem off8_row (c : Dev nD) (k : Fin 8) :
    (k0_off8 c (BitVec.ofNat 32 (64 * k.val))) 0 = (k0_off7 c (BitVec.ofNat 32 (64 * k.val))) 1 := by
  revert c k; decide +kernel
theorem off10_row (c : Dev nD) (k : Fin 8) :
    (k0_off10 c (BitVec.ofNat 32 (64 * k.val))) 0 = (k0_off9 c (BitVec.ofNat 32 (64 * k.val))) 1 := by
  revert c k; decide +kernel

theorem off4_col (c : Dev nD) (k : Fin 8) : (k0_off4 c (BitVec.ofNat 32 (64 * k.val))) 1 = 0 := by
  revert c k; decide +kernel
theorem off6_col (c : Dev nD) (k : Fin 8) : (k0_off6 c (BitVec.ofNat 32 (64 * k.val))) 1 = 0 := by
  revert c k; decide +kernel
theorem off8_col (c : Dev nD) (k : Fin 8) : (k0_off8 c (BitVec.ofNat 32 (64 * k.val))) 1 = 0 := by
  revert c k; decide +kernel
theorem off10_col (c : Dev nD) (k : Fin 8) : (k0_off10 c (BitVec.ofNat 32 (64 * k.val))) 1 = 0 := by
  revert c k; decide +kernel

theorem off3_col (c : Dev nD) (k : Fin 8) :
    (k0_off3 c (BitVec.ofNat 32 (64 * k.val))) 2 = 512 * (c.val / 8) := by revert c k; decide +kernel
theorem off5_col (c : Dev nD) (k : Fin 8) :
    (k0_off5 c (BitVec.ofNat 32 (64 * k.val))) 2 = 512 * (c.val / 8) := by revert c k; decide +kernel
theorem off7_col (c : Dev nD) (k : Fin 8) :
    (k0_off7 c (BitVec.ofNat 32 (64 * k.val))) 2 = 512 * (c.val / 8) := by revert c k; decide +kernel
theorem off9_col (c : Dev nD) (k : Fin 8) :
    (k0_off9 c (BitVec.ofNat 32 (64 * k.val))) 2 = 512 * (c.val / 8) := by revert c k; decide +kernel

theorem off3_plane (c : Dev nD) (k : Fin 8) : (k0_off3 c (BitVec.ofNat 32 (64 * k.val))) 0 = 0 := by
  revert c k; decide +kernel
theorem off5_plane (c : Dev nD) (k : Fin 8) : (k0_off5 c (BitVec.ofNat 32 (64 * k.val))) 0 = 0 := by
  revert c k; decide +kernel
theorem off7_plane (c : Dev nD) (k : Fin 8) : (k0_off7 c (BitVec.ofNat 32 (64 * k.val))) 0 = 0 := by
  revert c k; decide +kernel
theorem off9_plane (c : Dev nD) (k : Fin 8) : (k0_off9 c (BitVec.ofNat 32 (64 * k.val))) 0 = 0 := by
  revert c k; decide +kernel

/-! ## The four row quadrants

The rows 0 … 2047 of the output fall into four quadrants of 512 rows. A device adds into its own
quadrant (2y + zb), the z peer's (2y + 1 − zb), the y peer's (2(1 − y) + zb) and the diagonal one
(2(1 − y) + 1 − zb): four different quadrants, so all of them; chunk k of a quadrant is its rows
64k … 64k + 63. -/

/-- First row of the device's own quadrant. -/
def rq3 (c : Dev nD) : ℕ := (k0_off3 c (BitVec.ofNat 32 0)) 1
/-- First row of the z peer's quadrant. -/
def rq5 (c : Dev nD) : ℕ := (k0_off5 c (BitVec.ofNat 32 0)) 1
/-- First row of the y peer's quadrant. -/
def rq7 (c : Dev nD) : ℕ := (k0_off7 c (BitVec.ofNat 32 0)) 1
/-- First row of the diagonal quadrant. -/
def rq9 (c : Dev nD) : ℕ := (k0_off9 c (BitVec.ofNat 32 0)) 1

theorem rq_perm (c : Dev nD) : ({rq3 c, rq5 c, rq7 c, rq9 c} : Finset ℕ) = {0, 512, 1024, 1536} := by
  revert c; decide +kernel

theorem off3_row (c : Dev nD) (k : Fin 8) :
    (k0_off3 c (BitVec.ofNat 32 (64 * k.val))) 1 = rq3 c + 64 * k.val := by revert c k; decide +kernel
theorem off5_row (c : Dev nD) (k : Fin 8) :
    (k0_off5 c (BitVec.ofNat 32 (64 * k.val))) 1 = rq5 c + 64 * k.val := by revert c k; decide +kernel
theorem off7_row (c : Dev nD) (k : Fin 8) :
    (k0_off7 c (BitVec.ofNat 32 (64 * k.val))) 1 = rq7 c + 64 * k.val := by revert c k; decide +kernel
theorem off9_row (c : Dev nD) (k : Fin 8) :
    (k0_off9 c (BitVec.ofNat 32 (64 * k.val))) 1 = rq9 c + 64 * k.val := by revert c k; decide +kernel

end Cert.Kernel.RS

end
-- ==== Proof.K.Proto.lean ====
import proofs.«901033_g7700000000001034_dist_rs_v7x_xyz2x2x4_x_m2048_n512_bf16_1_alg».proof.Proof.K.Mesh
import proofs.«901033_g7700000000001034_dist_rs_v7x_xyz2x2x4_x_m2048_n512_bf16_1_alg».proof.Proof.Gen.Kernel.Skeleton
import proofs.«901033_g7700000000001034_dist_rs_v7x_xyz2x2x4_x_m2048_n512_bf16_1_alg».proof.Proof.Gen.Kernel.Launch
import proofs.«901033_g7700000000001034_dist_rs_v7x_xyz2x2x4_x_m2048_n512_bf16_1_alg».proof.Proof.Gen.Kernel.Points
import Idealize.ShloMosaic.Lib.Pipeline.Launch
import Idealize.ShloMosaic.Lib.Pipeline.Kit
import Idealize.ShloMosaic.Lib.Tactic
import Idealize.ShloMosaic.Lib.ValueIdx

set_option maxRecDepth 16384

noncomputable section

namespace Cert.Kernel.RS

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

/-! ## The buffers and their slots -/

abbrev xM : Memref sig .tc .vmem S1x2048x1024 .f32 := Memref.whole cc0_stg0_0
abbrev oM : Memref sig .tc .vmem S2048x512 .bf16 := Memref.whole cc0_stg1_0
abbrev sxM : Memref sig .tc .vmem S8x64x512 .bf16 := Memref.whole cc0_scratch0
abbrev sx2M : Memref sig .tc .vmem S2x64x512 .bf16 := Memref.whole cc0_scratch1
abbrev rxM : Memref sig .tc .vmem S8x64x512 .bf16 := Memref.whole cc0_scratch2
abbrev rx2M : Memref sig .tc .vmem S2x64x512 .bf16 := Memref.whole cc0_scratch3
abbrev rydM : Memref sig .tc .vmem S8x64x512 .bf16 := Memref.whole cc0_scratch4
abbrev rzdM : Memref sig .tc .vmem S8x64x512 .bf16 := Memref.whole cc0_scratch5
abbrev ryrM : Memref sig .tc .vmem S3x64x512 .bf16 := Memref.whole cc0_scratch6
abbrev rzrM : Memref sig .tc .vmem S3x64x512 .bf16 := Memref.whole cc0_scratch7

theorem inb8 (k : Fin 8) : ∀ a, (![k.val, 0, 0] : Fin 3 → Nat) a + S1x64x512.size a ≤ S8x64x512.size a := by
  revert k; decide
theorem inb2 (k : Fin 2) : ∀ a, (![k.val, 0, 0] : Fin 3 → Nat) a + S1x64x512.size a ≤ S2x64x512.size a := by
  revert k; decide
theorem inb3 (k : Fin 3) : ∀ a, (![k.val, 0, 0] : Fin 3 → Nat) a + S1x64x512.size a ≤ S3x64x512.size a := by
  revert k; decide

/-- Slot `k` of a buffer of eight 64 × 512 chunks, as the kernel slices it. -/
def slot8 (M : Memref sig .tc .vmem S8x64x512 .bf16) (k : Fin 8) : Memref sig .tc .vmem S64x512 .bf16 :=
  (M.slice (Rect.unit (s := S8x64x512) ![k.val, 0, 0] S1x64x512.size (inb8 k)) (fun _ => rfl)).squeeze S64x512 squeezes_S1x64x512_S64x512
def slot2 (M : Memref sig .tc .vmem S2x64x512 .bf16) (k : Fin 2) : Memref sig .tc .vmem S64x512 .bf16 :=
  (M.slice (Rect.unit (s := S2x64x512) ![k.val, 0, 0] S1x64x512.size (inb2 k)) (fun _ => rfl)).squeeze S64x512 squeezes_S1x64x512_S64x512
def slot3 (M : Memref sig .tc .vmem S3x64x512 .bf16) (k : Fin 3) : Memref sig .tc .vmem S64x512 .bf16 :=
  (M.slice (Rect.unit (s := S3x64x512) ![k.val, 0, 0] S1x64x512.size (inb3 k)) (fun _ => rfl)).squeeze S64x512 squeezes_S1x64x512_S64x512

example : slot8 rxM 0 = ((rxM.slice (Rect.unit (s := S8x64x512) ![0, 0, 0] S1x64x512.size inb_S8x64x512_S1x64x512_0_0_0) (fun _ => rfl)).squeeze S64x512 squeezes_S1x64x512_S64x512) := rfl

/-! ## Contents: what each buffer holds once its last chunk has landed, as one function of the launch memory -/

def xstg (c : Dev nD) : (cc0_stg0_0 : Ref sig .tc).ty.Contents (Elt F) :=
  (win0_0.blk (0 : Fin 1)).view.read (Elt F) (m ((c : Thread nD τ).loc main_arg0))

/-- The send buffer of device `c`: chunk `k` is rows `r_self c + 64 k …` of the PARTNER's columns of `c`'s block, cast. -/
def SX (c : Dev nD) : (cc0_scratch0 : Ref sig .tc).ty.Contents (Elt F) := fun i =>
  k0_pay1 ((xM : Memref sig .tc .vmem S1x2048x1024 .f32).view.readAt (Elt F)
    (Rect.unit (s := S1x2048x1024) (k0_off1 c (BitVec.ofNat 32 (64 * (i 0).val))) S1x64x512.size (k0_off1_inb c (i 0))).toLoadRect (xstg m c))
    (ValueIdx.ix3 (0 : Fin 1) (i 1) (i 2))
/-- The second send buffer: chunk `j` is rows `r_d c + 64 (6 + j) …` of the partner's columns. -/
def SX2 (c : Dev nD) : (cc0_scratch1 : Ref sig .tc).ty.Contents (Elt F) := fun i =>
  k0_pay1 ((xM : Memref sig .tc .vmem S1x2048x1024 .f32).view.readAt (Elt F)
    (Rect.unit (s := S1x2048x1024) (k0_off2 c (BitVec.ofNat 32 (384 + 64 * (i 0).val))) S1x64x512.size (k0_off2_inb c (i 0))).toLoadRect (xstg m c))
    (ValueIdx.ix3 (0 : Fin 1) (i 1) (i 2))
def RX (c : Dev nD) : (cc0_scratch2 : Ref sig .tc).ty.Contents (Elt F) := SX m (partner c)
def RX2 (c : Dev nD) : (cc0_scratch3 : Ref sig .tc).ty.Contents (Elt F) := SX2 m (partner c)
def RYD (c : Dev nD) : (cc0_scratch4 : Ref sig .tc).ty.Contents (Elt F) := RX m (buddy c)
def RZD (c : Dev nD) : (cc0_scratch5 : Ref sig .tc).ty.Contents (Elt F) := RX m (zpair c)
/-- chunk `i` (of three) is chunk `i` of the buddy's z-forwarded buffer -/
def RYR (c : Dev nD) : (cc0_scratch6 : Ref sig .tc).ty.Contents (Elt F) := fun i =>
  RZD m (buddy c) (ValueIdx.ix3 (⟨(i 0).val, Nat.lt_trans (show (i 0).val < 3 from (i 0).isLt) (by decide)⟩ : Fin 8) (i 1) (i 2))
/-- chunk `i` (of three) is chunk `i + 3` of the z-pair's y-forwarded buffer -/
def RZR (c : Dev nD) : (cc0_scratch7 : Ref sig .tc).ty.Contents (Elt F) := fun i =>
  RYD m (zpair c) (ValueIdx.ix3 (⟨(i 0).val + 3, by have h : (i 0).val < 3 := (i 0).isLt; omega⟩ : Fin 8) (i 1) (i 2))

/-! ## Cells -/

abbrev barS : Sem sig := (SemArray.scalar (sig.barrier 0 rfl) : Sems sig S_).sem
abbrev barCell (c : Dev nD) : GSem nD τ sig := ((c : Thread nD τ), .reg barS)
abbrev dcell (c : Dev nD) (s : DmaSem sig) : GSem nD τ sig := ((c : Thread nD τ), .dma s)

/-- DMA semaphore number `b + k`: chunk `k` of an array of `n` semaphores laid from number `b`. -/
def dsem (b n : ℕ) (h : b + n ≤ 66) (k : Fin n) : DmaSem sig := ⟨b + k.val, (show b + k.val < 66 from by have := k.isLt; omega)⟩

abbrev Nc : ℕ := (slot8 rxM 0).view.dmaCredit

/-! ## The semaphores, by what they count -/

abbrev sxS (k : Fin 8) : DmaSem sig := dsem 2 8 (by decide) k
abbrev rxS (k : Fin 8) : DmaSem sig := dsem 10 8 (by decide) k
abbrev sx2S (k : Fin 2) : DmaSem sig := dsem 18 2 (by decide) k
abbrev rx2S (k : Fin 2) : DmaSem sig := dsem 20 2 (by decide) k
abbrev sydS (k : Fin 8) : DmaSem sig := dsem 22 8 (by decide) k
abbrev rydS (k : Fin 8) : DmaSem sig := dsem 30 8 (by decide) k
abbrev szdS (k : Fin 8) : DmaSem sig := dsem 38 8 (by decide) k
abbrev rzdS (k : Fin 8) : DmaSem sig := dsem 46 8 (by decide) k
abbrev syrS (k : Fin 3) : DmaSem sig := dsem 54 3 (by decide) k
abbrev ryrS (k : Fin 3) : DmaSem sig := dsem 57 3 (by decide) k
abbrev szrS (k : Fin 3) : DmaSem sig := dsem 60 3 (by decide) k
abbrev rzrS (k : Fin 3) : DmaSem sig := dsem 63 3 (by decide) k

example : ((cc0_scratch8.slice (Rect.unit (s := S8) ![3] S1.size inb_S8_S1_3)).squeeze S_ squeezes_S1_S_).sem = sxS 3 := by decide

/-- chunk `k + 3` of eight, for `k` of three -/
abbrev up3 (k : Fin 3) : Fin 8 := ⟨k.val + 3, by omega⟩
abbrev in8 (k : Fin 3) : Fin 8 := ⟨k.val, by omega⟩

/-! ## The schedule: one round; a barrier cell three unit duties (from partner, buddy, z-pair), a DMA cell one -/

/-- Chunk `k` of each buffer of device `c` at share `q`, the buffer read at its final contents. -/
def sxPts (c : Dev nD) (k : Fin 8) (q : PosShare TreeShare) : sProp 𝕄 :=
  (slot8 sxM k).view.loc (c : Thread nD τ) ↦[(slot8 sxM k).view.set]{q} SX m c
def sx2Pts (c : Dev nD) (k : Fin 2) (q : PosShare TreeShare) : sProp 𝕄 :=
  (slot2 sx2M k).view.loc (c : Thread nD τ) ↦[(slot2 sx2M k).view.set]{q} SX2 m c
def rxPts (c : Dev nD) (k : Fin 8) (q : PosShare TreeShare) : sProp 𝕄 :=
  (slot8 rxM k).view.loc (c : Thread nD τ) ↦[(slot8 rxM k).view.set]{q} RX m c
def rx2Pts (c : Dev nD) (k : Fin 2) (q : PosShare TreeShare) : sProp 𝕄 :=
  (slot2 rx2M k).view.loc (c : Thread nD τ) ↦[(slot2 rx2M k).view.set]{q} RX2 m c
def rydPts (c : Dev nD) (k : Fin 8) (q : PosShare TreeShare) : sProp 𝕄 :=
  (slot8 rydM k).view.loc (c : Thread nD τ) ↦[(slot8 rydM k).view.set]{q} RYD m c
def rzdPts (c : Dev nD) (k : Fin 8) (q : PosShare TreeShare) : sProp 𝕄 :=
  (slot8 rzdM k).view.loc (c : Thread nD τ) ↦[(slot8 rzdM k).view.set]{q} RZD m c
def ryrPts (c : Dev nD) (k : Fin 3) (q : PosShare TreeShare) : sProp 𝕄 :=
  (slot3 ryrM k).view.loc (c : Thread nD τ) ↦[(slot3 ryrM k).view.set]{q} RYR m c
def rzrPts (c : Dev nD) (k : Fin 3) (q : PosShare TreeShare) : sProp 𝕄 :=
  (slot3 rzrM k).view.loc (c : Thread nD τ) ↦[(slot3 rzrM k).view.set]{q} RZR m c

omit [FloatOps F] in
theorem pts_storable (ℓ : Loc nD τ sig) (I : Finset (Idx ℓ)) (q : PosShare TreeShare) (f : Buf (Elt F) ℓ) :
    BI.Storable (upEmb : UEmb _ 𝕄) (ℓ ↦[I]{q} f : sProp 𝕄) := inferInstance

omit [FloatOps F] in
instance sxPts_storable (c : Dev nD) (k) (q) : BI.Storable (upEmb : UEmb _ 𝕄) (sxPts (F := F) m c k q) := by unfold sxPts; exact pts_storable _ _ _ _
omit [FloatOps F] in
instance sx2Pts_storable (c : Dev nD) (k) (q) : BI.Storable (upEmb : UEmb _ 𝕄) (sx2Pts (F := F) m c k q) := by unfold sx2Pts; exact pts_storable _ _ _ _
omit [FloatOps F] in
instance rxPts_storable (c : Dev nD) (k) (q) : BI.Storable (upEmb : UEmb _ 𝕄) (rxPts (F := F) m c k q) := by unfold rxPts; exact pts_storable _ _ _ _
omit [FloatOps F] in
instance rx2Pts_storable (c : Dev nD) (k) (q) : BI.Storable (upEmb : UEmb _ 𝕄) (rx2Pts (F := F) m c k q) := by unfold rx2Pts; exact pts_storable _ _ _ _
omit [FloatOps F] in
instance rydPts_storable (c : Dev nD) (k) (q) : BI.Storable (upEmb : UEmb _ 𝕄) (rydPts (F := F) m c k q) := by unfold rydPts; exact pts_storable _ _ _ _
omit [FloatOps F] in
instance rzdPts_storable (c : Dev nD) (k) (q) : BI.Storable (upEmb : UEmb _ 𝕄) (rzdPts (F := F) m c k q) := by unfold rzdPts; exact pts_storable _ _ _ _
omit [FloatOps F] in
instance ryrPts_storable (c : Dev nD) (k) (q) : BI.Storable (upEmb : UEmb _ 𝕄) (ryrPts (F := F) m c k q) := by unfold ryrPts; exact pts_storable _ _ _ _
omit [FloatOps F] in
instance rzrPts_storable (c : Dev nD) (k) (q) : BI.Storable (upEmb : UEmb _ 𝕄) (rzrPts (F := F) m c k q) := by unfold rzrPts; exact pts_storable _ _ _ _

/-- A number as a chunk index (the number itself when in range). -/
def fin8 (n : ℕ) : Fin 8 := ⟨n % 8, Nat.mod_lt _ (by decide)⟩
def fin2 (n : ℕ) : Fin 2 := ⟨n % 2, Nat.mod_lt _ (by decide)⟩
def fin3 (n : ℕ) : Fin 3 := ⟨n % 3, Nat.mod_lt _ (by decide)⟩

/-- Some contents of a whole scratch buffer of device `c`. -/
def anyBuf (c : Dev nD) (b : Ref sig .tc) : sProp 𝕄 := iprop(∃ f : Buf (Elt F) ((c : Thread nD τ).loc b), ((c : Thread nD τ).loc b) ↦{fullShare} f)

/-- What the signal of duty `d` hands device `c`: the two landing buffers of the signalling peer that `c` writes. -/
def barPay (c : Dev nD) (d : Fin 3) : sProp 𝕄 :=
  if d = 0 then iprop(anyBuf (partner c) cc0_scratch2 ∗ anyBuf (partner c) cc0_scratch3)
  else if d = 1 then iprop(anyBuf (buddy c) cc0_scratch4 ∗ anyBuf (buddy c) cc0_scratch6)
  else iprop(anyBuf (zpair c) cc0_scratch5 ∗ anyBuf (zpair c) cc0_scratch7)

/-- What the completion counted on DMA semaphore number `s` of device `c` hands `c`: a source slot's share back (send
    semaphores), or a landing slot at its final contents (receive semaphores). -/
def dmaPay (c : Dev nD) (s : ℕ) : sProp 𝕄 :=
  if s < 2 then iprop(emp)
  else if s < 10 then sxPts m c (fin8 (s - 2)) fullShare
  else if s < 18 then rxPts m c (fin8 (s - 10)) fullShare
  else if s < 20 then sx2Pts m c (fin2 (s - 18)) fullShare
  else if s < 22 then rx2Pts m c (fin2 (s - 20)) fullShare
  else if s < 30 then rxPts m c (fin8 (s - 22)) fullShare.left
  else if s < 38 then rydPts m c (fin8 (s - 30)) fullShare
  else if s < 46 then rxPts m c (fin8 (s - 38)) fullShare.right.left
  else if s < 54 then rzdPts m c (fin8 (s - 46)) fullShare
  else if s < 57 then rzdPts m c (fin8 (s - 54)) fullShare.left
  else if s < 60 then ryrPts m c (fin3 (s - 57)) fullShare
  else if s < 63 then rydPts m c (fin8 (s - 60 + 3)) fullShare.left
  else rzrPts m c (fin3 (s - 63)) fullShare

def sched : Rounds.Schedule (GSem nD τ sig) (Fin 3) 𝕄 where
  duties g r := if r = 0 ∧ g.1.2 = .tc then
      (match g.2 with | .reg _ => Finset.univ | .dma s => if 2 ≤ s.val then {0} else ∅) else ∅
  unitless _ := False
  amount g _ _ := match g.2 with | .reg _ => 1 | .dma _ => Nc
  payload g _ d := match g.2 with | .reg _ => barPay g.1.1 d | .dma s => dmaPay m g.1.1 s.val
  amount_pos g _ _ _ := by
    cases g.2 with
    | reg _ => exact Nat.one_pos
    | dma _ => exact View.dmaCredit_pos _ (by decide)

omit [FloatOps F] in
instance ite_storable (p : Prop) [Decidable p] (P Q : sProp 𝕄) [BI.Storable (upEmb : UEmb _ 𝕄) P] [BI.Storable (upEmb : UEmb _ 𝕄) Q] :
    BI.Storable (upEmb : UEmb _ 𝕄) (if p then P else Q) := by split <;> infer_instance

instance dmaPay_storable (c : Dev nD) (s : ℕ) : BI.Storable (upEmb : UEmb _ 𝕄) (dmaPay (F := F) m c s) := by
  unfold dmaPay; infer_instance
omit [FloatOps F] in
instance barPay_storable (c : Dev nD) (d : Fin 3) : BI.Storable (upEmb : UEmb _ 𝕄) (barPay (F := F) c d) := by
  unfold barPay anyBuf; infer_instance

instance sched_payload_storable (g : GSem nD τ sig) (r : ℕ) (d : Fin 3) :
    BI.Storable (upEmb : UEmb _ 𝕄) ((sched (F := F) m).payload g r d) := by
  show BI.Storable upEmb (match g.2 with | .reg _ => barPay g.1.1 d | .dma s => dmaPay m g.1.1 s.val)
  cases g.2 with
  | reg _ => dsimp only; infer_instance
  | dma s => dsimp only; infer_instance

/-! ## What each device owes at launch, in the order it pays; the levels -/

/-- The payments of device `c` in program order: three barrier units, then the landing credit of each of its 32 copies. -/
def pays (c : Dev nD) : List (GSem nD τ sig × ℕ) :=
  [(barCell (partner c), 1), (barCell (buddy c), 1), (barCell (zpair c), 1)]
  ++ (List.finRange 8).map (fun k => (dcell (partner c) (rxS k), Nc))
  ++ (List.finRange 2).map (fun k => (dcell (partner c) (rx2S k), Nc))
  ++ (List.finRange 8).flatMap (fun k => [(dcell (buddy c) (rydS k), Nc), (dcell (zpair c) (rzdS k), Nc)])
  ++ (List.finRange 3).map (fun k => (dcell (buddy c) (ryrS k), Nc))
  ++ (List.finRange 3).map (fun k => (dcell (zpair c) (rzrS k), Nc))

/-- What is owed for a list of payments still to make; the head is the next one. -/
def owe (l : List (GSem nD τ sig × ℕ)) : CellTallies nD τ sig Unit :=
  l.foldr (fun p acc => acc + tallyAt p.1 () p.2) 0

theorem owe_cons (p : GSem nD τ sig × ℕ) (l : List (GSem nD τ sig × ℕ)) : owe (p :: l) = owe l + tallyAt p.1 () p.2 := rfl
theorem owe_nil : owe ([] : List (GSem nD τ sig × ℕ)) = 0 := rfl

def O₀ (c : Dev nD) : CellTallies nD τ sig Unit := owe (pays c)

def L (g : GSem nD τ sig) : Finset Unit := if g.1.2 = .tc then {()} else ∅
/-- Levels: a wait is below everything its waiter still owes. Send and staging cells 0; barrier cells 1; the partner's
    landings 2; the first-hop landings 3; the second-hop landings 4. -/
def lv (g : GSem nD τ sig) (_ : Unit) : ℕ :=
  match g.2 with
  | .reg _ => 1
  | .dma s => if 10 ≤ s.val ∧ s.val < 18 then 2 else if 20 ≤ s.val ∧ s.val < 22 then 2
      else if 30 ≤ s.val ∧ s.val < 38 then 3 else if 46 ≤ s.val ∧ s.val < 54 then 3
      else if 57 ≤ s.val ∧ s.val < 60 then 4 else if 63 ≤ s.val then 4 else 0

/-! ## The cells and tokens of the whole mesh -/

/-- Cell number `j` of device `c`: number 0 its barrier cell, number `j + 1` its DMA semaphore `j + 2`. -/
def kcell (cj : Dev nD × Fin 65) : GSem nD τ sig :=
  if cj.2.val = 0 then barCell cj.1
  else dcell cj.1 ⟨cj.2.val + 1, (show cj.2.val + 1 < 66 from by have := cj.2.isLt; omega)⟩
def allCells : Finset (GSem nD τ sig) := Finset.univ.image kcell

/-- Token number `j` of device `c`'s cells: numbers 0, 1, 2 its barrier cell's three duties, number `j + 3` the one duty
    of its DMA semaphore `j + 2`. -/
def ktok (cj : Dev nD × Fin 67) : GSem nD τ sig × ℕ × Fin 3 :=
  if h : cj.2.val < 3 then (barCell cj.1, 0, ⟨cj.2.val, h⟩)
  else (dcell cj.1 ⟨cj.2.val - 1, (show cj.2.val - 1 < 66 from by have := cj.2.isLt; omega)⟩, 0, 0)
def allToks : Finset (GSem nD τ sig × ℕ × Fin 3) := Finset.univ.image ktok

def u₀ : UU :=
  (initOf (Pipeline.cells cfgs cellOf_inj) (Pipeline.launchToks cfgs cellOf_inj), initOf allCells allToks)

/-- The kernel's own (scoped) semaphores as the launch indexes them: DMA semaphores 2 … 65. -/
abbrev osem : Fin 64 → SemLoc sig := fun j => .dma ⟨j.val + 2, (show j.val + 2 < 66 from by have := j.isLt; omega)⟩

/-! ## What a device's body starts from -/

/-- Every cell's invariant under the names `K`, and that round 0 of every cell is reached (persistent). -/
def records (K : GSem nD τ sig → ℕ) : sProp 𝕄 :=
  iprop((bigSep allCells fun g => cellInv ER (sched m) (K g) g) ∗ bigSep allCells fun g => reached ER g 0)

instance records_persistent (K : GSem nD τ sig → ℕ) : BI.Persistent (records m K) := by unfold records; infer_instance

/-- Device `c`'s position at round 0 of each of its 65 cells. -/
def positions (c : Dev nD) : sProp 𝕄 :=
  iprop(atPos ER (barCell c) 0 ∅ 0
    ∗ (bigSep Finset.univ fun k : Fin 8 => atPos ER (dcell c (sxS k)) 0 ∅ 0)
    ∗ (bigSep Finset.univ fun k : Fin 8 => atPos ER (dcell c (rxS k)) 0 ∅ 0)
    ∗ (bigSep Finset.univ fun k : Fin 2 => atPos ER (dcell c (sx2S k)) 0 ∅ 0)
    ∗ (bigSep Finset.univ fun k : Fin 2 => atPos ER (dcell c (rx2S k)) 0 ∅ 0)
    ∗ (bigSep Finset.univ fun k : Fin 8 => atPos ER (dcell c (sydS k)) 0 ∅ 0)
    ∗ (bigSep Finset.univ fun k : Fin 8 => atPos ER (dcell c (rydS k)) 0 ∅ 0)
    ∗ (bigSep Finset.univ fun k : Fin 8 => atPos ER (dcell c (szdS k)) 0 ∅ 0)
    ∗ (bigSep Finset.univ fun k : Fin 8 => atPos ER (dcell c (rzdS k)) 0 ∅ 0)
    ∗ (bigSep Finset.univ fun k : Fin 3 => atPos ER (dcell c (syrS k)) 0 ∅ 0)
    ∗ (bigSep Finset.univ fun k : Fin 3 => atPos ER (dcell c (ryrS k)) 0 ∅ 0)
    ∗ (bigSep Finset.univ fun k : Fin 3 => atPos ER (dcell c (szrS k)) 0 ∅ 0)
    ∗ (bigSep Finset.univ fun k : Fin 3 => atPos ER (dcell c (rzrS k)) 0 ∅ 0))

/-- The tokens of the duties device `c` pays: one barrier unit at each of its three peers; for each of its 32 copies the
    departure duty of its own send cell and the landing duty of the receiving peer's cell. -/
def payToks (c : Dev nD) : sProp 𝕄 :=
  iprop(dutyTok ER (barCell (partner c)) 0 0 ∗ dutyTok ER (barCell (buddy c)) 0 1 ∗ dutyTok ER (barCell (zpair c)) 0 2
    ∗ (bigSep Finset.univ fun k : Fin 8 => iprop(dutyTok ER (dcell c (sxS k)) 0 0 ∗ dutyTok ER (dcell (partner c) (rxS k)) 0 0))
    ∗ (bigSep Finset.univ fun k : Fin 2 => iprop(dutyTok ER (dcell c (sx2S k)) 0 0 ∗ dutyTok ER (dcell (partner c) (rx2S k)) 0 0))
    ∗ (bigSep Finset.univ fun k : Fin 8 => iprop(dutyTok ER (dcell c (sydS k)) 0 0 ∗ dutyTok ER (dcell (buddy c) (rydS k)) 0 0))
    ∗ (bigSep Finset.univ fun k : Fin 8 => iprop(dutyTok ER (dcell c (szdS k)) 0 0 ∗ dutyTok ER (dcell (zpair c) (rzdS k)) 0 0))
    ∗ (bigSep Finset.univ fun k : Fin 3 => iprop(dutyTok ER (dcell c (syrS k)) 0 0 ∗ dutyTok ER (dcell (buddy c) (ryrS k)) 0 0))
    ∗ (bigSep Finset.univ fun k : Fin 3 => iprop(dutyTok ER (dcell c (szrS k)) 0 0 ∗ dutyTok ER (dcell (zpair c) (rzrS k)) 0 0)))

/-- The credit tokens device `c` is dealt at launch: its barrier's three units and each landing cell's credit. -/
def creds (c : Dev nD) : sProp 𝕄 :=
  iprop(cred (tallyAt (barCell c) () 3)
    ∗ (bigSep Finset.univ fun k : Fin 8 => cred (tallyAt (dcell c (rxS k)) () Nc))
    ∗ (bigSep Finset.univ fun k : Fin 2 => cred (tallyAt (dcell c (rx2S k)) () Nc))
    ∗ (bigSep Finset.univ fun k : Fin 8 => cred (tallyAt (dcell c (rydS k)) () Nc))
    ∗ (bigSep Finset.univ fun k : Fin 8 => cred (tallyAt (dcell c (rzdS k)) () Nc))
    ∗ (bigSep Finset.univ fun k : Fin 3 => cred (tallyAt (dcell c (ryrS k)) () Nc))
    ∗ (bigSep Finset.univ fun k : Fin 3 => cred (tallyAt (dcell c (rzrS k)) () Nc)))

def ghost (K : GSem nD τ sig → ℕ) (c : Dev nD) : sProp 𝕄 := iprop(records m K ∗ positions c ∗ payToks c)

/-- What the launch's global step hands device `c`. -/
def G' (c : Dev nD) : sProp 𝕄 := iprop(∃ K, ghost m K c)

def start (c : Dev nD) : sProp 𝕄 := iprop(G' m c ∗ creds c ∗ levAts L lv)

/-- The eight scratch buffers of device `c`, each whole at some contents. -/
def scratch (c : Dev nD) : sProp 𝕄 :=
  iprop(anyBuf c cc0_scratch0 ∗ anyBuf c cc0_scratch1 ∗ anyBuf c cc0_scratch2 ∗ anyBuf c cc0_scratch3
    ∗ anyBuf c cc0_scratch4 ∗ anyBuf c cc0_scratch5 ∗ anyBuf c cc0_scratch6 ∗ anyBuf c cc0_scratch7)

def Φ₀ (c : Dev nD) : sProp 𝕄 := iprop(start m c ∗ scratch c)
/-- After the body: the scratch buffers whole again and the 64 own semaphores at zero, closed. -/
def Φ₁ (c : Dev nD) : sProp 𝕄 := iprop(scratch c ∗ bigSep Finset.univ fun j : Fin 64 => semVal ((c : Thread nD τ), osem j) 0)

/-! ## What the kernel leaves in the result block, and the pipeline's proof data -/

/-- The load the kernel makes of chunk `k` of a buffer of eight, of two, of three. -/
abbrev rect8 (k : Fin 8) : LoadRect S8x64x512 := (Rect.unit (s := S8x64x512) ![k.val, 0, 0] S1x64x512.size (inb8 k)).toLoadRect
abbrev rect2 (k : Fin 2) : LoadRect S2x64x512 := (Rect.unit (s := S2x64x512) ![k.val, 0, 0] S1x64x512.size (inb2 k)).toLoadRect
abbrev rect3 (k : Fin 3) : LoadRect S3x64x512 := (Rect.unit (s := S3x64x512) ![k.val, 0, 0] S1x64x512.size (inb3 k)).toLoadRect

/-- Row `r` of the result block lies in one of four quadrants of 512 rows — the device's own, its z-pair's, its buddy's
    and the diagonal one — and there in one of eight chunks of 64 rows; the entry is the device's own block plus the
    chunk that was routed to it: directly from the partner, through the z-pair, through the buddy, or (diagonal) through
    two of them or by the second direct copy. -/
def outAt (c : Dev nD) : (cc0_stg1_0 : Ref sig .tc).ty.Contents (Elt F) := fun i =>
  let r : ℕ := (i 0).val
  let k : Fin 8 := ⟨(r % 512) / 64, by omega⟩
  let y : S64x512.Idx := ValueIdx.ix2 (⟨r % 64, Nat.mod_lt _ (by decide)⟩ : Fin 64) (i 1)
  let xs (off : Fin 3 → ℕ) (h : ∀ a, off a + S1x64x512.size a ≤ S1x2048x1024.size a) : Vec F S1x64x512 .f32 :=
    (xM : Memref sig .tc .vmem S1x2048x1024 .f32).view.readAt (Elt F) (Rect.unit (s := S1x2048x1024) off S1x64x512.size h).toLoadRect (xstg m c)
  if r / 512 * 512 = rq3 c then
    k0_pay13 ((rxM : Memref sig .tc .vmem S8x64x512 .bf16).view.readAt (Elt F) (rect8 k) (RX m c)) (xs _ (k0_off3_inb c k)) y
  else if r / 512 * 512 = rq5 c then
    k0_pay13 ((rzdM : Memref sig .tc .vmem S8x64x512 .bf16).view.readAt (Elt F) (rect8 k) (RZD m c)) (xs _ (k0_off5_inb c k)) y
  else if r / 512 * 512 = rq7 c then
    k0_pay13 ((rydM : Memref sig .tc .vmem S8x64x512 .bf16).view.readAt (Elt F) (rect8 k) (RYD m c)) (xs _ (k0_off7_inb c k)) y
  else if h3 : k.val < 3 then
    k0_pay13 ((ryrM : Memref sig .tc .vmem S3x64x512 .bf16).view.readAt (Elt F) (rect3 ⟨k.val, h3⟩) (RYR m c)) (xs _ (k0_off9_inb c k)) y
  else if h6 : k.val < 6 then
    k0_pay13 ((rzrM : Memref sig .tc .vmem S3x64x512 .bf16).view.readAt (Elt F) (rect3 ⟨k.val - 3, by omega⟩) (RZR m c)) (xs _ (k0_off9_inb c k)) y
  else
    k0_pay13 ((rx2M : Memref sig .tc .vmem S2x64x512 .bf16).view.readAt (Elt F) (rect2 ⟨k.val - 6, by have := k.isLt; omega⟩) (RX2 m c)) (xs _ (k0_off9_inb c k)) y

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.RS

end
-- ==== Proof.K.Tables.lean ====
import proofs.«901033_g7700000000001034_dist_rs_v7x_xyz2x2x4_x_m2048_n512_bf16_1_alg».proof.Proof.K.Proto

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphore numbers

The twelve arrays of DMA semaphores lie one after another from number 2 (numbers 0 and 1 are the
launch's own): chunk `k` of an array laid from `b` is number `b + k`. -/

theorem sxS_val (k : Fin 8) : (sxS k).val = 2 + k.val := rfl
theorem rxS_val (k : Fin 8) : (rxS k).val = 10 + k.val := rfl
theorem sx2S_val (k : Fin 2) : (sx2S k).val = 18 + k.val := rfl
theorem rx2S_val (k : Fin 2) : (rx2S k).val = 20 + k.val := rfl
theorem sydS_val (k : Fin 8) : (sydS k).val = 22 + k.val := rfl
theorem rydS_val (k : Fin 8) : (rydS k).val = 30 + k.val := rfl
theorem szdS_val (k : Fin 8) : (szdS k).val = 38 + k.val := rfl
theorem rzdS_val (k : Fin 8) : (rzdS k).val = 46 + k.val := rfl
theorem syrS_val (k : Fin 3) : (syrS k).val = 54 + k.val := rfl
theorem ryrS_val (k : Fin 3) : (ryrS k).val = 57 + k.val := rfl
theorem szrS_val (k : Fin 3) : (szrS k).val = 60 + k.val := rfl
theorem rzrS_val (k : Fin 3) : (rzrS k).val = 63 + k.val := rfl

theorem two_le_sxS (k : Fin 8) : 2 ≤ (sxS k).val := Nat.le_trans (by decide) (Nat.le_add_right 2 k.val)
theorem two_le_rxS (k : Fin 8) : 2 ≤ (rxS k).val := Nat.le_trans (by decide) (Nat.le_add_right 10 k.val)
theorem two_le_sx2S (k : Fin 2) : 2 ≤ (sx2S k).val := Nat.le_trans (by decide) (Nat.le_add_right 18 k.val)
theorem two_le_rx2S (k : Fin 2) : 2 ≤ (rx2S k).val := Nat.le_trans (by decide) (Nat.le_add_right 20 k.val)
theorem two_le_sydS (k : Fin 8) : 2 ≤ (sydS k).val := Nat.le_trans (by decide) (Nat.le_add_right 22 k.val)
theorem two_le_rydS (k : Fin 8) : 2 ≤ (rydS k).val := Nat.le_trans (by decide) (Nat.le_add_right 30 k.val)
theorem two_le_szdS (k : Fin 8) : 2 ≤ (szdS k).val := Nat.le_trans (by decide) (Nat.le_add_right 38 k.val)
theorem two_le_rzdS (k : Fin 8) : 2 ≤ (rzdS k).val := Nat.le_trans (by decide) (Nat.le_add_right 46 k.val)
theorem two_le_syrS (k : Fin 3) : 2 ≤ (syrS k).val := Nat.le_trans (by decide) (Nat.le_add_right 54 k.val)
theorem two_le_ryrS (k : Fin 3) : 2 ≤ (ryrS k).val := Nat.le_trans (by decide) (Nat.le_add_right 57 k.val)
theorem two_le_szrS (k : Fin 3) : 2 ≤ (szrS k).val := Nat.le_trans (by decide) (Nat.le_add_right 60 k.val)
theorem two_le_rzrS (k : Fin 3) : 2 ≤ (rzrS k).val := Nat.le_trans (by decide) (Nat.le_add_right 63 k.val)

/-! ## A chunk number read back from a semaphore number -/

theorem fin8_off (b : ℕ) (k : Fin 8) : fin8 (b + k.val - b) = k :=
  Fin.ext (by show (b + k.val - b) % 8 = k.val; rw [Nat.add_sub_cancel_left]; exact Nat.mod_eq_of_lt k.isLt)
theorem fin2_off (b : ℕ) (k : Fin 2) : fin2 (b + k.val - b) = k :=
  Fin.ext (by show (b + k.val - b) % 2 = k.val; rw [Nat.add_sub_cancel_left]; exact Nat.mod_eq_of_lt k.isLt)
theorem fin3_off (b : ℕ) (k : Fin 3) : fin3 (b + k.val - b) = k :=
  Fin.ext (by show (b + k.val - b) % 3 = k.val; rw [Nat.add_sub_cancel_left]; exact Nat.mod_eq_of_lt k.isLt)
theorem fin8_in8 (b : ℕ) (k : Fin 3) : fin8 (b + k.val - b) = in8 k :=
  Fin.ext (by show (b + k.val - b) % 8 = k.val; rw [Nat.add_sub_cancel_left]; exact Nat.mod_eq_of_lt (by have := k.isLt; omega))
theorem fin8_up3 (b : ℕ) (k : Fin 3) : fin8 (b + k.val - b + 3) = up3 k :=
  Fin.ext (by show (b + k.val - b + 3) % 8 = k.val + 3; rw [Nat.add_sub_cancel_left]; exact Nat.mod_eq_of_lt (by have := k.isLt; omega))

/-! ## The schedule's tables at the cells of the mesh

One round. A barrier cell has three duties of one unit each; a DMA cell one duty, of a chunk's
credit. -/

theorem duties_bar (c : Dev nD) : (sched (F := F) m).duties (barCell c) 0 = Finset.univ := by
  dsimp only [sched]; exact if_pos ⟨rfl, rfl⟩
theorem duties_dma (c : Dev nD) (s : DmaSem sig) (h : 2 ≤ s.val) : (sched (F := F) m).duties (dcell c s) 0 = {0} := by
  dsimp only [sched]; rw [if_pos ⟨rfl, rfl⟩]; exact if_pos h
theorem duties_later (g : GSem nD τ sig) : ∀ r, 1 ≤ r → (sched (F := F) m).duties g r = ∅ :=
  fun r hr => by dsimp only [sched]; exact if_neg fun h => by omega

theorem amount_bar (c : Dev nD) (d : Fin 3) : (sched (F := F) m).amount (barCell c) 0 d = 1 := rfl
theorem amount_dma (c : Dev nD) (s : DmaSem sig) (d : Fin 3) : (sched (F := F) m).amount (dcell c s) 0 d = Nc := rfl

theorem expect_bar (c : Dev nD) : (sched (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_dma (c : Dev nD) (s : DmaSem sig) (h : 2 ≤ s.val) : (sched (F := F) m).expect (dcell c s) 0 = Nc := by
  unfold Schedule.expect Schedule.amountOf; rw [duties_dma m c s h, Finset.sum_singleton, amount_dma]

theorem payload_bar (c : Dev nD) (d : Fin 3) : (sched (F := F) m).payload (barCell c) 0 d = barPay c d := rfl
theorem payload_dma (c : Dev nD) (s : DmaSem sig) (d : Fin 3) : (sched (F := F) m).payload (dcell c s) 0 d = dmaPay m c s.val := rfl

/-! ## What each DMA cell's one duty hands over

A send cell hands back the share of the slot that was read (the whole of a staging slot; of a
received slot, the part lent to that forwarding copy); a receive cell hands over the landing slot
at its final contents. -/

theorem payload_sx (c : Dev nD) (k : Fin 8) (d : Fin 3) :
    (sched (F := F) m).payload (dcell c (sxS k)) 0 d = sxPts m c k fullShare := by
  have hk := k.isLt
  show dmaPay m c (2 + k.val) = _
  unfold dmaPay; rw [if_neg (by omega), if_pos (by omega), fin8_off]
theorem payload_rx (c : Dev nD) (k : Fin 8) (d : Fin 3) :
    (sched (F := F) m).payload (dcell c (rxS k)) 0 d = rxPts m c k fullShare := by
  have hk := k.isLt
  show dmaPay m c (10 + k.val) = _
  unfold dmaPay; rw [if_neg (by omega), if_neg (by omega), if_pos (by omega), fin8_off]
theorem payload_sx2 (c : Dev nD) (k : Fin 2) (d : Fin 3) :
    (sched (F := F) m).payload (dcell c (sx2S k)) 0 d = sx2Pts m c k fullShare := by
  have hk := k.isLt
  show dmaPay m c (18 + k.val) = _
  unfold dmaPay; rw [if_neg (by omega), if_neg (by omega), if_neg (by omega), if_pos (by omega), fin2_off]
theorem payload_rx2 (c : Dev nD) (k : Fin 2) (d : Fin 3) :
    (sched (F := F) m).payload (dcell c (rx2S k)) 0 d = rx2Pts m c k fullShare := by
  have hk := k.isLt
  show dmaPay m c (20 + k.val) = _
  unfold dmaPay; rw [if_neg (by omega), if_neg (by omega), if_neg (by omega), if_neg (by omega), if_pos (by omega), fin2_off]
theorem payload_syd (c : Dev nD) (k : Fin 8) (d : Fin 3) :
    (sched (F := F) m).payload (dcell c (sydS k)) 0 d = rxPts m c k fullShare.left := by
  have hk := k.isLt
  show dmaPay m c (22 + k.val) = _
  unfold dmaPay; rw [if_neg (by omega), if_neg (by omega), if_neg (by omega), if_neg (by omega), if_neg (by omega), if_pos (by omega), fin8_off]
theorem payload_ryd (c : Dev nD) (k : Fin 8) (d : Fin 3) :
    (sched (F := F) m).payload (dcell c (rydS k)) 0 d = rydPts m c k fullShare := by
  have hk := k.isLt
  show dmaPay m c (30 + k.val) = _
  unfold dmaPay; rw [if_neg (by omega), if_neg (by omega), if_neg (by omega), if_neg (by omega), if_neg (by omega), if_neg (by omega), if_pos (by omega), fin8_off]
theorem payload_szd (c : Dev nD) (k : Fin 8) (d : Fin 3) :
    (sched (F := F) m).payload (dcell c (szdS k)) 0 d = rxPts m c k fullShare.right.left := by
  have hk := k.isLt
  show dmaPay m c (38 + k.val) = _
  unfold dmaPay; rw [if_neg (by omega), if_neg (by omega), if_neg (by omega), if_neg (by omega), if_neg (by omega), if_neg (by omega), if_neg (by omega), if_pos (by omega), fin8_off]
theorem payload_rzd (c : Dev nD) (k : Fin 8) (d : Fin 3) :
    (sched (F := F) m).payload (dcell c (rzdS k)) 0 d = rzdPts m c k fullShare := by
  have hk := k.isLt
  show dmaPay m c (46 + k.val) = _
  unfold dmaPay; rw [if_neg (by omega), if_neg (by omega), if_neg (by omega), if_neg (by omega), if_neg (by omega), if_neg (by omega), if_neg (by omega), if_neg (by omega), if_pos (by omega), fin8_off]
theorem payload_syr (c : Dev nD) (k : Fin 3) (d : Fin 3) :
    (sched (F := F) m).payload (dcell c (syrS k)) 0 d = rzdPts m c (in8 k) fullShare.left := by
  have hk := k.isLt
  show dmaPay m c (54 + k.val) = _
  unfold dmaPay; rw [if_neg (by omega), if_neg (by omega), if_neg (by omega), if_neg (by omega), if_neg (by omega), if_neg (by omega), if_neg (by omega), if_neg (by omega), if_neg (by omega), if_pos (by omega), fin8_in8]
theorem payload_ryr (c : Dev nD) (k : Fin 3) (d : Fin 3) :
    (sched (F := F) m).payload (dcell c (ryrS k)) 0 d = ryrPts m c k fullShare := by
  have hk := k.isLt
  show dmaPay m c (57 + k.val) = _
  unfold dmaPay; rw [if_neg (by omega), if_neg (by omega), if_neg (by omega), if_neg (by omega), if_neg (by omega), if_neg (by omega), if_neg (by omega), if_neg (by omega), if_neg (by omega), if_neg (by omega), if_pos (by omega), fin3_off]
theorem payload_szr (c : Dev nD) (k : Fin 3) (d : Fin 3) :
    (sched (F := F) m).payload (dcell c (szrS k)) 0 d = rydPts m c (up3 k) fullShare.left := by
  have hk := k.isLt
  show dmaPay m c (60 + k.val) = _
  unfold dmaPay; rw [if_neg (by omega), if_neg (by omega), if_neg (by omega), if_neg (by omega), if_neg (by omega), if_neg (by omega), if_neg (by omega), if_neg (by omega), if_neg (by omega), if_neg (by omega), if_neg (by omega), if_pos (by omega), fin8_up3]
theorem payload_rzr (c : Dev nD) (k : Fin 3) (d : Fin 3) :
    (sched (F := F) m).payload (dcell c (rzrS k)) 0 d = rzrPts m c k fullShare := by
  have hk := k.isLt
  show dmaPay m c (63 + k.val) = _
  unfold dmaPay; rw [if_neg (by omega), if_neg (by omega), if_neg (by omega), if_neg (by omega), if_neg (by omega), if_neg (by omega), if_neg (by omega), if_neg (by omega), if_neg (by omega), if_neg (by omega), if_neg (by omega), if_neg (by omega), fin3_off]

/-! ## A round no duty of which is taken yet holds every duty's payload -/

theorem rest_bar (c : Dev nD) :
    bigSep ((sched (F := F) m).duties (barCell c) 0 \ ∅) (fun d => (sched (F := F) m).payload (barCell c) 0 d)
      = iprop(barPay c 0 ∗ barPay c 1 ∗ barPay c 2) := by
  rw [Finset.sdiff_empty, duties_bar, bigSep_univ_eq_bigSepL [0, 1, 2] (by decide) (by decide)]; rfl
theorem rest_dma (c : Dev nD) (s : DmaSem sig) (h : 2 ≤ s.val) :
    bigSep ((sched (F := F) m).duties (dcell c s) 0 \ ∅) (fun d => (sched (F := F) m).payload (dcell c s) 0 d)
      = (sched (F := F) m).payload (dcell c s) 0 0 := by
  rw [Finset.sdiff_empty, duties_dma m c s h, bigSep_singleton]

end Cert.Kernel.RS

end
-- ==== Proof.K.Credit.lean ====
import proofs.«901033_g7700000000001034_dist_rs_v7x_xyz2x2x4_x_m2048_n512_bf16_1_alg».proof.Proof.K.Proto

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payments, counted -/

theorem pays_length (c : Dev nD) : (pays c).length = 35 := rfl

theorem owe_nil' (c : Dev nD) : owe ((pays c).drop 35) = 0 := by
  rw [List.drop_of_length_le (Nat.le_of_eq (pays_length c))]; rfl

/-- Something is owed to a cell only if a payment to that cell is still to make. -/
theorem owe_pos {l : List (GSem nD τ sig × ℕ)} {g : GSem nD τ sig} {u : Unit} (h : 0 < owe l g u) : ∃ p ∈ l, p.1 = g := by
  induction l with
  | nil => exact absurd h (Nat.lt_irrefl 0)
  | cons p l ih =>
    rw [owe_cons] at h
    rcases Pipeline.add_pos_cases h with h | h
    · obtain ⟨q, hq, rfl⟩ := ih h
      exact ⟨q, List.mem_cons_of_mem _ hq, rfl⟩
    · exact ⟨p, List.mem_cons_self, (Pipeline.tallyAt_pos h).1.symm⟩

theorem L_tc (c : Dev nD) (sm : SemLoc sig) : L ((c : Thread nD τ), sm) = {()} := if_pos rfl

/-! ## Waits: a wait at a level below everything still owed -/

omit [FloatOps F] in
theorem mayWait_drop (c : Dev nD) (sm : SemLoc sig) (n : ℕ)
    (h : ∀ p ∈ (pays c).drop n, p.1.1.2 = .tc ∧ lv ((c : Thread nD τ), sm) () < lv p.1 ()) :
    (levAts L lv : sProp 𝕄) ⊢ MayWait (c : Thread nD τ) sm () (owe ((pays c).drop n)) :=
  Pipeline.mayWait_of_levAts (by rw [L_tc]; exact Finset.mem_singleton_self _) fun g i hg => by
    obtain ⟨p, hp, rfl⟩ := owe_pos hg
    obtain ⟨h1, h2⟩ := h p hp
    cases i
    refine ⟨?_, h2⟩
    unfold L; rw [if_pos h1]; exact Finset.mem_singleton_self _

omit [FloatOps F] in
theorem mayWait_bar (c : Dev nD) :
    (levAts L lv : sProp 𝕄) ⊢ MayWait (c : Thread nD τ) (.reg barS) () (owe ((pays c).drop 3)) :=
  mayWait_drop c _ 3 (by revert c; decide)

omit [FloatOps F] in
theorem mayWait_rx (c : Dev nD) (k : Fin 8) :
    (levAts L lv : sProp 𝕄) ⊢ MayWait (c : Thread nD τ) (.dma (rxS k)) () (owe ((pays c).drop (13 + 2 * k.val))) :=
  mayWait_drop c _ _ (by revert c k; decide)

/-- The number of payments made before the wait for chunk `k` from the z peer. -/
def nRzd (k : Fin 8) : ℕ := ![29, 30, 31, 32, 33, 34, 35, 35] k
/-- The number of payments made before the wait for chunk `k` from the y peer. -/
def nRyd (k : Fin 8) : ℕ := ![30, 31, 32, 32, 33, 34, 35, 35] k

omit [FloatOps F] in
theorem mayWait_rzd (c : Dev nD) (k : Fin 8) :
    (levAts L lv : sProp 𝕄) ⊢ MayWait (c : Thread nD τ) (.dma (rzdS k)) () (owe ((pays c).drop (nRzd k))) :=
  mayWait_drop c _ _ (by revert c k; decide)

omit [FloatOps F] in
theorem mayWait_ryd (c : Dev nD) (k : Fin 8) :
    (levAts L lv : sProp 𝕄) ⊢ MayWait (c : Thread nD τ) (.dma (rydS k)) () (owe ((pays c).drop (nRyd k))) :=
  mayWait_drop c _ _ (by revert c k; decide)

/-- A staging semaphore sits at level 0. -/
theorem lv_stage (t : Thread nD τ) (q : DmaSem sig) (hq : q.val < 2) : lv (t, .dma q) () = 0 := by
  dsimp only [lv]
  split_ifs <;> first | rfl | omega

/-- Every payment is to a TensorCore's cell at a level of at least 1. -/
theorem pays_pos (c : Dev nD) : ∀ p ∈ pays c, p.1.1.2 = .tc ∧ 0 < lv p.1 () := by revert c; decide

omit [FloatOps F] in
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact mayWait_drop c (.dma q) 0 fun p hp => by rw [lv_stage _ q hq]; exact pays_pos c p hp
  · rw [MayWait_zero]; iintro -; iempintro

/-! ## What a device owes at launch, in closed form -/

theorem owe_append (l₁ l₂ : List (GSem nD τ sig × ℕ)) : owe (l₁ ++ l₂) = owe l₁ + owe l₂ := by
  induction l₁ with
  | nil => rw [List.nil_append, owe_nil, zero_add]
  | cons p l ih => rw [List.cons_append, owe_cons, owe_cons, ih, add_right_comm]

theorem owe_map {α : Type} (l : List α) (f : α → GSem nD τ sig × ℕ) :
    owe (l.map f) = (l.map fun x => (tallyAt (f x).1 () (f x).2 : CellTallies nD τ sig Unit)).sum := by
  induction l with
  | nil => rfl
  | cons a l ih => rw [List.map_cons, owe_cons, ih, List.map_cons, List.sum_cons, add_comm]

theorem owe_finRange_map (n : ℕ) (f : Fin n → GSem nD τ sig × ℕ) :
    owe ((List.finRange n).map f) = ∑ k : Fin n, (tallyAt (f k).1 () (f k).2 : CellTallies nD τ sig Unit) := by
  rw [owe_map, Fin.sum_univ_def]

theorem owe_flatMap {α : Type} (l : List α) (f : α → List (GSem nD τ sig × ℕ)) :
    owe (l.flatMap f) = (l.map fun x => owe (f x)).sum := by
  induction l with
  | nil => rfl
  | cons a l ih => rw [List.flatMap_cons, owe_append, ih, List.map_cons, List.sum_cons]

theorem owe_finRange_flatMap (n : ℕ) (f : Fin n → List (GSem nD τ sig × ℕ)) :
    owe ((List.finRange n).flatMap f) = ∑ k : Fin n, owe (f k) := by
  rw [owe_flatMap, Fin.sum_univ_def]

/-- What device `d` owes at launch: a unit to the barrier cell of each of its three peers, and the landing credit of
    each of its 32 copies to the receive cell of the peer it goes to. -/
theorem O₀_eq (d : Dev nD) : O₀ d =
    tallyAt (barCell (zpair d)) () 1 + tallyAt (barCell (buddy d)) () 1 + tallyAt (barCell (partner d)) () 1
      + ∑ k : Fin 8, tallyAt (dcell (partner d) (rxS k)) () Nc
      + ∑ k : Fin 2, tallyAt (dcell (partner d) (rx2S k)) () Nc
      + ∑ k : Fin 8, (tallyAt (dcell (zpair d) (rzdS k)) () Nc + tallyAt (dcell (buddy d) (rydS k)) () Nc)
      + ∑ k : Fin 3, tallyAt (dcell (buddy d) (ryrS k)) () Nc
      + ∑ k : Fin 3, tallyAt (dcell (zpair d) (rzrS k)) () Nc := by
  unfold O₀ pays
  simp only [owe_append, owe_finRange_map, owe_finRange_flatMap, owe_cons, owe_nil, zero_add]

/-! ## The launch credit

The peer maps are involutions, so the devices that pay a cell of device `c` are `c`'s own peers: its barrier
cell is paid one unit by each of its partner, its buddy and its z peer; each landing cell is paid its chunk's credit by the
one peer that copies into it. -/

omit [FloatOps F] in
/-- All devices owing one amount to cell `sm` of their peer under an involution `f`, device `c` is dealt that amount on its own `sm`. -/
theorem launch_one (f : Dev nD → Dev nD) (hf : ∀ c, f (f c) = c) (sm : SemLoc sig) (n : ℕ) (c : Dev nD) :
    (Pipeline.launchCred (fun d => tallyAt ((f d : Thread nD τ), sm) () n) c : sProp 𝕄) ⊢ cred (tallyAt ((c : Thread nD τ), sm) () n) :=
  Pipeline.launchCred_tallyAt sm f f hf hf () n c

omit [FloatOps F] in
/-- The same for a row of cells. -/
theorem launch_row {n : ℕ} (f : Dev nD → Dev nD) (hf : ∀ c, f (f c) = c) (S : Fin n → DmaSem sig) (c : Dev nD) :
    (Pipeline.launchCred (fun d => ∑ k : Fin n, tallyAt (dcell (f d) (S k)) () Nc) c : sProp 𝕄)
      ⊢ bigSep Finset.univ fun k : Fin n => cred (tallyAt (dcell c (S k)) () Nc) := by
  rw [Pipeline.launchCred_sum]
  exact bigSep_mono fun k _ => launch_one f hf (.dma (S k)) Nc c

omit [FloatOps F] in
theorem launch_bar (c : Dev nD) :
    (Pipeline.launchCred (fun d => tallyAt (barCell (zpair d)) () 1 + tallyAt (barCell (buddy d)) () 1 + tallyAt (barCell (partner d)) () 1) c : sProp 𝕄)
      ⊢ cred (tallyAt (barCell c) () 3) := by
  rw [Pipeline.launchCred_add, Pipeline.launchCred_add]
  refine (BI.sep_mono (BI.sep_mono (launch_one zpair zpair_zpair (.reg barS) 1 c) (launch_one buddy buddy_buddy (.reg barS) 1 c))
    (launch_one partner partner_partner (.reg barS) 1 c)).trans ?_
  refine (sep_mono_l (cred_add _ _).2).trans ((cred_add _ _).2.trans (Entails.of_eq ?_))
  rw [tallyAt_add, tallyAt_add]

omit [FloatOps F] in
/-- The first-hop landings: every chunk goes both to the z peer and to the y peer. -/
theorem launch_pair (c : Dev nD) :
    (Pipeline.launchCred (fun d => ∑ k : Fin 8, tallyAt (dcell (zpair d) (rzdS k)) () Nc + ∑ k : Fin 8, tallyAt (dcell (buddy d) (rydS k)) () Nc) c : sProp 𝕄)
      ⊢ iprop((bigSep Finset.univ fun k : Fin 8 => cred (tallyAt (dcell c (rzdS k)) () Nc))
          ∗ bigSep Finset.univ fun k : Fin 8 => cred (tallyAt (dcell c (rydS k)) () Nc)) := by
  rw [Pipeline.launchCred_add]
  exact BI.sep_mono (launch_row zpair zpair_zpair rzdS c) (launch_row buddy buddy_buddy rydS c)

omit [FloatOps F] in
theorem creds_of_launch (c : Dev nD) : (Pipeline.launchCred O₀ c : sProp 𝕄) ⊢ creds c := by
  rw [show (O₀ : Dev nD → CellTallies nD τ sig Unit) = _ from funext O₀_eq]
  simp only [Finset.sum_add_distrib]
  rw [Pipeline.launchCred_add, Pipeline.launchCred_add, Pipeline.launchCred_add, Pipeline.launchCred_add, Pipeline.launchCred_add]
  refine (sep_mono_left (sep_mono_left (sep_mono_right (launch_pair c)))).trans ?_
  unfold creds
  iintro ⟨⟨⟨⟨⟨Hb, Hrx⟩, Hrx2⟩, Hrzd, Hryd⟩, Hryr⟩, Hrzr⟩
  isplitl [Hb]
  · iapply (launch_bar c); iexact Hb
  isplitl [Hrx]
  · iapply (launch_row partner partner_partner rxS c); iexact Hrx
  isplitl [Hrx2]
  · iapply (launch_row partner partner_partner rx2S c); iexact Hrx2
  isplitl [Hryd]
  · iexact Hryd
  isplitl [Hrzd]
  · iexact Hrzd
  isplitl [Hryr]
  · iapply (launch_row buddy buddy_buddy ryrS c); iexact Hryr
  · iapply (launch_row zpair zpair_zpair rzrS c); iexact Hrzr

end Cert.Kernel.RS

end
-- ==== Proof.K.Slots.lean ====
import proofs.«901033_g7700000000001034_dist_rs_v7x_xyz2x2x4_x_m2048_n512_bf16_1_alg».proof.Proof.K.Proto
import Idealize.ShloMosaic.Lib.Pipeline.Value
import Idealize.ShloMosaic.Lib.ValueLayout
import Idealize.ShloMosaic.Rules.PointsTo

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-! ## Chunk k of a buffer of n chunks of 64 × 512: the index arithmetic

The rectangle of chunk `k` is all of rows and columns at first coordinate `k`; the 64 × 512
indices of a chunk are matched with it row-major, so index `(r, c)` of the chunk is element
`(k, r, c)` of the buffer. -/

section Chunk
variable {n : ℕ}

theorem mem_chunk (k : Fin n) (inb : ∀ a, (![k.val, 0, 0] : Fin 3 → ℕ) a + S1x64x512.size a ≤ (⟨3, ![n, 64, 512]⟩ : Shape).size a)
    (j : (⟨3, ![n, 64, 512]⟩ : Shape).Idx) :
    j ∈ (Rect.unit (s := ⟨3, ![n, 64, 512]⟩) ![k.val, 0, 0] S1x64x512.size inb).set ↔ (j 0).val = k.val := by
  rw [Rect.mem_set_unit]
  constructor
  · intro h; have h0 := h 0; simp only [Matrix.cons_val_zero] at h0
    have : (S1x64x512.size 0) = 1 := rfl
    omega
  · intro h a
    match a with
    | ⟨0, _⟩ => exact ⟨Nat.le_of_eq h.symm, by show (j 0).val < k.val + 1; omega⟩
    | ⟨1, _⟩ => exact ⟨Nat.zero_le _, by show (j 1).val < 0 + 64; have := (j 1).isLt; simpa using this⟩
    | ⟨2, _⟩ => exact ⟨Nat.zero_le _, by show (j 2).val < 0 + 512; have := (j 2).isLt; simpa using this⟩

theorem chunk_emb (k : Fin n) (inb : ∀ a, (![k.val, 0, 0] : Fin 3 → ℕ) a + S1x64x512.size a ≤ (⟨3, ![n, 64, 512]⟩ : Shape).size a)
    (h : S64x512.numel = S1x64x512.numel) (y : S64x512.Idx) :
    (Rect.unit (s := ⟨3, ![n, 64, 512]⟩) ![k.val, 0, 0] S1x64x512.size inb).emb (Shape.reshapeEquiv h y) = ix3 k (y 0) (y 1) := by
  obtain ⟨r, c, rfl⟩ : ∃ (r : Fin 64) (c : Fin 512), y = ix2 r c := ⟨y 0, y 1, eq_ix2 y⟩
  rw [reshapeEquiv_ix2_1ab h r c]
  funext a
  match a with
  | ⟨0, _⟩ => exact Fin.ext (by show k.val + 1 * 0 = k.val; omega)
  | ⟨1, _⟩ => exact Fin.ext (by show 0 + 1 * r.val = r.val; omega)
  | ⟨2, _⟩ => exact Fin.ext (by show 0 + 1 * c.val = c.val; omega)

end Chunk

section Chunk
variable {n : ℕ}

/-- Index `(0, r, c)` of the chunk's rectangle is element `(k, r, c)`. -/
theorem chunk_rect_emb (k : Fin n) (inb : ∀ a, (![k.val, 0, 0] : Fin 3 → ℕ) a + S1x64x512.size a ≤ (⟨3, ![n, 64, 512]⟩ : Shape).size a)
    (y : S1x64x512.Idx) :
    (Rect.unit (s := ⟨3, ![n, 64, 512]⟩) ![k.val, 0, 0] S1x64x512.size inb).emb y = ix3 k (y 1) (y 2) := by
  obtain ⟨z, r, c, rfl⟩ : ∃ (z : Fin 1) (r : Fin 64) (c : Fin 512), y = ix3 z r c := ⟨y 0, y 1, y 2, eq_ix3 y⟩
  funext a
  match a with
  | ⟨0, _⟩ => exact Fin.ext (by show k.val + 1 * z.val = k.val; omega)
  | ⟨1, _⟩ => exact Fin.ext (by show 0 + 1 * r.val = r.val; omega)
  | ⟨2, _⟩ => exact Fin.ext (by show 0 + 1 * c.val = c.val; omega)

end Chunk

/-! ## The chunk views of a memref

Chunk `k` of a memref is the memref's elements at first coordinate `k`; different chunks share no
element, and the chunks of a whole buffer are all of it. -/

/-- The elements of chunk `k`, as elements of the memref's buffer. -/
abbrev slotSet8 (M : Memref sig .tc .vmem S8x64x512 .bf16) (k : Fin 8) : Finset M.view.ty.Idx := (slot8 M k).view.set

theorem emb_slot8 (M : Memref sig .tc .vmem S8x64x512 .bf16) (k : Fin 8) (y : S64x512.Idx) :
    (slot8 M k).view.emb y = M.view.emb (ix3 k (y 0) (y 1)) :=
  congrArg M.view.emb (chunk_emb k (inb8 k) _ y)

theorem mem_slot8 (M : Memref sig .tc .vmem S8x64x512 .bf16) (k : Fin 8) (i : M.view.ty.Idx) :
    i ∈ slotSet8 M k ↔ ∃ j : S8x64x512.Idx, (j 0).val = k.val ∧ M.view.emb j = i := by
  constructor
  · intro h
    obtain ⟨y, rfl⟩ := View.exists_emb_of_mem_set (slot8 M k).view h
    exact ⟨ix3 k (y 0) (y 1), rfl, (emb_slot8 M k y).symm⟩
  · rintro ⟨j, hj, rfl⟩
    obtain ⟨a, r, c, rfl⟩ : ∃ (a : Fin 8) (r : Fin 64) (c : Fin 512), j = ix3 a r c := ⟨j 0, j 1, j 2, eq_ix3 j⟩
    obtain rfl : a = k := Fin.ext hj
    have e := emb_slot8 M a (ix2 r c)
    exact e ▸ View.emb_mem_set (slot8 M a).view (ix2 r c)

theorem disjoint_slot8 (M : Memref sig .tc .vmem S8x64x512 .bf16) {k k' : Fin 8} (h : k ≠ k') :
    Disjoint (slotSet8 M k) (slotSet8 M k') := by
  rw [Finset.disjoint_left]
  intro i hi hi'
  obtain ⟨j, hj, rfl⟩ := (mem_slot8 M k i).mp hi
  obtain ⟨j', hj', e⟩ := (mem_slot8 M k' _).mp hi'
  obtain rfl := M.view.emb.injective e
  exact h (Fin.ext (hj.symm.trans hj'))

theorem biUnion_slot8 (M : Memref sig .tc .vmem S8x64x512 .bf16) (hM : M.IsWhole) :
    Finset.univ.biUnion (slotSet8 M) = Finset.univ := by
  ext i
  simp only [Finset.mem_biUnion, Finset.mem_univ, true_and, iff_true]
  have hi : i ∈ M.view.set := hM.set_eq_univ ▸ Finset.mem_univ i
  obtain ⟨j, rfl⟩ := View.exists_emb_of_mem_set M.view hi
  exact ⟨j 0, (mem_slot8 M (j 0) _).mpr ⟨j, rfl, rfl⟩⟩

/-- A whole buffer held at one share is its 8 chunks held at that share. -/
theorem split8 (c : Dev nD) (M : Memref sig .tc .vmem S8x64x512 .bf16) (hM : M.IsWhole) (q : PosShare TreeShare)
    (f : Buf (Elt F) (M.view.loc (c : Thread nD τ))) :
    ((M.view.loc (c : Thread nD τ)) ↦{q} f : sProp 𝕄)
      ⊣⊢ bigSep Finset.univ fun k : Fin 8 => ((slot8 M k).view.loc (c : Thread nD τ) ↦[(slot8 M k).view.set]{q} f) := by
  have e := pointsTo_biUnion (ℓ := M.view.loc (c : Thread nD τ)) (q := q) (f := f) (Ix := Unit) (Name := ℕ) (U := UU) (Lvl := ℕ)
    Finset.univ (slotSet8 M) (fun k _ k' _ h => disjoint_slot8 M h)
  rw [biUnion_slot8 M hM] at e
  exact ⟨Entails.of_eq e, Entails.of_eq e.symm⟩

/-- The elements of chunk `k`, as elements of the memref's buffer. -/
abbrev slotSet2 (M : Memref sig .tc .vmem S2x64x512 .bf16) (k : Fin 2) : Finset M.view.ty.Idx := (slot2 M k).view.set

theorem emb_slot2 (M : Memref sig .tc .vmem S2x64x512 .bf16) (k : Fin 2) (y : S64x512.Idx) :
    (slot2 M k).view.emb y = M.view.emb (ix3 k (y 0) (y 1)) :=
  congrArg M.view.emb (chunk_emb k (inb2 k) _ y)

theorem mem_slot2 (M : Memref sig .tc .vmem S2x64x512 .bf16) (k : Fin 2) (i : M.view.ty.Idx) :
    i ∈ slotSet2 M k ↔ ∃ j : S2x64x512.Idx, (j 0).val = k.val ∧ M.view.emb j = i := by
  constructor
  · intro h
    obtain ⟨y, rfl⟩ := View.exists_emb_of_mem_set (slot2 M k).view h
    exact ⟨ix3 k (y 0) (y 1), rfl, (emb_slot2 M k y).symm⟩
  · rintro ⟨j, hj, rfl⟩
    obtain ⟨a, r, c, rfl⟩ : ∃ (a : Fin 2) (r : Fin 64) (c : Fin 512), j = ix3 a r c := ⟨j 0, j 1, j 2, eq_ix3 j⟩
    obtain rfl : a = k := Fin.ext hj
    have e := emb_slot2 M a (ix2 r c)
    exact e ▸ View.emb_mem_set (slot2 M a).view (ix2 r c)

theorem disjoint_slot2 (M : Memref sig .tc .vmem S2x64x512 .bf16) {k k' : Fin 2} (h : k ≠ k') :
    Disjoint (slotSet2 M k) (slotSet2 M k') := by
  rw [Finset.disjoint_left]
  intro i hi hi'
  obtain ⟨j, hj, rfl⟩ := (mem_slot2 M k i).mp hi
  obtain ⟨j', hj', e⟩ := (mem_slot2 M k' _).mp hi'
  obtain rfl := M.view.emb.injective e
  exact h (Fin.ext (hj.symm.trans hj'))

theorem biUnion_slot2 (M : Memref sig .tc .vmem S2x64x512 .bf16) (hM : M.IsWhole) :
    Finset.univ.biUnion (slotSet2 M) = Finset.univ := by
  ext i
  simp only [Finset.mem_biUnion, Finset.mem_univ, true_and, iff_true]
  have hi : i ∈ M.view.set := hM.set_eq_univ ▸ Finset.mem_univ i
  obtain ⟨j, rfl⟩ := View.exists_emb_of_mem_set M.view hi
  exact ⟨j 0, (mem_slot2 M (j 0) _).mpr ⟨j, rfl, rfl⟩⟩

/-- A whole buffer held at one share is its 2 chunks held at that share. -/
theorem split2 (c : Dev nD) (M : Memref sig .tc .vmem S2x64x512 .bf16) (hM : M.IsWhole) (q : PosShare TreeShare)
    (f : Buf (Elt F) (M.view.loc (c : Thread nD τ))) :
    ((M.view.loc (c : Thread nD τ)) ↦{q} f : sProp 𝕄)
      ⊣⊢ bigSep Finset.univ fun k : Fin 2 => ((slot2 M k).view.loc (c : Thread nD τ) ↦[(slot2 M k).view.set]{q} f) := by
  have e := pointsTo_biUnion (ℓ := M.view.loc (c : Thread nD τ)) (q := q) (f := f) (Ix := Unit) (Name := ℕ) (U := UU) (Lvl := ℕ)
    Finset.univ (slotSet2 M) (fun k _ k' _ h => disjoint_slot2 M h)
  rw [biUnion_slot2 M hM] at e
  exact ⟨Entails.of_eq e, Entails.of_eq e.symm⟩

/-- The elements of chunk `k`, as elements of the memref's buffer. -/
abbrev slotSet3 (M : Memref sig .tc .vmem S3x64x512 .bf16) (k : Fin 3) : Finset M.view.ty.Idx := (slot3 M k).view.set

theorem emb_slot3 (M : Memref sig .tc .vmem S3x64x512 .bf16) (k : Fin 3) (y : S64x512.Idx) :
    (slot3 M k).view.emb y = M.view.emb (ix3 k (y 0) (y 1)) :=
  congrArg M.view.emb (chunk_emb k (inb3 k) _ y)

theorem mem_slot3 (M : Memref sig .tc .vmem S3x64x512 .bf16) (k : Fin 3) (i : M.view.ty.Idx) :
    i ∈ slotSet3 M k ↔ ∃ j : S3x64x512.Idx, (j 0).val = k.val ∧ M.view.emb j = i := by
  constructor
  · intro h
    obtain ⟨y, rfl⟩ := View.exists_emb_of_mem_set (slot3 M k).view h
    exact ⟨ix3 k (y 0) (y 1), rfl, (emb_slot3 M k y).symm⟩
  · rintro ⟨j, hj, rfl⟩
    obtain ⟨a, r, c, rfl⟩ : ∃ (a : Fin 3) (r : Fin 64) (c : Fin 512), j = ix3 a r c := ⟨j 0, j 1, j 2, eq_ix3 j⟩
    obtain rfl : a = k := Fin.ext hj
    have e := emb_slot3 M a (ix2 r c)
    exact e ▸ View.emb_mem_set (slot3 M a).view (ix2 r c)

theorem disjoint_slot3 (M : Memref sig .tc .vmem S3x64x512 .bf16) {k k' : Fin 3} (h : k ≠ k') :
    Disjoint (slotSet3 M k) (slotSet3 M k') := by
  rw [Finset.disjoint_left]
  intro i hi hi'
  obtain ⟨j, hj, rfl⟩ := (mem_slot3 M k i).mp hi
  obtain ⟨j', hj', e⟩ := (mem_slot3 M k' _).mp hi'
  obtain rfl := M.view.emb.injective e
  exact h (Fin.ext (hj.symm.trans hj'))

theorem biUnion_slot3 (M : Memref sig .tc .vmem S3x64x512 .bf16) (hM : M.IsWhole) :
    Finset.univ.biUnion (slotSet3 M) = Finset.univ := by
  ext i
  simp only [Finset.mem_biUnion, Finset.mem_univ, true_and, iff_true]
  have hi : i ∈ M.view.set := hM.set_eq_univ ▸ Finset.mem_univ i
  obtain ⟨j, rfl⟩ := View.exists_emb_of_mem_set M.view hi
  exact ⟨j 0, (mem_slot3 M (j 0) _).mpr ⟨j, rfl, rfl⟩⟩

/-- A whole buffer held at one share is its 3 chunks held at that share. -/
theorem split3 (c : Dev nD) (M : Memref sig .tc .vmem S3x64x512 .bf16) (hM : M.IsWhole) (q : PosShare TreeShare)
    (f : Buf (Elt F) (M.view.loc (c : Thread nD τ))) :
    ((M.view.loc (c : Thread nD τ)) ↦{q} f : sProp 𝕄)
      ⊣⊢ bigSep Finset.univ fun k : Fin 3 => ((slot3 M k).view.loc (c : Thread nD τ) ↦[(slot3 M k).view.set]{q} f) := by
  have e := pointsTo_biUnion (ℓ := M.view.loc (c : Thread nD τ)) (q := q) (f := f) (Ix := Unit) (Name := ℕ) (U := UU) (Lvl := ℕ)
    Finset.univ (slotSet3 M) (fun k _ k' _ h => disjoint_slot3 M h)
  rw [biUnion_slot3 M hM] at e
  exact ⟨Entails.of_eq e, Entails.of_eq e.symm⟩

/-! ## A full share in two and in three -/

omit [FloatOps F] in
theorem share2 (ℓ : Loc nD τ sig) (I : Finset (Idx ℓ)) (f : Buf (Elt F) ℓ) :
    (ℓ ↦[I]{fullShare} f : sProp 𝕄) ⊣⊢ iprop((ℓ ↦[I]{fullShare.left} f) ∗ (ℓ ↦[I]{fullShare.right} f)) :=
  pointsTo_share (PosShare.mem_left_op_right _)
omit [FloatOps F] in
theorem share3 (ℓ : Loc nD τ sig) (I : Finset (Idx ℓ)) (f : Buf (Elt F) ℓ) :
    (ℓ ↦[I]{fullShare} f : sProp 𝕄)
      ⊣⊢ iprop((ℓ ↦[I]{fullShare.left} f) ∗ (ℓ ↦[I]{fullShare.right.left} f) ∗ (ℓ ↦[I]{fullShare.right.right} f)) :=
  (share2 ℓ I f).trans (sep_congr_right (pointsTo_share (PosShare.mem_left_op_right _)))

/-! ## Reading a chunk -/

/-- Reading chunk `k` through its view is reading the memref at first coordinate `k`. -/
theorem read_slot8 (M : Memref sig .tc .vmem S8x64x512 .bf16) (k : Fin 8) (f : M.view.ty.Contents (Elt F)) (y : S64x512.Idx) :
    (slot8 M k).view.read (Elt F) f y = M.view.read (Elt F) f (ix3 k (y 0) (y 1)) :=
  congrArg (fun i : M.view.ty.Idx => _root_.cast (congrArg (Elt F) M.view.elt_eq) (f i)) (emb_slot8 M k y)

/-- The load of chunk `k` at its 1 × 64 × 512 rectangle reads the same elements. -/
theorem readAt_chunk8 (M : Memref sig .tc .vmem S8x64x512 .bf16) (k : Fin 8) (f : M.view.ty.Contents (Elt F)) (y : S1x64x512.Idx) :
    M.view.readAt (Elt F) (Rect.unit (s := S8x64x512) ![k.val, 0, 0] S1x64x512.size (inb8 k)).toLoadRect f y
      = M.view.read (Elt F) f (ix3 k (y 1) (y 2)) :=
  congrArg (fun i : M.view.ty.Idx => _root_.cast (congrArg (Elt F) M.view.elt_eq) (f i))
    (congrArg M.view.emb (chunk_rect_emb k (inb8 k) y))

/-- Reading chunk `k` through its view is reading the memref at first coordinate `k`. -/
theorem read_slot2 (M : Memref sig .tc .vmem S2x64x512 .bf16) (k : Fin 2) (f : M.view.ty.Contents (Elt F)) (y : S64x512.Idx) :
    (slot2 M k).view.read (Elt F) f y = M.view.read (Elt F) f (ix3 k (y 0) (y 1)) :=
  congrArg (fun i : M.view.ty.Idx => _root_.cast (congrArg (Elt F) M.view.elt_eq) (f i)) (emb_slot2 M k y)

/-- The load of chunk `k` at its 1 × 64 × 512 rectangle reads the same elements. -/
theorem readAt_chunk2 (M : Memref sig .tc .vmem S2x64x512 .bf16) (k : Fin 2) (f : M.view.ty.Contents (Elt F)) (y : S1x64x512.Idx) :
    M.view.readAt (Elt F) (Rect.unit (s := S2x64x512) ![k.val, 0, 0] S1x64x512.size (inb2 k)).toLoadRect f y
      = M.view.read (Elt F) f (ix3 k (y 1) (y 2)) :=
  congrArg (fun i : M.view.ty.Idx => _root_.cast (congrArg (Elt F) M.view.elt_eq) (f i))
    (congrArg M.view.emb (chunk_rect_emb k (inb2 k) y))

/-- Reading chunk `k` through its view is reading the memref at first coordinate `k`. -/
theorem read_slot3 (M : Memref sig .tc .vmem S3x64x512 .bf16) (k : Fin 3) (f : M.view.ty.Contents (Elt F)) (y : S64x512.Idx) :
    (slot3 M k).view.read (Elt F) f y = M.view.read (Elt F) f (ix3 k (y 0) (y 1)) :=
  congrArg (fun i : M.view.ty.Idx => _root_.cast (congrArg (Elt F) M.view.elt_eq) (f i)) (emb_slot3 M k y)

/-- The load of chunk `k` at its 1 × 64 × 512 rectangle reads the same elements. -/
theorem readAt_chunk3 (M : Memref sig .tc .vmem S3x64x512 .bf16) (k : Fin 3) (f : M.view.ty.Contents (Elt F)) (y : S1x64x512.Idx) :
    M.view.readAt (Elt F) (Rect.unit (s := S3x64x512) ![k.val, 0, 0] S1x64x512.size (inb3 k)).toLoadRect f y
      = M.view.read (Elt F) f (ix3 k (y 1) (y 2)) :=
  congrArg (fun i : M.view.ty.Idx => _root_.cast (congrArg (Elt F) M.view.elt_eq) (f i))
    (congrArg M.view.emb (chunk_rect_emb k (inb3 k) y))

/-! ## Writing a chunk -/

/-- A chunk written whole through its view holds the payload on the chunk, -/
theorem write_slot8_emb (M : Memref sig .tc .vmem S8x64x512 .bf16) (k : Fin 8) (fd : M.view.ty.Contents (Elt F))
    (w : S64x512.Idx → Elt F .bf16) (y : S64x512.Idx) :
    (slot8 M k).view.write (Elt F) fd w Finset.univ (M.view.emb (ix3 k (y 0) (y 1)))
      = _root_.cast (congrArg (Elt F) M.view.elt_eq.symm) (w y) := by
  have h := View.write_emb_of_mem (v := (slot8 M k).view) (Val := Elt F) fd w (M := Finset.univ) (x := y) (Finset.mem_univ _)
  rw [emb_slot8] at h
  exact h
/-- and what the buffer held off it. -/
theorem write_slot8_off (M : Memref sig .tc .vmem S8x64x512 .bf16) (k : Fin 8) (fd : M.view.ty.Contents (Elt F))
    (w : S64x512.Idx → Elt F .bf16) (i : M.view.ty.Idx) (h : i ∉ slotSet8 M k) :
    (slot8 M k).view.write (Elt F) fd w Finset.univ i = fd i :=
  View.write_of_not_mem (v := (slot8 M k).view) fd w Finset.univ h

/-- The elements under the kernel's 1 × 64 × 512 access at the chunk's rectangle are the chunk's. -/
theorem set_access_chunk8 (M : Memref sig .tc .vmem S8x64x512 .bf16) (k : Fin 8) :
    (M.access (Rect.unit (s := S8x64x512) ![k.val, 0, 0] S1x64x512.size (inb8 k))).set = slotSet8 M k := by
  exact (View.set_reshape (M.view.slice (Rect.unit (s := S8x64x512) ![k.val, 0, 0] S1x64x512.size (inb8 k)))
    squeezes_S1x64x512_S64x512.numel_eq).symm

/-- The same of the 1 × 64 × 512 store the kernel makes at the chunk's rectangle. -/
theorem store_chunk8_emb (M : Memref sig .tc .vmem S8x64x512 .bf16) (k : Fin 8) (f : M.view.ty.Contents (Elt F))
    (w : S1x64x512.Idx → Elt F .bf16) (y : S1x64x512.Idx) :
    (M.access (Rect.unit (s := S8x64x512) ![k.val, 0, 0] S1x64x512.size (inb8 k))).write (Elt F) f w Finset.univ
        (M.view.emb (ix3 k (y 1) (y 2)))
      = _root_.cast (congrArg (Elt F) M.view.elt_eq.symm) (w y) := by
  have h := View.write_emb_of_mem (v := M.access (Rect.unit (s := S8x64x512) ![k.val, 0, 0] S1x64x512.size (inb8 k)))
    (Val := Elt F) f w (M := Finset.univ) (x := y) (Finset.mem_univ _)
  have e : (M.access (Rect.unit (s := S8x64x512) ![k.val, 0, 0] S1x64x512.size (inb8 k))).emb y
      = M.view.emb (ix3 k (y 1) (y 2)) := congrArg M.view.emb (chunk_rect_emb k (inb8 k) y)
  rw [e] at h
  exact h
theorem store_chunk8_off (M : Memref sig .tc .vmem S8x64x512 .bf16) (k : Fin 8) (f : M.view.ty.Contents (Elt F))
    (w : S1x64x512.Idx → Elt F .bf16) (i : M.view.ty.Idx) (h : i ∉ slotSet8 M k) :
    (M.access (Rect.unit (s := S8x64x512) ![k.val, 0, 0] S1x64x512.size (inb8 k))).write (Elt F) f w Finset.univ i = f i := by
  rw [← set_access_chunk8] at h
  exact View.write_of_not_mem (v := M.access (Rect.unit (s := S8x64x512) ![k.val, 0, 0] S1x64x512.size (inb8 k))) f w Finset.univ h

/-- A chunk written whole through its view holds the payload on the chunk, -/
theorem write_slot2_emb (M : Memref sig .tc .vmem S2x64x512 .bf16) (k : Fin 2) (fd : M.view.ty.Contents (Elt F))
    (w : S64x512.Idx → Elt F .bf16) (y : S64x512.Idx) :
    (slot2 M k).view.write (Elt F) fd w Finset.univ (M.view.emb (ix3 k (y 0) (y 1)))
      = _root_.cast (congrArg (Elt F) M.view.elt_eq.symm) (w y) := by
  have h := View.write_emb_of_mem (v := (slot2 M k).view) (Val := Elt F) fd w (M := Finset.univ) (x := y) (Finset.mem_univ _)
  rw [emb_slot2] at h
  exact h
/-- and what the buffer held off it. -/
theorem write_slot2_off (M : Memref sig .tc .vmem S2x64x512 .bf16) (k : Fin 2) (fd : M.view.ty.Contents (Elt F))
    (w : S64x512.Idx → Elt F .bf16) (i : M.view.ty.Idx) (h : i ∉ slotSet2 M k) :
    (slot2 M k).view.write (Elt F) fd w Finset.univ i = fd i :=
  View.write_of_not_mem (v := (slot2 M k).view) fd w Finset.univ h

/-- The elements under the kernel's 1 × 64 × 512 access at the chunk's rectangle are the chunk's. -/
theorem set_access_chunk2 (M : Memref sig .tc .vmem S2x64x512 .bf16) (k : Fin 2) :
    (M.access (Rect.unit (s := S2x64x512) ![k.val, 0, 0] S1x64x512.size (inb2 k))).set = slotSet2 M k := by
  exact (View.set_reshape (M.view.slice (Rect.unit (s := S2x64x512) ![k.val, 0, 0] S1x64x512.size (inb2 k)))
    squeezes_S1x64x512_S64x512.numel_eq).symm

/-- The same of the 1 × 64 × 512 store the kernel makes at the chunk's rectangle. -/
theorem store_chunk2_emb (M : Memref sig .tc .vmem S2x64x512 .bf16) (k : Fin 2) (f : M.view.ty.Contents (Elt F))
    (w : S1x64x512.Idx → Elt F .bf16) (y : S1x64x512.Idx) :
    (M.access (Rect.unit (s := S2x64x512) ![k.val, 0, 0] S1x64x512.size (inb2 k))).write (Elt F) f w Finset.univ
        (M.view.emb (ix3 k (y 1) (y 2)))
      = _root_.cast (congrArg (Elt F) M.view.elt_eq.symm) (w y) := by
  have h := View.write_emb_of_mem (v := M.access (Rect.unit (s := S2x64x512) ![k.val, 0, 0] S1x64x512.size (inb2 k)))
    (Val := Elt F) f w (M := Finset.univ) (x := y) (Finset.mem_univ _)
  have e : (M.access (Rect.unit (s := S2x64x512) ![k.val, 0, 0] S1x64x512.size (inb2 k))).emb y
      = M.view.emb (ix3 k (y 1) (y 2)) := congrArg M.view.emb (chunk_rect_emb k (inb2 k) y)
  rw [e] at h
  exact h
theorem store_chunk2_off (M : Memref sig .tc .vmem S2x64x512 .bf16) (k : Fin 2) (f : M.view.ty.Contents (Elt F))
    (w : S1x64x512.Idx → Elt F .bf16) (i : M.view.ty.Idx) (h : i ∉ slotSet2 M k) :
    (M.access (Rect.unit (s := S2x64x512) ![k.val, 0, 0] S1x64x512.size (inb2 k))).write (Elt F) f w Finset.univ i = f i := by
  rw [← set_access_chunk2] at h
  exact View.write_of_not_mem (v := M.access (Rect.unit (s := S2x64x512) ![k.val, 0, 0] S1x64x512.size (inb2 k))) f w Finset.univ h

/-- A chunk written whole through its view holds the payload on the chunk, -/
theorem write_slot3_emb (M : Memref sig .tc .vmem S3x64x512 .bf16) (k : Fin 3) (fd : M.view.ty.Contents (Elt F))
    (w : S64x512.Idx → Elt F .bf16) (y : S64x512.Idx) :
    (slot3 M k).view.write (Elt F) fd w Finset.univ (M.view.emb (ix3 k (y 0) (y 1)))
      = _root_.cast (congrArg (Elt F) M.view.elt_eq.symm) (w y) := by
  have h := View.write_emb_of_mem (v := (slot3 M k).view) (Val := Elt F) fd w (M := Finset.univ) (x := y) (Finset.mem_univ _)
  rw [emb_slot3] at h
  exact h
/-- and what the buffer held off it. -/
theorem write_slot3_off (M : Memref sig .tc .vmem S3x64x512 .bf16) (k : Fin 3) (fd : M.view.ty.Contents (Elt F))
    (w : S64x512.Idx → Elt F .bf16) (i : M.view.ty.Idx) (h : i ∉ slotSet3 M k) :
    (slot3 M k).view.write (Elt F) fd w Finset.univ i = fd i :=
  View.write_of_not_mem (v := (slot3 M k).view) fd w Finset.univ h

/-- The elements under the kernel's 1 × 64 × 512 access at the chunk's rectangle are the chunk's. -/
theorem set_access_chunk3 (M : Memref sig .tc .vmem S3x64x512 .bf16) (k : Fin 3) :
    (M.access (Rect.unit (s := S3x64x512) ![k.val, 0, 0] S1x64x512.size (inb3 k))).set = slotSet3 M k := by
  exact (View.set_reshape (M.view.slice (Rect.unit (s := S3x64x512) ![k.val, 0, 0] S1x64x512.size (inb3 k)))
    squeezes_S1x64x512_S64x512.numel_eq).symm

/-- The same of the 1 × 64 × 512 store the kernel makes at the chunk's rectangle. -/
theorem store_chunk3_emb (M : Memref sig .tc .vmem S3x64x512 .bf16) (k : Fin 3) (f : M.view.ty.Contents (Elt F))
    (w : S1x64x512.Idx → Elt F .bf16) (y : S1x64x512.Idx) :
    (M.access (Rect.unit (s := S3x64x512) ![k.val, 0, 0] S1x64x512.size (inb3 k))).write (Elt F) f w Finset.univ
        (M.view.emb (ix3 k (y 1) (y 2)))
      = _root_.cast (congrArg (Elt F) M.view.elt_eq.symm) (w y) := by
  have h := View.write_emb_of_mem (v := M.access (Rect.unit (s := S3x64x512) ![k.val, 0, 0] S1x64x512.size (inb3 k)))
    (Val := Elt F) f w (M := Finset.univ) (x := y) (Finset.mem_univ _)
  have e : (M.access (Rect.unit (s := S3x64x512) ![k.val, 0, 0] S1x64x512.size (inb3 k))).emb y
      = M.view.emb (ix3 k (y 1) (y 2)) := congrArg M.view.emb (chunk_rect_emb k (inb3 k) y)
  rw [e] at h
  exact h
theorem store_chunk3_off (M : Memref sig .tc .vmem S3x64x512 .bf16) (k : Fin 3) (f : M.view.ty.Contents (Elt F))
    (w : S1x64x512.Idx → Elt F .bf16) (i : M.view.ty.Idx) (h : i ∉ slotSet3 M k) :
    (M.access (Rect.unit (s := S3x64x512) ![k.val, 0, 0] S1x64x512.size (inb3 k))).write (Elt F) f w Finset.univ i = f i := by
  rw [← set_access_chunk3] at h
  exact View.write_of_not_mem (v := M.access (Rect.unit (s := S3x64x512) ![k.val, 0, 0] S1x64x512.size (inb3 k))) f w Finset.univ h

/-! ## The eight scratch buffers of this kernel

Each is a whole buffer, so an element of the memref is the buffer's element at the same index and
a read through the memref's view is the buffer's contents: the statements above at buffer indices. -/

theorem mem_slot_sx (k : Fin 8) (i : S8x64x512.Idx) : i ∈ (slot8 sxM k).view.set ↔ (i 0).val = k.val :=
  (mem_slot8 sxM k i).trans ⟨fun ⟨j, hj, e⟩ => (show j = i from e) ▸ hj, fun h => ⟨i, h, rfl⟩⟩
theorem read_slot_sx (k : Fin 8) (f : (cc0_scratch0 : Ref sig .tc).ty.Contents (Elt F)) (y : S64x512.Idx) :
    (slot8 sxM k).view.read (Elt F) f y = f (ix3 k (y 0) (y 1)) := read_slot8 sxM k f y
theorem readAt_chunk_sx (k : Fin 8) (f : (cc0_scratch0 : Ref sig .tc).ty.Contents (Elt F)) (y : S1x64x512.Idx) :
    (sxM : Memref sig .tc .vmem S8x64x512 .bf16).view.readAt (Elt F)
        (Rect.unit (s := S8x64x512) ![k.val, 0, 0] S1x64x512.size (inb8 k)).toLoadRect f y
      = f (ix3 k (y 1) (y 2)) := readAt_chunk8 sxM k f y
theorem write_slot_sx (k : Fin 8) (fd : (cc0_scratch0 : Ref sig .tc).ty.Contents (Elt F)) (w : S64x512.Idx → Elt F .bf16)
    (i : S8x64x512.Idx) (hi : i ∈ (slot8 sxM k).view.set) :
    (slot8 sxM k).view.write (Elt F) fd w Finset.univ i = w (ix2 (i 1) (i 2)) := by
  obtain ⟨z, r, c, rfl⟩ : ∃ (z : Fin 8) (r : Fin 64) (c : Fin 512), i = ix3 z r c := ⟨i 0, i 1, i 2, eq_ix3 i⟩
  obtain rfl : z = k := Fin.ext ((mem_slot_sx k _).mp hi)
  exact write_slot8_emb sxM z fd w (ix2 r c)
theorem store_chunk_sx (k : Fin 8) (f : (cc0_scratch0 : Ref sig .tc).ty.Contents (Elt F)) (w : S1x64x512.Idx → Elt F .bf16)
    (i : S8x64x512.Idx) :
    ((sxM : Memref sig .tc .vmem S8x64x512 .bf16).access
        (Rect.unit (s := S8x64x512) ![k.val, 0, 0] S1x64x512.size (inb8 k))).write (Elt F) f w Finset.univ i
      = if (i 0).val = k.val then w (ix3 (0 : Fin 1) (i 1) (i 2)) else f i := by
  split
  · next h =>
    obtain ⟨z, r, c, rfl⟩ : ∃ (z : Fin 8) (r : Fin 64) (c : Fin 512), i = ix3 z r c := ⟨i 0, i 1, i 2, eq_ix3 i⟩
    obtain rfl : z = k := Fin.ext h
    exact store_chunk8_emb sxM z f w (ix3 (0 : Fin 1) r c)
  · next h => exact store_chunk8_off sxM k f w i (fun h' => h ((mem_slot_sx k i).mp h'))

theorem mem_slot_rx (k : Fin 8) (i : S8x64x512.Idx) : i ∈ (slot8 rxM k).view.set ↔ (i 0).val = k.val :=
  (mem_slot8 rxM k i).trans ⟨fun ⟨j, hj, e⟩ => (show j = i from e) ▸ hj, fun h => ⟨i, h, rfl⟩⟩
theorem read_slot_rx (k : Fin 8) (f : (cc0_scratch2 : Ref sig .tc).ty.Contents (Elt F)) (y : S64x512.Idx) :
    (slot8 rxM k).view.read (Elt F) f y = f (ix3 k (y 0) (y 1)) := read_slot8 rxM k f y
theorem readAt_chunk_rx (k : Fin 8) (f : (cc0_scratch2 : Ref sig .tc).ty.Contents (Elt F)) (y : S1x64x512.Idx) :
    (rxM : Memref sig .tc .vmem S8x64x512 .bf16).view.readAt (Elt F)
        (Rect.unit (s := S8x64x512) ![k.val, 0, 0] S1x64x512.size (inb8 k)).toLoadRect f y
      = f (ix3 k (y 1) (y 2)) := readAt_chunk8 rxM k f y
theorem write_slot_rx (k : Fin 8) (fd : (cc0_scratch2 : Ref sig .tc).ty.Contents (Elt F)) (w : S64x512.Idx → Elt F .bf16)
    (i : S8x64x512.Idx) (hi : i ∈ (slot8 rxM k).view.set) :
    (slot8 rxM k).view.write (Elt F) fd w Finset.univ i = w (ix2 (i 1) (i 2)) := by
  obtain ⟨z, r, c, rfl⟩ : ∃ (z : Fin 8) (r : Fin 64) (c : Fin 512), i = ix3 z r c := ⟨i 0, i 1, i 2, eq_ix3 i⟩
  obtain rfl : z = k := Fin.ext ((mem_slot_rx k _).mp hi)
  exact write_slot8_emb rxM z fd w (ix2 r c)
theorem store_chunk_rx (k : Fin 8) (f : (cc0_scratch2 : Ref sig .tc).ty.Contents (Elt F)) (w : S1x64x512.Idx → Elt F .bf16)
    (i : S8x64x512.Idx) :
    ((rxM : Memref sig .tc .vmem S8x64x512 .bf16).access
        (Rect.unit (s := S8x64x512) ![k.val, 0, 0] S1x64x512.size (inb8 k))).write (Elt F) f w Finset.univ i
      = if (i 0).val = k.val then w (ix3 (0 : Fin 1) (i 1) (i 2)) else f i := by
  split
  · next h =>
    obtain ⟨z, r, c, rfl⟩ : ∃ (z : Fin 8) (r : Fin 64) (c : Fin 512), i = ix3 z r c := ⟨i 0, i 1, i 2, eq_ix3 i⟩
    obtain rfl : z = k := Fin.ext h
    exact store_chunk8_emb rxM z f w (ix3 (0 : Fin 1) r c)
  · next h => exact store_chunk8_off rxM k f w i (fun h' => h ((mem_slot_rx k i).mp h'))

theorem mem_slot_ryd (k : Fin 8) (i : S8x64x512.Idx) : i ∈ (slot8 rydM k).view.set ↔ (i 0).val = k.val :=
  (mem_slot8 rydM k i).trans ⟨fun ⟨j, hj, e⟩ => (show j = i from e) ▸ hj, fun h => ⟨i, h, rfl⟩⟩
theorem read_slot_ryd (k : Fin 8) (f : (cc0_scratch4 : Ref sig .tc).ty.Contents (Elt F)) (y : S64x512.Idx) :
    (slot8 rydM k).view.read (Elt F) f y = f (ix3 k (y 0) (y 1)) := read_slot8 rydM k f y
theorem readAt_chunk_ryd (k : Fin 8) (f : (cc0_scratch4 : Ref sig .tc).ty.Contents (Elt F)) (y : S1x64x512.Idx) :
    (rydM : Memref sig .tc .vmem S8x64x512 .bf16).view.readAt (Elt F)
        (Rect.unit (s := S8x64x512) ![k.val, 0, 0] S1x64x512.size (inb8 k)).toLoadRect f y
      = f (ix3 k (y 1) (y 2)) := readAt_chunk8 rydM k f y
theorem write_slot_ryd (k : Fin 8) (fd : (cc0_scratch4 : Ref sig .tc).ty.Contents (Elt F)) (w : S64x512.Idx → Elt F .bf16)
    (i : S8x64x512.Idx) (hi : i ∈ (slot8 rydM k).view.set) :
    (slot8 rydM k).view.write (Elt F) fd w Finset.univ i = w (ix2 (i 1) (i 2)) := by
  obtain ⟨z, r, c, rfl⟩ : ∃ (z : Fin 8) (r : Fin 64) (c : Fin 512), i = ix3 z r c := ⟨i 0, i 1, i 2, eq_ix3 i⟩
  obtain rfl : z = k := Fin.ext ((mem_slot_ryd k _).mp hi)
  exact write_slot8_emb rydM z fd w (ix2 r c)
theorem store_chunk_ryd (k : Fin 8) (f : (cc0_scratch4 : Ref sig .tc).ty.Contents (Elt F)) (w : S1x64x512.Idx → Elt F .bf16)
    (i : S8x64x512.Idx) :
    ((rydM : Memref sig .tc .vmem S8x64x512 .bf16).access
        (Rect.unit (s := S8x64x512) ![k.val, 0, 0] S1x64x512.size (inb8 k))).write (Elt F) f w Finset.univ i
      = if (i 0).val = k.val then w (ix3 (0 : Fin 1) (i 1) (i 2)) else f i := by
  split
  · next h =>
    obtain ⟨z, r, c, rfl⟩ : ∃ (z : Fin 8) (r : Fin 64) (c : Fin 512), i = ix3 z r c := ⟨i 0, i 1, i 2, eq_ix3 i⟩
    obtain rfl : z = k := Fin.ext h
    exact store_chunk8_emb rydM z f w (ix3 (0 : Fin 1) r c)
  · next h => exact store_chunk8_off rydM k f w i (fun h' => h ((mem_slot_ryd k i).mp h'))

theorem mem_slot_rzd (k : Fin 8) (i : S8x64x512.Idx) : i ∈ (slot8 rzdM k).view.set ↔ (i 0).val = k.val :=
  (mem_slot8 rzdM k i).trans ⟨fun ⟨j, hj, e⟩ => (show j = i from e) ▸ hj, fun h => ⟨i, h, rfl⟩⟩
theorem read_slot_rzd (k : Fin 8) (f : (cc0_scratch5 : Ref sig .tc).ty.Contents (Elt F)) (y : S64x512.Idx) :
    (slot8 rzdM k).view.read (Elt F) f y = f (ix3 k (y 0) (y 1)) := read_slot8 rzdM k f y
theorem readAt_chunk_rzd (k : Fin 8) (f : (cc0_scratch5 : Ref sig .tc).ty.Contents (Elt F)) (y : S1x64x512.Idx) :
    (rzdM : Memref sig .tc .vmem S8x64x512 .bf16).view.readAt (Elt F)
        (Rect.unit (s := S8x64x512) ![k.val, 0, 0] S1x64x512.size (inb8 k)).toLoadRect f y
      = f (ix3 k (y 1) (y 2)) := readAt_chunk8 rzdM k f y
theorem write_slot_rzd (k : Fin 8) (fd : (cc0_scratch5 : Ref sig .tc).ty.Contents (Elt F)) (w : S64x512.Idx → Elt F .bf16)
    (i : S8x64x512.Idx) (hi : i ∈ (slot8 rzdM k).view.set) :
    (slot8 rzdM k).view.write (Elt F) fd w Finset.univ i = w (ix2 (i 1) (i 2)) := by
  obtain ⟨z, r, c, rfl⟩ : ∃ (z : Fin 8) (r : Fin 64) (c : Fin 512), i = ix3 z r c := ⟨i 0, i 1, i 2, eq_ix3 i⟩
  obtain rfl : z = k := Fin.ext ((mem_slot_rzd k _).mp hi)
  exact write_slot8_emb rzdM z fd w (ix2 r c)
theorem store_chunk_rzd (k : Fin 8) (f : (cc0_scratch5 : Ref sig .tc).ty.Contents (Elt F)) (w : S1x64x512.Idx → Elt F .bf16)
    (i : S8x64x512.Idx) :
    ((rzdM : Memref sig .tc .vmem S8x64x512 .bf16).access
        (Rect.unit (s := S8x64x512) ![k.val, 0, 0] S1x64x512.size (inb8 k))).write (Elt F) f w Finset.univ i
      = if (i 0).val = k.val then w (ix3 (0 : Fin 1) (i 1) (i 2)) else f i := by
  split
  · next h =>
    obtain ⟨z, r, c, rfl⟩ : ∃ (z : Fin 8) (r : Fin 64) (c : Fin 512), i = ix3 z r c := ⟨i 0, i 1, i 2, eq_ix3 i⟩
    obtain rfl : z = k := Fin.ext h
    exact store_chunk8_emb rzdM z f w (ix3 (0 : Fin 1) r c)
  · next h => exact store_chunk8_off rzdM k f w i (fun h' => h ((mem_slot_rzd k i).mp h'))

theorem mem_slot_sx2 (k : Fin 2) (i : S2x64x512.Idx) : i ∈ (slot2 sx2M k).view.set ↔ (i 0).val = k.val :=
  (mem_slot2 sx2M k i).trans ⟨fun ⟨j, hj, e⟩ => (show j = i from e) ▸ hj, fun h => ⟨i, h, rfl⟩⟩
theorem read_slot_sx2 (k : Fin 2) (f : (cc0_scratch1 : Ref sig .tc).ty.Contents (Elt F)) (y : S64x512.Idx) :
    (slot2 sx2M k).view.read (Elt F) f y = f (ix3 k (y 0) (y 1)) := read_slot2 sx2M k f y
theorem readAt_chunk_sx2 (k : Fin 2) (f : (cc0_scratch1 : Ref sig .tc).ty.Contents (Elt F)) (y : S1x64x512.Idx) :
    (sx2M : Memref sig .tc .vmem S2x64x512 .bf16).view.readAt (Elt F)
        (Rect.unit (s := S2x64x512) ![k.val, 0, 0] S1x64x512.size (inb2 k)).toLoadRect f y
      = f (ix3 k (y 1) (y 2)) := readAt_chunk2 sx2M k f y
theorem write_slot_sx2 (k : Fin 2) (fd : (cc0_scratch1 : Ref sig .tc).ty.Contents (Elt F)) (w : S64x512.Idx → Elt F .bf16)
    (i : S2x64x512.Idx) (hi : i ∈ (slot2 sx2M k).view.set) :
    (slot2 sx2M k).view.write (Elt F) fd w Finset.univ i = w (ix2 (i 1) (i 2)) := by
  obtain ⟨z, r, c, rfl⟩ : ∃ (z : Fin 2) (r : Fin 64) (c : Fin 512), i = ix3 z r c := ⟨i 0, i 1, i 2, eq_ix3 i⟩
  obtain rfl : z = k := Fin.ext ((mem_slot_sx2 k _).mp hi)
  exact write_slot2_emb sx2M z fd w (ix2 r c)
theorem store_chunk_sx2 (k : Fin 2) (f : (cc0_scratch1 : Ref sig .tc).ty.Contents (Elt F)) (w : S1x64x512.Idx → Elt F .bf16)
    (i : S2x64x512.Idx) :
    ((sx2M : Memref sig .tc .vmem S2x64x512 .bf16).access
        (Rect.unit (s := S2x64x512) ![k.val, 0, 0] S1x64x512.size (inb2 k))).write (Elt F) f w Finset.univ i
      = if (i 0).val = k.val then w (ix3 (0 : Fin 1) (i 1) (i 2)) else f i := by
  split
  · next h =>
    obtain ⟨z, r, c, rfl⟩ : ∃ (z : Fin 2) (r : Fin 64) (c : Fin 512), i = ix3 z r c := ⟨i 0, i 1, i 2, eq_ix3 i⟩
    obtain rfl : z = k := Fin.ext h
    exact store_chunk2_emb sx2M z f w (ix3 (0 : Fin 1) r c)
  · next h => exact store_chunk2_off sx2M k f w i (fun h' => h ((mem_slot_sx2 k i).mp h'))

theorem mem_slot_rx2 (k : Fin 2) (i : S2x64x512.Idx) : i ∈ (slot2 rx2M k).view.set ↔ (i 0).val = k.val :=
  (mem_slot2 rx2M k i).trans ⟨fun ⟨j, hj, e⟩ => (show j = i from e) ▸ hj, fun h => ⟨i, h, rfl⟩⟩
theorem read_slot_rx2 (k : Fin 2) (f : (cc0_scratch3 : Ref sig .tc).ty.Contents (Elt F)) (y : S64x512.Idx) :
    (slot2 rx2M k).view.read (Elt F) f y = f (ix3 k (y 0) (y 1)) := read_slot2 rx2M k f y
theorem readAt_chunk_rx2 (k : Fin 2) (f : (cc0_scratch3 : Ref sig .tc).ty.Contents (Elt F)) (y : S1x64x512.Idx) :
    (rx2M : Memref sig .tc .vmem S2x64x512 .bf16).view.readAt (Elt F)
        (Rect.unit (s := S2x64x512) ![k.val, 0, 0] S1x64x512.size (inb2 k)).toLoadRect f y
      = f (ix3 k (y 1) (y 2)) := readAt_chunk2 rx2M k f y
theorem write_slot_rx2 (k : Fin 2) (fd : (cc0_scratch3 : Ref sig .tc).ty.Contents (Elt F)) (w : S64x512.Idx → Elt F .bf16)
    (i : S2x64x512.Idx) (hi : i ∈ (slot2 rx2M k).view.set) :
    (slot2 rx2M k).view.write (Elt F) fd w Finset.univ i = w (ix2 (i 1) (i 2)) := by
  obtain ⟨z, r, c, rfl⟩ : ∃ (z : Fin 2) (r : Fin 64) (c : Fin 512), i = ix3 z r c := ⟨i 0, i 1, i 2, eq_ix3 i⟩
  obtain rfl : z = k := Fin.ext ((mem_slot_rx2 k _).mp hi)
  exact write_slot2_emb rx2M z fd w (ix2 r c)
theorem store_chunk_rx2 (k : Fin 2) (f : (cc0_scratch3 : Ref sig .tc).ty.Contents (Elt F)) (w : S1x64x512.Idx → Elt F .bf16)
    (i : S2x64x512.Idx) :
    ((rx2M : Memref sig .tc .vmem S2x64x512 .bf16).access
        (Rect.unit (s := S2x64x512) ![k.val, 0, 0] S1x64x512.size (inb2 k))).write (Elt F) f w Finset.univ i
      = if (i 0).val = k.val then w (ix3 (0 : Fin 1) (i 1) (i 2)) else f i := by
  split
  · next h =>
    obtain ⟨z, r, c, rfl⟩ : ∃ (z : Fin 2) (r : Fin 64) (c : Fin 512), i = ix3 z r c := ⟨i 0, i 1, i 2, eq_ix3 i⟩
    obtain rfl : z = k := Fin.ext h
    exact store_chunk2_emb rx2M z f w (ix3 (0 : Fin 1) r c)
  · next h => exact store_chunk2_off rx2M k f w i (fun h' => h ((mem_slot_rx2 k i).mp h'))

theorem mem_slot_ryr (k : Fin 3) (i : S3x64x512.Idx) : i ∈ (slot3 ryrM k).view.set ↔ (i 0).val = k.val :=
  (mem_slot3 ryrM k i).trans ⟨fun ⟨j, hj, e⟩ => (show j = i from e) ▸ hj, fun h => ⟨i, h, rfl⟩⟩
theorem read_slot_ryr (k : Fin 3) (f : (cc0_scratch6 : Ref sig .tc).ty.Contents (Elt F)) (y : S64x512.Idx) :
    (slot3 ryrM k).view.read (Elt F) f y = f (ix3 k (y 0) (y 1)) := read_slot3 ryrM k f y
theorem readAt_chunk_ryr (k : Fin 3) (f : (cc0_scratch6 : Ref sig .tc).ty.Contents (Elt F)) (y : S1x64x512.Idx) :
    (ryrM : Memref sig .tc .vmem S3x64x512 .bf16).view.readAt (Elt F)
        (Rect.unit (s := S3x64x512) ![k.val, 0, 0] S1x64x512.size (inb3 k)).toLoadRect f y
      = f (ix3 k (y 1) (y 2)) := readAt_chunk3 ryrM k f y
theorem write_slot_ryr (k : Fin 3) (fd : (cc0_scratch6 : Ref sig .tc).ty.Contents (Elt F)) (w : S64x512.Idx → Elt F .bf16)
    (i : S3x64x512.Idx) (hi : i ∈ (slot3 ryrM k).view.set) :
    (slot3 ryrM k).view.write (Elt F) fd w Finset.univ i = w (ix2 (i 1) (i 2)) := by
  obtain ⟨z, r, c, rfl⟩ : ∃ (z : Fin 3) (r : Fin 64) (c : Fin 512), i = ix3 z r c := ⟨i 0, i 1, i 2, eq_ix3 i⟩
  obtain rfl : z = k := Fin.ext ((mem_slot_ryr k _).mp hi)
  exact write_slot3_emb ryrM z fd w (ix2 r c)
theorem store_chunk_ryr (k : Fin 3) (f : (cc0_scratch6 : Ref sig .tc).ty.Contents (Elt F)) (w : S1x64x512.Idx → Elt F .bf16)
    (i : S3x64x512.Idx) :
    ((ryrM : Memref sig .tc .vmem S3x64x512 .bf16).access
        (Rect.unit (s := S3x64x512) ![k.val, 0, 0] S1x64x512.size (inb3 k))).write (Elt F) f w Finset.univ i
      = if (i 0).val = k.val then w (ix3 (0 : Fin 1) (i 1) (i 2)) else f i := by
  split
  · next h =>
    obtain ⟨z, r, c, rfl⟩ : ∃ (z : Fin 3) (r : Fin 64) (c : Fin 512), i = ix3 z r c := ⟨i 0, i 1, i 2, eq_ix3 i⟩
    obtain rfl : z = k := Fin.ext h
    exact store_chunk3_emb ryrM z f w (ix3 (0 : Fin 1) r c)
  · next h => exact store_chunk3_off ryrM k f w i (fun h' => h ((mem_slot_ryr k i).mp h'))

theorem mem_slot_rzr (k : Fin 3) (i : S3x64x512.Idx) : i ∈ (slot3 rzrM k).view.set ↔ (i 0).val = k.val :=
  (mem_slot3 rzrM k i).trans ⟨fun ⟨j, hj, e⟩ => (show j = i from e) ▸ hj, fun h => ⟨i, h, rfl⟩⟩
theorem read_slot_rzr (k : Fin 3) (f : (cc0_scratch7 : Ref sig .tc).ty.Contents (Elt F)) (y : S64x512.Idx) :
    (slot3 rzrM k).view.read (Elt F) f y = f (ix3 k (y 0) (y 1)) := read_slot3 rzrM k f y
theorem readAt_chunk_rzr (k : Fin 3) (f : (cc0_scratch7 : Ref sig .tc).ty.Contents (Elt F)) (y : S1x64x512.Idx) :
    (rzrM : Memref sig .tc .vmem S3x64x512 .bf16).view.readAt (Elt F)
        (Rect.unit (s := S3x64x512) ![k.val, 0, 0] S1x64x512.size (inb3 k)).toLoadRect f y
      = f (ix3 k (y 1) (y 2)) := readAt_chunk3 rzrM k f y
theorem write_slot_rzr (k : Fin 3) (fd : (cc0_scratch7 : Ref sig .tc).ty.Contents (Elt F)) (w : S64x512.Idx → Elt F .bf16)
    (i : S3x64x512.Idx) (hi : i ∈ (slot3 rzrM k).view.set) :
    (slot3 rzrM k).view.write (Elt F) fd w Finset.univ i = w (ix2 (i 1) (i 2)) := by
  obtain ⟨z, r, c, rfl⟩ : ∃ (z : Fin 3) (r : Fin 64) (c : Fin 512), i = ix3 z r c := ⟨i 0, i 1, i 2, eq_ix3 i⟩
  obtain rfl : z = k := Fin.ext ((mem_slot_rzr k _).mp hi)
  exact write_slot3_emb rzrM z fd w (ix2 r c)
theorem store_chunk_rzr (k : Fin 3) (f : (cc0_scratch7 : Ref sig .tc).ty.Contents (Elt F)) (w : S1x64x512.Idx → Elt F .bf16)
    (i : S3x64x512.Idx) :
    ((rzrM : Memref sig .tc .vmem S3x64x512 .bf16).access
        (Rect.unit (s := S3x64x512) ![k.val, 0, 0] S1x64x512.size (inb3 k))).write (Elt F) f w Finset.univ i
      = if (i 0).val = k.val then w (ix3 (0 : Fin 1) (i 1) (i 2)) else f i := by
  split
  · next h =>
    obtain ⟨z, r, c, rfl⟩ : ∃ (z : Fin 3) (r : Fin 64) (c : Fin 512), i = ix3 z r c := ⟨i 0, i 1, i 2, eq_ix3 i⟩
    obtain rfl : z = k := Fin.ext h
    exact store_chunk3_emb rzrM z f w (ix3 (0 : Fin 1) r c)
  · next h => exact store_chunk3_off rzrM k f w i (fun h' => h ((mem_slot_rzr k i).mp h'))

end Cert.Kernel.RS

end
-- ==== Proof.K.Steps.lean ====
import proofs.«901033_g7700000000001034_dist_rs_v7x_xyz2x2x4_x_m2048_n512_bf16_1_alg».proof.Proof.K.Proto
import proofs.«901033_g7700000000001034_dist_rs_v7x_xyz2x2x4_x_m2048_n512_bf16_1_alg».proof.Proof.K.Tables
import proofs.«901033_g7700000000001034_dist_rs_v7x_xyz2x2x4_x_m2048_n512_bf16_1_alg».proof.Proof.K.Credit

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reading the records -/

omit [FloatOps F] in
theorem bar_mem (c : Dev nD) : barCell c ∈ (allCells : Finset (GSem nD τ sig)) :=
  Finset.mem_image.mpr ⟨(c, 0), Finset.mem_univ _, by unfold kcell; exact if_pos rfl⟩
omit [FloatOps F] in
theorem dcell_mem (c : Dev nD) (s : DmaSem sig) (h : 2 ≤ s.val) : dcell c s ∈ (allCells : Finset (GSem nD τ sig)) :=
  Finset.mem_image.mpr ⟨(c, ⟨s.val - 1, (show s.val - 1 < 65 from by have h : s.val < 66 := s.isLt; omega)⟩), Finset.mem_univ _, by
    unfold kcell; rw [if_neg (by show ¬ (s.val - 1 = 0); omega)]
    exact congrArg (fun t => (((c : Dev nD) : Thread nD τ), SemLoc.dma t)) (Fin.ext (by show s.val - 1 + 1 = s.val; omega))⟩

theorem inv_at (K : GSem nD τ sig → ℕ) {g : GSem nD τ sig} (hg : g ∈ (allCells : Finset (GSem nD τ sig))) :
    (bigSep allCells fun g => cellInv (ER (F := F)) (sched m) (K g) g : sProp 𝕄) ⊢ cellInv ER (sched m) (K g) g :=
  bigSep_elim hg
omit [FloatOps F] in
theorem reached_at {g : GSem nD τ sig} (hg : g ∈ (allCells : Finset (GSem nD τ sig))) :
    (bigSep allCells fun g => reached (ER (F := F)) g 0 : sProp 𝕄) ⊢ reached ER g 0 :=
  bigSep_elim hg

theorem rec_inv (K : GSem nD τ sig → ℕ) {g : GSem nD τ sig} (hg : g ∈ (allCells : Finset (GSem nD τ sig))) :
    records (F := F) m K ⊢ cellInv ER (sched m) (K g) g := by
  unfold records; exact sep_elim_left.trans (inv_at m K hg)
theorem rec_reached (K : GSem nD τ sig → ℕ) {g : GSem nD τ sig} (hg : g ∈ (allCells : Finset (GSem nD τ sig))) :
    records (F := F) m K ⊢ reached ER g 0 := by
  unfold records; exact sep_elim_right.trans (reached_at hg)

/-- The weakest precondition of a piece of device `c`'s body. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-! ## The protocol's steps, each at the head of a program -/

/-- A unit signalled to device `p`'s barrier cell, paying its duty `d` with that duty's payload. -/
theorem step_signal (K : GSem nD τ sig → ℕ) (c p : Dev nD) (d : Fin 3) (l : List (GSem nD τ sig × ℕ)) (W : Waits sig Unit)
    {α : Type} {Q : α → sProp 𝕄} {k : PUnit → Prog (TpuEff nD τ sig (Elt F) Λ₀ .tc) α} :
    iprop(records m K ∗ owes (c : Thread nD τ) (owe ((barCell p, 1) :: l)) W ∗ dutyTok ER (barCell p) 0 d ∗ barPay p d)
      ⊢ iprop((owes (c : Thread nD τ) (owe l) W -∗ WP c (k ⟨⟩) Q) -∗ WP c (.op (.semSignal (p : Thread nD τ) barS 1) k) Q) := by
  iintro ⟨#HR, HO, Ht, Hp⟩
  iapply (Rounds.wp_signal Variants.none ER (sched m) (c : Thread nD τ) none (dst := (p : Thread nD τ)) (κ := K (barCell p))
      (d := d) (r := 0) (by rw [duties_bar]; exact Finset.mem_univ _) (amount_bar m p d) () (owe l) (owe_cons (barCell p, 1) l)) $$ [HO Ht Hp]
  isplitr; · iapply (rec_inv m K (bar_mem p)); iexact HR
  isplitl [HO]; · iexact HO
  isplitl [Ht]; · iexact Ht
  isplitl [Hp]; · rw [payload_bar]; iexact Hp
  iapply (rec_reached m K (bar_mem p)); iexact HR

/-- The wait for the three barrier units: the three peers' landing buffers come with it. -/
theorem step_barwait (K : GSem nD τ sig → ℕ) (c : Dev nD) (O : CellTallies nD τ sig Unit) (W : Waits sig Unit)
    (hmw : (levAts L lv : sProp 𝕄) ⊢ MayWait (c : Thread nD τ) (.reg barS) () O)
    {α : Type} {Q : α → sProp 𝕄} {k : PUnit → Prog (TpuEff nD τ sig (Elt F) Λ₀ .tc) α} :
    iprop(records m K ∗ levAts L lv ∗ cred (tallyAt (barCell c) () 3) ∗ owes (c : Thread nD τ) O W ∗ atPos ER (barCell c) 0 ∅ 0)
      ⊢ iprop(((owes (c : Thread nD τ) O (insert (SemLoc.reg barS, ()) W) ∗ atPos ER (barCell c) (0 + 1) ∅ 0
              ∗ barPay (F := F) c 0 ∗ barPay (F := F) c 1 ∗ barPay (F := F) c 2) -∗ WP c (k ⟨⟩) Q)
          -∗ WP c (.op (.semWait barS 3) k) Q) := by
  iintro ⟨#HR, #Hlev, Hc, HO, Hat⟩ Hk
  iapply (Rounds.wp_wait_rest_token Variants.none ER (sched m) (c : Thread nD τ) none (κ := K (barCell c))
      (wpE_semWait_eq Variants.none (c : Thread nD τ) none Set.univ) (Set.mem_univ _) () (O := O) (W := W) (R := 0) (m := 0) (T := ∅)
      (by rw [expect_bar])) $$ [Hc HO Hat]
  · isplitr; · iapply (rec_inv m K (bar_mem c)); iexact HR
    isplitl [Hc]; · iexact Hc
    isplitl [HO]; · iexact HO
    isplitr; · iapply hmw; iexact Hlev
    iexact Hat
  iintro ⟨HO, Hat, -, Hpay⟩
  ihave Hp := (Entails.of_eq (rest_bar m c)) $$ Hpay
  iapply Hk
  isplitl [HO]; · iexact HO
  isplitl [Hat]; · iexact Hat
  iexact Hp

/-- A wait on one of the device's own DMA cells for its one duty's credit: the duty's payload comes with it. -/
theorem step_wait_dma (K : GSem nD τ sig → ℕ) (c : Dev nD) (s : DmaSem sig) (hs : 2 ≤ s.val) (O : CellTallies nD τ sig Unit) (W : Waits sig Unit)
    (hmw : (levAts L lv : sProp 𝕄) ⊢ MayWait (c : Thread nD τ) (.dma s) () O)
    {sp sp' : Space} {sh sh' : Shape} {e e' : EltTy} {src : Memref sig .tc sp' sh' e'} {dst : Memref sig .tc sp sh e}
    {hsrc : src.view.WordExact} {hdst : dst.view.WordExact} (hN : dst.view.dmaCredit = Nc)
    {α : Type} {Q : α → sProp 𝕄} {k : PUnit → Prog (TpuEff nD τ sig (Elt F) Λ₀ .tc) α} :
    iprop(records m K ∗ levAts L lv ∗ cred (tallyAt (dcell c s) () Nc) ∗ owes (c : Thread nD τ) O W ∗ atPos ER (dcell c s) 0 ∅ 0)
      ⊢ iprop(((owes (c : Thread nD τ) O (insert (SemLoc.dma s, ()) W) ∗ atPos ER (dcell c s) (0 + 1) ∅ 0 ∗ dmaPay m c s.val) -∗ WP c (k ⟨⟩) Q)
          -∗ WP c (.op (.waitDma2 s src dst hsrc hdst) k) Q) := by
  iintro ⟨#HR, #Hlev, Hc, HO, Hat⟩ Hk
  iapply (Rounds.wp_wait_rest_token Variants.none ER (sched m) (c : Thread nD τ) none (κ := K (dcell c s))
      (wpE_waitDma2_eq Variants.none (c : Thread nD τ) none Set.univ) (Set.mem_univ _) () (O := O) (W := W) (R := 0) (m := 0) (T := ∅)
      (by rw [expect_dma m c s hs, hN, Nat.zero_add])) $$ [Hc HO Hat]
  · isplitr; · iapply (rec_inv m K (dcell_mem c s hs)); iexact HR
    isplitl [Hc]; · rw [hN]; iexact Hc
    isplitl [HO]; · iexact HO
    isplitr; · iapply hmw; iexact Hlev
    iexact Hat
  iintro ⟨HO, Hat, -, Hpay⟩
  ihave Hp := (Entails.of_eq ((rest_dma m c s hs).trans (payload_dma m c s 0))) $$ Hpay
  iapply Hk
  isplitl [HO]; · iexact HO
  isplitl [Hat]; · iexact Hat
  iexact Hp

/-- An addressed copy from a source slot of device `c` into a landing slot of device `p`, paying the departure duty of
    `c`'s send cell `sS` (the source share comes back with it) and the landing duty of `p`'s receive cell `sR`. -/
theorem step_send (K : GSem nD τ sig → ℕ) (c p : Dev nD) (sS sR : DmaSem sig) (hsS : 2 ≤ sS.val) (hsR : 2 ≤ sR.val)
    (src dst : Memref sig .tc .vmem S64x512 .bf16) (q : PosShare TreeShare)
    (fs : Buf (Elt F) (src.view.loc (c : Thread nD τ))) (fd : Buf (Elt F) (dst.view.loc (p : Thread nD τ)))
    (l : List (GSem nD τ sig × ℕ)) (W : Waits sig Unit)
    (hN : dst.view.amount (.dma sR) = Nc)
    (hpayS : (src.view.loc (c : Thread nD τ) ↦[src.view.set]{q} fs : sProp 𝕄) ⊢ dmaPay m c sS.val)
    (hpayR : (dst.view.loc (p : Thread nD τ) ↦[dst.view.set]{fullShare} (dst.view.write (Elt F) fd (src.view.read (Elt F) fs) Finset.univ) : sProp 𝕄)
      ⊢ dmaPay m p sR.val)
    {hsc : dst.view.ref.isScScratch = false} {hsrc : src.view.WordExact} {hdst : dst.view.WordExact}
    {hsem : DmaTarget.Typed .vmem (.dma sR) (.remote (Dev.tc p : Thread nD τ) dst (.dma sS) hsc)}
    {α : Type} {Q : α → sProp 𝕄} {k : PUnit → Prog (TpuEff nD τ sig (Elt F) Λ₀ .tc) α} :
    iprop(records m K ∗ (src.view.loc (c : Thread nD τ) ↦[src.view.set]{q} fs) ∗ (dst.view.loc (p : Thread nD τ) ↦[dst.view.set]{fullShare} fd)
        ∗ owes (c : Thread nD τ) (owe ((dcell p sR, Nc) :: l)) W ∗ dutyTok ER (dcell c sS) 0 0 ∗ dutyTok ER (dcell p sR) 0 0)
      ⊢ iprop(((cred (tallyAt (dcell c sS) () Nc) ∗ owes (c : Thread nD τ) (owe l) W) -∗ WP c (k ⟨⟩) Q)
          -∗ WP c (.op (.enqueueDma src (.remote (Dev.tc p : Thread nD τ) dst (.dma sS) hsc) (.dma sR) hsrc hdst hsem) k) Q) := by
  iintro ⟨#HR, Hs, Hd, HO, HtS, HtR⟩
  iapply (Rounds.wp_send_pointsTo Variants.none ER (sched m) (c : Thread nD τ) none (c' := (Dev.tc p : Thread nD τ)) (src := src) (dst := dst) (q := q) (fs := fs)
      (κ₁ := K (dcell c sS)) (κ₂ := K (dcell p sR)) (r₁ := 0) (r₂ := 0) (d₁ := 0) (d₂ := 0) (fd := fd)
      (by rw [duties_dma m c sS hsS]; exact Finset.mem_singleton_self _) (by rw [duties_dma m p sR hsR]; exact Finset.mem_singleton_self _)
      () () Nc hN (amount_dma m c sS 0) (amount_dma m p sR 0) (owe l) (owe_cons (dcell p sR, Nc) l) (W := W)
      (by rw [payload_dma]; exact hpayS) (by rw [payload_dma]; exact hpayR)) $$ [Hs Hd HO HtS HtR]
  isplitr; · iapply (rec_inv m K (dcell_mem c sS hsS)); iexact HR
  isplitr; · iapply (rec_inv m K (dcell_mem p sR hsR)); iexact HR
  isplitl [Hs]; · iexact Hs
  isplitl [Hd]; · iexact Hd
  isplitl [HO]; · iexact HO
  isplitl [HtS]; · iexact HtS
  isplitr; · iapply (rec_reached m K (dcell_mem c sS hsS)); iexact HR
  isplitl [HtR]; · iexact HtR
  iapply (rec_reached m K (dcell_mem p sR hsR)); iexact HR

end Cert.Kernel.RS

end
-- ==== Proof.K.Sends.lean ====
import proofs.«901033_g7700000000001034_dist_rs_v7x_xyz2x2x4_x_m2048_n512_bf16_1_alg».proof.Proof.K.Proto
import proofs.«901033_g7700000000001034_dist_rs_v7x_xyz2x2x4_x_m2048_n512_bf16_1_alg».proof.Proof.K.Tables
import proofs.«901033_g7700000000001034_dist_rs_v7x_xyz2x2x4_x_m2048_n512_bf16_1_alg».proof.Proof.K.Credit
import proofs.«901033_g7700000000001034_dist_rs_v7x_xyz2x2x4_x_m2048_n512_bf16_1_alg».proof.Proof.K.Slots
import proofs.«901033_g7700000000001034_dist_rs_v7x_xyz2x2x4_x_m2048_n512_bf16_1_alg».proof.Proof.K.Steps

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

/-! ## The six kinds of addressed copy

Each copy moves one 64 × 512 chunk from a slot of the sending device into a slot of one peer; the
share of the source slot that is lent comes back with the send cell's credit, and the landing
slot, rewritten, holds the peer's final contents of that slot: the receive cell's payload. -/

/-- What lands in chunk `k` of the x peer's receive buffer is chunk `k` of the sender's staging buffer. -/
theorem land_X (c : Dev nD) (k : Fin 8) (fd : (cc0_scratch2 : Ref sig .tc).ty.Contents (Elt F))
    (i : S8x64x512.Idx) (hi : i ∈ (slot8 rxM k).view.set) :
    (slot8 rxM k).view.write (Elt F) fd ((slot8 sxM k).view.read (Elt F) (SX m c)) Finset.univ i = RX m (partner c) i := by
  have h0 := (mem_slot_rx k i).mp hi
  rw [write_slot_rx k fd _ i hi, read_slot_sx]
  unfold RX; rw [partner_partner]
  exact congrArg (SX m c) ((congrArg (fun a => ix3 a (i 1) (i 2)) (Fin.ext h0.symm)).trans (eq_ix3 i).symm)

theorem send_X (K : GSem nD τ sig → ℕ) (c : Dev nD) (k : Fin 8)
    (fd : Buf (Elt F) ((slot8 rxM k).view.loc ((partner c : Dev nD) : Thread nD τ)))
    (l : List (GSem nD τ sig × ℕ)) (W : Waits sig Unit)
    {hsc : (slot8 rxM k).view.ref.isScScratch = false} {hsrc : (slot8 sxM k).view.WordExact}
    {hdst : (slot8 rxM k).view.WordExact}
    {hsem : DmaTarget.Typed .vmem (.dma (rxS k)) (.remote (Dev.tc (partner c) : Thread nD τ) (slot8 rxM k) (.dma (sxS k)) hsc)}
    {α : Type} {Q : α → sProp 𝕄} {k' : PUnit → Prog (TpuEff nD τ sig (Elt F) Λ₀ .tc) α} :
    iprop(records m K ∗ sxPts m c k fullShare
        ∗ ((slot8 rxM k).view.loc ((partner c : Dev nD) : Thread nD τ) ↦[(slot8 rxM k).view.set]{fullShare} fd)
        ∗ owes (c : Thread nD τ) (owe ((dcell (partner c) (rxS k), Nc) :: l)) W
        ∗ dutyTok ER (dcell c (sxS k)) 0 0 ∗ dutyTok ER (dcell (partner c) (rxS k)) 0 0)
      ⊢ iprop(((cred (tallyAt (dcell c (sxS k)) () Nc) ∗ owes (c : Thread nD τ) (owe l) W) -∗ WP c (k' ⟨⟩) Q)
          -∗ WP c (.op (.enqueueDma (slot8 sxM k) (.remote (Dev.tc (partner c) : Thread nD τ) (slot8 rxM k) (.dma (sxS k)) hsc)
                (.dma (rxS k)) hsrc hdst hsem) k') Q) :=
  step_send m K c (partner c) (sxS k) (rxS k) (two_le_sxS k) (two_le_rxS k) (slot8 sxM k) (slot8 rxM k) fullShare (SX m c) fd l W
    rfl
    (Entails.of_eq ((payload_sx m c k 0).symm.trans (payload_dma m c (sxS k) 0)))
    ((Entails.of_eq (pointsTo_congr fun i hi => land_X m c k fd i hi)).trans
      (Entails.of_eq ((payload_rx m (partner c) k 0).symm.trans (payload_dma m (partner c) (rxS k) 0))))
    (hsc := hsc) (hsrc := hsrc) (hdst := hdst) (hsem := hsem) (α := α) (Q := Q) (k := k')

/-- The same of the second (direct) staging buffer's two chunks. -/
theorem land_XD (c : Dev nD) (k : Fin 2) (fd : (cc0_scratch3 : Ref sig .tc).ty.Contents (Elt F))
    (i : S2x64x512.Idx) (hi : i ∈ (slot2 rx2M k).view.set) :
    (slot2 rx2M k).view.write (Elt F) fd ((slot2 sx2M k).view.read (Elt F) (SX2 m c)) Finset.univ i = RX2 m (partner c) i := by
  have h0 := (mem_slot_rx2 k i).mp hi
  rw [write_slot_rx2 k fd _ i hi, read_slot_sx2]
  unfold RX2; rw [partner_partner]
  exact congrArg (SX2 m c) ((congrArg (fun a => ix3 a (i 1) (i 2)) (Fin.ext h0.symm)).trans (eq_ix3 i).symm)

theorem send_XD (K : GSem nD τ sig → ℕ) (c : Dev nD) (k : Fin 2)
    (fd : Buf (Elt F) ((slot2 rx2M k).view.loc ((partner c : Dev nD) : Thread nD τ)))
    (l : List (GSem nD τ sig × ℕ)) (W : Waits sig Unit)
    {hsc : (slot2 rx2M k).view.ref.isScScratch = false} {hsrc : (slot2 sx2M k).view.WordExact}
    {hdst : (slot2 rx2M k).view.WordExact}
    {hsem : DmaTarget.Typed .vmem (.dma (rx2S k)) (.remote (Dev.tc (partner c) : Thread nD τ) (slot2 rx2M k) (.dma (sx2S k)) hsc)}
    {α : Type} {Q : α → sProp 𝕄} {k' : PUnit → Prog (TpuEff nD τ sig (Elt F) Λ₀ .tc) α} :
    iprop(records m K ∗ sx2Pts m c k fullShare
        ∗ ((slot2 rx2M k).view.loc ((partner c : Dev nD) : Thread nD τ) ↦[(slot2 rx2M k).view.set]{fullShare} fd)
        ∗ owes (c : Thread nD τ) (owe ((dcell (partner c) (rx2S k), Nc) :: l)) W
        ∗ dutyTok ER (dcell c (sx2S k)) 0 0 ∗ dutyTok ER (dcell (partner c) (rx2S k)) 0 0)
      ⊢ iprop(((cred (tallyAt (dcell c (sx2S k)) () Nc) ∗ owes (c : Thread nD τ) (owe l) W) -∗ WP c (k' ⟨⟩) Q)
          -∗ WP c (.op (.enqueueDma (slot2 sx2M k) (.remote (Dev.tc (partner c) : Thread nD τ) (slot2 rx2M k) (.dma (sx2S k)) hsc)
                (.dma (rx2S k)) hsrc hdst hsem) k') Q) :=
  step_send m K c (partner c) (sx2S k) (rx2S k) (two_le_sx2S k) (two_le_rx2S k) (slot2 sx2M k) (slot2 rx2M k) fullShare (SX2 m c) fd l W
    rfl
    (Entails.of_eq ((payload_sx2 m c k 0).symm.trans (payload_dma m c (sx2S k) 0)))
    ((Entails.of_eq (pointsTo_congr fun i hi => land_XD m c k fd i hi)).trans
      (Entails.of_eq ((payload_rx2 m (partner c) k 0).symm.trans (payload_dma m (partner c) (rx2S k) 0))))
    (hsc := hsc) (hsrc := hsrc) (hdst := hdst) (hsem := hsem) (α := α) (Q := Q) (k := k')

/-- A received chunk forwarded to the y peer: the y peer's y-forwarded buffer is to hold the receive buffer of ITS y peer, which is the sender. -/
theorem land_YD (c : Dev nD) (k : Fin 8) (fd : (cc0_scratch4 : Ref sig .tc).ty.Contents (Elt F))
    (i : S8x64x512.Idx) (hi : i ∈ (slot8 rydM k).view.set) :
    (slot8 rydM k).view.write (Elt F) fd ((slot8 rxM k).view.read (Elt F) (RX m c)) Finset.univ i = RYD m (buddy c) i := by
  have h0 := (mem_slot_ryd k i).mp hi
  rw [write_slot_ryd k fd _ i hi, read_slot_rx]
  unfold RYD; rw [buddy_buddy]
  exact congrArg (RX m c) ((congrArg (fun a => ix3 a (i 1) (i 2)) (Fin.ext h0.symm)).trans (eq_ix3 i).symm)

theorem send_YD (K : GSem nD τ sig → ℕ) (c : Dev nD) (k : Fin 8)
    (fd : Buf (Elt F) ((slot8 rydM k).view.loc ((buddy c : Dev nD) : Thread nD τ)))
    (l : List (GSem nD τ sig × ℕ)) (W : Waits sig Unit)
    {hsc : (slot8 rydM k).view.ref.isScScratch = false} {hsrc : (slot8 rxM k).view.WordExact}
    {hdst : (slot8 rydM k).view.WordExact}
    {hsem : DmaTarget.Typed .vmem (.dma (rydS k)) (.remote (Dev.tc (buddy c) : Thread nD τ) (slot8 rydM k) (.dma (sydS k)) hsc)}
    {α : Type} {Q : α → sProp 𝕄} {k' : PUnit → Prog (TpuEff nD τ sig (Elt F) Λ₀ .tc) α} :
    iprop(records m K ∗ rxPts m c k fullShare.left
        ∗ ((slot8 rydM k).view.loc ((buddy c : Dev nD) : Thread nD τ) ↦[(slot8 rydM k).view.set]{fullShare} fd)
        ∗ owes (c : Thread nD τ) (owe ((dcell (buddy c) (rydS k), Nc) :: l)) W
        ∗ dutyTok ER (dcell c (sydS k)) 0 0 ∗ dutyTok ER (dcell (buddy c) (rydS k)) 0 0)
      ⊢ iprop(((cred (tallyAt (dcell c (sydS k)) () Nc) ∗ owes (c : Thread nD τ) (owe l) W) -∗ WP c (k' ⟨⟩) Q)
          -∗ WP c (.op (.enqueueDma (slot8 rxM k) (.remote (Dev.tc (buddy c) : Thread nD τ) (slot8 rydM k) (.dma (sydS k)) hsc)
                (.dma (rydS k)) hsrc hdst hsem) k') Q) :=
  step_send m K c (buddy c) (sydS k) (rydS k) (two_le_sydS k) (two_le_rydS k) (slot8 rxM k) (slot8 rydM k) fullShare.left (RX m c) fd l W
    rfl
    (Entails.of_eq ((payload_syd m c k 0).symm.trans (payload_dma m c (sydS k) 0)))
    ((Entails.of_eq (pointsTo_congr fun i hi => land_YD m c k fd i hi)).trans
      (Entails.of_eq ((payload_ryd m (buddy c) k 0).symm.trans (payload_dma m (buddy c) (rydS k) 0))))
    (hsc := hsc) (hsrc := hsrc) (hdst := hdst) (hsem := hsem) (α := α) (Q := Q) (k := k')

/-- The same forwarded to the z peer: the z peer's z peer is the sender. -/
theorem land_ZD (c : Dev nD) (k : Fin 8) (fd : (cc0_scratch5 : Ref sig .tc).ty.Contents (Elt F))
    (i : S8x64x512.Idx) (hi : i ∈ (slot8 rzdM k).view.set) :
    (slot8 rzdM k).view.write (Elt F) fd ((slot8 rxM k).view.read (Elt F) (RX m c)) Finset.univ i = RZD m (zpair c) i := by
  have h0 := (mem_slot_rzd k i).mp hi
  rw [write_slot_rzd k fd _ i hi, read_slot_rx]
  unfold RZD; rw [zpair_zpair]
  exact congrArg (RX m c) ((congrArg (fun a => ix3 a (i 1) (i 2)) (Fin.ext h0.symm)).trans (eq_ix3 i).symm)

theorem send_ZD (K : GSem nD τ sig → ℕ) (c : Dev nD) (k : Fin 8)
    (fd : Buf (Elt F) ((slot8 rzdM k).view.loc ((zpair c : Dev nD) : Thread nD τ)))
    (l : List (GSem nD τ sig × ℕ)) (W : Waits sig Unit)
    {hsc : (slot8 rzdM k).view.ref.isScScratch = false} {hsrc : (slot8 rxM k).view.WordExact}
    {hdst : (slot8 rzdM k).view.WordExact}
    {hsem : DmaTarget.Typed .vmem (.dma (rzdS k)) (.remote (Dev.tc (zpair c) : Thread nD τ) (slot8 rzdM k) (.dma (szdS k)) hsc)}
    {α : Type} {Q : α → sProp 𝕄} {k' : PUnit → Prog (TpuEff nD τ sig (Elt F) Λ₀ .tc) α} :
    iprop(records m K ∗ rxPts m c k fullShare.right.left
        ∗ ((slot8 rzdM k).view.loc ((zpair c : Dev nD) : Thread nD τ) ↦[(slot8 rzdM k).view.set]{fullShare} fd)
        ∗ owes (c : Thread nD τ) (owe ((dcell (zpair c) (rzdS k), Nc) :: l)) W
        ∗ dutyTok ER (dcell c (szdS k)) 0 0 ∗ dutyTok ER (dcell (zpair c) (rzdS k)) 0 0)
      ⊢ iprop(((cred (tallyAt (dcell c (szdS k)) () Nc) ∗ owes (c : Thread nD τ) (owe l) W) -∗ WP c (k' ⟨⟩) Q)
          -∗ WP c (.op (.enqueueDma (slot8 rxM k) (.remote (Dev.tc (zpair c) : Thread nD τ) (slot8 rzdM k) (.dma (szdS k)) hsc)
                (.dma (rzdS k)) hsrc hdst hsem) k') Q) :=
  step_send m K c (zpair c) (szdS k) (rzdS k) (two_le_szdS k) (two_le_rzdS k) (slot8 rxM k) (slot8 rzdM k) fullShare.right.left (RX m c) fd l W
    rfl
    (Entails.of_eq ((payload_szd m c k 0).symm.trans (payload_dma m c (szdS k) 0)))
    ((Entails.of_eq (pointsTo_congr fun i hi => land_ZD m c k fd i hi)).trans
      (Entails.of_eq ((payload_rzd m (zpair c) k 0).symm.trans (payload_dma m (zpair c) (rzdS k) 0))))
    (hsc := hsc) (hsrc := hsrc) (hdst := hdst) (hsem := hsem) (α := α) (Q := Q) (k := k')

/-- Chunk `k` (of the first three) of what came from the z peer, relayed to the y peer: its relay buffer's chunk `k` is chunk `k` of the z-forwarded buffer of its y peer, the sender. -/
theorem land_YR (c : Dev nD) (k : Fin 3) (fd : (cc0_scratch6 : Ref sig .tc).ty.Contents (Elt F))
    (i : S3x64x512.Idx) (hi : i ∈ (slot3 ryrM k).view.set) :
    (slot3 ryrM k).view.write (Elt F) fd ((slot8 rzdM (in8 k)).view.read (Elt F) (RZD m c)) Finset.univ i = RYR m (buddy c) i := by
  have h0 := (mem_slot_ryr k i).mp hi
  rw [write_slot_ryr k fd _ i hi, read_slot_rzd]
  unfold RYR; rw [buddy_buddy]
  exact congrArg (RZD m c) ((congrArg (fun a => ix3 a (i 1) (i 2)) (Fin.ext h0.symm)))

theorem send_YR (K : GSem nD τ sig → ℕ) (c : Dev nD) (k : Fin 3)
    (fd : Buf (Elt F) ((slot3 ryrM k).view.loc ((buddy c : Dev nD) : Thread nD τ)))
    (l : List (GSem nD τ sig × ℕ)) (W : Waits sig Unit)
    {hsc : (slot3 ryrM k).view.ref.isScScratch = false} {hsrc : (slot8 rzdM (in8 k)).view.WordExact}
    {hdst : (slot3 ryrM k).view.WordExact}
    {hsem : DmaTarget.Typed .vmem (.dma (ryrS k)) (.remote (Dev.tc (buddy c) : Thread nD τ) (slot3 ryrM k) (.dma (syrS k)) hsc)}
    {α : Type} {Q : α → sProp 𝕄} {k' : PUnit → Prog (TpuEff nD τ sig (Elt F) Λ₀ .tc) α} :
    iprop(records m K ∗ rzdPts m c (in8 k) fullShare.left
        ∗ ((slot3 ryrM k).view.loc ((buddy c : Dev nD) : Thread nD τ) ↦[(slot3 ryrM k).view.set]{fullShare} fd)
        ∗ owes (c : Thread nD τ) (owe ((dcell (buddy c) (ryrS k), Nc) :: l)) W
        ∗ dutyTok ER (dcell c (syrS k)) 0 0 ∗ dutyTok ER (dcell (buddy c) (ryrS k)) 0 0)
      ⊢ iprop(((cred (tallyAt (dcell c (syrS k)) () Nc) ∗ owes (c : Thread nD τ) (owe l) W) -∗ WP c (k' ⟨⟩) Q)
          -∗ WP c (.op (.enqueueDma (slot8 rzdM (in8 k)) (.remote (Dev.tc (buddy c) : Thread nD τ) (slot3 ryrM k) (.dma (syrS k)) hsc)
                (.dma (ryrS k)) hsrc hdst hsem) k') Q) :=
  step_send m K c (buddy c) (syrS k) (ryrS k) (two_le_syrS k) (two_le_ryrS k) (slot8 rzdM (in8 k)) (slot3 ryrM k) fullShare.left (RZD m c) fd l W
    rfl
    (Entails.of_eq ((payload_syr m c k 0).symm.trans (payload_dma m c (syrS k) 0)))
    ((Entails.of_eq (pointsTo_congr fun i hi => land_YR m c k fd i hi)).trans
      (Entails.of_eq ((payload_ryr m (buddy c) k 0).symm.trans (payload_dma m (buddy c) (ryrS k) 0))))
    (hsc := hsc) (hsrc := hsrc) (hdst := hdst) (hsem := hsem) (α := α) (Q := Q) (k := k')

/-- Chunk `k + 3` of what came from the y peer, relayed to the z peer: its relay buffer's chunk `k` is chunk `k + 3` of the y-forwarded buffer of its z peer, the sender. -/
theorem land_ZR (c : Dev nD) (k : Fin 3) (fd : (cc0_scratch7 : Ref sig .tc).ty.Contents (Elt F))
    (i : S3x64x512.Idx) (hi : i ∈ (slot3 rzrM k).view.set) :
    (slot3 rzrM k).view.write (Elt F) fd ((slot8 rydM (up3 k)).view.read (Elt F) (RYD m c)) Finset.univ i = RZR m (zpair c) i := by
  have h0 := (mem_slot_rzr k i).mp hi
  rw [write_slot_rzr k fd _ i hi, read_slot_ryd]
  unfold RZR; rw [zpair_zpair]
  exact congrArg (RYD m c) ((congrArg (fun a => ix3 a (i 1) (i 2)) (Fin.ext (show k.val + 3 = (i 0).val + 3 from by omega))))

theorem send_ZR (K : GSem nD τ sig → ℕ) (c : Dev nD) (k : Fin 3)
    (fd : Buf (Elt F) ((slot3 rzrM k).view.loc ((zpair c : Dev nD) : Thread nD τ)))
    (l : List (GSem nD τ sig × ℕ)) (W : Waits sig Unit)
    {hsc : (slot3 rzrM k).view.ref.isScScratch = false} {hsrc : (slot8 rydM (up3 k)).view.WordExact}
    {hdst : (slot3 rzrM k).view.WordExact}
    {hsem : DmaTarget.Typed .vmem (.dma (rzrS k)) (.remote (Dev.tc (zpair c) : Thread nD τ) (slot3 rzrM k) (.dma (szrS k)) hsc)}
    {α : Type} {Q : α → sProp 𝕄} {k' : PUnit → Prog (TpuEff nD τ sig (Elt F) Λ₀ .tc) α} :
    iprop(records m K ∗ rydPts m c (up3 k) fullShare.left
        ∗ ((slot3 rzrM k).view.loc ((zpair c : Dev nD) : Thread nD τ) ↦[(slot3 rzrM k).view.set]{fullShare} fd)
        ∗ owes (c : Thread nD τ) (owe ((dcell (zpair c) (rzrS k), Nc) :: l)) W
        ∗ dutyTok ER (dcell c (szrS k)) 0 0 ∗ dutyTok ER (dcell (zpair c) (rzrS k)) 0 0)
      ⊢ iprop(((cred (tallyAt (dcell c (szrS k)) () Nc) ∗ owes (c : Thread nD τ) (owe l) W) -∗ WP c (k' ⟨⟩) Q)
          -∗ WP c (.op (.enqueueDma (slot8 rydM (up3 k)) (.remote (Dev.tc (zpair c) : Thread nD τ) (slot3 rzrM k) (.dma (szrS k)) hsc)
                (.dma (rzrS k)) hsrc hdst hsem) k') Q) :=
  step_send m K c (zpair c) (szrS k) (rzrS k) (two_le_szrS k) (two_le_rzrS k) (slot8 rydM (up3 k)) (slot3 rzrM k) fullShare.left (RYD m c) fd l W
    rfl
    (Entails.of_eq ((payload_szr m c k 0).symm.trans (payload_dma m c (szrS k) 0)))
    ((Entails.of_eq (pointsTo_congr fun i hi => land_ZR m c k fd i hi)).trans
      (Entails.of_eq ((payload_rzr m (zpair c) k 0).symm.trans (payload_dma m (zpair c) (rzrS k) 0))))
    (hsc := hsc) (hsrc := hsrc) (hdst := hdst) (hsem := hsem) (α := α) (Q := Q) (k := k')

end Cert.Kernel.RS

end
-- ==== Proof.K.Local.lean ====
import proofs.«901033_g7700000000001034_dist_rs_v7x_xyz2x2x4_x_m2048_n512_bf16_1_alg».proof.Proof.K.Proto
import proofs.«901033_g7700000000001034_dist_rs_v7x_xyz2x2x4_x_m2048_n512_bf16_1_alg».proof.Proof.K.Tables
import proofs.«901033_g7700000000001034_dist_rs_v7x_xyz2x2x4_x_m2048_n512_bf16_1_alg».proof.Proof.K.Credit
import proofs.«901033_g7700000000001034_dist_rs_v7x_xyz2x2x4_x_m2048_n512_bf16_1_alg».proof.Proof.K.Slots
import proofs.«901033_g7700000000001034_dist_rs_v7x_xyz2x2x4_x_m2048_n512_bf16_1_alg».proof.Proof.K.Steps

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The device-local memory steps, on buffers held chunk by chunk

A buffer of `n` chunks of 64 × 512 is held as `n` separate assertions, one per chunk: chunk `k`
is the buffer's elements at first coordinate `k`. A load or a store of the 1 × 64 × 512 rectangle
at offset `(k, 0, 0)` touches exactly those elements, so it needs chunk `k` alone — at any share
for a load, whole for a store — and hands it back: unchanged after a load, holding the stored
vector after a store. -/

/-- The contents of the buffer under the memref `M` on device `c`. -/
abbrev Bf (c : Dev nD) {sp : Space} {S : Shape} {e : EltTy} (M : Memref sig .tc sp S e) : Type :=
  Buf (Elt F) (M.view.loc (c : Thread nD τ))

/-- Chunk `k` of a buffer of eight chunks on device `c`, held at share `q`, the buffer at contents `f`. -/
abbrev sl8 (c : Dev nD) (M : Memref sig .tc .vmem S8x64x512 .bf16) (k : Fin 8) (q : PosShare TreeShare)
    (f : Bf (F := F) c M) : sProp 𝕄 :=
  (slot8 M k).view.loc (c : Thread nD τ) ↦[(slot8 M k).view.set]{q} f
/-- The same of a buffer of two chunks, -/
abbrev sl2 (c : Dev nD) (M : Memref sig .tc .vmem S2x64x512 .bf16) (k : Fin 2) (q : PosShare TreeShare)
    (f : Bf (F := F) c M) : sProp 𝕄 :=
  (slot2 M k).view.loc (c : Thread nD τ) ↦[(slot2 M k).view.set]{q} f
/-- and of three. -/
abbrev sl3 (c : Dev nD) (M : Memref sig .tc .vmem S3x64x512 .bf16) (k : Fin 3) (q : PosShare TreeShare)
    (f : Bf (F := F) c M) : sProp 𝕄 :=
  (slot3 M k).view.loc (c : Thread nD τ) ↦[(slot3 M k).view.set]{q} f

/-! ### Loads

The elements a load at the chunk's rectangle reads are the rectangle's image in the buffer, which
is the chunk. -/

theorem load_chunk8 (c : Dev nD) (M : Memref sig .tc .vmem S8x64x512 .bf16) (k : Fin 8) (q : PosShare TreeShare)
    (f : Bf (F := F) c M) {hl : M.view.LoadsAt (rect8 k)} {α : Type} {Q : α → sProp 𝕄}
    {k' : (S1x64x512.Idx → Elt F .bf16) → Prog (TpuEff nD τ sig (Elt F) Λ₀ .tc) α} :
    sl8 c M k q f ⊢ iprop((sl8 c M k q f -∗ WP c (k' (M.view.readAt (Elt F) (rect8 k) f)) Q)
      -∗ WP c (.op (.load M (rect8 k) hl) k') Q) :=
  wp_load (defs := defs₀ (F := F)) Variants.none (c : Thread nD τ) none (Γ := .empty) Set.univ (Q := Q)
    (m := M) (r := rect8 k) (hl := hl) (k := k') (S := (slot8 M k).view.set) (q := q) (f := f)
    (subset_of_eq ((View.set_slice M.view (Rect.unit (s := S8x64x512) ![k.val, 0, 0] S1x64x512.size (inb8 k))).symm.trans
      (set_access_chunk8 M k)))

theorem load_chunk2 (c : Dev nD) (M : Memref sig .tc .vmem S2x64x512 .bf16) (k : Fin 2) (q : PosShare TreeShare)
    (f : Bf (F := F) c M) {hl : M.view.LoadsAt (rect2 k)} {α : Type} {Q : α → sProp 𝕄}
    {k' : (S1x64x512.Idx → Elt F .bf16) → Prog (TpuEff nD τ sig (Elt F) Λ₀ .tc) α} :
    sl2 c M k q f ⊢ iprop((sl2 c M k q f -∗ WP c (k' (M.view.readAt (Elt F) (rect2 k) f)) Q)
      -∗ WP c (.op (.load M (rect2 k) hl) k') Q) :=
  wp_load (defs := defs₀ (F := F)) Variants.none (c : Thread nD τ) none (Γ := .empty) Set.univ (Q := Q)
    (m := M) (r := rect2 k) (hl := hl) (k := k') (S := (slot2 M k).view.set) (q := q) (f := f)
    (subset_of_eq ((View.set_slice M.view (Rect.unit (s := S2x64x512) ![k.val, 0, 0] S1x64x512.size (inb2 k))).symm.trans
      (set_access_chunk2 M k)))

theorem load_chunk3 (c : Dev nD) (M : Memref sig .tc .vmem S3x64x512 .bf16) (k : Fin 3) (q : PosShare TreeShare)
    (f : Bf (F := F) c M) {hl : M.view.LoadsAt (rect3 k)} {α : Type} {Q : α → sProp 𝕄}
    {k' : (S1x64x512.Idx → Elt F .bf16) → Prog (TpuEff nD τ sig (Elt F) Λ₀ .tc) α} :
    sl3 c M k q f ⊢ iprop((sl3 c M k q f -∗ WP c (k' (M.view.readAt (Elt F) (rect3 k) f)) Q)
      -∗ WP c (.op (.load M (rect3 k) hl) k') Q) :=
  wp_load (defs := defs₀ (F := F)) Variants.none (c : Thread nD τ) none (Γ := .empty) Set.univ (Q := Q)
    (m := M) (r := rect3 k) (hl := hl) (k := k') (S := (slot3 M k).view.set) (q := q) (f := f)
    (subset_of_eq ((View.set_slice M.view (Rect.unit (s := S3x64x512) ![k.val, 0, 0] S1x64x512.size (inb3 k))).symm.trans
      (set_access_chunk3 M k)))

/-! ### Stores

A store of the whole 1 × 64 × 512 vector at the chunk's rectangle writes the chunk's elements and
no other. -/

theorem store_chunk8 (c : Dev nD) (M : Memref sig .tc .vmem S8x64x512 .bf16) (k : Fin 8)
    (f : Bf (F := F) c M) (w : S1x64x512.Idx → Elt F .bf16)
    {hx : (M.access (Rect.unit (s := S8x64x512) ![k.val, 0, 0] S1x64x512.size (inb8 k))).Stores Finset.univ}
    {hm : (Finset.univ : Finset (Rect.unit (s := S8x64x512) ![k.val, 0, 0] S1x64x512.size (inb8 k)).shape.Idx) = Finset.univ
      ∨ ∀ a, (Rect.unit (s := S8x64x512) ![k.val, 0, 0] S1x64x512.size (inb8 k)).stride a = 1}
    {α : Type} {Q : α → sProp 𝕄} {k' : PUnit → Prog (TpuEff nD τ sig (Elt F) Λ₀ .tc) α} :
    sl8 c M k fullShare f
      ⊢ iprop((sl8 c M k fullShare
            ((M.access (Rect.unit (s := S8x64x512) ![k.val, 0, 0] S1x64x512.size (inb8 k))).write (Elt F) f w Finset.univ)
          -∗ WP c (k' ⟨⟩) Q)
        -∗ WP c (.op (.store M (Rect.unit (s := S8x64x512) ![k.val, 0, 0] S1x64x512.size (inb8 k)) w Finset.univ hx hm) k') Q) :=
  wp_store (defs := defs₀ (F := F)) Variants.none (c : Thread nD τ) none (Γ := .empty) Set.univ (Q := Q)
    (m := M) (r := Rect.unit (s := S8x64x512) ![k.val, 0, 0] S1x64x512.size (inb8 k)) (w := w) (Mk := Finset.univ)
    (hx := hx) (hm := hm) (k := k') (S := (slot8 M k).view.set) (f := f)
    (subset_of_eq (set_access_chunk8 M k))

theorem store_chunk2 (c : Dev nD) (M : Memref sig .tc .vmem S2x64x512 .bf16) (k : Fin 2)
    (f : Bf (F := F) c M) (w : S1x64x512.Idx → Elt F .bf16)
    {hx : (M.access (Rect.unit (s := S2x64x512) ![k.val, 0, 0] S1x64x512.size (inb2 k))).Stores Finset.univ}
    {hm : (Finset.univ : Finset (Rect.unit (s := S2x64x512) ![k.val, 0, 0] S1x64x512.size (inb2 k)).shape.Idx) = Finset.univ
      ∨ ∀ a, (Rect.unit (s := S2x64x512) ![k.val, 0, 0] S1x64x512.size (inb2 k)).stride a = 1}
    {α : Type} {Q : α → sProp 𝕄} {k' : PUnit → Prog (TpuEff nD τ sig (Elt F) Λ₀ .tc) α} :
    sl2 c M k fullShare f
      ⊢ iprop((sl2 c M k fullShare
            ((M.access (Rect.unit (s := S2x64x512) ![k.val, 0, 0] S1x64x512.size (inb2 k))).write (Elt F) f w Finset.univ)
          -∗ WP c (k' ⟨⟩) Q)
        -∗ WP c (.op (.store M (Rect.unit (s := S2x64x512) ![k.val, 0, 0] S1x64x512.size (inb2 k)) w Finset.univ hx hm) k') Q) :=
  wp_store (defs := defs₀ (F := F)) Variants.none (c : Thread nD τ) none (Γ := .empty) Set.univ (Q := Q)
    (m := M) (r := Rect.unit (s := S2x64x512) ![k.val, 0, 0] S1x64x512.size (inb2 k)) (w := w) (Mk := Finset.univ)
    (hx := hx) (hm := hm) (k := k') (S := (slot2 M k).view.set) (f := f)
    (subset_of_eq (set_access_chunk2 M k))

/-! ### The staging buffers after their stores

Chunk `k` of the first staging buffer is stored from rows `r_self + 64 k …` of the partner's
columns of the device's block, cast; on the chunk's elements — first coordinate `k` — that is the
buffer's final contents `SX`, whatever the buffer held before. Likewise the second staging buffer
and `SX2`. -/

theorem sx_stored (c : Dev nD) (k : Fin 8) (f : Bf (F := F) c sxM) :
    sl8 c sxM k fullShare
        ((sxM.access (Rect.unit (s := S8x64x512) ![k.val, 0, 0] S1x64x512.size (inb8 k))).write (Elt F) f
          (k0_pay1 ((xM : Memref sig .tc .vmem S1x2048x1024 .f32).view.readAt (Elt F)
            (Rect.unit (s := S1x2048x1024) (k0_off1 c (BitVec.ofNat 32 (64 * k.val))) S1x64x512.size (k0_off1_inb c k)).toLoadRect
            (xstg m c)))
          Finset.univ)
      = sxPts m c k fullShare := by
  unfold sxPts
  refine pointsTo_congr ?_
  intro (i : S8x64x512.Idx) hi
  have hk : (i 0).val = k.val := (mem_slot_sx k i).mp hi
  refine (store_chunk_sx k f _ i).trans ?_
  rw [if_pos hk]
  have e : k = i 0 := Fin.ext hk.symm
  subst e
  rfl

theorem sx2_stored (c : Dev nD) (k : Fin 2) (f : Bf (F := F) c sx2M) :
    sl2 c sx2M k fullShare
        ((sx2M.access (Rect.unit (s := S2x64x512) ![k.val, 0, 0] S1x64x512.size (inb2 k))).write (Elt F) f
          (k0_pay1 ((xM : Memref sig .tc .vmem S1x2048x1024 .f32).view.readAt (Elt F)
            (Rect.unit (s := S1x2048x1024) (k0_off2 c (BitVec.ofNat 32 (384 + 64 * k.val))) S1x64x512.size (k0_off2_inb c k)).toLoadRect
            (xstg m c)))
          Finset.univ)
      = sx2Pts m c k fullShare := by
  unfold sx2Pts
  refine pointsTo_congr ?_
  intro (i : S2x64x512.Idx) hi
  have hk : (i 0).val = k.val := (mem_slot_sx2 k i).mp hi
  refine (store_chunk_sx2 k f _ i).trans ?_
  rw [if_pos hk]
  have e : k = i 0 := Fin.ext hk.symm
  subst e
  rfl

/-! ### What the later loads read

A load of chunk `k` of a landing buffer at its final contents reads entry `(k, r, c)` of those
contents at index `(0, r, c)`. -/

theorem sx_read (c : Dev nD) (k : Fin 8) :
    (sxM : Memref sig .tc .vmem S8x64x512 .bf16).view.readAt (Elt F) (rect8 k) (SX m c)
      = fun y => SX m c (ValueIdx.ix3 k (y 1) (y 2)) :=
  funext fun y => readAt_chunk_sx k (SX m c) y
theorem sx2_read (c : Dev nD) (k : Fin 2) :
    (sx2M : Memref sig .tc .vmem S2x64x512 .bf16).view.readAt (Elt F) (rect2 k) (SX2 m c)
      = fun y => SX2 m c (ValueIdx.ix3 k (y 1) (y 2)) :=
  funext fun y => readAt_chunk_sx2 k (SX2 m c) y
theorem rx_read (c : Dev nD) (k : Fin 8) :
    (rxM : Memref sig .tc .vmem S8x64x512 .bf16).view.readAt (Elt F) (rect8 k) (RX m c)
      = fun y => RX m c (ValueIdx.ix3 k (y 1) (y 2)) :=
  funext fun y => readAt_chunk_rx k (RX m c) y
theorem rx2_read (c : Dev nD) (k : Fin 2) :
    (rx2M : Memref sig .tc .vmem S2x64x512 .bf16).view.readAt (Elt F) (rect2 k) (RX2 m c)
      = fun y => RX2 m c (ValueIdx.ix3 k (y 1) (y 2)) :=
  funext fun y => readAt_chunk_rx2 k (RX2 m c) y
theorem ryd_read (c : Dev nD) (k : Fin 8) :
    (rydM : Memref sig .tc .vmem S8x64x512 .bf16).view.readAt (Elt F) (rect8 k) (RYD m c)
      = fun y => RYD m c (ValueIdx.ix3 k (y 1) (y 2)) :=
  funext fun y => readAt_chunk_ryd k (RYD m c) y
theorem rzd_read (c : Dev nD) (k : Fin 8) :
    (rzdM : Memref sig .tc .vmem S8x64x512 .bf16).view.readAt (Elt F) (rect8 k) (RZD m c)
      = fun y => RZD m c (ValueIdx.ix3 k (y 1) (y 2)) :=
  funext fun y => readAt_chunk_rzd k (RZD m c) y
theorem ryr_read (c : Dev nD) (k : Fin 3) :
    (ryrM : Memref sig .tc .vmem S3x64x512 .bf16).view.readAt (Elt F) (rect3 k) (RYR m c)
      = fun y => RYR m c (ValueIdx.ix3 k (y 1) (y 2)) :=
  funext fun y => readAt_chunk_ryr k (RYR m c) y
theorem rzr_read (c : Dev nD) (k : Fin 3) :
    (rzrM : Memref sig .tc .vmem S3x64x512 .bf16).view.readAt (Elt F) (rect3 k) (RZR m c)
      = fun y => RZR m c (ValueIdx.ix3 k (y 1) (y 2)) :=
  funext fun y => readAt_chunk_rzr k (RZR m c) y

end Cert.Kernel.RS

end
-- ==== Proof.K.Pays.lean ====
import proofs.«901033_g7700000000001034_dist_rs_v7x_xyz2x2x4_x_m2048_n512_bf16_1_alg».proof.Proof.K.Proto

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payments of a device, one at a time

The list `pays c` has 35 entries: the three barrier units, then the landing credit of each of the 32 copies in
program order. Each lemma below names the head of one tail of that list, the entry spelt with its semaphore family
at a numeral index, so that the tallies owed can be peeled one payment at a time. -/

/-- The 35 payments written out. -/
theorem pays_eq (c : Dev nD) : pays c =
    [(barCell (partner c), 1),
     (barCell (buddy c), 1),
     (barCell (zpair c), 1),
     (dcell (partner c) (rxS 0), Nc),
     (dcell (partner c) (rxS 1), Nc),
     (dcell (partner c) (rxS 2), Nc),
     (dcell (partner c) (rxS 3), Nc),
     (dcell (partner c) (rxS 4), Nc),
     (dcell (partner c) (rxS 5), Nc),
     (dcell (partner c) (rxS 6), Nc),
     (dcell (partner c) (rxS 7), Nc),
     (dcell (partner c) (rx2S 0), Nc),
     (dcell (partner c) (rx2S 1), Nc),
     (dcell (buddy c) (rydS 0), Nc),
     (dcell (zpair c) (rzdS 0), Nc),
     (dcell (buddy c) (rydS 1), Nc),
     (dcell (zpair c) (rzdS 1), Nc),
     (dcell (buddy c) (rydS 2), Nc),
     (dcell (zpair c) (rzdS 2), Nc),
     (dcell (buddy c) (rydS 3), Nc),
     (dcell (zpair c) (rzdS 3), Nc),
     (dcell (buddy c) (rydS 4), Nc),
     (dcell (zpair c) (rzdS 4), Nc),
     (dcell (buddy c) (rydS 5), Nc),
     (dcell (zpair c) (rzdS 5), Nc),
     (dcell (buddy c) (rydS 6), Nc),
     (dcell (zpair c) (rzdS 6), Nc),
     (dcell (buddy c) (rydS 7), Nc),
     (dcell (zpair c) (rzdS 7), Nc),
     (dcell (buddy c) (ryrS 0), Nc),
     (dcell (buddy c) (ryrS 1), Nc),
     (dcell (buddy c) (ryrS 2), Nc),
     (dcell (zpair c) (rzrS 0), Nc),
     (dcell (zpair c) (rzrS 1), Nc),
     (dcell (zpair c) (rzrS 2), Nc)] := rfl

theorem drop_0 (c : Dev nD) : (pays c).drop 0 = (barCell (partner c), 1) :: (pays c).drop 1 := rfl
theorem drop_1 (c : Dev nD) : (pays c).drop 1 = (barCell (buddy c), 1) :: (pays c).drop 2 := rfl
theorem drop_2 (c : Dev nD) : (pays c).drop 2 = (barCell (zpair c), 1) :: (pays c).drop 3 := rfl
theorem drop_3 (c : Dev nD) : (pays c).drop 3 = (dcell (partner c) (rxS 0), Nc) :: (pays c).drop 4 := rfl
theorem drop_4 (c : Dev nD) : (pays c).drop 4 = (dcell (partner c) (rxS 1), Nc) :: (pays c).drop 5 := rfl
theorem drop_5 (c : Dev nD) : (pays c).drop 5 = (dcell (partner c) (rxS 2), Nc) :: (pays c).drop 6 := rfl
theorem drop_6 (c : Dev nD) : (pays c).drop 6 = (dcell (partner c) (rxS 3), Nc) :: (pays c).drop 7 := rfl
theorem drop_7 (c : Dev nD) : (pays c).drop 7 = (dcell (partner c) (rxS 4), Nc) :: (pays c).drop 8 := rfl
theorem drop_8 (c : Dev nD) : (pays c).drop 8 = (dcell (partner c) (rxS 5), Nc) :: (pays c).drop 9 := rfl
theorem drop_9 (c : Dev nD) : (pays c).drop 9 = (dcell (partner c) (rxS 6), Nc) :: (pays c).drop 10 := rfl
theorem drop_10 (c : Dev nD) : (pays c).drop 10 = (dcell (partner c) (rxS 7), Nc) :: (pays c).drop 11 := rfl
theorem drop_11 (c : Dev nD) : (pays c).drop 11 = (dcell (partner c) (rx2S 0), Nc) :: (pays c).drop 12 := rfl
theorem drop_12 (c : Dev nD) : (pays c).drop 12 = (dcell (partner c) (rx2S 1), Nc) :: (pays c).drop 13 := rfl
theorem drop_13 (c : Dev nD) : (pays c).drop 13 = (dcell (buddy c) (rydS 0), Nc) :: (pays c).drop 14 := rfl
theorem drop_14 (c : Dev nD) : (pays c).drop 14 = (dcell (zpair c) (rzdS 0), Nc) :: (pays c).drop 15 := rfl
theorem drop_15 (c : Dev nD) : (pays c).drop 15 = (dcell (buddy c) (rydS 1), Nc) :: (pays c).drop 16 := rfl
theorem drop_16 (c : Dev nD) : (pays c).drop 16 = (dcell (zpair c) (rzdS 1), Nc) :: (pays c).drop 17 := rfl
theorem drop_17 (c : Dev nD) : (pays c).drop 17 = (dcell (buddy c) (rydS 2), Nc) :: (pays c).drop 18 := rfl
theorem drop_18 (c : Dev nD) : (pays c).drop 18 = (dcell (zpair c) (rzdS 2), Nc) :: (pays c).drop 19 := rfl
theorem drop_19 (c : Dev nD) : (pays c).drop 19 = (dcell (buddy c) (rydS 3), Nc) :: (pays c).drop 20 := rfl
theorem drop_20 (c : Dev nD) : (pays c).drop 20 = (dcell (zpair c) (rzdS 3), Nc) :: (pays c).drop 21 := rfl
theorem drop_21 (c : Dev nD) : (pays c).drop 21 = (dcell (buddy c) (rydS 4), Nc) :: (pays c).drop 22 := rfl
theorem drop_22 (c : Dev nD) : (pays c).drop 22 = (dcell (zpair c) (rzdS 4), Nc) :: (pays c).drop 23 := rfl
theorem drop_23 (c : Dev nD) : (pays c).drop 23 = (dcell (buddy c) (rydS 5), Nc) :: (pays c).drop 24 := rfl
theorem drop_24 (c : Dev nD) : (pays c).drop 24 = (dcell (zpair c) (rzdS 5), Nc) :: (pays c).drop 25 := rfl
theorem drop_25 (c : Dev nD) : (pays c).drop 25 = (dcell (buddy c) (rydS 6), Nc) :: (pays c).drop 26 := rfl
theorem drop_26 (c : Dev nD) : (pays c).drop 26 = (dcell (zpair c) (rzdS 6), Nc) :: (pays c).drop 27 := rfl
theorem drop_27 (c : Dev nD) : (pays c).drop 27 = (dcell (buddy c) (rydS 7), Nc) :: (pays c).drop 28 := rfl
theorem drop_28 (c : Dev nD) : (pays c).drop 28 = (dcell (zpair c) (rzdS 7), Nc) :: (pays c).drop 29 := rfl
theorem drop_29 (c : Dev nD) : (pays c).drop 29 = (dcell (buddy c) (ryrS 0), Nc) :: (pays c).drop 30 := rfl
theorem drop_30 (c : Dev nD) : (pays c).drop 30 = (dcell (buddy c) (ryrS 1), Nc) :: (pays c).drop 31 := rfl
theorem drop_31 (c : Dev nD) : (pays c).drop 31 = (dcell (buddy c) (ryrS 2), Nc) :: (pays c).drop 32 := rfl
theorem drop_32 (c : Dev nD) : (pays c).drop 32 = (dcell (zpair c) (rzrS 0), Nc) :: (pays c).drop 33 := rfl
theorem drop_33 (c : Dev nD) : (pays c).drop 33 = (dcell (zpair c) (rzrS 1), Nc) :: (pays c).drop 34 := rfl
theorem drop_34 (c : Dev nD) : (pays c).drop 34 = (dcell (zpair c) (rzrS 2), Nc) :: (pays c).drop 35 := rfl
theorem drop_35 (c : Dev nD) : (pays c).drop 35 = [] := rfl

/-- What a device owes at launch is what is owed for the whole list. -/
theorem O₀_drop (c : Dev nD) : O₀ c = owe ((pays c).drop 0) := rfl

/-- Naming the head of a tail of the payments inside the debt a device holds. -/
theorem owes_drop (c : Dev nD) (n : ℕ) (p : GSem nD τ sig × ℕ) (W : Waits sig Unit)
    (h : (pays c).drop n = p :: (pays c).drop (n + 1)) :
    (owes (c : Thread nD τ) (owe ((pays c).drop n)) W : sProp 𝕄) =
      owes (c : Thread nD τ) (owe (p :: (pays c).drop (n + 1))) W :=
  congrArg (fun l => (owes (c : Thread nD τ) (owe l) W : sProp 𝕄)) h

end Cert.Kernel.RS

end
-- ==== Proof.K.Sems.lean ====
import proofs.«901033_g7700000000001034_dist_rs_v7x_xyz2x2x4_x_m2048_n512_bf16_1_alg».proof.Proof.K.Proto

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores as the program spells them

The program names chunk `k`'s semaphore by slicing its array at `k`; the tables name it by its
number. The two are the same semaphore. -/

theorem sem_sx_0 : (((SemArray.slice cc0_scratch8 (Rect.unit (s := S8) ![0] S1.size inb_S8_S1_0)).squeeze S_ squeezes_S1_S_).sem : DmaSem sig) = sxS 0 := by decide
theorem sem_sx_1 : (((SemArray.slice cc0_scratch8 (Rect.unit (s := S8) ![1] S1.size inb_S8_S1_1)).squeeze S_ squeezes_S1_S_).sem : DmaSem sig) = sxS 1 := by decide
theorem sem_sx_2 : (((SemArray.slice cc0_scratch8 (Rect.unit (s := S8) ![2] S1.size inb_S8_S1_2)).squeeze S_ squeezes_S1_S_).sem : DmaSem sig) = sxS 2 := by decide
theorem sem_sx_3 : (((SemArray.slice cc0_scratch8 (Rect.unit (s := S8) ![3] S1.size inb_S8_S1_3)).squeeze S_ squeezes_S1_S_).sem : DmaSem sig) = sxS 3 := by decide
theorem sem_sx_4 : (((SemArray.slice cc0_scratch8 (Rect.unit (s := S8) ![4] S1.size inb_S8_S1_4)).squeeze S_ squeezes_S1_S_).sem : DmaSem sig) = sxS 4 := by decide
theorem sem_sx_5 : (((SemArray.slice cc0_scratch8 (Rect.unit (s := S8) ![5] S1.size inb_S8_S1_5)).squeeze S_ squeezes_S1_S_).sem : DmaSem sig) = sxS 5 := by decide
theorem sem_sx_6 : (((SemArray.slice cc0_scratch8 (Rect.unit (s := S8) ![6] S1.size inb_S8_S1_6)).squeeze S_ squeezes_S1_S_).sem : DmaSem sig) = sxS 6 := by decide
theorem sem_sx_7 : (((SemArray.slice cc0_scratch8 (Rect.unit (s := S8) ![7] S1.size inb_S8_S1_7)).squeeze S_ squeezes_S1_S_).sem : DmaSem sig) = sxS 7 := by decide
theorem sem_rx_0 : (((SemArray.slice cc0_scratch9 (Rect.unit (s := S8) ![0] S1.size inb_S8_S1_0)).squeeze S_ squeezes_S1_S_).sem : DmaSem sig) = rxS 0 := by decide
theorem sem_rx_1 : (((SemArray.slice cc0_scratch9 (Rect.unit (s := S8) ![1] S1.size inb_S8_S1_1)).squeeze S_ squeezes_S1_S_).sem : DmaSem sig) = rxS 1 := by decide
theorem sem_rx_2 : (((SemArray.slice cc0_scratch9 (Rect.unit (s := S8) ![2] S1.size inb_S8_S1_2)).squeeze S_ squeezes_S1_S_).sem : DmaSem sig) = rxS 2 := by decide
theorem sem_rx_3 : (((SemArray.slice cc0_scratch9 (Rect.unit (s := S8) ![3] S1.size inb_S8_S1_3)).squeeze S_ squeezes_S1_S_).sem : DmaSem sig) = rxS 3 := by decide
theorem sem_rx_4 : (((SemArray.slice cc0_scratch9 (Rect.unit (s := S8) ![4] S1.size inb_S8_S1_4)).squeeze S_ squeezes_S1_S_).sem : DmaSem sig) = rxS 4 := by decide
theorem sem_rx_5 : (((SemArray.slice cc0_scratch9 (Rect.unit (s := S8) ![5] S1.size inb_S8_S1_5)).squeeze S_ squeezes_S1_S_).sem : DmaSem sig) = rxS 5 := by decide
theorem sem_rx_6 : (((SemArray.slice cc0_scratch9 (Rect.unit (s := S8) ![6] S1.size inb_S8_S1_6)).squeeze S_ squeezes_S1_S_).sem : DmaSem sig) = rxS 6 := by decide
theorem sem_rx_7 : (((SemArray.slice cc0_scratch9 (Rect.unit (s := S8) ![7] S1.size inb_S8_S1_7)).squeeze S_ squeezes_S1_S_).sem : DmaSem sig) = rxS 7 := by decide
theorem sem_sx2_0 : (((SemArray.slice cc0_scratch10 (Rect.unit (s := S2) ![0] S1.size inb_S2_S1_0)).squeeze S_ squeezes_S1_S_).sem : DmaSem sig) = sx2S 0 := by decide
theorem sem_sx2_1 : (((SemArray.slice cc0_scratch10 (Rect.unit (s := S2) ![1] S1.size inb_S2_S1_1)).squeeze S_ squeezes_S1_S_).sem : DmaSem sig) = sx2S 1 := by decide
theorem sem_rx2_0 : (((SemArray.slice cc0_scratch11 (Rect.unit (s := S2) ![0] S1.size inb_S2_S1_0)).squeeze S_ squeezes_S1_S_).sem : DmaSem sig) = rx2S 0 := by decide
theorem sem_rx2_1 : (((SemArray.slice cc0_scratch11 (Rect.unit (s := S2) ![1] S1.size inb_S2_S1_1)).squeeze S_ squeezes_S1_S_).sem : DmaSem sig) = rx2S 1 := by decide
theorem sem_syd_0 : (((SemArray.slice cc0_scratch12 (Rect.unit (s := S8) ![0] S1.size inb_S8_S1_0)).squeeze S_ squeezes_S1_S_).sem : DmaSem sig) = sydS 0 := by decide
theorem sem_syd_1 : (((SemArray.slice cc0_scratch12 (Rect.unit (s := S8) ![1] S1.size inb_S8_S1_1)).squeeze S_ squeezes_S1_S_).sem : DmaSem sig) = sydS 1 := by decide
theorem sem_syd_2 : (((SemArray.slice cc0_scratch12 (Rect.unit (s := S8) ![2] S1.size inb_S8_S1_2)).squeeze S_ squeezes_S1_S_).sem : DmaSem sig) = sydS 2 := by decide
theorem sem_syd_3 : (((SemArray.slice cc0_scratch12 (Rect.unit (s := S8) ![3] S1.size inb_S8_S1_3)).squeeze S_ squeezes_S1_S_).sem : DmaSem sig) = sydS 3 := by decide
theorem sem_syd_4 : (((SemArray.slice cc0_scratch12 (Rect.unit (s := S8) ![4] S1.size inb_S8_S1_4)).squeeze S_ squeezes_S1_S_).sem : DmaSem sig) = sydS 4 := by decide
theorem sem_syd_5 : (((SemArray.slice cc0_scratch12 (Rect.unit (s := S8) ![5] S1.size inb_S8_S1_5)).squeeze S_ squeezes_S1_S_).sem : DmaSem sig) = sydS 5 := by decide
theorem sem_syd_6 : (((SemArray.slice cc0_scratch12 (Rect.unit (s := S8) ![6] S1.size inb_S8_S1_6)).squeeze S_ squeezes_S1_S_).sem : DmaSem sig) = sydS 6 := by decide
theorem sem_syd_7 : (((SemArray.slice cc0_scratch12 (Rect.unit (s := S8) ![7] S1.size inb_S8_S1_7)).squeeze S_ squeezes_S1_S_).sem : DmaSem sig) = sydS 7 := by decide
theorem sem_ryd_0 : (((SemArray.slice cc0_scratch13 (Rect.unit (s := S8) ![0] S1.size inb_S8_S1_0)).squeeze S_ squeezes_S1_S_).sem : DmaSem sig) = rydS 0 := by decide
theorem sem_ryd_1 : (((SemArray.slice cc0_scratch13 (Rect.unit (s := S8) ![1] S1.size inb_S8_S1_1)).squeeze S_ squeezes_S1_S_).sem : DmaSem sig) = rydS 1 := by decide
theorem sem_ryd_2 : (((SemArray.slice cc0_scratch13 (Rect.unit (s := S8) ![2] S1.size inb_S8_S1_2)).squeeze S_ squeezes_S1_S_).sem : DmaSem sig) = rydS 2 := by decide
theorem sem_ryd_3 : (((SemArray.slice cc0_scratch13 (Rect.unit (s := S8) ![3] S1.size inb_S8_S1_3)).squeeze S_ squeezes_S1_S_).sem : DmaSem sig) = rydS 3 := by decide
theorem sem_ryd_4 : (((SemArray.slice cc0_scratch13 (Rect.unit (s := S8) ![4] S1.size inb_S8_S1_4)).squeeze S_ squeezes_S1_S_).sem : DmaSem sig) = rydS 4 := by decide
theorem sem_ryd_5 : (((SemArray.slice cc0_scratch13 (Rect.unit (s := S8) ![5] S1.size inb_S8_S1_5)).squeeze S_ squeezes_S1_S_).sem : DmaSem sig) = rydS 5 := by decide
theorem sem_ryd_6 : (((SemArray.slice cc0_scratch13 (Rect.unit (s := S8) ![6] S1.size inb_S8_S1_6)).squeeze S_ squeezes_S1_S_).sem : DmaSem sig) = rydS 6 := by decide
theorem sem_ryd_7 : (((SemArray.slice cc0_scratch13 (Rect.unit (s := S8) ![7] S1.size inb_S8_S1_7)).squeeze S_ squeezes_S1_S_).sem : DmaSem sig) = rydS 7 := by decide
theorem sem_szd_0 : (((SemArray.slice cc0_scratch14 (Rect.unit (s := S8) ![0] S1.size inb_S8_S1_0)).squeeze S_ squeezes_S1_S_).sem : DmaSem sig) = szdS 0 := by decide
theorem sem_szd_1 : (((SemArray.slice cc0_scratch14 (Rect.unit (s := S8) ![1] S1.size inb_S8_S1_1)).squeeze S_ squeezes_S1_S_).sem : DmaSem sig) = szdS 1 := by decide
theorem sem_szd_2 : (((SemArray.slice cc0_scratch14 (Rect.unit (s := S8) ![2] S1.size inb_S8_S1_2)).squeeze S_ squeezes_S1_S_).sem : DmaSem sig) = szdS 2 := by decide
theorem sem_szd_3 : (((SemArray.slice cc0_scratch14 (Rect.unit (s := S8) ![3] S1.size inb_S8_S1_3)).squeeze S_ squeezes_S1_S_).sem : DmaSem sig) = szdS 3 := by decide
theorem sem_szd_4 : (((SemArray.slice cc0_scratch14 (Rect.unit (s := S8) ![4] S1.size inb_S8_S1_4)).squeeze S_ squeezes_S1_S_).sem : DmaSem sig) = szdS 4 := by decide
theorem sem_szd_5 : (((SemArray.slice cc0_scratch14 (Rect.unit (s := S8) ![5] S1.size inb_S8_S1_5)).squeeze S_ squeezes_S1_S_).sem : DmaSem sig) = szdS 5 := by decide
theorem sem_szd_6 : (((SemArray.slice cc0_scratch14 (Rect.unit (s := S8) ![6] S1.size inb_S8_S1_6)).squeeze S_ squeezes_S1_S_).sem : DmaSem sig) = szdS 6 := by decide
theorem sem_szd_7 : (((SemArray.slice cc0_scratch14 (Rect.unit (s := S8) ![7] S1.size inb_S8_S1_7)).squeeze S_ squeezes_S1_S_).sem : DmaSem sig) = szdS 7 := by decide
theorem sem_rzd_0 : (((SemArray.slice cc0_scratch15 (Rect.unit (s := S8) ![0] S1.size inb_S8_S1_0)).squeeze S_ squeezes_S1_S_).sem : DmaSem sig) = rzdS 0 := by decide
theorem sem_rzd_1 : (((SemArray.slice cc0_scratch15 (Rect.unit (s := S8) ![1] S1.size inb_S8_S1_1)).squeeze S_ squeezes_S1_S_).sem : DmaSem sig) = rzdS 1 := by decide
theorem sem_rzd_2 : (((SemArray.slice cc0_scratch15 (Rect.unit (s := S8) ![2] S1.size inb_S8_S1_2)).squeeze S_ squeezes_S1_S_).sem : DmaSem sig) = rzdS 2 := by decide
theorem sem_rzd_3 : (((SemArray.slice cc0_scratch15 (Rect.unit (s := S8) ![3] S1.size inb_S8_S1_3)).squeeze S_ squeezes_S1_S_).sem : DmaSem sig) = rzdS 3 := by decide
theorem sem_rzd_4 : (((SemArray.slice cc0_scratch15 (Rect.unit (s := S8) ![4] S1.size inb_S8_S1_4)).squeeze S_ squeezes_S1_S_).sem : DmaSem sig) = rzdS 4 := by decide
theorem sem_rzd_5 : (((SemArray.slice cc0_scratch15 (Rect.unit (s := S8) ![5] S1.size inb_S8_S1_5)).squeeze S_ squeezes_S1_S_).sem : DmaSem sig) = rzdS 5 := by decide
theorem sem_rzd_6 : (((SemArray.slice cc0_scratch15 (Rect.unit (s := S8) ![6] S1.size inb_S8_S1_6)).squeeze S_ squeezes_S1_S_).sem : DmaSem sig) = rzdS 6 := by decide
theorem sem_rzd_7 : (((SemArray.slice cc0_scratch15 (Rect.unit (s := S8) ![7] S1.size inb_S8_S1_7)).squeeze S_ squeezes_S1_S_).sem : DmaSem sig) = rzdS 7 := by decide
theorem sem_syr_0 : (((SemArray.slice cc0_scratch16 (Rect.unit (s := S3) ![0] S1.size inb_S3_S1_0)).squeeze S_ squeezes_S1_S_).sem : DmaSem sig) = syrS 0 := by decide
theorem sem_syr_1 : (((SemArray.slice cc0_scratch16 (Rect.unit (s := S3) ![1] S1.size inb_S3_S1_1)).squeeze S_ squeezes_S1_S_).sem : DmaSem sig) = syrS 1 := by decide
theorem sem_syr_2 : (((SemArray.slice cc0_scratch16 (Rect.unit (s := S3) ![2] S1.size inb_S3_S1_2)).squeeze S_ squeezes_S1_S_).sem : DmaSem sig) = syrS 2 := by decide
theorem sem_ryr_0 : (((SemArray.slice cc0_scratch17 (Rect.unit (s := S3) ![0] S1.size inb_S3_S1_0)).squeeze S_ squeezes_S1_S_).sem : DmaSem sig) = ryrS 0 := by decide
theorem sem_ryr_1 : (((SemArray.slice cc0_scratch17 (Rect.unit (s := S3) ![1] S1.size inb_S3_S1_1)).squeeze S_ squeezes_S1_S_).sem : DmaSem sig) = ryrS 1 := by decide
theorem sem_ryr_2 : (((SemArray.slice cc0_scratch17 (Rect.unit (s := S3) ![2] S1.size inb_S3_S1_2)).squeeze S_ squeezes_S1_S_).sem : DmaSem sig) = ryrS 2 := by decide
theorem sem_szr_0 : (((SemArray.slice cc0_scratch18 (Rect.unit (s := S3) ![0] S1.size inb_S3_S1_0)).squeeze S_ squeezes_S1_S_).sem : DmaSem sig) = szrS 0 := by decide
theorem sem_szr_1 : (((SemArray.slice cc0_scratch18 (Rect.unit (s := S3) ![1] S1.size inb_S3_S1_1)).squeeze S_ squeezes_S1_S_).sem : DmaSem sig) = szrS 1 := by decide
theorem sem_szr_2 : (((SemArray.slice cc0_scratch18 (Rect.unit (s := S3) ![2] S1.size inb_S3_S1_2)).squeeze S_ squeezes_S1_S_).sem : DmaSem sig) = szrS 2 := by decide
theorem sem_rzr_0 : (((SemArray.slice cc0_scratch19 (Rect.unit (s := S3) ![0] S1.size inb_S3_S1_0)).squeeze S_ squeezes_S1_S_).sem : DmaSem sig) = rzrS 0 := by decide
theorem sem_rzr_1 : (((SemArray.slice cc0_scratch19 (Rect.unit (s := S3) ![1] S1.size inb_S3_S1_1)).squeeze S_ squeezes_S1_S_).sem : DmaSem sig) = rzrS 1 := by decide
theorem sem_rzr_2 : (((SemArray.slice cc0_scratch19 (Rect.unit (s := S3) ![2] S1.size inb_S3_S1_2)).squeeze S_ squeezes_S1_S_).sem : DmaSem sig) = rzrS 2 := by decide

/-! ## The chunks as the program slices them -/

theorem slot_sx_0 : ((sxM.slice (Rect.unit (s := S8x64x512) ![0, 0, 0] S1x64x512.size inb_S8x64x512_S1x64x512_0_0_0) (fun _ => rfl)).squeeze S64x512 squeezes_S1x64x512_S64x512) = slot8 sxM 0 := rfl
theorem slot_sx_1 : ((sxM.slice (Rect.unit (s := S8x64x512) ![1, 0, 0] S1x64x512.size inb_S8x64x512_S1x64x512_1_0_0) (fun _ => rfl)).squeeze S64x512 squeezes_S1x64x512_S64x512) = slot8 sxM 1 := rfl
theorem slot_sx_2 : ((sxM.slice (Rect.unit (s := S8x64x512) ![2, 0, 0] S1x64x512.size inb_S8x64x512_S1x64x512_2_0_0) (fun _ => rfl)).squeeze S64x512 squeezes_S1x64x512_S64x512) = slot8 sxM 2 := rfl
theorem slot_sx_3 : ((sxM.slice (Rect.unit (s := S8x64x512) ![3, 0, 0] S1x64x512.size inb_S8x64x512_S1x64x512_3_0_0) (fun _ => rfl)).squeeze S64x512 squeezes_S1x64x512_S64x512) = slot8 sxM 3 := rfl
theorem slot_sx_4 : ((sxM.slice (Rect.unit (s := S8x64x512) ![4, 0, 0] S1x64x512.size inb_S8x64x512_S1x64x512_4_0_0) (fun _ => rfl)).squeeze S64x512 squeezes_S1x64x512_S64x512) = slot8 sxM 4 := rfl
theorem slot_sx_5 : ((sxM.slice (Rect.unit (s := S8x64x512) ![5, 0, 0] S1x64x512.size inb_S8x64x512_S1x64x512_5_0_0) (fun _ => rfl)).squeeze S64x512 squeezes_S1x64x512_S64x512) = slot8 sxM 5 := rfl
theorem slot_sx_6 : ((sxM.slice (Rect.unit (s := S8x64x512) ![6, 0, 0] S1x64x512.size inb_S8x64x512_S1x64x512_6_0_0) (fun _ => rfl)).squeeze S64x512 squeezes_S1x64x512_S64x512) = slot8 sxM 6 := rfl
theorem slot_sx_7 : ((sxM.slice (Rect.unit (s := S8x64x512) ![7, 0, 0] S1x64x512.size inb_S8x64x512_S1x64x512_7_0_0) (fun _ => rfl)).squeeze S64x512 squeezes_S1x64x512_S64x512) = slot8 sxM 7 := rfl
theorem slot_rx_0 : ((rxM.slice (Rect.unit (s := S8x64x512) ![0, 0, 0] S1x64x512.size inb_S8x64x512_S1x64x512_0_0_0) (fun _ => rfl)).squeeze S64x512 squeezes_S1x64x512_S64x512) = slot8 rxM 0 := rfl
theorem slot_rx_1 : ((rxM.slice (Rect.unit (s := S8x64x512) ![1, 0, 0] S1x64x512.size inb_S8x64x512_S1x64x512_1_0_0) (fun _ => rfl)).squeeze S64x512 squeezes_S1x64x512_S64x512) = slot8 rxM 1 := rfl
theorem slot_rx_2 : ((rxM.slice (Rect.unit (s := S8x64x512) ![2, 0, 0] S1x64x512.size inb_S8x64x512_S1x64x512_2_0_0) (fun _ => rfl)).squeeze S64x512 squeezes_S1x64x512_S64x512) = slot8 rxM 2 := rfl
theorem slot_rx_3 : ((rxM.slice (Rect.unit (s := S8x64x512) ![3, 0, 0] S1x64x512.size inb_S8x64x512_S1x64x512_3_0_0) (fun _ => rfl)).squeeze S64x512 squeezes_S1x64x512_S64x512) = slot8 rxM 3 := rfl
theorem slot_rx_4 : ((rxM.slice (Rect.unit (s := S8x64x512) ![4, 0, 0] S1x64x512.size inb_S8x64x512_S1x64x512_4_0_0) (fun _ => rfl)).squeeze S64x512 squeezes_S1x64x512_S64x512) = slot8 rxM 4 := rfl
theorem slot_rx_5 : ((rxM.slice (Rect.unit (s := S8x64x512) ![5, 0, 0] S1x64x512.size inb_S8x64x512_S1x64x512_5_0_0) (fun _ => rfl)).squeeze S64x512 squeezes_S1x64x512_S64x512) = slot8 rxM 5 := rfl
theorem slot_rx_6 : ((rxM.slice (Rect.unit (s := S8x64x512) ![6, 0, 0] S1x64x512.size inb_S8x64x512_S1x64x512_6_0_0) (fun _ => rfl)).squeeze S64x512 squeezes_S1x64x512_S64x512) = slot8 rxM 6 := rfl
theorem slot_rx_7 : ((rxM.slice (Rect.unit (s := S8x64x512) ![7, 0, 0] S1x64x512.size inb_S8x64x512_S1x64x512_7_0_0) (fun _ => rfl)).squeeze S64x512 squeezes_S1x64x512_S64x512) = slot8 rxM 7 := rfl
theorem slot_ryd_0 : ((rydM.slice (Rect.unit (s := S8x64x512) ![0, 0, 0] S1x64x512.size inb_S8x64x512_S1x64x512_0_0_0) (fun _ => rfl)).squeeze S64x512 squeezes_S1x64x512_S64x512) = slot8 rydM 0 := rfl
theorem slot_ryd_1 : ((rydM.slice (Rect.unit (s := S8x64x512) ![1, 0, 0] S1x64x512.size inb_S8x64x512_S1x64x512_1_0_0) (fun _ => rfl)).squeeze S64x512 squeezes_S1x64x512_S64x512) = slot8 rydM 1 := rfl
theorem slot_ryd_2 : ((rydM.slice (Rect.unit (s := S8x64x512) ![2, 0, 0] S1x64x512.size inb_S8x64x512_S1x64x512_2_0_0) (fun _ => rfl)).squeeze S64x512 squeezes_S1x64x512_S64x512) = slot8 rydM 2 := rfl
theorem slot_ryd_3 : ((rydM.slice (Rect.unit (s := S8x64x512) ![3, 0, 0] S1x64x512.size inb_S8x64x512_S1x64x512_3_0_0) (fun _ => rfl)).squeeze S64x512 squeezes_S1x64x512_S64x512) = slot8 rydM 3 := rfl
theorem slot_ryd_4 : ((rydM.slice (Rect.unit (s := S8x64x512) ![4, 0, 0] S1x64x512.size inb_S8x64x512_S1x64x512_4_0_0) (fun _ => rfl)).squeeze S64x512 squeezes_S1x64x512_S64x512) = slot8 rydM 4 := rfl
theorem slot_ryd_5 : ((rydM.slice (Rect.unit (s := S8x64x512) ![5, 0, 0] S1x64x512.size inb_S8x64x512_S1x64x512_5_0_0) (fun _ => rfl)).squeeze S64x512 squeezes_S1x64x512_S64x512) = slot8 rydM 5 := rfl
theorem slot_ryd_6 : ((rydM.slice (Rect.unit (s := S8x64x512) ![6, 0, 0] S1x64x512.size inb_S8x64x512_S1x64x512_6_0_0) (fun _ => rfl)).squeeze S64x512 squeezes_S1x64x512_S64x512) = slot8 rydM 6 := rfl
theorem slot_ryd_7 : ((rydM.slice (Rect.unit (s := S8x64x512) ![7, 0, 0] S1x64x512.size inb_S8x64x512_S1x64x512_7_0_0) (fun _ => rfl)).squeeze S64x512 squeezes_S1x64x512_S64x512) = slot8 rydM 7 := rfl
theorem slot_rzd_0 : ((rzdM.slice (Rect.unit (s := S8x64x512) ![0, 0, 0] S1x64x512.size inb_S8x64x512_S1x64x512_0_0_0) (fun _ => rfl)).squeeze S64x512 squeezes_S1x64x512_S64x512) = slot8 rzdM 0 := rfl
theorem slot_rzd_1 : ((rzdM.slice (Rect.unit (s := S8x64x512) ![1, 0, 0] S1x64x512.size inb_S8x64x512_S1x64x512_1_0_0) (fun _ => rfl)).squeeze S64x512 squeezes_S1x64x512_S64x512) = slot8 rzdM 1 := rfl
theorem slot_rzd_2 : ((rzdM.slice (Rect.unit (s := S8x64x512) ![2, 0, 0] S1x64x512.size inb_S8x64x512_S1x64x512_2_0_0) (fun _ => rfl)).squeeze S64x512 squeezes_S1x64x512_S64x512) = slot8 rzdM 2 := rfl
theorem slot_rzd_3 : ((rzdM.slice (Rect.unit (s := S8x64x512) ![3, 0, 0] S1x64x512.size inb_S8x64x512_S1x64x512_3_0_0) (fun _ => rfl)).squeeze S64x512 squeezes_S1x64x512_S64x512) = slot8 rzdM 3 := rfl
theorem slot_rzd_4 : ((rzdM.slice (Rect.unit (s := S8x64x512) ![4, 0, 0] S1x64x512.size inb_S8x64x512_S1x64x512_4_0_0) (fun _ => rfl)).squeeze S64x512 squeezes_S1x64x512_S64x512) = slot8 rzdM 4 := rfl
theorem slot_rzd_5 : ((rzdM.slice (Rect.unit (s := S8x64x512) ![5, 0, 0] S1x64x512.size inb_S8x64x512_S1x64x512_5_0_0) (fun _ => rfl)).squeeze S64x512 squeezes_S1x64x512_S64x512) = slot8 rzdM 5 := rfl
theorem slot_rzd_6 : ((rzdM.slice (Rect.unit (s := S8x64x512) ![6, 0, 0] S1x64x512.size inb_S8x64x512_S1x64x512_6_0_0) (fun _ => rfl)).squeeze S64x512 squeezes_S1x64x512_S64x512) = slot8 rzdM 6 := rfl
theorem slot_rzd_7 : ((rzdM.slice (Rect.unit (s := S8x64x512) ![7, 0, 0] S1x64x512.size inb_S8x64x512_S1x64x512_7_0_0) (fun _ => rfl)).squeeze S64x512 squeezes_S1x64x512_S64x512) = slot8 rzdM 7 := rfl
theorem slot_sx2_0 : ((sx2M.slice (Rect.unit (s := S2x64x512) ![0, 0, 0] S1x64x512.size inb_S2x64x512_S1x64x512_0_0_0) (fun _ => rfl)).squeeze S64x512 squeezes_S1x64x512_S64x512) = slot2 sx2M 0 := rfl
theorem slot_sx2_1 : ((sx2M.slice (Rect.unit (s := S2x64x512) ![1, 0, 0] S1x64x512.size inb_S2x64x512_S1x64x512_1_0_0) (fun _ => rfl)).squeeze S64x512 squeezes_S1x64x512_S64x512) = slot2 sx2M 1 := rfl
theorem slot_rx2_0 : ((rx2M.slice (Rect.unit (s := S2x64x512) ![0, 0, 0] S1x64x512.size inb_S2x64x512_S1x64x512_0_0_0) (fun _ => rfl)).squeeze S64x512 squeezes_S1x64x512_S64x512) = slot2 rx2M 0 := rfl
theorem slot_rx2_1 : ((rx2M.slice (Rect.unit (s := S2x64x512) ![1, 0, 0] S1x64x512.size inb_S2x64x512_S1x64x512_1_0_0) (fun _ => rfl)).squeeze S64x512 squeezes_S1x64x512_S64x512) = slot2 rx2M 1 := rfl
theorem slot_ryr_0 : ((ryrM.slice (Rect.unit (s := S3x64x512) ![0, 0, 0] S1x64x512.size inb_S3x64x512_S1x64x512_0_0_0) (fun _ => rfl)).squeeze S64x512 squeezes_S1x64x512_S64x512) = slot3 ryrM 0 := rfl
theorem slot_ryr_1 : ((ryrM.slice (Rect.unit (s := S3x64x512) ![1, 0, 0] S1x64x512.size inb_S3x64x512_S1x64x512_1_0_0) (fun _ => rfl)).squeeze S64x512 squeezes_S1x64x512_S64x512) = slot3 ryrM 1 := rfl
theorem slot_ryr_2 : ((ryrM.slice (Rect.unit (s := S3x64x512) ![2, 0, 0] S1x64x512.size inb_S3x64x512_S1x64x512_2_0_0) (fun _ => rfl)).squeeze S64x512 squeezes_S1x64x512_S64x512) = slot3 ryrM 2 := rfl
theorem slot_rzr_0 : ((rzrM.slice (Rect.unit (s := S3x64x512) ![0, 0, 0] S1x64x512.size inb_S3x64x512_S1x64x512_0_0_0) (fun _ => rfl)).squeeze S64x512 squeezes_S1x64x512_S64x512) = slot3 rzrM 0 := rfl
theorem slot_rzr_1 : ((rzrM.slice (Rect.unit (s := S3x64x512) ![1, 0, 0] S1x64x512.size inb_S3x64x512_S1x64x512_1_0_0) (fun _ => rfl)).squeeze S64x512 squeezes_S1x64x512_S64x512) = slot3 rzrM 1 := rfl
theorem slot_rzr_2 : ((rzrM.slice (Rect.unit (s := S3x64x512) ![2, 0, 0] S1x64x512.size inb_S3x64x512_S1x64x512_2_0_0) (fun _ => rfl)).squeeze S64x512 squeezes_S1x64x512_S64x512) = slot3 rzrM 2 := rfl

end Cert.Kernel.RS

end
-- ==== Proof.K.Close.lean ====
import proofs.«901033_g7700000000001034_dist_rs_v7x_xyz2x2x4_x_m2048_n512_bf16_1_alg».proof.Proof.K.Proto
import proofs.«901033_g7700000000001034_dist_rs_v7x_xyz2x2x4_x_m2048_n512_bf16_1_alg».proof.Proof.K.Tables
import proofs.«901033_g7700000000001034_dist_rs_v7x_xyz2x2x4_x_m2048_n512_bf16_1_alg».proof.Proof.K.Credit
import proofs.«901033_g7700000000001034_dist_rs_v7x_xyz2x2x4_x_m2048_n512_bf16_1_alg».proof.Proof.K.Slots
import proofs.«901033_g7700000000001034_dist_rs_v7x_xyz2x2x4_x_m2048_n512_bf16_1_alg».proof.Proof.K.Steps

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Closing the device's own DMA cells

After its one round a DMA cell has no further duty; its owner, standing at round 1 with nothing
taken, closes it and is left with the counter at zero. -/

theorem close_dma (K : GSem nD τ sig → ℕ) (c : Dev nD) (s : DmaSem sig) (hs : 2 ≤ s.val) :
    iprop(records m K ∗ atPos ER (dcell c s) (0 + 1) ∅ 0) ⊢ (|={Set.univ}=> semVal (dcell c s) 0 : sProp 𝕄) :=
  (sep_mono_left (rec_inv m K (dcell_mem c s hs))).trans
    (Rounds.cell_close ER (sched m) (Set.mem_univ (K (dcell c s))) (fun h => h) (R := 0 + 1) (duties_later m (dcell c s)))

/-- One array of semaphores, laid from number `b ≥ 2`. -/
theorem close_fam (K : GSem nD τ sig → ℕ) (c : Dev nD) (b n : ℕ) (h : b + n ≤ 66) (hb : 2 ≤ b) :
    iprop(records m K ∗ bigSep Finset.univ fun k : Fin n => atPos ER (dcell c (dsem b n h k)) (0 + 1) ∅ 0)
      ⊢ (|={Set.univ}=> bigSep Finset.univ fun k : Fin n => semVal (dcell c (dsem b n h k)) 0 : sProp 𝕄) :=
  (bigSep_with_persistent fun k _ => close_dma m K c (dsem b n h k) (Nat.le_trans hb (Nat.le_add_right b k.val))).trans
    (bigSep_fupd _ _)

/-! ## The 64 own semaphores, array by array -/

omit [FloatOps F] in
theorem bigSep_fin_add {a b : ℕ} (Φ : Fin (a + b) → sProp 𝕄) :
    bigSep Finset.univ Φ
      = iprop((bigSep Finset.univ fun i : Fin a => Φ (Fin.castAdd b i)) ∗ bigSep Finset.univ fun j : Fin b => Φ (Fin.natAdd a j)) := by
  rw [bigSep_univ_equiv finSumFinEquiv Φ, bigSep_univ_sum]; rfl

omit [FloatOps F] in
/-- The first `n` of the semaphores from number `o + 2` on are the array laid from `o + 2`. -/
theorem peel (Φ : DmaSem sig → sProp 𝕄) (o n r : ℕ) (h : o + 2 + (n + r) ≤ 66) :
    (bigSep Finset.univ fun j : Fin (n + r) => Φ ⟨o + 2 + j.val, (show o + 2 + j.val < 66 from by have := j.isLt; omega)⟩)
      = iprop((bigSep Finset.univ fun k : Fin n => Φ (dsem (o + 2) n (by omega) k))
          ∗ bigSep Finset.univ fun j : Fin r => Φ ⟨o + n + 2 + j.val, (show o + n + 2 + j.val < 66 from by have := j.isLt; omega)⟩) := by
  rw [bigSep_fin_add]
  congr 1
  exact bigSep_congr fun j _ => congrArg Φ (Fin.ext (show o + 2 + (n + j.val) = o + n + 2 + j.val from by omega))

omit [FloatOps F] in
/-- The semaphores 2 … 65 are the twelve arrays, in the order they are laid. -/
theorem regroup (Φ : DmaSem sig → sProp 𝕄) :
    (bigSep Finset.univ fun j : Fin 64 => Φ ⟨j.val + 2, (show j.val + 2 < 66 from by have := j.isLt; omega)⟩)
      = iprop((bigSep Finset.univ fun k : Fin 8 => Φ (sxS k))
          ∗ (bigSep Finset.univ fun k : Fin 8 => Φ (rxS k))
          ∗ (bigSep Finset.univ fun k : Fin 2 => Φ (sx2S k))
          ∗ (bigSep Finset.univ fun k : Fin 2 => Φ (rx2S k))
          ∗ (bigSep Finset.univ fun k : Fin 8 => Φ (sydS k))
          ∗ (bigSep Finset.univ fun k : Fin 8 => Φ (rydS k))
          ∗ (bigSep Finset.univ fun k : Fin 8 => Φ (szdS k))
          ∗ (bigSep Finset.univ fun k : Fin 8 => Φ (rzdS k))
          ∗ (bigSep Finset.univ fun k : Fin 3 => Φ (syrS k))
          ∗ (bigSep Finset.univ fun k : Fin 3 => Φ (ryrS k))
          ∗ (bigSep Finset.univ fun k : Fin 3 => Φ (szrS k))
          ∗ (bigSep Finset.univ fun k : Fin 3 => Φ (rzrS k))) := by
  have e0 : (bigSep Finset.univ fun j : Fin 64 => Φ ⟨j.val + 2, (show j.val + 2 < 66 from by have := j.isLt; omega)⟩)
      = bigSep Finset.univ fun j : Fin (8 + 56) => Φ ⟨0 + 2 + j.val, (show 0 + 2 + j.val < 66 from by have := j.isLt; omega)⟩ :=
    bigSep_congr fun j _ => congrArg Φ (Fin.ext (show j.val + 2 = 0 + 2 + j.val from by omega))
  rw [e0, peel Φ 0 8 56 (by decide),
    peel Φ 8 8 48 (by decide),
    peel Φ 16 2 46 (by decide),
    peel Φ 18 2 44 (by decide),
    peel Φ 20 8 36 (by decide),
    peel Φ 28 8 28 (by decide),
    peel Φ 36 8 20 (by decide),
    peel Φ 44 8 12 (by decide),
    peel Φ 52 3 9 (by decide),
    peel Φ 55 3 6 (by decide),
    peel Φ 58 3 3 (by decide)]
  rfl

/-- Device `c`'s position at round 1 of each of its 64 DMA cells. -/
def positions1 (c : Dev nD) : sProp 𝕄 :=
  iprop((bigSep Finset.univ fun k : Fin 8 => atPos ER (dcell c (sxS k)) (0 + 1) ∅ 0)
    ∗ (bigSep Finset.univ fun k : Fin 8 => atPos ER (dcell c (rxS k)) (0 + 1) ∅ 0)
    ∗ (bigSep Finset.univ fun k : Fin 2 => atPos ER (dcell c (sx2S k)) (0 + 1) ∅ 0)
    ∗ (bigSep Finset.univ fun k : Fin 2 => atPos ER (dcell c (rx2S k)) (0 + 1) ∅ 0)
    ∗ (bigSep Finset.univ fun k : Fin 8 => atPos ER (dcell c (sydS k)) (0 + 1) ∅ 0)
    ∗ (bigSep Finset.univ fun k : Fin 8 => atPos ER (dcell c (rydS k)) (0 + 1) ∅ 0)
    ∗ (bigSep Finset.univ fun k : Fin 8 => atPos ER (dcell c (szdS k)) (0 + 1) ∅ 0)
    ∗ (bigSep Finset.univ fun k : Fin 8 => atPos ER (dcell c (rzdS k)) (0 + 1) ∅ 0)
    ∗ (bigSep Finset.univ fun k : Fin 3 => atPos ER (dcell c (syrS k)) (0 + 1) ∅ 0)
    ∗ (bigSep Finset.univ fun k : Fin 3 => atPos ER (dcell c (ryrS k)) (0 + 1) ∅ 0)
    ∗ (bigSep Finset.univ fun k : Fin 3 => atPos ER (dcell c (szrS k)) (0 + 1) ∅ 0)
    ∗ (bigSep Finset.univ fun k : Fin 3 => atPos ER (dcell c (rzrS k)) (0 + 1) ∅ 0))

theorem close_all (K : GSem nD τ sig → ℕ) (c : Dev nD) :
    iprop(records m K ∗ positions1 (F := F) c)
      ⊢ (|={Set.univ}=> bigSep Finset.univ fun j : Fin 64 => semVal ((c : Thread nD τ), osem j) 0 : sProp 𝕄) := by
  have e := regroup (F := F) (fun s => semVal (dcell c s) 0)
  refine BIBase.Entails.trans ?_ (fupd_mono (BIBase.Entails.of_eq e.symm))
  unfold positions1
  iintro ⟨#HR, H0, H1, H2, H3, H4, H5, H6, H7, H8, H9, H10, H11⟩
  imod (close_fam m K c 2 8 (by decide) (by decide)) $$ [H0] with H0
  · isplitr; · iexact HR
    iexact H0
  imod (close_fam m K c 10 8 (by decide) (by decide)) $$ [H1] with H1
  · isplitr; · iexact HR
    iexact H1
  imod (close_fam m K c 18 2 (by decide) (by decide)) $$ [H2] with H2
  · isplitr; · iexact HR
    iexact H2
  imod (close_fam m K c 20 2 (by decide) (by decide)) $$ [H3] with H3
  · isplitr; · iexact HR
    iexact H3
  imod (close_fam m K c 22 8 (by decide) (by decide)) $$ [H4] with H4
  · isplitr; · iexact HR
    iexact H4
  imod (close_fam m K c 30 8 (by decide) (by decide)) $$ [H5] with H5
  · isplitr; · iexact HR
    iexact H5
  imod (close_fam m K c 38 8 (by decide) (by decide)) $$ [H6] with H6
  · isplitr; · iexact HR
    iexact H6
  imod (close_fam m K c 46 8 (by decide) (by decide)) $$ [H7] with H7
  · isplitr; · iexact HR
    iexact H7
  imod (close_fam m K c 54 3 (by decide) (by decide)) $$ [H8] with H8
  · isplitr; · iexact HR
    iexact H8
  imod (close_fam m K c 57 3 (by decide) (by decide)) $$ [H9] with H9
  · isplitr; · iexact HR
    iexact H9
  imod (close_fam m K c 60 3 (by decide) (by decide)) $$ [H10] with H10
  · isplitr; · iexact HR
    iexact H10
  imod (close_fam m K c 63 3 (by decide) (by decide)) $$ [H11] with H11
  · isplitr; · iexact HR
    iexact H11
  imodintro
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The scratch buffers whole again

A buffer all of whose chunks are held in full, at the contents of one function, is held whole;
a chunk lent in two or three shares is first joined. -/

theorem whole8 (c : Dev nD) (M : Memref sig .tc .vmem S8x64x512 .bf16) (hM : M.IsWhole) (f : Buf (Elt F) (M.view.loc (c : Thread nD τ))) :
    (bigSep Finset.univ fun k : Fin 8 => ((slot8 M k).view.loc (c : Thread nD τ) ↦[(slot8 M k).view.set]{fullShare} f) : sProp 𝕄)
      ⊢ anyBuf c M.view.ref :=
  (split8 c M hM fullShare f).2.trans (by unfold anyBuf; iintro H; iexists f; iexact H)
theorem whole2 (c : Dev nD) (M : Memref sig .tc .vmem S2x64x512 .bf16) (hM : M.IsWhole) (f : Buf (Elt F) (M.view.loc (c : Thread nD τ))) :
    (bigSep Finset.univ fun k : Fin 2 => ((slot2 M k).view.loc (c : Thread nD τ) ↦[(slot2 M k).view.set]{fullShare} f) : sProp 𝕄)
      ⊢ anyBuf c M.view.ref :=
  (split2 c M hM fullShare f).2.trans (by unfold anyBuf; iintro H; iexists f; iexact H)
theorem whole3 (c : Dev nD) (M : Memref sig .tc .vmem S3x64x512 .bf16) (hM : M.IsWhole) (f : Buf (Elt F) (M.view.loc (c : Thread nD τ))) :
    (bigSep Finset.univ fun k : Fin 3 => ((slot3 M k).view.loc (c : Thread nD τ) ↦[(slot3 M k).view.set]{fullShare} f) : sProp 𝕄)
      ⊢ anyBuf c M.view.ref :=
  (split3 c M hM fullShare f).2.trans (by unfold anyBuf; iintro H; iexists f; iexact H)

theorem sx_whole (c : Dev nD) : (bigSep Finset.univ fun k : Fin 8 => sxPts m c k fullShare) ⊢ (anyBuf c cc0_scratch0 : sProp 𝕄) :=
  whole8 c sxM (Memref.isWhole_whole _) (SX m c)
theorem sx2_whole (c : Dev nD) : (bigSep Finset.univ fun k : Fin 2 => sx2Pts m c k fullShare) ⊢ (anyBuf c cc0_scratch1 : sProp 𝕄) :=
  whole2 c sx2M (Memref.isWhole_whole _) (SX2 m c)
theorem rx2_whole (c : Dev nD) : (bigSep Finset.univ fun k : Fin 2 => rx2Pts m c k fullShare) ⊢ (anyBuf c cc0_scratch3 : sProp 𝕄) :=
  whole2 c rx2M (Memref.isWhole_whole _) (RX2 m c)
theorem ryr_whole (c : Dev nD) : (bigSep Finset.univ fun k : Fin 3 => ryrPts m c k fullShare) ⊢ (anyBuf c cc0_scratch6 : sProp 𝕄) :=
  whole3 c ryrM (Memref.isWhole_whole _) (RYR m c)
theorem rzr_whole (c : Dev nD) : (bigSep Finset.univ fun k : Fin 3 => rzrPts m c k fullShare) ⊢ (anyBuf c cc0_scratch7 : sProp 𝕄) :=
  whole3 c rzrM (Memref.isWhole_whole _) (RZR m c)
theorem rx_all (c : Dev nD) : (bigSep Finset.univ fun k : Fin 8 => rxPts m c k fullShare) ⊢ (anyBuf c cc0_scratch2 : sProp 𝕄) :=
  whole8 c rxM (Memref.isWhole_whole _) (RX m c)
theorem ryd_all (c : Dev nD) : (bigSep Finset.univ fun k : Fin 8 => rydPts m c k fullShare) ⊢ (anyBuf c cc0_scratch4 : sProp 𝕄) :=
  whole8 c rydM (Memref.isWhole_whole _) (RYD m c)
theorem rzd_all (c : Dev nD) : (bigSep Finset.univ fun k : Fin 8 => rzdPts m c k fullShare) ⊢ (anyBuf c cc0_scratch5 : sProp 𝕄) :=
  whole8 c rzdM (Memref.isWhole_whole _) (RZD m c)

/-- A chunk lent in three shares, joined. -/
theorem rx_join (c : Dev nD) (k : Fin 8) :
    iprop(rxPts m c k fullShare.left ∗ rxPts m c k fullShare.right.left ∗ rxPts m c k fullShare.right.right) ⊢ rxPts m c k fullShare :=
  (share3 ((slot8 rxM k).view.loc (c : Thread nD τ)) (slot8 rxM k).view.set (RX m c)).2
/-- A chunk lent in two shares, joined. -/
theorem ryd_join (c : Dev nD) (k : Fin 8) :
    iprop(rydPts m c k fullShare.left ∗ rydPts m c k fullShare.right) ⊢ rydPts m c k fullShare :=
  (share2 ((slot8 rydM k).view.loc (c : Thread nD τ)) (slot8 rydM k).view.set (RYD m c)).2
theorem rzd_join (c : Dev nD) (k : Fin 8) :
    iprop(rzdPts m c k fullShare.left ∗ rzdPts m c k fullShare.right) ⊢ rzdPts m c k fullShare :=
  (share2 ((slot8 rzdM k).view.loc (c : Thread nD τ)) (slot8 rzdM k).view.set (RZD m c)).2

theorem rx_whole (c : Dev nD) :
    (bigSep Finset.univ fun k : Fin 8 =>
        iprop(rxPts m c k fullShare.left ∗ rxPts m c k fullShare.right.left ∗ rxPts m c k fullShare.right.right))
      ⊢ (anyBuf c cc0_scratch2 : sProp 𝕄) :=
  (bigSep_mono fun k _ => rx_join m c k).trans (rx_all m c)

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The z-forwarded buffer: its chunks 0, 1, 2 were lent in two shares (one to the relay to the y peer). -/
theorem rzd_whole (c : Dev nD) :
    iprop(rzdPts m c 0 fullShare.left ∗ rzdPts m c 0 fullShare.right ∗ rzdPts m c 1 fullShare.left ∗ rzdPts m c 1 fullShare.right
        ∗ rzdPts m c 2 fullShare.left ∗ rzdPts m c 2 fullShare.right
        ∗ rzdPts m c 3 fullShare ∗ rzdPts m c 4 fullShare ∗ rzdPts m c 5 fullShare ∗ rzdPts m c 6 fullShare ∗ rzdPts m c 7 fullShare)
      ⊢ (anyBuf c cc0_scratch5 : sProp 𝕄) := by
  refine BIBase.Entails.trans ?_ (rzd_all m c)
  rw [bigSep_fin8]
  iintro ⟨L0, R0, L1, R1, L2, R2, P3, P4, P5, P6, P7⟩
  isplitl [L0 R0]; · iapply (rzd_join m c 0); isplitl [L0]; · iexact L0
                     iexact R0
  isplitl [L1 R1]; · iapply (rzd_join m c 1); isplitl [L1]; · iexact L1
                     iexact R1
  isplitl [L2 R2]; · iapply (rzd_join m c 2); isplitl [L2]; · iexact L2
                     iexact R2
  isplitl [P3]; · iexact P3
  isplitl [P4]; · iexact P4
  isplitl [P5]; · iexact P5
  isplitl [P6]; · iexact P6
  iexact P7

/-- The y-forwarded buffer: its chunks 3, 4, 5 were lent in two shares (one to the relay to the z peer). -/
theorem ryd_whole (c : Dev nD) :
    iprop(rydPts m c 0 fullShare ∗ rydPts m c 1 fullShare ∗ rydPts m c 2 fullShare
        ∗ rydPts m c 3 fullShare.left ∗ rydPts m c 3 fullShare.right ∗ rydPts m c 4 fullShare.left ∗ rydPts m c 4 fullShare.right
        ∗ rydPts m c 5 fullShare.left ∗ rydPts m c 5 fullShare.right
        ∗ rydPts m c 6 fullShare ∗ rydPts m c 7 fullShare)
      ⊢ (anyBuf c cc0_scratch4 : sProp 𝕄) := by
  refine BIBase.Entails.trans ?_ (ryd_all m c)
  rw [bigSep_fin8]
  iintro ⟨P0, P1, P2, L3, R3, L4, R4, L5, R5, P6, P7⟩
  isplitl [P0]; · iexact P0
  isplitl [P1]; · iexact P1
  isplitl [P2]; · iexact P2
  isplitl [L3 R3]; · iapply (ryd_join m c 3); isplitl [L3]; · iexact L3
                     iexact R3
  isplitl [L4 R4]; · iapply (ryd_join m c 4); isplitl [L4]; · iexact L4
                     iexact R4
  isplitl [L5 R5]; · iapply (ryd_join m c 5); isplitl [L5]; · iexact L5
                     iexact R5
  isplitl [P6]; · iexact P6
  iexact P7

end Cert.Kernel.RS

end
-- ==== Proof.K.End.lean ====
import proofs.«901033_g7700000000001034_dist_rs_v7x_xyz2x2x4_x_m2048_n512_bf16_1_alg».proof.Proof.K.Proto
import proofs.«901033_g7700000000001034_dist_rs_v7x_xyz2x2x4_x_m2048_n512_bf16_1_alg».proof.Proof.K.Tables
import proofs.«901033_g7700000000001034_dist_rs_v7x_xyz2x2x4_x_m2048_n512_bf16_1_alg».proof.Proof.K.Credit
import proofs.«901033_g7700000000001034_dist_rs_v7x_xyz2x2x4_x_m2048_n512_bf16_1_alg».proof.Proof.K.Slots
import proofs.«901033_g7700000000001034_dist_rs_v7x_xyz2x2x4_x_m2048_n512_bf16_1_alg».proof.Proof.K.Steps
import proofs.«901033_g7700000000001034_dist_rs_v7x_xyz2x2x4_x_m2048_n512_bf16_1_alg».proof.Proof.K.Close

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The end of the kernel body

Every chunk of every scratch buffer is back with the device — a chunk that was lent to forwarding
copies, in the shares it was lent in — and each of the device's 64 DMA cells stands at its second
round with nothing taken. The chunks of each buffer join into the whole buffer and each cell is
closed, its counter at zero: what the body owes at its end. -/

omit [FloatOps F] in
theorem bigSep_fin2 (Φ : Fin 2 → sProp 𝕄) : bigSep Finset.univ Φ = iprop(Φ 0 ∗ Φ 1) :=
  bigSep_univ_eq_bigSepL [0, 1] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- Separating conjunction is associative, as an equation of assertions. -/
theorem sep_assoc_eq (P Q R : sProp 𝕄) : iprop((P ∗ Q) ∗ R) = iprop(P ∗ Q ∗ R) :=
  Idealize.SL.BI.Entails.antisymm (Laws.sep_assoc (P := P) (Q := Q) (R := R)).1 (Laws.sep_assoc (P := P) (Q := Q) (R := R)).2

/-- The chunks of the eight scratch buffers, buffer by buffer, as they come back. -/
def held (c : Dev nD) : sProp 𝕄 :=
  iprop((bigSep Finset.univ fun k : Fin 8 => sxPts m c k fullShare)
    ∗ (bigSep Finset.univ fun k : Fin 2 => sx2Pts m c k fullShare)
    ∗ (bigSep Finset.univ fun k : Fin 8 =>
        iprop(rxPts m c k fullShare.left ∗ rxPts m c k fullShare.right.left ∗ rxPts m c k fullShare.right.right))
    ∗ (bigSep Finset.univ fun k : Fin 2 => rx2Pts m c k fullShare)
    ∗ (rydPts m c 0 fullShare ∗ rydPts m c 1 fullShare ∗ rydPts m c 2 fullShare ∗ rydPts m c 3 fullShare.left ∗ rydPts m c 3 fullShare.right ∗ rydPts m c 4 fullShare.left ∗ rydPts m c 4 fullShare.right ∗ rydPts m c 5 fullShare.left ∗ rydPts m c 5 fullShare.right ∗ rydPts m c 6 fullShare ∗ rydPts m c 7 fullShare)
    ∗ (rzdPts m c 0 fullShare.left ∗ rzdPts m c 0 fullShare.right ∗ rzdPts m c 1 fullShare.left ∗ rzdPts m c 1 fullShare.right ∗ rzdPts m c 2 fullShare.left ∗ rzdPts m c 2 fullShare.right ∗ rzdPts m c 3 fullShare ∗ rzdPts m c 4 fullShare ∗ rzdPts m c 5 fullShare ∗ rzdPts m c 6 fullShare ∗ rzdPts m c 7 fullShare)
    ∗ (bigSep Finset.univ fun k : Fin 3 => ryrPts m c k fullShare)
    ∗ (bigSep Finset.univ fun k : Fin 3 => rzrPts m c k fullShare))

/-- Buffer by buffer, the chunks are the whole buffer. -/
theorem held_scratch (c : Dev nD) : held m c ⊢ (scratch c : sProp 𝕄) := by
  unfold held scratch
  exact BIClass.sep_mono (sx_whole m c) (BIClass.sep_mono (sx2_whole m c) (BIClass.sep_mono (rx_whole m c) (BIClass.sep_mono (rx2_whole m c)
    (BIClass.sep_mono (ryd_whole m c) (BIClass.sep_mono (rzd_whole m c) (BIClass.sep_mono (ryr_whole m c) (rzr_whole m c)))))))

theorem endgame_grouped (K : GSem nD τ sig → ℕ) (c : Dev nD) :
    iprop(records m K ∗ held m c ∗ positions1 (F := F) c) ⊢ (|={Set.univ}=> Φ₁ (F := F) c : sProp 𝕄) := by
  unfold Φ₁
  iintro ⟨#HR, HH, HP⟩
  imod (close_all m K c) $$ [HP] with Hs
  · isplitr; · iexact HR
    iexact HP
  imodintro
  isplitl [HH]
  · iapply (held_scratch m c); iexact HH
  iexact Hs

set_option simprocs false in
theorem endgame (K : GSem nD τ sig → ℕ) (c : Dev nD) :
    iprop(records m K
      ∗ sxPts m c 0 fullShare ∗ sxPts m c 1 fullShare ∗ sxPts m c 2 fullShare ∗ sxPts m c 3 fullShare
      ∗ sxPts m c 4 fullShare ∗ sxPts m c 5 fullShare ∗ sxPts m c 6 fullShare ∗ sxPts m c 7 fullShare
      ∗ sx2Pts m c 0 fullShare ∗ sx2Pts m c 1 fullShare ∗ rxPts m c 0 fullShare.left ∗ rxPts m c 0 fullShare.right.left
      ∗ rxPts m c 0 fullShare.right.right ∗ rxPts m c 1 fullShare.left ∗ rxPts m c 1 fullShare.right.left ∗ rxPts m c 1 fullShare.right.right
      ∗ rxPts m c 2 fullShare.left ∗ rxPts m c 2 fullShare.right.left ∗ rxPts m c 2 fullShare.right.right ∗ rxPts m c 3 fullShare.left
      ∗ rxPts m c 3 fullShare.right.left ∗ rxPts m c 3 fullShare.right.right ∗ rxPts m c 4 fullShare.left ∗ rxPts m c 4 fullShare.right.left
      ∗ rxPts m c 4 fullShare.right.right ∗ rxPts m c 5 fullShare.left ∗ rxPts m c 5 fullShare.right.left ∗ rxPts m c 5 fullShare.right.right
      ∗ rxPts m c 6 fullShare.left ∗ rxPts m c 6 fullShare.right.left ∗ rxPts m c 6 fullShare.right.right ∗ rxPts m c 7 fullShare.left
      ∗ rxPts m c 7 fullShare.right.left ∗ rxPts m c 7 fullShare.right.right ∗ rx2Pts m c 0 fullShare ∗ rx2Pts m c 1 fullShare
      ∗ rydPts m c 0 fullShare ∗ rydPts m c 1 fullShare ∗ rydPts m c 2 fullShare ∗ rydPts m c 3 fullShare.left
      ∗ rydPts m c 3 fullShare.right ∗ rydPts m c 4 fullShare.left ∗ rydPts m c 4 fullShare.right ∗ rydPts m c 5 fullShare.left
      ∗ rydPts m c 5 fullShare.right ∗ rydPts m c 6 fullShare ∗ rydPts m c 7 fullShare ∗ rzdPts m c 0 fullShare.left
      ∗ rzdPts m c 0 fullShare.right ∗ rzdPts m c 1 fullShare.left ∗ rzdPts m c 1 fullShare.right ∗ rzdPts m c 2 fullShare.left
      ∗ rzdPts m c 2 fullShare.right ∗ rzdPts m c 3 fullShare ∗ rzdPts m c 4 fullShare ∗ rzdPts m c 5 fullShare
      ∗ rzdPts m c 6 fullShare ∗ rzdPts m c 7 fullShare ∗ ryrPts m c 0 fullShare ∗ ryrPts m c 1 fullShare
      ∗ ryrPts m c 2 fullShare ∗ rzrPts m c 0 fullShare ∗ rzrPts m c 1 fullShare ∗ rzrPts m c 2 fullShare
      ∗ atPos ER (dcell c (sxS 0)) (0 + 1) ∅ 0 ∗ atPos ER (dcell c (sxS 1)) (0 + 1) ∅ 0 ∗ atPos ER (dcell c (sxS 2)) (0 + 1) ∅ 0
      ∗ atPos ER (dcell c (sxS 3)) (0 + 1) ∅ 0 ∗ atPos ER (dcell c (sxS 4)) (0 + 1) ∅ 0 ∗ atPos ER (dcell c (sxS 5)) (0 + 1) ∅ 0
      ∗ atPos ER (dcell c (sxS 6)) (0 + 1) ∅ 0 ∗ atPos ER (dcell c (sxS 7)) (0 + 1) ∅ 0 ∗ atPos ER (dcell c (rxS 0)) (0 + 1) ∅ 0
      ∗ atPos ER (dcell c (rxS 1)) (0 + 1) ∅ 0 ∗ atPos ER (dcell c (rxS 2)) (0 + 1) ∅ 0 ∗ atPos ER (dcell c (rxS 3)) (0 + 1) ∅ 0
      ∗ atPos ER (dcell c (rxS 4)) (0 + 1) ∅ 0 ∗ atPos ER (dcell c (rxS 5)) (0 + 1) ∅ 0 ∗ atPos ER (dcell c (rxS 6)) (0 + 1) ∅ 0
      ∗ atPos ER (dcell c (rxS 7)) (0 + 1) ∅ 0 ∗ atPos ER (dcell c (sx2S 0)) (0 + 1) ∅ 0 ∗ atPos ER (dcell c (sx2S 1)) (0 + 1) ∅ 0
      ∗ atPos ER (dcell c (rx2S 0)) (0 + 1) ∅ 0 ∗ atPos ER (dcell c (rx2S 1)) (0 + 1) ∅ 0 ∗ atPos ER (dcell c (sydS 0)) (0 + 1) ∅ 0
      ∗ atPos ER (dcell c (sydS 1)) (0 + 1) ∅ 0 ∗ atPos ER (dcell c (sydS 2)) (0 + 1) ∅ 0 ∗ atPos ER (dcell c (sydS 3)) (0 + 1) ∅ 0
      ∗ atPos ER (dcell c (sydS 4)) (0 + 1) ∅ 0 ∗ atPos ER (dcell c (sydS 5)) (0 + 1) ∅ 0 ∗ atPos ER (dcell c (sydS 6)) (0 + 1) ∅ 0
      ∗ atPos ER (dcell c (sydS 7)) (0 + 1) ∅ 0 ∗ atPos ER (dcell c (rydS 0)) (0 + 1) ∅ 0 ∗ atPos ER (dcell c (rydS 1)) (0 + 1) ∅ 0
      ∗ atPos ER (dcell c (rydS 2)) (0 + 1) ∅ 0 ∗ atPos ER (dcell c (rydS 3)) (0 + 1) ∅ 0 ∗ atPos ER (dcell c (rydS 4)) (0 + 1) ∅ 0
      ∗ atPos ER (dcell c (rydS 5)) (0 + 1) ∅ 0 ∗ atPos ER (dcell c (rydS 6)) (0 + 1) ∅ 0 ∗ atPos ER (dcell c (rydS 7)) (0 + 1) ∅ 0
      ∗ atPos ER (dcell c (szdS 0)) (0 + 1) ∅ 0 ∗ atPos ER (dcell c (szdS 1)) (0 + 1) ∅ 0 ∗ atPos ER (dcell c (szdS 2)) (0 + 1) ∅ 0
      ∗ atPos ER (dcell c (szdS 3)) (0 + 1) ∅ 0 ∗ atPos ER (dcell c (szdS 4)) (0 + 1) ∅ 0 ∗ atPos ER (dcell c (szdS 5)) (0 + 1) ∅ 0
      ∗ atPos ER (dcell c (szdS 6)) (0 + 1) ∅ 0 ∗ atPos ER (dcell c (szdS 7)) (0 + 1) ∅ 0 ∗ atPos ER (dcell c (rzdS 0)) (0 + 1) ∅ 0
      ∗ atPos ER (dcell c (rzdS 1)) (0 + 1) ∅ 0 ∗ atPos ER (dcell c (rzdS 2)) (0 + 1) ∅ 0 ∗ atPos ER (dcell c (rzdS 3)) (0 + 1) ∅ 0
      ∗ atPos ER (dcell c (rzdS 4)) (0 + 1) ∅ 0 ∗ atPos ER (dcell c (rzdS 5)) (0 + 1) ∅ 0 ∗ atPos ER (dcell c (rzdS 6)) (0 + 1) ∅ 0
      ∗ atPos ER (dcell c (rzdS 7)) (0 + 1) ∅ 0 ∗ atPos ER (dcell c (syrS 0)) (0 + 1) ∅ 0 ∗ atPos ER (dcell c (syrS 1)) (0 + 1) ∅ 0
      ∗ atPos ER (dcell c (syrS 2)) (0 + 1) ∅ 0 ∗ atPos ER (dcell c (ryrS 0)) (0 + 1) ∅ 0 ∗ atPos ER (dcell c (ryrS 1)) (0 + 1) ∅ 0
      ∗ atPos ER (dcell c (ryrS 2)) (0 + 1) ∅ 0 ∗ atPos ER (dcell c (szrS 0)) (0 + 1) ∅ 0 ∗ atPos ER (dcell c (szrS 1)) (0 + 1) ∅ 0
      ∗ atPos ER (dcell c (szrS 2)) (0 + 1) ∅ 0 ∗ atPos ER (dcell c (rzrS 0)) (0 + 1) ∅ 0 ∗ atPos ER (dcell c (rzrS 1)) (0 + 1) ∅ 0
      ∗ atPos ER (dcell c (rzrS 2)) (0 + 1) ∅ 0)
    ⊢ (|={Set.univ}=> Φ₁ (F := F) c : sProp 𝕄) := by
  refine BIBase.Entails.trans (BIBase.Entails.of_eq ?_) (endgame_grouped m K c)
  unfold held positions1
  simp only [bigSep_fin8, bigSep_fin2, bigSep_fin3, sep_assoc_eq]

end Cert.Kernel.RS

end
-- ==== Proof.K.Oblig.lean ====
import proofs.«901033_g7700000000001034_dist_rs_v7x_xyz2x2x4_x_m2048_n512_bf16_1_alg».proof.Proof.K.Proto
import proofs.«901033_g7700000000001034_dist_rs_v7x_xyz2x2x4_x_m2048_n512_bf16_1_alg».proof.Proof.K.Pays
import proofs.«901033_g7700000000001034_dist_rs_v7x_xyz2x2x4_x_m2048_n512_bf16_1_alg».proof.Proof.K.Local
import proofs.«901033_g7700000000001034_dist_rs_v7x_xyz2x2x4_x_m2048_n512_bf16_1_alg».proof.Proof.Gen.Kernel.Points
import proofs.«901033_g7700000000001034_dist_rs_v7x_xyz2x2x4_x_m2048_n512_bf16_1_alg».proof.Proof.Gen.Kernel.Launch

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body obligation from the body's proof

The pipeline has one grid point. At it the body is called on the two staging buffers and the eight scratch buffers, each
whole; the invariant before it is the device's starting ghost state, its credits, the levels and the scratch buffers at
some contents; the input staging buffer holds the device's block (it was fetched), the output one anything. The body's
proof, from exactly these taken apart, ends with the invariant after the point, nothing owed, the input buffer unchanged
and the output one at the result. -/

/-- The buffer under the memref M on device c, whole at contents f. -/
abbrev pt (c : Dev nD) {sp : Space} {S : Shape} {e : EltTy} (M : Memref sig .tc sp S e) (f : Bf (F := F) c M) : sProp 𝕄 :=
  M.view.loc (c : Thread nD τ) ↦{fullShare} f

omit [FloatOps F] in
/-- Holding a whole buffer at given contents: some contents, equal to the given ones. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device c, whole at contents X. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body at the one point. -/
def bodyPre' (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What the pipeline takes back from it. -/
def bodyPost (c : Dev nD) : sProp 𝕄 :=
  iprop(Φ₁ c ∗ (dats m ρ 0 c).owesAt () t0_0.succ ∗ stg c cc0_stg0_0 (xstg m c) ∗ stg c cc0_stg1_0 (outAt m c))

/-- The library's body obligation on device c, from the body's proof. -/
theorem body_obligation_of
    (hsound : ∀ (K : GSem nD τ sig → ℕ) (c : Dev nD) (fo : Bf (F := F) c oM) (f0 : Bf (F := F) c sxM) (f1 : Bf (F := F) c sx2M)
      (f2 : Bf (F := F) c rxM) (f3 : Bf (F := F) c rx2M) (f4 : Bf (F := F) c rydM) (f5 : Bf (F := F) c rzdM)
      (f6 : Bf (F := F) c ryrM) (f7 : Bf (F := F) c rzrM) (W : Waits sig Unit) (Q : PUnit → sProp 𝕄),
      iprop(records m K ∗ levAts L lv ∗ positions c ∗ payToks c ∗ creds c ∗ pt c xM (xstg m c) ∗ pt c oM fo
          ∗ pt c sxM f0 ∗ pt c sx2M f1 ∗ pt c rxM f2 ∗ pt c rx2M f3 ∗ pt c rydM f4 ∗ pt c rzdM f5 ∗ pt c ryrM f6 ∗ pt c rzrM f7
          ∗ owes (c : Thread nD τ) (owe ((pays c).drop 0)) W
          ∗ ((Φ₁ c ∗ (∃ W', owes (c : Thread nD τ) (owe ((pays c).drop 35)) W') ∗ pt c xM (xstg m c) ∗ pt c oM (outAt m c)) -∗ Q ⟨⟩))
        ⊢ wp frame (wpE (defs₀ (F := F)) Variants.none c none) Set.univ
            (cc0_body xM (Memref.isWhole_whole _) oM (Memref.isWhole_whole _) sxM (Memref.isWhole_whole _) sx2M (Memref.isWhole_whole _) rxM (Memref.isWhole_whole _) rx2M (Memref.isWhole_whole _)
              rydM (Memref.isWhole_whole _) rzdM (Memref.isWhole_whole _) ryrM (Memref.isWhole_whole _) rzrM (Memref.isWhole_whole _)
              cc0_scratch8 cc0_scratch9 cc0_scratch10 cc0_scratch11 cc0_scratch12 cc0_scratch13 cc0_scratch14 cc0_scratch15 cc0_scratch16 cc0_scratch17 cc0_scratch18 cc0_scratch19) Q)
    (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) Variants.none c none) Set.univ
    (cc0_body xM (Memref.isWhole_whole _) oM (Memref.isWhole_whole _) sxM (Memref.isWhole_whole _) sx2M (Memref.isWhole_whole _) rxM (Memref.isWhole_whole _) rx2M (Memref.isWhole_whole _)
      rydM (Memref.isWhole_whole _) rzdM (Memref.isWhole_whole _) ryrM (Memref.isWhole_whole _) rzrM (Memref.isWhole_whole _)
      cc0_scratch8 cc0_scratch9 cc0_scratch10 cc0_scratch11 cc0_scratch12 cc0_scratch13 cc0_scratch14 cc0_scratch15 cc0_scratch16 cc0_scratch17 cc0_scratch18 cc0_scratch19)
    (fun _ => bodyPost m ρ c)
  unfold bodyPre' Φ₀ start G' ghost scratch anyBuf
  iintro ⟨⟨⟨⟨%K, HR, Hpos, Htok⟩, Hcr, Hlev⟩, ⟨%f0, H0⟩, ⟨%f1, H1⟩, ⟨%f2, H2⟩, ⟨%f3, H3⟩, ⟨%f4, H4⟩, ⟨%f5, H5⟩, ⟨%f6, H6⟩, ⟨%f7, H7⟩⟩,
    Ho, ⟨%d0, %g0, %hg0, Hx⟩, ⟨%d1, %g1, %hg1, Hout⟩⟩
  have hx : g0 = xstg m c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl, O₀_drop]
  iapply (hsound K c g1 f0 f1 f2 f3 f4 f5 f6 f7 W (fun _ => bodyPost m ρ c))
  isplitl [HR]; · iexact HR
  isplitl [Hlev]; · iexact Hlev
  isplitl [Hpos]; · iexact Hpos
  isplitl [Htok]; · iexact Htok
  isplitl [Hcr]; · iexact Hcr
  isplitl [Hx]; · iexact Hx
  isplitl [Hout]; · iexact Hout
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HO]; · iexact HO
  iintro ⟨HΦ, ⟨%W', HO'⟩, Hx', Ho'⟩
  unfold bodyPost Dat.owesAt Pipeline.owesWithin
  rw [show (dats m ρ 0 c).owed t0_0.succ = 0 from rfl, drop_35, owe_nil]
  isplitl [HΦ]; · iexact HΦ
  isplitl [HO']
  · iexists W'
    isplitr; · ipureintro; exact fun _ _ => Or.inl trivial
    iexact HO'
  isplitl [Hx']
  · iexists _; isplitr; · (ipureintro; rfl)
    iexact Hx'
  iexists _; isplitr; · (ipureintro; rfl)
  iexact Ho'

end Cert.Kernel.RS

end
-- ==== Proof.K.OutW.lean ====
import proofs.«901033_g7700000000001034_dist_rs_v7x_xyz2x2x4_x_m2048_n512_bf16_1_alg».proof.Proof.K.Proto
import proofs.«901033_g7700000000001034_dist_rs_v7x_xyz2x2x4_x_m2048_n512_bf16_1_alg».proof.Proof.K.Slots
import proofs.«901033_g7700000000001034_dist_rs_v7x_xyz2x2x4_x_m2048_n512_bf16_1_alg».proof.Proof.K.Local
import proofs.«901033_g7700000000001034_dist_rs_v7x_xyz2x2x4_x_m2048_n512_bf16_1_alg».proof.Proof.K.Mesh

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-! # The result block after the body's stores

The body stores 32 sums of 64 × 512 entries into the result block, one per chunk of 64 rows: each is a routed chunk plus
the chunk of the device's own block at the same rows. The 32 row ranges are the eight chunks of each of the four
quadrants of 512 rows, so they are pairwise disjoint and leave no row out, and the block ends with the contents that are
read off the routed buffers and the own block quadrant by quadrant, whatever it held at the start. -/

/-! ## One store into the result block

Each of the body's 32 stores writes a 64 × 512 sum — a routed chunk plus the own chunk — at 64 rows of the result block,
all 512 columns. -/

/-- The result block after one store: the sum of the routed chunk buf and the own chunk x at the rows from off. -/
def outStep (c : Dev nD) (f : (cc0_stg1_0 : Ref sig .tc).ty.Contents (Elt F)) (off : Fin 2 → ℕ)
    (inb : ∀ a, off a + S64x512.size a ≤ S2048x512.size a) (buf : Vec F S1x64x512 .bf16) (x : Vec F S1x64x512 .f32) :
    (cc0_stg1_0 : Ref sig .tc).ty.Contents (Elt F) :=
  ((oM : Memref sig .tc .vmem S2048x512 .bf16).access (Rect.unit (s := S2048x512) off S64x512.size inb)).write (Elt F) f
    (k0_pay13 buf x) Finset.univ

/-- Inside the stored rows the block holds the sum at the relative index, -/
theorem outStep_hit (c : Dev nD) (f : (cc0_stg1_0 : Ref sig .tc).ty.Contents (Elt F)) (off : Fin 2 → ℕ)
    (inb : ∀ a, off a + S64x512.size a ≤ S2048x512.size a) (buf : Vec F S1x64x512 .bf16) (x : Vec F S1x64x512 .f32)
    (i : S2048x512.Idx) (y : S64x512.Idx) (h0 : (i 0).val = off 0 + (y 0).val) (h1 : (i 1).val = off 1 + (y 1).val) :
    outStep c f off inb buf x i = k0_pay13 buf x y := by
  have h := View.write_emb_of_mem (v := (oM : Memref sig .tc .vmem S2048x512 .bf16).access (Rect.unit (s := S2048x512) off S64x512.size inb))
    (Val := Elt F) f (k0_pay13 buf x) (M := Finset.univ) (x := y) (Finset.mem_univ _)
  have e : ((oM : Memref sig .tc .vmem S2048x512 .bf16).access (Rect.unit (s := S2048x512) off S64x512.size inb)).emb y = i := by
    funext a
    refine Fin.ext ?_
    match a with
    | ⟨0, _⟩ => show off 0 + 1 * (y 0).val = (i 0).val; omega
    | ⟨1, _⟩ => show off 1 + 1 * (y 1).val = (i 1).val; omega
  rw [e] at h
  exact h

/-- and outside them what it held. -/
theorem outStep_miss (c : Dev nD) (f : (cc0_stg1_0 : Ref sig .tc).ty.Contents (Elt F)) (off : Fin 2 → ℕ)
    (inb : ∀ a, off a + S64x512.size a ≤ S2048x512.size a) (buf : Vec F S1x64x512 .bf16) (x : Vec F S1x64x512 .f32)
    (i : S2048x512.Idx) (h : (i 0).val < off 0 ∨ off 0 + 64 ≤ (i 0).val) :
    outStep c f off inb buf x i = f i := by
  refine View.write_of_not_mem (v := (oM : Memref sig .tc .vmem S2048x512 .bf16).access (Rect.unit (s := S2048x512) off S64x512.size inb))
    f _ Finset.univ ?_
  rw [View.setOn_univ]
  show i ∉ ((View.whole cc0_stg1_0).slice (Rect.unit (s := S2048x512) off S64x512.size inb)).set
  rw [View.set_slice_whole, Rect.mem_set_unit]
  intro hm
  have h0 := hm 0
  have e : S64x512.size 0 = 64 := rfl
  rw [e] at h0
  omega

/-! ## The four quadrants

The first rows of the four quadrants a device adds into are 0, 512, 1024 and 1536 in some order. -/

theorem rq_facts (c : Dev nD) :
    (rq3 c = 0 ∨ rq3 c = 512 ∨ rq3 c = 1024 ∨ rq3 c = 1536) ∧ (rq5 c = 0 ∨ rq5 c = 512 ∨ rq5 c = 1024 ∨ rq5 c = 1536)
      ∧ (rq7 c = 0 ∨ rq7 c = 512 ∨ rq7 c = 1024 ∨ rq7 c = 1536) ∧ (rq9 c = 0 ∨ rq9 c = 512 ∨ rq9 c = 1024 ∨ rq9 c = 1536)
      ∧ rq3 c ≠ rq5 c ∧ rq3 c ≠ rq7 c ∧ rq3 c ≠ rq9 c ∧ rq5 c ≠ rq7 c ∧ rq5 c ≠ rq9 c ∧ rq7 c ≠ rq9 c := by
  have h := rq_perm c
  have m3 : rq3 c ∈ ({rq3 c, rq5 c, rq7 c, rq9 c} : Finset ℕ) := by simp
  have m5 : rq5 c ∈ ({rq3 c, rq5 c, rq7 c, rq9 c} : Finset ℕ) := by simp
  have m7 : rq7 c ∈ ({rq3 c, rq5 c, rq7 c, rq9 c} : Finset ℕ) := by simp
  have m9 : rq9 c ∈ ({rq3 c, rq5 c, rq7 c, rq9 c} : Finset ℕ) := by simp
  have n0 : (0 : ℕ) ∈ ({0, 512, 1024, 1536} : Finset ℕ) := by simp
  have n1 : (512 : ℕ) ∈ ({0, 512, 1024, 1536} : Finset ℕ) := by simp
  have n2 : (1024 : ℕ) ∈ ({0, 512, 1024, 1536} : Finset ℕ) := by simp
  have n3 : (1536 : ℕ) ∈ ({0, 512, 1024, 1536} : Finset ℕ) := by simp
  rw [h] at m3 m5 m7 m9
  rw [← h] at n0 n1 n2 n3
  simp only [Finset.mem_insert, Finset.mem_singleton] at m3 m5 m7 m9 n0 n1 n2 n3
  omega

/-- Every row lies in one of the four quadrants. -/
theorem quad (c : Dev nD) (r : ℕ) (hr : r < 2048) :
    r / 512 * 512 = rq3 c ∨ r / 512 * 512 = rq5 c ∨ r / 512 * 512 = rq7 c ∨ r / 512 * 512 = rq9 c := by
  have hm : r / 512 * 512 ∈ ({rq3 c, rq5 c, rq7 c, rq9 c} : Finset ℕ) := by
    rw [rq_perm]
    simp only [Finset.mem_insert, Finset.mem_singleton]
    omega
  simpa only [Finset.mem_insert, Finset.mem_singleton] using hm

/-! ## The entry the final block has, by quadrant and chunk -/

theorem outAt_A (c : Dev nD) (i : S2048x512.Idx) (k₀ : Fin 8) (y : S64x512.Idx) (hq : (i 0).val / 512 * 512 = rq3 c) (hk : (i 0).val % 512 / 64 = k₀.val) (hy0 : (y 0).val = (i 0).val % 64) (hy1 : y 1 = i 1) :
    outAt m c i = k0_pay13 ((rxM : Memref sig .tc .vmem S8x64x512 .bf16).view.readAt (Elt F) (rect8 k₀) (RX m c)) ((xM : Memref sig .tc .vmem S1x2048x1024 .f32).view.readAt (Elt F) (Rect.unit (s := S1x2048x1024) (k0_off3 c (BitVec.ofNat 32 (64 * k₀.val))) S1x64x512.size (k0_off3_inb c k₀)).toLoadRect (xstg m c)) y := by
  have hk8 : (i 0).val % 512 / 64 < 8 := Nat.div_lt_of_lt_mul (Nat.mod_lt _ (by decide))
  obtain ⟨-, -, -, -, n35, n37, n39, n57, n59, n79⟩ := rq_facts c
  obtain rfl : k₀ = ⟨(i 0).val % 512 / 64, hk8⟩ := Fin.ext hk.symm
  obtain rfl : y = ix2 ⟨(i 0).val % 64, Nat.mod_lt _ (by decide)⟩ (i 1) := by
    funext a
    match a with
    | ⟨0, _⟩ => exact Fin.ext hy0
    | ⟨1, _⟩ => exact hy1
  unfold outAt
  dsimp only
  rw [if_pos hq]
  rfl

theorem outAt_B (c : Dev nD) (i : S2048x512.Idx) (k₀ : Fin 8) (y : S64x512.Idx) (hq : (i 0).val / 512 * 512 = rq5 c) (hk : (i 0).val % 512 / 64 = k₀.val) (hy0 : (y 0).val = (i 0).val % 64) (hy1 : y 1 = i 1) :
    outAt m c i = k0_pay13 ((rzdM : Memref sig .tc .vmem S8x64x512 .bf16).view.readAt (Elt F) (rect8 k₀) (RZD m c)) ((xM : Memref sig .tc .vmem S1x2048x1024 .f32).view.readAt (Elt F) (Rect.unit (s := S1x2048x1024) (k0_off5 c (BitVec.ofNat 32 (64 * k₀.val))) S1x64x512.size (k0_off5_inb c k₀)).toLoadRect (xstg m c)) y := by
  have hk8 : (i 0).val % 512 / 64 < 8 := Nat.div_lt_of_lt_mul (Nat.mod_lt _ (by decide))
  obtain ⟨-, -, -, -, n35, n37, n39, n57, n59, n79⟩ := rq_facts c
  obtain rfl : k₀ = ⟨(i 0).val % 512 / 64, hk8⟩ := Fin.ext hk.symm
  obtain rfl : y = ix2 ⟨(i 0).val % 64, Nat.mod_lt _ (by decide)⟩ (i 1) := by
    funext a
    match a with
    | ⟨0, _⟩ => exact Fin.ext hy0
    | ⟨1, _⟩ => exact hy1
  unfold outAt
  dsimp only
  rw [if_neg (by omega), if_pos hq]
  rfl

theorem outAt_C (c : Dev nD) (i : S2048x512.Idx) (k₀ : Fin 8) (y : S64x512.Idx) (hq : (i 0).val / 512 * 512 = rq7 c) (hk : (i 0).val % 512 / 64 = k₀.val) (hy0 : (y 0).val = (i 0).val % 64) (hy1 : y 1 = i 1) :
    outAt m c i = k0_pay13 ((rydM : Memref sig .tc .vmem S8x64x512 .bf16).view.readAt (Elt F) (rect8 k₀) (RYD m c)) ((xM : Memref sig .tc .vmem S1x2048x1024 .f32).view.readAt (Elt F) (Rect.unit (s := S1x2048x1024) (k0_off7 c (BitVec.ofNat 32 (64 * k₀.val))) S1x64x512.size (k0_off7_inb c k₀)).toLoadRect (xstg m c)) y := by
  have hk8 : (i 0).val % 512 / 64 < 8 := Nat.div_lt_of_lt_mul (Nat.mod_lt _ (by decide))
  obtain ⟨-, -, -, -, n35, n37, n39, n57, n59, n79⟩ := rq_facts c
  obtain rfl : k₀ = ⟨(i 0).val % 512 / 64, hk8⟩ := Fin.ext hk.symm
  obtain rfl : y = ix2 ⟨(i 0).val % 64, Nat.mod_lt _ (by decide)⟩ (i 1) := by
    funext a
    match a with
    | ⟨0, _⟩ => exact Fin.ext hy0
    | ⟨1, _⟩ => exact hy1
  unfold outAt
  dsimp only
  rw [if_neg (by omega), if_neg (by omega), if_pos hq]
  rfl

theorem outAt_E (c : Dev nD) (i : S2048x512.Idx) (k₀ : Fin 8) (y : S64x512.Idx) (i₀ : Fin 3) (hi : k₀.val = i₀.val) (hq : (i 0).val / 512 * 512 = rq9 c) (hk : (i 0).val % 512 / 64 = k₀.val) (hy0 : (y 0).val = (i 0).val % 64) (hy1 : y 1 = i 1) :
    outAt m c i = k0_pay13 ((ryrM : Memref sig .tc .vmem S3x64x512 .bf16).view.readAt (Elt F) (rect3 i₀) (RYR m c)) ((xM : Memref sig .tc .vmem S1x2048x1024 .f32).view.readAt (Elt F) (Rect.unit (s := S1x2048x1024) (k0_off9 c (BitVec.ofNat 32 (64 * k₀.val))) S1x64x512.size (k0_off9_inb c k₀)).toLoadRect (xstg m c)) y := by
  have h3 : (i 0).val % 512 / 64 < 3 := by have := i₀.isLt; omega
  have ei : (⟨(i 0).val % 512 / 64, h3⟩ : Fin 3) = i₀ := Fin.ext (by show (i 0).val % 512 / 64 = i₀.val; omega)
  have hk8 : (i 0).val % 512 / 64 < 8 := Nat.div_lt_of_lt_mul (Nat.mod_lt _ (by decide))
  obtain ⟨-, -, -, -, n35, n37, n39, n57, n59, n79⟩ := rq_facts c
  obtain rfl : k₀ = ⟨(i 0).val % 512 / 64, hk8⟩ := Fin.ext hk.symm
  obtain rfl : y = ix2 ⟨(i 0).val % 64, Nat.mod_lt _ (by decide)⟩ (i 1) := by
    funext a
    match a with
    | ⟨0, _⟩ => exact Fin.ext hy0
    | ⟨1, _⟩ => exact hy1
  unfold outAt
  dsimp only
  rw [if_neg (by omega), if_neg (by omega), if_neg (by omega), dif_pos h3, ei]
  rfl

theorem outAt_F (c : Dev nD) (i : S2048x512.Idx) (k₀ : Fin 8) (y : S64x512.Idx) (i₀ : Fin 3) (hi : k₀.val = 3 + i₀.val) (hq : (i 0).val / 512 * 512 = rq9 c) (hk : (i 0).val % 512 / 64 = k₀.val) (hy0 : (y 0).val = (i 0).val % 64) (hy1 : y 1 = i 1) :
    outAt m c i = k0_pay13 ((rzrM : Memref sig .tc .vmem S3x64x512 .bf16).view.readAt (Elt F) (rect3 i₀) (RZR m c)) ((xM : Memref sig .tc .vmem S1x2048x1024 .f32).view.readAt (Elt F) (Rect.unit (s := S1x2048x1024) (k0_off9 c (BitVec.ofNat 32 (64 * k₀.val))) S1x64x512.size (k0_off9_inb c k₀)).toLoadRect (xstg m c)) y := by
  have h3 : ¬ (i 0).val % 512 / 64 < 3 := by omega
  have h6 : (i 0).val % 512 / 64 < 6 := by have := i₀.isLt; omega
  have h33 : (i 0).val % 512 / 64 - 3 < 3 := by omega
  have ei : (⟨(i 0).val % 512 / 64 - 3, h33⟩ : Fin 3) = i₀ := Fin.ext (by show (i 0).val % 512 / 64 - 3 = i₀.val; omega)
  have hk8 : (i 0).val % 512 / 64 < 8 := Nat.div_lt_of_lt_mul (Nat.mod_lt _ (by decide))
  obtain ⟨-, -, -, -, n35, n37, n39, n57, n59, n79⟩ := rq_facts c
  obtain rfl : k₀ = ⟨(i 0).val % 512 / 64, hk8⟩ := Fin.ext hk.symm
  obtain rfl : y = ix2 ⟨(i 0).val % 64, Nat.mod_lt _ (by decide)⟩ (i 1) := by
    funext a
    match a with
    | ⟨0, _⟩ => exact Fin.ext hy0
    | ⟨1, _⟩ => exact hy1
  unfold outAt
  dsimp only
  rw [if_neg (by omega), if_neg (by omega), if_neg (by omega), dif_neg h3, dif_pos h6, ei]
  rfl

theorem outAt_D (c : Dev nD) (i : S2048x512.Idx) (k₀ : Fin 8) (y : S64x512.Idx) (j : Fin 2) (hj : k₀.val = 6 + j.val) (hq : (i 0).val / 512 * 512 = rq9 c) (hk : (i 0).val % 512 / 64 = k₀.val) (hy0 : (y 0).val = (i 0).val % 64) (hy1 : y 1 = i 1) :
    outAt m c i = k0_pay13 ((rx2M : Memref sig .tc .vmem S2x64x512 .bf16).view.readAt (Elt F) (rect2 j) (RX2 m c)) ((xM : Memref sig .tc .vmem S1x2048x1024 .f32).view.readAt (Elt F) (Rect.unit (s := S1x2048x1024) (k0_off9 c (BitVec.ofNat 32 (64 * k₀.val))) S1x64x512.size (k0_off9_inb c k₀)).toLoadRect (xstg m c)) y := by
  have h3 : ¬ (i 0).val % 512 / 64 < 3 := by omega
  have h6 : ¬ (i 0).val % 512 / 64 < 6 := by omega
  have h62 : (i 0).val % 512 / 64 - 6 < 2 := by have := j.isLt; omega
  have ej : (⟨(i 0).val % 512 / 64 - 6, h62⟩ : Fin 2) = j := Fin.ext (by show (i 0).val % 512 / 64 - 6 = j.val; omega)
  have hk8 : (i 0).val % 512 / 64 < 8 := Nat.div_lt_of_lt_mul (Nat.mod_lt _ (by decide))
  obtain ⟨-, -, -, -, n35, n37, n39, n57, n59, n79⟩ := rq_facts c
  obtain rfl : k₀ = ⟨(i 0).val % 512 / 64, hk8⟩ := Fin.ext hk.symm
  obtain rfl : y = ix2 ⟨(i 0).val % 64, Nat.mod_lt _ (by decide)⟩ (i 1) := by
    funext a
    match a with
    | ⟨0, _⟩ => exact Fin.ext hy0
    | ⟨1, _⟩ => exact hy1
  unfold outAt
  dsimp only
  rw [if_neg (by omega), if_neg (by omega), if_neg (by omega), dif_neg h3, dif_neg h6, ej]
  rfl

/-! ## One store, read at an entry

A store covers the 64 rows of one chunk of one quadrant. At an entry in those rows it leaves the entry the final block
has there; at any other entry it changes nothing. -/

theorem stepA (c : Dev nD) (k₀ : Fin 8) (f : (cc0_stg1_0 : Ref sig .tc).ty.Contents (Elt F)) (i : S2048x512.Idx) :
    outStep c f (k0_off4 c (BitVec.ofNat 32 (64 * k₀.val))) (k0_off4_inb c k₀)
        ((rxM : Memref sig .tc .vmem S8x64x512 .bf16).view.readAt (Elt F) (rect8 k₀) (RX m c))
        ((xM : Memref sig .tc .vmem S1x2048x1024 .f32).view.readAt (Elt F) (Rect.unit (s := S1x2048x1024) (k0_off3 c (BitVec.ofNat 32 (64 * k₀.val))) S1x64x512.size (k0_off3_inb c k₀)).toLoadRect (xstg m c)) i
      = if rq3 c + 64 * k₀.val ≤ (i 0).val ∧ (i 0).val < rq3 c + 64 * k₀.val + 64 then outAt m c i else f i := by
  have e0 : (k0_off4 c (BitVec.ofNat 32 (64 * k₀.val))) 0 = rq3 c + 64 * k₀.val := (off4_row c k₀).trans (off3_row c k₀)
  have e1 : (k0_off4 c (BitVec.ofNat 32 (64 * k₀.val))) 1 = 0 := off4_col c k₀
  have hk : k₀.val < 8 := k₀.isLt
  obtain ⟨v, -⟩ := rq_facts c
  split
  · next h =>
    have hlt : (i 0).val - (rq3 c + 64 * k₀.val) < 64 := by omega
    rw [outAt_A m c i k₀ (ix2 ⟨(i 0).val - (rq3 c + 64 * k₀.val), hlt⟩ (i 1)) (by omega) (by omega)
      (by show (i 0).val - (rq3 c + 64 * k₀.val) = (i 0).val % 64; omega) rfl]
    exact outStep_hit c f _ _ _ _ i _
      (by rw [e0]; show (i 0).val = rq3 c + 64 * k₀.val + ((i 0).val - (rq3 c + 64 * k₀.val)); omega)
      (by rw [e1]; show (i 1).val = 0 + (i 1).val; omega)
  · next h => exact outStep_miss c f _ _ _ _ i (by rw [e0]; omega)

theorem stepB (c : Dev nD) (k₀ : Fin 8) (f : (cc0_stg1_0 : Ref sig .tc).ty.Contents (Elt F)) (i : S2048x512.Idx) :
    outStep c f (k0_off6 c (BitVec.ofNat 32 (64 * k₀.val))) (k0_off6_inb c k₀)
        ((rzdM : Memref sig .tc .vmem S8x64x512 .bf16).view.readAt (Elt F) (rect8 k₀) (RZD m c))
        ((xM : Memref sig .tc .vmem S1x2048x1024 .f32).view.readAt (Elt F) (Rect.unit (s := S1x2048x1024) (k0_off5 c (BitVec.ofNat 32 (64 * k₀.val))) S1x64x512.size (k0_off5_inb c k₀)).toLoadRect (xstg m c)) i
      = if rq5 c + 64 * k₀.val ≤ (i 0).val ∧ (i 0).val < rq5 c + 64 * k₀.val + 64 then outAt m c i else f i := by
  have e0 : (k0_off6 c (BitVec.ofNat 32 (64 * k₀.val))) 0 = rq5 c + 64 * k₀.val := (off6_row c k₀).trans (off5_row c k₀)
  have e1 : (k0_off6 c (BitVec.ofNat 32 (64 * k₀.val))) 1 = 0 := off6_col c k₀
  have hk : k₀.val < 8 := k₀.isLt
  obtain ⟨-, v, -⟩ := rq_facts c
  split
  · next h =>
    have hlt : (i 0).val - (rq5 c + 64 * k₀.val) < 64 := by omega
    rw [outAt_B m c i k₀ (ix2 ⟨(i 0).val - (rq5 c + 64 * k₀.val), hlt⟩ (i 1)) (by omega) (by omega)
      (by show (i 0).val - (rq5 c + 64 * k₀.val) = (i 0).val % 64; omega) rfl]
    exact outStep_hit c f _ _ _ _ i _
      (by rw [e0]; show (i 0).val = rq5 c + 64 * k₀.val + ((i 0).val - (rq5 c + 64 * k₀.val)); omega)
      (by rw [e1]; show (i 1).val = 0 + (i 1).val; omega)
  · next h => exact outStep_miss c f _ _ _ _ i (by rw [e0]; omega)

theorem stepC (c : Dev nD) (k₀ : Fin 8) (f : (cc0_stg1_0 : Ref sig .tc).ty.Contents (Elt F)) (i : S2048x512.Idx) :
    outStep c f (k0_off8 c (BitVec.ofNat 32 (64 * k₀.val))) (k0_off8_inb c k₀)
        ((rydM : Memref sig .tc .vmem S8x64x512 .bf16).view.readAt (Elt F) (rect8 k₀) (RYD m c))
        ((xM : Memref sig .tc .vmem S1x2048x1024 .f32).view.readAt (Elt F) (Rect.unit (s := S1x2048x1024) (k0_off7 c (BitVec.ofNat 32 (64 * k₀.val))) S1x64x512.size (k0_off7_inb c k₀)).toLoadRect (xstg m c)) i
      = if rq7 c + 64 * k₀.val ≤ (i 0).val ∧ (i 0).val < rq7 c + 64 * k₀.val + 64 then outAt m c i else f i := by
  have e0 : (k0_off8 c (BitVec.ofNat 32 (64 * k₀.val))) 0 = rq7 c + 64 * k₀.val := (off8_row c k₀).trans (off7_row c k₀)
  have e1 : (k0_off8 c (BitVec.ofNat 32 (64 * k₀.val))) 1 = 0 := off8_col c k₀
  have hk : k₀.val < 8 := k₀.isLt
  obtain ⟨-, -, v, -⟩ := rq_facts c
  split
  · next h =>
    have hlt : (i 0).val - (rq7 c + 64 * k₀.val) < 64 := by omega
    rw [outAt_C m c i k₀ (ix2 ⟨(i 0).val - (rq7 c + 64 * k₀.val), hlt⟩ (i 1)) (by omega) (by omega)
      (by show (i 0).val - (rq7 c + 64 * k₀.val) = (i 0).val % 64; omega) rfl]
    exact outStep_hit c f _ _ _ _ i _
      (by rw [e0]; show (i 0).val = rq7 c + 64 * k₀.val + ((i 0).val - (rq7 c + 64 * k₀.val)); omega)
      (by rw [e1]; show (i 1).val = 0 + (i 1).val; omega)
  · next h => exact outStep_miss c f _ _ _ _ i (by rw [e0]; omega)

theorem stepD (c : Dev nD) (k₀ : Fin 8) (j : Fin 2) (hj : k₀.val = 6 + j.val) (f : (cc0_stg1_0 : Ref sig .tc).ty.Contents (Elt F))
    (i : S2048x512.Idx) :
    outStep c f (k0_off10 c (BitVec.ofNat 32 (64 * k₀.val))) (k0_off10_inb c k₀)
        ((rx2M : Memref sig .tc .vmem S2x64x512 .bf16).view.readAt (Elt F) (rect2 j) (RX2 m c))
        ((xM : Memref sig .tc .vmem S1x2048x1024 .f32).view.readAt (Elt F) (Rect.unit (s := S1x2048x1024) (k0_off9 c (BitVec.ofNat 32 (64 * k₀.val))) S1x64x512.size (k0_off9_inb c k₀)).toLoadRect (xstg m c)) i
      = if rq9 c + 64 * k₀.val ≤ (i 0).val ∧ (i 0).val < rq9 c + 64 * k₀.val + 64 then outAt m c i else f i := by
  have e0 : (k0_off10 c (BitVec.ofNat 32 (64 * k₀.val))) 0 = rq9 c + 64 * k₀.val := (off10_row c k₀).trans (off9_row c k₀)
  have e1 : (k0_off10 c (BitVec.ofNat 32 (64 * k₀.val))) 1 = 0 := off10_col c k₀
  have hk : k₀.val < 8 := k₀.isLt
  obtain ⟨-, -, -, v, -⟩ := rq_facts c
  split
  · next h =>
    have hlt : (i 0).val - (rq9 c + 64 * k₀.val) < 64 := by omega
    rw [outAt_D m c i k₀ (ix2 ⟨(i 0).val - (rq9 c + 64 * k₀.val), hlt⟩ (i 1)) j hj (by omega) (by omega)
      (by show (i 0).val - (rq9 c + 64 * k₀.val) = (i 0).val % 64; omega) rfl]
    exact outStep_hit c f _ _ _ _ i _
      (by rw [e0]; show (i 0).val = rq9 c + 64 * k₀.val + ((i 0).val - (rq9 c + 64 * k₀.val)); omega)
      (by rw [e1]; show (i 1).val = 0 + (i 1).val; omega)
  · next h => exact outStep_miss c f _ _ _ _ i (by rw [e0]; omega)

theorem stepE (c : Dev nD) (k₀ : Fin 8) (i₀ : Fin 3) (hj : k₀.val = i₀.val) (f : (cc0_stg1_0 : Ref sig .tc).ty.Contents (Elt F))
    (i : S2048x512.Idx) :
    outStep c f (k0_off10 c (BitVec.ofNat 32 (64 * k₀.val))) (k0_off10_inb c k₀)
        ((ryrM : Memref sig .tc .vmem S3x64x512 .bf16).view.readAt (Elt F) (rect3 i₀) (RYR m c))
        ((xM : Memref sig .tc .vmem S1x2048x1024 .f32).view.readAt (Elt F) (Rect.unit (s := S1x2048x1024) (k0_off9 c (BitVec.ofNat 32 (64 * k₀.val))) S1x64x512.size (k0_off9_inb c k₀)).toLoadRect (xstg m c)) i
      = if rq9 c + 64 * k₀.val ≤ (i 0).val ∧ (i 0).val < rq9 c + 64 * k₀.val + 64 then outAt m c i else f i := by
  have e0 : (k0_off10 c (BitVec.ofNat 32 (64 * k₀.val))) 0 = rq9 c + 64 * k₀.val := (off10_row c k₀).trans (off9_row c k₀)
  have e1 : (k0_off10 c (BitVec.ofNat 32 (64 * k₀.val))) 1 = 0 := off10_col c k₀
  have hk : k₀.val < 8 := k₀.isLt
  obtain ⟨-, -, -, v, -⟩ := rq_facts c
  split
  · next h =>
    have hlt : (i 0).val - (rq9 c + 64 * k₀.val) < 64 := by omega
    rw [outAt_E m c i k₀ (ix2 ⟨(i 0).val - (rq9 c + 64 * k₀.val), hlt⟩ (i 1)) i₀ hj (by omega) (by omega)
      (by show (i 0).val - (rq9 c + 64 * k₀.val) = (i 0).val % 64; omega) rfl]
    exact outStep_hit c f _ _ _ _ i _
      (by rw [e0]; show (i 0).val = rq9 c + 64 * k₀.val + ((i 0).val - (rq9 c + 64 * k₀.val)); omega)
      (by rw [e1]; show (i 1).val = 0 + (i 1).val; omega)
  · next h => exact outStep_miss c f _ _ _ _ i (by rw [e0]; omega)

theorem stepF (c : Dev nD) (k₀ : Fin 8) (i₀ : Fin 3) (hj : k₀.val = 3 + i₀.val) (f : (cc0_stg1_0 : Ref sig .tc).ty.Contents (Elt F))
    (i : S2048x512.Idx) :
    outStep c f (k0_off10 c (BitVec.ofNat 32 (64 * k₀.val))) (k0_off10_inb c k₀)
        ((rzrM : Memref sig .tc .vmem S3x64x512 .bf16).view.readAt (Elt F) (rect3 i₀) (RZR m c))
        ((xM : Memref sig .tc .vmem S1x2048x1024 .f32).view.readAt (Elt F) (Rect.unit (s := S1x2048x1024) (k0_off9 c (BitVec.ofNat 32 (64 * k₀.val))) S1x64x512.size (k0_off9_inb c k₀)).toLoadRect (xstg m c)) i
      = if rq9 c + 64 * k₀.val ≤ (i 0).val ∧ (i 0).val < rq9 c + 64 * k₀.val + 64 then outAt m c i else f i := by
  have e0 : (k0_off10 c (BitVec.ofNat 32 (64 * k₀.val))) 0 = rq9 c + 64 * k₀.val := (off10_row c k₀).trans (off9_row c k₀)
  have e1 : (k0_off10 c (BitVec.ofNat 32 (64 * k₀.val))) 1 = 0 := off10_col c k₀
  have hk : k₀.val < 8 := k₀.isLt
  obtain ⟨-, -, -, v, -⟩ := rq_facts c
  split
  · next h =>
    have hlt : (i 0).val - (rq9 c + 64 * k₀.val) < 64 := by omega
    rw [outAt_F m c i k₀ (ix2 ⟨(i 0).val - (rq9 c + 64 * k₀.val), hlt⟩ (i 1)) i₀ hj (by omega) (by omega)
      (by show (i 0).val - (rq9 c + 64 * k₀.val) = (i 0).val % 64; omega) rfl]
    exact outStep_hit c f _ _ _ _ i _
      (by rw [e0]; show (i 0).val = rq9 c + 64 * k₀.val + ((i 0).val - (rq9 c + 64 * k₀.val)); omega)
      (by rw [e1]; show (i 1).val = 0 + (i 1).val; omega)
  · next h => exact outStep_miss c f _ _ _ _ i (by rw [e0]; omega)

/-! ## The 32 stores in program order, and what they leave

Eight chunks of the own quadrant; then, chunk by chunk, the z peer's and the y peer's quadrant; then the diagonal
quadrant: its two directly received chunks, the three forwarded by the y peer and the three forwarded by the z peer.
The 32 row ranges are the eight chunks of each of the four quadrants, so every entry is decided by exactly one store. -/

/-- The result block after the body's 32 stores, from the contents fo it started with. -/
def outW (c : Dev nD) (fo : (cc0_stg1_0 : Ref sig .tc).ty.Contents (Elt F)) : (cc0_stg1_0 : Ref sig .tc).ty.Contents (Elt F) :=
  (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c (outStep c fo
    (k0_off4 c (BitVec.ofNat 32 (64 * (0 : Fin 8).val))) (k0_off4_inb c 0)
    ((rxM : Memref sig .tc .vmem S8x64x512 .bf16).view.readAt (Elt F) (rect8 (0 : Fin 8)) (RX m c))
    ((xM : Memref sig .tc .vmem S1x2048x1024 .f32).view.readAt (Elt F) (Rect.unit (s := S1x2048x1024) (k0_off3 c (BitVec.ofNat 32 (64 * (0 : Fin 8).val))) S1x64x512.size (k0_off3_inb c (0 : Fin 8))).toLoadRect (xstg m c)))
    (k0_off4 c (BitVec.ofNat 32 (64 * (1 : Fin 8).val))) (k0_off4_inb c 1)
    ((rxM : Memref sig .tc .vmem S8x64x512 .bf16).view.readAt (Elt F) (rect8 (1 : Fin 8)) (RX m c))
    ((xM : Memref sig .tc .vmem S1x2048x1024 .f32).view.readAt (Elt F) (Rect.unit (s := S1x2048x1024) (k0_off3 c (BitVec.ofNat 32 (64 * (1 : Fin 8).val))) S1x64x512.size (k0_off3_inb c (1 : Fin 8))).toLoadRect (xstg m c)))
    (k0_off4 c (BitVec.ofNat 32 (64 * (2 : Fin 8).val))) (k0_off4_inb c 2)
    ((rxM : Memref sig .tc .vmem S8x64x512 .bf16).view.readAt (Elt F) (rect8 (2 : Fin 8)) (RX m c))
    ((xM : Memref sig .tc .vmem S1x2048x1024 .f32).view.readAt (Elt F) (Rect.unit (s := S1x2048x1024) (k0_off3 c (BitVec.ofNat 32 (64 * (2 : Fin 8).val))) S1x64x512.size (k0_off3_inb c (2 : Fin 8))).toLoadRect (xstg m c)))
    (k0_off4 c (BitVec.ofNat 32 (64 * (3 : Fin 8).val))) (k0_off4_inb c 3)
    ((rxM : Memref sig .tc .vmem S8x64x512 .bf16).view.readAt (Elt F) (rect8 (3 : Fin 8)) (RX m c))
    ((xM : Memref sig .tc .vmem S1x2048x1024 .f32).view.readAt (Elt F) (Rect.unit (s := S1x2048x1024) (k0_off3 c (BitVec.ofNat 32 (64 * (3 : Fin 8).val))) S1x64x512.size (k0_off3_inb c (3 : Fin 8))).toLoadRect (xstg m c)))
    (k0_off4 c (BitVec.ofNat 32 (64 * (4 : Fin 8).val))) (k0_off4_inb c 4)
    ((rxM : Memref sig .tc .vmem S8x64x512 .bf16).view.readAt (Elt F) (rect8 (4 : Fin 8)) (RX m c))
    ((xM : Memref sig .tc .vmem S1x2048x1024 .f32).view.readAt (Elt F) (Rect.unit (s := S1x2048x1024) (k0_off3 c (BitVec.ofNat 32 (64 * (4 : Fin 8).val))) S1x64x512.size (k0_off3_inb c (4 : Fin 8))).toLoadRect (xstg m c)))
    (k0_off4 c (BitVec.ofNat 32 (64 * (5 : Fin 8).val))) (k0_off4_inb c 5)
    ((rxM : Memref sig .tc .vmem S8x64x512 .bf16).view.readAt (Elt F) (rect8 (5 : Fin 8)) (RX m c))
    ((xM : Memref sig .tc .vmem S1x2048x1024 .f32).view.readAt (Elt F) (Rect.unit (s := S1x2048x1024) (k0_off3 c (BitVec.ofNat 32 (64 * (5 : Fin 8).val))) S1x64x512.size (k0_off3_inb c (5 : Fin 8))).toLoadRect (xstg m c)))
    (k0_off4 c (BitVec.ofNat 32 (64 * (6 : Fin 8).val))) (k0_off4_inb c 6)
    ((rxM : Memref sig .tc .vmem S8x64x512 .bf16).view.readAt (Elt F) (rect8 (6 : Fin 8)) (RX m c))
    ((xM : Memref sig .tc .vmem S1x2048x1024 .f32).view.readAt (Elt F) (Rect.unit (s := S1x2048x1024) (k0_off3 c (BitVec.ofNat 32 (64 * (6 : Fin 8).val))) S1x64x512.size (k0_off3_inb c (6 : Fin 8))).toLoadRect (xstg m c)))
    (k0_off4 c (BitVec.ofNat 32 (64 * (7 : Fin 8).val))) (k0_off4_inb c 7)
    ((rxM : Memref sig .tc .vmem S8x64x512 .bf16).view.readAt (Elt F) (rect8 (7 : Fin 8)) (RX m c))
    ((xM : Memref sig .tc .vmem S1x2048x1024 .f32).view.readAt (Elt F) (Rect.unit (s := S1x2048x1024) (k0_off3 c (BitVec.ofNat 32 (64 * (7 : Fin 8).val))) S1x64x512.size (k0_off3_inb c (7 : Fin 8))).toLoadRect (xstg m c)))
    (k0_off6 c (BitVec.ofNat 32 (64 * (0 : Fin 8).val))) (k0_off6_inb c 0)
    ((rzdM : Memref sig .tc .vmem S8x64x512 .bf16).view.readAt (Elt F) (rect8 (0 : Fin 8)) (RZD m c))
    ((xM : Memref sig .tc .vmem S1x2048x1024 .f32).view.readAt (Elt F) (Rect.unit (s := S1x2048x1024) (k0_off5 c (BitVec.ofNat 32 (64 * (0 : Fin 8).val))) S1x64x512.size (k0_off5_inb c (0 : Fin 8))).toLoadRect (xstg m c)))
    (k0_off8 c (BitVec.ofNat 32 (64 * (0 : Fin 8).val))) (k0_off8_inb c 0)
    ((rydM : Memref sig .tc .vmem S8x64x512 .bf16).view.readAt (Elt F) (rect8 (0 : Fin 8)) (RYD m c))
    ((xM : Memref sig .tc .vmem S1x2048x1024 .f32).view.readAt (Elt F) (Rect.unit (s := S1x2048x1024) (k0_off7 c (BitVec.ofNat 32 (64 * (0 : Fin 8).val))) S1x64x512.size (k0_off7_inb c (0 : Fin 8))).toLoadRect (xstg m c)))
    (k0_off6 c (BitVec.ofNat 32 (64 * (1 : Fin 8).val))) (k0_off6_inb c 1)
    ((rzdM : Memref sig .tc .vmem S8x64x512 .bf16).view.readAt (Elt F) (rect8 (1 : Fin 8)) (RZD m c))
    ((xM : Memref sig .tc .vmem S1x2048x1024 .f32).view.readAt (Elt F) (Rect.unit (s := S1x2048x1024) (k0_off5 c (BitVec.ofNat 32 (64 * (1 : Fin 8).val))) S1x64x512.size (k0_off5_inb c (1 : Fin 8))).toLoadRect (xstg m c)))
    (k0_off8 c (BitVec.ofNat 32 (64 * (1 : Fin 8).val))) (k0_off8_inb c 1)
    ((rydM : Memref sig .tc .vmem S8x64x512 .bf16).view.readAt (Elt F) (rect8 (1 : Fin 8)) (RYD m c))
    ((xM : Memref sig .tc .vmem S1x2048x1024 .f32).view.readAt (Elt F) (Rect.unit (s := S1x2048x1024) (k0_off7 c (BitVec.ofNat 32 (64 * (1 : Fin 8).val))) S1x64x512.size (k0_off7_inb c (1 : Fin 8))).toLoadRect (xstg m c)))
    (k0_off6 c (BitVec.ofNat 32 (64 * (2 : Fin 8).val))) (k0_off6_inb c 2)
    ((rzdM : Memref sig .tc .vmem S8x64x512 .bf16).view.readAt (Elt F) (rect8 (2 : Fin 8)) (RZD m c))
    ((xM : Memref sig .tc .vmem S1x2048x1024 .f32).view.readAt (Elt F) (Rect.unit (s := S1x2048x1024) (k0_off5 c (BitVec.ofNat 32 (64 * (2 : Fin 8).val))) S1x64x512.size (k0_off5_inb c (2 : Fin 8))).toLoadRect (xstg m c)))
    (k0_off8 c (BitVec.ofNat 32 (64 * (2 : Fin 8).val))) (k0_off8_inb c 2)
    ((rydM : Memref sig .tc .vmem S8x64x512 .bf16).view.readAt (Elt F) (rect8 (2 : Fin 8)) (RYD m c))
    ((xM : Memref sig .tc .vmem S1x2048x1024 .f32).view.readAt (Elt F) (Rect.unit (s := S1x2048x1024) (k0_off7 c (BitVec.ofNat 32 (64 * (2 : Fin 8).val))) S1x64x512.size (k0_off7_inb c (2 : Fin 8))).toLoadRect (xstg m c)))
    (k0_off6 c (BitVec.ofNat 32 (64 * (3 : Fin 8).val))) (k0_off6_inb c 3)
    ((rzdM : Memref sig .tc .vmem S8x64x512 .bf16).view.readAt (Elt F) (rect8 (3 : Fin 8)) (RZD m c))
    ((xM : Memref sig .tc .vmem S1x2048x1024 .f32).view.readAt (Elt F) (Rect.unit (s := S1x2048x1024) (k0_off5 c (BitVec.ofNat 32 (64 * (3 : Fin 8).val))) S1x64x512.size (k0_off5_inb c (3 : Fin 8))).toLoadRect (xstg m c)))
    (k0_off8 c (BitVec.ofNat 32 (64 * (3 : Fin 8).val))) (k0_off8_inb c 3)
    ((rydM : Memref sig .tc .vmem S8x64x512 .bf16).view.readAt (Elt F) (rect8 (3 : Fin 8)) (RYD m c))
    ((xM : Memref sig .tc .vmem S1x2048x1024 .f32).view.readAt (Elt F) (Rect.unit (s := S1x2048x1024) (k0_off7 c (BitVec.ofNat 32 (64 * (3 : Fin 8).val))) S1x64x512.size (k0_off7_inb c (3 : Fin 8))).toLoadRect (xstg m c)))
    (k0_off6 c (BitVec.ofNat 32 (64 * (4 : Fin 8).val))) (k0_off6_inb c 4)
    ((rzdM : Memref sig .tc .vmem S8x64x512 .bf16).view.readAt (Elt F) (rect8 (4 : Fin 8)) (RZD m c))
    ((xM : Memref sig .tc .vmem S1x2048x1024 .f32).view.readAt (Elt F) (Rect.unit (s := S1x2048x1024) (k0_off5 c (BitVec.ofNat 32 (64 * (4 : Fin 8).val))) S1x64x512.size (k0_off5_inb c (4 : Fin 8))).toLoadRect (xstg m c)))
    (k0_off8 c (BitVec.ofNat 32 (64 * (4 : Fin 8).val))) (k0_off8_inb c 4)
    ((rydM : Memref sig .tc .vmem S8x64x512 .bf16).view.readAt (Elt F) (rect8 (4 : Fin 8)) (RYD m c))
    ((xM : Memref sig .tc .vmem S1x2048x1024 .f32).view.readAt (Elt F) (Rect.unit (s := S1x2048x1024) (k0_off7 c (BitVec.ofNat 32 (64 * (4 : Fin 8).val))) S1x64x512.size (k0_off7_inb c (4 : Fin 8))).toLoadRect (xstg m c)))
    (k0_off6 c (BitVec.ofNat 32 (64 * (5 : Fin 8).val))) (k0_off6_inb c 5)
    ((rzdM : Memref sig .tc .vmem S8x64x512 .bf16).view.readAt (Elt F) (rect8 (5 : Fin 8)) (RZD m c))
    ((xM : Memref sig .tc .vmem S1x2048x1024 .f32).view.readAt (Elt F) (Rect.unit (s := S1x2048x1024) (k0_off5 c (BitVec.ofNat 32 (64 * (5 : Fin 8).val))) S1x64x512.size (k0_off5_inb c (5 : Fin 8))).toLoadRect (xstg m c)))
    (k0_off8 c (BitVec.ofNat 32 (64 * (5 : Fin 8).val))) (k0_off8_inb c 5)
    ((rydM : Memref sig .tc .vmem S8x64x512 .bf16).view.readAt (Elt F) (rect8 (5 : Fin 8)) (RYD m c))
    ((xM : Memref sig .tc .vmem S1x2048x1024 .f32).view.readAt (Elt F) (Rect.unit (s := S1x2048x1024) (k0_off7 c (BitVec.ofNat 32 (64 * (5 : Fin 8).val))) S1x64x512.size (k0_off7_inb c (5 : Fin 8))).toLoadRect (xstg m c)))
    (k0_off6 c (BitVec.ofNat 32 (64 * (6 : Fin 8).val))) (k0_off6_inb c 6)
    ((rzdM : Memref sig .tc .vmem S8x64x512 .bf16).view.readAt (Elt F) (rect8 (6 : Fin 8)) (RZD m c))
    ((xM : Memref sig .tc .vmem S1x2048x1024 .f32).view.readAt (Elt F) (Rect.unit (s := S1x2048x1024) (k0_off5 c (BitVec.ofNat 32 (64 * (6 : Fin 8).val))) S1x64x512.size (k0_off5_inb c (6 : Fin 8))).toLoadRect (xstg m c)))
    (k0_off8 c (BitVec.ofNat 32 (64 * (6 : Fin 8).val))) (k0_off8_inb c 6)
    ((rydM : Memref sig .tc .vmem S8x64x512 .bf16).view.readAt (Elt F) (rect8 (6 : Fin 8)) (RYD m c))
    ((xM : Memref sig .tc .vmem S1x2048x1024 .f32).view.readAt (Elt F) (Rect.unit (s := S1x2048x1024) (k0_off7 c (BitVec.ofNat 32 (64 * (6 : Fin 8).val))) S1x64x512.size (k0_off7_inb c (6 : Fin 8))).toLoadRect (xstg m c)))
    (k0_off6 c (BitVec.ofNat 32 (64 * (7 : Fin 8).val))) (k0_off6_inb c 7)
    ((rzdM : Memref sig .tc .vmem S8x64x512 .bf16).view.readAt (Elt F) (rect8 (7 : Fin 8)) (RZD m c))
    ((xM : Memref sig .tc .vmem S1x2048x1024 .f32).view.readAt (Elt F) (Rect.unit (s := S1x2048x1024) (k0_off5 c (BitVec.ofNat 32 (64 * (7 : Fin 8).val))) S1x64x512.size (k0_off5_inb c (7 : Fin 8))).toLoadRect (xstg m c)))
    (k0_off8 c (BitVec.ofNat 32 (64 * (7 : Fin 8).val))) (k0_off8_inb c 7)
    ((rydM : Memref sig .tc .vmem S8x64x512 .bf16).view.readAt (Elt F) (rect8 (7 : Fin 8)) (RYD m c))
    ((xM : Memref sig .tc .vmem S1x2048x1024 .f32).view.readAt (Elt F) (Rect.unit (s := S1x2048x1024) (k0_off7 c (BitVec.ofNat 32 (64 * (7 : Fin 8).val))) S1x64x512.size (k0_off7_inb c (7 : Fin 8))).toLoadRect (xstg m c)))
    (k0_off10 c (BitVec.ofNat 32 (64 * (6 : Fin 8).val))) (k0_off10_inb c 6)
    ((rx2M : Memref sig .tc .vmem S2x64x512 .bf16).view.readAt (Elt F) (rect2 (0 : Fin 2)) (RX2 m c))
    ((xM : Memref sig .tc .vmem S1x2048x1024 .f32).view.readAt (Elt F) (Rect.unit (s := S1x2048x1024) (k0_off9 c (BitVec.ofNat 32 (64 * (6 : Fin 8).val))) S1x64x512.size (k0_off9_inb c (6 : Fin 8))).toLoadRect (xstg m c)))
    (k0_off10 c (BitVec.ofNat 32 (64 * (7 : Fin 8).val))) (k0_off10_inb c 7)
    ((rx2M : Memref sig .tc .vmem S2x64x512 .bf16).view.readAt (Elt F) (rect2 (1 : Fin 2)) (RX2 m c))
    ((xM : Memref sig .tc .vmem S1x2048x1024 .f32).view.readAt (Elt F) (Rect.unit (s := S1x2048x1024) (k0_off9 c (BitVec.ofNat 32 (64 * (7 : Fin 8).val))) S1x64x512.size (k0_off9_inb c (7 : Fin 8))).toLoadRect (xstg m c)))
    (k0_off10 c (BitVec.ofNat 32 (64 * (0 : Fin 8).val))) (k0_off10_inb c 0)
    ((ryrM : Memref sig .tc .vmem S3x64x512 .bf16).view.readAt (Elt F) (rect3 (0 : Fin 3)) (RYR m c))
    ((xM : Memref sig .tc .vmem S1x2048x1024 .f32).view.readAt (Elt F) (Rect.unit (s := S1x2048x1024) (k0_off9 c (BitVec.ofNat 32 (64 * (0 : Fin 8).val))) S1x64x512.size (k0_off9_inb c (0 : Fin 8))).toLoadRect (xstg m c)))
    (k0_off10 c (BitVec.ofNat 32 (64 * (1 : Fin 8).val))) (k0_off10_inb c 1)
    ((ryrM : Memref sig .tc .vmem S3x64x512 .bf16).view.readAt (Elt F) (rect3 (1 : Fin 3)) (RYR m c))
    ((xM : Memref sig .tc .vmem S1x2048x1024 .f32).view.readAt (Elt F) (Rect.unit (s := S1x2048x1024) (k0_off9 c (BitVec.ofNat 32 (64 * (1 : Fin 8).val))) S1x64x512.size (k0_off9_inb c (1 : Fin 8))).toLoadRect (xstg m c)))
    (k0_off10 c (BitVec.ofNat 32 (64 * (2 : Fin 8).val))) (k0_off10_inb c 2)
    ((ryrM : Memref sig .tc .vmem S3x64x512 .bf16).view.readAt (Elt F) (rect3 (2 : Fin 3)) (RYR m c))
    ((xM : Memref sig .tc .vmem S1x2048x1024 .f32).view.readAt (Elt F) (Rect.unit (s := S1x2048x1024) (k0_off9 c (BitVec.ofNat 32 (64 * (2 : Fin 8).val))) S1x64x512.size (k0_off9_inb c (2 : Fin 8))).toLoadRect (xstg m c)))
    (k0_off10 c (BitVec.ofNat 32 (64 * (3 : Fin 8).val))) (k0_off10_inb c 3)
    ((rzrM : Memref sig .tc .vmem S3x64x512 .bf16).view.readAt (Elt F) (rect3 (0 : Fin 3)) (RZR m c))
    ((xM : Memref sig .tc .vmem S1x2048x1024 .f32).view.readAt (Elt F) (Rect.unit (s := S1x2048x1024) (k0_off9 c (BitVec.ofNat 32 (64 * (3 : Fin 8).val))) S1x64x512.size (k0_off9_inb c (3 : Fin 8))).toLoadRect (xstg m c)))
    (k0_off10 c (BitVec.ofNat 32 (64 * (4 : Fin 8).val))) (k0_off10_inb c 4)
    ((rzrM : Memref sig .tc .vmem S3x64x512 .bf16).view.readAt (Elt F) (rect3 (1 : Fin 3)) (RZR m c))
    ((xM : Memref sig .tc .vmem S1x2048x1024 .f32).view.readAt (Elt F) (Rect.unit (s := S1x2048x1024) (k0_off9 c (BitVec.ofNat 32 (64 * (4 : Fin 8).val))) S1x64x512.size (k0_off9_inb c (4 : Fin 8))).toLoadRect (xstg m c)))
    (k0_off10 c (BitVec.ofNat 32 (64 * (5 : Fin 8).val))) (k0_off10_inb c 5)
    ((rzrM : Memref sig .tc .vmem S3x64x512 .bf16).view.readAt (Elt F) (rect3 (2 : Fin 3)) (RZR m c))
    ((xM : Memref sig .tc .vmem S1x2048x1024 .f32).view.readAt (Elt F) (Rect.unit (s := S1x2048x1024) (k0_off9 c (BitVec.ofNat 32 (64 * (5 : Fin 8).val))) S1x64x512.size (k0_off9_inb c (5 : Fin 8))).toLoadRect (xstg m c)))

/-- Eight chunks of each of four quadrants leave no row out. -/
theorem cover (q3 q5 q7 q9 r : ℕ)
    (hq : r / 512 * 512 = q3 ∨ r / 512 * 512 = q5 ∨ r / 512 * 512 = q7 ∨ r / 512 * 512 = q9)
    (h3 : ∀ k : Fin 8, ¬ (q3 + 64 * k.val ≤ r ∧ r < q3 + 64 * k.val + 64))
    (h5 : ∀ k : Fin 8, ¬ (q5 + 64 * k.val ≤ r ∧ r < q5 + 64 * k.val + 64))
    (h7 : ∀ k : Fin 8, ¬ (q7 + 64 * k.val ≤ r ∧ r < q7 + 64 * k.val + 64))
    (h9 : ∀ k : Fin 8, ¬ (q9 + 64 * k.val ≤ r ∧ r < q9 + 64 * k.val + 64)) : False := by
  have hk : r % 512 / 64 < 8 := by omega
  rcases hq with h | h | h | h
  · exact h3 ⟨r % 512 / 64, hk⟩ (by show q3 + 64 * (r % 512 / 64) ≤ r ∧ r < q3 + 64 * (r % 512 / 64) + 64; omega)
  · exact h5 ⟨r % 512 / 64, hk⟩ (by show q5 + 64 * (r % 512 / 64) ≤ r ∧ r < q5 + 64 * (r % 512 / 64) + 64; omega)
  · exact h7 ⟨r % 512 / 64, hk⟩ (by show q7 + 64 * (r % 512 / 64) ≤ r ∧ r < q7 + 64 * (r % 512 / 64) + 64; omega)
  · exact h9 ⟨r % 512 / 64, hk⟩ (by show q9 + 64 * (r % 512 / 64) ≤ r ∧ r < q9 + 64 * (r % 512 / 64) + 64; omega)

/-- After the 32 stores the result block holds the final contents, whatever it held before. -/
theorem outW_eq (c : Dev nD) (fo : (cc0_stg1_0 : Ref sig .tc).ty.Contents (Elt F)) : outW m c fo = outAt m c := by
  refine funext fun (i : S2048x512.Idx) => ?_
  have hr : (i 0).val < 2048 := idx2_lt0 i
  unfold outW
  by_cases hF5 : rq9 c + 64 * (5 : Fin 8).val ≤ (i 0).val ∧ (i 0).val < rq9 c + 64 * (5 : Fin 8).val + 64
  · exact (stepF m c 5 2 rfl _ i).trans (if_pos hF5)
  refine ((stepF m c 5 2 rfl _ i).trans (if_neg hF5)).trans ?_
  by_cases hF4 : rq9 c + 64 * (4 : Fin 8).val ≤ (i 0).val ∧ (i 0).val < rq9 c + 64 * (4 : Fin 8).val + 64
  · exact (stepF m c 4 1 rfl _ i).trans (if_pos hF4)
  refine ((stepF m c 4 1 rfl _ i).trans (if_neg hF4)).trans ?_
  by_cases hF3 : rq9 c + 64 * (3 : Fin 8).val ≤ (i 0).val ∧ (i 0).val < rq9 c + 64 * (3 : Fin 8).val + 64
  · exact (stepF m c 3 0 rfl _ i).trans (if_pos hF3)
  refine ((stepF m c 3 0 rfl _ i).trans (if_neg hF3)).trans ?_
  by_cases hE2 : rq9 c + 64 * (2 : Fin 8).val ≤ (i 0).val ∧ (i 0).val < rq9 c + 64 * (2 : Fin 8).val + 64
  · exact (stepE m c 2 2 rfl _ i).trans (if_pos hE2)
  refine ((stepE m c 2 2 rfl _ i).trans (if_neg hE2)).trans ?_
  by_cases hE1 : rq9 c + 64 * (1 : Fin 8).val ≤ (i 0).val ∧ (i 0).val < rq9 c + 64 * (1 : Fin 8).val + 64
  · exact (stepE m c 1 1 rfl _ i).trans (if_pos hE1)
  refine ((stepE m c 1 1 rfl _ i).trans (if_neg hE1)).trans ?_
  by_cases hE0 : rq9 c + 64 * (0 : Fin 8).val ≤ (i 0).val ∧ (i 0).val < rq9 c + 64 * (0 : Fin 8).val + 64
  · exact (stepE m c 0 0 rfl _ i).trans (if_pos hE0)
  refine ((stepE m c 0 0 rfl _ i).trans (if_neg hE0)).trans ?_
  by_cases hD7 : rq9 c + 64 * (7 : Fin 8).val ≤ (i 0).val ∧ (i 0).val < rq9 c + 64 * (7 : Fin 8).val + 64
  · exact (stepD m c 7 1 rfl _ i).trans (if_pos hD7)
  refine ((stepD m c 7 1 rfl _ i).trans (if_neg hD7)).trans ?_
  by_cases hD6 : rq9 c + 64 * (6 : Fin 8).val ≤ (i 0).val ∧ (i 0).val < rq9 c + 64 * (6 : Fin 8).val + 64
  · exact (stepD m c 6 0 rfl _ i).trans (if_pos hD6)
  refine ((stepD m c 6 0 rfl _ i).trans (if_neg hD6)).trans ?_
  by_cases hC7 : rq7 c + 64 * (7 : Fin 8).val ≤ (i 0).val ∧ (i 0).val < rq7 c + 64 * (7 : Fin 8).val + 64
  · exact (stepC m c 7 _ i).trans (if_pos hC7)
  refine ((stepC m c 7 _ i).trans (if_neg hC7)).trans ?_
  by_cases hB7 : rq5 c + 64 * (7 : Fin 8).val ≤ (i 0).val ∧ (i 0).val < rq5 c + 64 * (7 : Fin 8).val + 64
  · exact (stepB m c 7 _ i).trans (if_pos hB7)
  refine ((stepB m c 7 _ i).trans (if_neg hB7)).trans ?_
  by_cases hC6 : rq7 c + 64 * (6 : Fin 8).val ≤ (i 0).val ∧ (i 0).val < rq7 c + 64 * (6 : Fin 8).val + 64
  · exact (stepC m c 6 _ i).trans (if_pos hC6)
  refine ((stepC m c 6 _ i).trans (if_neg hC6)).trans ?_
  by_cases hB6 : rq5 c + 64 * (6 : Fin 8).val ≤ (i 0).val ∧ (i 0).val < rq5 c + 64 * (6 : Fin 8).val + 64
  · exact (stepB m c 6 _ i).trans (if_pos hB6)
  refine ((stepB m c 6 _ i).trans (if_neg hB6)).trans ?_
  by_cases hC5 : rq7 c + 64 * (5 : Fin 8).val ≤ (i 0).val ∧ (i 0).val < rq7 c + 64 * (5 : Fin 8).val + 64
  · exact (stepC m c 5 _ i).trans (if_pos hC5)
  refine ((stepC m c 5 _ i).trans (if_neg hC5)).trans ?_
  by_cases hB5 : rq5 c + 64 * (5 : Fin 8).val ≤ (i 0).val ∧ (i 0).val < rq5 c + 64 * (5 : Fin 8).val + 64
  · exact (stepB m c 5 _ i).trans (if_pos hB5)
  refine ((stepB m c 5 _ i).trans (if_neg hB5)).trans ?_
  by_cases hC4 : rq7 c + 64 * (4 : Fin 8).val ≤ (i 0).val ∧ (i 0).val < rq7 c + 64 * (4 : Fin 8).val + 64
  · exact (stepC m c 4 _ i).trans (if_pos hC4)
  refine ((stepC m c 4 _ i).trans (if_neg hC4)).trans ?_
  by_cases hB4 : rq5 c + 64 * (4 : Fin 8).val ≤ (i 0).val ∧ (i 0).val < rq5 c + 64 * (4 : Fin 8).val + 64
  · exact (stepB m c 4 _ i).trans (if_pos hB4)
  refine ((stepB m c 4 _ i).trans (if_neg hB4)).trans ?_
  by_cases hC3 : rq7 c + 64 * (3 : Fin 8).val ≤ (i 0).val ∧ (i 0).val < rq7 c + 64 * (3 : Fin 8).val + 64
  · exact (stepC m c 3 _ i).trans (if_pos hC3)
  refine ((stepC m c 3 _ i).trans (if_neg hC3)).trans ?_
  by_cases hB3 : rq5 c + 64 * (3 : Fin 8).val ≤ (i 0).val ∧ (i 0).val < rq5 c + 64 * (3 : Fin 8).val + 64
  · exact (stepB m c 3 _ i).trans (if_pos hB3)
  refine ((stepB m c 3 _ i).trans (if_neg hB3)).trans ?_
  by_cases hC2 : rq7 c + 64 * (2 : Fin 8).val ≤ (i 0).val ∧ (i 0).val < rq7 c + 64 * (2 : Fin 8).val + 64
  · exact (stepC m c 2 _ i).trans (if_pos hC2)
  refine ((stepC m c 2 _ i).trans (if_neg hC2)).trans ?_
  by_cases hB2 : rq5 c + 64 * (2 : Fin 8).val ≤ (i 0).val ∧ (i 0).val < rq5 c + 64 * (2 : Fin 8).val + 64
  · exact (stepB m c 2 _ i).trans (if_pos hB2)
  refine ((stepB m c 2 _ i).trans (if_neg hB2)).trans ?_
  by_cases hC1 : rq7 c + 64 * (1 : Fin 8).val ≤ (i 0).val ∧ (i 0).val < rq7 c + 64 * (1 : Fin 8).val + 64
  · exact (stepC m c 1 _ i).trans (if_pos hC1)
  refine ((stepC m c 1 _ i).trans (if_neg hC1)).trans ?_
  by_cases hB1 : rq5 c + 64 * (1 : Fin 8).val ≤ (i 0).val ∧ (i 0).val < rq5 c + 64 * (1 : Fin 8).val + 64
  · exact (stepB m c 1 _ i).trans (if_pos hB1)
  refine ((stepB m c 1 _ i).trans (if_neg hB1)).trans ?_
  by_cases hC0 : rq7 c + 64 * (0 : Fin 8).val ≤ (i 0).val ∧ (i 0).val < rq7 c + 64 * (0 : Fin 8).val + 64
  · exact (stepC m c 0 _ i).trans (if_pos hC0)
  refine ((stepC m c 0 _ i).trans (if_neg hC0)).trans ?_
  by_cases hB0 : rq5 c + 64 * (0 : Fin 8).val ≤ (i 0).val ∧ (i 0).val < rq5 c + 64 * (0 : Fin 8).val + 64
  · exact (stepB m c 0 _ i).trans (if_pos hB0)
  refine ((stepB m c 0 _ i).trans (if_neg hB0)).trans ?_
  by_cases hA7 : rq3 c + 64 * (7 : Fin 8).val ≤ (i 0).val ∧ (i 0).val < rq3 c + 64 * (7 : Fin 8).val + 64
  · exact (stepA m c 7 _ i).trans (if_pos hA7)
  refine ((stepA m c 7 _ i).trans (if_neg hA7)).trans ?_
  by_cases hA6 : rq3 c + 64 * (6 : Fin 8).val ≤ (i 0).val ∧ (i 0).val < rq3 c + 64 * (6 : Fin 8).val + 64
  · exact (stepA m c 6 _ i).trans (if_pos hA6)
  refine ((stepA m c 6 _ i).trans (if_neg hA6)).trans ?_
  by_cases hA5 : rq3 c + 64 * (5 : Fin 8).val ≤ (i 0).val ∧ (i 0).val < rq3 c + 64 * (5 : Fin 8).val + 64
  · exact (stepA m c 5 _ i).trans (if_pos hA5)
  refine ((stepA m c 5 _ i).trans (if_neg hA5)).trans ?_
  by_cases hA4 : rq3 c + 64 * (4 : Fin 8).val ≤ (i 0).val ∧ (i 0).val < rq3 c + 64 * (4 : Fin 8).val + 64
  · exact (stepA m c 4 _ i).trans (if_pos hA4)
  refine ((stepA m c 4 _ i).trans (if_neg hA4)).trans ?_
  by_cases hA3 : rq3 c + 64 * (3 : Fin 8).val ≤ (i 0).val ∧ (i 0).val < rq3 c + 64 * (3 : Fin 8).val + 64
  · exact (stepA m c 3 _ i).trans (if_pos hA3)
  refine ((stepA m c 3 _ i).trans (if_neg hA3)).trans ?_
  by_cases hA2 : rq3 c + 64 * (2 : Fin 8).val ≤ (i 0).val ∧ (i 0).val < rq3 c + 64 * (2 : Fin 8).val + 64
  · exact (stepA m c 2 _ i).trans (if_pos hA2)
  refine ((stepA m c 2 _ i).trans (if_neg hA2)).trans ?_
  by_cases hA1 : rq3 c + 64 * (1 : Fin 8).val ≤ (i 0).val ∧ (i 0).val < rq3 c + 64 * (1 : Fin 8).val + 64
  · exact (stepA m c 1 _ i).trans (if_pos hA1)
  refine ((stepA m c 1 _ i).trans (if_neg hA1)).trans ?_
  by_cases hA0 : rq3 c + 64 * (0 : Fin 8).val ≤ (i 0).val ∧ (i 0).val < rq3 c + 64 * (0 : Fin 8).val + 64
  · exact (stepA m c 0 _ i).trans (if_pos hA0)
  refine ((stepA m c 0 _ i).trans (if_neg hA0)).trans ?_
  exact (cover (rq3 c) (rq5 c) (rq7 c) (rq9 c) (i 0).val (quad c _ hr)
    (fun k => match k with
      | 0 => hA0 | 1 => hA1 | 2 => hA2 | 3 => hA3 | 4 => hA4 | 5 => hA5 | 6 => hA6 | 7 => hA7)
    (fun k => match k with
      | 0 => hB0 | 1 => hB1 | 2 => hB2 | 3 => hB3 | 4 => hB4 | 5 => hB5 | 6 => hB6 | 7 => hB7)
    (fun k => match k with
      | 0 => hC0 | 1 => hC1 | 2 => hC2 | 3 => hC3 | 4 => hC4 | 5 => hC5 | 6 => hC6 | 7 => hC7)
    (fun k => match k with
      | 0 => hE0 | 1 => hE1 | 2 => hE2 | 3 => hF3 | 4 => hF4 | 5 => hF5 | 6 => hD6 | 7 => hD7)).elim

end Cert.Kernel.RS

end
-- ==== Proof.K.Body.lean ====
import proofs.«901033_g7700000000001034_dist_rs_v7x_xyz2x2x4_x_m2048_n512_bf16_1_alg».proof.Proof.K.Proto
import proofs.«901033_g7700000000001034_dist_rs_v7x_xyz2x2x4_x_m2048_n512_bf16_1_alg».proof.Proof.K.Tables
import proofs.«901033_g7700000000001034_dist_rs_v7x_xyz2x2x4_x_m2048_n512_bf16_1_alg».proof.Proof.K.Credit
import proofs.«901033_g7700000000001034_dist_rs_v7x_xyz2x2x4_x_m2048_n512_bf16_1_alg».proof.Proof.K.Slots
import proofs.«901033_g7700000000001034_dist_rs_v7x_xyz2x2x4_x_m2048_n512_bf16_1_alg».proof.Proof.K.Steps
import proofs.«901033_g7700000000001034_dist_rs_v7x_xyz2x2x4_x_m2048_n512_bf16_1_alg».proof.Proof.K.Sends
import proofs.«901033_g7700000000001034_dist_rs_v7x_xyz2x2x4_x_m2048_n512_bf16_1_alg».proof.Proof.K.Local
import proofs.«901033_g7700000000001034_dist_rs_v7x_xyz2x2x4_x_m2048_n512_bf16_1_alg».proof.Proof.K.Pays
import proofs.«901033_g7700000000001034_dist_rs_v7x_xyz2x2x4_x_m2048_n512_bf16_1_alg».proof.Proof.K.Sems
import proofs.«901033_g7700000000001034_dist_rs_v7x_xyz2x2x4_x_m2048_n512_bf16_1_alg».proof.Proof.K.Close
import proofs.«901033_g7700000000001034_dist_rs_v7x_xyz2x2x4_x_m2048_n512_bf16_1_alg».proof.Proof.K.End
import proofs.«901033_g7700000000001034_dist_rs_v7x_xyz2x2x4_x_m2048_n512_bf16_1_alg».proof.Proof.K.Oblig
import proofs.«901033_g7700000000001034_dist_rs_v7x_xyz2x2x4_x_m2048_n512_bf16_1_alg».proof.Proof.K.OutW

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq dev31_eq dev32_eq dev33_eq dev34_eq dev35_eq

/-! ## The steps at the program's own spelling of a peer and of a semaphore

The printed program names a peer by its device-id chain and a semaphore by slicing its array; the tables name them by the
mesh functions and by number. Each step is restated with the program's spelling as a variable equal to the table's. -/

theorem step_wait_dma_at (K : GSem nD τ sig → ℕ) (c : Dev nD) (s s' : DmaSem sig) (hs' : s' = s) (hs : 2 ≤ s.val) (O : CellTallies nD τ sig Unit) (W : Waits sig Unit)
    (hmw : (levAts L lv : sProp 𝕄) ⊢ MayWait (c : Thread nD τ) (.dma s) () O) (P : sProp 𝕄) (hP : dmaPay m c s.val = P)
    {sp sp' : Space} {sh sh' : Shape} {e e' : EltTy} {src : Memref sig .tc sp' sh' e'} {dst : Memref sig .tc sp sh e}
    {hsrc : src.view.WordExact} {hdst : dst.view.WordExact}
    {α : Type} {Q : α → sProp 𝕄} {k : PUnit → Prog (TpuEff nD τ sig (Elt F) Λ₀ .tc) α} :
    iprop(⌜dst.view.dmaCredit = Nc⌝ ∗ records m K ∗ levAts L lv ∗ cred (tallyAt (dcell c s) () Nc) ∗ owes (c : Thread nD τ) O W ∗ atPos ER (dcell c s) 0 ∅ 0)
      ⊢ iprop(((owes (c : Thread nD τ) O (insert (SemLoc.dma s, ()) W) ∗ atPos ER (dcell c s) (0 + 1) ∅ 0 ∗ P) -∗ WP c (k ⟨⟩) Q)
          -∗ WP c (.op (.waitDma2 s' src dst hsrc hdst) k) Q) := by
  subst hs' hP
  iintro ⟨%hN, H⟩
  iapply (step_wait_dma m K c s' hs O W hmw hN)
  iexact H

theorem send_X_at (K : GSem nD τ sig → ℕ) (c : Dev nD) (k : Fin 8) (p' : Dev nD) (hp : p' = partner c) (sS' sR' : DmaSem sig) (hS : sS' = sxS k) (hR : sR' = rxS k)
    (fd : Buf (Elt F) ((slot8 rxM k).view.loc ((partner c : Dev nD) : Thread nD τ))) (d : ℕ) (hd : (pays c).drop d = (dcell (partner c) (rxS k), Nc) :: (pays c).drop (d + 1)) (W : Waits sig Unit)
    {hsc} {hsrc} {hdst} {hsem} {α : Type} {Q : α → sProp 𝕄} {k' : PUnit → Prog (TpuEff nD τ sig (Elt F) Λ₀ .tc) α} :
    iprop(records m K ∗ sxPts m c k fullShare ∗ ((slot8 rxM k).view.loc ((partner c : Dev nD) : Thread nD τ) ↦[(slot8 rxM k).view.set]{fullShare} fd)
        ∗ owes (c : Thread nD τ) (owe ((pays c).drop d)) W ∗ dutyTok ER (dcell c (sxS k)) 0 0 ∗ dutyTok ER (dcell (partner c) (rxS k)) 0 0)
      ⊢ iprop(((cred (tallyAt (dcell c (sxS k)) () Nc) ∗ owes (c : Thread nD τ) (owe ((pays c).drop (d + 1))) W) -∗ WP c (k' ⟨⟩) Q)
          -∗ WP c (.op (.enqueueDma (slot8 sxM k) (.remote (Dev.tc p' : Thread nD τ) (slot8 rxM k) (.dma sS') hsc) (.dma sR') hsrc hdst hsem) k') Q) := by
  subst hp hS hR; rw [hd]; exact send_X m K c k fd ((pays c).drop (d + 1)) W
theorem send_XD_at (K : GSem nD τ sig → ℕ) (c : Dev nD) (k : Fin 2) (p' : Dev nD) (hp : p' = partner c) (sS' sR' : DmaSem sig) (hS : sS' = sx2S k) (hR : sR' = rx2S k)
    (fd : Buf (Elt F) ((slot2 rx2M k).view.loc ((partner c : Dev nD) : Thread nD τ))) (d : ℕ) (hd : (pays c).drop d = (dcell (partner c) (rx2S k), Nc) :: (pays c).drop (d + 1)) (W : Waits sig Unit)
    {hsc} {hsrc} {hdst} {hsem} {α : Type} {Q : α → sProp 𝕄} {k' : PUnit → Prog (TpuEff nD τ sig (Elt F) Λ₀ .tc) α} :
    iprop(records m K ∗ sx2Pts m c k fullShare ∗ ((slot2 rx2M k).view.loc ((partner c : Dev nD) : Thread nD τ) ↦[(slot2 rx2M k).view.set]{fullShare} fd)
        ∗ owes (c : Thread nD τ) (owe ((pays c).drop d)) W ∗ dutyTok ER (dcell c (sx2S k)) 0 0 ∗ dutyTok ER (dcell (partner c) (rx2S k)) 0 0)
      ⊢ iprop(((cred (tallyAt (dcell c (sx2S k)) () Nc) ∗ owes (c : Thread nD τ) (owe ((pays c).drop (d + 1))) W) -∗ WP c (k' ⟨⟩) Q)
          -∗ WP c (.op (.enqueueDma (slot2 sx2M k) (.remote (Dev.tc p' : Thread nD τ) (slot2 rx2M k) (.dma sS') hsc) (.dma sR') hsrc hdst hsem) k') Q) := by
  subst hp hS hR; rw [hd]; exact send_XD m K c k fd ((pays c).drop (d + 1)) W
theorem send_YD_at (K : GSem nD τ sig → ℕ) (c : Dev nD) (k : Fin 8) (p' : Dev nD) (hp : p' = buddy c) (sS' sR' : DmaSem sig) (hS : sS' = sydS k) (hR : sR' = rydS k)
    (fd : Buf (Elt F) ((slot8 rydM k).view.loc ((buddy c : Dev nD) : Thread nD τ))) (d : ℕ) (hd : (pays c).drop d = (dcell (buddy c) (rydS k), Nc) :: (pays c).drop (d + 1)) (W : Waits sig Unit)
    {hsc} {hsrc} {hdst} {hsem} {α : Type} {Q : α → sProp 𝕄} {k' : PUnit → Prog (TpuEff nD τ sig (Elt F) Λ₀ .tc) α} :
    iprop(records m K ∗ rxPts m c k fullShare.left ∗ ((slot8 rydM k).view.loc ((buddy c : Dev nD) : Thread nD τ) ↦[(slot8 rydM k).view.set]{fullShare} fd)
        ∗ owes (c : Thread nD τ) (owe ((pays c).drop d)) W ∗ dutyTok ER (dcell c (sydS k)) 0 0 ∗ dutyTok ER (dcell (buddy c) (rydS k)) 0 0)
      ⊢ iprop(((cred (tallyAt (dcell c (sydS k)) () Nc) ∗ owes (c : Thread nD τ) (owe ((pays c).drop (d + 1))) W) -∗ WP c (k' ⟨⟩) Q)
          -∗ WP c (.op (.enqueueDma (slot8 rxM k) (.remote (Dev.tc p' : Thread nD τ) (slot8 rydM k) (.dma sS') hsc) (.dma sR') hsrc hdst hsem) k') Q) := by
  subst hp hS hR; rw [hd]; exact send_YD m K c k fd ((pays c).drop (d + 1)) W
theorem send_ZD_at (K : GSem nD τ sig → ℕ) (c : Dev nD) (k : Fin 8) (p' : Dev nD) (hp : p' = zpair c) (sS' sR' : DmaSem sig) (hS : sS' = szdS k) (hR : sR' = rzdS k)
    (fd : Buf (Elt F) ((slot8 rzdM k).view.loc ((zpair c : Dev nD) : Thread nD τ))) (d : ℕ) (hd : (pays c).drop d = (dcell (zpair c) (rzdS k), Nc) :: (pays c).drop (d + 1)) (W : Waits sig Unit)
    {hsc} {hsrc} {hdst} {hsem} {α : Type} {Q : α → sProp 𝕄} {k' : PUnit → Prog (TpuEff nD τ sig (Elt F) Λ₀ .tc) α} :
    iprop(records m K ∗ rxPts m c k fullShare.right.left ∗ ((slot8 rzdM k).view.loc ((zpair c : Dev nD) : Thread nD τ) ↦[(slot8 rzdM k).view.set]{fullShare} fd)
        ∗ owes (c : Thread nD τ) (owe ((pays c).drop d)) W ∗ dutyTok ER (dcell c (szdS k)) 0 0 ∗ dutyTok ER (dcell (zpair c) (rzdS k)) 0 0)
      ⊢ iprop(((cred (tallyAt (dcell c (szdS k)) () Nc) ∗ owes (c : Thread nD τ) (owe ((pays c).drop (d + 1))) W) -∗ WP c (k' ⟨⟩) Q)
          -∗ WP c (.op (.enqueueDma (slot8 rxM k) (.remote (Dev.tc p' : Thread nD τ) (slot8 rzdM k) (.dma sS') hsc) (.dma sR') hsrc hdst hsem) k') Q) := by
  subst hp hS hR; rw [hd]; exact send_ZD m K c k fd ((pays c).drop (d + 1)) W
theorem send_YR_at (K : GSem nD τ sig → ℕ) (c : Dev nD) (k : Fin 3) (k8 : Fin 8) (hk8 : k8 = in8 k) (p' : Dev nD) (hp : p' = buddy c) (sS' sR' : DmaSem sig) (hS : sS' = syrS k) (hR : sR' = ryrS k)
    (fd : Buf (Elt F) ((slot3 ryrM k).view.loc ((buddy c : Dev nD) : Thread nD τ))) (d : ℕ) (hd : (pays c).drop d = (dcell (buddy c) (ryrS k), Nc) :: (pays c).drop (d + 1)) (W : Waits sig Unit)
    {hsc} {hsrc} {hdst} {hsem} {α : Type} {Q : α → sProp 𝕄} {k' : PUnit → Prog (TpuEff nD τ sig (Elt F) Λ₀ .tc) α} :
    iprop(records m K ∗ rzdPts m c k8 fullShare.left ∗ ((slot3 ryrM k).view.loc ((buddy c : Dev nD) : Thread nD τ) ↦[(slot3 ryrM k).view.set]{fullShare} fd)
        ∗ owes (c : Thread nD τ) (owe ((pays c).drop d)) W ∗ dutyTok ER (dcell c (syrS k)) 0 0 ∗ dutyTok ER (dcell (buddy c) (ryrS k)) 0 0)
      ⊢ iprop(((cred (tallyAt (dcell c (syrS k)) () Nc) ∗ owes (c : Thread nD τ) (owe ((pays c).drop (d + 1))) W) -∗ WP c (k' ⟨⟩) Q)
          -∗ WP c (.op (.enqueueDma (slot8 rzdM k8) (.remote (Dev.tc p' : Thread nD τ) (slot3 ryrM k) (.dma sS') hsc) (.dma sR') hsrc hdst hsem) k') Q) := by
  subst hk8 hp hS hR; rw [hd]; exact send_YR m K c k fd ((pays c).drop (d + 1)) W
theorem send_ZR_at (K : GSem nD τ sig → ℕ) (c : Dev nD) (k : Fin 3) (k8 : Fin 8) (hk8 : k8 = up3 k) (p' : Dev nD) (hp : p' = zpair c) (sS' sR' : DmaSem sig) (hS : sS' = szrS k) (hR : sR' = rzrS k)
    (fd : Buf (Elt F) ((slot3 rzrM k).view.loc ((zpair c : Dev nD) : Thread nD τ))) (d : ℕ) (hd : (pays c).drop d = (dcell (zpair c) (rzrS k), Nc) :: (pays c).drop (d + 1)) (W : Waits sig Unit)
    {hsc} {hsrc} {hdst} {hsem} {α : Type} {Q : α → sProp 𝕄} {k' : PUnit → Prog (TpuEff nD τ sig (Elt F) Λ₀ .tc) α} :
    iprop(records m K ∗ rydPts m c k8 fullShare.left ∗ ((slot3 rzrM k).view.loc ((zpair c : Dev nD) : Thread nD τ) ↦[(slot3 rzrM k).view.set]{fullShare} fd)
        ∗ owes (c : Thread nD τ) (owe ((pays c).drop d)) W ∗ dutyTok ER (dcell c (szrS k)) 0 0 ∗ dutyTok ER (dcell (zpair c) (rzrS k)) 0 0)
      ⊢ iprop(((cred (tallyAt (dcell c (szrS k)) () Nc) ∗ owes (c : Thread nD τ) (owe ((pays c).drop (d + 1))) W) -∗ WP c (k' ⟨⟩) Q)
          -∗ WP c (.op (.enqueueDma (slot8 rydM k8) (.remote (Dev.tc p' : Thread nD τ) (slot3 rzrM k) (.dma sS') hsc) (.dma sR') hsrc hdst hsem) k') Q) := by
  subst hk8 hp hS hR; rw [hd]; exact send_ZR m K c k fd ((pays c).drop (d + 1)) W

/-! ## The body's steps as tactics, one per kind of step, at chunk `k`

The body is straight-line code that repeats a few kinds of step over the chunks. Each kind is written once, as the text of
its tactic steps with the chunk's number left open; the hypotheses of chunk `k` carry `k` in their names. -/

section Tactics
open Lean Elab Tactic

/-- Run tactic text. -/
def runText (s : String) : TacticM Unit := do
  match Parser.runParserCategory (← getEnv) `tactic s with
  | .ok stx => evalTactic stx
  | .error e => throwError "{e}\n{s}"

/-- A wait on the device's own DMA cell `sem k` while `(pays c).drop d` is still owed: the credit `cr` and the position `pos`
    go in, the cell's payload comes out as `pay`, restated by the table lemma `tbl`. -/
def waitText (sem semL : String) (k d : Nat) (mw cr pos pay tbl payT : String) : String :=
  s!"(
  try dsimp only [Prog.bind]
  try sl_exec_parts
  try dsimp only [Prog.bind]
  try sl_exec_parts
  iapply (step_wait_dma_at m K c ({sem} {k}) _ {semL}_{k} (by decide) (owe ((pays c).drop {d})) _ {mw} ({payT}) ((payload_dma m c ({sem} {k}) 0).symm.trans ({tbl} m c {k} 0))) $$ [{cr} HO {pos}]
  · isplitr; · ipureintro; first | rfl | decide
    isplitr; · iexact HR
    isplitr; · iexact Hlev
    isplitl [{cr}]; · iexact {cr}
    isplitl [HO]; · iexact HO
    iexact {pos}
  iintro ⟨HO, {pos}, {pay}⟩
  dsimp only [WP]
)"

/-- An addressed copy by the rule `rule` at chunk `k`, payment number `d`: source `src`, the peer's landing slot `dst` (its
    buffer read at `g`), the two duty tokens `tS` `tR`; the send cell's credit comes out as `cS`. -/
def sendText (rule : String) (k dev : Nat) (semS semR g : String) (d : Nat) (src dst tS tR cS : String) (extra : String := "") : String :=
  s!"(
  try dsimp only [Prog.bind]
  try sl_exec_parts
  try dsimp only [Prog.bind]
  try sl_exec_parts
  iapply ({rule}_at m K c {k} {extra} _ (dev{dev}_eq c) _ _ {semS}_{k} {semR}_{k} {g} {d} (drop_{d} c) _) $$ [{src} {dst} HO {tS} {tR}]
  · isplitr; · iexact HR
    isplitl [{src}]; · first | iexact {src} | (unfold rxPts; iexact {src}) | (unfold rzdPts; iexact {src}) | (unfold rydPts; iexact {src})
    isplitl [{dst}]; · iexact {dst}
    isplitl [HO]; · iexact HO
    isplitl [{tS}]; · iexact {tS}
    iexact {tR}
  iintro ⟨{cS}, HO⟩
  dsimp only [WP]
)"

/-- The load of chunk `k` of buffer `M` (read at `cont m c`) from the share `q` held as `h`. -/
def loadText (rule M : String) (k : Nat) (q cont h : String) (offN kk : Nat) : String :=
  s!"(
  try dsimp only [Prog.bind]
  try sl_exec_parts
  try dsimp only [Prog.bind]
  try sl_exec_parts
  try (
    iapply ({rule} c {M} {k} {q} ({cont} m c)) $$ {h}
    iintro {h}
    dsimp only [WP])
  try dsimp only [Prog.bind]
  try sl_exec_parts
  try (
    iapply (wp_load Variants.none (c : Thread nD τ) none Set.univ (m := oM) (Finset.subset_univ _)) $$ Ho
    iintro Ho)
  try (
    iapply (wp_store Variants.none (c : Thread nD τ) none Set.univ (m := oM) (r := Rect.unit (s := S2048x512) (k0_off{offN} c (BitVec.ofNat 32 (64 * ({kk} : Fin 8).val))) S64x512.size (k0_off{offN}_inb c {kk})) (Mk := Finset.univ) (Finset.subset_univ _)) $$ Ho
    iintro Ho)
  try sl_exec_parts
  try dsimp only [Prog.bind]
)"

def mw0 : String := "(by rw [owe_nil', MayWait_zero]; iintro -; iempintro)"

/-- Chunk `k` of the send buffer: the cast of the partner's columns is stored and sent to the partner. -/
elab "x_iter " k:num : tactic => do
  let n := k.getNat
  runText s!"(
  try dsimp only [Prog.bind]
  try sl_exec_parts
  try dsimp only [Prog.bind]
  try sl_exec_parts
  ihave S0_{n} := (Entails.of_eq (sx_stored m c {n} f0)) $$ [S0_{n}]
  · iexact S0_{n}
)"
  runText (sendText "send_X" n (4 + n) "sem_sx" "sem_rx" "g2" (3 + n) s!"S0_{n}" s!"P2_{n}" s!"TSx{n}" s!"TRx{n}" s!"CSx{n}")

/-- Chunk `6 + k` of the diagonal quadrant: stored in the second send buffer and sent to the partner. -/
elab "xd_iter " k:num : tactic => do
  let n := k.getNat
  runText s!"(
  try dsimp only [Prog.bind]
  try sl_exec_parts
  try dsimp only [Prog.bind]
  try sl_exec_parts
  ihave S1_{n} := (Entails.of_eq (sx2_stored m c {n} f1)) $$ [S1_{n}]
  · iexact S1_{n}
)"
  runText (sendText "send_XD" n (12 + n) "sem_sx2" "sem_rx2" "g3" (11 + n) s!"S1_{n}" s!"P3_{n}" s!"TSd{n}" s!"TRd{n}" s!"CSd{n}")

/-- Chunk `k` has landed from the partner: it is forwarded to the buddy and to the z-pair, and added to the own quadrant. -/
elab "fwd_iter " k:num : tactic => do
  let n := k.getNat
  runText (waitText "rxS" "sem_rx" n (13 + 2 * n) s!"(mayWait_rx c {n})" s!"CRx{n}" s!"ARx{n}" s!"RX_{n}" "payload_rx" s!"rxPts m c {n} fullShare")
  runText s!"(
  unfold rxPts
  ihave RX_{n} := (share3 ((slot8 rxM {n}).view.loc (c : Thread nD τ)) (slot8 rxM {n}).view.set (RX m c)).1 $$ RX_{n}
  icases RX_{n} with ⟨RXa_{n}, RXb_{n}, RXc_{n}⟩
)"
  runText (sendText "send_YD" n (14 + 2 * n) "sem_syd" "sem_ryd" "g4" (13 + 2 * n) s!"RXa_{n}" s!"B4_{n}" s!"TSyd{n}" s!"TRyd{n}" s!"CSyd{n}")
  runText (sendText "send_ZD" n (15 + 2 * n) "sem_szd" "sem_rzd" "g5" (14 + 2 * n) s!"RXb_{n}" s!"Z5_{n}" s!"TSzd{n}" s!"TRzd{n}" s!"CSzd{n}")
  runText (loadText "load_chunk8" "rxM" n "fullShare.right.right" "RX" s!"RXc_{n}" 4 n)

/-- Chunk `k` forwarded by the z-pair: for `k < 3` forwarded on to the buddy (the diagonal quadrant's chunk `k`); added to the
    z-pair's quadrant. -/
elab "z_iter " k:num : tactic => do
  let n := k.getNat
  let d := #[29, 30, 31, 32, 33, 34, 35, 35][n]!
  runText (waitText "rzdS" "sem_rzd" n d s!"(mayWait_rzd c {n})" s!"CRzd{n}" s!"ARzd{n}" s!"RZD_{n}" "payload_rzd" s!"rzdPts m c {n} fullShare")
  if n < 3 then
    runText s!"(
  unfold rzdPts
  ihave RZD_{n} := (share2 ((slot8 rzdM {n}).view.loc (c : Thread nD τ)) (slot8 rzdM {n}).view.set (RZD m c)).1 $$ RZD_{n}
  icases RZD_{n} with ⟨RZDa_{n}, RZDb_{n}⟩
)"
    runText (sendText "send_YR" n (30 + n) "sem_syr" "sem_ryr" "g6" (29 + n) s!"RZDa_{n}" s!"B6_{n}" s!"TSyr{n}" s!"TRyr{n}" s!"CSyr{n}" s!"{n} (by decide)")
    runText (loadText "load_chunk8" "rzdM" n "fullShare.right" "RZD" s!"RZDb_{n}" 6 n)
  else
    runText "(unfold rzdPts)"
    runText (loadText "load_chunk8" "rzdM" n "fullShare" "RZD" s!"RZD_{n}" 6 n)

/-- Chunk `k` forwarded by the buddy: for `3 ≤ k < 6` forwarded on to the z-pair (the diagonal quadrant's chunk `k`); added to
    the buddy's quadrant. -/
elab "b_iter " k:num : tactic => do
  let n := k.getNat
  let d := #[30, 31, 32, 32, 33, 34, 35, 35][n]!
  runText (waitText "rydS" "sem_ryd" n d s!"(mayWait_ryd c {n})" s!"CRyd{n}" s!"ARyd{n}" s!"RYD_{n}" "payload_ryd" s!"rydPts m c {n} fullShare")
  if 3 ≤ n ∧ n < 6 then
    runText s!"(
  unfold rydPts
  ihave RYD_{n} := (share2 ((slot8 rydM {n}).view.loc (c : Thread nD τ)) (slot8 rydM {n}).view.set (RYD m c)).1 $$ RYD_{n}
  icases RYD_{n} with ⟨RYDa_{n}, RYDb_{n}⟩
)"
    runText (sendText "send_ZR" (n - 3) (33 + (n - 3)) "sem_szr" "sem_rzr" "g7" (32 + (n - 3)) s!"RYDa_{n}" s!"Z7_{n - 3}" s!"TSzr{n - 3}" s!"TRzr{n - 3}" s!"CSzr{n - 3}" s!"{n} (by decide)")
    runText (loadText "load_chunk8" "rydM" n "fullShare.right" "RYD" s!"RYDb_{n}" 8 n)
  else
    runText "(unfold rydPts)"
    runText (loadText "load_chunk8" "rydM" n "fullShare" "RYD" s!"RYD_{n}" 8 n)

/-- The diagonal quadrant's chunks: `6 + k` straight from the partner; `k` through the z-pair and the buddy; `3 + k` through
    the buddy and the z-pair. -/
elab "d_direct " k:num : tactic => do
  let n := k.getNat
  runText (waitText "rx2S" "sem_rx2" n 35 mw0 s!"CRd{n}" s!"ARd{n}" s!"RD_{n}" "payload_rx2" s!"rx2Pts m c {n} fullShare")
  runText "(unfold rx2Pts)"
  runText (loadText "load_chunk2" "rx2M" n "fullShare" "RX2" s!"RD_{n}" 10 (6 + n))
elab "d_via_y " k:num : tactic => do
  let n := k.getNat
  runText (waitText "ryrS" "sem_ryr" n 35 mw0 s!"CRyr{n}" s!"ARyr{n}" s!"RYR_{n}" "payload_ryr" s!"ryrPts m c {n} fullShare")
  runText "(unfold ryrPts)"
  runText (loadText "load_chunk3" "ryrM" n "fullShare" "RYR" s!"RYR_{n}" 10 n)
elab "d_via_z " k:num : tactic => do
  let n := k.getNat
  runText (waitText "rzrS" "sem_rzr" n 35 mw0 s!"CRzr{n}" s!"ARzr{n}" s!"RZR_{n}" "payload_rzr" s!"rzrPts m c {n} fullShare")
  runText "(unfold rzrPts)"
  runText (loadText "load_chunk3" "rzrM" n "fullShare" "RZR" s!"RZR_{n}" 10 (3 + n))

/-- The wait for a copy's source to have been read: the lent share comes back. -/
elab "sent " fam:ident k:num : tactic => do
  let n := k.getNat
  let (sem, semL, tbl, pay, payT) ← match fam.getId.toString with
    | "x" => pure ("sxS", "sem_sx", "payload_sx", s!"S0_{n}", s!"sxPts m c {n} fullShare")
    | "xd" => pure ("sx2S", "sem_sx2", "payload_sx2", s!"S1_{n}", s!"sx2Pts m c {n} fullShare")
    | "yd" => pure ("sydS", "sem_syd", "payload_syd", s!"RXa_{n}", s!"rxPts m c {n} fullShare.left")
    | "zd" => pure ("szdS", "sem_szd", "payload_szd", s!"RXb_{n}", s!"rxPts m c {n} fullShare.right.left")
    | "yr" => pure ("syrS", "sem_syr", "payload_syr", s!"RZDa_{n}", s!"rzdPts m c {n} fullShare.left")
    | "zr" => pure ("szrS", "sem_szr", "payload_szr", s!"RYDa_{n + 3}", s!"rydPts m c {n + 3} fullShare.left")
    | _ => throwError "unknown family"
  let nm := match fam.getId.toString with
    | "x" => "Sx" | "xd" => "Sd" | "yd" => "Syd" | "zd" => "Szd" | "yr" => "Syr" | _ => "Szr"
  runText (waitText sem semL n 35 mw0 s!"C{nm}{n}" s!"A{nm}{n}" pay tbl payT)

/-- The atoms the body ends with, in the order the closing lemma takes them. -/
def endAtoms : List String :=
  (List.range 8).map (fun k => s!"S0_{k}") ++ (List.range 2).map (fun k => s!"S1_{k}")
  ++ (List.range 8).flatMap (fun k => [s!"RXa_{k}", s!"RXb_{k}", s!"RXc_{k}"])
  ++ (List.range 2).map (fun k => s!"RD_{k}")
  ++ ["RYD_0", "RYD_1", "RYD_2", "RYDa_3", "RYDb_3", "RYDa_4", "RYDb_4", "RYDa_5", "RYDb_5", "RYD_6", "RYD_7"]
  ++ ["RZDa_0", "RZDb_0", "RZDa_1", "RZDb_1", "RZDa_2", "RZDb_2", "RZD_3", "RZD_4", "RZD_5", "RZD_6", "RZD_7"]
  ++ (List.range 3).map (fun k => s!"RYR_{k}") ++ (List.range 3).map (fun k => s!"RZR_{k}")
  ++ [("Sx", 8), ("Rx", 8), ("Sd", 2), ("Rd", 2), ("Syd", 8), ("Ryd", 8), ("Szd", 8), ("Rzd", 8), ("Syr", 3), ("Ryr", 3), ("Szr", 3), ("Rzr", 3)].flatMap
      (fun p => (List.range p.2).map (fun k => s!"A{p.1}{k}"))

/-- The end of the body: every chunk and every position is handed to the closing lemma; the device's cells are closed and its
    scratch buffers whole again (`HPhi`). -/
elab "close_body" : tactic => do
  let names := endAtoms
  let feed := " ".intercalate names
  let unf := "(repeat (first | unfold sxPts | unfold sx2Pts | unfold rxPts | unfold rx2Pts | unfold rydPts | unfold rzdPts | unfold ryrPts | unfold rzrPts))"
  let splits := "\n".intercalate (names.dropLast.map fun n => s!"    isplitl [{n}]; · first | iexact {n} | ({unf}; iexact {n})")
  runText s!"(
  imod (endgame m K c) $$ [{feed}] with HPhi
  · isplitr; · iexact HR
{splits}
    iexact {names.getLast!}
)"

end Tactics

set_option maxHeartbeats 16000000 in
/-- The body of device `c`, run from its ghost state, its credit, its buffers and what it owes. -/
theorem sound_body (K : GSem nD τ sig → ℕ) (c : Dev nD) (fo : Bf (F := F) c oM) (f0 : Bf (F := F) c sxM) (f1 : Bf (F := F) c sx2M) (f2 : Bf (F := F) c rxM) (f3 : Bf (F := F) c rx2M)
    (f4 : Bf (F := F) c rydM) (f5 : Bf (F := F) c rzdM) (f6 : Bf (F := F) c ryrM) (f7 : Bf (F := F) c rzrM) (W : Waits sig Unit) (Q : PUnit → sProp 𝕄) :
    iprop(records m K ∗ levAts L lv ∗ positions c ∗ payToks c ∗ creds c ∗ pt c xM (xstg m c) ∗ pt c oM fo
        ∗ pt c sxM f0 ∗ pt c sx2M f1 ∗ pt c rxM f2 ∗ pt c rx2M f3 ∗ pt c rydM f4 ∗ pt c rzdM f5 ∗ pt c ryrM f6 ∗ pt c rzrM f7
        ∗ owes (c : Thread nD τ) (owe ((pays c).drop 0)) W
        ∗ ((Φ₁ c ∗ (∃ W', owes (c : Thread nD τ) (owe ((pays c).drop 35)) W') ∗ pt c xM (xstg m c) ∗ pt c oM (outAt m c)) -∗ Q ⟨⟩))
      ⊢ wp frame (wpE (defs₀ (F := F)) Variants.none c none) Set.univ
          (cc0_body xM (Memref.isWhole_whole _) oM (Memref.isWhole_whole _) sxM (Memref.isWhole_whole _) sx2M (Memref.isWhole_whole _) rxM (Memref.isWhole_whole _) rx2M (Memref.isWhole_whole _)
            rydM (Memref.isWhole_whole _) rzdM (Memref.isWhole_whole _) ryrM (Memref.isWhole_whole _) rzrM (Memref.isWhole_whole _)
            cc0_scratch8 cc0_scratch9 cc0_scratch10 cc0_scratch11 cc0_scratch12 cc0_scratch13 cc0_scratch14 cc0_scratch15 cc0_scratch16 cc0_scratch17 cc0_scratch18 cc0_scratch19) Q := by
  unfold positions payToks creds
  simp only [bigSep_fin8, bigSep_fin2, bigSep_fin3]
  iintro ⟨#HR, #Hlev, ⟨APb, ⟨ASx0, ASx1, ASx2, ASx3, ASx4, ASx5, ASx6, ASx7⟩, ⟨ARx0, ARx1, ARx2, ARx3, ARx4, ARx5, ARx6, ARx7⟩, ⟨ASd0, ASd1⟩, ⟨ARd0, ARd1⟩, ⟨ASyd0, ASyd1, ASyd2, ASyd3, ASyd4, ASyd5, ASyd6, ASyd7⟩, ⟨ARyd0, ARyd1, ARyd2, ARyd3, ARyd4, ARyd5, ARyd6, ARyd7⟩, ⟨ASzd0, ASzd1, ASzd2, ASzd3, ASzd4, ASzd5, ASzd6, ASzd7⟩, ⟨ARzd0, ARzd1, ARzd2, ARzd3, ARzd4, ARzd5, ARzd6, ARzd7⟩, ⟨ASyr0, ASyr1, ASyr2⟩, ⟨ARyr0, ARyr1, ARyr2⟩, ⟨ASzr0, ASzr1, ASzr2⟩, ⟨ARzr0, ARzr1, ARzr2⟩⟩, ⟨Tp, Tb, Tz, ⟨⟨TSx0, TRx0⟩, ⟨TSx1, TRx1⟩, ⟨TSx2, TRx2⟩, ⟨TSx3, TRx3⟩, ⟨TSx4, TRx4⟩, ⟨TSx5, TRx5⟩, ⟨TSx6, TRx6⟩, ⟨TSx7, TRx7⟩⟩, ⟨⟨TSd0, TRd0⟩, ⟨TSd1, TRd1⟩⟩, ⟨⟨TSyd0, TRyd0⟩, ⟨TSyd1, TRyd1⟩, ⟨TSyd2, TRyd2⟩, ⟨TSyd3, TRyd3⟩, ⟨TSyd4, TRyd4⟩, ⟨TSyd5, TRyd5⟩, ⟨TSyd6, TRyd6⟩, ⟨TSyd7, TRyd7⟩⟩, ⟨⟨TSzd0, TRzd0⟩, ⟨TSzd1, TRzd1⟩, ⟨TSzd2, TRzd2⟩, ⟨TSzd3, TRzd3⟩, ⟨TSzd4, TRzd4⟩, ⟨TSzd5, TRzd5⟩, ⟨TSzd6, TRzd6⟩, ⟨TSzd7, TRzd7⟩⟩, ⟨⟨TSyr0, TRyr0⟩, ⟨TSyr1, TRyr1⟩, ⟨TSyr2, TRyr2⟩⟩, ⟨⟨TSzr0, TRzr0⟩, ⟨TSzr1, TRzr1⟩, ⟨TSzr2, TRzr2⟩⟩⟩, ⟨Cb, ⟨CRx0, CRx1, CRx2, CRx3, CRx4, CRx5, CRx6, CRx7⟩, ⟨CRd0, CRd1⟩, ⟨CRyd0, CRyd1, CRyd2, CRyd3, CRyd4, CRyd5, CRyd6, CRyd7⟩, ⟨CRzd0, CRzd1, CRzd2, CRzd3, CRzd4, CRzd5, CRzd6, CRzd7⟩, ⟨CRyr0, CRyr1, CRyr2⟩, ⟨CRzr0, CRzr1, CRzr2⟩⟩, Hx, Ho, H0, H1, H2, H3, H4, H5, H6, H7, HO, Hk⟩
  -- the two send buffers are used chunk by chunk
  ihave H0 := ((split8 c sxM (Memref.isWhole_whole _) fullShare f0).1.trans (Entails.of_eq (bigSep_fin8 _))) $$ H0
  icases H0 with ⟨S0_0, S0_1, S0_2, S0_3, S0_4, S0_5, S0_6, S0_7⟩
  ihave H1 := ((split2 c sx2M (Memref.isWhole_whole _) fullShare f1).1.trans (Entails.of_eq (bigSep_fin2 _))) $$ H1
  icases H1 with ⟨S1_0, S1_1⟩
  sl_exec_parts
  -- the three barrier units: each peer is handed the two landing buffers it writes
  ihave HO := (Entails.of_eq (owes_drop c 0 _ W (drop_0 c))) $$ HO
  iapply (step_signal m K c (partner c) 0 ((pays c).drop 1) W) $$ [HO Tp H2 H3]
  · isplitr; · iexact HR
    isplitl [HO]; · iexact HO
    isplitl [Tp]; · iexact Tp
    unfold barPay anyBuf; rw [if_pos rfl, partner_partner]
    isplitl [H2]; · iexists f2; iexact H2
    iexists f3; iexact H3
  iintro HO
  dsimp only [WP]
  sl_exec_parts
  ihave HO := (Entails.of_eq (owes_drop c 1 _ W (drop_1 c))) $$ HO
  iapply (step_signal m K c (buddy c) 1 ((pays c).drop 2) W) $$ [HO Tb H4 H6]
  · isplitr; · iexact HR
    isplitl [HO]; · iexact HO
    isplitl [Tb]; · iexact Tb
    unfold barPay anyBuf; rw [if_neg (by decide), if_pos rfl, buddy_buddy]
    isplitl [H4]; · iexists f4; iexact H4
    iexists f6; iexact H6
  iintro HO
  dsimp only [WP]
  sl_exec_parts
  ihave HO := (Entails.of_eq (owes_drop c 2 _ W (drop_2 c))) $$ HO
  iapply (step_signal m K c (zpair c) 2 ((pays c).drop 3) W) $$ [HO Tz H5 H7]
  · isplitr; · iexact HR
    isplitl [HO]; · iexact HO
    isplitl [Tz]; · iexact Tz
    unfold barPay anyBuf; rw [if_neg (by decide), if_neg (by decide), zpair_zpair]
    isplitl [H5]; · iexists f5; iexact H5
    iexists f7; iexact H7
  iintro HO
  dsimp only [WP]
  sl_exec_parts
  iapply (step_barwait m K c (owe ((pays c).drop 3)) W (mayWait_bar c)) $$ [Cb HO APb]
  · isplitr; · iexact HR
    isplitr; · iexact Hlev
    isplitl [Cb]; · iexact Cb
    isplitl [HO]; · iexact HO
    iexact APb
  unfold barPay anyBuf
  rw [if_pos rfl, if_neg (by decide), if_pos rfl, if_neg (by decide), if_neg (by decide)]
  iintro ⟨HO, APb, ⟨⟨%g2, P2⟩, ⟨%g3, P3⟩⟩, ⟨⟨%g4, B4⟩, ⟨%g6, B6⟩⟩, ⟨⟨%g5, Z5⟩, ⟨%g7, Z7⟩⟩⟩
  dsimp only [WP]
  -- the peers' landing buffers, chunk by chunk
  ihave P2 := ((split8 (partner c) rxM (Memref.isWhole_whole _) fullShare g2).1.trans (Entails.of_eq (bigSep_fin8 _))) $$ P2
  icases P2 with ⟨P2_0, P2_1, P2_2, P2_3, P2_4, P2_5, P2_6, P2_7⟩
  ihave P3 := ((split2 (partner c) rx2M (Memref.isWhole_whole _) fullShare g3).1.trans (Entails.of_eq (bigSep_fin2 _))) $$ P3
  icases P3 with ⟨P3_0, P3_1⟩
  ihave B4 := ((split8 (buddy c) rydM (Memref.isWhole_whole _) fullShare g4).1.trans (Entails.of_eq (bigSep_fin8 _))) $$ B4
  icases B4 with ⟨B4_0, B4_1, B4_2, B4_3, B4_4, B4_5, B4_6, B4_7⟩
  ihave B6 := ((split3 (buddy c) ryrM (Memref.isWhole_whole _) fullShare g6).1.trans (Entails.of_eq (bigSep_fin3 _))) $$ B6
  icases B6 with ⟨B6_0, B6_1, B6_2⟩
  ihave Z5 := ((split8 (zpair c) rzdM (Memref.isWhole_whole _) fullShare g5).1.trans (Entails.of_eq (bigSep_fin8 _))) $$ Z5
  icases Z5 with ⟨Z5_0, Z5_1, Z5_2, Z5_3, Z5_4, Z5_5, Z5_6, Z5_7⟩
  ihave Z7 := ((split3 (zpair c) rzrM (Memref.isWhole_whole _) fullShare g7).1.trans (Entails.of_eq (bigSep_fin3 _))) $$ Z7
  icases Z7 with ⟨Z7_0, Z7_1, Z7_2⟩
  -- the ten chunks for the partner
  x_iter 0
  x_iter 1
  x_iter 2
  x_iter 3
  x_iter 4
  x_iter 5
  x_iter 6
  x_iter 7
  xd_iter 0
  xd_iter 1
  -- the eight chunks from the partner: forwarded, and added to the own quadrant
  fwd_iter 0
  fwd_iter 1
  fwd_iter 2
  fwd_iter 3
  fwd_iter 4
  fwd_iter 5
  fwd_iter 6
  fwd_iter 7
  -- the chunks forwarded by the z-pair and by the buddy; six of them forwarded on for the diagonal quadrant
  z_iter 0
  b_iter 0
  z_iter 1
  b_iter 1
  z_iter 2
  b_iter 2
  z_iter 3
  b_iter 3
  z_iter 4
  b_iter 4
  z_iter 5
  b_iter 5
  z_iter 6
  b_iter 6
  z_iter 7
  b_iter 7
  -- the diagonal quadrant
  d_direct 0
  d_direct 1
  d_via_y 0
  d_via_y 1
  d_via_y 2
  d_via_z 0
  d_via_z 1
  d_via_z 2
  -- every copy's source has been read: the lent shares come back
  sent x 0
  sent x 1
  sent x 2
  sent x 3
  sent x 4
  sent x 5
  sent x 6
  sent x 7
  sent xd 0
  sent xd 1
  sent yd 0
  sent yd 1
  sent yd 2
  sent yd 3
  sent yd 4
  sent yd 5
  sent yd 6
  sent yd 7
  sent zd 0
  sent zd 1
  sent zd 2
  sent zd 3
  sent zd 4
  sent zd 5
  sent zd 6
  sent zd 7
  sent yr 0
  sent yr 1
  sent yr 2
  sent zr 0
  sent zr 1
  sent zr 2
  try dsimp only [Prog.bind]
  try sl_exec_parts
  try dsimp only [Prog.bind]
  try sl_exec_parts
  -- the body's end: the cells are closed and the scratch buffers whole again
  close_body
  sl_step
  iapply Hk
  isplitl [HPhi]; · iexact HPhi
  isplitl [HO]; · iexists _; iexact HO
  isplitl [Hx]; · iexact Hx
  -- the 32 stored chunks cover the result block
  ihave Ho := (Entails.of_eq (congrArg (pt c oM) (outW_eq m c fo))) $$ [Ho]
  · iexact Ho
  iexact Ho

/-- The library's body obligation on device `c`. -/
theorem body_obligation (c : Dev nD) : BodyObligation (dats (F := F) m ρ 0 c) (defs₀ (F := F)) 𝒱₀ () Set.univ :=
  body_obligation_of m ρ (sound_body m) c

end Cert.Kernel.RS

end
-- ==== Proof.K.Run.lean ====
import proofs.«901033_g7700000000001034_dist_rs_v7x_xyz2x2x4_x_m2048_n512_bf16_1_alg».proof.Proof.K.Proto
import proofs.«901033_g7700000000001034_dist_rs_v7x_xyz2x2x4_x_m2048_n512_bf16_1_alg».proof.Proof.K.Credit

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch's side conditions -/

theorem L_of_ne (g : GSem nD τ sig) (h : g.1.2 ≠ .tc) : L g = ∅ := if_neg h

theorem share_eq (c : Dev nD) (w : Fin cfg0.W) : (dats m ρ 0 c).share w = fullShare := by unfold Dat.share; split <;> rfl

/-- The pipeline's two staging semaphores sit at level 0, below everything a device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_of_launch (F := F) c) $$ Hcr
  imodintro
  unfold start
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch anyBuf
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratch anyBuf Pipeline.ownSems0
  iintro ⟨Hr, Hz⟩
  isplitr; · iempintro
  isplitl [Hz]; · iexact Hz
  iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- On the mesh of sixteen devices, for any float values, from any memory with zero counters: given what the launch
    element deals each device (`G`, `hfund`), the global step that makes each device's starting ghost state of it
    (`hglob`) and the body's proof on every device (`hbody`), every weakly fair execution of @main terminates, and in every
    final state each device's two arrays hold their final contents. -/
theorem run_main (G : Dev nD → sProp 𝕄)
    (hown : Pipeline.OwnSemFacts cfg0.spec osem)
    (hfund : BI.own (ER (F := F) (initOf allCells allToks)) ⊢ (|==> bigSep Finset.univ G : sProp 𝕄))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ (G' (F := F) m))
    (hbody : ∀ c, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ hown (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G) (G' := G' m) (u₀ := u₀)
    (hu₀ := by
      unfold u₀
      iintro Hu
      ihave H := (ownU_pair _ _) $$ Hu
      icases H with ⟨HP, HX⟩
      imod hfund $$ HX with HG
      imodintro
      isplitl [HP] <;> iassumption)
    (hglob := hglob)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-! ## What the run leaves in the result array -/

/-- The result array after the run, read through its one block: what the body left at the one point. -/
theorem finalA_out_read (c : Dev nD) :
    ((cfg0.win (1 : Fin 2)).blk t0_0).view.read (Elt F) (finalA m ρ c (1 : Fin 2)) = outAt m c := by
  unfold finalA
  rw [show cfg0.N = (t0_0 : Fin cfg0.N).val + 1 from rfl, (dats m ρ 0 c).arrAt_succ (1 : Fin 2) t0_0, if_pos (flush0_1 _)]
  exact View.read_write_univ _ _

/-- The block is the whole array: the result array after the run holds `outAt m c`. -/
theorem finalA_out (c : Dev nD) :
    (finalA m ρ c (1 : Fin 2) : Buf (Elt F) ((c : Thread nD τ).loc main_v1)) = outAt m c := by
  have hz : (fun a => (win0_1.index t0_0) a * main_v1.ty.shape.size a) = fun _ => 0 := funext fun a => by fin_cases a <;> decide
  have hr := Memref.read_access_unit_zero (Elt F) main_v1 hz (fun a => by fin_cases a <;> decide) (finalA m ρ c (1 : Fin 2))
  exact hr.symm.trans (finalA_out_read m ρ c)

/-! ## The posts the claim reads off the run -/

theorem value_post (G : Dev nD → sProp 𝕄)
    (hown : Pipeline.OwnSemFacts cfg0.spec osem)
    (hfund : BI.own (ER (F := F) (initOf allCells allToks)) ⊢ (|==> bigSep Finset.univ G : sProp 𝕄))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ (G' (F := F) m))
    (hbody : ∀ c, BodyObligation (dats (F := F) m ρ 0 c) (defs₀ (F := F)) 𝒱₀ () Set.univ) :
    θ_run defs (onTc (τ := τ) (main (F := F))) (s₀ m ρ) (fun r => ∀ c : Dev nD,
      r.2.mem ((c : Thread nD τ).loc main_v1) = (outAt m c : Buf (Elt F) ((c : Thread nD τ).loc main_v1))
        ∧ r.2.mem ((c : Thread nD τ).loc main_arg0) = m ((c : Thread nD τ).loc main_arg0)) :=
  (θ_run defs _ _).mono (fun _ h c => ⟨(h c (1 : Fin 2)).trans (finalA_out m ρ c), (h c (0 : Fin 2)).trans (finalA_x m ρ c)⟩)
    (run_main m ρ G hown hfund hglob hbody)

theorem frame_post (G : Dev nD → sProp 𝕄)
    (hown : Pipeline.OwnSemFacts cfg0.spec osem)
    (hfund : BI.own (ER (F := F) (initOf allCells allToks)) ⊢ (|==> bigSep Finset.univ G : sProp 𝕄))
    (hglob : (bigSep Finset.univ fun c => iprop(Pipeline.ownSems0 (Ix := Unit) (Name := ℕ) (U := UU) (Lvl := ℕ) (Val := Elt F) (τ := τ) osem c ∗ unscopedSems0 c ∗ G c) : sProp 𝕄)
      ⊢ |={Set.univ}=> bigSep Finset.univ (G' (F := F) m))
    (hbody : ∀ c, BodyObligation (dats (F := F) m ρ 0 c) (defs₀ (F := F)) 𝒱₀ () Set.univ) :
    θ_run defs (onTc (τ := τ) (main (F := F))) (s₀ m ρ) (fun r => ∀ c : Dev nD,
      r.2.mem ((c : Thread nD τ).loc main_arg0) = m ((c : Thread nD τ).loc main_arg0)) :=
  (θ_run defs _ _).mono (fun _ h c => (h c).2) (value_post m ρ G hown hfund hglob hbody)

/-- info: 'Cert.Kernel.RS.value_post' depends on axioms: [propext, Classical.choice, Quot.sound] -/
#guard_msgs in #print axioms value_post

end Cert.Kernel.RS

end
-- ==== Proof.K.Fund.lean ====
import proofs.«901033_g7700000000001034_dist_rs_v7x_xyz2x2x4_x_m2048_n512_bf16_1_alg».proof.Proof.K.Proto

set_option maxRecDepth 16384

noncomputable section

namespace Cert.Kernel.RS

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

/-! ### The cells and the tokens are numbered without repetition -/

theorem kcell_dev (cj : Dev nD × Fin 65) : (kcell cj).1.1 = cj.1 := by unfold kcell; split <;> rfl

theorem kcell_injective : Function.Injective (kcell : Dev nD × Fin 65 → GSem nD τ sig) := by
  rintro ⟨c, j⟩ ⟨c', j'⟩ h
  have h1 : c = c' := by
    have := congrArg (fun g : GSem nD τ sig => g.1.1) h
    simpa only [kcell_dev] using this
  subst h1
  have h2 : (kcell (c, j)).2 = (kcell (c, j')).2 := congrArg Prod.snd h
  unfold kcell at h2
  have : j = j' := by
    refine Fin.ext ?_
    by_cases hj : j.val = 0 <;> by_cases hj' : j'.val = 0
    · omega
    · simp only [hj, hj', if_true, if_false] at h2; cases h2
    · simp only [hj, hj', if_true, if_false] at h2; cases h2
    · simp only [hj, hj', if_true, if_false] at h2
      have h3 := SemLoc.dma.inj h2
      have h4 := congrArg Fin.val h3
      simp only at h4
      omega
  subst this; rfl

theorem ktok_dev (cj : Dev nD × Fin 67) : (ktok cj).1.1.1 = cj.1 := by unfold ktok; split <;> rfl

theorem ktok_injective : Function.Injective (ktok : Dev nD × Fin 67 → GSem nD τ sig × ℕ × Fin 3) := by
  rintro ⟨c, j⟩ ⟨c', j'⟩ h
  have h1 : c = c' := by
    have := congrArg (fun x : GSem nD τ sig × ℕ × Fin 3 => x.1.1.1) h
    simpa only [ktok_dev] using this
  subst h1
  have : j = j' := by
    refine Fin.ext ?_
    unfold ktok at h
    by_cases hj : j.val < 3 <;> by_cases hj' : j'.val < 3
    · simp only [hj, hj', dif_pos] at h
      have := congrArg (fun x : GSem nD τ sig × ℕ × Fin 3 => x.2.2.val) h
      simpa using this
    · simp only [hj, hj', dif_pos, dif_neg, not_false_eq_true] at h
      have := congrArg (fun x : GSem nD τ sig × ℕ × Fin 3 => x.1.2) h
      cases this
    · simp only [hj, hj', dif_pos, dif_neg, not_false_eq_true] at h
      have := congrArg (fun x : GSem nD τ sig × ℕ × Fin 3 => x.1.2) h
      cases this
    · simp only [hj, hj', dif_neg, not_false_eq_true] at h
      have h2 := congrArg (fun x : GSem nD τ sig × ℕ × Fin 3 => x.1.2) h
      have h3 := SemLoc.dma.inj h2
      have h4 := congrArg Fin.val h3
      simp only at h4
      omega
  subst this; rfl

/-! ### Regrouping a sum of assertions over consecutive numbers -/

omit [FloatOps F] in
/-- A bigSep over Fin n of a function of the number shifted by b is the bigSep over the interval [b, b + n). -/
theorem bigSep_fin_Ico (b n : ℕ) (Ψ : ℕ → sProp 𝕄) :
    (bigSep Finset.univ fun k : Fin n => Ψ (b + k.val)) = bigSep (Finset.Ico b (b + n)) Ψ := by
  have h : (Finset.univ : Finset (Fin n)).map ⟨fun k => b + k.val, fun x y hxy => Fin.ext (Nat.add_left_cancel hxy)⟩ = Finset.Ico b (b + n) := by
    ext x
    constructor
    · intro hx
      obtain ⟨k, -, rfl⟩ := Finset.mem_map.mp hx
      have hk := k.isLt
      exact Finset.mem_Ico.mpr ⟨Nat.le_add_right _ _, (show b + k.val < b + n from by omega)⟩
    · intro hx
      obtain ⟨h1, h2⟩ := Finset.mem_Ico.mp hx
      exact Finset.mem_map.mpr ⟨⟨x - b, by omega⟩, Finset.mem_univ _, (show b + (x - b) = x from by omega)⟩
  rw [← h, bigSep_map]
  rfl

omit [FloatOps F] in
/-- An interval splits at a point inside it. -/
theorem bigSep_Ico_split {a b c : ℕ} (hab : a ≤ b) (hbc : b ≤ c) (Ψ : ℕ → sProp 𝕄) :
    bigSep (Finset.Ico a c) Ψ = iprop(bigSep (Finset.Ico a b) Ψ ∗ bigSep (Finset.Ico b c) Ψ) := by
  rw [← Finset.Ico_union_Ico_eq_Ico hab hbc, bigSep_union (Finset.Ico_disjoint_Ico_consecutive a b c)]
  rfl

/-! ### What the launch element deals a device -/

/-- The duty tokens of device c's own cells: its barrier cell's three, and the one of each of its 64 DMA cells. -/
def toks (c : Dev nD) : sProp 𝕄 :=
  bigSep Finset.univ fun j : Fin 67 => dutyTok ER (ktok (c, j)).1 (ktok (c, j)).2.1 (ktok (c, j)).2.2

/-- What the launch element deals device c: of each of its own 65 cells the round state at counter zero, its position
    at round 0 and that round 0 is reached; and the duty tokens of those cells. -/
def G (c : Dev nD) : sProp 𝕄 :=
  iprop((bigSep Finset.univ fun j : Fin 65 => roundState ER (sched m) (kcell (c, j)) 0)
    ∗ (bigSep Finset.univ fun j : Fin 65 => iprop(atPos ER (kcell (c, j)) 0 ∅ 0 ∗ reached ER (kcell (c, j)) 0))
    ∗ toks c)

omit [FloatOps F] in
/-- A bigSep over all the mesh's cells, device by device and cell by cell. -/
theorem bigSep_allCells (Φ : GSem nD τ sig → sProp 𝕄) :
    bigSep allCells Φ = bigSep Finset.univ fun c : Dev nD => bigSep Finset.univ fun j : Fin 65 => Φ (kcell (c, j)) := by
  unfold allCells
  rw [show Finset.image kcell Finset.univ = Finset.univ.map ⟨kcell, kcell_injective⟩ from
      (Finset.map_eq_image ⟨kcell, kcell_injective⟩ Finset.univ).symm,
    bigSep_map, bigSep_univ_prod]
  rfl

omit [FloatOps F] in
/-- A bigSep over all the mesh's duty tokens, device by device and token by token. -/
theorem bigSep_allToks (Φ : GSem nD τ sig × ℕ × Fin 3 → sProp 𝕄) :
    bigSep allToks Φ = bigSep Finset.univ fun c : Dev nD => bigSep Finset.univ fun j : Fin 67 => Φ (ktok (c, j)) := by
  unfold allToks
  rw [show Finset.image ktok Finset.univ = Finset.univ.map ⟨ktok, ktok_injective⟩ from
      (Finset.map_eq_image ⟨ktok, ktok_injective⟩ Finset.univ).symm,
    bigSep_map, bigSep_univ_prod]
  rfl

theorem fund_all : BI.own (ER (F := F) (initOf allCells allToks)) ⊢ (|==> bigSep Finset.univ (G (F := F) m) : sProp 𝕄) := by
  iintro HX
  imod (Rounds.fund ER (sched m) allCells allToks) $$ HX with ⟨Hst, Hr, Hat, Htok⟩
  imodintro
  ihave Hst' := (Entails.of_eq (bigSep_allCells fun g => roundState ER (sched m) g 0)) $$ Hst
  ihave Hat' := (Entails.of_eq (bigSep_allCells fun g => atPos ER g 0 ∅ 0)) $$ Hat
  ihave Hr' := (Entails.of_eq (bigSep_allCells fun g => reached ER g 0)) $$ Hr
  ihave Htok' := (Entails.of_eq (bigSep_allToks fun x => dutyTok ER x.1 x.2.1 x.2.2)) $$ Htok
  unfold G toks; simp only [bigSep_sep']
  isplitl [Hst']; · iexact Hst'
  isplitl [Hat' Hr']
  · isplitl [Hat'] <;> iassumption
  iexact Htok'

/-! ### A device's cells and tokens, family by family

Cell number 0 of a device is its barrier cell and cell number j + 1 its DMA semaphore j + 2; the DMA semaphores lie family
after family (eight send, eight receive, two, two, then four families of eight and four of three), so a sum over a device's
65 cells is the barrier cell's term and the twelve families' sums, and likewise for its 67 duty tokens. -/

/-- DMA cell number s of device c (the number read modulo 66). -/
def dcellN (c : Dev nD) (s : ℕ) : GSem nD τ sig := dcell c ⟨s % 66, (show s % 66 < 66 from Nat.mod_lt _ (by decide))⟩

theorem dcell_dsem (c : Dev nD) (b n : ℕ) (h : b + n ≤ 66) (k : Fin n) : dcell c (dsem b n h k) = dcellN c (b + k.val) := by
  have hk := k.isLt
  unfold dcellN dsem
  exact congrArg (fun s : DmaSem sig => dcell c s) (Fin.ext (Nat.mod_eq_of_lt (show b + k.val < 66 from by omega)).symm)

theorem kcell_zero (c : Dev nD) : kcell (c, 0) = barCell c := rfl

theorem kcell_succ (c : Dev nD) (j : Fin 64) : kcell (c, j.succ) = dcellN c (2 + j.val) := by
  have hj := j.isLt
  unfold kcell dcellN
  rw [if_neg (show ¬ (j.succ).val = 0 from by rw [Fin.val_succ]; omega)]
  exact congrArg (fun s : DmaSem sig => dcell c s) (Fin.ext (show (j.succ).val + 1 = (2 + j.val) % 66 from by
    rw [Fin.val_succ, Nat.mod_eq_of_lt (by omega)]; omega))

theorem ktok_low (c : Dev nD) (j : Fin 3) : ktok (c, Fin.castAdd 64 j) = (barCell c, 0, j) := by
  have hj := j.isLt
  unfold ktok
  rw [dif_pos (show (Fin.castAdd 64 j).val < 3 from hj)]
  rfl

theorem ktok_high (c : Dev nD) (j : Fin 64) : ktok (c, Fin.natAdd 3 j) = (dcellN c (2 + j.val), 0, 0) := by
  have hj := j.isLt
  unfold ktok dcellN
  rw [dif_neg (show ¬ (Fin.natAdd 3 j).val < 3 from by rw [Fin.val_natAdd]; omega)]
  refine congrArg (fun s : DmaSem sig => ((dcell c s, 0, 0) : GSem nD τ sig × ℕ × Fin 3)) (Fin.ext ?_)
  show (Fin.natAdd 3 j).val - 1 = (2 + j.val) % 66
  rw [Fin.val_natAdd, Nat.mod_eq_of_lt (by omega)]; omega

omit [FloatOps F] in
/-- A bigSep over Fin (n + 1): the term at 0, and the rest. -/
theorem bigSep_fin_succ (n : ℕ) (Φ : Fin (n + 1) → sProp 𝕄) :
    bigSep Finset.univ Φ = iprop(Φ 0 ∗ bigSep Finset.univ fun j : Fin n => Φ j.succ) := by
  rw [Fin.univ_succ, Finset.cons_eq_insert, bigSep_insert (by simp), bigSep_map]
  rfl

omit [FloatOps F] in
/-- A bigSep over Fin (a + b): the first a terms, and the last b. -/
theorem bigSep_fin_plus (a b : ℕ) (Φ : Fin (a + b) → sProp 𝕄) :
    bigSep Finset.univ Φ = iprop((bigSep Finset.univ fun i : Fin a => Φ (Fin.castAdd b i)) ∗ bigSep Finset.univ fun i : Fin b => Φ (Fin.natAdd a i)) := by
  rw [bigSep_univ_equiv finSumFinEquiv Φ, bigSep_univ_sum]
  rfl

omit [FloatOps F] in
/-- The 64 DMA semaphores 2 … 65, family by family. -/
theorem dma_by_family (Ψ : ℕ → sProp 𝕄) :
    (bigSep Finset.univ fun j : Fin 64 => Ψ (2 + j.val)) = iprop(
      (bigSep Finset.univ fun k : Fin 8 => Ψ (2 + k.val))
      ∗ (bigSep Finset.univ fun k : Fin 8 => Ψ (10 + k.val))
      ∗ (bigSep Finset.univ fun k : Fin 2 => Ψ (18 + k.val))
      ∗ (bigSep Finset.univ fun k : Fin 2 => Ψ (20 + k.val))
      ∗ (bigSep Finset.univ fun k : Fin 8 => Ψ (22 + k.val))
      ∗ (bigSep Finset.univ fun k : Fin 8 => Ψ (30 + k.val))
      ∗ (bigSep Finset.univ fun k : Fin 8 => Ψ (38 + k.val))
      ∗ (bigSep Finset.univ fun k : Fin 8 => Ψ (46 + k.val))
      ∗ (bigSep Finset.univ fun k : Fin 3 => Ψ (54 + k.val))
      ∗ (bigSep Finset.univ fun k : Fin 3 => Ψ (57 + k.val))
      ∗ (bigSep Finset.univ fun k : Fin 3 => Ψ (60 + k.val))
      ∗ (bigSep Finset.univ fun k : Fin 3 => Ψ (63 + k.val))) := by
  rw [bigSep_fin_Ico 2 64 Ψ, bigSep_fin_Ico 2 8 Ψ, bigSep_fin_Ico 10 8 Ψ, bigSep_fin_Ico 18 2 Ψ, bigSep_fin_Ico 20 2 Ψ,
    bigSep_fin_Ico 22 8 Ψ, bigSep_fin_Ico 30 8 Ψ, bigSep_fin_Ico 38 8 Ψ, bigSep_fin_Ico 46 8 Ψ, bigSep_fin_Ico 54 3 Ψ,
    bigSep_fin_Ico 57 3 Ψ, bigSep_fin_Ico 60 3 Ψ, bigSep_fin_Ico 63 3 Ψ]
  simp only [Nat.reduceAdd]
  rw [bigSep_Ico_split (a := 2) (b := 10) (c := 66) (by decide) (by decide) Ψ,
    bigSep_Ico_split (a := 10) (b := 18) (c := 66) (by decide) (by decide) Ψ,
    bigSep_Ico_split (a := 18) (b := 20) (c := 66) (by decide) (by decide) Ψ,
    bigSep_Ico_split (a := 20) (b := 22) (c := 66) (by decide) (by decide) Ψ,
    bigSep_Ico_split (a := 22) (b := 30) (c := 66) (by decide) (by decide) Ψ,
    bigSep_Ico_split (a := 30) (b := 38) (c := 66) (by decide) (by decide) Ψ,
    bigSep_Ico_split (a := 38) (b := 46) (c := 66) (by decide) (by decide) Ψ,
    bigSep_Ico_split (a := 46) (b := 54) (c := 66) (by decide) (by decide) Ψ,
    bigSep_Ico_split (a := 54) (b := 57) (c := 66) (by decide) (by decide) Ψ,
    bigSep_Ico_split (a := 57) (b := 60) (c := 66) (by decide) (by decide) Ψ,
    bigSep_Ico_split (a := 60) (b := 63) (c := 66) (by decide) (by decide) Ψ]

omit [FloatOps F] in
/-- One family's sum, as a sum over the family's numbers. -/
theorem family_eq (c : Dev nD) (Φ : GSem nD τ sig → sProp 𝕄) (b n : ℕ) (h : b + n ≤ 66) :
    (bigSep Finset.univ fun k : Fin n => Φ (dcell c (dsem b n h k)))
      = bigSep Finset.univ fun k : Fin n => (fun s => Φ (dcellN c s)) (b + k.val) :=
  bigSep_congr fun k _ => by rw [dcell_dsem]

omit [FloatOps F] in
/-- A sum over a device's 65 cells: the barrier cell's term, and the twelve families' sums. -/
theorem cells_by_family (c : Dev nD) (Φ : GSem nD τ sig → sProp 𝕄) :
    (bigSep Finset.univ fun j : Fin 65 => Φ (kcell (c, j))) = iprop(Φ (barCell c)
      ∗ (bigSep Finset.univ fun k : Fin 8 => Φ (dcell c (sxS k)))
      ∗ (bigSep Finset.univ fun k : Fin 8 => Φ (dcell c (rxS k)))
      ∗ (bigSep Finset.univ fun k : Fin 2 => Φ (dcell c (sx2S k)))
      ∗ (bigSep Finset.univ fun k : Fin 2 => Φ (dcell c (rx2S k)))
      ∗ (bigSep Finset.univ fun k : Fin 8 => Φ (dcell c (sydS k)))
      ∗ (bigSep Finset.univ fun k : Fin 8 => Φ (dcell c (rydS k)))
      ∗ (bigSep Finset.univ fun k : Fin 8 => Φ (dcell c (szdS k)))
      ∗ (bigSep Finset.univ fun k : Fin 8 => Φ (dcell c (rzdS k)))
      ∗ (bigSep Finset.univ fun k : Fin 3 => Φ (dcell c (syrS k)))
      ∗ (bigSep Finset.univ fun k : Fin 3 => Φ (dcell c (ryrS k)))
      ∗ (bigSep Finset.univ fun k : Fin 3 => Φ (dcell c (szrS k)))
      ∗ (bigSep Finset.univ fun k : Fin 3 => Φ (dcell c (rzrS k)))) := by
  have e : (bigSep Finset.univ fun j : Fin 64 => Φ (kcell (c, j.succ)))
      = bigSep Finset.univ fun j : Fin 64 => (fun s => Φ (dcellN c s)) (2 + j.val) :=
    bigSep_congr fun j _ => by rw [kcell_succ]
  rw [bigSep_fin_succ 64 (fun j => Φ (kcell (c, j))), e, dma_by_family (fun s => Φ (dcellN c s)),
    family_eq c Φ 2 8, family_eq c Φ 10 8, family_eq c Φ 18 2, family_eq c Φ 20 2, family_eq c Φ 22 8, family_eq c Φ 30 8,
    family_eq c Φ 38 8, family_eq c Φ 46 8, family_eq c Φ 54 3, family_eq c Φ 57 3, family_eq c Φ 60 3, family_eq c Φ 63 3]
  rfl

omit [FloatOps F] in
theorem bigSep_fin3F (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A device's 67 duty tokens: its barrier cell's three, and the twelve families' sums. -/
theorem toks_by_family (c : Dev nD) :
    (toks c : sProp 𝕄) = iprop((dutyTok ER (barCell c) 0 0 ∗ dutyTok ER (barCell c) 0 1 ∗ dutyTok ER (barCell c) 0 2)
      ∗ (bigSep Finset.univ fun k : Fin 8 => dutyTok ER (dcell c (sxS k)) 0 0)
      ∗ (bigSep Finset.univ fun k : Fin 8 => dutyTok ER (dcell c (rxS k)) 0 0)
      ∗ (bigSep Finset.univ fun k : Fin 2 => dutyTok ER (dcell c (sx2S k)) 0 0)
      ∗ (bigSep Finset.univ fun k : Fin 2 => dutyTok ER (dcell c (rx2S k)) 0 0)
      ∗ (bigSep Finset.univ fun k : Fin 8 => dutyTok ER (dcell c (sydS k)) 0 0)
      ∗ (bigSep Finset.univ fun k : Fin 8 => dutyTok ER (dcell c (rydS k)) 0 0)
      ∗ (bigSep Finset.univ fun k : Fin 8 => dutyTok ER (dcell c (szdS k)) 0 0)
      ∗ (bigSep Finset.univ fun k : Fin 8 => dutyTok ER (dcell c (rzdS k)) 0 0)
      ∗ (bigSep Finset.univ fun k : Fin 3 => dutyTok ER (dcell c (syrS k)) 0 0)
      ∗ (bigSep Finset.univ fun k : Fin 3 => dutyTok ER (dcell c (ryrS k)) 0 0)
      ∗ (bigSep Finset.univ fun k : Fin 3 => dutyTok ER (dcell c (szrS k)) 0 0)
      ∗ (bigSep Finset.univ fun k : Fin 3 => dutyTok ER (dcell c (rzrS k)) 0 0)) := by
  have elo : (bigSep Finset.univ fun j : Fin 3 => (dutyTok ER (ktok (c, Fin.castAdd 64 j)).1 (ktok (c, Fin.castAdd 64 j)).2.1 (ktok (c, Fin.castAdd 64 j)).2.2 : sProp 𝕄))
      = bigSep Finset.univ fun j : Fin 3 => dutyTok ER (barCell c) 0 j :=
    bigSep_congr fun j _ => by rw [ktok_low]
  have ehi : (bigSep Finset.univ fun j : Fin 64 => (dutyTok ER (ktok (c, Fin.natAdd 3 j)).1 (ktok (c, Fin.natAdd 3 j)).2.1 (ktok (c, Fin.natAdd 3 j)).2.2 : sProp 𝕄))
      = bigSep Finset.univ fun j : Fin 64 => (fun s => (dutyTok ER (dcellN c s) 0 0 : sProp 𝕄)) (2 + j.val) :=
    bigSep_congr fun j _ => by rw [ktok_high]
  have hf (b n : ℕ) (h : b + n ≤ 66) := family_eq (F := F) c (fun g => dutyTok ER g 0 0) b n h
  unfold toks
  rw [bigSep_fin_plus 3 64 (fun j : Fin 67 => (dutyTok ER (ktok (c, j)).1 (ktok (c, j)).2.1 (ktok (c, j)).2.2 : sProp 𝕄)),
    elo, ehi, bigSep_fin3F, dma_by_family (fun s => (dutyTok ER (dcellN c s) 0 0 : sProp 𝕄)),
    hf 2 8, hf 10 8, hf 18 2, hf 20 2, hf 22 8, hf 30 8, hf 38 8, hf 46 8, hf 54 3, hf 57 3, hf 60 3, hf 63 3]

/-! ### The three neighbours of a device are involutions of the mesh -/

def partnerE : Dev nD ≃ Dev nD := ⟨partner, partner, partner_partner, partner_partner⟩
def buddyE : Dev nD ≃ Dev nD := ⟨buddy, buddy, buddy_buddy, buddy_buddy⟩
def zpairE : Dev nD ≃ Dev nD := ⟨zpair, zpair, zpair_zpair, zpair_zpair⟩

/-! ### The semaphores at zero, and every cell's invariant -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own 64 semaphores and the barrier's are the counters of the device's 65 cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 65 => semVal (kcell (c, j)) 0 : sProp 𝕄) := by
  have e : (bigSep Finset.univ fun j : Fin 64 => (semVal (kcell (c, j.succ)) 0 : sProp 𝕄))
      = Pipeline.ownSems0 (Ix := Unit) (Name := ℕ) (U := UU) (Lvl := ℕ) (Val := Elt F) (τ := τ) osem c := by
    unfold Pipeline.ownSems0
    refine bigSep_congr fun j _ => ?_
    rw [kcell_succ]
    unfold dcellN
    have hj := j.isLt
    exact congrArg (fun s : DmaSem sig => (semVal (dcell c s) 0 : sProp 𝕄)) (Fin.ext (show (2 + j.val) % 66 = j.val + 2 from by
      rw [Nat.mod_eq_of_lt (by omega)]; omega))
  rw [unscopedSems0_eq, bigSep_fin_succ 64 (fun j => (semVal (kcell (c, j)) 0 : sProp 𝕄)), e]
  iintro ⟨HO, HB⟩
  isplitl [HB]; · iexact HB
  iexact HO

/-- Every cell of device c gets its invariant, from its counter at zero and its round state at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 65 => iprop(∃ κ : ℕ, cellInv ER (sched m) κ (kcell (c, j))))
          ∗ (bigSep Finset.univ fun j : Fin 65 => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Fin 65 => semVal (kcell (c, j)) 0) ∗ bigSep Finset.univ fun j : Fin 65 => roundState ER (sched m) (kcell (c, j)) 0)
      ⊢ (|={Set.univ}=> bigSep Finset.univ fun j : Fin 65 => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens dealt to the devices that pay them -/

omit [FloatOps F] in
theorem bigSep_partner (Φ : Dev nD → sProp 𝕄) : bigSep Finset.univ Φ = bigSep Finset.univ fun c => Φ (partner c) :=
  bigSep_univ_equiv partnerE Φ
omit [FloatOps F] in
theorem bigSep_buddy (Φ : Dev nD → sProp 𝕄) : bigSep Finset.univ Φ = bigSep Finset.univ fun c => Φ (buddy c) :=
  bigSep_univ_equiv buddyE Φ
omit [FloatOps F] in
theorem bigSep_zpair (Φ : Dev nD → sProp 𝕄) : bigSep Finset.univ Φ = bigSep Finset.univ fun c => Φ (zpair c) :=
  bigSep_univ_equiv zpairE Φ

omit [FloatOps F] in
/-- The tokens dealt around the mesh: a barrier cell's three tokens to the device's partner, buddy and z-pair; a send
    cell's token stays with its device; the tokens of the partner's landings go to the partner, those of the y-hop
    landings to the buddy, those of the z-hop landings to the z-pair. -/
theorem toks_around : (bigSep Finset.univ fun c : Dev nD => (toks c : sProp 𝕄)) ⊢ bigSep Finset.univ fun c : Dev nD => payToks c := by
  unfold payToks
  rw [bigSep_congr (s := Finset.univ) (fun (c : Dev nD) _ => toks_by_family (F := F) c)]
  simp only [bigSep_sep']
  rw [bigSep_partner (fun c => (dutyTok ER (barCell c) 0 0 : sProp 𝕄)),
    bigSep_buddy (fun c => (dutyTok ER (barCell c) 0 1 : sProp 𝕄)),
    bigSep_zpair (fun c => (dutyTok ER (barCell c) 0 2 : sProp 𝕄)),
    bigSep_partner (fun c => (bigSep Finset.univ fun k : Fin 8 => dutyTok ER (dcell c (rxS k)) 0 0 : sProp 𝕄)),
    bigSep_partner (fun c => (bigSep Finset.univ fun k : Fin 2 => dutyTok ER (dcell c (rx2S k)) 0 0 : sProp 𝕄)),
    bigSep_buddy (fun c => (bigSep Finset.univ fun k : Fin 8 => dutyTok ER (dcell c (rydS k)) 0 0 : sProp 𝕄)),
    bigSep_zpair (fun c => (bigSep Finset.univ fun k : Fin 8 => dutyTok ER (dcell c (rzdS k)) 0 0 : sProp 𝕄)),
    bigSep_buddy (fun c => (bigSep Finset.univ fun k : Fin 3 => dutyTok ER (dcell c (ryrS k)) 0 0 : sProp 𝕄)),
    bigSep_zpair (fun c => (bigSep Finset.univ fun k : Fin 3 => dutyTok ER (dcell c (rzrS k)) 0 0 : sProp 𝕄))]
  iintro ⟨⟨H0, H1, H2⟩, Hsx, Hrx, Hsx2, Hrx2, Hsyd, Hryd, Hszd, Hrzd, Hsyr, Hryr, Hszr, Hrzr⟩
  isplitl [H0]; · iexact H0
  isplitl [H1]; · iexact H1
  isplitl [H2]; · iexact H2
  isplitl [Hsx Hrx]
  · isplitl [Hsx] <;> iassumption
  isplitl [Hsx2 Hrx2]
  · isplitl [Hsx2] <;> iassumption
  isplitl [Hsyd Hryd]
  · isplitl [Hsyd] <;> iassumption
  isplitl [Hszd Hrzd]
  · isplitl [Hszd] <;> iassumption
  isplitl [Hsyr Hryr]
  · isplitl [Hsyr] <;> iassumption
  isplitl [Hszr] <;> iassumption

/-! ### The global step -/

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- A device's start from the records, its positions and the tokens it pays. -/
theorem ghost_intro (K : GSem nD τ sig → ℕ) (c : Dev nD) : iprop(records m K ∗ positions c ∗ payToks c) ⊢ G' m c := by
  unfold G' ghost
  iintro ⟨#HR, Hp, Ht⟩
  iexists K
  isplitr; · iexact HR
  isplitl [Hp]; · iexact Hp
  iexact Ht

omit [FloatOps F] in
theorem positions_eq (c : Dev nD) : (bigSep Finset.univ fun j : Fin 65 => (atPos ER (kcell (c, j)) 0 ∅ 0 : sProp 𝕄)) = positions c := by
  unfold positions
  exact cells_by_family c (fun g => (atPos ER g 0 ∅ 0 : sProp 𝕄))

/-- The regrouping over any set S of cells: the names chosen for the invariants, the records made persistent, every
    device given its positions and the tokens it pays. -/
theorem regroup_core (S : Finset (GSem nD τ sig)) (Rec : (GSem nD τ sig → ℕ) → sProp 𝕄) [∀ K, BI.Persistent (Rec K)]
    (hRec : ∀ K, iprop((bigSep S fun g => cellInv ER (sched m) (K g) g) ∗ bigSep S fun g => reached ER g 0) ⊢ Rec K)
    (hG : ∀ K c, iprop(Rec K ∗ positions c ∗ payToks c) ⊢ G' m c) :
    iprop((bigSep S fun g => iprop(∃ κ : ℕ, cellInv ER (sched m) κ g))
        ∗ (bigSep Finset.univ positions ∗ bigSep S fun g => reached ER g 0) ∗ bigSep Finset.univ toks)
      ⊢ bigSep Finset.univ (G' m) := by
  iintro ⟨HI, ⟨Hat, #HR⟩, Htok⟩
  ihave HK := (BI.bigSep_exists_pi S (fun (g : GSem nD τ sig) (κ : ℕ) => (cellInv ER (sched m) κ g : sProp 𝕄))) $$ HI
  icases HK with ⟨%K, #HI⟩
  ihave Htk := (toks_around (F := F)) $$ Htok
  iapply (bigSep_with_persistent (R := Rec K) fun c _ => hG K c)
  isplitr
  · iapply (hRec K)
    isplitl; · iexact HI
    iexact HR
  · rw [bigSep_sep']
    isplitl [Hat]; · iexact Hat
    iexact Htk

theorem regroup_ghost :
    (bigSep Finset.univ fun c : Dev nD => iprop((bigSep Finset.univ fun j : Fin 65 => iprop(∃ κ : ℕ, cellInv ER (sched m) κ (kcell (c, j))))
          ∗ (bigSep Finset.univ fun j : Fin 65 => iprop(atPos ER (kcell (c, j)) 0 ∅ 0 ∗ reached ER (kcell (c, j)) 0)) ∗ toks c) : sProp 𝕄)
      ⊢ bigSep Finset.univ (G' m) := by
  rw [bigSep_sep', bigSep_sep',
    ← bigSep_allCells (fun g => iprop(∃ κ : ℕ, cellInv ER (sched m) κ g)),
    bigSep_congr (s := Finset.univ) (fun (c : Dev nD) _ => bigSep_sep' Finset.univ (fun j : Fin 65 => (atPos ER (kcell (c, j)) 0 ∅ 0 : sProp 𝕄)) (fun j => reached ER (kcell (c, j)) 0)),
    bigSep_sep', ← bigSep_allCells (fun g => (reached ER g 0 : sProp 𝕄)),
    bigSep_congr (s := Finset.univ) (fun (c : Dev nD) _ => positions_eq (F := F) c)]
  exact regroup_core m allCells (records m) (fun K => by unfold records; exact .refl) (ghost_intro m)

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' (F := F) m) :=
  ((bigSep_mono fun c _ => core_alloc m c).trans (bigSep_fupd _ _)).trans (BI.fupd_mono (regroup_ghost m))

end Cert.Kernel.RS

end
-- ==== Proof.lean ====
/- The certificate of the sixteen-device reduce-scatter: every device ends with its own block plus its partner's on its
   512 columns, the partner's block having reached it chunk by chunk — directly, through the z-pair, through the buddy, or
   through both — under a three-way entry handshake on the barrier semaphore. The three frames, the (empty) idealization
   ledger and the value claim against the one-device sum over axis 0. -/
import proofs.«901033_g7700000000001034_dist_rs_v7x_xyz2x2x4_x_m2048_n512_bf16_1_alg».proof.Defs
import proofs.«901033_g7700000000001034_dist_rs_v7x_xyz2x2x4_x_m2048_n512_bf16_1_alg».proof.Proof.Gen.Kernel
import proofs.«901033_g7700000000001034_dist_rs_v7x_xyz2x2x4_x_m2048_n512_bf16_1_alg».proof.Proof.Gen.Kernel.Skeleton
import proofs.«901033_g7700000000001034_dist_rs_v7x_xyz2x2x4_x_m2048_n512_bf16_1_alg».proof.Proof.Gen.Kernel.Launch
import proofs.«901033_g7700000000001034_dist_rs_v7x_xyz2x2x4_x_m2048_n512_bf16_1_alg».proof.Proof.Gen.Kernel.Points
import proofs.«901033_g7700000000001034_dist_rs_v7x_xyz2x2x4_x_m2048_n512_bf16_1_alg».proof.Proof.Gen.Kernel.Frame
import proofs.«901033_g7700000000001034_dist_rs_v7x_xyz2x2x4_x_m2048_n512_bf16_1_alg».proof.Proof.Gen.KernelIdeal
import proofs.«901033_g7700000000001034_dist_rs_v7x_xyz2x2x4_x_m2048_n512_bf16_1_alg».proof.Proof.Gen.KernelIdeal.Skeleton
import proofs.«901033_g7700000000001034_dist_rs_v7x_xyz2x2x4_x_m2048_n512_bf16_1_alg».proof.Proof.Gen.KernelIdeal.Launch
import proofs.«901033_g7700000000001034_dist_rs_v7x_xyz2x2x4_x_m2048_n512_bf16_1_alg».proof.Proof.Gen.KernelIdeal.Points
import proofs.«901033_g7700000000001034_dist_rs_v7x_xyz2x2x4_x_m2048_n512_bf16_1_alg».proof.Proof.Gen.KernelIdeal.Frame
import proofs.«901033_g7700000000001034_dist_rs_v7x_xyz2x2x4_x_m2048_n512_bf16_1_alg».proof.Proof.Gen.ReferenceIdeal
import proofs.«901033_g7700000000001034_dist_rs_v7x_xyz2x2x4_x_m2048_n512_bf16_1_alg».proof.Proof.Gen.Pre_finite_inputs_Kernel
import proofs.«901033_g7700000000001034_dist_rs_v7x_xyz2x2x4_x_m2048_n512_bf16_1_alg».proof.Proof.Gen.Pre_finite_inputs_ReferenceIdeal
import proofs.«901033_g7700000000001034_dist_rs_v7x_xyz2x2x4_x_m2048_n512_bf16_1_alg».proof.Proof.Claim
import proofs.«901033_g7700000000001034_dist_rs_v7x_xyz2x2x4_x_m2048_n512_bf16_1_alg».proof.Proof.Body
import proofs.«901033_g7700000000001034_dist_rs_v7x_xyz2x2x4_x_m2048_n512_bf16_1_alg».proof.Proof.Value
import proofs.«901033_g7700000000001034_dist_rs_v7x_xyz2x2x4_x_m2048_n512_bf16_1_alg».proof.Proof.K.Body
import proofs.«901033_g7700000000001034_dist_rs_v7x_xyz2x2x4_x_m2048_n512_bf16_1_alg».proof.Proof.K.Run
import proofs.«901033_g7700000000001034_dist_rs_v7x_xyz2x2x4_x_m2048_n512_bf16_1_alg».proof.Proof.K.Fund
import Idealize.ShloMosaic.Adequacy
import Idealize.ShloMosaic.Init

noncomputable section

namespace Cert.Proof

open Idealize.ShloMosaic Idealize.SL.Sem

theorem claim : Cert.Claim :=
  Cert.ClaimParts.claim_of
    (fun m g _ => Cert.Kernel.RS.frame_post (F := Bits) m g (Cert.Kernel.RS.G (F := Bits) m) Cert.Kernel.RS.ownSemFacts
      (Cert.Kernel.RS.fund_all (F := Bits) m) (Cert.Kernel.RS.glob (F := Bits) m) (fun c => Cert.Kernel.RS.body_obligation (F := Bits) m g c))
    (fun m ρ c => Cert.KernelIdeal.RS.body_obligation (F := Ideal) m ρ c)
    (fun m m' hagree c => Cert.KernelIdeal.RS.outAt_eq_block m m' hagree c)

end Cert.Proof

end
